-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x200 : Shape := ⟨2, ![262144, 200]⟩
abbrev S2097152x1 : Shape := ⟨2, ![2097152, 1]⟩
abbrev S200x64 : Shape := ⟨2, ![200, 64]⟩
abbrev S64 : Shape := ⟨1, ![64]⟩
abbrev S2x64 : Shape := ⟨2, ![2, 64]⟩
abbrev S2x64x64 : Shape := ⟨3, ![2, 64, 64]⟩
abbrev S64x16 : Shape := ⟨2, ![64, 16]⟩
abbrev S16 : Shape := ⟨1, ![16]⟩
abbrev S2097152 : Shape := ⟨1, ![2097152]⟩
abbrev S_ : Shape := ⟨0, ![]⟩

class Facts : Prop where
  bcast_S_S262144x200 : S_.BroadcastsInDim S262144x200 (![] : Fin 0 → Fin S262144x200.rank)
  reducesTo_S262144x200_S_d0_1 : S262144x200.ReducesTo [0, 1] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg14 : FVec F S2x64 .f32) (main_arg15 : FVec F S64x16 .f32) (main_arg16 : FVec F S16 .f32) (main_v63 : IVec S_ 1) (main_v67 : IVec S_ 1) : IVec S_ 1 :=
  let main_v68 : IVec S_ 1 := andi main_v63 main_v67
  let main_v69 : FVec F S2x64 .f32 := Host.absf main_arg14
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S64x16 .f32 := Host.absf main_arg15
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg11 : FVec F S2x64x64 .f32) (main_arg12 : FVec F S2x64 .f32) (main_arg13 : FVec F S2x64 .f32) (main_arg14 : FVec F S2x64 .f32) (main_arg15 : FVec F S64x16 .f32) (main_arg16 : FVec F S16 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64x64 .f32 := Host.absf main_arg11
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64 .f32 := Host.absf main_arg12
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64 .f32 := Host.absf main_arg13
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg14 main_arg15 main_arg16 main_v63 main_v67

def fn_part2 {F : FTy → Type} [FloatOps F] (main_arg7 : FVec F S2x64 .f32) (main_arg8 : FVec F S2x64 .f32) (main_arg9 : FVec F S2x64x64 .f32) (main_arg10 : FVec F S2x64 .f32) (main_arg11 : FVec F S2x64x64 .f32) (main_arg12 : FVec F S2x64 .f32) (main_arg13 : FVec F S2x64 .f32) (main_arg14 : FVec F S2x64 .f32) (main_arg15 : FVec F S64x16 .f32) (main_arg16 : FVec F S16 .f32) (main_v33 : IVec S_ 1) : IVec S_ 1 :=
  let main_v34 : FVec F S2x64 .f32 := Host.absf main_arg7
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x64 .f32 := Host.absf main_arg9
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64 .f32) (main_arg6 : FVec F S64 .f32) (main_arg7 : FVec F S2x64 .f32) (main_arg8 : FVec F S2x64 .f32) (main_arg9 : FVec F S2x64x64 .f32) (main_arg10 : FVec F S2x64 .f32) (main_arg11 : FVec F S2x64x64 .f32) (main_arg12 : FVec F S2x64 .f32) (main_arg13 : FVec F S2x64 .f32) (main_arg14 : FVec F S2x64 .f32) (main_arg15 : FVec F S64x16 .f32) (main_arg16 : FVec F S16 .f32) (main_v13 : IVec S_ 1) (main_v16 : IVec S200x64 1) : IVec S_ 1 :=
  let main_c_5 : IVec S_ 1 := constantI S_ 1 1#1
  let main_v17 : IVec S_ 1 := (fun x v => Host.reduce IntOp.andi x v reducesTo_S200x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S262144x200 .f32) (main_arg1 : FVec F S2097152x1 .f32) (main_arg2 : FVec F S2097152x1 .f32) (main_arg3 : FVec F S200x64 .f32) (main_arg4 : FVec F S64 .f32) (main_arg5 : FVec F S64 .f32) (main_arg6 : FVec F S64 .f32) (main_arg7 : FVec F S2x64 .f32) (main_arg8 : FVec F S2x64 .f32) (main_arg9 : FVec F S2x64x64 .f32) (main_arg10 : FVec F S2x64 .f32) (main_arg11 : FVec F S2x64x64 .f32) (main_arg12 : FVec F S2x64 .f32) (main_arg13 : FVec F S2x64 .f32) (main_arg14 : FVec F S2x64 .f32) (main_arg15 : FVec F S64x16 .f32) (main_arg16 : FVec F S16 .f32) (main_arg17 : IVec S2097152 32) (main_arg18 : IVec S2097152 32) (main_arg19 : IVec S2097152 32) (main_arg20 : IVec S2097152 32) : IVec S_ 1 :=
  let main_v0 : FVec F S262144x200 .f32 := Host.absf main_arg0
  let main_cst : FVec F S_ .f32 := constant S_ .f32 0x7F800000#32
  let main_v1 : FVec F S262144x200 .f32 := broadcastInDim S262144x200 ![] bcast_S_S262144x200 main_cst
  let main_v2 : IVec S262144x200 1 := cmpf .olt main_v0 main_v1
  let main_c : IVec S_ 1 := constantI S_ 1 1#1
  let main_v3 : IVec S_ 1 := (fun x v => Host.reduce IntOp.andi x v reducesTo_S262144x200_S_d0_1 h_S_) main_v2 main_c
  let main_v4 : FVec F S2097152x1 .f32 := Host.absf main_arg1
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S2097152x1 .f32 := Host.absf main_arg2
  let main_cst_2 : FVec F S_ .f32 := constant S_ .f32 0x7F800000#32
  let main_v10 : FVec F S2097152x1 .f32 := broadcastInDim S2097152x1 ![] bcast_S_S2097152x1 main_cst_2
  let main_v11 : IVec S2097152x1 1 := cmpf .olt main_v9 main_v10
  let main_c_3 : IVec S_ 1 := constantI S_ 1 1#1
  let main_v12 : IVec S_ 1 := (fun x v => Host.reduce IntOp.andi x v reducesTo_S2097152x1_S_d0_1 h_S_) main_v11 main_c_3
  let main_v13 : IVec S_ 1 := andi main_v8 main_v12
  let main_v14 : FVec F S200x64 .f32 := Host.absf main_arg3
  let main_cst_4 : FVec F S_ .f32 := constant S_ .f32 0x7F800000#32
  let main_v15 : FVec F S200x64 .f32 := broadcastInDim S200x64 ![] bcast_S_S200x64 main_cst_4
  let main_v16 : IVec S200x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S262144x200 : Shape := ⟨2, ![262144, 200]⟩
abbrev S2097152x1 : Shape := ⟨2, ![2097152, 1]⟩
abbrev S200x64 : Shape := ⟨2, ![200, 64]⟩
abbrev S64 : Shape := ⟨1, ![64]⟩
abbrev S2x64 : Shape := ⟨2, ![2, 64]⟩
abbrev S2x64x64 : Shape := ⟨3, ![2, 64, 64]⟩
abbrev S64x16 : Shape := ⟨2, ![64, 16]⟩
abbrev S16 : Shape := ⟨1, ![16]⟩
abbrev S2097152 : Shape := ⟨1, ![2097152]⟩
abbrev S1x64 : Shape := ⟨2, ![1, 64]⟩
abbrev S262144x64 : Shape := ⟨2, ![262144, 64]⟩
abbrev S4096x200 : Shape := ⟨2, ![4096, 200]⟩
abbrev S4096x64 : Shape := ⟨2, ![4096, 64]⟩
abbrev S_ : Shape := ⟨0, ![]⟩
abbrev S262144 : Shape := ⟨1, ![262144]⟩
abbrev S262144x1 : Shape := ⟨2, ![262144, 1]⟩
abbrev S1x64x64 : Shape := ⟨3, ![1, 64, 64]⟩
abbrev S64x64 : Shape := ⟨2, ![64, 64]⟩
abbrev S2097152x64 : Shape := ⟨2, ![2097152, 64]⟩
abbrev S1x2097152 : Shape := ⟨2, ![1, 2097152]⟩
abbrev S1x4096 : Shape := ⟨2, ![1, 4096]⟩
abbrev S2048x64 : Shape := ⟨2, ![2048, 64]⟩
abbrev S2048x1 : Shape := ⟨2, ![2048, 1]⟩
abbrev S2048x4096 : Shape := ⟨2, ![2048, 4096]⟩
abbrev S1x16 : Shape := ⟨2, ![1, 16]⟩
abbrev S262144x16 : Shape := ⟨2, ![262144, 16]⟩
abbrev S4096x16 : Shape := ⟨2, ![4096, 16]⟩

abbrev nBuf : Space → Nat
  | .hbm => 375
  | .vmem => 64
  | .smem => 0
  | _ => 0

abbrev hbmTy0_0 (i : Nat) : BufTy := match i % 128 with
  | 0 => ⟨S262144x200, .f32⟩
  | 1 => ⟨S2097152x1, .f32⟩
  | 2 => ⟨S2097152x1, .f32⟩
  | 3 => ⟨S200x64, .f32⟩
  | 4 => ⟨S64, .f32⟩
  | 5 => ⟨S64, .f32⟩
  | 6 => ⟨S64, .f32⟩
  | 7 => ⟨S2x64, .f32⟩
  | 8 => ⟨S2x64, .f32⟩
  | 9 => ⟨S2x64x64, .f32⟩
  | 10 => ⟨S2x64, .f32⟩
  | 11 => ⟨S2x64x64, .f32⟩
  | 12 => ⟨S2x64, .f32⟩
  | 13 => ⟨S2x64, .f32⟩
  | 14 => ⟨S2x64, .f32⟩
  | 15 => ⟨S64x16, .f32⟩
  | 16 => ⟨S16, .f32⟩
  | 17 => ⟨S2097152, .i32⟩
  | 18 => ⟨S2097152, .i32⟩
  | 19 => ⟨S2097152, .i32⟩
  | 20 => ⟨S2097152, .i32⟩
  | 21 => ⟨S1x64, .f32⟩
  | 22 => ⟨S262144x64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S262144x64, .f32⟩
  | 36 => ⟨S262144x64, .f32⟩
  | 37 => ⟨S262144x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S262144x64, .f32⟩
  | 53 => ⟨S262144x64, .f32⟩
  | 54 => ⟨S_, .f32⟩
  | 55 => ⟨S64, .f32⟩
  | 56 => ⟨S64, .f32⟩
  | 57 => ⟨S64, .f32⟩
  | 58 => ⟨S1x64, .f32⟩
  | 59 => ⟨S262144x64, .f32⟩
  | 60 => ⟨S262144x64, .f32⟩
  | 61 => ⟨S1x64, .f32⟩
  | 62 => ⟨S262144x64, .f32⟩
  | 63 => ⟨S262144x64, .f32⟩
  | 64 => ⟨S1x64, .f32⟩
  | 65 => ⟨S262144x64, .f32⟩
  | 66 => ⟨S262144x64, .f32⟩
  | 67 => ⟨S1x64, .f32⟩
  | 68 => ⟨S64, .f32⟩
  | 69 => ⟨S1x64, .f32⟩
  | 70 => ⟨S64, .f32⟩
  | 71 => ⟨S_, .f32⟩
  | 72 => ⟨S262144, .f32⟩
  | 73 => ⟨S262144x1, .f32⟩
  | 74 => ⟨S_, .f32⟩
  | 75 => ⟨S262144x1, .f32⟩
  | 76 => ⟨S262144x1, .f32⟩
  | 77 => ⟨S_, .i32⟩
  | 78 => ⟨S_, .f32⟩
  | 79 => ⟨S262144, .f32⟩
  | 80 => ⟨S262144x1, .f32⟩
  | 81 => ⟨S_, .f32⟩
  | 82 => ⟨S262144x1, .f32⟩
  | 83 => ⟨S262144x1, .f32⟩
  | 84 => ⟨S262144x64, .f32⟩
  | 85 => ⟨S262144x64, .f32⟩
  | 86 => ⟨S262144x64, .f32⟩
  | 87 => ⟨S_, .f32⟩
  | 88 => ⟨S_, .f32⟩
  | 89 => ⟨S_, .f32⟩
  | 90 => ⟨S_, .f32⟩
  | 91 => ⟨S262144, .f32⟩
  | 92 => ⟨S262144x1, .f32⟩
  | 93 => ⟨S262144x1, .f32⟩
  | 94 => ⟨S262144x1, .f32⟩
  | 95 => ⟨S_, .f32⟩
  | 96 => ⟨S_, .i1⟩
  | 97 => ⟨S_, .f32⟩
  | 98 => ⟨S_, .f32⟩
  | 99 => ⟨S262144x1, .f32⟩
  | 100 => ⟨S262144x1, .f32⟩
  | 101 => ⟨S262144x64, .f32⟩
  | 102 => ⟨S262144x64, .f32⟩
  | 103 => ⟨S_, .f32⟩
  | 104 => ⟨S262144x1, .f32⟩
  | 105 => ⟨S262144x1, .f32⟩
  | 106 => ⟨S262144x1, .f32⟩
  | 107 => ⟨S262144x64, .f32⟩
  | 108 => ⟨S262144x64, .f32⟩
  | 109 => ⟨S1x64, .f32⟩
  | 110 => ⟨S262144x64, .f32⟩
  | 111 => ⟨S262144x64, .f32⟩
  | 112 => ⟨S1x64, .f32⟩
  | 113 => ⟨S262144x64, .f32⟩
  | 114 => ⟨S262144x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S262144x64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S262144x64, .f32⟩
  | 127 => ⟨S_, .i32⟩
  | _ => ⟨S262144x200, .f32⟩

abbrev hbmTy0_1 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S2097152x1, .i32⟩
  | 7 => ⟨S2097152x64, .f32⟩
  | 8 => ⟨S2097152x64, .f32⟩
  | 9 => ⟨S2097152x64, .f32⟩
  | 10 => ⟨S2097152x64, .bf16⟩
  | 11 => ⟨S_, .i32⟩
  | 12 => ⟨S2097152, .i32⟩
  | 13 => ⟨S2097152, .i1⟩
  | 14 => ⟨S_, .i32⟩
  | 15 => ⟨S2097152, .i32⟩
  | 16 => ⟨S2097152, .i32⟩
  | 17 => ⟨S2097152, .i32⟩
  | 18 => ⟨S2097152x1, .i32⟩
  | 19 => ⟨S2097152x64, .f32⟩
  | 20 => ⟨S2097152x64, .f32⟩
  | 21 => ⟨S2097152x64, .f32⟩
  | 22 => ⟨S2097152x64, .bf16⟩
  | 23 => ⟨S1x2097152, .i32⟩
  | 24 => ⟨S262144x64, .f32⟩
  | 25 => ⟨S1x2097152, .i32⟩
  | 26 => ⟨S262144x64, .f32⟩
  | 27 => ⟨S262144x64, .f32⟩
  | 28 => ⟨S262144x64, .f32⟩
  | 29 => ⟨S1x64, .f32⟩
  | 30 => ⟨S64, .f32⟩
  | 31 => ⟨S1x64, .f32⟩
  | 32 => ⟨S64, .f32⟩
  | 33 => ⟨S_, .f32⟩
  | 34 => ⟨S64, .f32⟩
  | 35 => ⟨S_, .f32⟩
  | 36 => ⟨S64, .f32⟩
  | 37 => ⟨S64, .f32⟩
  | 38 => ⟨S_, .i32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S262144x64, .f32⟩
  | 46 => ⟨S262144x64, .f32⟩
  | 47 => ⟨S262144x64, .f32⟩
  | 48 => ⟨S_, .f32⟩
  | 49 => ⟨S_, .f32⟩
  | 50 => ⟨S_, .f32⟩
  | 51 => ⟨S_, .f32⟩
  | 52 => ⟨S64, .f32⟩
  | 53 => ⟨S64, .f32⟩
  | 54 => ⟨S64, .f32⟩
  | 55 => ⟨S_, .f32⟩
  | 56 => ⟨S_, .i1⟩
  | 57 => ⟨S_, .f32⟩
  | 58 => ⟨S_, .f32⟩
  | 59 => ⟨S64, .f32⟩
  | 60 => ⟨S64, .f32⟩
  | 61 => ⟨S1x64, .f32⟩
  | 62 => ⟨S262144x64, .f32⟩
  | 63 => ⟨S262144x64, .f32⟩
  | 64 => ⟨S_, .f32⟩
  | 65 => ⟨S64, .f32⟩
  | 66 => ⟨S64, .f32⟩
  | 67 => ⟨S64, .f32⟩
  | 68 => ⟨S1x64, .f32⟩
  | 69 => ⟨S262144x64, .f32⟩
  | 70 => ⟨S262144x64, .f32⟩
  | 71 => ⟨S1x64, .f32⟩
  | 72 => ⟨S262144x64, .f32⟩
  | 73 => ⟨S262144x64, .f32⟩
  | 74 => ⟨S1x64, .f32⟩
  | 75 => ⟨S262144x64, .f32⟩
  | 76 => ⟨S262144x64, .f32⟩
  | 77 => ⟨S_, .f32⟩
  | 78 => ⟨S_, .f32⟩
  | 79 => ⟨S262144x64, .f32⟩
  | 80 => ⟨S262144x64, .i1⟩
  | 81 => ⟨S_, .f32⟩
  | 82 => ⟨S262144x64, .f32⟩
  | 83 => ⟨S262144x64, .f32⟩
  | 84 => ⟨S262144x64, .f32⟩
  | 85 => ⟨S1x64, .f32⟩
  | 86 => ⟨S64, .f32⟩
  | 87 => ⟨S1x64, .f32⟩
  | 88 => ⟨S64, .f32⟩
  | 89 => ⟨S_, .f32⟩
  | 90 => ⟨S262144, .f32⟩
  | 91 => ⟨S262144x1, .f32⟩
  | 92 => ⟨S_, .f32⟩
  | 93 => ⟨S262144x1, .f32⟩
  | 94 => ⟨S262144x1, .f32⟩
  | 95 => ⟨S_, .i32⟩
  | 96 => ⟨S_, .f32⟩
  | 97 => ⟨S262144, .f32⟩
  | 98 => ⟨S262144x1, .f32⟩
  | 99 => ⟨S_, .f32⟩
  | 100 => ⟨S262144x1, .f32⟩
  | 101 => ⟨S262144x1, .f32⟩
  | 102 => ⟨S262144x64, .f32⟩
  | 103 => ⟨S262144x64, .f32⟩
  | 104 => ⟨S262144x64, .f32⟩
  | 105 => ⟨S_, .f32⟩
  | 106 => ⟨S_, .f32⟩
  | 107 => ⟨S_, .f32⟩
  | 108 => ⟨S_, .f32⟩
  | 109 => ⟨S262144, .f32⟩
  | 110 => ⟨S262144x1, .f32⟩
  | 111 => ⟨S262144x1, .f32⟩
  | 112 => ⟨S262144x1, .f32⟩
  | 113 => ⟨S_, .f32⟩
  | 114 => ⟨S_, .i1⟩
  | 115 => ⟨S_, .f32⟩
  | 116 => ⟨S_, .f32⟩
  | 117 => ⟨S262144x1, .f32⟩
  | 118 => ⟨S262144x1, .f32⟩
  | 119 => ⟨S262144x64, .f32⟩
  | 120 => ⟨S262144x64, .f32⟩
  | 121 => ⟨S_, .f32⟩
  | 122 => ⟨S262144x1, .f32⟩
  | 123 => ⟨S262144x1, .f32⟩
  | 124 => ⟨S262144x1, .f32⟩
  | 125 => ⟨S262144x64, .f32⟩
  | 126 => ⟨S262144x64, .f32⟩
  | 127 => ⟨S1x64, .f32⟩
  | _ => ⟨S262144x200, .f32⟩

abbrev hbmTy0_2 (i : Nat) : BufTy := match i % 128 with
  | 0 => ⟨S262144x64, .f32⟩
  | 1 => ⟨S262144x64, .f32⟩
  | 2 => ⟨S1x64, .f32⟩
  | 3 => ⟨S262144x64, .f32⟩
  | 4 => ⟨S262144x64, .f32⟩
  | 5 => ⟨S1x64x64, .f32⟩
  | 6 => ⟨S64x64, .f32⟩
  | 7 => ⟨S1x64, .f32⟩
  | 8 => ⟨S64, .f32⟩
  | 9 => ⟨S1x64, .f32⟩
  | 10 => ⟨S262144x64, .f32⟩
  | 11 => ⟨S1x64x64, .f32⟩
  | 12 => ⟨S64x64, .f32⟩
  | 13 => ⟨S1x64, .f32⟩
  | 14 => ⟨S64, .f32⟩
  | 15 => ⟨S1x64, .f32⟩
  | 16 => ⟨S262144x64, .f32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S2097152x1, .i32⟩
  | 25 => ⟨S2097152x64, .f32⟩
  | 26 => ⟨S2097152x64, .f32⟩
  | 27 => ⟨S2097152x64, .f32⟩
  | 28 => ⟨S2097152x64, .bf16⟩
  | 29 => ⟨S_, .i32⟩
  | 30 => ⟨S2097152, .i32⟩
  | 31 => ⟨S2097152, .i1⟩
  | 32 => ⟨S_, .i32⟩
  | 33 => ⟨S2097152, .i32⟩
  | 34 => ⟨S2097152, .i32⟩
  | 35 => ⟨S2097152, .i32⟩
  | 36 => ⟨S2097152x1, .i32⟩
  | 37 => ⟨S2097152x64, .f32⟩
  | 38 => ⟨S2097152x64, .f32⟩
  | 39 => ⟨S2097152x64, .f32⟩
  | 40 => ⟨S2097152x64, .bf16⟩
  | 41 => ⟨S1x2097152, .i32⟩
  | 42 => ⟨S262144x64, .f32⟩
  | 43 => ⟨S1x2097152, .i32⟩
  | 44 => ⟨S262144x64, .f32⟩
  | 45 => ⟨S262144x64, .f32⟩
  | 46 => ⟨S262144x64, .f32⟩
  | 47 => ⟨S1x64, .f32⟩
  | 48 => ⟨S64, .f32⟩
  | 49 => ⟨S1x64, .f32⟩
  | 50 => ⟨S64, .f32⟩
  | 51 => ⟨S_, .f32⟩
  | 52 => ⟨S64, .f32⟩
  | 53 => ⟨S_, .f32⟩
  | 54 => ⟨S64, .f32⟩
  | 55 => ⟨S64, .f32⟩
  | 56 => ⟨S_, .i32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S262144x64, .f32⟩
  | 64 => ⟨S262144x64, .f32⟩
  | 65 => ⟨S262144x64, .f32⟩
  | 66 => ⟨S_, .f32⟩
  | 67 => ⟨S_, .f32⟩
  | 68 => ⟨S_, .f32⟩
  | 69 => ⟨S_, .f32⟩
  | 70 => ⟨S64, .f32⟩
  | 71 => ⟨S64, .f32⟩
  | 72 => ⟨S64, .f32⟩
  | 73 => ⟨S_, .f32⟩
  | 74 => ⟨S_, .i1⟩
  | 75 => ⟨S_, .f32⟩
  | 76 => ⟨S_, .f32⟩
  | 77 => ⟨S64, .f32⟩
  | 78 => ⟨S64, .f32⟩
  | 79 => ⟨S1x64, .f32⟩
  | 80 => ⟨S262144x64, .f32⟩
  | 81 => ⟨S262144x64, .f32⟩
  | 82 => ⟨S_, .f32⟩
  | 83 => ⟨S64, .f32⟩
  | 84 => ⟨S64, .f32⟩
  | 85 => ⟨S64, .f32⟩
  | 86 => ⟨S1x64, .f32⟩
  | 87 => ⟨S262144x64, .f32⟩
  | 88 => ⟨S262144x64, .f32⟩
  | 89 => ⟨S1x64, .f32⟩
  | 90 => ⟨S262144x64, .f32⟩
  | 91 => ⟨S262144x64, .f32⟩
  | 92 => ⟨S1x64, .f32⟩
  | 93 => ⟨S262144x64, .f32⟩
  | 94 => ⟨S262144x64, .f32⟩
  | 95 => ⟨S_, .f32⟩
  | 96 => ⟨S_, .f32⟩
  | 97 => ⟨S262144x64, .f32⟩
  | 98 => ⟨S262144x64, .i1⟩
  | 99 => ⟨S_, .f32⟩
  | 100 => ⟨S262144x64, .f32⟩
  | 101 => ⟨S262144x64, .f32⟩
  | 102 => ⟨S262144x64, .f32⟩
  | 103 => ⟨S1x16, .f32⟩
  | 104 => ⟨S262144x16, .f32⟩
  | 105 => ⟨S_, .f32⟩
  | 106 => ⟨S262144, .f32⟩
  | 107 => ⟨S_, .f32⟩
  | 108 => ⟨S262144, .f32⟩
  | 109 => ⟨S262144, .f32⟩
  | 110 => ⟨S262144x1, .f32⟩
  | 111 => ⟨S262144x16, .f32⟩
  | 112 => ⟨S262144x16, .f32⟩
  | 113 => ⟨S262144x16, .f32⟩
  | 114 => ⟨S_, .f32⟩
  | 115 => ⟨S262144, .f32⟩
  | 116 => ⟨S262144x1, .f32⟩
  | 117 => ⟨S262144x16, .f32⟩
  | 118 => ⟨S262144x16, .f32⟩
  | _ => ⟨S262144x200, .f32⟩

abbrev hbmTy (i : Nat) : BufTy := match i / 128 with
  | 0 => hbmTy0_0 i
  | 1 => hbmTy0_1 i
  | 2 => hbmTy0_2 i
  | _ => ⟨S262144x200, .f32⟩

abbrev bufTy : (tb : Table) → Fin (tcTables nBuf tb) → BufTy
  | .hbm, ⟨i, _⟩ => hbmTy i
  | .local _ .vmem, ⟨0, _⟩ => ⟨S4096x200, .f32⟩
  | .local _ .vmem, ⟨1, _⟩ => ⟨S4096x200, .f32⟩
  | .local _ .vmem, ⟨2, _⟩ => ⟨S200x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S64x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S64x64, .f32⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | .local _ .vmem, ⟨18, _⟩ => ⟨S4096x64, .bf16⟩
  | .local _ .vmem, ⟨19, _⟩ => ⟨S4096x64, .bf16⟩
  | .local _ .vmem, ⟨20, _⟩ => ⟨S1x4096, .i32⟩
  | .local _ .vmem, ⟨21, _⟩ => ⟨S1x4096, .i32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S4096x64, .bf16⟩
  | .local _ .vmem, ⟨26, _⟩ => ⟨S4096x64, .bf16⟩
  | .local _ .vmem, ⟨27, _⟩ => ⟨S1x4096, .i32⟩
  | .local _ .vmem, ⟨28, _⟩ => ⟨S1x4096, .i32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S4096x64, .f32⟩
  | .local _ .vmem, ⟨33, _⟩ => ⟨S4096x64, .f32⟩
  | .local _ .vmem, ⟨34, _⟩ => ⟨S64x64, .f32⟩
  | .local _ .vmem, ⟨35, _⟩ => ⟨S1x64, .f32⟩
  | .local _ .vmem, ⟨36, _⟩ => ⟨S4096x64, .f32⟩
  | .local _ .vmem, ⟨37, _⟩ => ⟨S4096x64, .f32⟩
  | .local _ .vmem, ⟨38, _⟩ => ⟨S4096x64, .f32⟩
  | .local _ .vmem, ⟨39, _⟩ => ⟨S4096x64, .f32⟩
  | .local _ .vmem, ⟨40, _⟩ => ⟨S64x64, .f32⟩
  | .local _ .vmem, ⟨41, _⟩ => ⟨S1x64, .f32⟩
  | .local _ .vmem, ⟨42, _⟩ => ⟨S4096x64, .f32⟩
  | .local _ .vmem, ⟨43, _⟩ => ⟨S4096x64, .f32⟩
  | .local _ .vmem, ⟨44, _⟩ => ⟨S4096x64, .bf16⟩
  | .local _ .vmem, ⟨45, _⟩ => ⟨S4096x64, .bf16⟩
  | .local _ .vmem, ⟨46, _⟩ => ⟨S1x4096, .i32⟩
  | .local _ .vmem, ⟨47, _⟩ => ⟨S1x4096, .i32⟩
  | .local _ .vmem, ⟨48, _⟩ => ⟨S2048x64, .f32⟩
  | .local _ .vmem, ⟨49, _⟩ => ⟨S2048x64, .f32⟩
  | .local _ .vmem, ⟨50, _⟩ => ⟨S2048x64, .f32⟩
  | .local _ .vmem, ⟨51, _⟩ => ⟨S4096x64, .bf16⟩
  | .local _ .vmem, ⟨52, _⟩ => ⟨S4096x64, .bf16⟩
  | .local _ .vmem, ⟨53, _⟩ => ⟨S1x4096, .i32⟩
  | .local _ .vmem, ⟨54, _⟩ => ⟨S1x4096, .i32⟩
  | .local _ .vmem, ⟨55, _⟩ => ⟨S2048x64, .f32⟩
  | .local _ .vmem, ⟨56, _⟩ => ⟨S2048x64, .f32⟩
  | .local _ .vmem, ⟨57, _⟩ => ⟨S2048x64, .f32⟩
  | .local _ .vmem, ⟨58, _⟩ => ⟨S4096x64, .f32⟩
  | .local _ .vmem, ⟨59, _⟩ => ⟨S4096x64, .f32⟩
  | .local _ .vmem, ⟨60, _⟩ => ⟨S64x16, .f32⟩
  | .local _ .vmem, ⟨61, _⟩ => ⟨S1x16, .f32⟩
  | .local _ .vmem, ⟨62, _⟩ => ⟨S4096x16, .f32⟩
  | .local _ .vmem, ⟨63, _⟩ => ⟨S4096x16, .f32⟩
  | _, _ => ⟨S262144x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_cst_3 : Ref sig .tc := ⟨.hbm, 45, rfl⟩
abbrev main_call0_v12 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_2 : Ref sig .tc := ⟨.hbm, 71, rfl⟩
abbrev main_v25 : Ref sig .tc := ⟨.hbm, 72, rfl⟩
abbrev main_v26 : Ref sig .tc := ⟨.hbm, 73, rfl⟩
abbrev main_cst_3 : Ref sig .tc := ⟨.hbm, 74, rfl⟩
abbrev main_v27 : Ref sig .tc := ⟨.hbm, 75, rfl⟩
abbrev main_v28 : Ref sig .tc := ⟨.hbm, 76, rfl⟩
abbrev main_c_4 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_cst_3 : Ref sig .tc := ⟨.hbm, 95, rfl⟩
abbrev main_call1_v13 : Ref sig .tc := ⟨.hbm, 96, rfl⟩
abbrev main_call1_cst_4 : Ref sig .tc := ⟨.hbm, 97, rfl⟩
abbrev main_call1_call0_v0 : Ref sig .tc := ⟨.hbm, 98, rfl⟩
abbrev main_call1_call0_v1 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst_5 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_c_6 : Ref sig .tc := ⟨.hbm, 127, rfl⟩
abbrev main_v55 : Ref sig .tc := ⟨.hbm, 128, rfl⟩
abbrev main_v56 : Ref sig .tc := ⟨.hbm, 129, rfl⟩
abbrev main_c_7 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_c_8 : Ref sig .tc := ⟨.hbm, 139, rfl⟩
abbrev main_v65 : Ref sig .tc := ⟨.hbm, 140, rfl⟩
abbrev main_v66 : Ref sig .tc := ⟨.hbm, 141, rfl⟩
abbrev main_c_9 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_cst_10 : Ref sig .tc := ⟨.hbm, 161, rfl⟩
abbrev main_v85 : Ref sig .tc := ⟨.hbm, 162, rfl⟩
abbrev main_cst_11 : Ref sig .tc := ⟨.hbm, 163, rfl⟩
abbrev main_v86 : Ref sig .tc := ⟨.hbm, 164, rfl⟩
abbrev main_v87 : Ref sig .tc := ⟨.hbm, 165, rfl⟩
abbrev main_c_12 : Ref sig .tc := ⟨.hbm, 166, rfl⟩
abbrev main_call2_cst : Ref sig .tc := ⟨.hbm, 167, rfl⟩
abbrev main_call2_v0 : Ref sig .tc := ⟨.hbm, 168, rfl⟩
abbrev main_call2_v1 : Ref sig .tc := ⟨.hbm, 169, rfl⟩
abbrev main_call2_cst_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_v5 : Ref sig .tc := ⟨.hbm, 174, rfl⟩
abbrev main_call2_v6 : Ref sig .tc := ⟨.hbm, 175, rfl⟩
abbrev main_call2_v7 : Ref sig .tc := ⟨.hbm, 176, rfl⟩
abbrev main_call2_cst_1 : Ref sig .tc := ⟨.hbm, 177, rfl⟩
abbrev main_call2_v8 : Ref sig .tc := ⟨.hbm, 178, rfl⟩
abbrev main_call2_cst_2 : Ref sig .tc := ⟨.hbm, 179, rfl⟩
abbrev main_call2_v9 : Ref sig .tc := ⟨.hbm, 180, rfl⟩
abbrev main_call2_v10 : Ref sig .tc := ⟨.hbm, 181, rfl⟩
abbrev main_call2_v11 : Ref sig .tc := ⟨.hbm, 182, rfl⟩
abbrev main_call2_cst_3 : Ref sig .tc := ⟨.hbm, 183, rfl⟩
abbrev main_call2_v12 : Ref sig .tc := ⟨.hbm, 184, rfl⟩
abbrev main_call2_cst_4 : Ref sig .tc := ⟨.hbm, 185, rfl⟩
abbrev main_call2_call0_v0 : Ref sig .tc := ⟨.hbm, 186, rfl⟩
abbrev main_call2_call0_v1 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_cst_13 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_cst_14 : Ref sig .tc := ⟨.hbm, 205, rfl⟩
abbrev main_call3_cst : Ref sig .tc := ⟨.hbm, 206, rfl⟩
abbrev main_call3_v0 : Ref sig .tc := ⟨.hbm, 207, rfl⟩
abbrev main_call3_v1 : Ref sig .tc := ⟨.hbm, 208, rfl⟩
abbrev main_call3_v2 : Ref sig .tc := ⟨.hbm, 209, rfl⟩
abbrev main_call3_v3 : Ref sig .tc := ⟨.hbm, 210, rfl⟩
abbrev main_call3_v4 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_15 : Ref sig .tc := ⟨.hbm, 217, rfl⟩
abbrev main_v109 : Ref sig .tc := ⟨.hbm, 218, rfl⟩
abbrev main_v110 : Ref sig .tc := ⟨.hbm, 219, rfl⟩
abbrev main_cst_16 : Ref sig .tc := ⟨.hbm, 220, rfl⟩
abbrev main_v111 : Ref sig .tc := ⟨.hbm, 221, rfl⟩
abbrev main_v112 : Ref sig .tc := ⟨.hbm, 222, rfl⟩
abbrev main_c_17 : Ref sig .tc := ⟨.hbm, 223, rfl⟩
abbrev main_call4_cst : Ref sig .tc := ⟨.hbm, 224, rfl⟩
abbrev main_call4_v0 : Ref sig .tc := ⟨.hbm, 225, rfl⟩
abbrev main_call4_v1 : Ref sig .tc := ⟨.hbm, 226, rfl⟩
abbrev main_call4_cst_0 : Ref sig .tc := ⟨.hbm, 227, rfl⟩
abbrev main_call4_v2 : Ref sig .tc := ⟨.hbm, 228, rfl⟩
abbrev main_call4_v3 : Ref sig .tc := ⟨.hbm, 229, rfl⟩
abbrev main_call4_v4 : Ref sig .tc := ⟨.hbm, 230, rfl⟩
abbrev main_call4_v5 : Ref sig .tc := ⟨.hbm, 231, rfl⟩
abbrev main_call4_v6 : Ref sig .tc := ⟨.hbm, 232, rfl⟩
abbrev main_call4_v7 : Ref sig .tc := ⟨.hbm, 233, rfl⟩
abbrev main_call4_cst_1 : Ref sig .tc := ⟨.hbm, 234, rfl⟩
abbrev main_call4_v8 : Ref sig .tc := ⟨.hbm, 235, rfl⟩
abbrev main_call4_cst_2 : Ref sig .tc := ⟨.hbm, 236, rfl⟩
abbrev main_call4_v9 : Ref sig .tc := ⟨.hbm, 237, rfl⟩
abbrev main_call4_v10 : Ref sig .tc := ⟨.hbm, 238, rfl⟩
abbrev main_call4_v11 : Ref sig .tc := ⟨.hbm, 239, rfl⟩
abbrev main_call4_v12 : Ref sig .tc := ⟨.hbm, 240, rfl⟩
abbrev main_call4_cst_3 : Ref sig .tc := ⟨.hbm, 241, rfl⟩
abbrev main_call4_v13 : Ref sig .tc := ⟨.hbm, 242, rfl⟩
abbrev main_call4_cst_4 : Ref sig .tc := ⟨.hbm, 243, rfl⟩
abbrev main_call4_call0_v0 : Ref sig .tc := ⟨.hbm, 244, rfl⟩
abbrev main_call4_call0_v1 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_cst_18 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_v136 : Ref sig .tc := ⟨.hbm, 270, rfl⟩
abbrev main_v137 : Ref sig .tc := ⟨.hbm, 271, rfl⟩
abbrev main_v138 : Ref sig .tc := ⟨.hbm, 272, rfl⟩
abbrev main_c_19 : Ref sig .tc := ⟨.hbm, 273, rfl⟩
abbrev main_v139 : Ref sig .tc := ⟨.hbm, 274, rfl⟩
abbrev main_v140 : Ref sig .tc := ⟨.hbm, 275, rfl⟩
abbrev main_c_20 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_c_21 : Ref sig .tc := ⟨.hbm, 285, rfl⟩
abbrev main_v149 : Ref sig .tc := ⟨.hbm, 286, rfl⟩
abbrev main_v150 : Ref sig .tc := ⟨.hbm, 287, rfl⟩
abbrev main_c_22 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_cst_23 : Ref sig .tc := ⟨.hbm, 307, rfl⟩
abbrev main_v169 : Ref sig .tc := ⟨.hbm, 308, rfl⟩
abbrev main_cst_24 : Ref sig .tc := ⟨.hbm, 309, rfl⟩
abbrev main_v170 : Ref sig .tc := ⟨.hbm, 310, rfl⟩
abbrev main_v171 : Ref sig .tc := ⟨.hbm, 311, rfl⟩
abbrev main_c_25 : Ref sig .tc := ⟨.hbm, 312, rfl⟩
abbrev main_call5_cst : Ref sig .tc := ⟨.hbm, 313, rfl⟩
abbrev main_call5_v0 : Ref sig .tc := ⟨.hbm, 314, rfl⟩
abbrev main_call5_v1 : Ref sig .tc := ⟨.hbm, 315, rfl⟩
abbrev main_call5_cst_0 : Ref sig .tc := ⟨.hbm, 316, rfl⟩
abbrev main_call5_v2 : Ref sig .tc := ⟨.hbm, 317, rfl⟩
abbrev main_call5_v3 : Ref sig .tc := ⟨.hbm, 318, rfl⟩
abbrev main_call5_v4 : Ref sig .tc := ⟨.hbm, 319, rfl⟩
abbrev main_call5_v5 : Ref sig .tc := ⟨.hbm, 320, rfl⟩
abbrev main_call5_v6 : Ref sig .tc := ⟨.hbm, 321, rfl⟩
abbrev main_call5_v7 : Ref sig .tc := ⟨.hbm, 322, rfl⟩
abbrev main_call5_cst_1 : Ref sig .tc := ⟨.hbm, 323, rfl⟩
abbrev main_call5_v8 : Ref sig .tc := ⟨.hbm, 324, rfl⟩
abbrev main_call5_cst_2 : Ref sig .tc := ⟨.hbm, 325, rfl⟩
abbrev main_call5_v9 : Ref sig .tc := ⟨.hbm, 326, rfl⟩
abbrev main_call5_v10 : Ref sig .tc := ⟨.hbm, 327, rfl⟩
abbrev main_call5_v11 : Ref sig .tc := ⟨.hbm, 328, rfl⟩
abbrev main_call5_cst_3 : Ref sig .tc := ⟨.hbm, 329, rfl⟩
abbrev main_call5_v12 : Ref sig .tc := ⟨.hbm, 330, rfl⟩
abbrev main_call5_cst_4 : Ref sig .tc := ⟨.hbm, 331, rfl⟩
abbrev main_call5_call0_v0 : Ref sig .tc := ⟨.hbm, 332, rfl⟩
abbrev main_call5_call0_v1 : Ref sig .tc := ⟨.hbm, 333, rfl⟩
abbrev main_v172 : Ref sig .tc := ⟨.hbm, 334, rfl⟩
abbrev main_v173 : Ref sig .tc := ⟨.hbm, 335, rfl⟩
abbrev main_v174 : Ref sig .tc := ⟨.hbm, 336, rfl⟩
abbrev main_v175 : Ref sig .tc := ⟨.hbm, 337, rfl⟩
abbrev main_cst_26 : Ref sig .tc := ⟨.hbm, 338, rfl⟩
abbrev main_v176 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_v182 : Ref sig .tc := ⟨.hbm, 345, rfl⟩
abbrev main_v183 : Ref sig .tc := ⟨.hbm, 346, rfl⟩
abbrev main_v184 : Ref sig .tc := ⟨.hbm, 347, rfl⟩
abbrev main_v185 : Ref sig .tc := ⟨.hbm, 348, rfl⟩
abbrev main_v186 : Ref sig .tc := ⟨.hbm, 349, rfl⟩
abbrev main_v187 : Ref sig .tc := ⟨.hbm, 350, rfl⟩
abbrev main_cst_27 : Ref sig .tc := ⟨.hbm, 351, rfl⟩
abbrev main_call6_cst : Ref sig .tc := ⟨.hbm, 352, rfl⟩
abbrev main_call6_v0 : Ref sig .tc := ⟨.hbm, 353, rfl⟩
abbrev main_call6_v1 : Ref sig .tc := ⟨.hbm, 354, rfl⟩
abbrev main_call6_v2 : Ref sig .tc := ⟨.hbm, 355, rfl⟩
abbrev main_call6_v3 : Ref sig .tc := ⟨.hbm, 356, rfl⟩
abbrev main_call6_v4 : Ref sig .tc := ⟨.hbm, 357, rfl⟩
abbrev main_v188 : Ref sig .tc := ⟨.hbm, 358, rfl⟩
abbrev main_v189 : Ref sig .tc := ⟨.hbm, 359, rfl⟩
abbrev main_v190 : Ref sig .tc := ⟨.hbm, 360, rfl⟩
abbrev main_cst_28 : Ref sig .tc := ⟨.hbm, 361, rfl⟩
abbrev main_v191 : Ref sig .tc := ⟨.hbm, 362, rfl⟩
abbrev main_cst_29 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_cst_30 : Ref sig .tc := ⟨.hbm, 370, rfl⟩
abbrev main_v198 : Ref sig .tc := ⟨.hbm, 371, rfl⟩
abbrev main_v199 : Ref sig .tc := ⟨.hbm, 372, rfl⟩
abbrev main_v200 : Ref sig .tc := ⟨.hbm, 373, rfl⟩
abbrev main_v201 : Ref sig .tc := ⟨.hbm, 374, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_scratch0 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_scratch0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![128, 512], ![false, false]⟩

def k3_cond2 (i : grid3.Coords) : BitVec 1 :=
  let arg1 : BitVec 32 := BitVec.ofNat 32 (i 1).val
  let c511_i32 : BitVec 32 := 511#32
  let v23 : BitVec 1 := Scalar.cmpi .eq arg1 c511_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![128, 512], ![false, false]⟩

def k4_cond2 (i : grid4.Coords) : BitVec 1 :=
  let arg1 : BitVec 32 := BitVec.ofNat 32 (i 1).val
  let c511_i32 : BitVec 32 := 511#32
  let v23 : BitVec 1 := Scalar.cmpi .eq arg1 c511_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x4096 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![128, 512], ![false, false]⟩

def k7_cond2 (i : grid7.Coords) : BitVec 1 :=
  let arg1 : BitVec 32 := BitVec.ofNat 32 (i 1).val
  let c511_i32 : BitVec 32 := 511#32
  let v23 : BitVec 1 := Scalar.cmpi .eq arg1 c511_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S4096x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x4096 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![128, 512], ![false, false]⟩

def k8_cond2 (i : grid8.Coords) : BitVec 1 :=
  let arg1 : BitVec 32 := BitVec.ofNat 32 (i 1).val
  let c511_i32 : BitVec 32 := 511#32
  let v23 : BitVec 1 := Scalar.cmpi .eq arg1 c511_i32
  let v24 : BitVec 32 := Scalar.extui v23
  let c0_i32_8 : BitVec 32 := 0#32
  let v25 : BitVec 1 := Scalar.cmpi .ne v24 c0_i32_8
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S4096x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1x4096 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4096x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S64_S1x64 : S64.ShapeCasts S1x64
  inb_S4096x200_S4096x200_0_0 : ∀ a, (![0, 0] : Fin 2 → Nat) a + S4096x200.size a ≤ S4096x200.size a
  h_S4096x200 : 0 < S4096x200.numel
  inb_S200x64_S200x64_0_0 : ∀ a, (![0, 0] : Fin 2 → Nat) a + S200x64.size a ≤ S200x64.size a
  h_S200x64 : 0 < S200x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  reducesTo_S262144x64_S64_d0 : S262144x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S262144x64_0_1 : S1x64.BroadcastsInDim S262144x64 (![0, 1] : Fin 2 → Fin S262144x64.rank)
  slices_S2x64_S1x64_0_0 : S2x64.Slices ![0, 0] S1x64
  shapeCasts_S1x64_S64 : S1x64.ShapeCasts S64
  reducesTo_S262144x64_S262144_d1 : S262144x64.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  slices_S2x64x64_S1x64x64_0_0_0 : S2x64x64.Slices ![0, 0, 0] S1x64x64
  shapeCasts_S1x64x64_S64x64 : S1x64x64.ShapeCasts S64x64
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bitsLt_bf16_f32 : FTy.bits .bf16 < FTy.bits .f32
  shapeCasts_S2097152_S1x2097152 : S2097152.ShapeCasts S1x2097152
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x1_d0_w32 : S2048x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S2048x1_S2048x4096 : S2048x1.Broadcasts S2048x4096
  broadcasts_S1x4096_S2048x4096 : S1x4096.Broadcasts S2048x4096
  natLt_1_32 : 1 < 32
  bcast_S_S262144x64 : S_.BroadcastsInDim S262144x64 (![] : Fin 0 → Fin S262144x64.rank)
  slices_S2x64_S1x64_1_0 : S2x64.Slices ![1, 0] S1x64
  slices_S2x64x64_S1x64x64_1_0_0 : S2x64x64.Slices ![1, 0, 0] S1x64x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  reducesTo_S262144x16_S262144_d1 : S262144x16.ReducesTo [1] S262144
  bcast_S_S262144 : S_.BroadcastsInDim S262144 (![] : Fin 0 → Fin S262144.rank)
  bcast_S262144x1_S262144x16_0_1 : S262144x1.BroadcastsInDim S262144x16 (![0, 1] : Fin 2 → Fin S262144x16.rank)
  dot_S4096x200_S200x64_S4096x64_1_0_0_1_n_n_wf : DotDims.WF S4096x200 S200x64 S4096x64 [1] [0] [0] [1] [] []
  dot_S4096x64_S64x64_S4096x64_1_0_0_1_n_n_wf : DotDims.WF S4096x64 S64x64 S4096x64 [1] [0] [0] [1] [] []
  gather_S262144x64_S2097152x1_S2097152x64_1_0_n_n_0_1_164_wf : GatherDims.WF S262144x64 S2097152x1 S2097152x64 [1] [0] [] [0] [] 1 ![1, 64]
  dot_S2048x4096_S4096x64_S2048x64_1_0_0_1_n_n_wf : DotDims.WF S2048x4096 S4096x64 S2048x64 [1] [0] [0] [1] [] []
  dot_S4096x64_S64x16_S4096x16_1_0_0_1_n_n_wf : DotDims.WF S4096x64 S64x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x200.size a ≤ S262144x200.size a
  hwx0_0 : ∀ i : grid0.Coords, EltTy.bits .f32 = 32 ∨ (Rect.block (s := S262144x200) S4096x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S262144x64.size a
  hwx0_3 : ∀ i : grid0.Coords, EltTy.bits .f32 = 32 ∨ (Rect.block (s := S262144x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S262144x64.size a
  hwx1_3 : ∀ i : grid1.Coords, EltTy.bits .f32 = 32 ∨ (Rect.block (s := S262144x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S262144x64.size a
  hwx2_0 : ∀ i : grid2.Coords, EltTy.bits .f32 = 32 ∨ (Rect.block (s := S262144x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S262144x64.size a
  hwx2_3 : ∀ i : grid2.Coords, EltTy.bits .f32 = 32 ∨ (Rect.block (s := S262144x64) S4096x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S2097152x64.size a
  hwx3_0 : ∀ i : grid3.Coords, EltTy.bits .bf16 = 32 ∨ (Rect.block (s := S2097152x64) S4096x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x2097152.size a
  hwx3_1 : ∀ i : grid3.Coords, EltTy.bits .i32 = 32 ∨ (Rect.block (s := S1x2097152) S1x4096.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S262144x64.size a
  hwx3_2 : ∀ i : grid3.Coords, EltTy.bits .f32 = 32 ∨ (Rect.block (s := S262144x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S2097152x64.size a
  hwx4_0 : ∀ i : grid4.Coords, EltTy.bits .bf16 = 32 ∨ (Rect.block (s := S2097152x64) S4096x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4096.size a ≤ S1x2097152.size a
  hwx4_1 : ∀ i : grid4.Coords, EltTy.bits .i32 = 32 ∨ (Rect.block (s := S1x2097152) S1x4096.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S262144x64.size a
  hwx4_2 : ∀ i : grid4.Coords, EltTy.bits .f32 = 32 ∨ (Rect.block (s := S262144x64) S2048x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S262144x64.size a
  hwx5_0 : ∀ i : grid5.Coords, EltTy.bits .f32 = 32 ∨ (Rect.block (s := S262144x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x64.size a ≤ S262144x64.size a
  hwx5_3 : ∀ i : grid5.Coords, EltTy.bits .f32 = 32 ∨ (Rect.block (s := S262144x64) S4096x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S262144x64.size a
  hwx6_0 : ∀ i : grid6.Coords, EltTy.bits .f32 = 32 ∨ (Rect.block (s := S262144x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x64.size a ≤ S262144x64.size a
  hwx6_3 : ∀ i : grid6.Coords, EltTy.bits .f32 = 32 ∨ (Rect.block (s := S262144x64) S4096x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x64.size a ≤ S2097152x64.size a
  hwx7_0 : ∀ i : grid7.Coords, EltTy.bits .bf16 = 32 ∨ (Rect.block (s := S2097152x64) S4096x64.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x4096.size a ≤ S1x2097152.size a
  hwx7_1 : ∀ i : grid7.Coords, EltTy.bits .i32 = 32 ∨ (Rect.block (s := S1x2097152) S1x4096.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S262144x64.size a
  hwx7_2 : ∀ i : grid7.Coords, EltTy.bits .f32 = 32 ∨ (Rect.block (s := S262144x64) S2048x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x64.size a ≤ S2097152x64.size a
  hwx8_0 : ∀ i : grid8.Coords, EltTy.bits .bf16 = 32 ∨ (Rect.block (s := S2097152x64) S4096x64.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x4096.size a ≤ S1x2097152.size a
  hwx8_1 : ∀ i : grid8.Coords, EltTy.bits .i32 = 32 ∨ (Rect.block (s := S1x2097152) S1x4096.size (cc8_transform_1 i) (hinb8_1 i)).WholeWords (EltTy.packing .i32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x64.size a ≤ S262144x64.size a
  hwx8_2 : ∀ i : grid8.Coords, EltTy.bits .f32 = 32 ∨ (Rect.block (s := S262144x64) S2048x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S262144x64.size a
  hwx9_0 : ∀ i : grid9.Coords, EltTy.bits .f32 = 32 ∨ (Rect.block (s := S262144x64) S4096x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x16.size a ≤ S64x16.size a
  hwx9_1 : ∀ i : grid9.Coords, EltTy.bits .f32 = 32 ∨ (Rect.block (s := S64x16) S64x16.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x16.size a ≤ S1x16.size a
  hwx9_2 : ∀ i : grid9.Coords, EltTy.bits .f32 = 32 ∨ (Rect.block (s := S1x16) S1x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x16.size a ≤ S262144x16.size a
  hwx9_3 : ∀ i : grid9.Coords, EltTy.bits .f32 = 32 ∨ (Rect.block (s := S262144x16) S4096x16.size (cc9_transform_3 i) (hinb9_3 i)).WholeWords (EltTy.packing .f32)

variable [Facts₀]

def dot_S4096x200_S200x64_S4096x64_1_0_0_1_n_n : DotDims S4096x200 S200x64 S4096x64 where
  lhsContracting := [1]
  rhsContracting := [0]
  lhsNonContracting := [0]
  rhsNonContracting := [1]
  lhsBatch := []
  rhsBatch := []
  wf := dot_S4096x200_S200x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf

abbrev win0_0 : Pipeline.Window sig grid0 :=
  Pipeline.Window.ofSpec (Memref.whole main_arg0) S4096x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S4096x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v74) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v126) S4096x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v128) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v131) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v132) S4096x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v126) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v137) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v138) S4096x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v148) S4096x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v159) S1x4096.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v160) S2048x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v158) S4096x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v161) S1x4096.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v162) S2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v188) S4096x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v189) S1x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v190) S4096x16.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S262144x200 : Shape := ⟨2, ![262144, 200]⟩
abbrev S2097152x1 : Shape := ⟨2, ![2097152, 1]⟩
abbrev S200x64 : Shape := ⟨2, ![200, 64]⟩
abbrev S64 : Shape := ⟨1, ![64]⟩
abbrev S2x64 : Shape := ⟨2, ![2, 64]⟩
abbrev S2x64x64 : Shape := ⟨3, ![2, 64, 64]⟩
abbrev S64x16 : Shape := ⟨2, ![64, 16]⟩
abbrev S16 : Shape := ⟨1, ![16]⟩
abbrev S2097152 : Shape := ⟨1, ![2097152]⟩
abbrev S262144x64 : Shape := ⟨2, ![262144, 64]⟩
abbrev S1x64 : Shape := ⟨2, ![1, 64]⟩
abbrev S_ : Shape := ⟨0, ![]⟩
abbrev S262144 : Shape := ⟨1, ![262144]⟩
abbrev S262144x1 : Shape := ⟨2, ![262144, 1]⟩
abbrev S1x64x64 : Shape := ⟨3, ![1, 64, 64]⟩
abbrev S64x64 : Shape := ⟨2, ![64, 64]⟩
abbrev S2097152x64 : Shape := ⟨2, ![2097152, 64]⟩
abbrev S262144x16 : Shape := ⟨2, ![262144, 16]⟩
abbrev S1x16 : Shape := ⟨2, ![1, 16]⟩

abbrev nBuf : Space → Nat
  | .hbm => 391
  | .vmem => 0
  | .smem => 0
  | _ => 0

abbrev hbmTy0_0 (i : Nat) : BufTy := match i % 128 with
  | 0 => ⟨S262144x200, .f32⟩
  | 1 => ⟨S2097152x1, .f32⟩
  | 2 => ⟨S2097152x1, .f32⟩
  | 3 => ⟨S200x64, .f32⟩
  | 4 => ⟨S64, .f32⟩
  | 5 => ⟨S64, .f32⟩
  | 6 => ⟨S64, .f32⟩
  | 7 => ⟨S2x64, .f32⟩
  | 8 => ⟨S2x64, .f32⟩
  | 9 => ⟨S2x64x64, .f32⟩
  | 10 => ⟨S2x64, .f32⟩
  | 11 => ⟨S2x64x64, .f32⟩
  | 12 => ⟨S2x64, .f32⟩
  | 13 => ⟨S2x64, .f32⟩
  | 14 => ⟨S2x64, .f32⟩
  | 15 => ⟨S64x16, .f32⟩
  | 16 => ⟨S16, .f32⟩
  | 17 => ⟨S2097152, .i32⟩
  | 18 => ⟨S2097152, .i32⟩
  | 19 => ⟨S2097152, .i32⟩
  | 20 => ⟨S2097152, .i32⟩
  | 21 => ⟨S262144x64, .f32⟩
  | 22 => ⟨S1x64, .f32⟩
  | 23 => ⟨S262144x64, .f32⟩
  | 24 => ⟨S262144x64, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S262144x64, .f32⟩
  | 38 => ⟨S262144x64, .f32⟩
  | 39 => ⟨S262144x64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S_, .i1⟩
  | 49 => ⟨S_, .f32⟩
  | 50 => ⟨S_, .f32⟩
  | 51 => ⟨S64, .f32⟩
  | 52 => ⟨S64, .f32⟩
  | 53 => ⟨S1x64, .f32⟩
  | 54 => ⟨S262144x64, .f32⟩
  | 55 => ⟨S262144x64, .f32⟩
  | 56 => ⟨S_, .f32⟩
  | 57 => ⟨S64, .f32⟩
  | 58 => ⟨S64, .f32⟩
  | 59 => ⟨S64, .f32⟩
  | 60 => ⟨S1x64, .f32⟩
  | 61 => ⟨S262144x64, .f32⟩
  | 62 => ⟨S262144x64, .f32⟩
  | 63 => ⟨S1x64, .f32⟩
  | 64 => ⟨S262144x64, .f32⟩
  | 65 => ⟨S262144x64, .f32⟩
  | 66 => ⟨S1x64, .f32⟩
  | 67 => ⟨S262144x64, .f32⟩
  | 68 => ⟨S262144x64, .f32⟩
  | 69 => ⟨S1x64, .f32⟩
  | 70 => ⟨S64, .f32⟩
  | 71 => ⟨S1x64, .f32⟩
  | 72 => ⟨S64, .f32⟩
  | 73 => ⟨S_, .f32⟩
  | 74 => ⟨S262144, .f32⟩
  | 75 => ⟨S262144x1, .f32⟩
  | 76 => ⟨S_, .f32⟩
  | 77 => ⟨S262144x1, .f32⟩
  | 78 => ⟨S262144x1, .f32⟩
  | 79 => ⟨S_, .i32⟩
  | 80 => ⟨S_, .f32⟩
  | 81 => ⟨S262144, .f32⟩
  | 82 => ⟨S262144x1, .f32⟩
  | 83 => ⟨S_, .f32⟩
  | 84 => ⟨S262144x1, .f32⟩
  | 85 => ⟨S262144x1, .f32⟩
  | 86 => ⟨S262144x64, .f32⟩
  | 87 => ⟨S262144x64, .f32⟩
  | 88 => ⟨S262144x64, .f32⟩
  | 89 => ⟨S_, .f32⟩
  | 90 => ⟨S_, .f32⟩
  | 91 => ⟨S_, .f32⟩
  | 92 => ⟨S_, .f32⟩
  | 93 => ⟨S262144, .f32⟩
  | 94 => ⟨S262144x1, .f32⟩
  | 95 => ⟨S262144x1, .f32⟩
  | 96 => ⟨S262144x1, .f32⟩
  | 97 => ⟨S_, .f32⟩
  | 98 => ⟨S_, .i1⟩
  | 99 => ⟨S_, .f32⟩
  | 100 => ⟨S_, .f32⟩
  | 101 => ⟨S262144x1, .f32⟩
  | 102 => ⟨S262144x1, .f32⟩
  | 103 => ⟨S262144x64, .f32⟩
  | 104 => ⟨S262144x64, .f32⟩
  | 105 => ⟨S_, .f32⟩
  | 106 => ⟨S262144x1, .f32⟩
  | 107 => ⟨S262144x1, .f32⟩
  | 108 => ⟨S262144x1, .f32⟩
  | 109 => ⟨S262144x64, .f32⟩
  | 110 => ⟨S262144x64, .f32⟩
  | 111 => ⟨S1x64, .f32⟩
  | 112 => ⟨S262144x64, .f32⟩
  | 113 => ⟨S262144x64, .f32⟩
  | 114 => ⟨S1x64, .f32⟩
  | 115 => ⟨S262144x64, .f32⟩
  | 116 => ⟨S262144x64, .f32⟩
  | 117 => ⟨S1x64x64, .f32⟩
  | 118 => ⟨S64x64, .f32⟩
  | 119 => ⟨S262144x64, .f32⟩
  | 120 => ⟨S1x64, .f32⟩
  | 121 => ⟨S64, .f32⟩
  | 122 => ⟨S1x64, .f32⟩
  | 123 => ⟨S262144x64, .f32⟩
  | 124 => ⟨S262144x64, .f32⟩
  | 125 => ⟨S1x64x64, .f32⟩
  | 126 => ⟨S64x64, .f32⟩
  | 127 => ⟨S262144x64, .f32⟩
  | _ => ⟨S262144x200, .f32⟩

abbrev hbmTy0_1 (i : Nat) : BufTy := match i % 128 with
  | 0 => ⟨S1x64, .f32⟩
  | 1 => ⟨S64, .f32⟩
  | 2 => ⟨S1x64, .f32⟩
  | 3 => ⟨S262144x64, .f32⟩
  | 4 => ⟨S262144x64, .f32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S2097152x1, .i32⟩
  | 13 => ⟨S2097152x64, .f32⟩
  | 14 => ⟨S2097152x64, .f32⟩
  | 15 => ⟨S2097152x64, .f32⟩
  | 16 => ⟨S_, .i32⟩
  | 17 => ⟨S2097152, .i32⟩
  | 18 => ⟨S2097152, .i1⟩
  | 19 => ⟨S_, .i32⟩
  | 20 => ⟨S2097152, .i32⟩
  | 21 => ⟨S2097152, .i32⟩
  | 22 => ⟨S2097152, .i32⟩
  | 23 => ⟨S2097152x1, .i32⟩
  | 24 => ⟨S2097152x64, .f32⟩
  | 25 => ⟨S2097152x64, .f32⟩
  | 26 => ⟨S2097152x64, .f32⟩
  | 27 => ⟨S_, .f32⟩
  | 28 => ⟨S262144x64, .f32⟩
  | 29 => ⟨S2097152x1, .i32⟩
  | 30 => ⟨S262144x64, .f32⟩
  | 31 => ⟨S_, .f32⟩
  | 32 => ⟨S262144x64, .f32⟩
  | 33 => ⟨S2097152x1, .i32⟩
  | 34 => ⟨S262144x64, .f32⟩
  | 35 => ⟨S262144x64, .f32⟩
  | 36 => ⟨S262144x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S64, .f32⟩
  | 43 => ⟨S_, .f32⟩
  | 44 => ⟨S64, .f32⟩
  | 45 => ⟨S64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S262144x64, .f32⟩
  | 54 => ⟨S262144x64, .f32⟩
  | 55 => ⟨S262144x64, .f32⟩
  | 56 => ⟨S_, .f32⟩
  | 57 => ⟨S_, .f32⟩
  | 58 => ⟨S_, .f32⟩
  | 59 => ⟨S_, .f32⟩
  | 60 => ⟨S64, .f32⟩
  | 61 => ⟨S64, .f32⟩
  | 62 => ⟨S64, .f32⟩
  | 63 => ⟨S_, .f32⟩
  | 64 => ⟨S_, .i1⟩
  | 65 => ⟨S_, .f32⟩
  | 66 => ⟨S_, .f32⟩
  | 67 => ⟨S64, .f32⟩
  | 68 => ⟨S64, .f32⟩
  | 69 => ⟨S1x64, .f32⟩
  | 70 => ⟨S262144x64, .f32⟩
  | 71 => ⟨S262144x64, .f32⟩
  | 72 => ⟨S_, .f32⟩
  | 73 => ⟨S64, .f32⟩
  | 74 => ⟨S64, .f32⟩
  | 75 => ⟨S64, .f32⟩
  | 76 => ⟨S1x64, .f32⟩
  | 77 => ⟨S262144x64, .f32⟩
  | 78 => ⟨S262144x64, .f32⟩
  | 79 => ⟨S1x64, .f32⟩
  | 80 => ⟨S262144x64, .f32⟩
  | 81 => ⟨S262144x64, .f32⟩
  | 82 => ⟨S1x64, .f32⟩
  | 83 => ⟨S262144x64, .f32⟩
  | 84 => ⟨S262144x64, .f32⟩
  | 85 => ⟨S_, .f32⟩
  | 86 => ⟨S_, .f32⟩
  | 87 => ⟨S262144x64, .f32⟩
  | 88 => ⟨S262144x64, .i1⟩
  | 89 => ⟨S_, .f32⟩
  | 90 => ⟨S262144x64, .f32⟩
  | 91 => ⟨S262144x64, .f32⟩
  | 92 => ⟨S262144x64, .f32⟩
  | 93 => ⟨S1x64, .f32⟩
  | 94 => ⟨S64, .f32⟩
  | 95 => ⟨S1x64, .f32⟩
  | 96 => ⟨S64, .f32⟩
  | 97 => ⟨S_, .f32⟩
  | 98 => ⟨S262144, .f32⟩
  | 99 => ⟨S262144x1, .f32⟩
  | 100 => ⟨S_, .f32⟩
  | 101 => ⟨S262144x1, .f32⟩
  | 102 => ⟨S262144x1, .f32⟩
  | 103 => ⟨S_, .i32⟩
  | 104 => ⟨S_, .f32⟩
  | 105 => ⟨S262144, .f32⟩
  | 106 => ⟨S262144x1, .f32⟩
  | 107 => ⟨S_, .f32⟩
  | 108 => ⟨S262144x1, .f32⟩
  | 109 => ⟨S262144x1, .f32⟩
  | 110 => ⟨S262144x64, .f32⟩
  | 111 => ⟨S262144x64, .f32⟩
  | 112 => ⟨S262144x64, .f32⟩
  | 113 => ⟨S_, .f32⟩
  | 114 => ⟨S_, .f32⟩
  | 115 => ⟨S_, .f32⟩
  | 116 => ⟨S_, .f32⟩
  | 117 => ⟨S262144, .f32⟩
  | 118 => ⟨S262144x1, .f32⟩
  | 119 => ⟨S262144x1, .f32⟩
  | 120 => ⟨S262144x1, .f32⟩
  | 121 => ⟨S_, .f32⟩
  | 122 => ⟨S_, .i1⟩
  | 123 => ⟨S_, .f32⟩
  | 124 => ⟨S_, .f32⟩
  | 125 => ⟨S262144x1, .f32⟩
  | 126 => ⟨S262144x1, .f32⟩
  | 127 => ⟨S262144x64, .f32⟩
  | _ => ⟨S262144x200, .f32⟩

abbrev hbmTy0_2 (i : Nat) : BufTy := match i % 128 with
  | 0 => ⟨S262144x64, .f32⟩
  | 1 => ⟨S_, .f32⟩
  | 2 => ⟨S262144x1, .f32⟩
  | 3 => ⟨S262144x1, .f32⟩
  | 4 => ⟨S262144x1, .f32⟩
  | 5 => ⟨S262144x64, .f32⟩
  | 6 => ⟨S262144x64, .f32⟩
  | 7 => ⟨S1x64, .f32⟩
  | 8 => ⟨S262144x64, .f32⟩
  | 9 => ⟨S262144x64, .f32⟩
  | 10 => ⟨S1x64, .f32⟩
  | 11 => ⟨S262144x64, .f32⟩
  | 12 => ⟨S262144x64, .f32⟩
  | 13 => ⟨S1x64x64, .f32⟩
  | 14 => ⟨S64x64, .f32⟩
  | 15 => ⟨S262144x64, .f32⟩
  | 16 => ⟨S1x64, .f32⟩
  | 17 => ⟨S64, .f32⟩
  | 18 => ⟨S1x64, .f32⟩
  | 19 => ⟨S262144x64, .f32⟩
  | 20 => ⟨S262144x64, .f32⟩
  | 21 => ⟨S1x64x64, .f32⟩
  | 22 => ⟨S64x64, .f32⟩
  | 23 => ⟨S262144x64, .f32⟩
  | 24 => ⟨S1x64, .f32⟩
  | 25 => ⟨S64, .f32⟩
  | 26 => ⟨S1x64, .f32⟩
  | 27 => ⟨S262144x64, .f32⟩
  | 28 => ⟨S262144x64, .f32⟩
  | 29 => ⟨S_, .i32⟩
  | 30 => ⟨S2097152, .i32⟩
  | 31 => ⟨S2097152, .i1⟩
  | 32 => ⟨S_, .i32⟩
  | 33 => ⟨S2097152, .i32⟩
  | 34 => ⟨S2097152, .i32⟩
  | 35 => ⟨S2097152, .i32⟩
  | 36 => ⟨S2097152x1, .i32⟩
  | 37 => ⟨S2097152x64, .f32⟩
  | 38 => ⟨S2097152x64, .f32⟩
  | 39 => ⟨S2097152x64, .f32⟩
  | 40 => ⟨S_, .i32⟩
  | 41 => ⟨S2097152, .i32⟩
  | 42 => ⟨S2097152, .i1⟩
  | 43 => ⟨S_, .i32⟩
  | 44 => ⟨S2097152, .i32⟩
  | 45 => ⟨S2097152, .i32⟩
  | 46 => ⟨S2097152, .i32⟩
  | 47 => ⟨S2097152x1, .i32⟩
  | 48 => ⟨S2097152x64, .f32⟩
  | 49 => ⟨S2097152x64, .f32⟩
  | 50 => ⟨S2097152x64, .f32⟩
  | 51 => ⟨S_, .f32⟩
  | 52 => ⟨S262144x64, .f32⟩
  | 53 => ⟨S2097152x1, .i32⟩
  | 54 => ⟨S262144x64, .f32⟩
  | 55 => ⟨S_, .f32⟩
  | 56 => ⟨S262144x64, .f32⟩
  | 57 => ⟨S2097152x1, .i32⟩
  | 58 => ⟨S262144x64, .f32⟩
  | 59 => ⟨S262144x64, .f32⟩
  | 60 => ⟨S262144x64, .f32⟩
  | 61 => ⟨S1x64, .f32⟩
  | 62 => ⟨S64, .f32⟩
  | 63 => ⟨S1x64, .f32⟩
  | 64 => ⟨S64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S262144x64, .f32⟩
  | 78 => ⟨S262144x64, .f32⟩
  | 79 => ⟨S262144x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S1x64, .f32⟩
  | 94 => ⟨S262144x64, .f32⟩
  | 95 => ⟨S262144x64, .f32⟩
  | 96 => ⟨S_, .f32⟩
  | 97 => ⟨S64, .f32⟩
  | 98 => ⟨S64, .f32⟩
  | 99 => ⟨S64, .f32⟩
  | 100 => ⟨S1x64, .f32⟩
  | 101 => ⟨S262144x64, .f32⟩
  | 102 => ⟨S262144x64, .f32⟩
  | 103 => ⟨S1x64, .f32⟩
  | 104 => ⟨S262144x64, .f32⟩
  | 105 => ⟨S262144x64, .f32⟩
  | 106 => ⟨S1x64, .f32⟩
  | 107 => ⟨S262144x64, .f32⟩
  | 108 => ⟨S262144x64, .f32⟩
  | 109 => ⟨S_, .f32⟩
  | 110 => ⟨S_, .f32⟩
  | 111 => ⟨S262144x64, .f32⟩
  | 112 => ⟨S262144x64, .i1⟩
  | 113 => ⟨S_, .f32⟩
  | 114 => ⟨S262144x64, .f32⟩
  | 115 => ⟨S262144x64, .f32⟩
  | 116 => ⟨S262144x64, .f32⟩
  | 117 => ⟨S262144x16, .f32⟩
  | 118 => ⟨S1x16, .f32⟩
  | 119 => ⟨S262144x16, .f32⟩
  | 120 => ⟨S262144x16, .f32⟩
  | 121 => ⟨S_, .f32⟩
  | 122 => ⟨S262144, .f32⟩
  | 123 => ⟨S_, .f32⟩
  | 124 => ⟨S262144, .f32⟩
  | 125 => ⟨S262144, .f32⟩
  | 126 => ⟨S262144x1, .f32⟩
  | 127 => ⟨S262144x16, .f32⟩
  | _ => ⟨S262144x200, .f32⟩

abbrev hbmTy0_3 (i : Nat) : BufTy := match i % 128 with
  | 0 => ⟨S262144x16, .f32⟩
  | 1 => ⟨S262144x16, .f32⟩
  | 2 => ⟨S_, .f32⟩
  | 3 => ⟨S262144, .f32⟩
  | 4 => ⟨S262144x1, .f32⟩
  | 5 => ⟨S262144x16, .f32⟩
  | 6 => ⟨S262144x16, .f32⟩
  | _ => ⟨S262144x200, .f32⟩

abbrev hbmTy (i : Nat) : BufTy := match i / 128 with
  | 0 => hbmTy0_0 i
  | 1 => hbmTy0_1 i
  | 2 => hbmTy0_2 i
  | 3 => hbmTy0_3 i
  | _ => ⟨S262144x200, .f32⟩

abbrev bufTy : (tb : Table) → Fin (tcTables nBuf tb) → BufTy
  | .hbm, ⟨i, _⟩ => hbmTy i
  | _, _ => ⟨S262144x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_2 : Ref sig .tc := ⟨.hbm, 73, rfl⟩
abbrev main_v27 : Ref sig .tc := ⟨.hbm, 74, rfl⟩
abbrev main_v28 : Ref sig .tc := ⟨.hbm, 75, rfl⟩
abbrev main_cst_3 : Ref sig .tc := ⟨.hbm, 76, rfl⟩
abbrev main_v29 : Ref sig .tc := ⟨.hbm, 77, rfl⟩
abbrev main_v30 : Ref sig .tc := ⟨.hbm, 78, rfl⟩
abbrev main_c_4 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_cst_3 : Ref sig .tc := ⟨.hbm, 97, rfl⟩
abbrev main_call1_v13 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_cst_5 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_c_6 : Ref sig .tc := ⟨.hbm, 133, rfl⟩
abbrev main_v61 : Ref sig .tc := ⟨.hbm, 134, rfl⟩
abbrev main_v62 : Ref sig .tc := ⟨.hbm, 135, rfl⟩
abbrev main_c_7 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_8 : Ref sig .tc := ⟨.hbm, 144, rfl⟩
abbrev main_v70 : Ref sig .tc := ⟨.hbm, 145, rfl⟩
abbrev main_v71 : Ref sig .tc := ⟨.hbm, 146, rfl⟩
abbrev main_c_9 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_cst_10 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_cst_11 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_12 : Ref sig .tc := ⟨.hbm, 169, rfl⟩
abbrev main_v91 : Ref sig .tc := ⟨.hbm, 170, rfl⟩
abbrev main_cst_13 : Ref sig .tc := ⟨.hbm, 171, rfl⟩
abbrev main_v92 : Ref sig .tc := ⟨.hbm, 172, rfl⟩
abbrev main_v93 : Ref sig .tc := ⟨.hbm, 173, rfl⟩
abbrev main_c_14 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_cst_0 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_cst_1 : Ref sig .tc := ⟨.hbm, 185, rfl⟩
abbrev main_call2_v8 : Ref sig .tc := ⟨.hbm, 186, rfl⟩
abbrev main_call2_cst_2 : Ref sig .tc := ⟨.hbm, 187, rfl⟩
abbrev main_call2_v9 : Ref sig .tc := ⟨.hbm, 188, rfl⟩
abbrev main_call2_v10 : Ref sig .tc := ⟨.hbm, 189, rfl⟩
abbrev main_call2_v11 : Ref sig .tc := ⟨.hbm, 190, rfl⟩
abbrev main_call2_cst_3 : Ref sig .tc := ⟨.hbm, 191, rfl⟩
abbrev main_call2_v12 : Ref sig .tc := ⟨.hbm, 192, rfl⟩
abbrev main_call2_cst_4 : Ref sig .tc := ⟨.hbm, 193, rfl⟩
abbrev main_call2_call0_v0 : Ref sig .tc := ⟨.hbm, 194, rfl⟩
abbrev main_call2_call0_v1 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_cst_15 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_cst_16 : Ref sig .tc := ⟨.hbm, 213, rfl⟩
abbrev main_call3_cst : Ref sig .tc := ⟨.hbm, 214, rfl⟩
abbrev main_call3_v0 : Ref sig .tc := ⟨.hbm, 215, rfl⟩
abbrev main_call3_v1 : Ref sig .tc := ⟨.hbm, 216, rfl⟩
abbrev main_call3_v2 : Ref sig .tc := ⟨.hbm, 217, rfl⟩
abbrev main_call3_v3 : Ref sig .tc := ⟨.hbm, 218, rfl⟩
abbrev main_call3_v4 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_17 : Ref sig .tc := ⟨.hbm, 225, rfl⟩
abbrev main_v115 : Ref sig .tc := ⟨.hbm, 226, rfl⟩
abbrev main_v116 : Ref sig .tc := ⟨.hbm, 227, rfl⟩
abbrev main_cst_18 : Ref sig .tc := ⟨.hbm, 228, rfl⟩
abbrev main_v117 : Ref sig .tc := ⟨.hbm, 229, rfl⟩
abbrev main_v118 : Ref sig .tc := ⟨.hbm, 230, rfl⟩
abbrev main_c_19 : Ref sig .tc := ⟨.hbm, 231, rfl⟩
abbrev main_call4_cst : Ref sig .tc := ⟨.hbm, 232, rfl⟩
abbrev main_call4_v0 : Ref sig .tc := ⟨.hbm, 233, rfl⟩
abbrev main_call4_v1 : Ref sig .tc := ⟨.hbm, 234, rfl⟩
abbrev main_call4_cst_0 : Ref sig .tc := ⟨.hbm, 235, rfl⟩
abbrev main_call4_v2 : Ref sig .tc := ⟨.hbm, 236, rfl⟩
abbrev main_call4_v3 : Ref sig .tc := ⟨.hbm, 237, rfl⟩
abbrev main_call4_v4 : Ref sig .tc := ⟨.hbm, 238, rfl⟩
abbrev main_call4_v5 : Ref sig .tc := ⟨.hbm, 239, rfl⟩
abbrev main_call4_v6 : Ref sig .tc := ⟨.hbm, 240, rfl⟩
abbrev main_call4_v7 : Ref sig .tc := ⟨.hbm, 241, rfl⟩
abbrev main_call4_cst_1 : Ref sig .tc := ⟨.hbm, 242, rfl⟩
abbrev main_call4_v8 : Ref sig .tc := ⟨.hbm, 243, rfl⟩
abbrev main_call4_cst_2 : Ref sig .tc := ⟨.hbm, 244, rfl⟩
abbrev main_call4_v9 : Ref sig .tc := ⟨.hbm, 245, rfl⟩
abbrev main_call4_v10 : Ref sig .tc := ⟨.hbm, 246, rfl⟩
abbrev main_call4_v11 : Ref sig .tc := ⟨.hbm, 247, rfl⟩
abbrev main_call4_v12 : Ref sig .tc := ⟨.hbm, 248, rfl⟩
abbrev main_call4_cst_3 : Ref sig .tc := ⟨.hbm, 249, rfl⟩
abbrev main_call4_v13 : Ref sig .tc := ⟨.hbm, 250, rfl⟩
abbrev main_call4_cst_4 : Ref sig .tc := ⟨.hbm, 251, rfl⟩
abbrev main_call4_call0_v0 : Ref sig .tc := ⟨.hbm, 252, rfl⟩
abbrev main_call4_call0_v1 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_cst_20 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_c_21 : Ref sig .tc := ⟨.hbm, 285, rfl⟩
abbrev main_v149 : Ref sig .tc := ⟨.hbm, 286, rfl⟩
abbrev main_v150 : Ref sig .tc := ⟨.hbm, 287, rfl⟩
abbrev main_c_22 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_c_23 : Ref sig .tc := ⟨.hbm, 296, rfl⟩
abbrev main_v158 : Ref sig .tc := ⟨.hbm, 297, rfl⟩
abbrev main_v159 : Ref sig .tc := ⟨.hbm, 298, rfl⟩
abbrev main_c_24 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_cst_25 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_cst_26 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_cst_27 : Ref sig .tc := ⟨.hbm, 321, rfl⟩
abbrev main_v179 : Ref sig .tc := ⟨.hbm, 322, rfl⟩
abbrev main_cst_28 : Ref sig .tc := ⟨.hbm, 323, rfl⟩
abbrev main_v180 : Ref sig .tc := ⟨.hbm, 324, rfl⟩
abbrev main_v181 : Ref sig .tc := ⟨.hbm, 325, rfl⟩
abbrev main_c_29 : Ref sig .tc := ⟨.hbm, 326, rfl⟩
abbrev main_call5_cst : Ref sig .tc := ⟨.hbm, 327, rfl⟩
abbrev main_call5_v0 : Ref sig .tc := ⟨.hbm, 328, rfl⟩
abbrev main_call5_v1 : Ref sig .tc := ⟨.hbm, 329, rfl⟩
abbrev main_call5_cst_0 : Ref sig .tc := ⟨.hbm, 330, rfl⟩
abbrev main_call5_v2 : Ref sig .tc := ⟨.hbm, 331, rfl⟩
abbrev main_call5_v3 : Ref sig .tc := ⟨.hbm, 332, rfl⟩
abbrev main_call5_v4 : Ref sig .tc := ⟨.hbm, 333, rfl⟩
abbrev main_call5_v5 : Ref sig .tc := ⟨.hbm, 334, rfl⟩
abbrev main_call5_v6 : Ref sig .tc := ⟨.hbm, 335, rfl⟩
abbrev main_call5_v7 : Ref sig .tc := ⟨.hbm, 336, rfl⟩
abbrev main_call5_cst_1 : Ref sig .tc := ⟨.hbm, 337, rfl⟩
abbrev main_call5_v8 : Ref sig .tc := ⟨.hbm, 338, rfl⟩
abbrev main_call5_cst_2 : Ref sig .tc := ⟨.hbm, 339, rfl⟩
abbrev main_call5_v9 : Ref sig .tc := ⟨.hbm, 340, rfl⟩
abbrev main_call5_v10 : Ref sig .tc := ⟨.hbm, 341, rfl⟩
abbrev main_call5_v11 : Ref sig .tc := ⟨.hbm, 342, rfl⟩
abbrev main_call5_cst_3 : Ref sig .tc := ⟨.hbm, 343, rfl⟩
abbrev main_call5_v12 : Ref sig .tc := ⟨.hbm, 344, rfl⟩
abbrev main_call5_cst_4 : Ref sig .tc := ⟨.hbm, 345, rfl⟩
abbrev main_call5_call0_v0 : Ref sig .tc := ⟨.hbm, 346, rfl⟩
abbrev main_call5_call0_v1 : Ref sig .tc := ⟨.hbm, 347, rfl⟩
abbrev main_v182 : Ref sig .tc := ⟨.hbm, 348, rfl⟩
abbrev main_v183 : Ref sig .tc := ⟨.hbm, 349, rfl⟩
abbrev main_v184 : Ref sig .tc := ⟨.hbm, 350, rfl⟩
abbrev main_v185 : Ref sig .tc := ⟨.hbm, 351, rfl⟩
abbrev main_cst_30 : Ref sig .tc := ⟨.hbm, 352, rfl⟩
abbrev main_v186 : Ref sig .tc := ⟨.hbm, 353, rfl⟩
abbrev main_v187 : Ref sig .tc := ⟨.hbm, 354, rfl⟩
abbrev main_v188 : Ref sig .tc := ⟨.hbm, 355, rfl⟩
abbrev main_v189 : Ref sig .tc := ⟨.hbm, 356, rfl⟩
abbrev main_v190 : Ref sig .tc := ⟨.hbm, 357, rfl⟩
abbrev main_v191 : Ref sig .tc := ⟨.hbm, 358, rfl⟩
abbrev main_v192 : Ref sig .tc := ⟨.hbm, 359, rfl⟩
abbrev main_v193 : Ref sig .tc := ⟨.hbm, 360, rfl⟩
abbrev main_v194 : Ref sig .tc := ⟨.hbm, 361, rfl⟩
abbrev main_v195 : Ref sig .tc := ⟨.hbm, 362, rfl⟩
abbrev main_v196 : Ref sig .tc := ⟨.hbm, 363, rfl⟩
abbrev main_v197 : Ref sig .tc := ⟨.hbm, 364, rfl⟩
abbrev main_cst_31 : Ref sig .tc := ⟨.hbm, 365, rfl⟩
abbrev main_call6_cst : Ref sig .tc := ⟨.hbm, 366, rfl⟩
abbrev main_call6_v0 : Ref sig .tc := ⟨.hbm, 367, rfl⟩
abbrev main_call6_v1 : Ref sig .tc := ⟨.hbm, 368, rfl⟩
abbrev main_call6_v2 : Ref sig .tc := ⟨.hbm, 369, rfl⟩
abbrev main_call6_v3 : Ref sig .tc := ⟨.hbm, 370, rfl⟩
abbrev main_call6_v4 : Ref sig .tc := ⟨.hbm, 371, rfl⟩
abbrev main_v198 : Ref sig .tc := ⟨.hbm, 372, rfl⟩
abbrev main_v199 : Ref sig .tc := ⟨.hbm, 373, rfl⟩
abbrev main_v200 : Ref sig .tc := ⟨.hbm, 374, rfl⟩
abbrev main_v201 : Ref sig .tc := ⟨.hbm, 375, rfl⟩
abbrev main_v202 : Ref sig .tc := ⟨.hbm, 376, rfl⟩
abbrev main_cst_32 : Ref sig .tc := ⟨.hbm, 377, rfl⟩
abbrev main_v203 : Ref sig .tc := ⟨.hbm, 378, rfl⟩
abbrev main_cst_33 : Ref sig .tc := ⟨.hbm, 379, rfl⟩
abbrev main_v204 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_cst_34 : Ref sig .tc := ⟨.hbm, 386, rfl⟩
abbrev main_v210 : Ref sig .tc := ⟨.hbm, 387, rfl⟩
abbrev main_v211 : Ref sig .tc := ⟨.hbm, 388, rfl⟩
abbrev main_v212 : Ref sig .tc := ⟨.hbm, 389, rfl⟩
abbrev main_v213 : Ref sig .tc := ⟨.hbm, 390, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x64_S64_d0 : S262144x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x64_S1x64_0_0 : S2x64.Slices ![0, 0] S1x64
  shapeCasts_S1x64_S64 : S1x64.ShapeCasts S64
  reducesTo_S262144x64_S262144_d1 : S262144x64.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  slices_S2x64x64_S1x64x64_0_0_0 : S2x64x64.Slices ![0, 0, 0] S1x64x64
  shapeCasts_S1x64x64_S64x64 : S1x64x64.ShapeCasts S64x64
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bcast_S_S262144x64 : S_.BroadcastsInDim S262144x64 (![] : Fin 0 → Fin S262144x64.rank)
  slices_S2x64_S1x64_1_0 : S2x64.Slices ![1, 0] S1x64
  slices_S2x64x64_S1x64x64_1_0_0 : S2x64x64.Slices ![1, 0, 0] S1x64x64
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  reducesTo_S262144x16_S262144_d1 : S262144x16.ReducesTo [1] S262144
  bcast_S_S262144 : S_.BroadcastsInDim S262144 (![] : Fin 0 → Fin S262144.rank)
  bcast_S262144x1_S262144x16_0_1 : S262144x1.BroadcastsInDim S262144x16 (![0, 1] : Fin 2 → Fin S262144x16.rank)
  dot_S262144x200_S200x64_S262144x64_1_0_0_1_n_n_wf : DotDims.WF S262144x200 S200x64 S262144x64 [1] [0] [0] [1] [] []
  dot_S262144x64_S64x64_S262144x64_1_0_0_1_n_n_wf : DotDims.WF S262144x64 S64x64 S262144x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x16_S262144x16_1_0_0_1_n_n_wf : DotDims.WF S262144x64 S64x16 S262144x16 [1] [0] [0] [1] [] []

variable [Facts₀]

def dot_S262144x200_S200x64_S262144x64_1_0_0_1_n_n : DotDims S262144x200 S200x64 S262144x64 where
  lhsContracting := [1]
  rhsContracting := [0]
  lhsNonContracting := [0]
  rhsNonContracting := [1]
  lhsBatch := []
  rhsBatch := []
  wf := dot_S262144x200_S200x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf

class Facts : Prop extends Facts₀ where

variable [Facts]
-- ==== Proof.K.Dense0.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 0: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with (`defs₀`'s row at the slots). -/
abbrev bodyAt0 (t : Fin cfg0.N) : Prog (TpuEff nD τ sig (Elt F) Λ₀ .tc) PUnit :=
  cc0__dense_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

/-! ## The windows' blocks -/

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (block `(i, 0)`, fetched at every point): its current staging buffer holds its block, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' window (block `(0, 0)` at every point, so fetched at the first only): at a later point the block
    index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias's window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S4096x200 := Rect.unit (s := S4096x200) ![0, 0] S4096x200.size inb_S4096x200_S4096x200_0_0
abbrev r0_1 : Rect S200x64 := Rect.unit (s := S200x64) ![0, 0] S200x64.size inb_S200x64_S200x64_0_0
abbrev r0_2 : Rect S1x64 := Rect.unit (s := S1x64) ![0, 0] S1x64.size inb_S1x64_S1x64_0_0
abbrev r0_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out0_3 (x0 : Vec F S4096x200 .f32) (x1 : Vec F S200x64 .f32) (x2 : Vec F S1x64 .f32) : Vec F S4096x64 .f32 :=
  View.canon [⟨r0_3, k0_pay1 (View.ld x0 r0_0) (View.ld x1 r0_1) (View.ld x2 r0_2)⟩]

/-- The one store is of the whole buffer, so it covers it. -/
theorem cover0_3 (p0 : Vec F S4096x64 .f32) (y : S4096x64.Idx) :
    ∃ pc ∈ ([⟨r0_3, p0⟩] : List (View.Piece (Elt F) S4096x64 .f32)), y ∈ pc.1.set :=
  View.cover_of_tiled [⟨r0_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out0_3 x0 x1 x2`: three whole loads, a
    load of the result buffer whose value is not used, and the one whole store. -/
theorem sound_kernel0 (c : Dev nD) (E : Set ℕ) (i : grid0.Coords) (arg0 : Memref sig .tc .vmem S4096x200 .f32) (harg0 : arg0.IsWhole) (arg1 : Memref sig .tc .vmem S200x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x200 .f32) (x1 : Vec F S200x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__dense_kernel i arg0 harg0 arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the pipeline finds them (`V`); after the body at point
    `t` each input's buffer at its block and the result's at `out0_3` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dense1.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 1: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with (`defs₀`'s row at the slots). -/
abbrev bodyAt1 (t : Fin cfg1.N) : Prog (TpuEff nD τ sig (Elt F) Λ₀ .tc) PUnit :=
  cc1__dense_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window (block `(i, 0)`, fetched at every point): its current staging buffer holds its block, for
    any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weights' window (block `(0, 0)` at every point, so fetched at the first only): at a later point the block
    index has not moved and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias's window, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S4096x64 := Rect.unit (s := S4096x64) ![0, 0] S4096x64.size inb_S4096x64_S4096x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out1_3 (x0 : Vec F S4096x64 .f32) (x1 : Vec F S64x64 .f32) (x2 : Vec F S1x64 .f32) : Vec F S4096x64 .f32 :=
  View.canon [⟨r1_3, k1_pay1 (View.ld x0 r1_0) (View.ld x1 r1_1) (View.ld x2 r1_2)⟩]

/-- The one store is of the whole buffer, so it covers it. -/
theorem cover1_3 (p0 : Vec F S4096x64 .f32) (y : S4096x64.Idx) :
    ∃ pc ∈ ([⟨r1_3, p0⟩] : List (View.Piece (Elt F) S4096x64 .f32)), y ∈ pc.1.set :=
  View.cover_of_tiled [⟨r1_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out1_3 x0 x1 x2`: three whole loads, a
    load of the result buffer whose value is not used, and the one whole store. -/
theorem sound_kernel1 (c : Dev nD) (E : Set ℕ) (i : grid1.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__dense_kernel i arg0 harg0 arg1 harg1 arg2 harg2 arg3 harg3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the pipeline finds them (`V`); after the body at point
    `t` each input's buffer at its block and the result's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Dense2.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 2: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with (`defs₀`'s row at the slots). -/
abbrev bodyAt2 (t : Fin cfg2.N) : Prog (TpuEff nD τ sig (Elt F) Λ₀ .tc) PUnit :=
  cc2__dense_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))

/-! ## The windows' blocks -/

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window (block `(i, 0)`, fetched at every point): its current staging buffer holds its block, for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' window (block `(0, 0)` at every point, so fetched at the first only): at a later point the block
    index has not moved and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias's window, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S4096x64 := Rect.unit (s := S4096x64) ![0, 0] S4096x64.size inb_S4096x64_S4096x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out2_3 (x0 : Vec F S4096x64 .f32) (x1 : Vec F S64x64 .f32) (x2 : Vec F S1x64 .f32) : Vec F S4096x64 .f32 :=
  View.canon [⟨r2_3, k2_pay1 (View.ld x0 r2_0) (View.ld x1 r2_1) (View.ld x2 r2_2)⟩]

/-- The one store is of the whole buffer, so it covers it. -/
theorem cover2_3 (p0 : Vec F S4096x64 .f32) (y : S4096x64.Idx) :
    ∃ pc ∈ ([⟨r2_3, p0⟩] : List (View.Piece (Elt F) S4096x64 .f32)), y ∈ pc.1.set :=
  View.cover_of_tiled [⟨r2_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out2_3 x0 x1 x2`: three whole loads, a
    load of the result buffer whose value is not used, and the one whole store. -/
theorem sound_kernel2 (c : Dev nD) (E : Set ℕ) (i : grid2.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__dense_kernel i arg0 harg0 arg1 harg1 arg2 harg2 arg3 harg3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the pipeline finds them (`V`); after the body at point
    `t` each input's buffer at its block and the result's at `out2_3` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Dense5.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 5: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)

/-- The kernel body at point `t`, on what the pipeline calls it with (`defs₀`'s row at the slots). -/
abbrev bodyAt5 (t : Fin cfg5.N) : Prog (TpuEff nD τ sig (Elt F) Λ₀ .tc) PUnit :=
  cc5__dense_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3))

/-! ## The windows' blocks -/

/-- Window `w`'s block at point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' window (block `(i, 0)`, fetched at every point): its current staging buffer holds its block, for
    any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weights' window (block `(0, 0)` at every point, so fetched at the first only): at a later point the block
    index has not moved and the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The bias's window, likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each the whole of its buffer -/

abbrev r5_0 : Rect S4096x64 := Rect.unit (s := S4096x64) ![0, 0] S4096x64.size inb_S4096x64_S4096x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out5_3 (x0 : Vec F S4096x64 .f32) (x1 : Vec F S64x64 .f32) (x2 : Vec F S1x64 .f32) : Vec F S4096x64 .f32 :=
  View.canon [⟨r5_3, k5_pay1 (View.ld x0 r5_0) (View.ld x1 r5_1) (View.ld x2 r5_2)⟩]

/-- The one store is of the whole buffer, so it covers it. -/
theorem cover5_3 (p0 : Vec F S4096x64 .f32) (y : S4096x64.Idx) :
    ∃ pc ∈ ([⟨r5_3, p0⟩] : List (View.Piece (Elt F) S4096x64 .f32)), y ∈ pc.1.set :=
  View.cover_of_tiled [⟨r5_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out5_3 x0 x1 x2`: three whole loads, a
    load of the result buffer whose value is not used, and the one whole store. -/
theorem sound_kernel5 (c : Dev nD) (E : Set ℕ) (i : grid5.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__dense_kernel i arg0 harg0 arg1 harg1 arg2 harg2 arg3 harg3) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the pipeline finds them (`V`); after the body at point
    `t` each input's buffer at its block and the result's at `out5_3` of the three input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents (the definition projected). -/
theorem A_eq5 (c : Dev nD) (w : Fin cfg5.W) : (dat5 V c).A w = V c (Pipeline.arrRef spec5 w) := by
  dsimp only [dat5]

/-- What the body leaves, window by window (the definition's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Dense6.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 6: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The kernel body at point `t`, on what the pipeline calls it with (`defs₀`'s row at the slots). -/
abbrev bodyAt6 (t : Fin cfg6.N) : Prog (TpuEff nD τ sig (Elt F) Λ₀ .tc) PUnit :=
  cc6__dense_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3))

/-! ## The windows' blocks -/

/-- Window `w`'s block at point `t`, read off its array as the pipeline finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' window (block `(i, 0)`, fetched at every point): its current staging buffer holds its block, for
    any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weights' window (block `(0, 0)` at every point, so fetched at the first only): at a later point the block
    index has not moved and the buffer still holds the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The bias's window, likewise. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each the whole of its buffer -/

abbrev r6_0 : Rect S4096x64 := Rect.unit (s := S4096x64) ![0, 0] S4096x64.size inb_S4096x64_S4096x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out6_3 (x0 : Vec F S4096x64 .f32) (x1 : Vec F S64x64 .f32) (x2 : Vec F S1x64 .f32) : Vec F S4096x64 .f32 :=
  View.canon [⟨r6_3, k6_pay1 (View.ld x0 r6_0) (View.ld x1 r6_1) (View.ld x2 r6_2)⟩]

/-- The one store is of the whole buffer, so it covers it. -/
theorem cover6_3 (p0 : Vec F S4096x64 .f32) (y : S4096x64.Idx) :
    ∃ pc ∈ ([⟨r6_3, p0⟩] : List (View.Piece (Elt F) S4096x64 .f32)), y ∈ pc.1.set :=
  View.cover_of_tiled [⟨r6_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out6_3 x0 x1 x2`: three whole loads, a
    load of the result buffer whose value is not used, and the one whole store. -/
theorem sound_kernel6 (c : Dev nD) (E : Set ℕ) (i : grid6.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__dense_kernel i arg0 harg0 arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the pipeline finds them (`V`); after the body at point
    `t` each input's buffer at its block and the result's at `out6_3` of the three input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents (the definition projected). -/
theorem A_eq6 (c : Dev nD) (w : Fin cfg6.W) : (dat6 V c).A w = V c (Pipeline.arrRef spec6 w) := by
  dsimp only [dat6]

/-- What the body leaves, window by window (the definition's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Dense9.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Tactic

/-! # Pipeline 9: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st9_0 (t : Fin cfg9.N) := (cfg9.win 0).stage (cfg9.slots t 0)
abbrev st9_1 (t : Fin cfg9.N) := (cfg9.win 1).stage (cfg9.slots t 1)
abbrev st9_2 (t : Fin cfg9.N) := (cfg9.win 2).stage (cfg9.slots t 2)
abbrev st9_3 (t : Fin cfg9.N) := (cfg9.win 3).stage (cfg9.slots t 3)

/-- The kernel body at point `t`, on what the pipeline calls it with (`defs₀`'s row at the slots). -/
abbrev bodyAt9 (t : Fin cfg9.N) : Prog (TpuEff nD τ sig (Elt F) Λ₀ .tc) PUnit :=
  cc9__dense_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (win9_3.stage (cfg9.slots t 3)) (hstage9_3 ((cfg9.slots t 3).cast nbuf9_3))

/-! ## The windows' blocks -/

/-- Window `w`'s block at point `t`, read off its array as the pipeline finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The activations' window (block `(i, 0)`, fetched at every point): its current staging buffer holds its block, for
    any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weights' window (block `(0, 0)` at every point, so fetched at the first only): at a later point the block
    index has not moved and the buffer still holds the block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The bias's window, likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each the whole of its buffer -/

abbrev r9_0 : Rect S4096x64 := Rect.unit (s := S4096x64) ![0, 0] S4096x64.size inb_S4096x64_S4096x64_0_0
abbrev r9_1 : Rect S64x16 := Rect.unit (s := S64x16) ![0, 0] S64x16.size inb_S64x16_S64x16_0_0
abbrev r9_2 : Rect S1x16 := Rect.unit (s := S1x16) ![0, 0] S1x16.size inb_S1x16_S1x16_0_0
abbrev r9_3 : Rect S4096x16 := Rect.unit (s := S4096x16) ![0, 0] S4096x16.size inb_S4096x16_S4096x16_0_0

/-! ## What the body leaves in the result's buffer -/

/-- The result window's staging buffer after the body, from the three input blocks: its one store (the product plus
    the broadcast bias, the skeleton's payload) as the only piece. -/
def out9_3 (x0 : Vec F S4096x64 .f32) (x1 : Vec F S64x16 .f32) (x2 : Vec F S1x16 .f32) : Vec F S4096x16 .f32 :=
  View.canon [⟨r9_3, k9_pay1 (View.ld x0 r9_0) (View.ld x1 r9_1) (View.ld x2 r9_2)⟩]

/-- The one store is of the whole buffer, so it covers it. -/
theorem cover9_3 (p0 : Vec F S4096x16 .f32) (y : S4096x16.Idx) :
    ∃ pc ∈ ([⟨r9_3, p0⟩] : List (View.Piece (Elt F) S4096x16 .f32)), y ∈ pc.1.set :=
  View.cover_of_tiled [⟨r9_3, p0⟩] S4096x16.size (by rfl) y

/-! ## The body's triple -/

set_option maxHeartbeats 1000000 in
/-- The kernel body on whole staging memrefs, the inputs' at contents `x0 x1 x2` and the result's at anything, runs
    to the continuation holding the inputs' as they were and the result's at `out9_3 x0 x1 x2`: three whole loads, a
    load of the result buffer whose value is not used, and the one whole store. -/
theorem sound_kernel9 (c : Dev nD) (E : Set ℕ) (i : grid9.Coords) (arg0 : Memref sig .tc .vmem S4096x64 .f32) (harg0 : arg0.IsWhole) (arg1 : Memref sig .tc .vmem S64x16 .f32) (harg1 : arg1.IsWhole) (arg2 : Memref sig .tc .vmem S1x16 .f32) (harg2 : arg2.IsWhole) (arg3 : Memref sig .tc .vmem S4096x16 .f32) (harg3 : arg3.IsWhole)
    (x0 : Vec F S4096x64 .f32) (x1 : Vec F S64x16 .f32) (x2 : Vec F S1x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__dense_kernel i arg0 harg0 arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the pipeline finds them (`V`); after the body at point
    `t` each input's buffer at its block and the result's at `out9_3` of the three input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the entry contents (the definition projected). -/
theorem A_eq9 (c : Dev nD) (w : Fin cfg9.W) : (dat9 V c).A w = V c (Pipeline.arrRef spec9 w) := by
  dsimp only [dat9]

/-- What the body leaves, window by window (the definition's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Scat3Runs.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (segment sum by a one-hot product, accumulated in a scratch buffer): what the three runs share -/

/-! ## The grid's coordinates in closed form

The grid is 128 x 512, last axis fastest: point `t` has coordinates `(t / 512, t % 512)`. -/

theorem stride3_0 : grid3.stride 0 = 512 := by decide
theorem stride3_1 : grid3.stride 1 = 1 := by decide

theorem coords3_0_val (t : Fin cfg3.N) : ((grid3.coords t) 0).val = t.val / 512 % 128 := by
  show t.val / grid3.stride 0 % 128 = _
  rw [stride3_0]

theorem coords3_1_val (t : Fin cfg3.N) : ((grid3.coords t) 1).val = t.val % 512 := by
  show t.val / grid3.stride 1 % 512 = _
  rw [stride3_1, Nat.div_one]

/-! ## The current staging memrefs and the body as the pipeline calls it -/

/-- The current staging memref of each window at point `t`. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with. -/
abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

/-! ## The body's branch conditions -/

/-- The condition of the body's first conditional (reset of the accumulator), from the grid coordinates. -/
abbrev cond3_0 (i : grid3.Coords) : Prop := (Scalar.cmpi .ne (Scalar.extui (Scalar.cmpi .eq (BitVec.ofNat 32 (i 1).val) 0#32)) 0#32) = 1#1

/-- It says that the second coordinate is 0 (decided over that coordinate's 512 values). -/
theorem cond3_0_iff (i : grid3.Coords) : cond3_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond3_0 (t : Fin cfg3.N) : cond3_0 (grid3.coords t) ↔ t.val % 512 = 0 := by
  rw [cond3_0_iff, coords3_1_val]

/-- The condition of the body's second conditional (the accumulator copied to the output block). -/
abbrev cond3_1 (i : grid3.Coords) : Prop := k3_cond2 i = 1#1

/-- It says that the second coordinate is 511. -/
theorem cond3_1_iff (i : grid3.Coords) : cond3_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond3_1 (t : Fin cfg3.N) : cond3_1 (grid3.coords t) ↔ t.val % 512 = 511 := by
  rw [cond3_1_iff, coords3_1_val]

/-! ## Where the windows are idle, and where the output block is written back -/

/-- Windows 0 and 1 (inputs) are never idle. -/
theorem liveAt3_0 (t : Fin cfg3.N) : cfg3.idle 0 (grid3.coords t) = false := rfl
theorem liveAt3_1 (t : Fin cfg3.N) : cfg3.idle 1 (grid3.coords t) = false := rfl

/-- Where the second conditional is not taken the output window is idle. -/
theorem idleAt3_2 (i : grid3.Coords) (h1 : ¬cond3_1 i) : cfg3.idle 2 i = true := by
  show (!(k3_cond2 i == 1#1)) = true
  rw [Bool.not_eq_true', beq_eq_false_iff_ne]; exact h1

/-- Where it is taken the output window is live. -/
theorem liveAt3_2 (i : grid3.Coords) (h1 : cond3_1 i) : cfg3.idle 2 i = false := by
  show (!(k3_cond2 i == 1#1)) = false
  rw [Bool.not_eq_false', beq_iff_eq]; exact h1

/-- The output window's block index does not move between a point and the next unless the point is the
    last of its row: the index map reads the first coordinate only, `t / 512`. -/
theorem index3_2_succ (t : Fin cfg3.N) (h : ¬t.val % 512 = 511) (h1 : t.val + 1 < grid3.N) :
    (cfg3.win 2).index ⟨t.val + 1, h1⟩ = (cfg3.win 2).index t := by
  unfold Pipeline.Window.index
  refine (cfg3.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords3_0_val, coords3_0_val]
  show (t.val + 1) / 512 % 128 = t.val / 512 % 128
  omega

/-- Away from the points ≡ 511 (mod 512) the pipeline does not write the output block back. -/
theorem noFlush3_2 (t : Fin cfg3.N) (h : ¬t.val % 512 = 511) : (cfg3.win 2).flush t = false := by
  have hN : grid3.N = 65536 := N_3
  have ht : t.val < 65536 := lt_of_lt_of_eq t.isLt N_3
  cases hfl : (cfg3.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index3_2_succ t h h1)

/-! ## The memrefs the body runs on -/

/-- One staging buffer of output window 2, through which its contents are stated. -/
abbrev VO3_2 : View sig .tc .vmem S2048x64 .f32 := (Memref.whole cc3_stg2_0 : Memref sig .tc .vmem S2048x64 .f32).view
/-- Each window's current staging memref at point `t`, spelled as the pipeline passes it, and its wholeness. -/
abbrev ms3_0 (t : Fin cfg3.N) : Memref sig .tc .vmem S4096x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The scratch operand (the accumulator): a whole scoped buffer of the kernel's own, passed beside the windows. -/
abbrev scM3_0 : Memref sig .tc .vmem S2048x64 .f32 := Memref.whole cc3_scratch0
/-- The accumulator as a view: what it holds is stated through it. -/
abbrev VS3_0 : View sig .tc .vmem S2048x64 .f32 := scM3_0.view

/-- The class's invariant with the accumulator as a memref owned at some contents, the other scoped buffers
    unopened, and the generator register at some state. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.Scat3RunA.lean ====
import proofs.«406228_j54073638257180_1_alg».proof.Proof.K.Scat3Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun3_A (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨[], ?_, fun xi2 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat3RunB.lean ====
import proofs.«406228_j54073638257180_1_alg».proof.Proof.K.Scat3RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun3_B (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨[], ?_, fun xi2 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat3RunC.lean ====
import proofs.«406228_j54073638257180_1_alg».proof.Proof.K.Scat3RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun3_C (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Scat3.lean ====
import proofs.«406228_j54073638257180_1_alg».proof.Proof.K.Scat3RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out3_A_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) : Vec F S2048x64 .f32 :=
  VO3_2.read (Elt F) (VO3_2.writes (Elt F) VO3_2.junk (kernelRun3_A c i arg2 harg2 arg3 harg3 arg4 harg4 arg5 harg5 hc0 hc1 x0 x1).1)

/-- Case A's pieces for the accumulator cover it: each store writes it whole. -/
theorem scover3_A_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) (y : S2048x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S2048x64.size (by sl_kernel_rfl) y

/-- What case A leaves in the accumulator: its pieces read back over junk. -/
def sout3_A_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) : Vec F S2048x64 .f32 :=
  VS3_0.read (Elt F) (VS3_0.writes (Elt F) VS3_0.junk (kernelRun3_A c i arg2 harg2 arg3 harg3 arg4 harg4 arg5 harg5 hc0 hc1 x0 x1).2.1)

/-- Case B stores nothing into the output block (the window is idle at its points and not written back there):
    no pieces — a placeholder (junk read back) that nothing consults. -/
def out3_B_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) : Vec F S2048x64 .f32 :=
  VO3_2.read (Elt F) (VO3_2.writes (Elt F) VO3_2.junk (kernelRun3_B c i arg2 harg2 arg3 harg3 arg4 harg4 arg5 harg5 hc0 hc1 x0 x1 xs0).1)

/-- Case B's pieces for the accumulator cover it: each store writes it whole. -/
theorem scover3_B_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) (y : S2048x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S2048x64.size (by sl_kernel_rfl) y

/-- What case B leaves in the accumulator: its pieces read back over junk. -/
def sout3_B_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) : Vec F S2048x64 .f32 :=
  VS3_0.read (Elt F) (VS3_0.writes (Elt F) VS3_0.junk (kernelRun3_B c i arg2 harg2 arg3 harg3 arg4 harg4 arg5 harg5 hc0 hc1 x0 x1 xs0).2.1)

/-- Case C's one store into the output block tiles it, so its pieces cover it. -/
theorem cover3_C_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) (y : S2048x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S2048x64.size (by sl_kernel_rfl) y

/-- What case C leaves in the output block's staging buffer: its pieces read back over junk. -/
def out3_C_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) : Vec F S2048x64 .f32 :=
  VO3_2.read (Elt F) (VO3_2.writes (Elt F) VO3_2.junk (kernelRun3_C c i arg2 harg2 arg3 harg3 arg4 harg4 arg5 harg5 hc0 hc1 x0 x1 xs0).1)

/-- Case C's pieces for the accumulator cover it: each store writes it whole. -/
theorem scover3_C_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) (y : S2048x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S2048x64.size (by sl_kernel_rfl) y

/-- What case C leaves in the accumulator: its pieces read back over junk. -/
def sout3_C_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) : Vec F S2048x64 .f32 :=
  VS3_0.read (Elt F) (VS3_0.writes (Elt F) VS3_0.junk (kernelRun3_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt3 (c : Dev nD) : (n : ℕ) → n < cfg3.N → Vec F S2048x64 .f32 × Vec F S2048x64 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 512 = 0 then
      if h1 : (n + 1) % 512 = 511 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 512 = 511 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a point of case A: that case's contents. -/
theorem outsAt3_A (c : Dev nD) (t : Fin cfg3.N) (h0 : t.val % 512 = 0) (h1 : ¬t.val % 512 = 511) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 512 = 0) (h1 : ¬t.val % 512 = 511) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 512 = 0) (h1 : t.val % 512 = 511) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 65536 := lt_of_lt_of_eq t.isLt (show cfg3.N = 65536 from N_3)
  by_cases h0 : t.val % 512 = 0
  · by_cases h1 : t.val % 512 = 511
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t h1)]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 _ ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t h1)]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 65536 := N_3; omega)

end Region

end Cert.Kernel.Hand

end
-- ==== Proof.K.Scat4Runs.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (segment sum by a one-hot product, accumulated in a scratch buffer): what the three runs share -/

/-! ## The grid's coordinates in closed form

The grid is 128 x 512, last axis fastest: point `t` has coordinates `(t / 512, t % 512)`. -/

theorem stride4_0 : grid4.stride 0 = 512 := by decide
theorem stride4_1 : grid4.stride 1 = 1 := by decide

theorem coords4_0_val (t : Fin cfg4.N) : ((grid4.coords t) 0).val = t.val / 512 % 128 := by
  show t.val / grid4.stride 0 % 128 = _
  rw [stride4_0]

theorem coords4_1_val (t : Fin cfg4.N) : ((grid4.coords t) 1).val = t.val % 512 := by
  show t.val / grid4.stride 1 % 512 = _
  rw [stride4_1, Nat.div_one]

/-! ## The current staging memrefs and the body as the pipeline calls it -/

/-- The current staging memref of each window at point `t`. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)

/-- The kernel body at point `t`, on what the pipeline calls it with. -/
abbrev bodyAt4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

/-! ## The body's branch conditions -/

/-- The condition of the body's first conditional (reset of the accumulator), from the grid coordinates. -/
abbrev cond4_0 (i : grid4.Coords) : Prop := (Scalar.cmpi .ne (Scalar.extui (Scalar.cmpi .eq (BitVec.ofNat 32 (i 1).val) 0#32)) 0#32) = 1#1

/-- It says that the second coordinate is 0 (decided over that coordinate's 512 values). -/
theorem cond4_0_iff (i : grid4.Coords) : cond4_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond4_0 (t : Fin cfg4.N) : cond4_0 (grid4.coords t) ↔ t.val % 512 = 0 := by
  rw [cond4_0_iff, coords4_1_val]

/-- The condition of the body's second conditional (the accumulator copied to the output block). -/
abbrev cond4_1 (i : grid4.Coords) : Prop := k4_cond2 i = 1#1

/-- It says that the second coordinate is 511. -/
theorem cond4_1_iff (i : grid4.Coords) : cond4_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond4_1 (t : Fin cfg4.N) : cond4_1 (grid4.coords t) ↔ t.val % 512 = 511 := by
  rw [cond4_1_iff, coords4_1_val]

/-! ## Where the windows are idle, and where the output block is written back -/

/-- Windows 0 and 1 (inputs) are never idle. -/
theorem liveAt4_0 (t : Fin cfg4.N) : cfg4.idle 0 (grid4.coords t) = false := rfl
theorem liveAt4_1 (t : Fin cfg4.N) : cfg4.idle 1 (grid4.coords t) = false := rfl

/-- Where the second conditional is not taken the output window is idle. -/
theorem idleAt4_2 (i : grid4.Coords) (h1 : ¬cond4_1 i) : cfg4.idle 2 i = true := by
  show (!(k4_cond2 i == 1#1)) = true
  rw [Bool.not_eq_true', beq_eq_false_iff_ne]; exact h1

/-- Where it is taken the output window is live. -/
theorem liveAt4_2 (i : grid4.Coords) (h1 : cond4_1 i) : cfg4.idle 2 i = false := by
  show (!(k4_cond2 i == 1#1)) = false
  rw [Bool.not_eq_false', beq_iff_eq]; exact h1

/-- The output window's block index does not move between a point and the next unless the point is the
    last of its row: the index map reads the first coordinate only, `t / 512`. -/
theorem index4_2_succ (t : Fin cfg4.N) (h : ¬t.val % 512 = 511) (h1 : t.val + 1 < grid4.N) :
    (cfg4.win 2).index ⟨t.val + 1, h1⟩ = (cfg4.win 2).index t := by
  unfold Pipeline.Window.index
  refine (cfg4.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords4_0_val, coords4_0_val]
  show (t.val + 1) / 512 % 128 = t.val / 512 % 128
  omega

/-- Away from the points ≡ 511 (mod 512) the pipeline does not write the output block back. -/
theorem noFlush4_2 (t : Fin cfg4.N) (h : ¬t.val % 512 = 511) : (cfg4.win 2).flush t = false := by
  have hN : grid4.N = 65536 := N_4
  have ht : t.val < 65536 := lt_of_lt_of_eq t.isLt N_4
  cases hfl : (cfg4.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index4_2_succ t h h1)

/-! ## The memrefs the body runs on -/

/-- One staging buffer of output window 2, through which its contents are stated. -/
abbrev VO4_2 : View sig .tc .vmem S2048x64 .f32 := (Memref.whole cc4_stg2_0 : Memref sig .tc .vmem S2048x64 .f32).view
/-- Each window's current staging memref at point `t`, spelled as the pipeline passes it, and its wholeness. -/
abbrev ms4_0 (t : Fin cfg4.N) : Memref sig .tc .vmem S4096x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x4096 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The scratch operand (the accumulator): a whole scoped buffer of the kernel's own, passed beside the windows. -/
abbrev scM4_0 : Memref sig .tc .vmem S2048x64 .f32 := Memref.whole cc4_scratch0
/-- The accumulator as a view: what it holds is stated through it. -/
abbrev VS4_0 : View sig .tc .vmem S2048x64 .f32 := scM4_0.view

/-- The class's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.Scat4RunA.lean ====
import proofs.«406228_j54073638257180_1_alg».proof.Proof.K.Scat4Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun4_A (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨[], ?_, fun xi2 E K => ?run⟩
  case run =>
    simp only [cc4__scatter_kernel_eq_skeleton]; unfold cc4__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat4RunB.lean ====
import proofs.«406228_j54073638257180_1_alg».proof.Proof.K.Scat4RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun4_B (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨[], ?_, fun xi2 E K => ?run⟩
  case run =>
    simp only [cc4__scatter_kernel_eq_skeleton]; unfold cc4__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat4RunC.lean ====
import proofs.«406228_j54073638257180_1_alg».proof.Proof.K.Scat4RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun4_C (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Scat4.lean ====
import proofs.«406228_j54073638257180_1_alg».proof.Proof.K.Scat4RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out4_A_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) : Vec F S2048x64 .f32 :=
  VO4_2.read (Elt F) (VO4_2.writes (Elt F) VO4_2.junk (kernelRun4_A c i arg2 harg2 arg3 harg3 arg4 harg4 arg5 harg5 hc0 hc1 x0 x1).1)

/-- Case A's pieces for the accumulator cover it: each store writes it whole. -/
theorem scover4_A_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) (y : S2048x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x64.size (by sl_kernel_rfl) y

/-- What case A leaves in the accumulator: its pieces read back over junk. -/
def sout4_A_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) : Vec F S2048x64 .f32 :=
  VS4_0.read (Elt F) (VS4_0.writes (Elt F) VS4_0.junk (kernelRun4_A c i arg2 harg2 arg3 harg3 arg4 harg4 arg5 harg5 hc0 hc1 x0 x1).2.1)

/-- Case B stores nothing into the output block (the window is idle at its points and not written back there):
    no pieces — a placeholder (junk read back) that nothing consults. -/
def out4_B_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) : Vec F S2048x64 .f32 :=
  VO4_2.read (Elt F) (VO4_2.writes (Elt F) VO4_2.junk (kernelRun4_B c i arg2 harg2 arg3 harg3 arg4 harg4 arg5 harg5 hc0 hc1 x0 x1 xs0).1)

/-- Case B's pieces for the accumulator cover it: each store writes it whole. -/
theorem scover4_B_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) (y : S2048x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x64.size (by sl_kernel_rfl) y

/-- What case B leaves in the accumulator: its pieces read back over junk. -/
def sout4_B_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) : Vec F S2048x64 .f32 :=
  VS4_0.read (Elt F) (VS4_0.writes (Elt F) VS4_0.junk (kernelRun4_B c i arg2 harg2 arg3 harg3 arg4 harg4 arg5 harg5 hc0 hc1 x0 x1 xs0).2.1)

/-- Case C's one store into the output block tiles it, so its pieces cover it. -/
theorem cover4_C_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) (y : S2048x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x64.size (by sl_kernel_rfl) y

/-- What case C leaves in the output block's staging buffer: its pieces read back over junk. -/
def out4_C_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) : Vec F S2048x64 .f32 :=
  VO4_2.read (Elt F) (VO4_2.writes (Elt F) VO4_2.junk (kernelRun4_C c i arg2 harg2 arg3 harg3 arg4 harg4 arg5 harg5 hc0 hc1 x0 x1 xs0).1)

/-- Case C's pieces for the accumulator cover it: each store writes it whole. -/
theorem scover4_C_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) (y : S2048x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x64.size (by sl_kernel_rfl) y

/-- What case C leaves in the accumulator: its pieces read back over junk. -/
def sout4_C_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) : Vec F S2048x64 .f32 :=
  VS4_0.read (Elt F) (VS4_0.writes (Elt F) VS4_0.junk (kernelRun4_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt4 (c : Dev nD) : (n : ℕ) → n < cfg4.N → Vec F S2048x64 .f32 × Vec F S2048x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 512 = 0 then
      if h1 : (n + 1) % 512 = 511 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 512 = 511 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 512 = 0) (h1 : ¬t.val % 512 = 511) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 512 = 0) (h1 : ¬t.val % 512 = 511) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 512 = 0) (h1 : t.val % 512 = 511) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 65536 := lt_of_lt_of_eq t.isLt (show cfg4.N = 65536 from N_4)
  by_cases h0 : t.val % 512 = 0
  · by_cases h1 : t.val % 512 = 511
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 _ (fun h => h1 ((hcond4_1 t).mp h))) (noFlush4_2 t h1)]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 _ ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 _ (fun h => h1 ((hcond4_1 t).mp h))) (noFlush4_2 t h1)]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 65536 := N_4; omega)

end Region

end Cert.Kernel.Hand

end
-- ==== Proof.K.Scat7Runs.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (segment sum by a one-hot product, accumulated in a scratch buffer): what the three runs share -/

/-! ## The grid's coordinates in closed form

The grid is 128 x 512, last axis fastest: point `t` has coordinates `(t / 512, t % 512)`. -/

theorem stride7_0 : grid7.stride 0 = 512 := by decide
theorem stride7_1 : grid7.stride 1 = 1 := by decide

theorem coords7_0_val (t : Fin cfg7.N) : ((grid7.coords t) 0).val = t.val / 512 % 128 := by
  show t.val / grid7.stride 0 % 128 = _
  rw [stride7_0]

theorem coords7_1_val (t : Fin cfg7.N) : ((grid7.coords t) 1).val = t.val % 512 := by
  show t.val / grid7.stride 1 % 512 = _
  rw [stride7_1, Nat.div_one]

/-! ## The current staging memrefs and the body as the pipeline calls it -/

/-- The current staging memref of each window at point `t`. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)

/-- The kernel body at point `t`, on what the pipeline calls it with. -/
abbrev bodyAt7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (Memref.whole cc7_scratch0) (Memref.isWhole_whole _)

/-! ## The body's branch conditions -/

/-- The condition of the body's first conditional (reset of the accumulator), from the grid coordinates. -/
abbrev cond7_0 (i : grid7.Coords) : Prop := (Scalar.cmpi .ne (Scalar.extui (Scalar.cmpi .eq (BitVec.ofNat 32 (i 1).val) 0#32)) 0#32) = 1#1

/-- It says that the second coordinate is 0 (decided over that coordinate's 512 values). -/
theorem cond7_0_iff (i : grid7.Coords) : cond7_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond7_0 (t : Fin cfg7.N) : cond7_0 (grid7.coords t) ↔ t.val % 512 = 0 := by
  rw [cond7_0_iff, coords7_1_val]

/-- The condition of the body's second conditional (the accumulator copied to the output block). -/
abbrev cond7_1 (i : grid7.Coords) : Prop := k7_cond2 i = 1#1

/-- It says that the second coordinate is 511. -/
theorem cond7_1_iff (i : grid7.Coords) : cond7_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond7_1 (t : Fin cfg7.N) : cond7_1 (grid7.coords t) ↔ t.val % 512 = 511 := by
  rw [cond7_1_iff, coords7_1_val]

/-! ## Where the windows are idle, and where the output block is written back -/

/-- Windows 0 and 1 (inputs) are never idle. -/
theorem liveAt7_0 (t : Fin cfg7.N) : cfg7.idle 0 (grid7.coords t) = false := rfl
theorem liveAt7_1 (t : Fin cfg7.N) : cfg7.idle 1 (grid7.coords t) = false := rfl

/-- Where the second conditional is not taken the output window is idle. -/
theorem idleAt7_2 (i : grid7.Coords) (h1 : ¬cond7_1 i) : cfg7.idle 2 i = true := by
  show (!(k7_cond2 i == 1#1)) = true
  rw [Bool.not_eq_true', beq_eq_false_iff_ne]; exact h1

/-- Where it is taken the output window is live. -/
theorem liveAt7_2 (i : grid7.Coords) (h1 : cond7_1 i) : cfg7.idle 2 i = false := by
  show (!(k7_cond2 i == 1#1)) = false
  rw [Bool.not_eq_false', beq_iff_eq]; exact h1

/-- The output window's block index does not move between a point and the next unless the point is the
    last of its row: the index map reads the first coordinate only, `t / 512`. -/
theorem index7_2_succ (t : Fin cfg7.N) (h : ¬t.val % 512 = 511) (h1 : t.val + 1 < grid7.N) :
    (cfg7.win 2).index ⟨t.val + 1, h1⟩ = (cfg7.win 2).index t := by
  unfold Pipeline.Window.index
  refine (cfg7.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords7_0_val, coords7_0_val]
  show (t.val + 1) / 512 % 128 = t.val / 512 % 128
  omega

/-- Away from the points ≡ 511 (mod 512) the pipeline does not write the output block back. -/
theorem noFlush7_2 (t : Fin cfg7.N) (h : ¬t.val % 512 = 511) : (cfg7.win 2).flush t = false := by
  have hN : grid7.N = 65536 := N_7
  have ht : t.val < 65536 := lt_of_lt_of_eq t.isLt N_7
  cases hfl : (cfg7.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index7_2_succ t h h1)

/-! ## The memrefs the body runs on -/

/-- One staging buffer of output window 2, through which its contents are stated. -/
abbrev VO7_2 : View sig .tc .vmem S2048x64 .f32 := (Memref.whole cc7_stg2_0 : Memref sig .tc .vmem S2048x64 .f32).view
/-- Each window's current staging memref at point `t`, spelled as the pipeline passes it, and its wholeness. -/
abbrev ms7_0 (t : Fin cfg7.N) : Memref sig .tc .vmem S4096x64 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x4096 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
/-- The scratch operand (the accumulator): a whole scoped buffer of the kernel's own, passed beside the windows. -/
abbrev scM7_0 : Memref sig .tc .vmem S2048x64 .f32 := Memref.whole cc7_scratch0
/-- The accumulator as a view: what it holds is stated through it. -/
abbrev VS7_0 : View sig .tc .vmem S2048x64 .f32 := scM7_0.view

/-- The class's invariant with the accumulator as a memref owned at some contents, the other scoped buffers
    unopened, and the generator register at some state. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Hand

end
-- ==== Proof.K.Scat7RunA.lean ====
import proofs.«406228_j54073638257180_1_alg».proof.Proof.K.Scat7Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun7_A (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨[], ?_, fun xi2 E K => ?run⟩
  case run =>
    simp only [cc7__scatter_kernel_eq_skeleton]; unfold cc7__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat7RunB.lean ====
import proofs.«406228_j54073638257180_1_alg».proof.Proof.K.Scat7RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun7_B (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨[], ?_, fun xi2 E K => ?run⟩
  case run =>
    simp only [cc7__scatter_kernel_eq_skeleton]; unfold cc7__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat7RunC.lean ====
import proofs.«406228_j54073638257180_1_alg».proof.Proof.K.Scat7RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun7_C (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨?_, ?_, fun E K => ?run⟩
  case run =>
    simp only [cc7__scatter_kernel_eq_skeleton]; unfold cc7__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Scat7.lean ====
import proofs.«406228_j54073638257180_1_alg».proof.Proof.K.Scat7RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out7_A_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) : Vec F S2048x64 .f32 :=
  VO7_2.read (Elt F) (VO7_2.writes (Elt F) VO7_2.junk (kernelRun7_A c i arg2 harg2 arg3 harg3 arg4 harg4 arg5 harg5 hc0 hc1 x0 x1).1)

/-- Case A's pieces for the accumulator cover it: each store writes it whole. -/
theorem scover7_A_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) (y : S2048x64.Idx) :
    ∃ pc ∈ (kernelRun7_A c i arg2 harg2 arg3 harg3 arg4 harg4 arg5 harg5 hc0 hc1 x0 x1).2.1, y ∈ pc.1.set :=
  View.cover_of_tiledL (kernelRun7_A c i arg2 harg2 arg3 harg3 arg4 harg4 arg5 harg5 hc0 hc1 x0 x1).2.1 S2048x64.size (by sl_kernel_rfl) y

/-- What case A leaves in the accumulator: its pieces read back over junk. -/
def sout7_A_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) : Vec F S2048x64 .f32 :=
  VS7_0.read (Elt F) (VS7_0.writes (Elt F) VS7_0.junk (kernelRun7_A c i arg2 harg2 arg3 harg3 arg4 harg4 arg5 harg5 hc0 hc1 x0 x1).2.1)

/-- Case B stores nothing into the output block (the window is idle at its points and not written back there):
    no pieces — a placeholder (junk read back) that nothing consults. -/
def out7_B_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) : Vec F S2048x64 .f32 :=
  VO7_2.read (Elt F) (VO7_2.writes (Elt F) VO7_2.junk (kernelRun7_B c i arg2 harg2 arg3 harg3 arg4 harg4 arg5 harg5 hc0 hc1 x0 x1 xs0).1)

/-- Case B's pieces for the accumulator cover it: each store writes it whole. -/
theorem scover7_B_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) (y : S2048x64.Idx) :
    ∃ pc ∈ (kernelRun7_B c i arg2 harg2 arg3 harg3 arg4 harg4 arg5 harg5 hc0 hc1 x0 x1 xs0).2.1, y ∈ pc.1.set :=
  View.cover_of_tiledL (kernelRun7_B c i arg2 harg2 arg3 harg3 arg4 harg4 arg5 harg5 hc0 hc1 x0 x1 xs0).2.1 S2048x64.size (by sl_kernel_rfl) y

/-- What case B leaves in the accumulator: its pieces read back over junk. -/
def sout7_B_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) : Vec F S2048x64 .f32 :=
  VS7_0.read (Elt F) (VS7_0.writes (Elt F) VS7_0.junk (kernelRun7_B c i arg2 harg2 arg3 harg3 arg4 harg4 arg5 harg5 hc0 hc1 x0 x1 xs0).2.1)

/-- Case C's one store into the output block tiles it, so its pieces cover it. -/
theorem cover7_C_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) (y : S2048x64.Idx) :
    ∃ pc ∈ (kernelRun7_C c i arg2 harg2 arg3 harg3 arg4 harg4 arg5 harg5 hc0 hc1 x0 x1 xs0).1, y ∈ pc.1.set :=
  View.cover_of_tiledL (kernelRun7_C c i arg2 harg2 arg3 harg3 arg4 harg4 arg5 harg5 hc0 hc1 x0 x1 xs0).1 S2048x64.size (by sl_kernel_rfl) y

/-- What case C leaves in the output block's staging buffer: its pieces read back over junk. -/
def out7_C_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) : Vec F S2048x64 .f32 :=
  VO7_2.read (Elt F) (VO7_2.writes (Elt F) VO7_2.junk (kernelRun7_C c i arg2 harg2 arg3 harg3 arg4 harg4 arg5 harg5 hc0 hc1 x0 x1 xs0).1)

/-- Case C's pieces for the accumulator cover it: each store writes it whole. -/
theorem scover7_C_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) (y : S2048x64.Idx) :
    ∃ pc ∈ (kernelRun7_C c i arg2 harg2 arg3 harg3 arg4 harg4 arg5 harg5 hc0 hc1 x0 x1 xs0).2.1, y ∈ pc.1.set :=
  View.cover_of_tiledL (kernelRun7_C c i arg2 harg2 arg3 harg3 arg4 harg4 arg5 harg5 hc0 hc1 x0 x1 xs0).2.1 S2048x64.size (by sl_kernel_rfl) y

/-- What case C leaves in the accumulator: its pieces read back over junk. -/
def sout7_C_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) : Vec F S2048x64 .f32 :=
  VS7_0.read (Elt F) (VS7_0.writes (Elt F) VS7_0.junk (kernelRun7_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt7 (c : Dev nD) : (n : ℕ) → n < cfg7.N → Vec F S2048x64 .f32 × Vec F S2048x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 512 = 0 then
      if h1 : (n + 1) % 512 = 511 then
        False.elim (by omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 512 = 511 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2)

/-- `outsAt7` at a point of case A: that case's contents. -/
theorem outsAt7_A (c : Dev nD) (t : Fin cfg7.N) (h0 : t.val % 512 = 0) (h1 : ¬t.val % 512 = 511) :
    outsAt7 V c t.val t.isLt = (out7_A_2 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t), sout7_A_0 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 512 = 0) (h1 : ¬t.val % 512 = 511) :
    outsAt7 V c t.val t.isLt = (out7_B_2 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 512 = 0) (h1 : t.val % 512 = 511) :
    outsAt7 V c t.val t.isLt = (out7_C_2 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block and the output's at `outsAt7`'s first component; the invariant `PhiS7`; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 65536 := lt_of_lt_of_eq t.isLt (show cfg7.N = 65536 from N_7)
  by_cases h0 : t.val % 512 = 0
  · by_cases h1 : t.val % 512 = 511
    · exfalso; omega
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2 _ (fun h => h1 ((hcond7_1 t).mp h))) (noFlush7_2 t h1)]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩⟩
        iapply ((kernelRun7_A c (grid7.coords t) _ _ _ _ _ _ _ _ ((hcond7_0 t).mpr h0) (fun h => h1 ((hcond7_1 t).mp h)) (iblk7 V c 0 t) (iblk7 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _)
            iexact Hr
          iexact Hg
        isplitl [Ho]; · iexact Ho
        isplitl [H0]; · iexact H0
        isplitl [H1]; · iexact H1
        iexists _; iexact H2
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_A c (grid7.coords t) _ _ _ _ _ _ _ _ ((hcond7_0 t).mpr h0) (fun h => h1 ((hcond7_1 t).mp h)) (iblk7 V c 0 t) (iblk7 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 _ ((hcond7_1 t).mpr h1)], after7_2]
      rw [outsAt7_C V c t h0 h1]
      unfold out7_C_2 sout7_C_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_C c (grid7.coords t) _ _ _ _ _ _ _ _ (fun h => h0 ((hcond7_0 t).mp h)) ((hcond7_1 t).mpr h1) (iblk7 V c 0 t) (iblk7 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover7_C_2 c _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2 _ (fun h => h1 ((hcond7_1 t).mp h))) (noFlush7_2 t h1)]
      rw [outsAt7_B V c t h0 h1]
      unfold sout7_B_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_B c (grid7.coords t) _ _ _ _ _ _ _ _ (fun h => h0 ((hcond7_0 t).mp h)) (fun h => h1 ((hcond7_1 t).mp h)) (iblk7 V c 0 t) (iblk7 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 65536 := N_7; omega)

end Region

end Cert.Kernel.Hand

end
-- ==== Proof.K.Scat8Runs.lean ====
import proofs.«406228_j54073638257180_1_alg».proof.Proof.Gen.Kernel.Launch
import proofs.«406228_j54073638257180_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (segment sum by a one-hot product, accumulated in a scratch buffer): what the three runs share -/

/-! ## The grid's coordinates in closed form

The grid is 128 x 512, last axis fastest: point `t` has coordinates `(t / 512, t % 512)`. -/

theorem stride8_0 : grid8.stride 0 = 512 := by decide
theorem stride8_1 : grid8.stride 1 = 1 := by decide

theorem coords8_0_val (t : Fin cfg8.N) : ((grid8.coords t) 0).val = t.val / 512 % 128 := by
  show t.val / grid8.stride 0 % 128 = _
  rw [stride8_0]

theorem coords8_1_val (t : Fin cfg8.N) : ((grid8.coords t) 1).val = t.val % 512 := by
  show t.val / grid8.stride 1 % 512 = _
  rw [stride8_1, Nat.div_one]

/-! ## The current staging memrefs and the body as the pipeline calls it -/

/-- The current staging memref of each window at point `t`. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)

/-- The kernel body at point `t`, on what the pipeline calls it with. -/
abbrev bodyAt8 (t : Fin cfg8.N) : Prog (TpuEff nD τ sig (Elt F) Λ₀ .tc) PUnit :=
  cc8__scatter_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (Memref.whole cc8_scratch0) (Memref.isWhole_whole _)

/-! ## The body's branch conditions -/

/-- The condition of the body's first conditional (reset of the accumulator), from the grid coordinates. -/
abbrev cond8_0 (i : grid8.Coords) : Prop := (Scalar.cmpi .ne (Scalar.extui (Scalar.cmpi .eq (BitVec.ofNat 32 (i 1).val) 0#32)) 0#32) = 1#1

/-- It says that the second coordinate is 0 (decided over that coordinate's 512 values). -/
theorem cond8_0_iff (i : grid8.Coords) : cond8_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond8_0 (t : Fin cfg8.N) : cond8_0 (grid8.coords t) ↔ t.val % 512 = 0 := by
  rw [cond8_0_iff, coords8_1_val]

/-- The condition of the body's second conditional (the accumulator copied to the output block). -/
abbrev cond8_1 (i : grid8.Coords) : Prop := k8_cond2 i = 1#1

/-- It says that the second coordinate is 511. -/
theorem cond8_1_iff (i : grid8.Coords) : cond8_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond8_1 (t : Fin cfg8.N) : cond8_1 (grid8.coords t) ↔ t.val % 512 = 511 := by
  rw [cond8_1_iff, coords8_1_val]

/-! ## Where the windows are idle, and where the output block is written back -/

/-- Windows 0 and 1 (inputs) are never idle. -/
theorem liveAt8_0 (t : Fin cfg8.N) : cfg8.idle 0 (grid8.coords t) = false := rfl
theorem liveAt8_1 (t : Fin cfg8.N) : cfg8.idle 1 (grid8.coords t) = false := rfl

/-- Where the second conditional is not taken the output window is idle. -/
theorem idleAt8_2 (i : grid8.Coords) (h1 : ¬cond8_1 i) : cfg8.idle 2 i = true := by
  show (!(k8_cond2 i == 1#1)) = true
  rw [Bool.not_eq_true', beq_eq_false_iff_ne]; exact h1

/-- Where it is taken the output window is live. -/
theorem liveAt8_2 (i : grid8.Coords) (h1 : cond8_1 i) : cfg8.idle 2 i = false := by
  show (!(k8_cond2 i == 1#1)) = false
  rw [Bool.not_eq_false', beq_iff_eq]; exact h1

/-- The output window's block index does not move between a point and the next unless the point is the
    last of its row: the index map reads the first coordinate only, `t / 512`. -/
theorem index8_2_succ (t : Fin cfg8.N) (h : ¬t.val % 512 = 511) (h1 : t.val + 1 < grid8.N) :
    (cfg8.win 2).index ⟨t.val + 1, h1⟩ = (cfg8.win 2).index t := by
  unfold Pipeline.Window.index
  refine (cfg8.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords8_0_val, coords8_0_val]
  show (t.val + 1) / 512 % 128 = t.val / 512 % 128
  omega

/-- Away from the points ≡ 511 (mod 512) the pipeline does not write the output block back. -/
theorem noFlush8_2 (t : Fin cfg8.N) (h : ¬t.val % 512 = 511) : (cfg8.win 2).flush t = false := by
  have hN : grid8.N = 65536 := N_8
  have ht : t.val < 65536 := lt_of_lt_of_eq t.isLt N_8
  cases hfl : (cfg8.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index8_2_succ t h h1)

/-! ## The memrefs the body runs on -/

/-- One staging buffer of output window 2, through which its contents are stated. -/
abbrev VO8_2 : View sig .tc .vmem S2048x64 .f32 := (Memref.whole cc8_stg2_0 : Memref sig .tc .vmem S2048x64 .f32).view
/-- Each window's current staging memref at point `t`, spelled as the pipeline passes it, and its wholeness. -/
abbrev ms8_0 (t : Fin cfg8.N) : Memref sig .tc .vmem S4096x64 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x4096 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The scratch operand (the accumulator): a whole scoped buffer of the kernel's own, passed beside the windows. -/
abbrev scM8_0 : Memref sig .tc .vmem S2048x64 .f32 := Memref.whole cc8_scratch0
/-- The accumulator as a view: what it holds is stated through it. -/
abbrev VS8_0 : View sig .tc .vmem S2048x64 .f32 := scM8_0.view

/-- The class's invariant with the accumulator as a memref owned at some contents, the other scoped buffers
    unopened, and the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Hand

end
-- ==== Proof.K.Scat8RunA.lean ====
import proofs.«406228_j54073638257180_1_alg».proof.Proof.K.Scat8Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun8_A (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat8RunB.lean ====
import proofs.«406228_j54073638257180_1_alg».proof.Proof.K.Scat8RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun8_B (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Scat8RunC.lean ====
import proofs.«406228_j54073638257180_1_alg».proof.Proof.K.Scat8RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun8_C (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Scat8.lean ====
import proofs.«406228_j54073638257180_1_alg».proof.Proof.K.Scat8RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out8_A_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) : Vec F S2048x64 .f32 :=
  VO8_2.read (Elt F) (VO8_2.writes (Elt F) VO8_2.junk (kernelRun8_A c i arg2 harg2 arg3 harg3 arg4 harg4 arg5 harg5 hc0 hc1 x0 x1).1)

/-- Case A's pieces for the accumulator cover it: each store writes it whole. -/
theorem scover8_A_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) (y : S2048x64.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S2048x64.size (by sl_kernel_rfl) y

/-- What case A leaves in the accumulator: its pieces read back over junk. -/
def sout8_A_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) : Vec F S2048x64 .f32 :=
  VS8_0.read (Elt F) (VS8_0.writes (Elt F) VS8_0.junk (kernelRun8_A c i arg2 harg2 arg3 harg3 arg4 harg4 arg5 harg5 hc0 hc1 x0 x1).2.1)

/-- Case B stores nothing into the output block (the window is idle at its points and not written back there):
    no pieces — a placeholder (junk read back) that nothing consults. -/
def out8_B_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) : Vec F S2048x64 .f32 :=
  VO8_2.read (Elt F) (VO8_2.writes (Elt F) VO8_2.junk (kernelRun8_B c i arg2 harg2 arg3 harg3 arg4 harg4 arg5 harg5 hc0 hc1 x0 x1 xs0).1)

/-- Case B's pieces for the accumulator cover it: each store writes it whole. -/
theorem scover8_B_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) (y : S2048x64.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S2048x64.size (by sl_kernel_rfl) y

/-- What case B leaves in the accumulator: its pieces read back over junk. -/
def sout8_B_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) : Vec F S2048x64 .f32 :=
  VS8_0.read (Elt F) (VS8_0.writes (Elt F) VS8_0.junk (kernelRun8_B c i arg2 harg2 arg3 harg3 arg4 harg4 arg5 harg5 hc0 hc1 x0 x1 xs0).2.1)

/-- Case C's one store into the output block tiles it, so its pieces cover it. -/
theorem cover8_C_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) (y : S2048x64.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S2048x64.size (by sl_kernel_rfl) y

/-- What case C leaves in the output block's staging buffer: its pieces read back over junk. -/
def out8_C_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) : Vec F S2048x64 .f32 :=
  VO8_2.read (Elt F) (VO8_2.writes (Elt F) VO8_2.junk (kernelRun8_C c i arg2 harg2 arg3 harg3 arg4 harg4 arg5 harg5 hc0 hc1 x0 x1 xs0).1)

/-- Case C's pieces for the accumulator cover it: each store writes it whole. -/
theorem scover8_C_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) (y : S2048x64.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S2048x64.size (by sl_kernel_rfl) y

/-- What case C leaves in the accumulator: its pieces read back over junk. -/
def sout8_C_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) : Vec F S2048x64 .f32 :=
  VS8_0.read (Elt F) (VS8_0.writes (Elt F) VS8_0.junk (kernelRun8_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt8 (c : Dev nD) : (n : ℕ) → n < cfg8.N → Vec F S2048x64 .f32 × Vec F S2048x64 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 512 = 0 then
      if h1 : (n + 1) % 512 = 511 then
        False.elim (by omega)
      else
        (out8_A_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 512 = 511 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

/-- `outsAt8` at a point of case A: that case's contents. -/
theorem outsAt8_A (c : Dev nD) (t : Fin cfg8.N) (h0 : t.val % 512 = 0) (h1 : ¬t.val % 512 = 511) :
    outsAt8 V c t.val t.isLt = (out8_A_2 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

/-- `outsAt8` at a point of case B: that case's contents, over what the point before left. -/
theorem outsAt8_B (c : Dev nD) (t : Fin cfg8.N) (h0 : ¬t.val % 512 = 0) (h1 : ¬t.val % 512 = 511) :
    outsAt8 V c t.val t.isLt = (out8_B_2 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt8` at a point of case C: that case's contents, over what the point before left. -/
theorem outsAt8_C (c : Dev nD) (t : Fin cfg8.N) (h0 : ¬t.val % 512 = 0) (h1 : t.val % 512 = 511) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of pipeline 8 on core `c`: the arrays as the region finds them (`V`); after the body at point `t`
    each input's buffer at its block and the output's at `outsAt8`'s first component; the invariant `PhiS8`; nothing
    owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

/-- The proof data's arrays are the region-entry contents (the definition projected, `V` never unfolded). -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 65536 := lt_of_lt_of_eq t.isLt (show cfg8.N = 65536 from N_8)
  by_cases h0 : t.val % 512 = 0
  · by_cases h1 : t.val % 512 = 511
    · exfalso; omega
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [Dat.leavesExact_idle (dat8 V c) 2 t (idleAt8_2 _ (fun h => h1 ((hcond8_1 t).mp h))) (noFlush8_2 t h1)]
      rw [outsAt8_A V c t h0 h1]
      unfold sout8_A_0; (try dsimp only)
      by_cases hz : t.val = 0
      · rw [PhiS8_castSucc V c t, PhiS8_zero V c _ _ hz, PhiA8_eq]
        iintro ⟨⟨⟨HS0, Hr⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _)
            iexact Hr
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 _ ((hcond8_1 t).mpr h1)], after8_2]
      rw [outsAt8_C V c t h0 h1]
      unfold out8_C_2 sout8_C_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_C c (grid8.coords t) _ _ _ _ _ _ _ _ (fun h => h0 ((hcond8_0 t).mp h)) ((hcond8_1 t).mpr h1) (iblk8 V c 0 t) (iblk8 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover8_C_2 c _ _ _ _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [Dat.leavesExact_idle (dat8 V c) 2 t (idleAt8_2 _ (fun h => h1 ((hcond8_1 t).mp h))) (noFlush8_2 t h1)]
      rw [outsAt8_B V c t h0 h1]
      unfold sout8_B_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 65536 := N_8; omega)

end Region

end Cert.Kernel.Hand

end
-- ==== Proof.K.Run.lean ====
import proofs.«406228_j54073638257180_1_alg».proof.Proof.Gen.Kernel.Launch
import proofs.«406228_j54073638257180_1_alg».proof.Proof.Gen.Kernel.Skeleton
import proofs.«406228_j54073638257180_1_alg».proof.Proof.K.RegionsHost
import proofs.«406228_j54073638257180_1_alg».proof.Proof.K.Dense0
import proofs.«406228_j54073638257180_1_alg».proof.Proof.K.Dense1
import proofs.«406228_j54073638257180_1_alg».proof.Proof.K.Dense2
import proofs.«406228_j54073638257180_1_alg».proof.Proof.K.Dense5
import proofs.«406228_j54073638257180_1_alg».proof.Proof.K.Dense6
import proofs.«406228_j54073638257180_1_alg».proof.Proof.K.Dense9
import proofs.«406228_j54073638257180_1_alg».proof.Proof.K.Scat3
import proofs.«406228_j54073638257180_1_alg».proof.Proof.K.Scat4
import proofs.«406228_j54073638257180_1_alg».proof.Proof.K.Scat7
import proofs.«406228_j54073638257180_1_alg».proof.Proof.K.Scat8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main, item by item

@main is 35 items: stretches of host operations and ten kernel regions. The buffer contents at every item boundary are a
fold from the launch memory (`W j`): a host stretch applies its operations, a region leaves each of its arrays at what
its pipeline's write-backs leave (`Dat.arrAt … N`) and every other buffer as it found it. Every weakly fair execution
terminates and ends with every unscoped buffer at the last boundary's contents (`run_all`).
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- Item 1 is region 0: what it is entered from, read at the TensorCore's references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its result array `main_v1`. -/
theorem W2_keep (c : Dev nD) (r : Ref sig .tc) (h : r ≠ main_v1) : W2 m ρ c (Proc.devRef .tc r) = W1 m ρ c (Proc.devRef .tc r) := by
  by_cases hw : ∃ w, Pipeline.arrRef spec0 w = r
  · obtain ⟨w, rfl⟩ := hw
    rw [W2_arr]
    match w, h with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h
  · exact W2_of_ne m ρ c r (fun w e => hw ⟨w, e⟩)
/-- After item 2, the host stretch `hostOps1`. -/
abbrev W3 : Dev nD → Valuation τ sig (Elt F) := fun c => StableHlo.after hostOps1 (W2 m ρ c)
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- After item 3, the host stretch `hostOps1_1`. -/
abbrev W4 : Dev nD → Valuation τ sig (Elt F) := fun c => StableHlo.after hostOps1_1 (W3 m ρ c)
theorem W4_keep (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- After item 4, the host stretch `hostOps1_2`. -/
abbrev W5 : Dev nD → Valuation τ sig (Elt F) := fun c => StableHlo.after hostOps1_2 (W4 m ρ c)
theorem W5_keep (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- After item 5, the host stretch `hostOps1_3`. -/
abbrev W6 : Dev nD → Valuation τ sig (Elt F) := fun c => StableHlo.after hostOps1_3 (W5 m ρ c)
theorem W6_keep (c : Dev nD) (r : Ref sig .tc) (h : r ∉ hostOps1_3_W) : W6 m ρ c (Proc.devRef .tc r) = W5 m ρ c (Proc.devRef .tc r) :=
  StableHlo.after_of_writes_sub hostOps1_3 _ hostOps1_3_writes h
/-- After item 6, the host stretch `hostOps1_4`. -/
abbrev W7 : Dev nD → Valuation τ sig (Elt F) := fun c => StableHlo.after hostOps1_4 (W6 m ρ c)
theorem W7_keep (c : Dev nD) (r : Ref sig .tc) (h : r ∉ hostOps1_4_W) : W7 m ρ c (Proc.devRef .tc r) = W6 m ρ c (Proc.devRef .tc r) :=
  StableHlo.after_of_writes_sub hostOps1_4 _ hostOps1_4_writes h
/-- Item 7 is region 1: what it is entered from, read at the TensorCore's references. -/
abbrev V7 : (c : Dev nD) → (b : Ref sig .tc) → Buf (Elt F) ((c : Thread nD τ).loc b) := fun c b => W7 m ρ c b
/-- After region 1: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- Region 1 changes only its result array `main_v48`. -/
theorem W8_keep (c : Dev nD) (r : Ref sig .tc) (h : r ≠ main_v48) : W8 m ρ c (Proc.devRef .tc r) = W7 m ρ c (Proc.devRef .tc r) := by
  by_cases hw : ∃ w, Pipeline.arrRef spec1 w = r
  · obtain ⟨w, rfl⟩ := hw
    rw [W8_arr]
    match w, h with
    | ⟨0, _⟩, _ => exact ((dat1 (V7 m ρ) c).arrAt_in 0 rfl _).trans (A_eq1 (V7 m ρ) c 0)
    | ⟨1, _⟩, _ => exact ((dat1 (V7 m ρ) c).arrAt_in 1 rfl _).trans (A_eq1 (V7 m ρ) c 1)
    | ⟨2, _⟩, _ => exact ((dat1 (V7 m ρ) c).arrAt_in 2 rfl _).trans (A_eq1 (V7 m ρ) c 2)
    | ⟨3, _⟩, h => exact absurd rfl h
  · exact W8_of_ne m ρ c r (fun w e => hw ⟨w, e⟩)
/-- After item 8, the host stretch `hostOps2`. -/
abbrev W9 : Dev nD → Valuation τ sig (Elt F) := fun c => StableHlo.after hostOps2 (W8 m ρ c)
theorem W9_keep (c : Dev nD) (r : Ref sig .tc) (h : r ∉ hostOps2_W) : W9 m ρ c (Proc.devRef .tc r) = W8 m ρ c (Proc.devRef .tc r) :=
  StableHlo.after_of_writes_sub hostOps2 _ hostOps2_writes h
/-- Item 9 is region 2: what it is entered from, read at the TensorCore's references. -/
abbrev V9 : (c : Dev nD) → (b : Ref sig .tc) → Buf (Elt F) ((c : Thread nD τ).loc b) := fun c b => W9 m ρ c b
/-- After region 2: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- Region 2 changes only its result array `main_v54`. -/
theorem W10_keep (c : Dev nD) (r : Ref sig .tc) (h : r ≠ main_v54) : W10 m ρ c (Proc.devRef .tc r) = W9 m ρ c (Proc.devRef .tc r) := by
  by_cases hw : ∃ w, Pipeline.arrRef spec2 w = r
  · obtain ⟨w, rfl⟩ := hw
    rw [W10_arr]
    match w, h with
    | ⟨0, _⟩, _ => exact ((dat2 (V9 m ρ) c).arrAt_in 0 rfl _).trans (A_eq2 (V9 m ρ) c 0)
    | ⟨1, _⟩, _ => exact ((dat2 (V9 m ρ) c).arrAt_in 1 rfl _).trans (A_eq2 (V9 m ρ) c 1)
    | ⟨2, _⟩, _ => exact ((dat2 (V9 m ρ) c).arrAt_in 2 rfl _).trans (A_eq2 (V9 m ρ) c 2)
    | ⟨3, _⟩, h => exact absurd rfl h
  · exact W10_of_ne m ρ c r (fun w e => hw ⟨w, e⟩)
/-- After item 10, the host stretch `hostOps3`. -/
abbrev W11 : Dev nD → Valuation τ sig (Elt F) := fun c => StableHlo.after hostOps3 (W10 m ρ c)
theorem W11_keep (c : Dev nD) (r : Ref sig .tc) (h : r ∉ hostOps3_W) : W11 m ρ c (Proc.devRef .tc r) = W10 m ρ c (Proc.devRef .tc r) :=
  StableHlo.after_of_writes_sub hostOps3 _ hostOps3_writes h
/-- Item 11 is region 3: what it is entered from, read at the TensorCore's references. -/
abbrev V11 : (c : Dev nD) → (b : Ref sig .tc) → Buf (Elt F) ((c : Thread nD τ).loc b) := fun c b => W11 m ρ c b
/-- After region 3: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- Region 3 changes only its result array `main_v76`. -/
theorem W12_keep (c : Dev nD) (r : Ref sig .tc) (h : r ≠ main_v76) : W12 m ρ c (Proc.devRef .tc r) = W11 m ρ c (Proc.devRef .tc r) := by
  by_cases hw : ∃ w, Pipeline.arrRef spec3 w = r
  · obtain ⟨w, rfl⟩ := hw
    rw [W12_arr]
    match w, h with
    | ⟨0, _⟩, _ => exact ((dat3 (V11 m ρ) c).arrAt_in 0 rfl _).trans (A_eq3 (V11 m ρ) c 0)
    | ⟨1, _⟩, _ => exact ((dat3 (V11 m ρ) c).arrAt_in 1 rfl _).trans (A_eq3 (V11 m ρ) c 1)
    | ⟨2, _⟩, h => exact absurd rfl h
  · exact W12_of_ne m ρ c r (fun w e => hw ⟨w, e⟩)
/-- After item 12, the host stretch `hostOps4`. -/
abbrev W13 : Dev nD → Valuation τ sig (Elt F) := fun c => StableHlo.after hostOps4 (W12 m ρ c)
theorem W13_keep (c : Dev nD) (r : Ref sig .tc) (h : r ∉ hostOps4_W) : W13 m ρ c (Proc.devRef .tc r) = W12 m ρ c (Proc.devRef .tc r) :=
  StableHlo.after_of_writes_sub hostOps4 _ hostOps4_writes h
/-- Item 13 is region 4: what it is entered from, read at the TensorCore's references. -/
abbrev V13 : (c : Dev nD) → (b : Ref sig .tc) → Buf (Elt F) ((c : Thread nD τ).loc b) := fun c b => W13 m ρ c b
/-- After region 4: its arrays at what the pipeline leaves, every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
/-- Region 4 changes only its result array `main_v78`. -/
theorem W14_keep (c : Dev nD) (r : Ref sig .tc) (h : r ≠ main_v78) : W14 m ρ c (Proc.devRef .tc r) = W13 m ρ c (Proc.devRef .tc r) := by
  by_cases hw : ∃ w, Pipeline.arrRef spec4 w = r
  · obtain ⟨w, rfl⟩ := hw
    rw [W14_arr]
    match w, h with
    | ⟨0, _⟩, _ => exact ((dat4 (V13 m ρ) c).arrAt_in 0 rfl _).trans (A_eq4 (V13 m ρ) c 0)
    | ⟨1, _⟩, _ => exact ((dat4 (V13 m ρ) c).arrAt_in 1 rfl _).trans (A_eq4 (V13 m ρ) c 1)
    | ⟨2, _⟩, h => exact absurd rfl h
  · exact W14_of_ne m ρ c r (fun w e => hw ⟨w, e⟩)
/-- After item 14, the host stretch `hostOps5`. -/
abbrev W15 : Dev nD → Valuation τ sig (Elt F) := fun c => StableHlo.after hostOps5 (W14 m ρ c)
theorem W15_keep (c : Dev nD) (r : Ref sig .tc) (h : r ∉ hostOps5_W) : W15 m ρ c (Proc.devRef .tc r) = W14 m ρ c (Proc.devRef .tc r) :=
  StableHlo.after_of_writes_sub hostOps5 _ hostOps5_writes h
/-- After item 15, the host stretch `hostOps5_1`. -/
abbrev W16 : Dev nD → Valuation τ sig (Elt F) := fun c => StableHlo.after hostOps5_1 (W15 m ρ c)
theorem W16_keep (c : Dev nD) (r : Ref sig .tc) (h : r ∉ hostOps5_1_W) : W16 m ρ c (Proc.devRef .tc r) = W15 m ρ c (Proc.devRef .tc r) :=
  StableHlo.after_of_writes_sub hostOps5_1 _ hostOps5_1_writes h
/-- After item 16, the host stretch `hostOps5_2`. -/
abbrev W17 : Dev nD → Valuation τ sig (Elt F) := fun c => StableHlo.after hostOps5_2 (W16 m ρ c)
theorem W17_keep (c : Dev nD) (r : Ref sig .tc) (h : r ∉ hostOps5_2_W) : W17 m ρ c (Proc.devRef .tc r) = W16 m ρ c (Proc.devRef .tc r) :=
  StableHlo.after_of_writes_sub hostOps5_2 _ hostOps5_2_writes h
/-- After item 17, the host stretch `hostOps5_3`. -/
abbrev W18 : Dev nD → Valuation τ sig (Elt F) := fun c => StableHlo.after hostOps5_3 (W17 m ρ c)
theorem W18_keep (c : Dev nD) (r : Ref sig .tc) (h : r ∉ hostOps5_3_W) : W18 m ρ c (Proc.devRef .tc r) = W17 m ρ c (Proc.devRef .tc r) :=
  StableHlo.after_of_writes_sub hostOps5_3 _ hostOps5_3_writes h
/-- After item 18, the host stretch `hostOps5_4`. -/
abbrev W19 : Dev nD → Valuation τ sig (Elt F) := fun c => StableHlo.after hostOps5_4 (W18 m ρ c)
theorem W19_keep (c : Dev nD) (r : Ref sig .tc) (h : r ∉ hostOps5_4_W) : W19 m ρ c (Proc.devRef .tc r) = W18 m ρ c (Proc.devRef .tc r) :=
  StableHlo.after_of_writes_sub hostOps5_4 _ hostOps5_4_writes h
/-- After item 19, the host stretch `hostOps5_5`. -/
abbrev W20 : Dev nD → Valuation τ sig (Elt F) := fun c => StableHlo.after hostOps5_5 (W19 m ρ c)
theorem W20_keep (c : Dev nD) (r : Ref sig .tc) (h : r ∉ hostOps5_5_W) : W20 m ρ c (Proc.devRef .tc r) = W19 m ρ c (Proc.devRef .tc r) :=
  StableHlo.after_of_writes_sub hostOps5_5 _ hostOps5_5_writes h
/-- After item 20, the host stretch `hostOps5_6`. -/
abbrev W21 : Dev nD → Valuation τ sig (Elt F) := fun c => StableHlo.after hostOps5_6 (W20 m ρ c)
theorem W21_keep (c : Dev nD) (r : Ref sig .tc) (h : r ∉ hostOps5_6_W) : W21 m ρ c (Proc.devRef .tc r) = W20 m ρ c (Proc.devRef .tc r) :=
  StableHlo.after_of_writes_sub hostOps5_6 _ hostOps5_6_writes h
/-- Item 21 is region 5: what it is entered from, read at the TensorCore's references. -/
abbrev V21 : (c : Dev nD) → (b : Ref sig .tc) → Buf (Elt F) ((c : Thread nD τ).loc b) := fun c b => W21 m ρ c b
/-- After region 5: its arrays at what the pipeline leaves, every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)
/-- Region 5 changes only its result array `main_v132`. -/
theorem W22_keep (c : Dev nD) (r : Ref sig .tc) (h : r ≠ main_v132) : W22 m ρ c (Proc.devRef .tc r) = W21 m ρ c (Proc.devRef .tc r) := by
  by_cases hw : ∃ w, Pipeline.arrRef spec5 w = r
  · obtain ⟨w, rfl⟩ := hw
    rw [W22_arr]
    match w, h with
    | ⟨0, _⟩, _ => exact ((dat5 (V21 m ρ) c).arrAt_in 0 rfl _).trans (A_eq5 (V21 m ρ) c 0)
    | ⟨1, _⟩, _ => exact ((dat5 (V21 m ρ) c).arrAt_in 1 rfl _).trans (A_eq5 (V21 m ρ) c 1)
    | ⟨2, _⟩, _ => exact ((dat5 (V21 m ρ) c).arrAt_in 2 rfl _).trans (A_eq5 (V21 m ρ) c 2)
    | ⟨3, _⟩, h => exact absurd rfl h
  · exact W22_of_ne m ρ c r (fun w e => hw ⟨w, e⟩)
/-- After item 22, the host stretch `hostOps6`. -/
abbrev W23 : Dev nD → Valuation τ sig (Elt F) := fun c => StableHlo.after hostOps6 (W22 m ρ c)
theorem W23_keep (c : Dev nD) (r : Ref sig .tc) (h : r ∉ hostOps6_W) : W23 m ρ c (Proc.devRef .tc r) = W22 m ρ c (Proc.devRef .tc r) :=
  StableHlo.after_of_writes_sub hostOps6 _ hostOps6_writes h
/-- Item 23 is region 6: what it is entered from, read at the TensorCore's references. -/
abbrev V23 : (c : Dev nD) → (b : Ref sig .tc) → Buf (Elt F) ((c : Thread nD τ).loc b) := fun c b => W23 m ρ c b
/-- After region 6: its arrays at what the pipeline leaves, every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)
/-- Region 6 changes only its result array `main_v138`. -/
theorem W24_keep (c : Dev nD) (r : Ref sig .tc) (h : r ≠ main_v138) : W24 m ρ c (Proc.devRef .tc r) = W23 m ρ c (Proc.devRef .tc r) := by
  by_cases hw : ∃ w, Pipeline.arrRef spec6 w = r
  · obtain ⟨w, rfl⟩ := hw
    rw [W24_arr]
    match w, h with
    | ⟨0, _⟩, _ => exact ((dat6 (V23 m ρ) c).arrAt_in 0 rfl _).trans (A_eq6 (V23 m ρ) c 0)
    | ⟨1, _⟩, _ => exact ((dat6 (V23 m ρ) c).arrAt_in 1 rfl _).trans (A_eq6 (V23 m ρ) c 1)
    | ⟨2, _⟩, _ => exact ((dat6 (V23 m ρ) c).arrAt_in 2 rfl _).trans (A_eq6 (V23 m ρ) c 2)
    | ⟨3, _⟩, h => exact absurd rfl h
  · exact W24_of_ne m ρ c r (fun w e => hw ⟨w, e⟩)
/-- After item 24, the host stretch `hostOps7`. -/
abbrev W25 : Dev nD → Valuation τ sig (Elt F) := fun c => StableHlo.after hostOps7 (W24 m ρ c)
theorem W25_keep (c : Dev nD) (r : Ref sig .tc) (h : r ∉ hostOps7_W) : W25 m ρ c (Proc.devRef .tc r) = W24 m ρ c (Proc.devRef .tc r) :=
  StableHlo.after_of_writes_sub hostOps7 _ hostOps7_writes h
/-- Item 25 is region 7: what it is entered from, read at the TensorCore's references. -/
abbrev V25 : (c : Dev nD) → (b : Ref sig .tc) → Buf (Elt F) ((c : Thread nD τ).loc b) := fun c b => W25 m ρ c b
/-- After region 7: its arrays at what the pipeline leaves, every other buffer as entered. -/
def W26 (c : Dev nD) : Valuation τ sig (Elt F) :=
  Pipeline.withArrays spec7 c (W25 m ρ c) fun w => (dat7 (V25 m ρ) c).arrAt w cfg7.N
theorem W26_arr (c : Dev nD) (w : Fin cfg7.W) :
    W26 m ρ c (Proc.devRef .tc (Pipeline.arrRef spec7 w)) = (dat7 (V25 m ρ) c).arrAt w cfg7.N := by
  unfold W26; exact Pipeline.withArrays_arr spec7 launch7.win.arr_inj c _ _ w
theorem W26_of_ne (c : Dev nD) (b : Ref sig .tc) (hb : ∀ w, Pipeline.arrRef spec7 w ≠ b) :
    W26 m ρ c (Proc.devRef .tc b) = W25 m ρ c (Proc.devRef .tc b) := by
  unfold W26; exact Pipeline.withArrays_of_ne spec7 c _ _ b hb
abbrev V26 : (c : Dev nD) → (b : Ref sig .tc) → Buf (Elt F) ((c : Thread nD τ).loc b) := fun c b => W26 m ρ c b
theorem hF7 (c : Dev nD) (w : Fin cfg7.W) : (dat7 (V25 m ρ) c).arrAt w cfg7.N = V26 m ρ c (Pipeline.arrRef spec7 w) :=
  (W26_arr m ρ c w).symm
theorem hrest7 (c : Dev nD) : ∀ b, b ∉ Finset.univ.image (Pipeline.arrRef spec7) → V26 m ρ c b = V25 m ρ c b :=
  fun b hb => W26_of_ne m ρ c b fun w e => hb (Finset.mem_image.mpr ⟨w, Finset.mem_univ _, e⟩)
/-- Region 7 changes only its result array `main_v160`. -/
theorem W26_keep (c : Dev nD) (r : Ref sig .tc) (h : r ≠ main_v160) : W26 m ρ c (Proc.devRef .tc r) = W25 m ρ c (Proc.devRef .tc r) := by
  by_cases hw : ∃ w, Pipeline.arrRef spec7 w = r
  · obtain ⟨w, rfl⟩ := hw
    rw [W26_arr]
    match w, h with
    | ⟨0, _⟩, _ => exact ((dat7 (V25 m ρ) c).arrAt_in 0 rfl _).trans (A_eq7 (V25 m ρ) c 0)
    | ⟨1, _⟩, _ => exact ((dat7 (V25 m ρ) c).arrAt_in 1 rfl _).trans (A_eq7 (V25 m ρ) c 1)
    | ⟨2, _⟩, h => exact absurd rfl h
  · exact W26_of_ne m ρ c r (fun w e => hw ⟨w, e⟩)
/-- After item 26, the host stretch `hostOps8`. -/
abbrev W27 : Dev nD → Valuation τ sig (Elt F) := fun c => StableHlo.after hostOps8 (W26 m ρ c)
theorem W27_keep (c : Dev nD) (r : Ref sig .tc) (h : r ∉ hostOps8_W) : W27 m ρ c (Proc.devRef .tc r) = W26 m ρ c (Proc.devRef .tc r) :=
  StableHlo.after_of_writes_sub hostOps8 _ hostOps8_writes h
/-- Item 27 is region 8: what it is entered from, read at the TensorCore's references. -/
abbrev V27 : (c : Dev nD) → (b : Ref sig .tc) → Buf (Elt F) ((c : Thread nD τ).loc b) := fun c b => W27 m ρ c b
/-- After region 8: its arrays at what the pipeline leaves, every other buffer as entered. -/
def W28 (c : Dev nD) : Valuation τ sig (Elt F) :=
  Pipeline.withArrays spec8 c (W27 m ρ c) fun w => (dat8 (V27 m ρ) c).arrAt w cfg8.N
theorem W28_arr (c : Dev nD) (w : Fin cfg8.W) :
    W28 m ρ c (Proc.devRef .tc (Pipeline.arrRef spec8 w)) = (dat8 (V27 m ρ) c).arrAt w cfg8.N := by
  unfold W28; exact Pipeline.withArrays_arr spec8 launch8.win.arr_inj c _ _ w
theorem W28_of_ne (c : Dev nD) (b : Ref sig .tc) (hb : ∀ w, Pipeline.arrRef spec8 w ≠ b) :
    W28 m ρ c (Proc.devRef .tc b) = W27 m ρ c (Proc.devRef .tc b) := by
  unfold W28; exact Pipeline.withArrays_of_ne spec8 c _ _ b hb
abbrev V28 : (c : Dev nD) → (b : Ref sig .tc) → Buf (Elt F) ((c : Thread nD τ).loc b) := fun c b => W28 m ρ c b
theorem hF8 (c : Dev nD) (w : Fin cfg8.W) : (dat8 (V27 m ρ) c).arrAt w cfg8.N = V28 m ρ c (Pipeline.arrRef spec8 w) :=
  (W28_arr m ρ c w).symm
theorem hrest8 (c : Dev nD) : ∀ b, b ∉ Finset.univ.image (Pipeline.arrRef spec8) → V28 m ρ c b = V27 m ρ c b :=
  fun b hb => W28_of_ne m ρ c b fun w e => hb (Finset.mem_image.mpr ⟨w, Finset.mem_univ _, e⟩)
/-- Region 8 changes only its result array `main_v162`. -/
theorem W28_keep (c : Dev nD) (r : Ref sig .tc) (h : r ≠ main_v162) : W28 m ρ c (Proc.devRef .tc r) = W27 m ρ c (Proc.devRef .tc r) := by
  by_cases hw : ∃ w, Pipeline.arrRef spec8 w = r
  · obtain ⟨w, rfl⟩ := hw
    rw [W28_arr]
    match w, h with
    | ⟨0, _⟩, _ => exact ((dat8 (V27 m ρ) c).arrAt_in 0 rfl _).trans (A_eq8 (V27 m ρ) c 0)
    | ⟨1, _⟩, _ => exact ((dat8 (V27 m ρ) c).arrAt_in 1 rfl _).trans (A_eq8 (V27 m ρ) c 1)
    | ⟨2, _⟩, h => exact absurd rfl h
  · exact W28_of_ne m ρ c r (fun w e => hw ⟨w, e⟩)
/-- After item 28, the host stretch `hostOps9`. -/
abbrev W29 : Dev nD → Valuation τ sig (Elt F) := fun c => StableHlo.after hostOps9 (W28 m ρ c)
theorem W29_keep (c : Dev nD) (r : Ref sig .tc) (h : r ∉ hostOps9_W) : W29 m ρ c (Proc.devRef .tc r) = W28 m ρ c (Proc.devRef .tc r) :=
  StableHlo.after_of_writes_sub hostOps9 _ hostOps9_writes h
/-- After item 29, the host stretch `hostOps9_1`. -/
abbrev W30 : Dev nD → Valuation τ sig (Elt F) := fun c => StableHlo.after hostOps9_1 (W29 m ρ c)
theorem W30_keep (c : Dev nD) (r : Ref sig .tc) (h : r ∉ hostOps9_1_W) : W30 m ρ c (Proc.devRef .tc r) = W29 m ρ c (Proc.devRef .tc r) :=
  StableHlo.after_of_writes_sub hostOps9_1 _ hostOps9_1_writes h
/-- After item 30, the host stretch `hostOps9_2`. -/
abbrev W31 : Dev nD → Valuation τ sig (Elt F) := fun c => StableHlo.after hostOps9_2 (W30 m ρ c)
theorem W31_keep (c : Dev nD) (r : Ref sig .tc) (h : r ∉ hostOps9_2_W) : W31 m ρ c (Proc.devRef .tc r) = W30 m ρ c (Proc.devRef .tc r) :=
  StableHlo.after_of_writes_sub hostOps9_2 _ hostOps9_2_writes h
/-- After item 31, the host stretch `hostOps9_3`. -/
abbrev W32 : Dev nD → Valuation τ sig (Elt F) := fun c => StableHlo.after hostOps9_3 (W31 m ρ c)
theorem W32_keep (c : Dev nD) (r : Ref sig .tc) (h : r ∉ hostOps9_3_W) : W32 m ρ c (Proc.devRef .tc r) = W31 m ρ c (Proc.devRef .tc r) :=
  StableHlo.after_of_writes_sub hostOps9_3 _ hostOps9_3_writes h
/-- After item 32, the host stretch `hostOps9_4`. -/
abbrev W33 : Dev nD → Valuation τ sig (Elt F) := fun c => StableHlo.after hostOps9_4 (W32 m ρ c)
theorem W33_keep (c : Dev nD) (r : Ref sig .tc) (h : r ∉ hostOps9_4_W) : W33 m ρ c (Proc.devRef .tc r) = W32 m ρ c (Proc.devRef .tc r) :=
  StableHlo.after_of_writes_sub hostOps9_4 _ hostOps9_4_writes h
/-- Item 33 is region 9: what it is entered from, read at the TensorCore's references. -/
abbrev V33 : (c : Dev nD) → (b : Ref sig .tc) → Buf (Elt F) ((c : Thread nD τ).loc b) := fun c b => W33 m ρ c b
/-- After region 9: its arrays at what the pipeline leaves, every other buffer as entered. -/
def W34 (c : Dev nD) : Valuation τ sig (Elt F) :=
  Pipeline.withArrays spec9 c (W33 m ρ c) fun w => (dat9 (V33 m ρ) c).arrAt w cfg9.N
theorem W34_arr (c : Dev nD) (w : Fin cfg9.W) :
    W34 m ρ c (Proc.devRef .tc (Pipeline.arrRef spec9 w)) = (dat9 (V33 m ρ) c).arrAt w cfg9.N := by
  unfold W34; exact Pipeline.withArrays_arr spec9 launch9.win.arr_inj c _ _ w
theorem W34_of_ne (c : Dev nD) (b : Ref sig .tc) (hb : ∀ w, Pipeline.arrRef spec9 w ≠ b) :
    W34 m ρ c (Proc.devRef .tc b) = W33 m ρ c (Proc.devRef .tc b) := by
  unfold W34; exact Pipeline.withArrays_of_ne spec9 c _ _ b hb
abbrev V34 : (c : Dev nD) → (b : Ref sig .tc) → Buf (Elt F) ((c : Thread nD τ).loc b) := fun c b => W34 m ρ c b
theorem hF9 (c : Dev nD) (w : Fin cfg9.W) : (dat9 (V33 m ρ) c).arrAt w cfg9.N = V34 m ρ c (Pipeline.arrRef spec9 w) :=
  (W34_arr m ρ c w).symm
theorem hrest9 (c : Dev nD) : ∀ b, b ∉ Finset.univ.image (Pipeline.arrRef spec9) → V34 m ρ c b = V33 m ρ c b :=
  fun b hb => W34_of_ne m ρ c b fun w e => hb (Finset.mem_image.mpr ⟨w, Finset.mem_univ _, e⟩)
/-- Region 9 changes only its result array `main_v190`. -/
theorem W34_keep (c : Dev nD) (r : Ref sig .tc) (h : r ≠ main_v190) : W34 m ρ c (Proc.devRef .tc r) = W33 m ρ c (Proc.devRef .tc r) := by
  by_cases hw : ∃ w, Pipeline.arrRef spec9 w = r
  · obtain ⟨w, rfl⟩ := hw
    rw [W34_arr]
    match w, h with
    | ⟨0, _⟩, _ => exact ((dat9 (V33 m ρ) c).arrAt_in 0 rfl _).trans (A_eq9 (V33 m ρ) c 0)
    | ⟨1, _⟩, _ => exact ((dat9 (V33 m ρ) c).arrAt_in 1 rfl _).trans (A_eq9 (V33 m ρ) c 1)
    | ⟨2, _⟩, _ => exact ((dat9 (V33 m ρ) c).arrAt_in 2 rfl _).trans (A_eq9 (V33 m ρ) c 2)
    | ⟨3, _⟩, h => exact absurd rfl h
  · exact W34_of_ne m ρ c r (fun w e => hw ⟨w, e⟩)
/-- After item 34, the host stretch `hostOps10`. -/
abbrev W35 : Dev nD → Valuation τ sig (Elt F) := fun c => StableHlo.after hostOps10 (W34 m ρ c)
theorem W35_keep (c : Dev nD) (r : Ref sig .tc) (h : r ∉ hostOps10_W) : W35 m ρ c (Proc.devRef .tc r) = W34 m ρ c (Proc.devRef .tc r) :=
  StableHlo.after_of_writes_sub hostOps10 _ hostOps10_writes h

/-! ## No item writes an argument -/

theorem W35_main_arg0 (c : Dev nD) : W35 m ρ c (Proc.devRef .tc main_arg0) = m ((c : Thread nD τ).loc main_arg0) :=
  (W35_keep m ρ c main_arg0 (by decide)).trans <| (W34_keep m ρ c main_arg0 (by decide)).trans <| (W33_keep m ρ c main_arg0 (by decide)).trans <| (W32_keep m ρ c main_arg0 (by decide)).trans <| (W31_keep m ρ c main_arg0 (by decide)).trans <| (W30_keep m ρ c main_arg0 (by decide)).trans <| (W29_keep m ρ c main_arg0 (by decide)).trans <| (W28_keep m ρ c main_arg0 (by decide)).trans <| (W27_keep m ρ c main_arg0 (by decide)).trans <| (W26_keep m ρ c main_arg0 (by decide)).trans <| (W25_keep m ρ c main_arg0 (by decide)).trans <| (W24_keep m ρ c main_arg0 (by decide)).trans <| (W23_keep m ρ c main_arg0 (by decide)).trans <| (W22_keep m ρ c main_arg0 (by decide)).trans <| (W21_keep m ρ c main_arg0 (by decide)).trans <| (W20_keep m ρ c main_arg0 (by decide)).trans <| (W19_keep m ρ c main_arg0 (by decide)).trans <| (W18_keep m ρ c main_arg0 (by decide)).trans <| (W17_keep m ρ c main_arg0 (by decide)).trans <| (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W35_main_arg1 (c : Dev nD) : W35 m ρ c (Proc.devRef .tc main_arg1) = m ((c : Thread nD τ).loc main_arg1) :=
  (W35_keep m ρ c main_arg1 (by decide)).trans <| (W34_keep m ρ c main_arg1 (by decide)).trans <| (W33_keep m ρ c main_arg1 (by decide)).trans <| (W32_keep m ρ c main_arg1 (by decide)).trans <| (W31_keep m ρ c main_arg1 (by decide)).trans <| (W30_keep m ρ c main_arg1 (by decide)).trans <| (W29_keep m ρ c main_arg1 (by decide)).trans <| (W28_keep m ρ c main_arg1 (by decide)).trans <| (W27_keep m ρ c main_arg1 (by decide)).trans <| (W26_keep m ρ c main_arg1 (by decide)).trans <| (W25_keep m ρ c main_arg1 (by decide)).trans <| (W24_keep m ρ c main_arg1 (by decide)).trans <| (W23_keep m ρ c main_arg1 (by decide)).trans <| (W22_keep m ρ c main_arg1 (by decide)).trans <| (W21_keep m ρ c main_arg1 (by decide)).trans <| (W20_keep m ρ c main_arg1 (by decide)).trans <| (W19_keep m ρ c main_arg1 (by decide)).trans <| (W18_keep m ρ c main_arg1 (by decide)).trans <| (W17_keep m ρ c main_arg1 (by decide)).trans <| (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W35_main_arg2 (c : Dev nD) : W35 m ρ c (Proc.devRef .tc main_arg2) = m ((c : Thread nD τ).loc main_arg2) :=
  (W35_keep m ρ c main_arg2 (by decide)).trans <| (W34_keep m ρ c main_arg2 (by decide)).trans <| (W33_keep m ρ c main_arg2 (by decide)).trans <| (W32_keep m ρ c main_arg2 (by decide)).trans <| (W31_keep m ρ c main_arg2 (by decide)).trans <| (W30_keep m ρ c main_arg2 (by decide)).trans <| (W29_keep m ρ c main_arg2 (by decide)).trans <| (W28_keep m ρ c main_arg2 (by decide)).trans <| (W27_keep m ρ c main_arg2 (by decide)).trans <| (W26_keep m ρ c main_arg2 (by decide)).trans <| (W25_keep m ρ c main_arg2 (by decide)).trans <| (W24_keep m ρ c main_arg2 (by decide)).trans <| (W23_keep m ρ c main_arg2 (by decide)).trans <| (W22_keep m ρ c main_arg2 (by decide)).trans <| (W21_keep m ρ c main_arg2 (by decide)).trans <| (W20_keep m ρ c main_arg2 (by decide)).trans <| (W19_keep m ρ c main_arg2 (by decide)).trans <| (W18_keep m ρ c main_arg2 (by decide)).trans <| (W17_keep m ρ c main_arg2 (by decide)).trans <| (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W35_main_arg3 (c : Dev nD) : W35 m ρ c (Proc.devRef .tc main_arg3) = m ((c : Thread nD τ).loc main_arg3) :=
  (W35_keep m ρ c main_arg3 (by decide)).trans <| (W34_keep m ρ c main_arg3 (by decide)).trans <| (W33_keep m ρ c main_arg3 (by decide)).trans <| (W32_keep m ρ c main_arg3 (by decide)).trans <| (W31_keep m ρ c main_arg3 (by decide)).trans <| (W30_keep m ρ c main_arg3 (by decide)).trans <| (W29_keep m ρ c main_arg3 (by decide)).trans <| (W28_keep m ρ c main_arg3 (by decide)).trans <| (W27_keep m ρ c main_arg3 (by decide)).trans <| (W26_keep m ρ c main_arg3 (by decide)).trans <| (W25_keep m ρ c main_arg3 (by decide)).trans <| (W24_keep m ρ c main_arg3 (by decide)).trans <| (W23_keep m ρ c main_arg3 (by decide)).trans <| (W22_keep m ρ c main_arg3 (by decide)).trans <| (W21_keep m ρ c main_arg3 (by decide)).trans <| (W20_keep m ρ c main_arg3 (by decide)).trans <| (W19_keep m ρ c main_arg3 (by decide)).trans <| (W18_keep m ρ c main_arg3 (by decide)).trans <| (W17_keep m ρ c main_arg3 (by decide)).trans <| (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W35_main_arg4 (c : Dev nD) : W35 m ρ c (Proc.devRef .tc main_arg4) = m ((c : Thread nD τ).loc main_arg4) :=
  (W35_keep m ρ c main_arg4 (by decide)).trans <| (W34_keep m ρ c main_arg4 (by decide)).trans <| (W33_keep m ρ c main_arg4 (by decide)).trans <| (W32_keep m ρ c main_arg4 (by decide)).trans <| (W31_keep m ρ c main_arg4 (by decide)).trans <| (W30_keep m ρ c main_arg4 (by decide)).trans <| (W29_keep m ρ c main_arg4 (by decide)).trans <| (W28_keep m ρ c main_arg4 (by decide)).trans <| (W27_keep m ρ c main_arg4 (by decide)).trans <| (W26_keep m ρ c main_arg4 (by decide)).trans <| (W25_keep m ρ c main_arg4 (by decide)).trans <| (W24_keep m ρ c main_arg4 (by decide)).trans <| (W23_keep m ρ c main_arg4 (by decide)).trans <| (W22_keep m ρ c main_arg4 (by decide)).trans <| (W21_keep m ρ c main_arg4 (by decide)).trans <| (W20_keep m ρ c main_arg4 (by decide)).trans <| (W19_keep m ρ c main_arg4 (by decide)).trans <| (W18_keep m ρ c main_arg4 (by decide)).trans <| (W17_keep m ρ c main_arg4 (by decide)).trans <| (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W35_main_arg5 (c : Dev nD) : W35 m ρ c (Proc.devRef .tc main_arg5) = m ((c : Thread nD τ).loc main_arg5) :=
  (W35_keep m ρ c main_arg5 (by decide)).trans <| (W34_keep m ρ c main_arg5 (by decide)).trans <| (W33_keep m ρ c main_arg5 (by decide)).trans <| (W32_keep m ρ c main_arg5 (by decide)).trans <| (W31_keep m ρ c main_arg5 (by decide)).trans <| (W30_keep m ρ c main_arg5 (by decide)).trans <| (W29_keep m ρ c main_arg5 (by decide)).trans <| (W28_keep m ρ c main_arg5 (by decide)).trans <| (W27_keep m ρ c main_arg5 (by decide)).trans <| (W26_keep m ρ c main_arg5 (by decide)).trans <| (W25_keep m ρ c main_arg5 (by decide)).trans <| (W24_keep m ρ c main_arg5 (by decide)).trans <| (W23_keep m ρ c main_arg5 (by decide)).trans <| (W22_keep m ρ c main_arg5 (by decide)).trans <| (W21_keep m ρ c main_arg5 (by decide)).trans <| (W20_keep m ρ c main_arg5 (by decide)).trans <| (W19_keep m ρ c main_arg5 (by decide)).trans <| (W18_keep m ρ c main_arg5 (by decide)).trans <| (W17_keep m ρ c main_arg5 (by decide)).trans <| (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W35_main_arg6 (c : Dev nD) : W35 m ρ c (Proc.devRef .tc main_arg6) = m ((c : Thread nD τ).loc main_arg6) :=
  (W35_keep m ρ c main_arg6 (by decide)).trans <| (W34_keep m ρ c main_arg6 (by decide)).trans <| (W33_keep m ρ c main_arg6 (by decide)).trans <| (W32_keep m ρ c main_arg6 (by decide)).trans <| (W31_keep m ρ c main_arg6 (by decide)).trans <| (W30_keep m ρ c main_arg6 (by decide)).trans <| (W29_keep m ρ c main_arg6 (by decide)).trans <| (W28_keep m ρ c main_arg6 (by decide)).trans <| (W27_keep m ρ c main_arg6 (by decide)).trans <| (W26_keep m ρ c main_arg6 (by decide)).trans <| (W25_keep m ρ c main_arg6 (by decide)).trans <| (W24_keep m ρ c main_arg6 (by decide)).trans <| (W23_keep m ρ c main_arg6 (by decide)).trans <| (W22_keep m ρ c main_arg6 (by decide)).trans <| (W21_keep m ρ c main_arg6 (by decide)).trans <| (W20_keep m ρ c main_arg6 (by decide)).trans <| (W19_keep m ρ c main_arg6 (by decide)).trans <| (W18_keep m ρ c main_arg6 (by decide)).trans <| (W17_keep m ρ c main_arg6 (by decide)).trans <| (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W35_main_arg7 (c : Dev nD) : W35 m ρ c (Proc.devRef .tc main_arg7) = m ((c : Thread nD τ).loc main_arg7) :=
  (W35_keep m ρ c main_arg7 (by decide)).trans <| (W34_keep m ρ c main_arg7 (by decide)).trans <| (W33_keep m ρ c main_arg7 (by decide)).trans <| (W32_keep m ρ c main_arg7 (by decide)).trans <| (W31_keep m ρ c main_arg7 (by decide)).trans <| (W30_keep m ρ c main_arg7 (by decide)).trans <| (W29_keep m ρ c main_arg7 (by decide)).trans <| (W28_keep m ρ c main_arg7 (by decide)).trans <| (W27_keep m ρ c main_arg7 (by decide)).trans <| (W26_keep m ρ c main_arg7 (by decide)).trans <| (W25_keep m ρ c main_arg7 (by decide)).trans <| (W24_keep m ρ c main_arg7 (by decide)).trans <| (W23_keep m ρ c main_arg7 (by decide)).trans <| (W22_keep m ρ c main_arg7 (by decide)).trans <| (W21_keep m ρ c main_arg7 (by decide)).trans <| (W20_keep m ρ c main_arg7 (by decide)).trans <| (W19_keep m ρ c main_arg7 (by decide)).trans <| (W18_keep m ρ c main_arg7 (by decide)).trans <| (W17_keep m ρ c main_arg7 (by decide)).trans <| (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W35_main_arg8 (c : Dev nD) : W35 m ρ c (Proc.devRef .tc main_arg8) = m ((c : Thread nD τ).loc main_arg8) :=
  (W35_keep m ρ c main_arg8 (by decide)).trans <| (W34_keep m ρ c main_arg8 (by decide)).trans <| (W33_keep m ρ c main_arg8 (by decide)).trans <| (W32_keep m ρ c main_arg8 (by decide)).trans <| (W31_keep m ρ c main_arg8 (by decide)).trans <| (W30_keep m ρ c main_arg8 (by decide)).trans <| (W29_keep m ρ c main_arg8 (by decide)).trans <| (W28_keep m ρ c main_arg8 (by decide)).trans <| (W27_keep m ρ c main_arg8 (by decide)).trans <| (W26_keep m ρ c main_arg8 (by decide)).trans <| (W25_keep m ρ c main_arg8 (by decide)).trans <| (W24_keep m ρ c main_arg8 (by decide)).trans <| (W23_keep m ρ c main_arg8 (by decide)).trans <| (W22_keep m ρ c main_arg8 (by decide)).trans <| (W21_keep m ρ c main_arg8 (by decide)).trans <| (W20_keep m ρ c main_arg8 (by decide)).trans <| (W19_keep m ρ c main_arg8 (by decide)).trans <| (W18_keep m ρ c main_arg8 (by decide)).trans <| (W17_keep m ρ c main_arg8 (by decide)).trans <| (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W35_main_arg9 (c : Dev nD) : W35 m ρ c (Proc.devRef .tc main_arg9) = m ((c : Thread nD τ).loc main_arg9) :=
  (W35_keep m ρ c main_arg9 (by decide)).trans <| (W34_keep m ρ c main_arg9 (by decide)).trans <| (W33_keep m ρ c main_arg9 (by decide)).trans <| (W32_keep m ρ c main_arg9 (by decide)).trans <| (W31_keep m ρ c main_arg9 (by decide)).trans <| (W30_keep m ρ c main_arg9 (by decide)).trans <| (W29_keep m ρ c main_arg9 (by decide)).trans <| (W28_keep m ρ c main_arg9 (by decide)).trans <| (W27_keep m ρ c main_arg9 (by decide)).trans <| (W26_keep m ρ c main_arg9 (by decide)).trans <| (W25_keep m ρ c main_arg9 (by decide)).trans <| (W24_keep m ρ c main_arg9 (by decide)).trans <| (W23_keep m ρ c main_arg9 (by decide)).trans <| (W22_keep m ρ c main_arg9 (by decide)).trans <| (W21_keep m ρ c main_arg9 (by decide)).trans <| (W20_keep m ρ c main_arg9 (by decide)).trans <| (W19_keep m ρ c main_arg9 (by decide)).trans <| (W18_keep m ρ c main_arg9 (by decide)).trans <| (W17_keep m ρ c main_arg9 (by decide)).trans <| (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W35_main_arg10 (c : Dev nD) : W35 m ρ c (Proc.devRef .tc main_arg10) = m ((c : Thread nD τ).loc main_arg10) :=
  (W35_keep m ρ c main_arg10 (by decide)).trans <| (W34_keep m ρ c main_arg10 (by decide)).trans <| (W33_keep m ρ c main_arg10 (by decide)).trans <| (W32_keep m ρ c main_arg10 (by decide)).trans <| (W31_keep m ρ c main_arg10 (by decide)).trans <| (W30_keep m ρ c main_arg10 (by decide)).trans <| (W29_keep m ρ c main_arg10 (by decide)).trans <| (W28_keep m ρ c main_arg10 (by decide)).trans <| (W27_keep m ρ c main_arg10 (by decide)).trans <| (W26_keep m ρ c main_arg10 (by decide)).trans <| (W25_keep m ρ c main_arg10 (by decide)).trans <| (W24_keep m ρ c main_arg10 (by decide)).trans <| (W23_keep m ρ c main_arg10 (by decide)).trans <| (W22_keep m ρ c main_arg10 (by decide)).trans <| (W21_keep m ρ c main_arg10 (by decide)).trans <| (W20_keep m ρ c main_arg10 (by decide)).trans <| (W19_keep m ρ c main_arg10 (by decide)).trans <| (W18_keep m ρ c main_arg10 (by decide)).trans <| (W17_keep m ρ c main_arg10 (by decide)).trans <| (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W35_main_arg11 (c : Dev nD) : W35 m ρ c (Proc.devRef .tc main_arg11) = m ((c : Thread nD τ).loc main_arg11) :=
  (W35_keep m ρ c main_arg11 (by decide)).trans <| (W34_keep m ρ c main_arg11 (by decide)).trans <| (W33_keep m ρ c main_arg11 (by decide)).trans <| (W32_keep m ρ c main_arg11 (by decide)).trans <| (W31_keep m ρ c main_arg11 (by decide)).trans <| (W30_keep m ρ c main_arg11 (by decide)).trans <| (W29_keep m ρ c main_arg11 (by decide)).trans <| (W28_keep m ρ c main_arg11 (by decide)).trans <| (W27_keep m ρ c main_arg11 (by decide)).trans <| (W26_keep m ρ c main_arg11 (by decide)).trans <| (W25_keep m ρ c main_arg11 (by decide)).trans <| (W24_keep m ρ c main_arg11 (by decide)).trans <| (W23_keep m ρ c main_arg11 (by decide)).trans <| (W22_keep m ρ c main_arg11 (by decide)).trans <| (W21_keep m ρ c main_arg11 (by decide)).trans <| (W20_keep m ρ c main_arg11 (by decide)).trans <| (W19_keep m ρ c main_arg11 (by decide)).trans <| (W18_keep m ρ c main_arg11 (by decide)).trans <| (W17_keep m ρ c main_arg11 (by decide)).trans <| (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W35_main_arg12 (c : Dev nD) : W35 m ρ c (Proc.devRef .tc main_arg12) = m ((c : Thread nD τ).loc main_arg12) :=
  (W35_keep m ρ c main_arg12 (by decide)).trans <| (W34_keep m ρ c main_arg12 (by decide)).trans <| (W33_keep m ρ c main_arg12 (by decide)).trans <| (W32_keep m ρ c main_arg12 (by decide)).trans <| (W31_keep m ρ c main_arg12 (by decide)).trans <| (W30_keep m ρ c main_arg12 (by decide)).trans <| (W29_keep m ρ c main_arg12 (by decide)).trans <| (W28_keep m ρ c main_arg12 (by decide)).trans <| (W27_keep m ρ c main_arg12 (by decide)).trans <| (W26_keep m ρ c main_arg12 (by decide)).trans <| (W25_keep m ρ c main_arg12 (by decide)).trans <| (W24_keep m ρ c main_arg12 (by decide)).trans <| (W23_keep m ρ c main_arg12 (by decide)).trans <| (W22_keep m ρ c main_arg12 (by decide)).trans <| (W21_keep m ρ c main_arg12 (by decide)).trans <| (W20_keep m ρ c main_arg12 (by decide)).trans <| (W19_keep m ρ c main_arg12 (by decide)).trans <| (W18_keep m ρ c main_arg12 (by decide)).trans <| (W17_keep m ρ c main_arg12 (by decide)).trans <| (W16_keep m ρ c main_arg12 (by decide)).trans <| (W15_keep m ρ c main_arg12 (by decide)).trans <| (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W35_main_arg13 (c : Dev nD) : W35 m ρ c (Proc.devRef .tc main_arg13) = m ((c : Thread nD τ).loc main_arg13) :=
  (W35_keep m ρ c main_arg13 (by decide)).trans <| (W34_keep m ρ c main_arg13 (by decide)).trans <| (W33_keep m ρ c main_arg13 (by decide)).trans <| (W32_keep m ρ c main_arg13 (by decide)).trans <| (W31_keep m ρ c main_arg13 (by decide)).trans <| (W30_keep m ρ c main_arg13 (by decide)).trans <| (W29_keep m ρ c main_arg13 (by decide)).trans <| (W28_keep m ρ c main_arg13 (by decide)).trans <| (W27_keep m ρ c main_arg13 (by decide)).trans <| (W26_keep m ρ c main_arg13 (by decide)).trans <| (W25_keep m ρ c main_arg13 (by decide)).trans <| (W24_keep m ρ c main_arg13 (by decide)).trans <| (W23_keep m ρ c main_arg13 (by decide)).trans <| (W22_keep m ρ c main_arg13 (by decide)).trans <| (W21_keep m ρ c main_arg13 (by decide)).trans <| (W20_keep m ρ c main_arg13 (by decide)).trans <| (W19_keep m ρ c main_arg13 (by decide)).trans <| (W18_keep m ρ c main_arg13 (by decide)).trans <| (W17_keep m ρ c main_arg13 (by decide)).trans <| (W16_keep m ρ c main_arg13 (by decide)).trans <| (W15_keep m ρ c main_arg13 (by decide)).trans <| (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W35_main_arg14 (c : Dev nD) : W35 m ρ c (Proc.devRef .tc main_arg14) = m ((c : Thread nD τ).loc main_arg14) :=
  (W35_keep m ρ c main_arg14 (by decide)).trans <| (W34_keep m ρ c main_arg14 (by decide)).trans <| (W33_keep m ρ c main_arg14 (by decide)).trans <| (W32_keep m ρ c main_arg14 (by decide)).trans <| (W31_keep m ρ c main_arg14 (by decide)).trans <| (W30_keep m ρ c main_arg14 (by decide)).trans <| (W29_keep m ρ c main_arg14 (by decide)).trans <| (W28_keep m ρ c main_arg14 (by decide)).trans <| (W27_keep m ρ c main_arg14 (by decide)).trans <| (W26_keep m ρ c main_arg14 (by decide)).trans <| (W25_keep m ρ c main_arg14 (by decide)).trans <| (W24_keep m ρ c main_arg14 (by decide)).trans <| (W23_keep m ρ c main_arg14 (by decide)).trans <| (W22_keep m ρ c main_arg14 (by decide)).trans <| (W21_keep m ρ c main_arg14 (by decide)).trans <| (W20_keep m ρ c main_arg14 (by decide)).trans <| (W19_keep m ρ c main_arg14 (by decide)).trans <| (W18_keep m ρ c main_arg14 (by decide)).trans <| (W17_keep m ρ c main_arg14 (by decide)).trans <| (W16_keep m ρ c main_arg14 (by decide)).trans <| (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl
theorem W35_main_arg15 (c : Dev nD) : W35 m ρ c (Proc.devRef .tc main_arg15) = m ((c : Thread nD τ).loc main_arg15) :=
  (W35_keep m ρ c main_arg15 (by decide)).trans <| (W34_keep m ρ c main_arg15 (by decide)).trans <| (W33_keep m ρ c main_arg15 (by decide)).trans <| (W32_keep m ρ c main_arg15 (by decide)).trans <| (W31_keep m ρ c main_arg15 (by decide)).trans <| (W30_keep m ρ c main_arg15 (by decide)).trans <| (W29_keep m ρ c main_arg15 (by decide)).trans <| (W28_keep m ρ c main_arg15 (by decide)).trans <| (W27_keep m ρ c main_arg15 (by decide)).trans <| (W26_keep m ρ c main_arg15 (by decide)).trans <| (W25_keep m ρ c main_arg15 (by decide)).trans <| (W24_keep m ρ c main_arg15 (by decide)).trans <| (W23_keep m ρ c main_arg15 (by decide)).trans <| (W22_keep m ρ c main_arg15 (by decide)).trans <| (W21_keep m ρ c main_arg15 (by decide)).trans <| (W20_keep m ρ c main_arg15 (by decide)).trans <| (W19_keep m ρ c main_arg15 (by decide)).trans <| (W18_keep m ρ c main_arg15 (by decide)).trans <| (W17_keep m ρ c main_arg15 (by decide)).trans <| (W16_keep m ρ c main_arg15 (by decide)).trans <| (W15_keep m ρ c main_arg15 (by decide)).trans <| (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans rfl
theorem W35_main_arg16 (c : Dev nD) : W35 m ρ c (Proc.devRef .tc main_arg16) = m ((c : Thread nD τ).loc main_arg16) :=
  (W35_keep m ρ c main_arg16 (by decide)).trans <| (W34_keep m ρ c main_arg16 (by decide)).trans <| (W33_keep m ρ c main_arg16 (by decide)).trans <| (W32_keep m ρ c main_arg16 (by decide)).trans <| (W31_keep m ρ c main_arg16 (by decide)).trans <| (W30_keep m ρ c main_arg16 (by decide)).trans <| (W29_keep m ρ c main_arg16 (by decide)).trans <| (W28_keep m ρ c main_arg16 (by decide)).trans <| (W27_keep m ρ c main_arg16 (by decide)).trans <| (W26_keep m ρ c main_arg16 (by decide)).trans <| (W25_keep m ρ c main_arg16 (by decide)).trans <| (W24_keep m ρ c main_arg16 (by decide)).trans <| (W23_keep m ρ c main_arg16 (by decide)).trans <| (W22_keep m ρ c main_arg16 (by decide)).trans <| (W21_keep m ρ c main_arg16 (by decide)).trans <| (W20_keep m ρ c main_arg16 (by decide)).trans <| (W19_keep m ρ c main_arg16 (by decide)).trans <| (W18_keep m ρ c main_arg16 (by decide)).trans <| (W17_keep m ρ c main_arg16 (by decide)).trans <| (W16_keep m ρ c main_arg16 (by decide)).trans <| (W15_keep m ρ c main_arg16 (by decide)).trans <| (W14_keep m ρ c main_arg16 (by decide)).trans <| (W13_keep m ρ c main_arg16 (by decide)).trans <| (W12_keep m ρ c main_arg16 (by decide)).trans <| (W11_keep m ρ c main_arg16 (by decide)).trans <| (W10_keep m ρ c main_arg16 (by decide)).trans <| (W9_keep m ρ c main_arg16 (by decide)).trans <| (W8_keep m ρ c main_arg16 (by decide)).trans <| (W7_keep m ρ c main_arg16 (by decide)).trans <| (W6_keep m ρ c main_arg16 (by decide)).trans <| (W5_keep m ρ c main_arg16 (by decide)).trans <| (W4_keep m ρ c main_arg16 (by decide)).trans <| (W3_keep m ρ c main_arg16 (by decide)).trans <| (W2_keep m ρ c main_arg16 (by decide)).trans <| (W1_keep m ρ c main_arg16 (by decide)).trans rfl
theorem W35_main_arg17 (c : Dev nD) : W35 m ρ c (Proc.devRef .tc main_arg17) = m ((c : Thread nD τ).loc main_arg17) :=
  (W35_keep m ρ c main_arg17 (by decide)).trans <| (W34_keep m ρ c main_arg17 (by decide)).trans <| (W33_keep m ρ c main_arg17 (by decide)).trans <| (W32_keep m ρ c main_arg17 (by decide)).trans <| (W31_keep m ρ c main_arg17 (by decide)).trans <| (W30_keep m ρ c main_arg17 (by decide)).trans <| (W29_keep m ρ c main_arg17 (by decide)).trans <| (W28_keep m ρ c main_arg17 (by decide)).trans <| (W27_keep m ρ c main_arg17 (by decide)).trans <| (W26_keep m ρ c main_arg17 (by decide)).trans <| (W25_keep m ρ c main_arg17 (by decide)).trans <| (W24_keep m ρ c main_arg17 (by decide)).trans <| (W23_keep m ρ c main_arg17 (by decide)).trans <| (W22_keep m ρ c main_arg17 (by decide)).trans <| (W21_keep m ρ c main_arg17 (by decide)).trans <| (W20_keep m ρ c main_arg17 (by decide)).trans <| (W19_keep m ρ c main_arg17 (by decide)).trans <| (W18_keep m ρ c main_arg17 (by decide)).trans <| (W17_keep m ρ c main_arg17 (by decide)).trans <| (W16_keep m ρ c main_arg17 (by decide)).trans <| (W15_keep m ρ c main_arg17 (by decide)).trans <| (W14_keep m ρ c main_arg17 (by decide)).trans <| (W13_keep m ρ c main_arg17 (by decide)).trans <| (W12_keep m ρ c main_arg17 (by decide)).trans <| (W11_keep m ρ c main_arg17 (by decide)).trans <| (W10_keep m ρ c main_arg17 (by decide)).trans <| (W9_keep m ρ c main_arg17 (by decide)).trans <| (W8_keep m ρ c main_arg17 (by decide)).trans <| (W7_keep m ρ c main_arg17 (by decide)).trans <| (W6_keep m ρ c main_arg17 (by decide)).trans <| (W5_keep m ρ c main_arg17 (by decide)).trans <| (W4_keep m ρ c main_arg17 (by decide)).trans <| (W3_keep m ρ c main_arg17 (by decide)).trans <| (W2_keep m ρ c main_arg17 (by decide)).trans <| (W1_keep m ρ c main_arg17 (by decide)).trans rfl
theorem W35_main_arg18 (c : Dev nD) : W35 m ρ c (Proc.devRef .tc main_arg18) = m ((c : Thread nD τ).loc main_arg18) :=
  (W35_keep m ρ c main_arg18 (by decide)).trans <| (W34_keep m ρ c main_arg18 (by decide)).trans <| (W33_keep m ρ c main_arg18 (by decide)).trans <| (W32_keep m ρ c main_arg18 (by decide)).trans <| (W31_keep m ρ c main_arg18 (by decide)).trans <| (W30_keep m ρ c main_arg18 (by decide)).trans <| (W29_keep m ρ c main_arg18 (by decide)).trans <| (W28_keep m ρ c main_arg18 (by decide)).trans <| (W27_keep m ρ c main_arg18 (by decide)).trans <| (W26_keep m ρ c main_arg18 (by decide)).trans <| (W25_keep m ρ c main_arg18 (by decide)).trans <| (W24_keep m ρ c main_arg18 (by decide)).trans <| (W23_keep m ρ c main_arg18 (by decide)).trans <| (W22_keep m ρ c main_arg18 (by decide)).trans <| (W21_keep m ρ c main_arg18 (by decide)).trans <| (W20_keep m ρ c main_arg18 (by decide)).trans <| (W19_keep m ρ c main_arg18 (by decide)).trans <| (W18_keep m ρ c main_arg18 (by decide)).trans <| (W17_keep m ρ c main_arg18 (by decide)).trans <| (W16_keep m ρ c main_arg18 (by decide)).trans <| (W15_keep m ρ c main_arg18 (by decide)).trans <| (W14_keep m ρ c main_arg18 (by decide)).trans <| (W13_keep m ρ c main_arg18 (by decide)).trans <| (W12_keep m ρ c main_arg18 (by decide)).trans <| (W11_keep m ρ c main_arg18 (by decide)).trans <| (W10_keep m ρ c main_arg18 (by decide)).trans <| (W9_keep m ρ c main_arg18 (by decide)).trans <| (W8_keep m ρ c main_arg18 (by decide)).trans <| (W7_keep m ρ c main_arg18 (by decide)).trans <| (W6_keep m ρ c main_arg18 (by decide)).trans <| (W5_keep m ρ c main_arg18 (by decide)).trans <| (W4_keep m ρ c main_arg18 (by decide)).trans <| (W3_keep m ρ c main_arg18 (by decide)).trans <| (W2_keep m ρ c main_arg18 (by decide)).trans <| (W1_keep m ρ c main_arg18 (by decide)).trans rfl
theorem W35_main_arg19 (c : Dev nD) : W35 m ρ c (Proc.devRef .tc main_arg19) = m ((c : Thread nD τ).loc main_arg19) :=
  (W35_keep m ρ c main_arg19 (by decide)).trans <| (W34_keep m ρ c main_arg19 (by decide)).trans <| (W33_keep m ρ c main_arg19 (by decide)).trans <| (W32_keep m ρ c main_arg19 (by decide)).trans <| (W31_keep m ρ c main_arg19 (by decide)).trans <| (W30_keep m ρ c main_arg19 (by decide)).trans <| (W29_keep m ρ c main_arg19 (by decide)).trans <| (W28_keep m ρ c main_arg19 (by decide)).trans <| (W27_keep m ρ c main_arg19 (by decide)).trans <| (W26_keep m ρ c main_arg19 (by decide)).trans <| (W25_keep m ρ c main_arg19 (by decide)).trans <| (W24_keep m ρ c main_arg19 (by decide)).trans <| (W23_keep m ρ c main_arg19 (by decide)).trans <| (W22_keep m ρ c main_arg19 (by decide)).trans <| (W21_keep m ρ c main_arg19 (by decide)).trans <| (W20_keep m ρ c main_arg19 (by decide)).trans <| (W19_keep m ρ c main_arg19 (by decide)).trans <| (W18_keep m ρ c main_arg19 (by decide)).trans <| (W17_keep m ρ c main_arg19 (by decide)).trans <| (W16_keep m ρ c main_arg19 (by decide)).trans <| (W15_keep m ρ c main_arg19 (by decide)).trans <| (W14_keep m ρ c main_arg19 (by decide)).trans <| (W13_keep m ρ c main_arg19 (by decide)).trans <| (W12_keep m ρ c main_arg19 (by decide)).trans <| (W11_keep m ρ c main_arg19 (by decide)).trans <| (W10_keep m ρ c main_arg19 (by decide)).trans <| (W9_keep m ρ c main_arg19 (by decide)).trans <| (W8_keep m ρ c main_arg19 (by decide)).trans <| (W7_keep m ρ c main_arg19 (by decide)).trans <| (W6_keep m ρ c main_arg19 (by decide)).trans <| (W5_keep m ρ c main_arg19 (by decide)).trans <| (W4_keep m ρ c main_arg19 (by decide)).trans <| (W3_keep m ρ c main_arg19 (by decide)).trans <| (W2_keep m ρ c main_arg19 (by decide)).trans <| (W1_keep m ρ c main_arg19 (by decide)).trans rfl
theorem W35_main_arg20 (c : Dev nD) : W35 m ρ c (Proc.devRef .tc main_arg20) = m ((c : Thread nD τ).loc main_arg20) :=
  (W35_keep m ρ c main_arg20 (by decide)).trans <| (W34_keep m ρ c main_arg20 (by decide)).trans <| (W33_keep m ρ c main_arg20 (by decide)).trans <| (W32_keep m ρ c main_arg20 (by decide)).trans <| (W31_keep m ρ c main_arg20 (by decide)).trans <| (W30_keep m ρ c main_arg20 (by decide)).trans <| (W29_keep m ρ c main_arg20 (by decide)).trans <| (W28_keep m ρ c main_arg20 (by decide)).trans <| (W27_keep m ρ c main_arg20 (by decide)).trans <| (W26_keep m ρ c main_arg20 (by decide)).trans <| (W25_keep m ρ c main_arg20 (by decide)).trans <| (W24_keep m ρ c main_arg20 (by decide)).trans <| (W23_keep m ρ c main_arg20 (by decide)).trans <| (W22_keep m ρ c main_arg20 (by decide)).trans <| (W21_keep m ρ c main_arg20 (by decide)).trans <| (W20_keep m ρ c main_arg20 (by decide)).trans <| (W19_keep m ρ c main_arg20 (by decide)).trans <| (W18_keep m ρ c main_arg20 (by decide)).trans <| (W17_keep m ρ c main_arg20 (by decide)).trans <| (W16_keep m ρ c main_arg20 (by decide)).trans <| (W15_keep m ρ c main_arg20 (by decide)).trans <| (W14_keep m ρ c main_arg20 (by decide)).trans <| (W13_keep m ρ c main_arg20 (by decide)).trans <| (W12_keep m ρ c main_arg20 (by decide)).trans <| (W11_keep m ρ c main_arg20 (by decide)).trans <| (W10_keep m ρ c main_arg20 (by decide)).trans <| (W9_keep m ρ c main_arg20 (by decide)).trans <| (W8_keep m ρ c main_arg20 (by decide)).trans <| (W7_keep m ρ c main_arg20 (by decide)).trans <| (W6_keep m ρ c main_arg20 (by decide)).trans <| (W5_keep m ρ c main_arg20 (by decide)).trans <| (W4_keep m ρ c main_arg20 (by decide)).trans <| (W3_keep m ρ c main_arg20 (by decide)).trans <| (W2_keep m ρ c main_arg20 (by decide)).trans <| (W1_keep m ρ c main_arg20 (by decide)).trans rfl

/-! ## The proof data family and the thread state -/

/-- No pipeline has a prefetched table. -/
abbrev adm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
  | ⟨5, _⟩ => fun c => dat5 (V21 m ρ) c
  | ⟨6, _⟩ => fun c => dat6 (V23 m ρ) c
  | ⟨7, _⟩ => fun c => dat7 (V25 m ρ) c
  | ⟨8, _⟩ => fun c => dat8 (V27 m ρ) c
  | ⟨9, _⟩ => fun c => dat9 (V33 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W35 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V11 m ρ) c)
    unfold Pipeline.ΦA
    iintro ⟨Hp, -, Hr⟩
    isplitl [Hr]; · iexact Hr
    iexact Hp
  hout c := by
    rw [Pipeline.ownSems0_none]
    refine (hout3 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W13`, left at `W14`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V13 m ρ) c)
    unfold Pipeline.ΦA
    iintro ⟨Hp, -, Hr⟩
    isplitl [Hr]; · iexact Hr
    iexact Hp
  hout c := by
    rw [Pipeline.ownSems0_none]
    refine (hout4 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W21`, left at `W22`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W23`, left at `W24`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W25`, left at `W26`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V25 m ρ) c).loose
  hwaits := Pipeline.hwaits_of_owed_zero _ _ _ _ L lv 7 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec7 c (V25 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (V25 m ρ) c)
    unfold Pipeline.ΦA
    iintro ⟨Hp, -, Hr⟩
    isplitl [Hr]; · iexact Hr
    iexact Hp
  hout c := by
    rw [Pipeline.ownSems0_none]
    refine (hout7 (V25 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V25 m ρ c) (V26 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W27`, left at `W28`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V27 m ρ) c).loose
  hwaits := Pipeline.hwaits_of_owed_zero _ _ _ _ L lv 8 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec8 c (V27 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (V27 m ρ) c)
    unfold Pipeline.ΦA
    iintro ⟨Hp, -, Hr⟩
    isplitl [Hr]; · iexact Hr
    iexact Hp
  hout c := by
    rw [Pipeline.ownSems0_none]
    refine (hout8 (V27 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V27 m ρ c) (V28 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W33`, left at `W34`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V33 m ρ) c).loose
  hwaits := Pipeline.hwaits_of_owed_zero _ _ _ _ L lv 9 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec9 c (V33 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V33 m ρ c) (V34 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 35 items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)),
    .host (hseg hostOps5_2 hostOps5_2_sub hostOps5_2_fresh (W16 m ρ)),
    .host (hseg hostOps5_3 hostOps5_3_sub hostOps5_3_fresh (W17 m ρ)),
    .host (hseg hostOps5_4 hostOps5_4_sub hostOps5_4_fresh (W18 m ρ)),
    .host (hseg hostOps5_5 hostOps5_5_sub hostOps5_5_fresh (W19 m ρ)),
    .host (hseg hostOps5_6 hostOps5_6_sub hostOps5_6_fresh (W20 m ρ)),
    .region (reg5 m ρ),
    .host (hseg hostOps6 hostOps6_sub hostOps6_fresh (W22 m ρ)),
    .region (reg6 m ρ),
    .host (hseg hostOps7 hostOps7_sub hostOps7_fresh (W24 m ρ)),
    .region (reg7 m ρ),
    .host (hseg hostOps8 hostOps8_sub hostOps8_fresh (W26 m ρ)),
    .region (reg8 m ρ),
    .host (hseg hostOps9 hostOps9_sub hostOps9_fresh (W28 m ρ)),
    .host (hseg hostOps9_1 hostOps9_1_sub hostOps9_1_fresh (W29 m ρ)),
    .host (hseg hostOps9_2 hostOps9_2_sub hostOps9_2_fresh (W30 m ρ)),
    .host (hseg hostOps9_3 hostOps9_3_sub hostOps9_3_fresh (W31 m ρ)),
    .host (hseg hostOps9_4 hostOps9_4_sub hostOps9_4_fresh (W32 m ρ)),
    .region (reg9 m ρ),
    .host (hseg hostOps10 hostOps10_sub hostOps10_fresh (W34 m ρ)) ]

/-- The last host stretch leaves the thread state at the final contents beside the core owing nothing. -/
theorem last_chain (c : Dev nD) :
    iprop(StableHlo.held (c : Thread nD τ) (Pipeline.ucRefs τ sig) (W35 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of @main terminates, nothing faulting, and
    every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10 ] from rfl]
      first | with_reducible exact .rfl | exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h => h)

/-- THE FRAME: every argument array ends as launched, and the result buffer at the last boundary's contents. -/
theorem frame_value : θ_run defs (onTc (τ := τ) (main (F := F))) ⟨m, fun _ => 0, ρ⟩ (fun r => ∀ c : Dev nD,
      r.2.mem ((c.tc : Thread nD τ).loc main_v201) = W35 m ρ c (Proc.devRef .tc main_v201) ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20))) :=
  (θ_run defs _ _).mono (fun r h c => ⟨h c _ (mem_uc main_v201 (by decide)),
      (h c _ (mem_uc main_arg0 (by decide))).trans (W35_main_arg0 m ρ c),
      (h c _ (mem_uc main_arg1 (by decide))).trans (W35_main_arg1 m ρ c),
      (h c _ (mem_uc main_arg2 (by decide))).trans (W35_main_arg2 m ρ c),
      (h c _ (mem_uc main_arg3 (by decide))).trans (W35_main_arg3 m ρ c),
      (h c _ (mem_uc main_arg4 (by decide))).trans (W35_main_arg4 m ρ c),
      (h c _ (mem_uc main_arg5 (by decide))).trans (W35_main_arg5 m ρ c),
      (h c _ (mem_uc main_arg6 (by decide))).trans (W35_main_arg6 m ρ c),
      (h c _ (mem_uc main_arg7 (by decide))).trans (W35_main_arg7 m ρ c),
      (h c _ (mem_uc main_arg8 (by decide))).trans (W35_main_arg8 m ρ c),
      (h c _ (mem_uc main_arg9 (by decide))).trans (W35_main_arg9 m ρ c),
      (h c _ (mem_uc main_arg10 (by decide))).trans (W35_main_arg10 m ρ c),
      (h c _ (mem_uc main_arg11 (by decide))).trans (W35_main_arg11 m ρ c),
      (h c _ (mem_uc main_arg12 (by decide))).trans (W35_main_arg12 m ρ c),
      (h c _ (mem_uc main_arg13 (by decide))).trans (W35_main_arg13 m ρ c),
      (h c _ (mem_uc main_arg14 (by decide))).trans (W35_main_arg14 m ρ c),
      (h c _ (mem_uc main_arg15 (by decide))).trans (W35_main_arg15 m ρ c),
      (h c _ (mem_uc main_arg16 (by decide))).trans (W35_main_arg16 m ρ c),
      (h c _ (mem_uc main_arg17 (by decide))).trans (W35_main_arg17 m ρ c),
      (h c _ (mem_uc main_arg18 (by decide))).trans (W35_main_arg18 m ρ c),
      (h c _ (mem_uc main_arg19 (by decide))).trans (W35_main_arg19 m ρ c),
      (h c _ (mem_uc main_arg20 (by decide))).trans (W35_main_arg20 m ρ c)⟩) (run_all m ρ)

end Cert.Kernel.Hand

end
-- ==== Proof.KI.Dense0.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 0: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with (`defs₀`'s row at the slots). -/
abbrev bodyAt0 (t : Fin cfg0.N) : Prog (TpuEff nD τ sig (Elt F) Λ₀ .tc) PUnit :=
  cc0__dense_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

/-! ## The windows' blocks -/

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (block `(i, 0)`, fetched at every point): its current staging buffer holds its block, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' window (block `(0, 0)` at every point, so fetched at the first only): at a later point the block
    index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias's window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S4096x200 := Rect.unit (s := S4096x200) ![0, 0] S4096x200.size inb_S4096x200_S4096x200_0_0
abbrev r0_1 : Rect S200x64 := Rect.unit (s := S200x64) ![0, 0] S200x64.size inb_S200x64_S200x64_0_0
abbrev r0_2 : Rect S1x64 := Rect.unit (s := S1x64) ![0, 0] S1x64.size inb_S1x64_S1x64_0_0
abbrev r0_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out0_3 (x0 : Vec F S4096x200 .f32) (x1 : Vec F S200x64 .f32) (x2 : Vec F S1x64 .f32) : Vec F S4096x64 .f32 :=
  View.canon [⟨r0_3, k0_pay1 (View.ld x0 r0_0) (View.ld x1 r0_1) (View.ld x2 r0_2)⟩]

/-- The one store is of the whole buffer, so it covers it. -/
theorem cover0_3 (p0 : Vec F S4096x64 .f32) (y : S4096x64.Idx) :
    ∃ pc ∈ ([⟨r0_3, p0⟩] : List (View.Piece (Elt F) S4096x64 .f32)), y ∈ pc.1.set :=
  View.cover_of_tiled [⟨r0_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out0_3 x0 x1 x2`: three whole loads, a
    load of the result buffer whose value is not used, and the one whole store. -/
theorem sound_kernel0 (c : Dev nD) (E : Set ℕ) (i : grid0.Coords) (arg0 : Memref sig .tc .vmem S4096x200 .f32) (harg0 : arg0.IsWhole) (arg1 : Memref sig .tc .vmem S200x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x200 .f32) (x1 : Vec F S200x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__dense_kernel i arg0 harg0 arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the pipeline finds them (`V`); after the body at point
    `t` each input's buffer at its block and the result's at `out0_3` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dense1.lean ====
/- The dense layer of pipeline 1: blocks, body triple, proof data and body obligation. -/
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 1: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with (`defs₀`'s row at the slots). -/
abbrev bodyAt1 (t : Fin cfg1.N) : Prog (TpuEff nD τ sig (Elt F) Λ₀ .tc) PUnit :=
  cc1__dense_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window (block `(i, 0)`, fetched at every point): its current staging buffer holds its block, for
    any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weights' window (block `(0, 0)` at every point, so fetched at the first only): at a later point the block
    index has not moved and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias's window, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S4096x64 := Rect.unit (s := S4096x64) ![0, 0] S4096x64.size inb_S4096x64_S4096x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out1_3 (x0 : Vec F S4096x64 .f32) (x1 : Vec F S64x64 .f32) (x2 : Vec F S1x64 .f32) : Vec F S4096x64 .f32 :=
  View.canon [⟨r1_3, k1_pay1 (View.ld x0 r1_0) (View.ld x1 r1_1) (View.ld x2 r1_2)⟩]

/-- The one store is of the whole buffer, so it covers it. -/
theorem cover1_3 (p0 : Vec F S4096x64 .f32) (y : S4096x64.Idx) :
    ∃ pc ∈ ([⟨r1_3, p0⟩] : List (View.Piece (Elt F) S4096x64 .f32)), y ∈ pc.1.set :=
  View.cover_of_tiled [⟨r1_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out1_3 x0 x1 x2`: three whole loads, a
    load of the result buffer whose value is not used, and the one whole store. -/
theorem sound_kernel1 (c : Dev nD) (E : Set ℕ) (i : grid1.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__dense_kernel i arg0 harg0 arg1 harg1 arg2 harg2 arg3 harg3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the pipeline finds them (`V`); after the body at point
    `t` each input's buffer at its block and the result's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Dense2.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 2: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with (`defs₀`'s row at the slots). -/
abbrev bodyAt2 (t : Fin cfg2.N) : Prog (TpuEff nD τ sig (Elt F) Λ₀ .tc) PUnit :=
  cc2__dense_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))

/-! ## The windows' blocks -/

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window (block `(i, 0)`, fetched at every point): its current staging buffer holds its block, for
    any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' window (block `(0, 0)` at every point, so fetched at the first only): at a later point the block
    index has not moved and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias's window, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S4096x64 := Rect.unit (s := S4096x64) ![0, 0] S4096x64.size inb_S4096x64_S4096x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out2_3 (x0 : Vec F S4096x64 .f32) (x1 : Vec F S64x64 .f32) (x2 : Vec F S1x64 .f32) : Vec F S4096x64 .f32 :=
  View.canon [⟨r2_3, k2_pay1 (View.ld x0 r2_0) (View.ld x1 r2_1) (View.ld x2 r2_2)⟩]

/-- The one store is of the whole buffer, so it covers it. -/
theorem cover2_3 (p0 : Vec F S4096x64 .f32) (y : S4096x64.Idx) :
    ∃ pc ∈ ([⟨r2_3, p0⟩] : List (View.Piece (Elt F) S4096x64 .f32)), y ∈ pc.1.set :=
  View.cover_of_tiled [⟨r2_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out2_3 x0 x1 x2`: three whole loads, a
    load of the result buffer whose value is not used, and the one whole store. -/
theorem sound_kernel2 (c : Dev nD) (E : Set ℕ) (i : grid2.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__dense_kernel i arg0 harg0 arg1 harg1 arg2 harg2 arg3 harg3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the pipeline finds them (`V`); after the body at point
    `t` each input's buffer at its block and the result's at `out2_3` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Dense5.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 5: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)

/-- The kernel body at point `t`, on what the pipeline calls it with (`defs₀`'s row at the slots). -/
abbrev bodyAt5 (t : Fin cfg5.N) : Prog (TpuEff nD τ sig (Elt F) Λ₀ .tc) PUnit :=
  cc5__dense_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3))

/-! ## The windows' blocks -/

/-- Window `w`'s block at point `t`, read off its array as the pipeline finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' window (block `(i, 0)`, fetched at every point): its current staging buffer holds its block, for
    any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weights' window (block `(0, 0)` at every point, so fetched at the first only): at a later point the block
    index has not moved and the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The bias's window, likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each the whole of its buffer -/

abbrev r5_0 : Rect S4096x64 := Rect.unit (s := S4096x64) ![0, 0] S4096x64.size inb_S4096x64_S4096x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out5_3 (x0 : Vec F S4096x64 .f32) (x1 : Vec F S64x64 .f32) (x2 : Vec F S1x64 .f32) : Vec F S4096x64 .f32 :=
  View.canon [⟨r5_3, k5_pay1 (View.ld x0 r5_0) (View.ld x1 r5_1) (View.ld x2 r5_2)⟩]

/-- The one store is of the whole buffer, so it covers it. -/
theorem cover5_3 (p0 : Vec F S4096x64 .f32) (y : S4096x64.Idx) :
    ∃ pc ∈ ([⟨r5_3, p0⟩] : List (View.Piece (Elt F) S4096x64 .f32)), y ∈ pc.1.set :=
  View.cover_of_tiled [⟨r5_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out5_3 x0 x1 x2`: three whole loads, a
    load of the result buffer whose value is not used, and the one whole store. -/
theorem sound_kernel5 (c : Dev nD) (E : Set ℕ) (i : grid5.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__dense_kernel i arg0 harg0 arg1 harg1 arg2 harg2 arg3 harg3) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the pipeline finds them (`V`); after the body at point
    `t` each input's buffer at its block and the result's at `out5_3` of the three input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents (the definition projected). -/
theorem A_eq5 (c : Dev nD) (w : Fin cfg5.W) : (dat5 V c).A w = V c (Pipeline.arrRef spec5 w) := by
  dsimp only [dat5]

/-- What the body leaves, window by window (the definition's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Dense6.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 6: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The kernel body at point `t`, on what the pipeline calls it with (`defs₀`'s row at the slots). -/
abbrev bodyAt6 (t : Fin cfg6.N) : Prog (TpuEff nD τ sig (Elt F) Λ₀ .tc) PUnit :=
  cc6__dense_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3))

/-! ## The windows' blocks -/

/-- Window `w`'s block at point `t`, read off its array as the pipeline finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' window (block `(i, 0)`, fetched at every point): its current staging buffer holds its block, for
    any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weights' window (block `(0, 0)` at every point, so fetched at the first only): at a later point the block
    index has not moved and the buffer still holds the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The bias's window, likewise. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each the whole of its buffer -/

abbrev r6_0 : Rect S4096x64 := Rect.unit (s := S4096x64) ![0, 0] S4096x64.size inb_S4096x64_S4096x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S4096x64 := Rect.unit (s := S4096x64) ![0, 0] S4096x64.size inb_S4096x64_S4096x64_0_0

/-! ## What the body leaves in the result's buffer -/

/-- The result window's staging buffer after the body, from the three input blocks: its one store (the product plus
    the broadcast bias, the skeleton's payload) as the only piece. -/
def out6_3 (x0 : Vec F S4096x64 .f32) (x1 : Vec F S64x64 .f32) (x2 : Vec F S1x64 .f32) : Vec F S4096x64 .f32 :=
  View.canon [⟨r6_3, k6_pay1 (View.ld x0 r6_0) (View.ld x1 r6_1) (View.ld x2 r6_2)⟩]

/-- The one store is of the whole buffer, so it covers it. -/
theorem cover6_3 (p0 : Vec F S4096x64 .f32) (y : S4096x64.Idx) :
    ∃ pc ∈ ([⟨r6_3, p0⟩] : List (View.Piece (Elt F) S4096x64 .f32)), y ∈ pc.1.set :=
  View.cover_of_tiled [⟨r6_3, p0⟩] S4096x64.size (by rfl) y

/-! ## The body's triple -/

set_option maxHeartbeats 1000000 in
/-- The kernel body on whole staging memrefs, the inputs' at contents `x0 x1 x2` and the result's at anything, runs
    to the continuation holding the inputs' as they were and the result's at `out6_3 x0 x1 x2`: three whole loads, a
    load of the result buffer whose value is not used, and the one whole store. -/
theorem sound_kernel6 (c : Dev nD) (E : Set ℕ) (i : grid6.Coords) (arg0 : Memref sig .tc .vmem S4096x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4096x64 .f32) (harg3 : arg3.IsWhole)
    (x0 : Vec F S4096x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__dense_kernel i arg0 harg0 arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the pipeline finds them (`V`); after the body at point
    `t` each input's buffer at its block and the result's at `out6_3` of the three input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents (the definition projected). -/
theorem A_eq6 (c : Dev nD) (w : Fin cfg6.W) : (dat6 V c).A w = V c (Pipeline.arrRef spec6 w) := by
  dsimp only [dat6]

/-- What the body leaves, window by window (the definition's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Dense9.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Tactic

/-! # Pipeline 9: the dense layer `o = x · w + b`, the body's half of its frame

Stated at a parameter `V`, the core's buffer contents when the pipeline is entered. Per window its block at a grid
point read off `V`; the staging buffers of the three inputs hold those blocks at every point (the weight and the bias,
whose block index never moves, are fetched once and kept); the body loads the three whole buffers, multiplies into a
zero accumulator, adds the bias broadcast along the rows and stores the whole result block once, so the result's
buffer after the body is that one store's payload; the proof data say so, and the body obligation follows. -/

-- membership in a rectangle whose long axis has 4096 coordinates: the elaborator recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The schedule's names at a point -/

/-- The current staging memref of each window at point `t`: which of its buffers it is on. -/
abbrev st9_0 (t : Fin cfg9.N) := (cfg9.win 0).stage (cfg9.slots t 0)
abbrev st9_1 (t : Fin cfg9.N) := (cfg9.win 1).stage (cfg9.slots t 1)
abbrev st9_2 (t : Fin cfg9.N) := (cfg9.win 2).stage (cfg9.slots t 2)
abbrev st9_3 (t : Fin cfg9.N) := (cfg9.win 3).stage (cfg9.slots t 3)

/-- The kernel body at point `t`, on what the pipeline calls it with (`defs₀`'s row at the slots). -/
abbrev bodyAt9 (t : Fin cfg9.N) : Prog (TpuEff nD τ sig (Elt F) Λ₀ .tc) PUnit :=
  cc9__dense_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (win9_3.stage (cfg9.slots t 3)) (hstage9_3 ((cfg9.slots t 3).cast nbuf9_3))

/-! ## The windows' blocks -/

/-- Window `w`'s block at point `t`, read off its array as the pipeline finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The activations' window (block `(i, 0)`, fetched at every point): its current staging buffer holds its block, for
    any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The weights' window (block `(0, 0)` at every point, so fetched at the first only): at a later point the block
    index has not moved and the buffer still holds the block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The bias's window, likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each the whole of its buffer -/

abbrev r9_0 : Rect S4096x64 := Rect.unit (s := S4096x64) ![0, 0] S4096x64.size inb_S4096x64_S4096x64_0_0
abbrev r9_1 : Rect S64x16 := Rect.unit (s := S64x16) ![0, 0] S64x16.size inb_S64x16_S64x16_0_0
abbrev r9_2 : Rect S1x16 := Rect.unit (s := S1x16) ![0, 0] S1x16.size inb_S1x16_S1x16_0_0
abbrev r9_3 : Rect S4096x16 := Rect.unit (s := S4096x16) ![0, 0] S4096x16.size inb_S4096x16_S4096x16_0_0

/-! ## What the body leaves in the result's buffer -/

/-- The result window's staging buffer after the body, from the three input blocks: its one store (the product plus
    the broadcast bias, the skeleton's payload) as the only piece. -/
def out9_3 (x0 : Vec F S4096x64 .f32) (x1 : Vec F S64x16 .f32) (x2 : Vec F S1x16 .f32) : Vec F S4096x16 .f32 :=
  View.canon [⟨r9_3, k9_pay1 (View.ld x0 r9_0) (View.ld x1 r9_1) (View.ld x2 r9_2)⟩]

/-- The one store is of the whole buffer, so it covers it. -/
theorem cover9_3 (p0 : Vec F S4096x16 .f32) (y : S4096x16.Idx) :
    ∃ pc ∈ ([⟨r9_3, p0⟩] : List (View.Piece (Elt F) S4096x16 .f32)), y ∈ pc.1.set :=
  View.cover_of_tiled [⟨r9_3, p0⟩] S4096x16.size (by rfl) y

/-! ## The body's triple -/

set_option maxHeartbeats 1000000 in
/-- The kernel body on whole staging memrefs, the inputs' at contents `x0 x1 x2` and the result's at anything, runs
    to the continuation holding the inputs' as they were and the result's at `out9_3 x0 x1 x2`: three whole loads, a
    load of the result buffer whose value is not used, and the one whole store. -/
theorem sound_kernel9 (c : Dev nD) (E : Set ℕ) (i : grid9.Coords) (arg0 : Memref sig .tc .vmem S4096x64 .f32) (harg0 : arg0.IsWhole) (arg1 : Memref sig .tc .vmem S64x16 .f32) (harg1 : arg1.IsWhole) (arg2 : Memref sig .tc .vmem S1x16 .f32) (harg2 : arg2.IsWhole) (arg3 : Memref sig .tc .vmem S4096x16 .f32) (harg3 : arg3.IsWhole)
    (x0 : Vec F S4096x64 .f32) (x1 : Vec F S64x16 .f32) (x2 : Vec F S1x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__dense_kernel i arg0 harg0 arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the pipeline finds them (`V`); after the body at point
    `t` each input's buffer at its block and the result's at `out9_3` of the three input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the entry contents (the definition projected). -/
theorem A_eq9 (c : Dev nD) (w : Fin cfg9.W) : (dat9 V c).A w = V c (Pipeline.arrRef spec9 w) := by
  dsimp only [dat9]

/-- What the body leaves, window by window (the definition's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Scat3Runs.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (segment sum by a one-hot product, accumulated in a scratch buffer): what the three runs share -/

/-! ## The grid's coordinates in closed form

The grid is 128 x 512, last axis fastest: point `t` has coordinates `(t / 512, t % 512)`. -/

theorem stride3_0 : grid3.stride 0 = 512 := by decide
theorem stride3_1 : grid3.stride 1 = 1 := by decide

theorem coords3_0_val (t : Fin cfg3.N) : ((grid3.coords t) 0).val = t.val / 512 % 128 := by
  show t.val / grid3.stride 0 % 128 = _
  rw [stride3_0]

theorem coords3_1_val (t : Fin cfg3.N) : ((grid3.coords t) 1).val = t.val % 512 := by
  show t.val / grid3.stride 1 % 512 = _
  rw [stride3_1, Nat.div_one]

/-! ## The current staging memrefs and the body as the pipeline calls it -/

/-- The current staging memref of each window at point `t`. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with. -/
abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

/-! ## The body's branch conditions -/

/-- The condition of the body's first conditional (reset of the accumulator), from the grid coordinates. -/
abbrev cond3_0 (i : grid3.Coords) : Prop := (Scalar.cmpi .ne (Scalar.extui (Scalar.cmpi .eq (BitVec.ofNat 32 (i 1).val) 0#32)) 0#32) = 1#1

/-- It says that the second coordinate is 0 (decided over that coordinate's 512 values). -/
theorem cond3_0_iff (i : grid3.Coords) : cond3_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond3_0 (t : Fin cfg3.N) : cond3_0 (grid3.coords t) ↔ t.val % 512 = 0 := by
  rw [cond3_0_iff, coords3_1_val]

/-- The condition of the body's second conditional (the accumulator copied to the output block). -/
abbrev cond3_1 (i : grid3.Coords) : Prop := k3_cond2 i = 1#1

/-- It says that the second coordinate is 511. -/
theorem cond3_1_iff (i : grid3.Coords) : cond3_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond3_1 (t : Fin cfg3.N) : cond3_1 (grid3.coords t) ↔ t.val % 512 = 511 := by
  rw [cond3_1_iff, coords3_1_val]

/-! ## Where the windows are idle, and where the output block is written back -/

/-- Windows 0 and 1 (inputs) are never idle. -/
theorem liveAt3_0 (t : Fin cfg3.N) : cfg3.idle 0 (grid3.coords t) = false := rfl
theorem liveAt3_1 (t : Fin cfg3.N) : cfg3.idle 1 (grid3.coords t) = false := rfl

/-- Where the second conditional is not taken the output window is idle. -/
theorem idleAt3_2 (i : grid3.Coords) (h1 : ¬cond3_1 i) : cfg3.idle 2 i = true := by
  show (!(k3_cond2 i == 1#1)) = true
  rw [Bool.not_eq_true', beq_eq_false_iff_ne]; exact h1

/-- Where it is taken the output window is live. -/
theorem liveAt3_2 (i : grid3.Coords) (h1 : cond3_1 i) : cfg3.idle 2 i = false := by
  show (!(k3_cond2 i == 1#1)) = false
  rw [Bool.not_eq_false', beq_iff_eq]; exact h1

/-- The output window's block index does not move between a point and the next unless the point is the
    last of its row: the index map reads the first coordinate only, `t / 512`. -/
theorem index3_2_succ (t : Fin cfg3.N) (h : ¬t.val % 512 = 511) (h1 : t.val + 1 < grid3.N) :
    (cfg3.win 2).index ⟨t.val + 1, h1⟩ = (cfg3.win 2).index t := by
  unfold Pipeline.Window.index
  refine (cfg3.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords3_0_val, coords3_0_val]
  show (t.val + 1) / 512 % 128 = t.val / 512 % 128
  omega

/-- Away from the points ≡ 511 (mod 512) the pipeline does not write the output block back. -/
theorem noFlush3_2 (t : Fin cfg3.N) (h : ¬t.val % 512 = 511) : (cfg3.win 2).flush t = false := by
  have hN : grid3.N = 65536 := N_3
  have ht : t.val < 65536 := lt_of_lt_of_eq t.isLt N_3
  cases hfl : (cfg3.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index3_2_succ t h h1)

/-! ## The memrefs the body runs on -/

/-- One staging buffer of output window 2, through which its contents are stated. -/
abbrev VO3_2 : View sig .tc .vmem S2048x64 .f32 := (Memref.whole cc3_stg2_0 : Memref sig .tc .vmem S2048x64 .f32).view
/-- Each window's current staging memref at point `t`, spelled as the pipeline passes it, and its wholeness. -/
abbrev ms3_0 (t : Fin cfg3.N) : Memref sig .tc .vmem S4096x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The scratch operand (the accumulator): a whole scoped buffer of the kernel's own, passed beside the windows. -/
abbrev scM3_0 : Memref sig .tc .vmem S2048x64 .f32 := Memref.whole cc3_scratch0
/-- The accumulator as a view: what it holds is stated through it. -/
abbrev VS3_0 : View sig .tc .vmem S2048x64 .f32 := scM3_0.view

/-- The class's invariant with the accumulator as a memref owned at some contents, the other scoped buffers
    unopened, and the generator register at some state. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.Scat3RunA.lean ====
import proofs.«406228_j54073638257180_1_alg».proof.Proof.KI.Scat3Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun3_A (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨[], ?_, fun xi2 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat3RunB.lean ====
import proofs.«406228_j54073638257180_1_alg».proof.Proof.KI.Scat3RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun3_B (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨[], ?_, fun xi2 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat3RunC.lean ====
import proofs.«406228_j54073638257180_1_alg».proof.Proof.KI.Scat3RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun3_C (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__scatter_kernel i arg2 harg2 arg3 harg3 arg4 harg4 arg5 harg5) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Scat3.lean ====
import proofs.«406228_j54073638257180_1_alg».proof.Proof.KI.Scat3RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out3_A_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) : Vec F S2048x64 .f32 :=
  VO3_2.read (Elt F) (VO3_2.writes (Elt F) VO3_2.junk (kernelRun3_A c i arg2 harg2 arg3 harg3 arg4 harg4 arg5 harg5 hc0 hc1 x0 x1).1)

/-- Case A's pieces for the accumulator cover it: each store writes it whole. -/
theorem scover3_A_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) (y : S2048x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S2048x64.size (by sl_kernel_rfl) y

/-- What case A leaves in the accumulator: its pieces read back over junk. -/
def sout3_A_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) : Vec F S2048x64 .f32 :=
  VS3_0.read (Elt F) (VS3_0.writes (Elt F) VS3_0.junk (kernelRun3_A c i arg2 harg2 arg3 harg3 arg4 harg4 arg5 harg5 hc0 hc1 x0 x1).2.1)

/-- Case B stores nothing into the output block (the window is idle at its points and not written back there):
    no pieces — a placeholder (junk read back) that nothing consults. -/
def out3_B_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) : Vec F S2048x64 .f32 :=
  VO3_2.read (Elt F) (VO3_2.writes (Elt F) VO3_2.junk (kernelRun3_B c i arg2 harg2 arg3 harg3 arg4 harg4 arg5 harg5 hc0 hc1 x0 x1 xs0).1)

/-- Case B's pieces for the accumulator cover it: each store writes it whole. -/
theorem scover3_B_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) (y : S2048x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S2048x64.size (by sl_kernel_rfl) y

/-- What case B leaves in the accumulator: its pieces read back over junk. -/
def sout3_B_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) : Vec F S2048x64 .f32 :=
  VS3_0.read (Elt F) (VS3_0.writes (Elt F) VS3_0.junk (kernelRun3_B c i arg2 harg2 arg3 harg3 arg4 harg4 arg5 harg5 hc0 hc1 x0 x1 xs0).2.1)

/-- Case C's one store into the output block tiles it, so its pieces cover it. -/
theorem cover3_C_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) (y : S2048x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S2048x64.size (by sl_kernel_rfl) y

/-- What case C leaves in the output block's staging buffer: its pieces read back over junk. -/
def out3_C_2 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) : Vec F S2048x64 .f32 :=
  VO3_2.read (Elt F) (VO3_2.writes (Elt F) VO3_2.junk (kernelRun3_C c i arg2 harg2 arg3 harg3 arg4 harg4 arg5 harg5 hc0 hc1 x0 x1 xs0).1)

/-- Case C's pieces for the accumulator cover it: each store writes it whole. -/
theorem scover3_C_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) (y : S2048x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S2048x64.size (by sl_kernel_rfl) y

/-- What case C leaves in the accumulator: its pieces read back over junk. -/
def sout3_C_0 (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) : Vec F S2048x64 .f32 :=
  VS3_0.read (Elt F) (VS3_0.writes (Elt F) VS3_0.junk (kernelRun3_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt3 (c : Dev nD) : (n : ℕ) → n < cfg3.N → Vec F S2048x64 .f32 × Vec F S2048x64 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 512 = 0 then
      if h1 : (n + 1) % 512 = 511 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 512 = 511 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a point of case A: that case's contents. -/
theorem outsAt3_A (c : Dev nD) (t : Fin cfg3.N) (h0 : t.val % 512 = 0) (h1 : ¬t.val % 512 = 511) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 512 = 0) (h1 : ¬t.val % 512 = 511) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 512 = 0) (h1 : t.val % 512 = 511) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 65536 := lt_of_lt_of_eq t.isLt (show cfg3.N = 65536 from N_3)
  by_cases h0 : t.val % 512 = 0
  · by_cases h1 : t.val % 512 = 511
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t h1)]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 _ ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t h1)]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 65536 := N_3; omega)

end Region

end Cert.KernelIdeal.Hand

end
-- ==== Proof.KI.Scat4Runs.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (segment sum by a one-hot product, accumulated in a scratch buffer): what the three runs share -/

/-! ## The grid's coordinates in closed form

The grid is 128 x 512, last axis fastest: point `t` has coordinates `(t / 512, t % 512)`. -/

theorem stride4_0 : grid4.stride 0 = 512 := by decide
theorem stride4_1 : grid4.stride 1 = 1 := by decide

theorem coords4_0_val (t : Fin cfg4.N) : ((grid4.coords t) 0).val = t.val / 512 % 128 := by
  show t.val / grid4.stride 0 % 128 = _
  rw [stride4_0]

theorem coords4_1_val (t : Fin cfg4.N) : ((grid4.coords t) 1).val = t.val % 512 := by
  show t.val / grid4.stride 1 % 512 = _
  rw [stride4_1, Nat.div_one]

/-! ## The current staging memrefs and the body as the pipeline calls it -/

/-- The current staging memref of each window at point `t`. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)

/-- The kernel body at point `t`, on what the pipeline calls it with. -/
abbrev bodyAt4 (t : Fin cfg4.N) : Prog (TpuEff nD τ sig (Elt F) Λ₀ .tc) PUnit :=
  cc4__scatter_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

/-! ## The body's branch conditions -/

/-- The condition of the body's first conditional (reset of the accumulator), from the grid coordinates. -/
abbrev cond4_0 (i : grid4.Coords) : Prop := (Scalar.cmpi .ne (Scalar.extui (Scalar.cmpi .eq (BitVec.ofNat 32 (i 1).val) 0#32)) 0#32) = 1#1

/-- It says that the second coordinate is 0 (decided over that coordinate's 512 values). -/
theorem cond4_0_iff (i : grid4.Coords) : cond4_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond4_0 (t : Fin cfg4.N) : cond4_0 (grid4.coords t) ↔ t.val % 512 = 0 := by
  rw [cond4_0_iff, coords4_1_val]

/-- The condition of the body's second conditional (the accumulator copied to the output block). -/
abbrev cond4_1 (i : grid4.Coords) : Prop := k4_cond2 i = 1#1

/-- It says that the second coordinate is 511. -/
theorem cond4_1_iff (i : grid4.Coords) : cond4_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond4_1 (t : Fin cfg4.N) : cond4_1 (grid4.coords t) ↔ t.val % 512 = 511 := by
  rw [cond4_1_iff, coords4_1_val]

/-! ## Where the windows are idle, and where the output block is written back -/

/-- Windows 0 and 1 (inputs) are never idle. -/
theorem liveAt4_0 (t : Fin cfg4.N) : cfg4.idle 0 (grid4.coords t) = false := rfl
theorem liveAt4_1 (t : Fin cfg4.N) : cfg4.idle 1 (grid4.coords t) = false := rfl

/-- Where the second conditional is not taken the output window is idle. -/
theorem idleAt4_2 (i : grid4.Coords) (h1 : ¬cond4_1 i) : cfg4.idle 2 i = true := by
  show (!(k4_cond2 i == 1#1)) = true
  rw [Bool.not_eq_true', beq_eq_false_iff_ne]; exact h1

/-- Where it is taken the output window is live. -/
theorem liveAt4_2 (i : grid4.Coords) (h1 : cond4_1 i) : cfg4.idle 2 i = false := by
  show (!(k4_cond2 i == 1#1)) = false
  rw [Bool.not_eq_false', beq_iff_eq]; exact h1

/-- The output window's block index does not move between a point and the next unless the point is the
    last of its row: the index map reads the first coordinate only, `t / 512`. -/
theorem index4_2_succ (t : Fin cfg4.N) (h : ¬t.val % 512 = 511) (h1 : t.val + 1 < grid4.N) :
    (cfg4.win 2).index ⟨t.val + 1, h1⟩ = (cfg4.win 2).index t := by
  unfold Pipeline.Window.index
  refine (cfg4.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords4_0_val, coords4_0_val]
  show (t.val + 1) / 512 % 128 = t.val / 512 % 128
  omega

/-- Away from the points ≡ 511 (mod 512) the pipeline does not write the output block back. -/
theorem noFlush4_2 (t : Fin cfg4.N) (h : ¬t.val % 512 = 511) : (cfg4.win 2).flush t = false := by
  have hN : grid4.N = 65536 := N_4
  have ht : t.val < 65536 := lt_of_lt_of_eq t.isLt N_4
  cases hfl : (cfg4.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index4_2_succ t h h1)

/-! ## The memrefs the body runs on -/

/-- One staging buffer of output window 2, through which its contents are stated. -/
abbrev VO4_2 : View sig .tc .vmem S2048x64 .f32 := (Memref.whole cc4_stg2_0 : Memref sig .tc .vmem S2048x64 .f32).view
/-- Each window's current staging memref at point `t`, spelled as the pipeline passes it, and its wholeness. -/
abbrev ms4_0 (t : Fin cfg4.N) : Memref sig .tc .vmem S4096x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x4096 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The scratch operand (the accumulator): a whole scoped buffer of the kernel's own, passed beside the windows. -/
abbrev scM4_0 : Memref sig .tc .vmem S2048x64 .f32 := Memref.whole cc4_scratch0
/-- The accumulator as a view: what it holds is stated through it. -/
abbrev VS4_0 : View sig .tc .vmem S2048x64 .f32 := scM4_0.view

/-- The class's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Scat4RunA.lean ====
import proofs.«406228_j54073638257180_1_alg».proof.Proof.KI.Scat4Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun4_A (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨[], ?_, fun xi2 E K => ?run⟩
  case run =>
    simp only [cc4__scatter_kernel_eq_skeleton]; unfold cc4__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat4RunB.lean ====
import proofs.«406228_j54073638257180_1_alg».proof.Proof.KI.Scat4RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun4_B (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨[], ?_, fun xi2 E K => ?run⟩
  case run =>
    simp only [cc4__scatter_kernel_eq_skeleton]; unfold cc4__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat4RunC.lean ====
import proofs.«406228_j54073638257180_1_alg».proof.Proof.KI.Scat4RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun4_C (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__scatter_kernel i arg2 harg2 arg3 harg3 arg4 harg4 arg5 harg5) K } := by
  refine ⟨?_, ?_, fun E K => ?run⟩
  case run =>
    simp only [cc4__scatter_kernel_eq_skeleton]; unfold cc4__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Scat4.lean ====
import proofs.«406228_j54073638257180_1_alg».proof.Proof.KI.Scat4RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out4_A_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) : Vec F S2048x64 .f32 :=
  VO4_2.read (Elt F) (VO4_2.writes (Elt F) VO4_2.junk (kernelRun4_A c i arg2 harg2 arg3 harg3 arg4 harg4 arg5 harg5 hc0 hc1 x0 x1).1)

/-- Case A's pieces for the accumulator cover it: each store writes it whole. -/
theorem scover4_A_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) (y : S2048x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x64.size (by sl_kernel_rfl) y

/-- What case A leaves in the accumulator: its pieces read back over junk. -/
def sout4_A_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) : Vec F S2048x64 .f32 :=
  VS4_0.read (Elt F) (VS4_0.writes (Elt F) VS4_0.junk (kernelRun4_A c i arg2 harg2 arg3 harg3 arg4 harg4 arg5 harg5 hc0 hc1 x0 x1).2.1)

/-- Case B stores nothing into the output block (the window is idle at its points and not written back there):
    no pieces — a placeholder (junk read back) that nothing consults. -/
def out4_B_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) : Vec F S2048x64 .f32 :=
  VO4_2.read (Elt F) (VO4_2.writes (Elt F) VO4_2.junk (kernelRun4_B c i arg2 harg2 arg3 harg3 arg4 harg4 arg5 harg5 hc0 hc1 x0 x1 xs0).1)

/-- Case B's pieces for the accumulator cover it: each store writes it whole. -/
theorem scover4_B_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) (y : S2048x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x64.size (by sl_kernel_rfl) y

/-- What case B leaves in the accumulator: its pieces read back over junk. -/
def sout4_B_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) : Vec F S2048x64 .f32 :=
  VS4_0.read (Elt F) (VS4_0.writes (Elt F) VS4_0.junk (kernelRun4_B c i arg2 harg2 arg3 harg3 arg4 harg4 arg5 harg5 hc0 hc1 x0 x1 xs0).2.1)

/-- Case C's one store into the output block tiles it, so its pieces cover it. -/
theorem cover4_C_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) (y : S2048x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x64.size (by sl_kernel_rfl) y

/-- What case C leaves in the output block's staging buffer: its pieces read back over junk. -/
def out4_C_2 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) : Vec F S2048x64 .f32 :=
  VO4_2.read (Elt F) (VO4_2.writes (Elt F) VO4_2.junk (kernelRun4_C c i arg2 harg2 arg3 harg3 arg4 harg4 arg5 harg5 hc0 hc1 x0 x1 xs0).1)

/-- Case C's pieces for the accumulator cover it: each store writes it whole. -/
theorem scover4_C_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) (y : S2048x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x64.size (by sl_kernel_rfl) y

/-- What case C leaves in the accumulator: its pieces read back over junk. -/
def sout4_C_0 (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) : Vec F S2048x64 .f32 :=
  VS4_0.read (Elt F) (VS4_0.writes (Elt F) VS4_0.junk (kernelRun4_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt4 (c : Dev nD) : (n : ℕ) → n < cfg4.N → Vec F S2048x64 .f32 × Vec F S2048x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 512 = 0 then
      if h1 : (n + 1) % 512 = 511 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 512 = 511 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 512 = 0) (h1 : ¬t.val % 512 = 511) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 512 = 0) (h1 : ¬t.val % 512 = 511) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 512 = 0) (h1 : t.val % 512 = 511) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 65536 := lt_of_lt_of_eq t.isLt (show cfg4.N = 65536 from N_4)
  by_cases h0 : t.val % 512 = 0
  · by_cases h1 : t.val % 512 = 511
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 _ (fun h => h1 ((hcond4_1 t).mp h))) (noFlush4_2 t h1)]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 _ ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 _ (fun h => h1 ((hcond4_1 t).mp h))) (noFlush4_2 t h1)]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 65536 := N_4; omega)

end Region

end Cert.KernelIdeal.Hand

end
-- ==== Proof.KI.Scat7Runs.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (segment sum by a one-hot product, accumulated in a scratch buffer): what the three runs share -/

/-! ## The grid's coordinates in closed form

The grid is 128 x 512, last axis fastest: point `t` has coordinates `(t / 512, t % 512)`. -/

theorem stride7_0 : grid7.stride 0 = 512 := by decide
theorem stride7_1 : grid7.stride 1 = 1 := by decide

theorem coords7_0_val (t : Fin cfg7.N) : ((grid7.coords t) 0).val = t.val / 512 % 128 := by
  show t.val / grid7.stride 0 % 128 = _
  rw [stride7_0]

theorem coords7_1_val (t : Fin cfg7.N) : ((grid7.coords t) 1).val = t.val % 512 := by
  show t.val / grid7.stride 1 % 512 = _
  rw [stride7_1, Nat.div_one]

/-! ## The current staging memrefs and the body as the pipeline calls it -/

/-- The current staging memref of each window at point `t`. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)

/-- The kernel body at point `t`, on what the pipeline calls it with. -/
abbrev bodyAt7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (Memref.whole cc7_scratch0) (Memref.isWhole_whole _)

/-! ## The body's branch conditions -/

/-- The condition of the body's first conditional (reset of the accumulator), from the grid coordinates. -/
abbrev cond7_0 (i : grid7.Coords) : Prop := (Scalar.cmpi .ne (Scalar.extui (Scalar.cmpi .eq (BitVec.ofNat 32 (i 1).val) 0#32)) 0#32) = 1#1

/-- It says that the second coordinate is 0 (decided over that coordinate's 512 values). -/
theorem cond7_0_iff (i : grid7.Coords) : cond7_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond7_0 (t : Fin cfg7.N) : cond7_0 (grid7.coords t) ↔ t.val % 512 = 0 := by
  rw [cond7_0_iff, coords7_1_val]

/-- The condition of the body's second conditional (the accumulator copied to the output block). -/
abbrev cond7_1 (i : grid7.Coords) : Prop := k7_cond2 i = 1#1

/-- It says that the second coordinate is 511. -/
theorem cond7_1_iff (i : grid7.Coords) : cond7_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond7_1 (t : Fin cfg7.N) : cond7_1 (grid7.coords t) ↔ t.val % 512 = 511 := by
  rw [cond7_1_iff, coords7_1_val]

/-! ## Where the windows are idle, and where the output block is written back -/

/-- Windows 0 and 1 (inputs) are never idle. -/
theorem liveAt7_0 (t : Fin cfg7.N) : cfg7.idle 0 (grid7.coords t) = false := rfl
theorem liveAt7_1 (t : Fin cfg7.N) : cfg7.idle 1 (grid7.coords t) = false := rfl

/-- Where the second conditional is not taken the output window is idle. -/
theorem idleAt7_2 (i : grid7.Coords) (h1 : ¬cond7_1 i) : cfg7.idle 2 i = true := by
  show (!(k7_cond2 i == 1#1)) = true
  rw [Bool.not_eq_true', beq_eq_false_iff_ne]; exact h1

/-- Where it is taken the output window is live. -/
theorem liveAt7_2 (i : grid7.Coords) (h1 : cond7_1 i) : cfg7.idle 2 i = false := by
  show (!(k7_cond2 i == 1#1)) = false
  rw [Bool.not_eq_false', beq_iff_eq]; exact h1

/-- The output window's block index does not move between a point and the next unless the point is the
    last of its row: the index map reads the first coordinate only, `t / 512`. -/
theorem index7_2_succ (t : Fin cfg7.N) (h : ¬t.val % 512 = 511) (h1 : t.val + 1 < grid7.N) :
    (cfg7.win 2).index ⟨t.val + 1, h1⟩ = (cfg7.win 2).index t := by
  unfold Pipeline.Window.index
  refine (cfg7.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords7_0_val, coords7_0_val]
  show (t.val + 1) / 512 % 128 = t.val / 512 % 128
  omega

/-- Away from the points ≡ 511 (mod 512) the pipeline does not write the output block back. -/
theorem noFlush7_2 (t : Fin cfg7.N) (h : ¬t.val % 512 = 511) : (cfg7.win 2).flush t = false := by
  have hN : grid7.N = 65536 := N_7
  have ht : t.val < 65536 := lt_of_lt_of_eq t.isLt N_7
  cases hfl : (cfg7.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index7_2_succ t h h1)

/-! ## The memrefs the body runs on -/

/-- One staging buffer of output window 2, through which its contents are stated. -/
abbrev VO7_2 : View sig .tc .vmem S2048x64 .f32 := (Memref.whole cc7_stg2_0 : Memref sig .tc .vmem S2048x64 .f32).view
/-- Each window's current staging memref at point `t`, spelled as the pipeline passes it, and its wholeness. -/
abbrev ms7_0 (t : Fin cfg7.N) : Memref sig .tc .vmem S4096x64 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x4096 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
/-- The scratch operand (the accumulator): a whole scoped buffer of the kernel's own, passed beside the windows. -/
abbrev scM7_0 : Memref sig .tc .vmem S2048x64 .f32 := Memref.whole cc7_scratch0
/-- The accumulator as a view: what it holds is stated through it. -/
abbrev VS7_0 : View sig .tc .vmem S2048x64 .f32 := scM7_0.view

/-- The class's invariant with the accumulator as a memref owned at some contents, the other scoped buffers
    unopened, and the generator register at some state. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Hand

end
-- ==== Proof.KI.Scat7RunA.lean ====
import proofs.«406228_j54073638257180_1_alg».proof.Proof.KI.Scat7Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun7_A (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨[], ?_, fun xi2 E K => ?run⟩
  case run =>
    simp only [cc7__scatter_kernel_eq_skeleton]; unfold cc7__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat7RunB.lean ====
import proofs.«406228_j54073638257180_1_alg».proof.Proof.KI.Scat7RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun7_B (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨[], ?_, fun xi2 E K => ?run⟩
  case run =>
    simp only [cc7__scatter_kernel_eq_skeleton]; unfold cc7__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat7RunC.lean ====
import proofs.«406228_j54073638257180_1_alg».proof.Proof.KI.Scat7RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun7_C (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc7__scatter_kernel i arg2 harg2 arg3 harg3 arg4 harg4 arg5 harg5) K } := by
  refine ⟨?_, ?_, fun E K => ?run⟩
  case run =>
    simp only [cc7__scatter_kernel_eq_skeleton]; unfold cc7__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Scat7.lean ====
import proofs.«406228_j54073638257180_1_alg».proof.Proof.KI.Scat7RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out7_A_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) : Vec F S2048x64 .f32 :=
  VO7_2.read (Elt F) (VO7_2.writes (Elt F) VO7_2.junk (kernelRun7_A c i arg2 harg2 arg3 harg3 arg4 harg4 arg5 harg5 hc0 hc1 x0 x1).1)

/-- Case A's pieces for the accumulator cover it: each store writes it whole. -/
theorem scover7_A_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) (y : S2048x64.Idx) :
    ∃ pc ∈ (kernelRun7_A c i arg2 harg2 arg3 harg3 arg4 harg4 arg5 harg5 hc0 hc1 x0 x1).2.1, y ∈ pc.1.set :=
  View.cover_of_tiledL (kernelRun7_A c i arg2 harg2 arg3 harg3 arg4 harg4 arg5 harg5 hc0 hc1 x0 x1).2.1 S2048x64.size (by sl_kernel_rfl) y

/-- What case A leaves in the accumulator: its pieces read back over junk. -/
def sout7_A_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) : Vec F S2048x64 .f32 :=
  VS7_0.read (Elt F) (VS7_0.writes (Elt F) VS7_0.junk (kernelRun7_A c i arg2 harg2 arg3 harg3 arg4 harg4 arg5 harg5 hc0 hc1 x0 x1).2.1)

/-- Case B stores nothing into the output block (the window is idle at its points and not written back there):
    no pieces — a placeholder (junk read back) that nothing consults. -/
def out7_B_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) : Vec F S2048x64 .f32 :=
  VO7_2.read (Elt F) (VO7_2.writes (Elt F) VO7_2.junk (kernelRun7_B c i arg2 harg2 arg3 harg3 arg4 harg4 arg5 harg5 hc0 hc1 x0 x1 xs0).1)

/-- Case B's pieces for the accumulator cover it: each store writes it whole. -/
theorem scover7_B_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) (y : S2048x64.Idx) :
    ∃ pc ∈ (kernelRun7_B c i arg2 harg2 arg3 harg3 arg4 harg4 arg5 harg5 hc0 hc1 x0 x1 xs0).2.1, y ∈ pc.1.set :=
  View.cover_of_tiledL (kernelRun7_B c i arg2 harg2 arg3 harg3 arg4 harg4 arg5 harg5 hc0 hc1 x0 x1 xs0).2.1 S2048x64.size (by sl_kernel_rfl) y

/-- What case B leaves in the accumulator: its pieces read back over junk. -/
def sout7_B_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) : Vec F S2048x64 .f32 :=
  VS7_0.read (Elt F) (VS7_0.writes (Elt F) VS7_0.junk (kernelRun7_B c i arg2 harg2 arg3 harg3 arg4 harg4 arg5 harg5 hc0 hc1 x0 x1 xs0).2.1)

/-- Case C's one store into the output block tiles it, so its pieces cover it. -/
theorem cover7_C_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) (y : S2048x64.Idx) :
    ∃ pc ∈ (kernelRun7_C c i arg2 harg2 arg3 harg3 arg4 harg4 arg5 harg5 hc0 hc1 x0 x1 xs0).1, y ∈ pc.1.set :=
  View.cover_of_tiledL (kernelRun7_C c i arg2 harg2 arg3 harg3 arg4 harg4 arg5 harg5 hc0 hc1 x0 x1 xs0).1 S2048x64.size (by sl_kernel_rfl) y

/-- What case C leaves in the output block's staging buffer: its pieces read back over junk. -/
def out7_C_2 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) : Vec F S2048x64 .f32 :=
  VO7_2.read (Elt F) (VO7_2.writes (Elt F) VO7_2.junk (kernelRun7_C c i arg2 harg2 arg3 harg3 arg4 harg4 arg5 harg5 hc0 hc1 x0 x1 xs0).1)

/-- Case C's pieces for the accumulator cover it: each store writes it whole. -/
theorem scover7_C_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) (y : S2048x64.Idx) :
    ∃ pc ∈ (kernelRun7_C c i arg2 harg2 arg3 harg3 arg4 harg4 arg5 harg5 hc0 hc1 x0 x1 xs0).2.1, y ∈ pc.1.set :=
  View.cover_of_tiledL (kernelRun7_C c i arg2 harg2 arg3 harg3 arg4 harg4 arg5 harg5 hc0 hc1 x0 x1 xs0).2.1 S2048x64.size (by sl_kernel_rfl) y

/-- What case C leaves in the accumulator: its pieces read back over junk. -/
def sout7_C_0 (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) : Vec F S2048x64 .f32 :=
  VS7_0.read (Elt F) (VS7_0.writes (Elt F) VS7_0.junk (kernelRun7_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt7 (c : Dev nD) : (n : ℕ) → n < cfg7.N → Vec F S2048x64 .f32 × Vec F S2048x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 512 = 0 then
      if h1 : (n + 1) % 512 = 511 then
        False.elim (by omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 512 = 511 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2)

/-- `outsAt7` at a point of case A: that case's contents. -/
theorem outsAt7_A (c : Dev nD) (t : Fin cfg7.N) (h0 : t.val % 512 = 0) (h1 : ¬t.val % 512 = 511) :
    outsAt7 V c t.val t.isLt = (out7_A_2 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t), sout7_A_0 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 512 = 0) (h1 : ¬t.val % 512 = 511) :
    outsAt7 V c t.val t.isLt = (out7_B_2 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 512 = 0) (h1 : t.val % 512 = 511) :
    outsAt7 V c t.val t.isLt = (out7_C_2 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block and the output's at `outsAt7`'s first component; the invariant `PhiS7`; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 65536 := lt_of_lt_of_eq t.isLt (show cfg7.N = 65536 from N_7)
  by_cases h0 : t.val % 512 = 0
  · by_cases h1 : t.val % 512 = 511
    · exfalso; omega
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2 _ (fun h => h1 ((hcond7_1 t).mp h))) (noFlush7_2 t h1)]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩⟩
        iapply ((kernelRun7_A c (grid7.coords t) _ _ _ _ _ _ _ _ ((hcond7_0 t).mpr h0) (fun h => h1 ((hcond7_1 t).mp h)) (iblk7 V c 0 t) (iblk7 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _)
            iexact Hr
          iexact Hg
        isplitl [Ho]; · iexact Ho
        isplitl [H0]; · iexact H0
        isplitl [H1]; · iexact H1
        iexists _; iexact H2
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_A c (grid7.coords t) _ _ _ _ _ _ _ _ ((hcond7_0 t).mpr h0) (fun h => h1 ((hcond7_1 t).mp h)) (iblk7 V c 0 t) (iblk7 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 _ ((hcond7_1 t).mpr h1)], after7_2]
      rw [outsAt7_C V c t h0 h1]
      unfold out7_C_2 sout7_C_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_C c (grid7.coords t) _ _ _ _ _ _ _ _ (fun h => h0 ((hcond7_0 t).mp h)) ((hcond7_1 t).mpr h1) (iblk7 V c 0 t) (iblk7 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover7_C_2 c _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2 _ (fun h => h1 ((hcond7_1 t).mp h))) (noFlush7_2 t h1)]
      rw [outsAt7_B V c t h0 h1]
      unfold sout7_B_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩⟩
        iapply ((kernelRun7_B c (grid7.coords t) _ _ _ _ _ _ _ _ (fun h => h0 ((hcond7_0 t).mp h)) (fun h => h1 ((hcond7_1 t).mp h)) (iblk7 V c 0 t) (iblk7 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 65536 := N_7; omega)

end Region

end Cert.KernelIdeal.Hand

end
-- ==== Proof.KI.Scat8Runs.lean ====
import proofs.«406228_j54073638257180_1_alg».proof.Proof.Gen.KernelIdeal.Launch
import proofs.«406228_j54073638257180_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (segment sum by a one-hot product, accumulated in a scratch buffer): what the three runs share -/

/-! ## The grid's coordinates in closed form

The grid is 128 x 512, last axis fastest: point `t` has coordinates `(t / 512, t % 512)`. -/

theorem stride8_0 : grid8.stride 0 = 512 := by decide
theorem stride8_1 : grid8.stride 1 = 1 := by decide

theorem coords8_0_val (t : Fin cfg8.N) : ((grid8.coords t) 0).val = t.val / 512 % 128 := by
  show t.val / grid8.stride 0 % 128 = _
  rw [stride8_0]

theorem coords8_1_val (t : Fin cfg8.N) : ((grid8.coords t) 1).val = t.val % 512 := by
  show t.val / grid8.stride 1 % 512 = _
  rw [stride8_1, Nat.div_one]

/-! ## The current staging memrefs and the body as the pipeline calls it -/

/-- The current staging memref of each window at point `t`. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)

/-- The kernel body at point `t`, on what the pipeline calls it with. -/
abbrev bodyAt8 (t : Fin cfg8.N) : Prog (TpuEff nD τ sig (Elt F) Λ₀ .tc) PUnit :=
  cc8__scatter_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (Memref.whole cc8_scratch0) (Memref.isWhole_whole _)

/-! ## The body's branch conditions -/

/-- The condition of the body's first conditional (reset of the accumulator), from the grid coordinates. -/
abbrev cond8_0 (i : grid8.Coords) : Prop := (Scalar.cmpi .ne (Scalar.extui (Scalar.cmpi .eq (BitVec.ofNat 32 (i 1).val) 0#32)) 0#32) = 1#1

/-- It says that the second coordinate is 0 (decided over that coordinate's 512 values). -/
theorem cond8_0_iff (i : grid8.Coords) : cond8_0 i ↔ (i 1).val = 0 := by
  have h : ∀ j : Fin 512, ((Scalar.cmpi .ne (Scalar.extui (Scalar.cmpi .eq (BitVec.ofNat 32 j.val) 0#32)) 0#32) = 1#1) ↔ j.val = 0 := by
    decide +kernel
  exact h (i 1)

/-- It holds at the points ≡ 0 (mod 512). -/
theorem hcond8_0 (t : Fin cfg8.N) : cond8_0 (grid8.coords t) ↔ t.val % 512 = 0 := by
  rw [cond8_0_iff, coords8_1_val]

/-- The condition of the body's second conditional (the accumulator copied to the output block). -/
abbrev cond8_1 (i : grid8.Coords) : Prop := k8_cond2 i = 1#1

/-- It says that the second coordinate is 511. -/
theorem cond8_1_iff (i : grid8.Coords) : cond8_1 i ↔ (i 1).val = 511 := by
  have h : ∀ j : Fin 512, ((Scalar.cmpi .ne (Scalar.extui (Scalar.cmpi .eq (BitVec.ofNat 32 j.val) 511#32)) 0#32) = 1#1) ↔ j.val = 511 := by
    decide +kernel
  exact h (i 1)

/-- It holds at the points ≡ 511 (mod 512). -/
theorem hcond8_1 (t : Fin cfg8.N) : cond8_1 (grid8.coords t) ↔ t.val % 512 = 511 := by
  rw [cond8_1_iff, coords8_1_val]

/-! ## Where the windows are idle, and where the output block is written back -/

/-- Windows 0 and 1 (inputs) are never idle. -/
theorem liveAt8_0 (t : Fin cfg8.N) : cfg8.idle 0 (grid8.coords t) = false := rfl
theorem liveAt8_1 (t : Fin cfg8.N) : cfg8.idle 1 (grid8.coords t) = false := rfl

/-- Where the second conditional is not taken the output window is idle. -/
theorem idleAt8_2 (i : grid8.Coords) (h1 : ¬cond8_1 i) : cfg8.idle 2 i = true := by
  show (!(k8_cond2 i == 1#1)) = true
  rw [Bool.not_eq_true', beq_eq_false_iff_ne]; exact h1

/-- Where it is taken the output window is live. -/
theorem liveAt8_2 (i : grid8.Coords) (h1 : cond8_1 i) : cfg8.idle 2 i = false := by
  show (!(k8_cond2 i == 1#1)) = false
  rw [Bool.not_eq_false', beq_iff_eq]; exact h1

/-- The output window's block index does not move between a point and the next unless the point is the
    last of its row: the index map reads the first coordinate only, `t / 512`. -/
theorem index8_2_succ (t : Fin cfg8.N) (h : ¬t.val % 512 = 511) (h1 : t.val + 1 < grid8.N) :
    (cfg8.win 2).index ⟨t.val + 1, h1⟩ = (cfg8.win 2).index t := by
  unfold Pipeline.Window.index
  refine (cfg8.win 2).hreads _ _ fun a ha => ?_
  have ha0 : a = 0 := by
    by_contra hne
    have : a = 1 := by
      rcases a with ⟨_ | _ | n, hn⟩
      · exact absurd rfl hne
      · rfl
      · exfalso; have hn2 : n + 1 + 1 < 2 := hn; omega
    subst this; exact absurd ha (by decide)
  subst ha0
  apply Fin.ext
  rw [coords8_0_val, coords8_0_val]
  show (t.val + 1) / 512 % 128 = t.val / 512 % 128
  omega

/-- Away from the points ≡ 511 (mod 512) the pipeline does not write the output block back. -/
theorem noFlush8_2 (t : Fin cfg8.N) (h : ¬t.val % 512 = 511) : (cfg8.win 2).flush t = false := by
  have hN : grid8.N = 65536 := N_8
  have ht : t.val < 65536 := lt_of_lt_of_eq t.isLt N_8
  cases hfl : (cfg8.win 2).flush t with
  | false => rfl
  | true =>
    exfalso
    unfold Pipeline.Window.flush at hfl
    simp only [Bool.and_eq_true, Bool.or_eq_true, decide_eq_true_eq] at hfl
    obtain ⟨-, hl | ⟨h1, hne⟩⟩ := hfl
    · omega
    · exact hne (index8_2_succ t h h1)

/-! ## The memrefs the body runs on -/

/-- One staging buffer of output window 2, through which its contents are stated. -/
abbrev VO8_2 : View sig .tc .vmem S2048x64 .f32 := (Memref.whole cc8_stg2_0 : Memref sig .tc .vmem S2048x64 .f32).view
/-- Each window's current staging memref at point `t`, spelled as the pipeline passes it, and its wholeness. -/
abbrev ms8_0 (t : Fin cfg8.N) : Memref sig .tc .vmem S4096x64 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x4096 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The scratch operand (the accumulator): a whole scoped buffer of the kernel's own, passed beside the windows. -/
abbrev scM8_0 : Memref sig .tc .vmem S2048x64 .f32 := Memref.whole cc8_scratch0
/-- The accumulator as a view: what it holds is stated through it. -/
abbrev VS8_0 : View sig .tc .vmem S2048x64 .f32 := scM8_0.view

/-- The class's invariant with the accumulator as a memref owned at some contents, the other scoped buffers
    unopened, and the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Hand

end
-- ==== Proof.KI.Scat8RunA.lean ====
import proofs.«406228_j54073638257180_1_alg».proof.Proof.KI.Scat8Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (second coordinate 0: the accumulator is reset, then accumulated into; the output block is not stored).
    What the body's stores leave in the output's staging memref (no piece) and in the accumulator (`LS0`, last store
    first), with the proof that on whole memrefs — the two inputs' at their contents `x0`, `x1`, the output's at
    contents `xi2` handed back untouched, the accumulator's at anything — the body runs to the continuation holding
    the inputs' and the output's as they were and the accumulator with its pieces written. -/
noncomputable def kernelRun8_A (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat8RunB.lean ====
import proofs.«406228_j54073638257180_1_alg».proof.Proof.KI.Scat8RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (second coordinate strictly between 0 and 511: accumulate over what the point before left; the output
    block is not stored). The pieces as in case A, with the accumulator handed in at the contents `xs0` the point
    before left. -/
noncomputable def kernelRun8_B (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Scat8RunC.lean ====
import proofs.«406228_j54073638257180_1_alg».proof.Proof.KI.Scat8RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (second coordinate 511: accumulate over what the point before left, then copy the accumulator whole to
    the output block). The output's staging memref is handed in at anything and comes back with its pieces `L2`
    written; the accumulator as in case B. -/
noncomputable def kernelRun8_C (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Scat8.lean ====
import proofs.«406228_j54073638257180_1_alg».proof.Proof.KI.Scat8RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: what the output block and the accumulator hold, the proof data, the body obligation

Everything is stated at a parameter `V`: the TensorCore's buffer contents when the region is entered. -/

/-! ## Per case: the pieces read back -/

/-- Case A stores nothing into the output block (the window is idle at its points and not written back there):
    no pieces — a placeholder (junk read back) that nothing consults. -/
def out8_A_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) : Vec F S2048x64 .f32 :=
  VO8_2.read (Elt F) (VO8_2.writes (Elt F) VO8_2.junk (kernelRun8_A c i arg2 harg2 arg3 harg3 arg4 harg4 arg5 harg5 hc0 hc1 x0 x1).1)

/-- Case A's pieces for the accumulator cover it: each store writes it whole. -/
theorem scover8_A_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) (y : S2048x64.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S2048x64.size (by sl_kernel_rfl) y

/-- What case A leaves in the accumulator: its pieces read back over junk. -/
def sout8_A_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) : Vec F S2048x64 .f32 :=
  VS8_0.read (Elt F) (VS8_0.writes (Elt F) VS8_0.junk (kernelRun8_A c i arg2 harg2 arg3 harg3 arg4 harg4 arg5 harg5 hc0 hc1 x0 x1).2.1)

/-- Case B stores nothing into the output block (the window is idle at its points and not written back there):
    no pieces — a placeholder (junk read back) that nothing consults. -/
def out8_B_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) : Vec F S2048x64 .f32 :=
  VO8_2.read (Elt F) (VO8_2.writes (Elt F) VO8_2.junk (kernelRun8_B c i arg2 harg2 arg3 harg3 arg4 harg4 arg5 harg5 hc0 hc1 x0 x1 xs0).1)

/-- Case B's pieces for the accumulator cover it: each store writes it whole. -/
theorem scover8_B_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) (y : S2048x64.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S2048x64.size (by sl_kernel_rfl) y

/-- What case B leaves in the accumulator: its pieces read back over junk. -/
def sout8_B_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) : Vec F S2048x64 .f32 :=
  VS8_0.read (Elt F) (VS8_0.writes (Elt F) VS8_0.junk (kernelRun8_B c i arg2 harg2 arg3 harg3 arg4 harg4 arg5 harg5 hc0 hc1 x0 x1 xs0).2.1)

/-- Case C's one store into the output block tiles it, so its pieces cover it. -/
theorem cover8_C_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) (y : S2048x64.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S2048x64.size (by sl_kernel_rfl) y

/-- What case C leaves in the output block's staging buffer: its pieces read back over junk. -/
def out8_C_2 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) : Vec F S2048x64 .f32 :=
  VO8_2.read (Elt F) (VO8_2.writes (Elt F) VO8_2.junk (kernelRun8_C c i arg2 harg2 arg3 harg3 arg4 harg4 arg5 harg5 hc0 hc1 x0 x1 xs0).1)

/-- Case C's pieces for the accumulator cover it: each store writes it whole. -/
theorem scover8_C_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) (y : S2048x64.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S2048x64.size (by sl_kernel_rfl) y

/-- What case C leaves in the accumulator: its pieces read back over junk. -/
def sout8_C_0 (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) : Vec F S2048x64 .f32 :=
  VS8_0.read (Elt F) (VS8_0.writes (Elt F) VS8_0.junk (kernelRun8_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What the output block and the accumulator hold after each point -/

/-- THE ACCUMULATION. What the output block's staging buffer and the accumulator hold after the body at position `n`
    (a pair: the output block, then the accumulator): the case the closed forms select at `n`, run at the point's
    memrefs and input blocks, the accumulator read at what this leaves at `n - 1`. Both conditions at once is no
    case (`False.elim`). -/
def outsAt8 (c : Dev nD) : (n : ℕ) → n < cfg8.N → Vec F S2048x64 .f32 × Vec F S2048x64 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 512 = 0 then
      if h1 : (n + 1) % 512 = 511 then
        False.elim (by omega)
      else
        (out8_A_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 512 = 511 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

/-- `outsAt8` at a point of case A: that case's contents. -/
theorem outsAt8_A (c : Dev nD) (t : Fin cfg8.N) (h0 : t.val % 512 = 0) (h1 : ¬t.val % 512 = 511) :
    outsAt8 V c t.val t.isLt = (out8_A_2 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

/-- `outsAt8` at a point of case B: that case's contents, over what the point before left. -/
theorem outsAt8_B (c : Dev nD) (t : Fin cfg8.N) (h0 : ¬t.val % 512 = 0) (h1 : ¬t.val % 512 = 511) :
    outsAt8 V c t.val t.isLt = (out8_B_2 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt8` at a point of case C: that case's contents, over what the point before left. -/
theorem outsAt8_C (c : Dev nD) (t : Fin cfg8.N) (h0 : ¬t.val % 512 = 0) (h1 : t.val % 512 = 511) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers unopened, and the
    generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of pipeline 8 on core `c`: the arrays as the region finds them (`V`); after the body at point `t`
    each input's buffer at its block and the output's at `outsAt8`'s first component; the invariant `PhiS8`; nothing
    owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

/-- The proof data's arrays are the region-entry contents (the definition projected, `V` never unfolded). -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; so
    that case's run applies; the invariant hands the body the accumulator at what the point before left (at anything
    at the first point) and takes it back at this point's contents (its pieces cover it); the other scoped buffers,
    the generator register and what the core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 65536 := lt_of_lt_of_eq t.isLt (show cfg8.N = 65536 from N_8)
  by_cases h0 : t.val % 512 = 0
  · by_cases h1 : t.val % 512 = 511
    · exfalso; omega
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [Dat.leavesExact_idle (dat8 V c) 2 t (idleAt8_2 _ (fun h => h1 ((hcond8_1 t).mp h))) (noFlush8_2 t h1)]
      rw [outsAt8_A V c t h0 h1]
      unfold sout8_A_0; (try dsimp only)
      by_cases hz : t.val = 0
      · rw [PhiS8_castSucc V c t, PhiS8_zero V c _ _ hz, PhiA8_eq]
        iintro ⟨⟨⟨HS0, Hr⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _)
            iexact Hr
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 512 = 511
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 _ ((hcond8_1 t).mpr h1)], after8_2]
      rw [outsAt8_C V c t h0 h1]
      unfold out8_C_2 sout8_C_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_C c (grid8.coords t) _ _ _ _ _ _ _ _ (fun h => h0 ((hcond8_0 t).mp h)) ((hcond8_1 t).mpr h1) (iblk8 V c 0 t) (iblk8 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover8_C_2 c _ _ _ _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [Dat.leavesExact_idle (dat8 V c) 2 t (idleAt8_2 _ (fun h => h1 ((hcond8_1 t).mp h))) (noFlush8_2 t h1)]
      rw [outsAt8_B V c t h0 h1]
      unfold sout8_B_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩⟩
        iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 65536 := N_8; omega)

end Region

end Cert.KernelIdeal.Hand

end
-- ==== Proof.KI.Run.lean ====
import proofs.«406228_j54073638257180_1_alg».proof.Proof.Gen.KernelIdeal.Launch
import proofs.«406228_j54073638257180_1_alg».proof.Proof.Gen.KernelIdeal.Skeleton
import proofs.«406228_j54073638257180_1_alg».proof.Proof.KI.RegionsHost
import proofs.«406228_j54073638257180_1_alg».proof.Proof.KI.Dense0
import proofs.«406228_j54073638257180_1_alg».proof.Proof.KI.Dense1
import proofs.«406228_j54073638257180_1_alg».proof.Proof.KI.Dense2
import proofs.«406228_j54073638257180_1_alg».proof.Proof.KI.Dense5
import proofs.«406228_j54073638257180_1_alg».proof.Proof.KI.Dense6
import proofs.«406228_j54073638257180_1_alg».proof.Proof.KI.Dense9
import proofs.«406228_j54073638257180_1_alg».proof.Proof.KI.Scat3
import proofs.«406228_j54073638257180_1_alg».proof.Proof.KI.Scat4
import proofs.«406228_j54073638257180_1_alg».proof.Proof.KI.Scat7
import proofs.«406228_j54073638257180_1_alg».proof.Proof.KI.Scat8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main, item by item

@main is 35 items: stretches of host operations and ten kernel regions. The buffer contents at every item boundary are a
fold from the launch memory (`W j`): a host stretch applies its operations, a region leaves each of its arrays at what
its pipeline's write-backs leave (`Dat.arrAt … N`) and every other buffer as it found it. Every weakly fair execution
terminates and ends with every unscoped buffer at the last boundary's contents (`run_all`).
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- Item 1 is region 0: what it is entered from, read at the TensorCore's references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its result array `main_v1`. -/
theorem W2_keep (c : Dev nD) (r : Ref sig .tc) (h : r ≠ main_v1) : W2 m ρ c (Proc.devRef .tc r) = W1 m ρ c (Proc.devRef .tc r) := by
  by_cases hw : ∃ w, Pipeline.arrRef spec0 w = r
  · obtain ⟨w, rfl⟩ := hw
    rw [W2_arr]
    match w, h with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h
  · exact W2_of_ne m ρ c r (fun w e => hw ⟨w, e⟩)
/-- After item 2, the host stretch `hostOps1`. -/
abbrev W3 : Dev nD → Valuation τ sig (Elt F) := fun c => StableHlo.after hostOps1 (W2 m ρ c)
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- After item 3, the host stretch `hostOps1_1`. -/
abbrev W4 : Dev nD → Valuation τ sig (Elt F) := fun c => StableHlo.after hostOps1_1 (W3 m ρ c)
theorem W4_keep (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- After item 4, the host stretch `hostOps1_2`. -/
abbrev W5 : Dev nD → Valuation τ sig (Elt F) := fun c => StableHlo.after hostOps1_2 (W4 m ρ c)
theorem W5_keep (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- After item 5, the host stretch `hostOps1_3`. -/
abbrev W6 : Dev nD → Valuation τ sig (Elt F) := fun c => StableHlo.after hostOps1_3 (W5 m ρ c)
theorem W6_keep (c : Dev nD) (r : Ref sig .tc) (h : r ∉ hostOps1_3_W) : W6 m ρ c (Proc.devRef .tc r) = W5 m ρ c (Proc.devRef .tc r) :=
  StableHlo.after_of_writes_sub hostOps1_3 _ hostOps1_3_writes h
/-- After item 6, the host stretch `hostOps1_4`. -/
abbrev W7 : Dev nD → Valuation τ sig (Elt F) := fun c => StableHlo.after hostOps1_4 (W6 m ρ c)
theorem W7_keep (c : Dev nD) (r : Ref sig .tc) (h : r ∉ hostOps1_4_W) : W7 m ρ c (Proc.devRef .tc r) = W6 m ρ c (Proc.devRef .tc r) :=
  StableHlo.after_of_writes_sub hostOps1_4 _ hostOps1_4_writes h
/-- Item 7 is region 1: what it is entered from, read at the TensorCore's references. -/
abbrev V7 : (c : Dev nD) → (b : Ref sig .tc) → Buf (Elt F) ((c : Thread nD τ).loc b) := fun c b => W7 m ρ c b
/-- After region 1: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- Region 1 changes only its result array `main_v48`. -/
theorem W8_keep (c : Dev nD) (r : Ref sig .tc) (h : r ≠ main_v48) : W8 m ρ c (Proc.devRef .tc r) = W7 m ρ c (Proc.devRef .tc r) := by
  by_cases hw : ∃ w, Pipeline.arrRef spec1 w = r
  · obtain ⟨w, rfl⟩ := hw
    rw [W8_arr]
    match w, h with
    | ⟨0, _⟩, _ => exact ((dat1 (V7 m ρ) c).arrAt_in 0 rfl _).trans (A_eq1 (V7 m ρ) c 0)
    | ⟨1, _⟩, _ => exact ((dat1 (V7 m ρ) c).arrAt_in 1 rfl _).trans (A_eq1 (V7 m ρ) c 1)
    | ⟨2, _⟩, _ => exact ((dat1 (V7 m ρ) c).arrAt_in 2 rfl _).trans (A_eq1 (V7 m ρ) c 2)
    | ⟨3, _⟩, h => exact absurd rfl h
  · exact W8_of_ne m ρ c r (fun w e => hw ⟨w, e⟩)
/-- After item 8, the host stretch `hostOps2`. -/
abbrev W9 : Dev nD → Valuation τ sig (Elt F) := fun c => StableHlo.after hostOps2 (W8 m ρ c)
theorem W9_keep (c : Dev nD) (r : Ref sig .tc) (h : r ∉ hostOps2_W) : W9 m ρ c (Proc.devRef .tc r) = W8 m ρ c (Proc.devRef .tc r) :=
  StableHlo.after_of_writes_sub hostOps2 _ hostOps2_writes h
/-- Item 9 is region 2: what it is entered from, read at the TensorCore's references. -/
abbrev V9 : (c : Dev nD) → (b : Ref sig .tc) → Buf (Elt F) ((c : Thread nD τ).loc b) := fun c b => W9 m ρ c b
/-- After region 2: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- Region 2 changes only its result array `main_v54`. -/
theorem W10_keep (c : Dev nD) (r : Ref sig .tc) (h : r ≠ main_v54) : W10 m ρ c (Proc.devRef .tc r) = W9 m ρ c (Proc.devRef .tc r) := by
  by_cases hw : ∃ w, Pipeline.arrRef spec2 w = r
  · obtain ⟨w, rfl⟩ := hw
    rw [W10_arr]
    match w, h with
    | ⟨0, _⟩, _ => exact ((dat2 (V9 m ρ) c).arrAt_in 0 rfl _).trans (A_eq2 (V9 m ρ) c 0)
    | ⟨1, _⟩, _ => exact ((dat2 (V9 m ρ) c).arrAt_in 1 rfl _).trans (A_eq2 (V9 m ρ) c 1)
    | ⟨2, _⟩, _ => exact ((dat2 (V9 m ρ) c).arrAt_in 2 rfl _).trans (A_eq2 (V9 m ρ) c 2)
    | ⟨3, _⟩, h => exact absurd rfl h
  · exact W10_of_ne m ρ c r (fun w e => hw ⟨w, e⟩)
/-- After item 10, the host stretch `hostOps3`. -/
abbrev W11 : Dev nD → Valuation τ sig (Elt F) := fun c => StableHlo.after hostOps3 (W10 m ρ c)
theorem W11_keep (c : Dev nD) (r : Ref sig .tc) (h : r ∉ hostOps3_W) : W11 m ρ c (Proc.devRef .tc r) = W10 m ρ c (Proc.devRef .tc r) :=
  StableHlo.after_of_writes_sub hostOps3 _ hostOps3_writes h
/-- Item 11 is region 3: what it is entered from, read at the TensorCore's references. -/
abbrev V11 : (c : Dev nD) → (b : Ref sig .tc) → Buf (Elt F) ((c : Thread nD τ).loc b) := fun c b => W11 m ρ c b
/-- After region 3: its arrays at what the pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- Region 3 changes only its result array `main_v76`. -/
theorem W12_keep (c : Dev nD) (r : Ref sig .tc) (h : r ≠ main_v76) : W12 m ρ c (Proc.devRef .tc r) = W11 m ρ c (Proc.devRef .tc r) := by
  by_cases hw : ∃ w, Pipeline.arrRef spec3 w = r
  · obtain ⟨w, rfl⟩ := hw
    rw [W12_arr]
    match w, h with
    | ⟨0, _⟩, _ => exact ((dat3 (V11 m ρ) c).arrAt_in 0 rfl _).trans (A_eq3 (V11 m ρ) c 0)
    | ⟨1, _⟩, _ => exact ((dat3 (V11 m ρ) c).arrAt_in 1 rfl _).trans (A_eq3 (V11 m ρ) c 1)
    | ⟨2, _⟩, h => exact absurd rfl h
  · exact W12_of_ne m ρ c r (fun w e => hw ⟨w, e⟩)
/-- After item 12, the host stretch `hostOps4`. -/
abbrev W13 : Dev nD → Valuation τ sig (Elt F) := fun c => StableHlo.after hostOps4 (W12 m ρ c)
theorem W13_keep (c : Dev nD) (r : Ref sig .tc) (h : r ∉ hostOps4_W) : W13 m ρ c (Proc.devRef .tc r) = W12 m ρ c (Proc.devRef .tc r) :=
  StableHlo.after_of_writes_sub hostOps4 _ hostOps4_writes h
/-- Item 13 is region 4: what it is entered from, read at the TensorCore's references. -/
abbrev V13 : (c : Dev nD) → (b : Ref sig .tc) → Buf (Elt F) ((c : Thread nD τ).loc b) := fun c b => W13 m ρ c b
/-- After region 4: its arrays at what the pipeline leaves, every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)
/-- Region 4 changes only its result array `main_v78`. -/
theorem W14_keep (c : Dev nD) (r : Ref sig .tc) (h : r ≠ main_v78) : W14 m ρ c (Proc.devRef .tc r) = W13 m ρ c (Proc.devRef .tc r) := by
  by_cases hw : ∃ w, Pipeline.arrRef spec4 w = r
  · obtain ⟨w, rfl⟩ := hw
    rw [W14_arr]
    match w, h with
    | ⟨0, _⟩, _ => exact ((dat4 (V13 m ρ) c).arrAt_in 0 rfl _).trans (A_eq4 (V13 m ρ) c 0)
    | ⟨1, _⟩, _ => exact ((dat4 (V13 m ρ) c).arrAt_in 1 rfl _).trans (A_eq4 (V13 m ρ) c 1)
    | ⟨2, _⟩, h => exact absurd rfl h
  · exact W14_of_ne m ρ c r (fun w e => hw ⟨w, e⟩)
/-- After item 14, the host stretch `hostOps5`. -/
abbrev W15 : Dev nD → Valuation τ sig (Elt F) := fun c => StableHlo.after hostOps5 (W14 m ρ c)
theorem W15_keep (c : Dev nD) (r : Ref sig .tc) (h : r ∉ hostOps5_W) : W15 m ρ c (Proc.devRef .tc r) = W14 m ρ c (Proc.devRef .tc r) :=
  StableHlo.after_of_writes_sub hostOps5 _ hostOps5_writes h
/-- After item 15, the host stretch `hostOps5_1`. -/
abbrev W16 : Dev nD → Valuation τ sig (Elt F) := fun c => StableHlo.after hostOps5_1 (W15 m ρ c)
theorem W16_keep (c : Dev nD) (r : Ref sig .tc) (h : r ∉ hostOps5_1_W) : W16 m ρ c (Proc.devRef .tc r) = W15 m ρ c (Proc.devRef .tc r) :=
  StableHlo.after_of_writes_sub hostOps5_1 _ hostOps5_1_writes h
/-- After item 16, the host stretch `hostOps5_2`. -/
abbrev W17 : Dev nD → Valuation τ sig (Elt F) := fun c => StableHlo.after hostOps5_2 (W16 m ρ c)
theorem W17_keep (c : Dev nD) (r : Ref sig .tc) (h : r ∉ hostOps5_2_W) : W17 m ρ c (Proc.devRef .tc r) = W16 m ρ c (Proc.devRef .tc r) :=
  StableHlo.after_of_writes_sub hostOps5_2 _ hostOps5_2_writes h
/-- After item 17, the host stretch `hostOps5_3`. -/
abbrev W18 : Dev nD → Valuation τ sig (Elt F) := fun c => StableHlo.after hostOps5_3 (W17 m ρ c)
theorem W18_keep (c : Dev nD) (r : Ref sig .tc) (h : r ∉ hostOps5_3_W) : W18 m ρ c (Proc.devRef .tc r) = W17 m ρ c (Proc.devRef .tc r) :=
  StableHlo.after_of_writes_sub hostOps5_3 _ hostOps5_3_writes h
/-- After item 18, the host stretch `hostOps5_4`. -/
abbrev W19 : Dev nD → Valuation τ sig (Elt F) := fun c => StableHlo.after hostOps5_4 (W18 m ρ c)
theorem W19_keep (c : Dev nD) (r : Ref sig .tc) (h : r ∉ hostOps5_4_W) : W19 m ρ c (Proc.devRef .tc r) = W18 m ρ c (Proc.devRef .tc r) :=
  StableHlo.after_of_writes_sub hostOps5_4 _ hostOps5_4_writes h
/-- After item 19, the host stretch `hostOps5_5`. -/
abbrev W20 : Dev nD → Valuation τ sig (Elt F) := fun c => StableHlo.after hostOps5_5 (W19 m ρ c)
theorem W20_keep (c : Dev nD) (r : Ref sig .tc) (h : r ∉ hostOps5_5_W) : W20 m ρ c (Proc.devRef .tc r) = W19 m ρ c (Proc.devRef .tc r) :=
  StableHlo.after_of_writes_sub hostOps5_5 _ hostOps5_5_writes h
/-- After item 20, the host stretch `hostOps5_6`. -/
abbrev W21 : Dev nD → Valuation τ sig (Elt F) := fun c => StableHlo.after hostOps5_6 (W20 m ρ c)
theorem W21_keep (c : Dev nD) (r : Ref sig .tc) (h : r ∉ hostOps5_6_W) : W21 m ρ c (Proc.devRef .tc r) = W20 m ρ c (Proc.devRef .tc r) :=
  StableHlo.after_of_writes_sub hostOps5_6 _ hostOps5_6_writes h
/-- Item 21 is region 5: what it is entered from, read at the TensorCore's references. -/
abbrev V21 : (c : Dev nD) → (b : Ref sig .tc) → Buf (Elt F) ((c : Thread nD τ).loc b) := fun c b => W21 m ρ c b
/-- After region 5: its arrays at what the pipeline leaves, every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)
/-- Region 5 changes only its result array `main_v132`. -/
theorem W22_keep (c : Dev nD) (r : Ref sig .tc) (h : r ≠ main_v132) : W22 m ρ c (Proc.devRef .tc r) = W21 m ρ c (Proc.devRef .tc r) := by
  by_cases hw : ∃ w, Pipeline.arrRef spec5 w = r
  · obtain ⟨w, rfl⟩ := hw
    rw [W22_arr]
    match w, h with
    | ⟨0, _⟩, _ => exact ((dat5 (V21 m ρ) c).arrAt_in 0 rfl _).trans (A_eq5 (V21 m ρ) c 0)
    | ⟨1, _⟩, _ => exact ((dat5 (V21 m ρ) c).arrAt_in 1 rfl _).trans (A_eq5 (V21 m ρ) c 1)
    | ⟨2, _⟩, _ => exact ((dat5 (V21 m ρ) c).arrAt_in 2 rfl _).trans (A_eq5 (V21 m ρ) c 2)
    | ⟨3, _⟩, h => exact absurd rfl h
  · exact W22_of_ne m ρ c r (fun w e => hw ⟨w, e⟩)
/-- After item 22, the host stretch `hostOps6`. -/
abbrev W23 : Dev nD → Valuation τ sig (Elt F) := fun c => StableHlo.after hostOps6 (W22 m ρ c)
theorem W23_keep (c : Dev nD) (r : Ref sig .tc) (h : r ∉ hostOps6_W) : W23 m ρ c (Proc.devRef .tc r) = W22 m ρ c (Proc.devRef .tc r) :=
  StableHlo.after_of_writes_sub hostOps6 _ hostOps6_writes h
/-- Item 23 is region 6: what it is entered from, read at the TensorCore's references. -/
abbrev V23 : (c : Dev nD) → (b : Ref sig .tc) → Buf (Elt F) ((c : Thread nD τ).loc b) := fun c b => W23 m ρ c b
/-- After region 6: its arrays at what the pipeline leaves, every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)
/-- Region 6 changes only its result array `main_v138`. -/
theorem W24_keep (c : Dev nD) (r : Ref sig .tc) (h : r ≠ main_v138) : W24 m ρ c (Proc.devRef .tc r) = W23 m ρ c (Proc.devRef .tc r) := by
  by_cases hw : ∃ w, Pipeline.arrRef spec6 w = r
  · obtain ⟨w, rfl⟩ := hw
    rw [W24_arr]
    match w, h with
    | ⟨0, _⟩, _ => exact ((dat6 (V23 m ρ) c).arrAt_in 0 rfl _).trans (A_eq6 (V23 m ρ) c 0)
    | ⟨1, _⟩, _ => exact ((dat6 (V23 m ρ) c).arrAt_in 1 rfl _).trans (A_eq6 (V23 m ρ) c 1)
    | ⟨2, _⟩, _ => exact ((dat6 (V23 m ρ) c).arrAt_in 2 rfl _).trans (A_eq6 (V23 m ρ) c 2)
    | ⟨3, _⟩, h => exact absurd rfl h
  · exact W24_of_ne m ρ c r (fun w e => hw ⟨w, e⟩)
/-- After item 24, the host stretch `hostOps7`. -/
abbrev W25 : Dev nD → Valuation τ sig (Elt F) := fun c => StableHlo.after hostOps7 (W24 m ρ c)
theorem W25_keep (c : Dev nD) (r : Ref sig .tc) (h : r ∉ hostOps7_W) : W25 m ρ c (Proc.devRef .tc r) = W24 m ρ c (Proc.devRef .tc r) :=
  StableHlo.after_of_writes_sub hostOps7 _ hostOps7_writes h
/-- Item 25 is region 7: what it is entered from, read at the TensorCore's references. -/
abbrev V25 : (c : Dev nD) → (b : Ref sig .tc) → Buf (Elt F) ((c : Thread nD τ).loc b) := fun c b => W25 m ρ c b
/-- After region 7: its arrays at what the pipeline leaves, every other buffer as entered. -/
def W26 (c : Dev nD) : Valuation τ sig (Elt F) :=
  Pipeline.withArrays spec7 c (W25 m ρ c) fun w => (dat7 (V25 m ρ) c).arrAt w cfg7.N
theorem W26_arr (c : Dev nD) (w : Fin cfg7.W) :
    W26 m ρ c (Proc.devRef .tc (Pipeline.arrRef spec7 w)) = (dat7 (V25 m ρ) c).arrAt w cfg7.N := by
  unfold W26; exact Pipeline.withArrays_arr spec7 launch7.win.arr_inj c _ _ w
theorem W26_of_ne (c : Dev nD) (b : Ref sig .tc) (hb : ∀ w, Pipeline.arrRef spec7 w ≠ b) :
    W26 m ρ c (Proc.devRef .tc b) = W25 m ρ c (Proc.devRef .tc b) := by
  unfold W26; exact Pipeline.withArrays_of_ne spec7 c _ _ b hb
abbrev V26 : (c : Dev nD) → (b : Ref sig .tc) → Buf (Elt F) ((c : Thread nD τ).loc b) := fun c b => W26 m ρ c b
theorem hF7 (c : Dev nD) (w : Fin cfg7.W) : (dat7 (V25 m ρ) c).arrAt w cfg7.N = V26 m ρ c (Pipeline.arrRef spec7 w) :=
  (W26_arr m ρ c w).symm
theorem hrest7 (c : Dev nD) : ∀ b, b ∉ Finset.univ.image (Pipeline.arrRef spec7) → V26 m ρ c b = V25 m ρ c b :=
  fun b hb => W26_of_ne m ρ c b fun w e => hb (Finset.mem_image.mpr ⟨w, Finset.mem_univ _, e⟩)
/-- Region 7 changes only its result array `main_v160`. -/
theorem W26_keep (c : Dev nD) (r : Ref sig .tc) (h : r ≠ main_v160) : W26 m ρ c (Proc.devRef .tc r) = W25 m ρ c (Proc.devRef .tc r) := by
  by_cases hw : ∃ w, Pipeline.arrRef spec7 w = r
  · obtain ⟨w, rfl⟩ := hw
    rw [W26_arr]
    match w, h with
    | ⟨0, _⟩, _ => exact ((dat7 (V25 m ρ) c).arrAt_in 0 rfl _).trans (A_eq7 (V25 m ρ) c 0)
    | ⟨1, _⟩, _ => exact ((dat7 (V25 m ρ) c).arrAt_in 1 rfl _).trans (A_eq7 (V25 m ρ) c 1)
    | ⟨2, _⟩, h => exact absurd rfl h
  · exact W26_of_ne m ρ c r (fun w e => hw ⟨w, e⟩)
/-- After item 26, the host stretch `hostOps8`. -/
abbrev W27 : Dev nD → Valuation τ sig (Elt F) := fun c => StableHlo.after hostOps8 (W26 m ρ c)
theorem W27_keep (c : Dev nD) (r : Ref sig .tc) (h : r ∉ hostOps8_W) : W27 m ρ c (Proc.devRef .tc r) = W26 m ρ c (Proc.devRef .tc r) :=
  StableHlo.after_of_writes_sub hostOps8 _ hostOps8_writes h
/-- Item 27 is region 8: what it is entered from, read at the TensorCore's references. -/
abbrev V27 : (c : Dev nD) → (b : Ref sig .tc) → Buf (Elt F) ((c : Thread nD τ).loc b) := fun c b => W27 m ρ c b
/-- After region 8: its arrays at what the pipeline leaves, every other buffer as entered. -/
def W28 (c : Dev nD) : Valuation τ sig (Elt F) :=
  Pipeline.withArrays spec8 c (W27 m ρ c) fun w => (dat8 (V27 m ρ) c).arrAt w cfg8.N
theorem W28_arr (c : Dev nD) (w : Fin cfg8.W) :
    W28 m ρ c (Proc.devRef .tc (Pipeline.arrRef spec8 w)) = (dat8 (V27 m ρ) c).arrAt w cfg8.N := by
  unfold W28; exact Pipeline.withArrays_arr spec8 launch8.win.arr_inj c _ _ w
theorem W28_of_ne (c : Dev nD) (b : Ref sig .tc) (hb : ∀ w, Pipeline.arrRef spec8 w ≠ b) :
    W28 m ρ c (Proc.devRef .tc b) = W27 m ρ c (Proc.devRef .tc b) := by
  unfold W28; exact Pipeline.withArrays_of_ne spec8 c _ _ b hb
abbrev V28 : (c : Dev nD) → (b : Ref sig .tc) → Buf (Elt F) ((c : Thread nD τ).loc b) := fun c b => W28 m ρ c b
theorem hF8 (c : Dev nD) (w : Fin cfg8.W) : (dat8 (V27 m ρ) c).arrAt w cfg8.N = V28 m ρ c (Pipeline.arrRef spec8 w) :=
  (W28_arr m ρ c w).symm
theorem hrest8 (c : Dev nD) : ∀ b, b ∉ Finset.univ.image (Pipeline.arrRef spec8) → V28 m ρ c b = V27 m ρ c b :=
  fun b hb => W28_of_ne m ρ c b fun w e => hb (Finset.mem_image.mpr ⟨w, Finset.mem_univ _, e⟩)
/-- Region 8 changes only its result array `main_v162`. -/
theorem W28_keep (c : Dev nD) (r : Ref sig .tc) (h : r ≠ main_v162) : W28 m ρ c (Proc.devRef .tc r) = W27 m ρ c (Proc.devRef .tc r) := by
  by_cases hw : ∃ w, Pipeline.arrRef spec8 w = r
  · obtain ⟨w, rfl⟩ := hw
    rw [W28_arr]
    match w, h with
    | ⟨0, _⟩, _ => exact ((dat8 (V27 m ρ) c).arrAt_in 0 rfl _).trans (A_eq8 (V27 m ρ) c 0)
    | ⟨1, _⟩, _ => exact ((dat8 (V27 m ρ) c).arrAt_in 1 rfl _).trans (A_eq8 (V27 m ρ) c 1)
    | ⟨2, _⟩, h => exact absurd rfl h
  · exact W28_of_ne m ρ c r (fun w e => hw ⟨w, e⟩)
/-- After item 28, the host stretch `hostOps9`. -/
abbrev W29 : Dev nD → Valuation τ sig (Elt F) := fun c => StableHlo.after hostOps9 (W28 m ρ c)
theorem W29_keep (c : Dev nD) (r : Ref sig .tc) (h : r ∉ hostOps9_W) : W29 m ρ c (Proc.devRef .tc r) = W28 m ρ c (Proc.devRef .tc r) :=
  StableHlo.after_of_writes_sub hostOps9 _ hostOps9_writes h
/-- After item 29, the host stretch `hostOps9_1`. -/
abbrev W30 : Dev nD → Valuation τ sig (Elt F) := fun c => StableHlo.after hostOps9_1 (W29 m ρ c)
theorem W30_keep (c : Dev nD) (r : Ref sig .tc) (h : r ∉ hostOps9_1_W) : W30 m ρ c (Proc.devRef .tc r) = W29 m ρ c (Proc.devRef .tc r) :=
  StableHlo.after_of_writes_sub hostOps9_1 _ hostOps9_1_writes h
/-- After item 30, the host stretch `hostOps9_2`. -/
abbrev W31 : Dev nD → Valuation τ sig (Elt F) := fun c => StableHlo.after hostOps9_2 (W30 m ρ c)
theorem W31_keep (c : Dev nD) (r : Ref sig .tc) (h : r ∉ hostOps9_2_W) : W31 m ρ c (Proc.devRef .tc r) = W30 m ρ c (Proc.devRef .tc r) :=
  StableHlo.after_of_writes_sub hostOps9_2 _ hostOps9_2_writes h
/-- After item 31, the host stretch `hostOps9_3`. -/
abbrev W32 : Dev nD → Valuation τ sig (Elt F) := fun c => StableHlo.after hostOps9_3 (W31 m ρ c)
theorem W32_keep (c : Dev nD) (r : Ref sig .tc) (h : r ∉ hostOps9_3_W) : W32 m ρ c (Proc.devRef .tc r) = W31 m ρ c (Proc.devRef .tc r) :=
  StableHlo.after_of_writes_sub hostOps9_3 _ hostOps9_3_writes h
/-- After item 32, the host stretch `hostOps9_4`. -/
abbrev W33 : Dev nD → Valuation τ sig (Elt F) := fun c => StableHlo.after hostOps9_4 (W32 m ρ c)
theorem W33_keep (c : Dev nD) (r : Ref sig .tc) (h : r ∉ hostOps9_4_W) : W33 m ρ c (Proc.devRef .tc r) = W32 m ρ c (Proc.devRef .tc r) :=
  StableHlo.after_of_writes_sub hostOps9_4 _ hostOps9_4_writes h
/-- Item 33 is region 9: what it is entered from, read at the TensorCore's references. -/
abbrev V33 : (c : Dev nD) → (b : Ref sig .tc) → Buf (Elt F) ((c : Thread nD τ).loc b) := fun c b => W33 m ρ c b
/-- After region 9: its arrays at what the pipeline leaves, every other buffer as entered. -/
def W34 (c : Dev nD) : Valuation τ sig (Elt F) :=
  Pipeline.withArrays spec9 c (W33 m ρ c) fun w => (dat9 (V33 m ρ) c).arrAt w cfg9.N
theorem W34_arr (c : Dev nD) (w : Fin cfg9.W) :
    W34 m ρ c (Proc.devRef .tc (Pipeline.arrRef spec9 w)) = (dat9 (V33 m ρ) c).arrAt w cfg9.N := by
  unfold W34; exact Pipeline.withArrays_arr spec9 launch9.win.arr_inj c _ _ w
theorem W34_of_ne (c : Dev nD) (b : Ref sig .tc) (hb : ∀ w, Pipeline.arrRef spec9 w ≠ b) :
    W34 m ρ c (Proc.devRef .tc b) = W33 m ρ c (Proc.devRef .tc b) := by
  unfold W34; exact Pipeline.withArrays_of_ne spec9 c _ _ b hb
abbrev V34 : (c : Dev nD) → (b : Ref sig .tc) → Buf (Elt F) ((c : Thread nD τ).loc b) := fun c b => W34 m ρ c b
theorem hF9 (c : Dev nD) (w : Fin cfg9.W) : (dat9 (V33 m ρ) c).arrAt w cfg9.N = V34 m ρ c (Pipeline.arrRef spec9 w) :=
  (W34_arr m ρ c w).symm
theorem hrest9 (c : Dev nD) : ∀ b, b ∉ Finset.univ.image (Pipeline.arrRef spec9) → V34 m ρ c b = V33 m ρ c b :=
  fun b hb => W34_of_ne m ρ c b fun w e => hb (Finset.mem_image.mpr ⟨w, Finset.mem_univ _, e⟩)
/-- Region 9 changes only its result array `main_v190`. -/
theorem W34_keep (c : Dev nD) (r : Ref sig .tc) (h : r ≠ main_v190) : W34 m ρ c (Proc.devRef .tc r) = W33 m ρ c (Proc.devRef .tc r) := by
  by_cases hw : ∃ w, Pipeline.arrRef spec9 w = r
  · obtain ⟨w, rfl⟩ := hw
    rw [W34_arr]
    match w, h with
    | ⟨0, _⟩, _ => exact ((dat9 (V33 m ρ) c).arrAt_in 0 rfl _).trans (A_eq9 (V33 m ρ) c 0)
    | ⟨1, _⟩, _ => exact ((dat9 (V33 m ρ) c).arrAt_in 1 rfl _).trans (A_eq9 (V33 m ρ) c 1)
    | ⟨2, _⟩, _ => exact ((dat9 (V33 m ρ) c).arrAt_in 2 rfl _).trans (A_eq9 (V33 m ρ) c 2)
    | ⟨3, _⟩, h => exact absurd rfl h
  · exact W34_of_ne m ρ c r (fun w e => hw ⟨w, e⟩)
/-- After item 34, the host stretch `hostOps10`. -/
abbrev W35 : Dev nD → Valuation τ sig (Elt F) := fun c => StableHlo.after hostOps10 (W34 m ρ c)
theorem W35_keep (c : Dev nD) (r : Ref sig .tc) (h : r ∉ hostOps10_W) : W35 m ρ c (Proc.devRef .tc r) = W34 m ρ c (Proc.devRef .tc r) :=
  StableHlo.after_of_writes_sub hostOps10 _ hostOps10_writes h

/-! ## No item writes an argument -/

theorem W35_main_arg0 (c : Dev nD) : W35 m ρ c (Proc.devRef .tc main_arg0) = m ((c : Thread nD τ).loc main_arg0) :=
  (W35_keep m ρ c main_arg0 (by decide)).trans <| (W34_keep m ρ c main_arg0 (by decide)).trans <| (W33_keep m ρ c main_arg0 (by decide)).trans <| (W32_keep m ρ c main_arg0 (by decide)).trans <| (W31_keep m ρ c main_arg0 (by decide)).trans <| (W30_keep m ρ c main_arg0 (by decide)).trans <| (W29_keep m ρ c main_arg0 (by decide)).trans <| (W28_keep m ρ c main_arg0 (by decide)).trans <| (W27_keep m ρ c main_arg0 (by decide)).trans <| (W26_keep m ρ c main_arg0 (by decide)).trans <| (W25_keep m ρ c main_arg0 (by decide)).trans <| (W24_keep m ρ c main_arg0 (by decide)).trans <| (W23_keep m ρ c main_arg0 (by decide)).trans <| (W22_keep m ρ c main_arg0 (by decide)).trans <| (W21_keep m ρ c main_arg0 (by decide)).trans <| (W20_keep m ρ c main_arg0 (by decide)).trans <| (W19_keep m ρ c main_arg0 (by decide)).trans <| (W18_keep m ρ c main_arg0 (by decide)).trans <| (W17_keep m ρ c main_arg0 (by decide)).trans <| (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W35_main_arg1 (c : Dev nD) : W35 m ρ c (Proc.devRef .tc main_arg1) = m ((c : Thread nD τ).loc main_arg1) :=
  (W35_keep m ρ c main_arg1 (by decide)).trans <| (W34_keep m ρ c main_arg1 (by decide)).trans <| (W33_keep m ρ c main_arg1 (by decide)).trans <| (W32_keep m ρ c main_arg1 (by decide)).trans <| (W31_keep m ρ c main_arg1 (by decide)).trans <| (W30_keep m ρ c main_arg1 (by decide)).trans <| (W29_keep m ρ c main_arg1 (by decide)).trans <| (W28_keep m ρ c main_arg1 (by decide)).trans <| (W27_keep m ρ c main_arg1 (by decide)).trans <| (W26_keep m ρ c main_arg1 (by decide)).trans <| (W25_keep m ρ c main_arg1 (by decide)).trans <| (W24_keep m ρ c main_arg1 (by decide)).trans <| (W23_keep m ρ c main_arg1 (by decide)).trans <| (W22_keep m ρ c main_arg1 (by decide)).trans <| (W21_keep m ρ c main_arg1 (by decide)).trans <| (W20_keep m ρ c main_arg1 (by decide)).trans <| (W19_keep m ρ c main_arg1 (by decide)).trans <| (W18_keep m ρ c main_arg1 (by decide)).trans <| (W17_keep m ρ c main_arg1 (by decide)).trans <| (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W35_main_arg2 (c : Dev nD) : W35 m ρ c (Proc.devRef .tc main_arg2) = m ((c : Thread nD τ).loc main_arg2) :=
  (W35_keep m ρ c main_arg2 (by decide)).trans <| (W34_keep m ρ c main_arg2 (by decide)).trans <| (W33_keep m ρ c main_arg2 (by decide)).trans <| (W32_keep m ρ c main_arg2 (by decide)).trans <| (W31_keep m ρ c main_arg2 (by decide)).trans <| (W30_keep m ρ c main_arg2 (by decide)).trans <| (W29_keep m ρ c main_arg2 (by decide)).trans <| (W28_keep m ρ c main_arg2 (by decide)).trans <| (W27_keep m ρ c main_arg2 (by decide)).trans <| (W26_keep m ρ c main_arg2 (by decide)).trans <| (W25_keep m ρ c main_arg2 (by decide)).trans <| (W24_keep m ρ c main_arg2 (by decide)).trans <| (W23_keep m ρ c main_arg2 (by decide)).trans <| (W22_keep m ρ c main_arg2 (by decide)).trans <| (W21_keep m ρ c main_arg2 (by decide)).trans <| (W20_keep m ρ c main_arg2 (by decide)).trans <| (W19_keep m ρ c main_arg2 (by decide)).trans <| (W18_keep m ρ c main_arg2 (by decide)).trans <| (W17_keep m ρ c main_arg2 (by decide)).trans <| (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W35_main_arg3 (c : Dev nD) : W35 m ρ c (Proc.devRef .tc main_arg3) = m ((c : Thread nD τ).loc main_arg3) :=
  (W35_keep m ρ c main_arg3 (by decide)).trans <| (W34_keep m ρ c main_arg3 (by decide)).trans <| (W33_keep m ρ c main_arg3 (by decide)).trans <| (W32_keep m ρ c main_arg3 (by decide)).trans <| (W31_keep m ρ c main_arg3 (by decide)).trans <| (W30_keep m ρ c main_arg3 (by decide)).trans <| (W29_keep m ρ c main_arg3 (by decide)).trans <| (W28_keep m ρ c main_arg3 (by decide)).trans <| (W27_keep m ρ c main_arg3 (by decide)).trans <| (W26_keep m ρ c main_arg3 (by decide)).trans <| (W25_keep m ρ c main_arg3 (by decide)).trans <| (W24_keep m ρ c main_arg3 (by decide)).trans <| (W23_keep m ρ c main_arg3 (by decide)).trans <| (W22_keep m ρ c main_arg3 (by decide)).trans <| (W21_keep m ρ c main_arg3 (by decide)).trans <| (W20_keep m ρ c main_arg3 (by decide)).trans <| (W19_keep m ρ c main_arg3 (by decide)).trans <| (W18_keep m ρ c main_arg3 (by decide)).trans <| (W17_keep m ρ c main_arg3 (by decide)).trans <| (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W35_main_arg4 (c : Dev nD) : W35 m ρ c (Proc.devRef .tc main_arg4) = m ((c : Thread nD τ).loc main_arg4) :=
  (W35_keep m ρ c main_arg4 (by decide)).trans <| (W34_keep m ρ c main_arg4 (by decide)).trans <| (W33_keep m ρ c main_arg4 (by decide)).trans <| (W32_keep m ρ c main_arg4 (by decide)).trans <| (W31_keep m ρ c main_arg4 (by decide)).trans <| (W30_keep m ρ c main_arg4 (by decide)).trans <| (W29_keep m ρ c main_arg4 (by decide)).trans <| (W28_keep m ρ c main_arg4 (by decide)).trans <| (W27_keep m ρ c main_arg4 (by decide)).trans <| (W26_keep m ρ c main_arg4 (by decide)).trans <| (W25_keep m ρ c main_arg4 (by decide)).trans <| (W24_keep m ρ c main_arg4 (by decide)).trans <| (W23_keep m ρ c main_arg4 (by decide)).trans <| (W22_keep m ρ c main_arg4 (by decide)).trans <| (W21_keep m ρ c main_arg4 (by decide)).trans <| (W20_keep m ρ c main_arg4 (by decide)).trans <| (W19_keep m ρ c main_arg4 (by decide)).trans <| (W18_keep m ρ c main_arg4 (by decide)).trans <| (W17_keep m ρ c main_arg4 (by decide)).trans <| (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W35_main_arg5 (c : Dev nD) : W35 m ρ c (Proc.devRef .tc main_arg5) = m ((c : Thread nD τ).loc main_arg5) :=
  (W35_keep m ρ c main_arg5 (by decide)).trans <| (W34_keep m ρ c main_arg5 (by decide)).trans <| (W33_keep m ρ c main_arg5 (by decide)).trans <| (W32_keep m ρ c main_arg5 (by decide)).trans <| (W31_keep m ρ c main_arg5 (by decide)).trans <| (W30_keep m ρ c main_arg5 (by decide)).trans <| (W29_keep m ρ c main_arg5 (by decide)).trans <| (W28_keep m ρ c main_arg5 (by decide)).trans <| (W27_keep m ρ c main_arg5 (by decide)).trans <| (W26_keep m ρ c main_arg5 (by decide)).trans <| (W25_keep m ρ c main_arg5 (by decide)).trans <| (W24_keep m ρ c main_arg5 (by decide)).trans <| (W23_keep m ρ c main_arg5 (by decide)).trans <| (W22_keep m ρ c main_arg5 (by decide)).trans <| (W21_keep m ρ c main_arg5 (by decide)).trans <| (W20_keep m ρ c main_arg5 (by decide)).trans <| (W19_keep m ρ c main_arg5 (by decide)).trans <| (W18_keep m ρ c main_arg5 (by decide)).trans <| (W17_keep m ρ c main_arg5 (by decide)).trans <| (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W35_main_arg6 (c : Dev nD) : W35 m ρ c (Proc.devRef .tc main_arg6) = m ((c : Thread nD τ).loc main_arg6) :=
  (W35_keep m ρ c main_arg6 (by decide)).trans <| (W34_keep m ρ c main_arg6 (by decide)).trans <| (W33_keep m ρ c main_arg6 (by decide)).trans <| (W32_keep m ρ c main_arg6 (by decide)).trans <| (W31_keep m ρ c main_arg6 (by decide)).trans <| (W30_keep m ρ c main_arg6 (by decide)).trans <| (W29_keep m ρ c main_arg6 (by decide)).trans <| (W28_keep m ρ c main_arg6 (by decide)).trans <| (W27_keep m ρ c main_arg6 (by decide)).trans <| (W26_keep m ρ c main_arg6 (by decide)).trans <| (W25_keep m ρ c main_arg6 (by decide)).trans <| (W24_keep m ρ c main_arg6 (by decide)).trans <| (W23_keep m ρ c main_arg6 (by decide)).trans <| (W22_keep m ρ c main_arg6 (by decide)).trans <| (W21_keep m ρ c main_arg6 (by decide)).trans <| (W20_keep m ρ c main_arg6 (by decide)).trans <| (W19_keep m ρ c main_arg6 (by decide)).trans <| (W18_keep m ρ c main_arg6 (by decide)).trans <| (W17_keep m ρ c main_arg6 (by decide)).trans <| (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W35_main_arg7 (c : Dev nD) : W35 m ρ c (Proc.devRef .tc main_arg7) = m ((c : Thread nD τ).loc main_arg7) :=
  (W35_keep m ρ c main_arg7 (by decide)).trans <| (W34_keep m ρ c main_arg7 (by decide)).trans <| (W33_keep m ρ c main_arg7 (by decide)).trans <| (W32_keep m ρ c main_arg7 (by decide)).trans <| (W31_keep m ρ c main_arg7 (by decide)).trans <| (W30_keep m ρ c main_arg7 (by decide)).trans <| (W29_keep m ρ c main_arg7 (by decide)).trans <| (W28_keep m ρ c main_arg7 (by decide)).trans <| (W27_keep m ρ c main_arg7 (by decide)).trans <| (W26_keep m ρ c main_arg7 (by decide)).trans <| (W25_keep m ρ c main_arg7 (by decide)).trans <| (W24_keep m ρ c main_arg7 (by decide)).trans <| (W23_keep m ρ c main_arg7 (by decide)).trans <| (W22_keep m ρ c main_arg7 (by decide)).trans <| (W21_keep m ρ c main_arg7 (by decide)).trans <| (W20_keep m ρ c main_arg7 (by decide)).trans <| (W19_keep m ρ c main_arg7 (by decide)).trans <| (W18_keep m ρ c main_arg7 (by decide)).trans <| (W17_keep m ρ c main_arg7 (by decide)).trans <| (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W35_main_arg8 (c : Dev nD) : W35 m ρ c (Proc.devRef .tc main_arg8) = m ((c : Thread nD τ).loc main_arg8) :=
  (W35_keep m ρ c main_arg8 (by decide)).trans <| (W34_keep m ρ c main_arg8 (by decide)).trans <| (W33_keep m ρ c main_arg8 (by decide)).trans <| (W32_keep m ρ c main_arg8 (by decide)).trans <| (W31_keep m ρ c main_arg8 (by decide)).trans <| (W30_keep m ρ c main_arg8 (by decide)).trans <| (W29_keep m ρ c main_arg8 (by decide)).trans <| (W28_keep m ρ c main_arg8 (by decide)).trans <| (W27_keep m ρ c main_arg8 (by decide)).trans <| (W26_keep m ρ c main_arg8 (by decide)).trans <| (W25_keep m ρ c main_arg8 (by decide)).trans <| (W24_keep m ρ c main_arg8 (by decide)).trans <| (W23_keep m ρ c main_arg8 (by decide)).trans <| (W22_keep m ρ c main_arg8 (by decide)).trans <| (W21_keep m ρ c main_arg8 (by decide)).trans <| (W20_keep m ρ c main_arg8 (by decide)).trans <| (W19_keep m ρ c main_arg8 (by decide)).trans <| (W18_keep m ρ c main_arg8 (by decide)).trans <| (W17_keep m ρ c main_arg8 (by decide)).trans <| (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W35_main_arg9 (c : Dev nD) : W35 m ρ c (Proc.devRef .tc main_arg9) = m ((c : Thread nD τ).loc main_arg9) :=
  (W35_keep m ρ c main_arg9 (by decide)).trans <| (W34_keep m ρ c main_arg9 (by decide)).trans <| (W33_keep m ρ c main_arg9 (by decide)).trans <| (W32_keep m ρ c main_arg9 (by decide)).trans <| (W31_keep m ρ c main_arg9 (by decide)).trans <| (W30_keep m ρ c main_arg9 (by decide)).trans <| (W29_keep m ρ c main_arg9 (by decide)).trans <| (W28_keep m ρ c main_arg9 (by decide)).trans <| (W27_keep m ρ c main_arg9 (by decide)).trans <| (W26_keep m ρ c main_arg9 (by decide)).trans <| (W25_keep m ρ c main_arg9 (by decide)).trans <| (W24_keep m ρ c main_arg9 (by decide)).trans <| (W23_keep m ρ c main_arg9 (by decide)).trans <| (W22_keep m ρ c main_arg9 (by decide)).trans <| (W21_keep m ρ c main_arg9 (by decide)).trans <| (W20_keep m ρ c main_arg9 (by decide)).trans <| (W19_keep m ρ c main_arg9 (by decide)).trans <| (W18_keep m ρ c main_arg9 (by decide)).trans <| (W17_keep m ρ c main_arg9 (by decide)).trans <| (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W35_main_arg10 (c : Dev nD) : W35 m ρ c (Proc.devRef .tc main_arg10) = m ((c : Thread nD τ).loc main_arg10) :=
  (W35_keep m ρ c main_arg10 (by decide)).trans <| (W34_keep m ρ c main_arg10 (by decide)).trans <| (W33_keep m ρ c main_arg10 (by decide)).trans <| (W32_keep m ρ c main_arg10 (by decide)).trans <| (W31_keep m ρ c main_arg10 (by decide)).trans <| (W30_keep m ρ c main_arg10 (by decide)).trans <| (W29_keep m ρ c main_arg10 (by decide)).trans <| (W28_keep m ρ c main_arg10 (by decide)).trans <| (W27_keep m ρ c main_arg10 (by decide)).trans <| (W26_keep m ρ c main_arg10 (by decide)).trans <| (W25_keep m ρ c main_arg10 (by decide)).trans <| (W24_keep m ρ c main_arg10 (by decide)).trans <| (W23_keep m ρ c main_arg10 (by decide)).trans <| (W22_keep m ρ c main_arg10 (by decide)).trans <| (W21_keep m ρ c main_arg10 (by decide)).trans <| (W20_keep m ρ c main_arg10 (by decide)).trans <| (W19_keep m ρ c main_arg10 (by decide)).trans <| (W18_keep m ρ c main_arg10 (by decide)).trans <| (W17_keep m ρ c main_arg10 (by decide)).trans <| (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W35_main_arg11 (c : Dev nD) : W35 m ρ c (Proc.devRef .tc main_arg11) = m ((c : Thread nD τ).loc main_arg11) :=
  (W35_keep m ρ c main_arg11 (by decide)).trans <| (W34_keep m ρ c main_arg11 (by decide)).trans <| (W33_keep m ρ c main_arg11 (by decide)).trans <| (W32_keep m ρ c main_arg11 (by decide)).trans <| (W31_keep m ρ c main_arg11 (by decide)).trans <| (W30_keep m ρ c main_arg11 (by decide)).trans <| (W29_keep m ρ c main_arg11 (by decide)).trans <| (W28_keep m ρ c main_arg11 (by decide)).trans <| (W27_keep m ρ c main_arg11 (by decide)).trans <| (W26_keep m ρ c main_arg11 (by decide)).trans <| (W25_keep m ρ c main_arg11 (by decide)).trans <| (W24_keep m ρ c main_arg11 (by decide)).trans <| (W23_keep m ρ c main_arg11 (by decide)).trans <| (W22_keep m ρ c main_arg11 (by decide)).trans <| (W21_keep m ρ c main_arg11 (by decide)).trans <| (W20_keep m ρ c main_arg11 (by decide)).trans <| (W19_keep m ρ c main_arg11 (by decide)).trans <| (W18_keep m ρ c main_arg11 (by decide)).trans <| (W17_keep m ρ c main_arg11 (by decide)).trans <| (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W35_main_arg12 (c : Dev nD) : W35 m ρ c (Proc.devRef .tc main_arg12) = m ((c : Thread nD τ).loc main_arg12) :=
  (W35_keep m ρ c main_arg12 (by decide)).trans <| (W34_keep m ρ c main_arg12 (by decide)).trans <| (W33_keep m ρ c main_arg12 (by decide)).trans <| (W32_keep m ρ c main_arg12 (by decide)).trans <| (W31_keep m ρ c main_arg12 (by decide)).trans <| (W30_keep m ρ c main_arg12 (by decide)).trans <| (W29_keep m ρ c main_arg12 (by decide)).trans <| (W28_keep m ρ c main_arg12 (by decide)).trans <| (W27_keep m ρ c main_arg12 (by decide)).trans <| (W26_keep m ρ c main_arg12 (by decide)).trans <| (W25_keep m ρ c main_arg12 (by decide)).trans <| (W24_keep m ρ c main_arg12 (by decide)).trans <| (W23_keep m ρ c main_arg12 (by decide)).trans <| (W22_keep m ρ c main_arg12 (by decide)).trans <| (W21_keep m ρ c main_arg12 (by decide)).trans <| (W20_keep m ρ c main_arg12 (by decide)).trans <| (W19_keep m ρ c main_arg12 (by decide)).trans <| (W18_keep m ρ c main_arg12 (by decide)).trans <| (W17_keep m ρ c main_arg12 (by decide)).trans <| (W16_keep m ρ c main_arg12 (by decide)).trans <| (W15_keep m ρ c main_arg12 (by decide)).trans <| (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W35_main_arg13 (c : Dev nD) : W35 m ρ c (Proc.devRef .tc main_arg13) = m ((c : Thread nD τ).loc main_arg13) :=
  (W35_keep m ρ c main_arg13 (by decide)).trans <| (W34_keep m ρ c main_arg13 (by decide)).trans <| (W33_keep m ρ c main_arg13 (by decide)).trans <| (W32_keep m ρ c main_arg13 (by decide)).trans <| (W31_keep m ρ c main_arg13 (by decide)).trans <| (W30_keep m ρ c main_arg13 (by decide)).trans <| (W29_keep m ρ c main_arg13 (by decide)).trans <| (W28_keep m ρ c main_arg13 (by decide)).trans <| (W27_keep m ρ c main_arg13 (by decide)).trans <| (W26_keep m ρ c main_arg13 (by decide)).trans <| (W25_keep m ρ c main_arg13 (by decide)).trans <| (W24_keep m ρ c main_arg13 (by decide)).trans <| (W23_keep m ρ c main_arg13 (by decide)).trans <| (W22_keep m ρ c main_arg13 (by decide)).trans <| (W21_keep m ρ c main_arg13 (by decide)).trans <| (W20_keep m ρ c main_arg13 (by decide)).trans <| (W19_keep m ρ c main_arg13 (by decide)).trans <| (W18_keep m ρ c main_arg13 (by decide)).trans <| (W17_keep m ρ c main_arg13 (by decide)).trans <| (W16_keep m ρ c main_arg13 (by decide)).trans <| (W15_keep m ρ c main_arg13 (by decide)).trans <| (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W35_main_arg14 (c : Dev nD) : W35 m ρ c (Proc.devRef .tc main_arg14) = m ((c : Thread nD τ).loc main_arg14) :=
  (W35_keep m ρ c main_arg14 (by decide)).trans <| (W34_keep m ρ c main_arg14 (by decide)).trans <| (W33_keep m ρ c main_arg14 (by decide)).trans <| (W32_keep m ρ c main_arg14 (by decide)).trans <| (W31_keep m ρ c main_arg14 (by decide)).trans <| (W30_keep m ρ c main_arg14 (by decide)).trans <| (W29_keep m ρ c main_arg14 (by decide)).trans <| (W28_keep m ρ c main_arg14 (by decide)).trans <| (W27_keep m ρ c main_arg14 (by decide)).trans <| (W26_keep m ρ c main_arg14 (by decide)).trans <| (W25_keep m ρ c main_arg14 (by decide)).trans <| (W24_keep m ρ c main_arg14 (by decide)).trans <| (W23_keep m ρ c main_arg14 (by decide)).trans <| (W22_keep m ρ c main_arg14 (by decide)).trans <| (W21_keep m ρ c main_arg14 (by decide)).trans <| (W20_keep m ρ c main_arg14 (by decide)).trans <| (W19_keep m ρ c main_arg14 (by decide)).trans <| (W18_keep m ρ c main_arg14 (by decide)).trans <| (W17_keep m ρ c main_arg14 (by decide)).trans <| (W16_keep m ρ c main_arg14 (by decide)).trans <| (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl
theorem W35_main_arg15 (c : Dev nD) : W35 m ρ c (Proc.devRef .tc main_arg15) = m ((c : Thread nD τ).loc main_arg15) :=
  (W35_keep m ρ c main_arg15 (by decide)).trans <| (W34_keep m ρ c main_arg15 (by decide)).trans <| (W33_keep m ρ c main_arg15 (by decide)).trans <| (W32_keep m ρ c main_arg15 (by decide)).trans <| (W31_keep m ρ c main_arg15 (by decide)).trans <| (W30_keep m ρ c main_arg15 (by decide)).trans <| (W29_keep m ρ c main_arg15 (by decide)).trans <| (W28_keep m ρ c main_arg15 (by decide)).trans <| (W27_keep m ρ c main_arg15 (by decide)).trans <| (W26_keep m ρ c main_arg15 (by decide)).trans <| (W25_keep m ρ c main_arg15 (by decide)).trans <| (W24_keep m ρ c main_arg15 (by decide)).trans <| (W23_keep m ρ c main_arg15 (by decide)).trans <| (W22_keep m ρ c main_arg15 (by decide)).trans <| (W21_keep m ρ c main_arg15 (by decide)).trans <| (W20_keep m ρ c main_arg15 (by decide)).trans <| (W19_keep m ρ c main_arg15 (by decide)).trans <| (W18_keep m ρ c main_arg15 (by decide)).trans <| (W17_keep m ρ c main_arg15 (by decide)).trans <| (W16_keep m ρ c main_arg15 (by decide)).trans <| (W15_keep m ρ c main_arg15 (by decide)).trans <| (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans rfl
theorem W35_main_arg16 (c : Dev nD) : W35 m ρ c (Proc.devRef .tc main_arg16) = m ((c : Thread nD τ).loc main_arg16) :=
  (W35_keep m ρ c main_arg16 (by decide)).trans <| (W34_keep m ρ c main_arg16 (by decide)).trans <| (W33_keep m ρ c main_arg16 (by decide)).trans <| (W32_keep m ρ c main_arg16 (by decide)).trans <| (W31_keep m ρ c main_arg16 (by decide)).trans <| (W30_keep m ρ c main_arg16 (by decide)).trans <| (W29_keep m ρ c main_arg16 (by decide)).trans <| (W28_keep m ρ c main_arg16 (by decide)).trans <| (W27_keep m ρ c main_arg16 (by decide)).trans <| (W26_keep m ρ c main_arg16 (by decide)).trans <| (W25_keep m ρ c main_arg16 (by decide)).trans <| (W24_keep m ρ c main_arg16 (by decide)).trans <| (W23_keep m ρ c main_arg16 (by decide)).trans <| (W22_keep m ρ c main_arg16 (by decide)).trans <| (W21_keep m ρ c main_arg16 (by decide)).trans <| (W20_keep m ρ c main_arg16 (by decide)).trans <| (W19_keep m ρ c main_arg16 (by decide)).trans <| (W18_keep m ρ c main_arg16 (by decide)).trans <| (W17_keep m ρ c main_arg16 (by decide)).trans <| (W16_keep m ρ c main_arg16 (by decide)).trans <| (W15_keep m ρ c main_arg16 (by decide)).trans <| (W14_keep m ρ c main_arg16 (by decide)).trans <| (W13_keep m ρ c main_arg16 (by decide)).trans <| (W12_keep m ρ c main_arg16 (by decide)).trans <| (W11_keep m ρ c main_arg16 (by decide)).trans <| (W10_keep m ρ c main_arg16 (by decide)).trans <| (W9_keep m ρ c main_arg16 (by decide)).trans <| (W8_keep m ρ c main_arg16 (by decide)).trans <| (W7_keep m ρ c main_arg16 (by decide)).trans <| (W6_keep m ρ c main_arg16 (by decide)).trans <| (W5_keep m ρ c main_arg16 (by decide)).trans <| (W4_keep m ρ c main_arg16 (by decide)).trans <| (W3_keep m ρ c main_arg16 (by decide)).trans <| (W2_keep m ρ c main_arg16 (by decide)).trans <| (W1_keep m ρ c main_arg16 (by decide)).trans rfl
theorem W35_main_arg17 (c : Dev nD) : W35 m ρ c (Proc.devRef .tc main_arg17) = m ((c : Thread nD τ).loc main_arg17) :=
  (W35_keep m ρ c main_arg17 (by decide)).trans <| (W34_keep m ρ c main_arg17 (by decide)).trans <| (W33_keep m ρ c main_arg17 (by decide)).trans <| (W32_keep m ρ c main_arg17 (by decide)).trans <| (W31_keep m ρ c main_arg17 (by decide)).trans <| (W30_keep m ρ c main_arg17 (by decide)).trans <| (W29_keep m ρ c main_arg17 (by decide)).trans <| (W28_keep m ρ c main_arg17 (by decide)).trans <| (W27_keep m ρ c main_arg17 (by decide)).trans <| (W26_keep m ρ c main_arg17 (by decide)).trans <| (W25_keep m ρ c main_arg17 (by decide)).trans <| (W24_keep m ρ c main_arg17 (by decide)).trans <| (W23_keep m ρ c main_arg17 (by decide)).trans <| (W22_keep m ρ c main_arg17 (by decide)).trans <| (W21_keep m ρ c main_arg17 (by decide)).trans <| (W20_keep m ρ c main_arg17 (by decide)).trans <| (W19_keep m ρ c main_arg17 (by decide)).trans <| (W18_keep m ρ c main_arg17 (by decide)).trans <| (W17_keep m ρ c main_arg17 (by decide)).trans <| (W16_keep m ρ c main_arg17 (by decide)).trans <| (W15_keep m ρ c main_arg17 (by decide)).trans <| (W14_keep m ρ c main_arg17 (by decide)).trans <| (W13_keep m ρ c main_arg17 (by decide)).trans <| (W12_keep m ρ c main_arg17 (by decide)).trans <| (W11_keep m ρ c main_arg17 (by decide)).trans <| (W10_keep m ρ c main_arg17 (by decide)).trans <| (W9_keep m ρ c main_arg17 (by decide)).trans <| (W8_keep m ρ c main_arg17 (by decide)).trans <| (W7_keep m ρ c main_arg17 (by decide)).trans <| (W6_keep m ρ c main_arg17 (by decide)).trans <| (W5_keep m ρ c main_arg17 (by decide)).trans <| (W4_keep m ρ c main_arg17 (by decide)).trans <| (W3_keep m ρ c main_arg17 (by decide)).trans <| (W2_keep m ρ c main_arg17 (by decide)).trans <| (W1_keep m ρ c main_arg17 (by decide)).trans rfl
theorem W35_main_arg18 (c : Dev nD) : W35 m ρ c (Proc.devRef .tc main_arg18) = m ((c : Thread nD τ).loc main_arg18) :=
  (W35_keep m ρ c main_arg18 (by decide)).trans <| (W34_keep m ρ c main_arg18 (by decide)).trans <| (W33_keep m ρ c main_arg18 (by decide)).trans <| (W32_keep m ρ c main_arg18 (by decide)).trans <| (W31_keep m ρ c main_arg18 (by decide)).trans <| (W30_keep m ρ c main_arg18 (by decide)).trans <| (W29_keep m ρ c main_arg18 (by decide)).trans <| (W28_keep m ρ c main_arg18 (by decide)).trans <| (W27_keep m ρ c main_arg18 (by decide)).trans <| (W26_keep m ρ c main_arg18 (by decide)).trans <| (W25_keep m ρ c main_arg18 (by decide)).trans <| (W24_keep m ρ c main_arg18 (by decide)).trans <| (W23_keep m ρ c main_arg18 (by decide)).trans <| (W22_keep m ρ c main_arg18 (by decide)).trans <| (W21_keep m ρ c main_arg18 (by decide)).trans <| (W20_keep m ρ c main_arg18 (by decide)).trans <| (W19_keep m ρ c main_arg18 (by decide)).trans <| (W18_keep m ρ c main_arg18 (by decide)).trans <| (W17_keep m ρ c main_arg18 (by decide)).trans <| (W16_keep m ρ c main_arg18 (by decide)).trans <| (W15_keep m ρ c main_arg18 (by decide)).trans <| (W14_keep m ρ c main_arg18 (by decide)).trans <| (W13_keep m ρ c main_arg18 (by decide)).trans <| (W12_keep m ρ c main_arg18 (by decide)).trans <| (W11_keep m ρ c main_arg18 (by decide)).trans <| (W10_keep m ρ c main_arg18 (by decide)).trans <| (W9_keep m ρ c main_arg18 (by decide)).trans <| (W8_keep m ρ c main_arg18 (by decide)).trans <| (W7_keep m ρ c main_arg18 (by decide)).trans <| (W6_keep m ρ c main_arg18 (by decide)).trans <| (W5_keep m ρ c main_arg18 (by decide)).trans <| (W4_keep m ρ c main_arg18 (by decide)).trans <| (W3_keep m ρ c main_arg18 (by decide)).trans <| (W2_keep m ρ c main_arg18 (by decide)).trans <| (W1_keep m ρ c main_arg18 (by decide)).trans rfl
theorem W35_main_arg19 (c : Dev nD) : W35 m ρ c (Proc.devRef .tc main_arg19) = m ((c : Thread nD τ).loc main_arg19) :=
  (W35_keep m ρ c main_arg19 (by decide)).trans <| (W34_keep m ρ c main_arg19 (by decide)).trans <| (W33_keep m ρ c main_arg19 (by decide)).trans <| (W32_keep m ρ c main_arg19 (by decide)).trans <| (W31_keep m ρ c main_arg19 (by decide)).trans <| (W30_keep m ρ c main_arg19 (by decide)).trans <| (W29_keep m ρ c main_arg19 (by decide)).trans <| (W28_keep m ρ c main_arg19 (by decide)).trans <| (W27_keep m ρ c main_arg19 (by decide)).trans <| (W26_keep m ρ c main_arg19 (by decide)).trans <| (W25_keep m ρ c main_arg19 (by decide)).trans <| (W24_keep m ρ c main_arg19 (by decide)).trans <| (W23_keep m ρ c main_arg19 (by decide)).trans <| (W22_keep m ρ c main_arg19 (by decide)).trans <| (W21_keep m ρ c main_arg19 (by decide)).trans <| (W20_keep m ρ c main_arg19 (by decide)).trans <| (W19_keep m ρ c main_arg19 (by decide)).trans <| (W18_keep m ρ c main_arg19 (by decide)).trans <| (W17_keep m ρ c main_arg19 (by decide)).trans <| (W16_keep m ρ c main_arg19 (by decide)).trans <| (W15_keep m ρ c main_arg19 (by decide)).trans <| (W14_keep m ρ c main_arg19 (by decide)).trans <| (W13_keep m ρ c main_arg19 (by decide)).trans <| (W12_keep m ρ c main_arg19 (by decide)).trans <| (W11_keep m ρ c main_arg19 (by decide)).trans <| (W10_keep m ρ c main_arg19 (by decide)).trans <| (W9_keep m ρ c main_arg19 (by decide)).trans <| (W8_keep m ρ c main_arg19 (by decide)).trans <| (W7_keep m ρ c main_arg19 (by decide)).trans <| (W6_keep m ρ c main_arg19 (by decide)).trans <| (W5_keep m ρ c main_arg19 (by decide)).trans <| (W4_keep m ρ c main_arg19 (by decide)).trans <| (W3_keep m ρ c main_arg19 (by decide)).trans <| (W2_keep m ρ c main_arg19 (by decide)).trans <| (W1_keep m ρ c main_arg19 (by decide)).trans rfl
theorem W35_main_arg20 (c : Dev nD) : W35 m ρ c (Proc.devRef .tc main_arg20) = m ((c : Thread nD τ).loc main_arg20) :=
  (W35_keep m ρ c main_arg20 (by decide)).trans <| (W34_keep m ρ c main_arg20 (by decide)).trans <| (W33_keep m ρ c main_arg20 (by decide)).trans <| (W32_keep m ρ c main_arg20 (by decide)).trans <| (W31_keep m ρ c main_arg20 (by decide)).trans <| (W30_keep m ρ c main_arg20 (by decide)).trans <| (W29_keep m ρ c main_arg20 (by decide)).trans <| (W28_keep m ρ c main_arg20 (by decide)).trans <| (W27_keep m ρ c main_arg20 (by decide)).trans <| (W26_keep m ρ c main_arg20 (by decide)).trans <| (W25_keep m ρ c main_arg20 (by decide)).trans <| (W24_keep m ρ c main_arg20 (by decide)).trans <| (W23_keep m ρ c main_arg20 (by decide)).trans <| (W22_keep m ρ c main_arg20 (by decide)).trans <| (W21_keep m ρ c main_arg20 (by decide)).trans <| (W20_keep m ρ c main_arg20 (by decide)).trans <| (W19_keep m ρ c main_arg20 (by decide)).trans <| (W18_keep m ρ c main_arg20 (by decide)).trans <| (W17_keep m ρ c main_arg20 (by decide)).trans <| (W16_keep m ρ c main_arg20 (by decide)).trans <| (W15_keep m ρ c main_arg20 (by decide)).trans <| (W14_keep m ρ c main_arg20 (by decide)).trans <| (W13_keep m ρ c main_arg20 (by decide)).trans <| (W12_keep m ρ c main_arg20 (by decide)).trans <| (W11_keep m ρ c main_arg20 (by decide)).trans <| (W10_keep m ρ c main_arg20 (by decide)).trans <| (W9_keep m ρ c main_arg20 (by decide)).trans <| (W8_keep m ρ c main_arg20 (by decide)).trans <| (W7_keep m ρ c main_arg20 (by decide)).trans <| (W6_keep m ρ c main_arg20 (by decide)).trans <| (W5_keep m ρ c main_arg20 (by decide)).trans <| (W4_keep m ρ c main_arg20 (by decide)).trans <| (W3_keep m ρ c main_arg20 (by decide)).trans <| (W2_keep m ρ c main_arg20 (by decide)).trans <| (W1_keep m ρ c main_arg20 (by decide)).trans rfl

/-! ## The proof data family and the thread state -/

/-- No pipeline has a prefetched table. -/
abbrev adm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
  | ⟨5, _⟩ => fun c => dat5 (V21 m ρ) c
  | ⟨6, _⟩ => fun c => dat6 (V23 m ρ) c
  | ⟨7, _⟩ => fun c => dat7 (V25 m ρ) c
  | ⟨8, _⟩ => fun c => dat8 (V27 m ρ) c
  | ⟨9, _⟩ => fun c => dat9 (V33 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W35 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V11 m ρ) c)
    unfold Pipeline.ΦA
    iintro ⟨Hp, -, Hr⟩
    isplitl [Hr]; · iexact Hr
    iexact Hp
  hout c := by
    rw [Pipeline.ownSems0_none]
    refine (hout3 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W13`, left at `W14`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V13 m ρ) c)
    unfold Pipeline.ΦA
    iintro ⟨Hp, -, Hr⟩
    isplitl [Hr]; · iexact Hr
    iexact Hp
  hout c := by
    rw [Pipeline.ownSems0_none]
    refine (hout4 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W21`, left at `W22`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W23`, left at `W24`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W25`, left at `W26`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V25 m ρ) c).loose
  hwaits := Pipeline.hwaits_of_owed_zero _ _ _ _ L lv 7 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec7 c (V25 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (V25 m ρ) c)
    unfold Pipeline.ΦA
    iintro ⟨Hp, -, Hr⟩
    isplitl [Hr]; · iexact Hr
    iexact Hp
  hout c := by
    rw [Pipeline.ownSems0_none]
    refine (hout7 (V25 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V25 m ρ c) (V26 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W27`, left at `W28`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V27 m ρ) c).loose
  hwaits := Pipeline.hwaits_of_owed_zero _ _ _ _ L lv 8 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec8 c (V27 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (V27 m ρ) c)
    unfold Pipeline.ΦA
    iintro ⟨Hp, -, Hr⟩
    isplitl [Hr]; · iexact Hr
    iexact Hp
  hout c := by
    rw [Pipeline.ownSems0_none]
    refine (hout8 (V27 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V27 m ρ c) (V28 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W33`, left at `W34`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V33 m ρ) c).loose
  hwaits := Pipeline.hwaits_of_owed_zero _ _ _ _ L lv 9 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec9 c (V33 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V33 m ρ c) (V34 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 35 items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)),
    .host (hseg hostOps5_2 hostOps5_2_sub hostOps5_2_fresh (W16 m ρ)),
    .host (hseg hostOps5_3 hostOps5_3_sub hostOps5_3_fresh (W17 m ρ)),
    .host (hseg hostOps5_4 hostOps5_4_sub hostOps5_4_fresh (W18 m ρ)),
    .host (hseg hostOps5_5 hostOps5_5_sub hostOps5_5_fresh (W19 m ρ)),
    .host (hseg hostOps5_6 hostOps5_6_sub hostOps5_6_fresh (W20 m ρ)),
    .region (reg5 m ρ),
    .host (hseg hostOps6 hostOps6_sub hostOps6_fresh (W22 m ρ)),
    .region (reg6 m ρ),
    .host (hseg hostOps7 hostOps7_sub hostOps7_fresh (W24 m ρ)),
    .region (reg7 m ρ),
    .host (hseg hostOps8 hostOps8_sub hostOps8_fresh (W26 m ρ)),
    .region (reg8 m ρ),
    .host (hseg hostOps9 hostOps9_sub hostOps9_fresh (W28 m ρ)),
    .host (hseg hostOps9_1 hostOps9_1_sub hostOps9_1_fresh (W29 m ρ)),
    .host (hseg hostOps9_2 hostOps9_2_sub hostOps9_2_fresh (W30 m ρ)),
    .host (hseg hostOps9_3 hostOps9_3_sub hostOps9_3_fresh (W31 m ρ)),
    .host (hseg hostOps9_4 hostOps9_4_sub hostOps9_4_fresh (W32 m ρ)),
    .region (reg9 m ρ),
    .host (hseg hostOps10 hostOps10_sub hostOps10_fresh (W34 m ρ)) ]

/-- The last host stretch leaves the thread state at the final contents beside the core owing nothing. -/
theorem last_chain (c : Dev nD) :
    iprop(StableHlo.held (c : Thread nD τ) (Pipeline.ucRefs τ sig) (W35 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of @main terminates, nothing faulting, and
    every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10 ] from rfl]
      first | with_reducible exact .rfl | exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h => h)

/-- THE FRAME: every argument array ends as launched, and the result buffer at the last boundary's contents. -/
theorem frame_value : θ_run defs (onTc (τ := τ) (main (F := F))) ⟨m, fun _ => 0, ρ⟩ (fun r => ∀ c : Dev nD,
      r.2.mem ((c.tc : Thread nD τ).loc main_v201) = W35 m ρ c (Proc.devRef .tc main_v201) ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20))) :=
  (θ_run defs _ _).mono (fun r h c => ⟨h c _ (mem_uc main_v201 (by decide)),
      (h c _ (mem_uc main_arg0 (by decide))).trans (W35_main_arg0 m ρ c),
      (h c _ (mem_uc main_arg1 (by decide))).trans (W35_main_arg1 m ρ c),
      (h c _ (mem_uc main_arg2 (by decide))).trans (W35_main_arg2 m ρ c),
      (h c _ (mem_uc main_arg3 (by decide))).trans (W35_main_arg3 m ρ c),
      (h c _ (mem_uc main_arg4 (by decide))).trans (W35_main_arg4 m ρ c),
      (h c _ (mem_uc main_arg5 (by decide))).trans (W35_main_arg5 m ρ c),
      (h c _ (mem_uc main_arg6 (by decide))).trans (W35_main_arg6 m ρ c),
      (h c _ (mem_uc main_arg7 (by decide))).trans (W35_main_arg7 m ρ c),
      (h c _ (mem_uc main_arg8 (by decide))).trans (W35_main_arg8 m ρ c),
      (h c _ (mem_uc main_arg9 (by decide))).trans (W35_main_arg9 m ρ c),
      (h c _ (mem_uc main_arg10 (by decide))).trans (W35_main_arg10 m ρ c),
      (h c _ (mem_uc main_arg11 (by decide))).trans (W35_main_arg11 m ρ c),
      (h c _ (mem_uc main_arg12 (by decide))).trans (W35_main_arg12 m ρ c),
      (h c _ (mem_uc main_arg13 (by decide))).trans (W35_main_arg13 m ρ c),
      (h c _ (mem_uc main_arg14 (by decide))).trans (W35_main_arg14 m ρ c),
      (h c _ (mem_uc main_arg15 (by decide))).trans (W35_main_arg15 m ρ c),
      (h c _ (mem_uc main_arg16 (by decide))).trans (W35_main_arg16 m ρ c),
      (h c _ (mem_uc main_arg17 (by decide))).trans (W35_main_arg17 m ρ c),
      (h c _ (mem_uc main_arg18 (by decide))).trans (W35_main_arg18 m ρ c),
      (h c _ (mem_uc main_arg19 (by decide))).trans (W35_main_arg19 m ρ c),
      (h c _ (mem_uc main_arg20 (by decide))).trans (W35_main_arg20 m ρ c)⟩) (run_all m ρ)

end Cert.KernelIdeal.Hand

end
-- ==== Proof.Ref.Ops.lean ====
/- The reference program's @main as lists of host operations, in the printed order: each func.call is replaced by the callee's
   operations over that call's buffer record (a nested call likewise), and each window main_partK is cut into consecutive chunks
   of at most 40 operations (main_part0: 103 operations in opsC0 opsC1 opsC2; main_part1: 81 operations in opsC3 opsC4 opsC5; main_part2: 88 operations in opsC6 opsC7 opsC8; main_part3: 87 operations in opsC9 opsC10 opsC11; main_part4: 11 operations in opsC12).
   Per chunk: the buffers it writes (opsCk_W), and three tables with one entry an operation: every buffer touched is a TensorCore
   reference (opsCk_sub), no operation leaves a buffer undetermined (opsCk_fresh), every write lands in opsCk_W (opsCk_writes). -/
import proofs.«406228_j54073638257180_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- main_part0, operations of chunk opsC0 (35). -/
abbrev opsC0 : List (HloOp τ sig (Elt F)) :=
  [ StableHlo.binary main_arg0 main_arg3 main_v0 ((fun l r => Host.dotGeneral dot_S262144x200_S200x64_S262144x64_1_0_0_1_n_n none l r) : (⟨S262144x200, .f32⟩ : BufTy).Contents (Elt F) → (⟨S200x64, .f32⟩ : BufTy).Contents (Elt F) → (⟨S262144x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S262144x64 ![0, 1] bcast_S1x64_S262144x64_0_1 : (⟨S1x64, .f32⟩ : BufTy).Contents (Elt F) → (⟨S262144x64, .f32⟩ : BufTy).Contents (Elt F)),
    StableHlo.binary main_v0 main_v2 main_v3 (addf : (⟨S262144x64, .f32⟩ : BufTy).Contents (Elt F) → (⟨S262144x64, .f32⟩ : BufTy).Contents (Elt F) → (⟨S262144x64, .f32⟩ : BufTy).Contents (Elt F)),
    StableHlo.nullary main_cst (constant S_ .f32 0x00000000#32),
    StableHlo.binary main_v3 main_cst main_v4 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_0 (constant S_ .f32 0x48800000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3) main_call0.cst main_call0.v0 (fun x v => Host.reduceAdd x v reducesTo_S262144x64_S64_d0 h_S_),
    StableHlo.TRef.unary main_call0.v0 main_call0.v1 (broadcastInDim S1x64 ![1] bcast_S64_S1x64_1),
    StableHlo.TRef.nullary main_call0.cst_0 (constant S_ .f32 0x48800000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S262144x64 ![0, 1] bcast_S1x64_S262144x64_0_1),
    StableHlo.TRef.binary (.of main_v3) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x48800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S262144x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S262144x64 ![0, 1] bcast_S1x64_S262144x64_0_1 : (⟨S1x64, .f32⟩ : BufTy).Contents (Elt F) → (⟨S262144x64, .f32⟩ : BufTy).Contents (Elt F)),
    StableHlo.binary main_v3 main_v9 main_v10 (subf : (⟨S262144x64, .f32⟩ : BufTy).Contents (Elt F) → (⟨S262144x64, .f32⟩ : BufTy).Contents (Elt F) → (⟨S262144x64, .f32⟩ : BufTy).Contents (Elt F)) ]
/-- The buffers opsC0 writes, in order. -/
abbrev opsC0_W : List (Ref sig .tc) := [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10]
set_option maxRecDepth 8192 in
theorem opsC0_sub : (opsC0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsC0_fresh : (opsC0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC0_writes : (opsC0 : List (HloOp τ sig (Elt F))).Forall fun op => op.writes ⊆ (opsC0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part0, operations of chunk opsC1 (35). -/
abbrev opsC1 : List (HloOp τ sig (Elt F)) :=
  [ StableHlo.nullary main_cst_1 (constant S_ .f32 0x3727C5AC#32),
    StableHlo.unary main_cst_1 main_v11 (broadcastInDim S64 ![] bcast_S_S64 : (⟨S_, .f32⟩ : BufTy).Contents (Elt F) → (⟨S64, .f32⟩ : BufTy).Contents (Elt F)),
    StableHlo.binary main_v7 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.rsqrt : (⟨S64, .f32⟩ : BufTy).Contents (Elt F) → (⟨S64, .f32⟩ : BufTy).Contents (Elt F)),
    StableHlo.unary main_v13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S262144x64 ![0, 1] bcast_S1x64_S262144x64_0_1 : (⟨S1x64, .f32⟩ : BufTy).Contents (Elt F) → (⟨S262144x64, .f32⟩ : BufTy).Contents (Elt F)),
    StableHlo.binary main_v10 main_v15 main_v16 (mulf : (⟨S262144x64, .f32⟩ : BufTy).Contents (Elt F) → (⟨S262144x64, .f32⟩ : BufTy).Contents (Elt F) → (⟨S262144x64, .f32⟩ : BufTy).Contents (Elt F)),
    StableHlo.unary main_arg5 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S262144x64 ![0, 1] bcast_S1x64_S262144x64_0_1 : (⟨S1x64, .f32⟩ : BufTy).Contents (Elt F) → (⟨S262144x64, .f32⟩ : BufTy).Contents (Elt F)),
    StableHlo.binary main_v16 main_v18 main_v19 (mulf : (⟨S262144x64, .f32⟩ : BufTy).Contents (Elt F) → (⟨S262144x64, .f32⟩ : BufTy).Contents (Elt F) → (⟨S262144x64, .f32⟩ : BufTy).Contents (Elt F)),
    StableHlo.unary main_arg6 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S262144x64 ![0, 1] bcast_S1x64_S262144x64_0_1 : (⟨S1x64, .f32⟩ : BufTy).Contents (Elt F) → (⟨S262144x64, .f32⟩ : BufTy).Contents (Elt F)),
    StableHlo.binary main_v19 main_v21 main_v22 (addf : (⟨S262144x64, .f32⟩ : BufTy).Contents (Elt F) → (⟨S262144x64, .f32⟩ : BufTy).Contents (Elt F) → (⟨S262144x64, .f32⟩ : BufTy).Contents (Elt F)),
    StableHlo.unary main_arg7 main_v23 ((extractStridedSlice S1x64 ![0, 0] · slices_S2x64_S1x64_0_0) : (⟨S2x64, .f32⟩ : BufTy).Contents (Elt F) → (⟨S1x64, .f32⟩ : BufTy).Contents (Elt F)),
    StableHlo.reshape main_v23 main_v24 rfl shapeCasts_S1x64_S64,
    StableHlo.unary main_arg8 main_v25 ((extractStridedSlice S1x64 ![0, 0] · slices_S2x64_S1x64_0_0) : (⟨S2x64, .f32⟩ : BufTy).Contents (Elt F) → (⟨S1x64, .f32⟩ : BufTy).Contents (Elt F)),
    StableHlo.reshape main_v25 main_v26 rfl shapeCasts_S1x64_S64,
    StableHlo.nullary main_cst_2 (constant S_ .f32 0x00000000#32),
    StableHlo.binary main_v22 main_cst_2 main_v27 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v27 main_v28 (broadcastInDim S262144x1 ![0] bcast_S262144_S262144x1_0 : (⟨S262144, .f32⟩ : BufTy).Contents (Elt F) → (⟨S262144x1, .f32⟩ : BufTy).Contents (Elt F)),
    StableHlo.nullary main_cst_3 (constant S_ .f32 0x42800000#32),
    StableHlo.unary main_cst_3 main_v29 (broadcastInDim S262144x1 ![] bcast_S_S262144x1 : (⟨S_, .f32⟩ : BufTy).Contents (Elt F) → (⟨S262144x1, .f32⟩ : BufTy).Contents (Elt F)),
    StableHlo.binary main_v28 main_v29 main_v30 (Host.divf : (⟨S262144x1, .f32⟩ : BufTy).Contents (Elt F) → (⟨S262144x1, .f32⟩ : BufTy).Contents (Elt F) → (⟨S262144x1, .f32⟩ : BufTy).Contents (Elt F)),
    StableHlo.nullary main_c_4 (constantI S_ 32 0#32),
    StableHlo.TRef.nullary main_call1.cst (constant S_ .f32 0x00000000#32),
    StableHlo.TRef.binary (.of main_v22) main_call1.cst main_call1.v0 (fun x v => Host.reduceAdd x v reducesTo_S262144x64_S262144_d1 h_S_),
    StableHlo.TRef.unary main_call1.v0 main_call1.v1 (broadcastInDim S262144x1 ![0] bcast_S262144_S262144x1_0),
    StableHlo.TRef.nullary main_call1.cst_0 (constant S_ .f32 0x42800000#32),
    StableHlo.TRef.unary main_call1.cst_0 main_call1.v2 (broadcastInDim S262144x1 ![] bcast_S_S262144x1),
    StableHlo.TRef.binary main_call1.v1 main_call1.v2 main_call1.v3 Host.divf,
    StableHlo.TRef.unary main_call1.v3 main_call1.v4 (broadcastInDim S262144x64 ![0, 1] bcast_S262144x1_S262144x64_0_1),
    StableHlo.TRef.binary (.of main_v22) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x42800000#32) ]
/-- The buffers opsC1 writes, in order. -/
abbrev opsC1_W : List (Ref sig .tc) := [main_cst_1, main_v11, main_v12, main_v13, main_v14, main_v15, main_v16, main_v17, main_v18, main_v19, main_v20, main_v21, main_v22, main_v23, main_v24, main_v25, main_v26, main_cst_2, main_v27, main_v28, main_cst_3, main_v29, main_v30, main_c_4, main_call1_cst, main_call1_v0, main_call1_v1, main_call1_cst_0, main_call1_v2, main_call1_v3, main_call1_v4, main_call1_v5, main_call1_v6, main_call1_v7, main_call1_cst_1]
set_option maxRecDepth 8192 in
theorem opsC1_sub : (opsC1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub ..⟩
set_option maxRecDepth 8192 in
theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC1_writes : (opsC1 : List (HloOp τ sig (Elt F))).Forall fun op => op.writes ⊆ (opsC1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part0, operations of chunk opsC2 (33). -/
abbrev opsC2 : List (HloOp τ sig (Elt F)) :=
  [ StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S262144x64_S262144_d1 h_S_),
    StableHlo.TRef.unary main_call1.v9 main_call1.v10 (broadcastInDim S262144x1 ![0] bcast_S262144_S262144x1_0),
    StableHlo.TRef.unary main_call1.v8 main_call1.v11 (broadcastInDim S262144x1 ![] bcast_S_S262144x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S262144x1 ![] bcast_S_S262144x1),
    StableHlo.TRef.ternary main_call1.v13 main_call1.v12 main_call1.call0.v1 main_call1.call0.v2 (fun p a b => select (broadcastInDim S262144x1 ![] bcast_S_S262144x1 p) a b),
    StableHlo.unary main_v30 main_v32 (broadcastInDim S262144x64 ![0, 1] bcast_S262144x1_S262144x64_0_1 : (⟨S262144x1, .f32⟩ : BufTy).Contents (Elt F) → (⟨S262144x64, .f32⟩ : BufTy).Contents (Elt F)),
    StableHlo.binary main_v22 main_v32 main_v33 (subf : (⟨S262144x64, .f32⟩ : BufTy).Contents (Elt F) → (⟨S262144x64, .f32⟩ : BufTy).Contents (Elt F) → (⟨S262144x64, .f32⟩ : BufTy).Contents (Elt F)),
    StableHlo.nullary main_cst_5 (constant S_ .f32 0x3727C5AC#32),
    StableHlo.unary main_cst_5 main_v34 (broadcastInDim S262144x1 ![] bcast_S_S262144x1 : (⟨S_, .f32⟩ : BufTy).Contents (Elt F) → (⟨S262144x1, .f32⟩ : BufTy).Contents (Elt F)),
    StableHlo.binary main_v31 main_v34 main_v35 (addf : (⟨S262144x1, .f32⟩ : BufTy).Contents (Elt F) → (⟨S262144x1, .f32⟩ : BufTy).Contents (Elt F) → (⟨S262144x1, .f32⟩ : BufTy).Contents (Elt F)),
    StableHlo.unary main_v35 main_v36 (Host.rsqrt : (⟨S262144x1, .f32⟩ : BufTy).Contents (Elt F) → (⟨S262144x1, .f32⟩ : BufTy).Contents (Elt F)),
    StableHlo.unary main_v36 main_v37 (broadcastInDim S262144x64 ![0, 1] bcast_S262144x1_S262144x64_0_1 : (⟨S262144x1, .f32⟩ : BufTy).Contents (Elt F) → (⟨S262144x64, .f32⟩ : BufTy).Contents (Elt F)),
    StableHlo.binary main_v33 main_v37 main_v38 (mulf : (⟨S262144x64, .f32⟩ : BufTy).Contents (Elt F) → (⟨S262144x64, .f32⟩ : BufTy).Contents (Elt F) → (⟨S262144x64, .f32⟩ : BufTy).Contents (Elt F)),
    StableHlo.unary main_v24 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S262144x64 ![0, 1] bcast_S1x64_S262144x64_0_1 : (⟨S1x64, .f32⟩ : BufTy).Contents (Elt F) → (⟨S262144x64, .f32⟩ : BufTy).Contents (Elt F)),
    StableHlo.binary main_v38 main_v40 main_v41 (mulf : (⟨S262144x64, .f32⟩ : BufTy).Contents (Elt F) → (⟨S262144x64, .f32⟩ : BufTy).Contents (Elt F) → (⟨S262144x64, .f32⟩ : BufTy).Contents (Elt F)),
    StableHlo.unary main_v26 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S262144x64 ![0, 1] bcast_S1x64_S262144x64_0_1 : (⟨S1x64, .f32⟩ : BufTy).Contents (Elt F) → (⟨S262144x64, .f32⟩ : BufTy).Contents (Elt F)),
    StableHlo.binary main_v41 main_v43 main_v44 (addf : (⟨S262144x64, .f32⟩ : BufTy).Contents (Elt F) → (⟨S262144x64, .f32⟩ : BufTy).Contents (Elt F) → (⟨S262144x64, .f32⟩ : BufTy).Contents (Elt F)),
    StableHlo.unary main_arg9 main_v45 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v45 main_v46 rfl shapeCasts_S1x64x64_S64x64,
    StableHlo.binary main_v44 main_v46 main_v47 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg10 main_v48 ((extractStridedSlice S1x64 ![0, 0] · slices_S2x64_S1x64_0_0) : (⟨S2x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S262144x64 ![0, 1] bcast_S1x64_S262144x64_0_1 : (⟨S1x64, .f32⟩ : BufTy).Contents (Elt F) → (⟨S262144x64, .f32⟩ : BufTy).Contents (Elt F)) ]
/-- The buffers opsC2 writes, in order. -/
abbrev opsC2_W : List (Ref sig .tc) := [main_call1_v8, main_call1_cst_2, main_call1_v9, main_call1_v10, main_call1_v11, main_call1_v12, main_call1_cst_3, main_call1_v13, main_call1_cst_4, main_call1_call0_v0, main_call1_call0_v1, main_v31, main_v32, main_v33, main_cst_5, main_v34, main_v35, main_v36, main_v37, main_v38, main_v39, main_v40, main_v41, main_v42, main_v43, main_v44, main_v45, main_v46, main_v47, main_v48, main_v49, main_v50, main_v51]
set_option maxRecDepth 8192 in
theorem opsC2_sub : (opsC2 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub ..⟩
set_option maxRecDepth 8192 in
theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC2_writes : (opsC2 : List (HloOp τ sig (Elt F))).Forall fun op => op.writes ⊆ (opsC2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part1, operations of chunk opsC3 (27). -/
abbrev opsC3 : List (HloOp τ sig (Elt F)) :=
  [ StableHlo.binary main_v47 main_v51 main_v52 (addf : (⟨S262144x64, .f32⟩ : BufTy).Contents (Elt F) → (⟨S262144x64, .f32⟩ : BufTy).Contents (Elt F) → (⟨S262144x64, .f32⟩ : BufTy).Contents (Elt F)),
    StableHlo.unary main_arg11 main_v53 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v53 main_v54 rfl shapeCasts_S1x64x64_S64x64,
    StableHlo.binary main_v44 main_v54 main_v55 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg12 main_v56 ((extractStridedSlice S1x64 ![0, 0] · slices_S2x64_S1x64_0_0) : (⟨S2x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S262144x64 ![0, 1] bcast_S1x64_S262144x64_0_1 : (⟨S1x64, .f32⟩ : BufTy).Contents (Elt F) → (⟨S262144x64, .f32⟩ : BufTy).Contents (Elt F)),
    StableHlo.binary main_v55 main_v59 main_v60 (addf : (⟨S262144x64, .f32⟩ : BufTy).Contents (Elt F) → (⟨S262144x64, .f32⟩ : BufTy).Contents (Elt F) → (⟨S262144x64, .f32⟩ : BufTy).Contents (Elt F)),
    StableHlo.nullary main_c_6 (constantI S_ 32 0#32),
    StableHlo.unary main_c_6 main_v61 (broadcastInDim S2097152 ![] bcast_S_S2097152 : (⟨S_, .i32⟩ : BufTy).Contents (Elt F) → (⟨S2097152, .i32⟩ : BufTy).Contents (Elt F)),
    StableHlo.binary main_arg18 main_v61 main_v62 (cmpi .slt : (⟨S2097152, .i32⟩ : BufTy).Contents (Elt F) → (⟨S2097152, .i32⟩ : BufTy).Contents (Elt F) → (⟨S2097152, .i1⟩ : BufTy).Contents (Elt F)),
    StableHlo.nullary main_c_7 (constantI S_ 32 262144#32),
    StableHlo.unary main_c_7 main_v63 (broadcastInDim S2097152 ![] bcast_S_S2097152 : (⟨S_, .i32⟩ : BufTy).Contents (Elt F) → (⟨S2097152, .i32⟩ : BufTy).Contents (Elt F)),
    StableHlo.binary main_arg18 main_v63 main_v64 (addi : (⟨S2097152, .i32⟩ : BufTy).Contents (Elt F) → (⟨S2097152, .i32⟩ : BufTy).Contents (Elt F) → (⟨S2097152, .i32⟩ : BufTy).Contents (Elt F)),
    StableHlo.ternary main_v62 main_v64 main_arg18 main_v65 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v65 main_v66 (broadcastInDim S2097152x1 ![0] bcast_S2097152_S2097152x1_0 : (⟨S2097152, .i32⟩ : BufTy).Contents (Elt F) → (⟨S2097152x1, .i32⟩ : BufTy).Contents (Elt F)),
    StableHlo.binary main_v52 main_v66 main_v67 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg1 main_v68 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v67 main_v68 main_v69 (mulf : (⟨S2097152x64, .f32⟩ : BufTy).Contents (Elt F) → (⟨S2097152x64, .f32⟩ : BufTy).Contents (Elt F) → (⟨S2097152x64, .f32⟩ : BufTy).Contents (Elt F)),
    StableHlo.nullary main_c_8 (constantI S_ 32 0#32),
    StableHlo.unary main_c_8 main_v70 (broadcastInDim S2097152 ![] bcast_S_S2097152 : (⟨S_, .i32⟩ : BufTy).Contents (Elt F) → (⟨S2097152, .i32⟩ : BufTy).Contents (Elt F)),
    StableHlo.binary main_arg20 main_v70 main_v71 (cmpi .slt : (⟨S2097152, .i32⟩ : BufTy).Contents (Elt F) → (⟨S2097152, .i32⟩ : BufTy).Contents (Elt F) → (⟨S2097152, .i1⟩ : BufTy).Contents (Elt F)),
    StableHlo.nullary main_c_9 (constantI S_ 32 262144#32),
    StableHlo.unary main_c_9 main_v72 (broadcastInDim S2097152 ![] bcast_S_S2097152 : (⟨S_, .i32⟩ : BufTy).Contents (Elt F) → (⟨S2097152, .i32⟩ : BufTy).Contents (Elt F)),
    StableHlo.binary main_arg20 main_v72 main_v73 (addi : (⟨S2097152, .i32⟩ : BufTy).Contents (Elt F) → (⟨S2097152, .i32⟩ : BufTy).Contents (Elt F) → (⟨S2097152, .i32⟩ : BufTy).Contents (Elt F)),
    StableHlo.ternary main_v71 main_v73 main_arg20 main_v74 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)) ]
/-- The buffers opsC3 writes, in order. -/
abbrev opsC3_W : List (Ref sig .tc) := [main_v52, main_v53, main_v54, main_v55, main_v56, main_v57, main_v58, main_v59, main_v60, main_c_6, main_v61, main_v62, main_c_7, main_v63, main_v64, main_v65, main_v66, main_v67, main_v68, main_v69, main_c_8, main_v70, main_v71, main_c_9, main_v72, main_v73, main_v74]
set_option maxRecDepth 8192 in
theorem opsC3_sub : (opsC3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem opsC3_fresh : (opsC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC3_writes : (opsC3 : List (HloOp τ sig (Elt F))).Forall fun op => op.writes ⊆ (opsC3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part1, operations of chunk opsC4 (27). -/
abbrev opsC4 : List (HloOp τ sig (Elt F)) :=
  [ StableHlo.unary main_v74 main_v75 (broadcastInDim S2097152x1 ![0] bcast_S2097152_S2097152x1_0 : (⟨S2097152, .i32⟩ : BufTy).Contents (Elt F) → (⟨S2097152x1, .i32⟩ : BufTy).Contents (Elt F)),
    StableHlo.binary main_v60 main_v75 main_v76 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg2 main_v77 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v76 main_v77 main_v78 (mulf : (⟨S2097152x64, .f32⟩ : BufTy).Contents (Elt F) → (⟨S2097152x64, .f32⟩ : BufTy).Contents (Elt F) → (⟨S2097152x64, .f32⟩ : BufTy).Contents (Elt F)),
    StableHlo.nullary main_cst_10 (constant S_ .f32 0x00000000#32),
    StableHlo.unary main_cst_10 main_v79 (broadcastInDim S262144x64 ![] bcast_S_S262144x64 : (⟨S_, .f32⟩ : BufTy).Contents (Elt F) → (⟨S262144x64, .f32⟩ : BufTy).Contents (Elt F)),
    StableHlo.unary main_arg17 main_v80 (broadcastInDim S2097152x1 ![0] bcast_S2097152_S2097152x1_0 : (⟨S2097152, .i32⟩ : BufTy).Contents (Elt F) → (⟨S2097152x1, .i32⟩ : BufTy).Contents (Elt F)),
    StableHlo.ternary main_v79 main_v80 main_v69 main_v81 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    StableHlo.nullary main_cst_11 (constant S_ .f32 0x00000000#32),
    StableHlo.unary main_cst_11 main_v82 (broadcastInDim S262144x64 ![] bcast_S_S262144x64 : (⟨S_, .f32⟩ : BufTy).Contents (Elt F) → (⟨S262144x64, .f32⟩ : BufTy).Contents (Elt F)),
    StableHlo.unary main_arg19 main_v83 (broadcastInDim S2097152x1 ![0] bcast_S2097152_S2097152x1_0 : (⟨S2097152, .i32⟩ : BufTy).Contents (Elt F) → (⟨S2097152x1, .i32⟩ : BufTy).Contents (Elt F)),
    StableHlo.ternary main_v82 main_v83 main_v78 main_v84 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    StableHlo.binary main_v81 main_v84 main_v85 (addf : (⟨S262144x64, .f32⟩ : BufTy).Contents (Elt F) → (⟨S262144x64, .f32⟩ : BufTy).Contents (Elt F) → (⟨S262144x64, .f32⟩ : BufTy).Contents (Elt F)),
    StableHlo.binary main_v85 main_v44 main_v86 (addf : (⟨S262144x64, .f32⟩ : BufTy).Contents (Elt F) → (⟨S262144x64, .f32⟩ : BufTy).Contents (Elt F) → (⟨S262144x64, .f32⟩ : BufTy).Contents (Elt F)),
    StableHlo.unary main_arg13 main_v87 ((extractStridedSlice S1x64 ![0, 0] · slices_S2x64_S1x64_0_0) : (⟨S2x64, .f32⟩ : BufTy).Contents (Elt F) → (⟨S1x64, .f32⟩ : BufTy).Contents (Elt F)),
    StableHlo.reshape main_v87 main_v88 rfl shapeCasts_S1x64_S64,
    StableHlo.unary main_arg14 main_v89 ((extractStridedSlice S1x64 ![0, 0] · slices_S2x64_S1x64_0_0) : (⟨S2x64, .f32⟩ : BufTy).Contents (Elt F) → (⟨S1x64, .f32⟩ : BufTy).Contents (Elt F)),
    StableHlo.reshape main_v89 main_v90 rfl shapeCasts_S1x64_S64,
    StableHlo.nullary main_cst_12 (constant S_ .f32 0x00000000#32),
    StableHlo.binary main_v86 main_cst_12 main_v91 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_13 (constant S_ .f32 0x48800000#32),
    StableHlo.unary main_cst_13 main_v92 (broadcastInDim S64 ![] bcast_S_S64 : (⟨S_, .f32⟩ : BufTy).Contents (Elt F) → (⟨S64, .f32⟩ : BufTy).Contents (Elt F)),
    StableHlo.binary main_v91 main_v92 main_v93 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call2.cst (constant S_ .f32 0x00000000#32),
    StableHlo.TRef.binary (.of main_v86) main_call2.cst main_call2.v0 (fun x v => Host.reduceAdd x v reducesTo_S262144x64_S64_d0 h_S_),
    StableHlo.TRef.unary main_call2.v0 main_call2.v1 (broadcastInDim S1x64 ![1] bcast_S64_S1x64_1) ]
/-- The buffers opsC4 writes, in order. -/
abbrev opsC4_W : List (Ref sig .tc) := [main_v75, main_v76, main_v77, main_v78, main_cst_10, main_v79, main_v80, main_v81, main_cst_11, main_v82, main_v83, main_v84, main_v85, main_v86, main_v87, main_v88, main_v89, main_v90, main_cst_12, main_v91, main_cst_13, main_v92, main_v93, main_c_14, main_call2_cst, main_call2_v0, main_call2_v1]
set_option maxRecDepth 8192 in
theorem opsC4_sub : (opsC4 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub ..⟩
set_option maxRecDepth 8192 in
theorem opsC4_fresh : (opsC4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC4_writes : (opsC4 : List (HloOp τ sig (Elt F))).Forall fun op => op.writes ⊆ (opsC4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part1, operations of chunk opsC5 (27). -/
abbrev opsC5 : List (HloOp τ sig (Elt F)) :=
  [ StableHlo.TRef.nullary main_call2.cst_0 (constant S_ .f32 0x48800000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S262144x64 ![0, 1] bcast_S1x64_S262144x64_0_1),
    StableHlo.TRef.binary (.of main_v86) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x48800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S262144x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v93 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S262144x64 ![0, 1] bcast_S1x64_S262144x64_0_1 : (⟨S1x64, .f32⟩ : BufTy).Contents (Elt F) → (⟨S262144x64, .f32⟩ : BufTy).Contents (Elt F)),
    StableHlo.binary main_v86 main_v96 main_v97 (subf : (⟨S262144x64, .f32⟩ : BufTy).Contents (Elt F) → (⟨S262144x64, .f32⟩ : BufTy).Contents (Elt F) → (⟨S262144x64, .f32⟩ : BufTy).Contents (Elt F)),
    StableHlo.nullary main_cst_15 (constant S_ .f32 0x3727C5AC#32),
    StableHlo.unary main_cst_15 main_v98 (broadcastInDim S64 ![] bcast_S_S64 : (⟨S_, .f32⟩ : BufTy).Contents (Elt F) → (⟨S64, .f32⟩ : BufTy).Contents (Elt F)),
    StableHlo.binary main_v94 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)) ]
/-- The buffers opsC5 writes, in order. -/
abbrev opsC5_W : List (Ref sig .tc) := [main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v94, main_v95, main_v96, main_v97, main_cst_15, main_v98, main_v99, main_v100, main_v101]
set_option maxRecDepth 8192 in
theorem opsC5_sub : (opsC5 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩
set_option maxRecDepth 8192 in
theorem opsC5_fresh : (opsC5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC5_writes : (opsC5 : List (HloOp τ sig (Elt F))).Forall fun op => op.writes ⊆ (opsC5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part2, operations of chunk opsC6 (30). -/
abbrev opsC6 : List (HloOp τ sig (Elt F)) :=
  [ StableHlo.unary main_v101 main_v102 (broadcastInDim S262144x64 ![0, 1] bcast_S1x64_S262144x64_0_1 : (⟨S1x64, .f32⟩ : BufTy).Contents (Elt F) → (⟨S262144x64, .f32⟩ : BufTy).Contents (Elt F)),
    StableHlo.binary main_v97 main_v102 main_v103 (mulf : (⟨S262144x64, .f32⟩ : BufTy).Contents (Elt F) → (⟨S262144x64, .f32⟩ : BufTy).Contents (Elt F) → (⟨S262144x64, .f32⟩ : BufTy).Contents (Elt F)),
    StableHlo.unary main_v88 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S262144x64 ![0, 1] bcast_S1x64_S262144x64_0_1 : (⟨S1x64, .f32⟩ : BufTy).Contents (Elt F) → (⟨S262144x64, .f32⟩ : BufTy).Contents (Elt F)),
    StableHlo.binary main_v103 main_v105 main_v106 (mulf : (⟨S262144x64, .f32⟩ : BufTy).Contents (Elt F) → (⟨S262144x64, .f32⟩ : BufTy).Contents (Elt F) → (⟨S262144x64, .f32⟩ : BufTy).Contents (Elt F)),
    StableHlo.unary main_v90 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S262144x64 ![0, 1] bcast_S1x64_S262144x64_0_1 : (⟨S1x64, .f32⟩ : BufTy).Contents (Elt F) → (⟨S262144x64, .f32⟩ : BufTy).Contents (Elt F)),
    StableHlo.binary main_v106 main_v108 main_v109 (addf : (⟨S262144x64, .f32⟩ : BufTy).Contents (Elt F) → (⟨S262144x64, .f32⟩ : BufTy).Contents (Elt F) → (⟨S262144x64, .f32⟩ : BufTy).Contents (Elt F)),
    StableHlo.nullary main_cst_16 (constant S_ .f32 0x3C23D70A#32),
    StableHlo.TRef.nullary main_call3.cst (constant S_ .f32 0x00000000#32),
    StableHlo.TRef.unary main_call3.cst main_call3.v0 (broadcastInDim S262144x64 ![] bcast_S_S262144x64),
    StableHlo.TRef.binary (.of main_v109) main_call3.v0 main_call3.v1 (cmpf .oge),
    StableHlo.TRef.unary (.of main_cst_16) main_call3.v2 id,
    StableHlo.TRef.unary main_call3.v2 main_call3.v3 (broadcastInDim S262144x64 ![] bcast_S_S262144x64),
    StableHlo.TRef.binary main_call3.v3 (.of main_v109) main_call3.v4 mulf,
    StableHlo.TRef.ternary main_call3.v1 (.of main_v109) main_call3.v4 main_call3.call0.v0 select,
    StableHlo.unary main_arg7 main_v111 ((extractStridedSlice S1x64 ![1, 0] · slices_S2x64_S1x64_1_0) : (⟨S2x64, .f32⟩ : BufTy).Contents (Elt F) → (⟨S1x64, .f32⟩ : BufTy).Contents (Elt F)),
    StableHlo.reshape main_v111 main_v112 rfl shapeCasts_S1x64_S64,
    StableHlo.unary main_arg8 main_v113 ((extractStridedSlice S1x64 ![1, 0] · slices_S2x64_S1x64_1_0) : (⟨S2x64, .f32⟩ : BufTy).Contents (Elt F) → (⟨S1x64, .f32⟩ : BufTy).Contents (Elt F)),
    StableHlo.reshape main_v113 main_v114 rfl shapeCasts_S1x64_S64,
    StableHlo.nullary main_cst_17 (constant S_ .f32 0x00000000#32),
    StableHlo.binary main_v110 main_cst_17 main_v115 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v115 main_v116 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42800000#32),
    StableHlo.unary main_cst_18 main_v117 (broadcastInDim S262144x1 ![] bcast_S_S262144x1 : (⟨S_, .f32⟩ : BufTy).Contents (Elt F) → (⟨S262144x1, .f32⟩ : BufTy).Contents (Elt F)),
    StableHlo.binary main_v116 main_v117 main_v118 (Host.divf : (⟨S262144x1, .f32⟩ : BufTy).Contents (Elt F) → (⟨S262144x1, .f32⟩ : BufTy).Contents (Elt F) → (⟨S262144x1, .f32⟩ : BufTy).Contents (Elt F)),
    StableHlo.nullary main_c_19 (constantI S_ 32 0#32),
    StableHlo.TRef.nullary main_call4.cst (constant S_ .f32 0x00000000#32),
    StableHlo.TRef.binary (.of main_v110) main_call4.cst main_call4.v0 (fun x v => Host.reduceAdd x v reducesTo_S262144x64_S262144_d1 h_S_),
    StableHlo.TRef.unary main_call4.v0 main_call4.v1 (broadcastInDim S262144x1 ![0] bcast_S262144_S262144x1_0) ]
/-- The buffers opsC6 writes, in order. -/
abbrev opsC6_W : List (Ref sig .tc) := [main_v102, main_v103, main_v104, main_v105, main_v106, main_v107, main_v108, main_v109, main_cst_16, main_call3_cst, main_call3_v0, main_call3_v1, main_call3_v2, main_call3_v3, main_call3_v4, main_v110, main_v111, main_v112, main_v113, main_v114, main_cst_17, main_v115, main_v116, main_cst_18, main_v117, main_v118, main_c_19, main_call4_cst, main_call4_v0, main_call4_v1]
set_option maxRecDepth 8192 in
theorem opsC6_sub : (opsC6 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub ..⟩
set_option maxRecDepth 8192 in
theorem opsC6_fresh : (opsC6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC6_writes : (opsC6 : List (HloOp τ sig (Elt F))).Forall fun op => op.writes ⊆ (opsC6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part2, operations of chunk opsC7 (30). -/
abbrev opsC7 : List (HloOp τ sig (Elt F)) :=
  [ StableHlo.TRef.nullary main_call4.cst_0 (constant S_ .f32 0x42800000#32),
    StableHlo.TRef.unary main_call4.cst_0 main_call4.v2 (broadcastInDim S262144x1 ![] bcast_S_S262144x1),
    StableHlo.TRef.binary main_call4.v1 main_call4.v2 main_call4.v3 Host.divf,
    StableHlo.TRef.unary main_call4.v3 main_call4.v4 (broadcastInDim S262144x64 ![0, 1] bcast_S262144x1_S262144x64_0_1),
    StableHlo.TRef.binary (.of main_v110) main_call4.v4 main_call4.v5 subf,
    StableHlo.TRef.binary main_call4.v5 main_call4.v5 main_call4.v6 mulf,
    StableHlo.TRef.unary (.of main_c_19) main_call4.v7 (sitofp .f32),
    StableHlo.TRef.nullary main_call4.cst_1 (constant S_ .f32 0x42800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S262144x64_S262144_d1 h_S_),
    StableHlo.TRef.unary main_call4.v9 main_call4.v10 (broadcastInDim S262144x1 ![0] bcast_S262144_S262144x1_0),
    StableHlo.TRef.unary main_call4.v8 main_call4.v11 (broadcastInDim S262144x1 ![] bcast_S_S262144x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S262144x1 ![] bcast_S_S262144x1),
    StableHlo.TRef.ternary main_call4.v13 main_call4.v12 main_call4.call0.v1 main_call4.call0.v2 (fun p a b => select (broadcastInDim S262144x1 ![] bcast_S_S262144x1 p) a b),
    StableHlo.unary main_v118 main_v120 (broadcastInDim S262144x64 ![0, 1] bcast_S262144x1_S262144x64_0_1 : (⟨S262144x1, .f32⟩ : BufTy).Contents (Elt F) → (⟨S262144x64, .f32⟩ : BufTy).Contents (Elt F)),
    StableHlo.binary main_v110 main_v120 main_v121 (subf : (⟨S262144x64, .f32⟩ : BufTy).Contents (Elt F) → (⟨S262144x64, .f32⟩ : BufTy).Contents (Elt F) → (⟨S262144x64, .f32⟩ : BufTy).Contents (Elt F)),
    StableHlo.nullary main_cst_20 (constant S_ .f32 0x3727C5AC#32),
    StableHlo.unary main_cst_20 main_v122 (broadcastInDim S262144x1 ![] bcast_S_S262144x1 : (⟨S_, .f32⟩ : BufTy).Contents (Elt F) → (⟨S262144x1, .f32⟩ : BufTy).Contents (Elt F)),
    StableHlo.binary main_v119 main_v122 main_v123 (addf : (⟨S262144x1, .f32⟩ : BufTy).Contents (Elt F) → (⟨S262144x1, .f32⟩ : BufTy).Contents (Elt F) → (⟨S262144x1, .f32⟩ : BufTy).Contents (Elt F)),
    StableHlo.unary main_v123 main_v124 (Host.rsqrt : (⟨S262144x1, .f32⟩ : BufTy).Contents (Elt F) → (⟨S262144x1, .f32⟩ : BufTy).Contents (Elt F)),
    StableHlo.unary main_v124 main_v125 (broadcastInDim S262144x64 ![0, 1] bcast_S262144x1_S262144x64_0_1 : (⟨S262144x1, .f32⟩ : BufTy).Contents (Elt F) → (⟨S262144x64, .f32⟩ : BufTy).Contents (Elt F)),
    StableHlo.binary main_v121 main_v125 main_v126 (mulf : (⟨S262144x64, .f32⟩ : BufTy).Contents (Elt F) → (⟨S262144x64, .f32⟩ : BufTy).Contents (Elt F) → (⟨S262144x64, .f32⟩ : BufTy).Contents (Elt F)),
    StableHlo.unary main_v112 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S262144x64 ![0, 1] bcast_S1x64_S262144x64_0_1 : (⟨S1x64, .f32⟩ : BufTy).Contents (Elt F) → (⟨S262144x64, .f32⟩ : BufTy).Contents (Elt F)) ]
/-- The buffers opsC7 writes, in order. -/
abbrev opsC7_W : List (Ref sig .tc) := [main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v119, main_v120, main_v121, main_cst_20, main_v122, main_v123, main_v124, main_v125, main_v126, main_v127, main_v128]
set_option maxRecDepth 8192 in
theorem opsC7_sub : (opsC7 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub ..⟩
set_option maxRecDepth 8192 in
theorem opsC7_fresh : (opsC7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC7_writes : (opsC7 : List (HloOp τ sig (Elt F))).Forall fun op => op.writes ⊆ (opsC7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part2, operations of chunk opsC8 (28). -/
abbrev opsC8 : List (HloOp τ sig (Elt F)) :=
  [ StableHlo.binary main_v126 main_v128 main_v129 (mulf : (⟨S262144x64, .f32⟩ : BufTy).Contents (Elt F) → (⟨S262144x64, .f32⟩ : BufTy).Contents (Elt F) → (⟨S262144x64, .f32⟩ : BufTy).Contents (Elt F)),
    StableHlo.unary main_v114 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S262144x64 ![0, 1] bcast_S1x64_S262144x64_0_1 : (⟨S1x64, .f32⟩ : BufTy).Contents (Elt F) → (⟨S262144x64, .f32⟩ : BufTy).Contents (Elt F)),
    StableHlo.binary main_v129 main_v131 main_v132 (addf : (⟨S262144x64, .f32⟩ : BufTy).Contents (Elt F) → (⟨S262144x64, .f32⟩ : BufTy).Contents (Elt F) → (⟨S262144x64, .f32⟩ : BufTy).Contents (Elt F)),
    StableHlo.unary main_arg9 main_v133 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v133 main_v134 rfl shapeCasts_S1x64x64_S64x64,
    StableHlo.binary main_v132 main_v134 main_v135 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg10 main_v136 ((extractStridedSlice S1x64 ![1, 0] · slices_S2x64_S1x64_1_0) : (⟨S2x64, .f32⟩ : BufTy).Contents (Elt F) → (⟨S1x64, .f32⟩ : BufTy).Contents (Elt F)),
    StableHlo.reshape main_v136 main_v137 rfl shapeCasts_S1x64_S64,
    StableHlo.unary main_v137 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S262144x64 ![0, 1] bcast_S1x64_S262144x64_0_1 : (⟨S1x64, .f32⟩ : BufTy).Contents (Elt F) → (⟨S262144x64, .f32⟩ : BufTy).Contents (Elt F)),
    StableHlo.binary main_v135 main_v139 main_v140 (addf : (⟨S262144x64, .f32⟩ : BufTy).Contents (Elt F) → (⟨S262144x64, .f32⟩ : BufTy).Contents (Elt F) → (⟨S262144x64, .f32⟩ : BufTy).Contents (Elt F)),
    StableHlo.unary main_arg11 main_v141 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v141 main_v142 rfl shapeCasts_S1x64x64_S64x64,
    StableHlo.binary main_v132 main_v142 main_v143 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg12 main_v144 ((extractStridedSlice S1x64 ![1, 0] · slices_S2x64_S1x64_1_0) : (⟨S2x64, .f32⟩ : BufTy).Contents (Elt F) → (⟨S1x64, .f32⟩ : BufTy).Contents (Elt F)),
    StableHlo.reshape main_v144 main_v145 rfl shapeCasts_S1x64_S64,
    StableHlo.unary main_v145 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S262144x64 ![0, 1] bcast_S1x64_S262144x64_0_1 : (⟨S1x64, .f32⟩ : BufTy).Contents (Elt F) → (⟨S262144x64, .f32⟩ : BufTy).Contents (Elt F)),
    StableHlo.binary main_v143 main_v147 main_v148 (addf : (⟨S262144x64, .f32⟩ : BufTy).Contents (Elt F) → (⟨S262144x64, .f32⟩ : BufTy).Contents (Elt F) → (⟨S262144x64, .f32⟩ : BufTy).Contents (Elt F)),
    StableHlo.nullary main_c_21 (constantI S_ 32 0#32),
    StableHlo.unary main_c_21 main_v149 (broadcastInDim S2097152 ![] bcast_S_S2097152 : (⟨S_, .i32⟩ : BufTy).Contents (Elt F) → (⟨S2097152, .i32⟩ : BufTy).Contents (Elt F)),
    StableHlo.binary main_arg18 main_v149 main_v150 (cmpi .slt : (⟨S2097152, .i32⟩ : BufTy).Contents (Elt F) → (⟨S2097152, .i32⟩ : BufTy).Contents (Elt F) → (⟨S2097152, .i1⟩ : BufTy).Contents (Elt F)),
    StableHlo.nullary main_c_22 (constantI S_ 32 262144#32),
    StableHlo.unary main_c_22 main_v151 (broadcastInDim S2097152 ![] bcast_S_S2097152 : (⟨S_, .i32⟩ : BufTy).Contents (Elt F) → (⟨S2097152, .i32⟩ : BufTy).Contents (Elt F)),
    StableHlo.binary main_arg18 main_v151 main_v152 (addi : (⟨S2097152, .i32⟩ : BufTy).Contents (Elt F) → (⟨S2097152, .i32⟩ : BufTy).Contents (Elt F) → (⟨S2097152, .i32⟩ : BufTy).Contents (Elt F)),
    StableHlo.ternary main_v150 main_v152 main_arg18 main_v153 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v153 main_v154 (broadcastInDim S2097152x1 ![0] bcast_S2097152_S2097152x1_0 : (⟨S2097152, .i32⟩ : BufTy).Contents (Elt F) → (⟨S2097152x1, .i32⟩ : BufTy).Contents (Elt F)) ]
/-- The buffers opsC8 writes, in order. -/
abbrev opsC8_W : List (Ref sig .tc) := [main_v129, main_v130, main_v131, main_v132, main_v133, main_v134, main_v135, main_v136, main_v137, main_v138, main_v139, main_v140, main_v141, main_v142, main_v143, main_v144, main_v145, main_v146, main_v147, main_v148, main_c_21, main_v149, main_v150, main_c_22, main_v151, main_v152, main_v153, main_v154]
set_option maxRecDepth 8192 in
theorem opsC8_sub : (opsC8 : List (HloOp τ sig (Elt F))).Forall fun op => op.bufs ⊆ tcRefs τ sig :=
  ⟨binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem opsC8_fresh : (opsC8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC8_writes : (opsC8 : List (HloOp τ sig (Elt F))).Forall fun op => op.writes ⊆ (opsC8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part3, operations of chunk opsC9 (29). -/
abbrev opsC9 : List (HloOp τ sig (Elt F)) :=
  [ StableHlo.binary main_v140 main_v154 main_v155 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg1 main_v156 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v155 main_v156 main_v157 (mulf : (⟨S2097152x64, .f32⟩ : BufTy).Contents (Elt F) → (⟨S2097152x64, .f32⟩ : BufTy).Contents (Elt F) → (⟨S2097152x64, .f32⟩ : BufTy).Contents (Elt F)),
    StableHlo.nullary main_c_23 (constantI S_ 32 0#32),
    StableHlo.unary main_c_23 main_v158 (broadcastInDim S2097152 ![] bcast_S_S2097152 : (⟨S_, .i32⟩ : BufTy).Contents (Elt F) → (⟨S2097152, .i32⟩ : BufTy).Contents (Elt F)),
    StableHlo.binary main_arg20 main_v158 main_v159 (cmpi .slt : (⟨S2097152, .i32⟩ : BufTy).Contents (Elt F) → (⟨S2097152, .i32⟩ : BufTy).Contents (Elt F) → (⟨S2097152, .i1⟩ : BufTy).Contents (Elt F)),
    StableHlo.nullary main_c_24 (constantI S_ 32 262144#32),
    StableHlo.unary main_c_24 main_v160 (broadcastInDim S2097152 ![] bcast_S_S2097152 : (⟨S_, .i32⟩ : BufTy).Contents (Elt F) → (⟨S2097152, .i32⟩ : BufTy).Contents (Elt F)),
    StableHlo.binary main_arg20 main_v160 main_v161 (addi : (⟨S2097152, .i32⟩ : BufTy).Contents (Elt F) → (⟨S2097152, .i32⟩ : BufTy).Contents (Elt F) → (⟨S2097152, .i32⟩ : BufTy).Contents (Elt F)),
    StableHlo.ternary main_v159 main_v161 main_arg20 main_v162 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v162 main_v163 (broadcastInDim S2097152x1 ![0] bcast_S2097152_S2097152x1_0 : (⟨S2097152, .i32⟩ : BufTy).Contents (Elt F) → (⟨S2097152x1, .i32⟩ : BufTy).Contents (Elt F)),
    StableHlo.binary main_v148 main_v163 main_v164 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg2 main_v165 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v164 main_v165 main_v166 (mulf : (⟨S2097152x64, .f32⟩ : BufTy).Contents (Elt F) → (⟨S2097152x64, .f32⟩ : BufTy).Contents (Elt F) → (⟨S2097152x64, .f32⟩ : BufTy).Contents (Elt F)),
    StableHlo.nullary main_cst_25 (constant S_ .f32 0x00000000#32),
    StableHlo.unary main_cst_25 main_v167 (broadcastInDim S262144x64 ![] bcast_S_S262144x64 : (⟨S_, .f32⟩ : BufTy).Contents (Elt F) → (⟨S262144x64, .f32⟩ : BufTy).Contents (Elt F)),
    StableHlo.unary main_arg17 main_v168 (broadcastInDim S2097152x1 ![0] bcast_S2097152_S2097152x1_0 : (⟨S2097152, .i32⟩ : BufTy).Contents (Elt F) → (⟨S2097152x1, .i32⟩ : BufTy).Contents (Elt F)),
    StableHlo.ternary main_v167 main_v168 main_v157 main_v169 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    StableHlo.nullary main_cst_26 (constant S_ .f32 0x00000000#32),
    StableHlo.unary main_cst_26 main_v170 (broadcastInDim S262144x64 ![] bcast_S_S262144x64 : (⟨S_, .f32⟩ : BufTy).Contents (Elt F) → (⟨S262144x64, .f32⟩ : BufTy).Contents (Elt F)),
    StableHlo.unary main_arg19 main_v171 (broadcastInDim S2097152x1 ![0] bcast_S2097152_S2097152x1_0 : (⟨S2097152, .i32⟩ : BufTy).Contents (Elt F) → (⟨S2097152x1, .i32⟩ : BufTy).Contents (Elt F)),
    StableHlo.ternary main_v170 main_v171 main_v166 main_v172 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    StableHlo.binary main_v169 main_v172 main_v173 (addf : (⟨S262144x64, .f32⟩ : BufTy).Contents (Elt F) → (⟨S262144x64, .f32⟩ : BufTy).Contents (Elt F) → (⟨S262144x64, .f32⟩ : BufTy).Contents (Elt F)),
    StableHlo.binary main_v173 main_v132 main_v174 (addf : (⟨S262144x64, .f32⟩ : BufTy).Contents (Elt F) → (⟨S262144x64, .f32⟩ : BufTy).Contents (Elt F) → (⟨S262144x64, .f32⟩ : BufTy).Contents (Elt F)),
    StableHlo.unary main_arg13 main_v175 ((extractStridedSlice S1x64 ![1, 0] · slices_S2x64_S1x64_1_0) : (⟨S2x64, .f32⟩ : BufTy).Contents (Elt F) → (⟨S1x64, .f32⟩ : BufTy).Contents (Elt F)),
    StableHlo.reshape main_v175 main_v176 rfl shapeCasts_S1x64_S64,
    StableHlo.unary main_arg14 main_v177 ((extractStridedSlice S1x64 ![1, 0] · slices_S2x64_S1x64_1_0) : (⟨S2x64, .f32⟩ : BufTy).Contents (Elt F) → (⟨S1x64, .f32⟩ : BufTy).Contents (Elt F)),
    StableHlo.reshape main_v177 main_v178 rfl shapeCasts_S1x64_S64,
    StableHlo.nullary main_cst_27 (constant S_ .f32 0x00000000#32) ]
/-- The buffers opsC9 writes, in order. -/
abbrev opsC9_W : List (Ref sig .tc) := [main_v155, main_v156, main_v157, main_c_23, main_v158, main_v159, main_c_24, main_v160, main_v161, main_v162, main_v163, main_v164, main_v165, main_v166, main_cst_25, main_v167, main_v168, main_v169, main_cst_26, main_v170, main_v171, main_v172, main_v173, main_v174, main_v175, main_v176, main_v177, main_v178, main_cst_27]
set_option maxRecDepth 8192 in
theorem opsC9_sub : (opsC9 : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., binary_bufs_sub .., unary_bufs_sub .., reshape_bufs_sub .., unary_bufs_sub .., reshape_bufs_sub .., nullary_bufs_sub ..⟩
set_option maxRecDepth 8192 in
theorem opsC9_fresh : (opsC9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC9_writes : (opsC9 : List (HloOp τ sig (Elt F))).Forall fun op => op.writes ⊆ (opsC9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part3, operations of chunk opsC10 (29). -/
abbrev opsC10 : List (HloOp τ sig (Elt F)) :=
  [ StableHlo.binary main_v174 main_cst_27 main_v179 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_28 (constant S_ .f32 0x48800000#32),
    StableHlo.unary main_cst_28 main_v180 (broadcastInDim S64 ![] bcast_S_S64 : (⟨S_, .f32⟩ : BufTy).Contents (Elt F) → (⟨S64, .f32⟩ : BufTy).Contents (Elt F)),
    StableHlo.binary main_v179 main_v180 main_v181 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call5.cst (constant S_ .f32 0x00000000#32),
    StableHlo.TRef.binary (.of main_v174) main_call5.cst main_call5.v0 (fun x v => Host.reduceAdd x v reducesTo_S262144x64_S64_d0 h_S_),
    StableHlo.TRef.unary main_call5.v0 main_call5.v1 (broadcastInDim S1x64 ![1] bcast_S64_S1x64_1),
    StableHlo.TRef.nullary main_call5.cst_0 (constant S_ .f32 0x48800000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S262144x64 ![0, 1] bcast_S1x64_S262144x64_0_1),
    StableHlo.TRef.binary (.of main_v174) main_call5.v4 main_call5.v5 subf,
    StableHlo.TRef.binary main_call5.v5 main_call5.v5 main_call5.v6 mulf,
    StableHlo.TRef.unary (.of main_c_29) main_call5.v7 (sitofp .f32),
    StableHlo.TRef.nullary main_call5.cst_1 (constant S_ .f32 0x48800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S262144x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v181 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S262144x64 ![0, 1] bcast_S1x64_S262144x64_0_1 : (⟨S1x64, .f32⟩ : BufTy).Contents (Elt F) → (⟨S262144x64, .f32⟩ : BufTy).Contents (Elt F)) ]
/-- The buffers opsC10 writes, in order. -/
abbrev opsC10_W : List (Ref sig .tc) := [main_v179, main_cst_28, main_v180, main_v181, main_c_29, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v182, main_v183, main_v184]
set_option maxRecDepth 8192 in
theorem opsC10_sub : (opsC10 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩
set_option maxRecDepth 8192 in
theorem opsC10_fresh : (opsC10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC10_writes : (opsC10 : List (HloOp τ sig (Elt F))).Forall fun op => op.writes ⊆ (opsC10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part3, operations of chunk opsC11 (29). -/
abbrev opsC11 : List (HloOp τ sig (Elt F)) :=
  [ StableHlo.binary main_v174 main_v184 main_v185 (subf : (⟨S262144x64, .f32⟩ : BufTy).Contents (Elt F) → (⟨S262144x64, .f32⟩ : BufTy).Contents (Elt F) → (⟨S262144x64, .f32⟩ : BufTy).Contents (Elt F)),
    StableHlo.nullary main_cst_30 (constant S_ .f32 0x3727C5AC#32),
    StableHlo.unary main_cst_30 main_v186 (broadcastInDim S64 ![] bcast_S_S64 : (⟨S_, .f32⟩ : BufTy).Contents (Elt F) → (⟨S64, .f32⟩ : BufTy).Contents (Elt F)),
    StableHlo.binary main_v182 main_v186 main_v187 (addf : (⟨S64, .f32⟩ : BufTy).Contents (Elt F) → (⟨S64, .f32⟩ : BufTy).Contents (Elt F) → (⟨S64, .f32⟩ : BufTy).Contents (Elt F)),
    StableHlo.unary main_v187 main_v188 (Host.rsqrt : (⟨S64, .f32⟩ : BufTy).Contents (Elt F) → (⟨S64, .f32⟩ : BufTy).Contents (Elt F)),
    StableHlo.unary main_v188 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S262144x64 ![0, 1] bcast_S1x64_S262144x64_0_1 : (⟨S1x64, .f32⟩ : BufTy).Contents (Elt F) → (⟨S262144x64, .f32⟩ : BufTy).Contents (Elt F)),
    StableHlo.binary main_v185 main_v190 main_v191 (mulf : (⟨S262144x64, .f32⟩ : BufTy).Contents (Elt F) → (⟨S262144x64, .f32⟩ : BufTy).Contents (Elt F) → (⟨S262144x64, .f32⟩ : BufTy).Contents (Elt F)),
    StableHlo.unary main_v176 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S262144x64 ![0, 1] bcast_S1x64_S262144x64_0_1 : (⟨S1x64, .f32⟩ : BufTy).Contents (Elt F) → (⟨S262144x64, .f32⟩ : BufTy).Contents (Elt F)),
    StableHlo.binary main_v191 main_v193 main_v194 (mulf : (⟨S262144x64, .f32⟩ : BufTy).Contents (Elt F) → (⟨S262144x64, .f32⟩ : BufTy).Contents (Elt F) → (⟨S262144x64, .f32⟩ : BufTy).Contents (Elt F)),
    StableHlo.unary main_v178 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S262144x64 ![0, 1] bcast_S1x64_S262144x64_0_1 : (⟨S1x64, .f32⟩ : BufTy).Contents (Elt F) → (⟨S262144x64, .f32⟩ : BufTy).Contents (Elt F)),
    StableHlo.binary main_v194 main_v196 main_v197 (addf : (⟨S262144x64, .f32⟩ : BufTy).Contents (Elt F) → (⟨S262144x64, .f32⟩ : BufTy).Contents (Elt F) → (⟨S262144x64, .f32⟩ : BufTy).Contents (Elt F)),
    StableHlo.nullary main_cst_31 (constant S_ .f32 0x3C23D70A#32),
    StableHlo.TRef.nullary main_call6.cst (constant S_ .f32 0x00000000#32),
    StableHlo.TRef.unary main_call6.cst main_call6.v0 (broadcastInDim S262144x64 ![] bcast_S_S262144x64),
    StableHlo.TRef.binary (.of main_v197) main_call6.v0 main_call6.v1 (cmpf .oge),
    StableHlo.TRef.unary (.of main_cst_31) main_call6.v2 id,
    StableHlo.TRef.unary main_call6.v2 main_call6.v3 (broadcastInDim S262144x64 ![] bcast_S_S262144x64),
    StableHlo.TRef.binary main_call6.v3 (.of main_v197) main_call6.v4 mulf,
    StableHlo.TRef.ternary main_call6.v1 (.of main_v197) main_call6.v4 main_call6.call0.v0 select,
    StableHlo.binary main_v198 main_arg15 main_v199 ((fun l r => Host.dotGeneral dot_S262144x64_S64x16_S262144x16_1_0_0_1_n_n none l r) : (⟨S262144x64, .f32⟩ : BufTy).Contents (Elt F) → (⟨S64x16, .f32⟩ : BufTy).Contents (Elt F) → (⟨S262144x16, .f32⟩ : BufTy).Contents (Elt F)),
    StableHlo.unary main_arg16 main_v200 (broadcastInDim S1x16 ![1] bcast_S16_S1x16_1 : (⟨S16, .f32⟩ : BufTy).Contents (Elt F) → (⟨S1x16, .f32⟩ : BufTy).Contents (Elt F)),
    StableHlo.unary main_v200 main_v201 (broadcastInDim S262144x16 ![0, 1] bcast_S1x16_S262144x16_0_1 : (⟨S1x16, .f32⟩ : BufTy).Contents (Elt F) → (⟨S262144x16, .f32⟩ : BufTy).Contents (Elt F)),
    StableHlo.binary main_v199 main_v201 main_v202 (addf : (⟨S262144x16, .f32⟩ : BufTy).Contents (Elt F) → (⟨S262144x16, .f32⟩ : BufTy).Contents (Elt F) → (⟨S262144x16, .f32⟩ : BufTy).Contents (Elt F)),
    StableHlo.nullary main_cst_32 (constant S_ .f32 0xFF800000#32),
    StableHlo.binary main_v202 main_cst_32 main_v203 ((fun x v => Host.reduce FloatOps.maximumf x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.nullary main_cst_33 (constant S_ .f32 0xFF800000#32) ]
/-- The buffers opsC11 writes, in order. -/
abbrev opsC11_W : List (Ref sig .tc) := [main_v185, main_cst_30, main_v186, main_v187, main_v188, main_v189, main_v190, main_v191, main_v192, main_v193, main_v194, main_v195, main_v196, main_v197, main_cst_31, main_call6_cst, main_call6_v0, main_call6_v1, main_call6_v2, main_call6_v3, main_call6_v4, main_v198, main_v199, main_v200, main_v201, main_v202, main_cst_32, main_v203, main_cst_33]
set_option maxRecDepth 8192 in
theorem opsC11_sub : (opsC11 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., binary_bufs_sub .., nullary_bufs_sub ..⟩
set_option maxRecDepth 8192 in
theorem opsC11_fresh : (opsC11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC11_writes : (opsC11 : List (HloOp τ sig (Elt F))).Forall fun op => op.writes ⊆ (opsC11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- main_part4, operations of chunk opsC12 (11). -/
abbrev opsC12 : List (HloOp τ sig (Elt F)) :=
  [ StableHlo.unary main_cst_33 main_v204 (broadcastInDim S262144 ![] bcast_S_S262144 : (⟨S_, .f32⟩ : BufTy).Contents (Elt F) → (⟨S262144, .f32⟩ : BufTy).Contents (Elt F)),
    StableHlo.binary main_v204 main_v203 main_v205 (maximumf : (⟨S262144, .f32⟩ : BufTy).Contents (Elt F) → (⟨S262144, .f32⟩ : BufTy).Contents (Elt F) → (⟨S262144, .f32⟩ : BufTy).Contents (Elt F)),
    StableHlo.unary main_v205 main_v206 (broadcastInDim S262144x1 ![0] bcast_S262144_S262144x1_0 : (⟨S262144, .f32⟩ : BufTy).Contents (Elt F) → (⟨S262144x1, .f32⟩ : BufTy).Contents (Elt F)),
    StableHlo.unary main_v206 main_v207 (broadcastInDim S262144x16 ![0, 1] bcast_S262144x1_S262144x16_0_1 : (⟨S262144x1, .f32⟩ : BufTy).Contents (Elt F) → (⟨S262144x16, .f32⟩ : BufTy).Contents (Elt F)),
    StableHlo.binary main_v202 main_v207 main_v208 (subf : (⟨S262144x16, .f32⟩ : BufTy).Contents (Elt F) → (⟨S262144x16, .f32⟩ : BufTy).Contents (Elt F) → (⟨S262144x16, .f32⟩ : BufTy).Contents (Elt F)),
    StableHlo.unary main_v208 main_v209 (Host.exp : (⟨S262144x16, .f32⟩ : BufTy).Contents (Elt F) → (⟨S262144x16, .f32⟩ : BufTy).Contents (Elt F)),
    StableHlo.nullary main_cst_34 (constant S_ .f32 0x00000000#32),
    StableHlo.binary main_v209 main_cst_34 main_v210 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v210 main_v211 (broadcastInDim S262144x1 ![0] bcast_S262144_S262144x1_0 : (⟨S262144, .f32⟩ : BufTy).Contents (Elt F) → (⟨S262144x1, .f32⟩ : BufTy).Contents (Elt F)),
    StableHlo.unary main_v211 main_v212 (broadcastInDim S262144x16 ![0, 1] bcast_S262144x1_S262144x16_0_1 : (⟨S262144x1, .f32⟩ : BufTy).Contents (Elt F) → (⟨S262144x16, .f32⟩ : BufTy).Contents (Elt F)),
    StableHlo.binary main_v209 main_v212 main_v213 (Host.divf : (⟨S262144x16, .f32⟩ : BufTy).Contents (Elt F) → (⟨S262144x16, .f32⟩ : BufTy).Contents (Elt F) → (⟨S262144x16, .f32⟩ : BufTy).Contents (Elt F)) ]
/-- The buffers opsC12 writes, in order. -/
abbrev opsC12_W : List (Ref sig .tc) := [main_v204, main_v205, main_v206, main_v207, main_v208, main_v209, main_cst_34, main_v210, main_v211, main_v212, main_v213]
set_option maxRecDepth 8192 in
theorem opsC12_sub : (opsC12 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem opsC12_fresh : (opsC12 : List (HloOp τ sig (Elt F))).Forall fun op => op.fresh = ∅ :=
  ⟨rfl, rfl, rfl, rfl, rfl, rfl, rfl, rfl, rfl, rfl, rfl⟩
set_option maxRecDepth 8192 in
theorem opsC12_writes : (opsC12 : List (HloOp τ sig (Elt F))).Forall fun op => op.writes ⊆ (opsC12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.Hand

end
-- ==== Proof.Ref.Run.lean ====
/- The run of the reference program's @main, read back as a fold of its host operations.
   The operation lists (one per chunk, Ops.lean) are joined window by window: each window main_partK of @main is the
   straight line of its chunks' operations (the callees' bodies unfold at their call sites: both sides are one chain of
   host steps), @main is the windows in order, and a straight line of host operations run from any memory terminates with
   every buffer at the fold of the operations' results over the launch contents. A buffer that no operation writes keeps
   its launch contents: the arguments are among those. -/
import proofs.«406228_j54073638257180_1_alg».proof.Proof.Ref.Ops
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## The lists, window by window -/

/-- The operations of window main_part0. -/
abbrev opsP0 : List (HloOp τ sig (Elt F)) := opsC0 ++ (opsC1 ++ opsC2)
/-- The operations of window main_part1. -/
abbrev opsP1 : List (HloOp τ sig (Elt F)) := opsC3 ++ (opsC4 ++ opsC5)
/-- The operations of window main_part2. -/
abbrev opsP2 : List (HloOp τ sig (Elt F)) := opsC6 ++ (opsC7 ++ opsC8)
/-- The operations of window main_part3. -/
abbrev opsP3 : List (HloOp τ sig (Elt F)) := opsC9 ++ (opsC10 ++ opsC11)
/-- The operations of window main_part4. -/
abbrev opsP4 : List (HloOp τ sig (Elt F)) := opsC12
/-- All of @main's operations, in order. -/
abbrev opsAll : List (HloOp τ sig (Elt F)) := opsP0 ++ (opsP1 ++ (opsP2 ++ (opsP3 ++ opsP4)))

/-! ## @main is that straight line -/

set_option maxRecDepth 16384 in
set_option maxHeartbeats 4000000 in
theorem main_part0_eq (c : Dev nD) : main_part0 (F := F) c = seq opsP0 := rfl
set_option maxRecDepth 16384 in
set_option maxHeartbeats 4000000 in
theorem main_part1_eq (c : Dev nD) : main_part1 (F := F) c = seq opsP1 := rfl
set_option maxRecDepth 16384 in
set_option maxHeartbeats 4000000 in
theorem main_part2_eq (c : Dev nD) : main_part2 (F := F) c = seq opsP2 := rfl
set_option maxRecDepth 16384 in
set_option maxHeartbeats 4000000 in
theorem main_part3_eq (c : Dev nD) : main_part3 (F := F) c = seq opsP3 := rfl
set_option maxRecDepth 16384 in
set_option maxHeartbeats 4000000 in
theorem main_part4_eq (c : Dev nD) : main_part4 (F := F) c = seq opsP4 := rfl

theorem main_eq (c : Dev nD) : main (F := F) c = seq opsAll := by
  rw [opsAll, seq_append opsP0, seq_append opsP1, seq_append opsP2, seq_append opsP3,
    ← main_part0_eq c, ← main_part1_eq c, ← main_part2_eq c, ← main_part3_eq c, ← main_part4_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Membership in the whole list is membership in one of the chunks. -/
theorem mem_opsAll {op : HloOp τ sig (Elt F)} (h : op ∈ (opsAll : List (HloOp τ sig (Elt F)))) :
    op ∈ (opsC0 : List (HloOp τ sig (Elt F))) ∨ op ∈ (opsC1 : List (HloOp τ sig (Elt F))) ∨ op ∈ (opsC2 : List (HloOp τ sig (Elt F)))
    ∨ op ∈ (opsC3 : List (HloOp τ sig (Elt F))) ∨ op ∈ (opsC4 : List (HloOp τ sig (Elt F))) ∨ op ∈ (opsC5 : List (HloOp τ sig (Elt F)))
    ∨ op ∈ (opsC6 : List (HloOp τ sig (Elt F))) ∨ op ∈ (opsC7 : List (HloOp τ sig (Elt F))) ∨ op ∈ (opsC8 : List (HloOp τ sig (Elt F)))
    ∨ op ∈ (opsC9 : List (HloOp τ sig (Elt F))) ∨ op ∈ (opsC10 : List (HloOp τ sig (Elt F))) ∨ op ∈ (opsC11 : List (HloOp τ sig (Elt F)))
    ∨ op ∈ (opsC12 : List (HloOp τ sig (Elt F))) := by
  simpa only [opsAll, opsP0, opsP1, opsP2, opsP3, opsP4, List.mem_append, or_assoc] using h

theorem opsAll_sub : (opsAll : List (HloOp τ sig (Elt F))).Forall fun op => op.bufs ⊆ tcRefs τ sig :=
  List.forall_iff_forall_mem.mpr fun op h => by
    rcases mem_opsAll h with h | h | h | h | h | h | h | h | h | h | h | h | h
    exacts [List.forall_iff_forall_mem.mp opsC0_sub op h, List.forall_iff_forall_mem.mp opsC1_sub op h,
      List.forall_iff_forall_mem.mp opsC2_sub op h, List.forall_iff_forall_mem.mp opsC3_sub op h,
      List.forall_iff_forall_mem.mp opsC4_sub op h, List.forall_iff_forall_mem.mp opsC5_sub op h,
      List.forall_iff_forall_mem.mp opsC6_sub op h, List.forall_iff_forall_mem.mp opsC7_sub op h,
      List.forall_iff_forall_mem.mp opsC8_sub op h, List.forall_iff_forall_mem.mp opsC9_sub op h,
      List.forall_iff_forall_mem.mp opsC10_sub op h, List.forall_iff_forall_mem.mp opsC11_sub op h,
      List.forall_iff_forall_mem.mp opsC12_sub op h]

theorem opsAll_fresh (op : HloOp τ sig (Elt F)) (h : op ∈ (opsAll : List (HloOp τ sig (Elt F)))) : op.fresh = ∅ := by
  rcases mem_opsAll h with h | h | h | h | h | h | h | h | h | h | h | h | h
  exacts [List.forall_iff_forall_mem.mp opsC0_fresh op h, List.forall_iff_forall_mem.mp opsC1_fresh op h,
    List.forall_iff_forall_mem.mp opsC2_fresh op h, List.forall_iff_forall_mem.mp opsC3_fresh op h,
    List.forall_iff_forall_mem.mp opsC4_fresh op h, List.forall_iff_forall_mem.mp opsC5_fresh op h,
    List.forall_iff_forall_mem.mp opsC6_fresh op h, List.forall_iff_forall_mem.mp opsC7_fresh op h,
    List.forall_iff_forall_mem.mp opsC8_fresh op h, List.forall_iff_forall_mem.mp opsC9_fresh op h,
    List.forall_iff_forall_mem.mp opsC10_fresh op h, List.forall_iff_forall_mem.mp opsC11_fresh op h,
    List.forall_iff_forall_mem.mp opsC12_fresh op h]

/-! ## A buffer no operation writes keeps its contents -/

/-- Every buffer @main writes, in order. -/
abbrev WAll : List (Ref sig .tc) :=
  opsC0_W ++ (opsC1_W ++ (opsC2_W ++ (opsC3_W ++ (opsC4_W ++ (opsC5_W ++ (opsC6_W ++ (opsC7_W ++ (opsC8_W ++ (opsC9_W
    ++ (opsC10_W ++ (opsC11_W ++ opsC12_W)))))))))))

/-- The fold over the whole list is the chunks' folds one inside the other. -/
theorem after_opsAll (V : Valuation τ sig (Elt F)) :
    after opsAll V = after opsC12 (after opsC11 (after opsC10 (after opsC9 (after opsC8 (after opsC7 (after opsC6
      (after opsC5 (after opsC4 (after opsC3 (after opsC2 (after opsC1 (after opsC0 V)))))))))))) := by
  simp only [opsAll, opsP0, opsP1, opsP2, opsP3, opsP4, after_append]

theorem after_opsAll_keep (V : Valuation τ sig (Elt F)) (r : Ref sig .tc) (h : r ∉ WAll) :
    after opsAll V (Proc.devRef .tc r) = V (Proc.devRef .tc r) := by
  simp only [WAll, List.mem_append, not_or] at h
  obtain ⟨h0, h1, h2, h3, h4, h5, h6, h7, h8, h9, h10, h11, h12⟩ := h
  rw [after_opsAll, after_of_writes_sub opsC12 _ opsC12_writes h12, after_of_writes_sub opsC11 _ opsC11_writes h11,
    after_of_writes_sub opsC10 _ opsC10_writes h10, after_of_writes_sub opsC9 _ opsC9_writes h9,
    after_of_writes_sub opsC8 _ opsC8_writes h8, after_of_writes_sub opsC7 _ opsC7_writes h7,
    after_of_writes_sub opsC6 _ opsC6_writes h6, after_of_writes_sub opsC5 _ opsC5_writes h5,
    after_of_writes_sub opsC4 _ opsC4_writes h4, after_of_writes_sub opsC3 _ opsC3_writes h3,
    after_of_writes_sub opsC2 _ opsC2_writes h2, after_of_writes_sub opsC1 _ opsC1_writes h1,
    after_of_writes_sub opsC0 _ opsC0_writes h0]

/-! ## The run -/

/-- On every device, for any float values, from any memory with zero counters: every weakly fair execution of @main
    terminates with the result buffer at the fold of @main's operations over the launch contents, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v213) = StableHlo.after opsAll (fun b => m (c, b)) (Proc.devRef .tc main_v213)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨h c main_v213,
      (h c main_arg0).trans (after_opsAll_keep _ main_arg0 (by decide)),
      (h c main_arg1).trans (after_opsAll_keep _ main_arg1 (by decide)),
      (h c main_arg2).trans (after_opsAll_keep _ main_arg2 (by decide)),
      (h c main_arg3).trans (after_opsAll_keep _ main_arg3 (by decide)),
      (h c main_arg4).trans (after_opsAll_keep _ main_arg4 (by decide)),
      (h c main_arg5).trans (after_opsAll_keep _ main_arg5 (by decide)),
      (h c main_arg6).trans (after_opsAll_keep _ main_arg6 (by decide)),
      (h c main_arg7).trans (after_opsAll_keep _ main_arg7 (by decide)),
      (h c main_arg8).trans (after_opsAll_keep _ main_arg8 (by decide)),
      (h c main_arg9).trans (after_opsAll_keep _ main_arg9 (by decide)),
      (h c main_arg10).trans (after_opsAll_keep _ main_arg10 (by decide)),
      (h c main_arg11).trans (after_opsAll_keep _ main_arg11 (by decide)),
      (h c main_arg12).trans (after_opsAll_keep _ main_arg12 (by decide)),
      (h c main_arg13).trans (after_opsAll_keep _ main_arg13 (by decide)),
      (h c main_arg14).trans (after_opsAll_keep _ main_arg14 (by decide)),
      (h c main_arg15).trans (after_opsAll_keep _ main_arg15 (by decide)),
      (h c main_arg16).trans (after_opsAll_keep _ main_arg16 (by decide)),
      (h c main_arg17).trans (after_opsAll_keep _ main_arg17 (by decide)),
      (h c main_arg18).trans (after_opsAll_keep _ main_arg18 (by decide)),
      (h c main_arg19).trans (after_opsAll_keep _ main_arg19 (by decide)),
      (h c main_arg20).trans (after_opsAll_keep _ main_arg20 (by decide))⟩)
    (run_seq scopedRefs_eq scopedSems_eq defs main (fun _ => opsAll) main_eq (fun _ => opsAll_sub) m ρ
      (fun _ => opsAll_fresh))

end Cert.ReferenceIdeal.Hand

end
-- ==== Proof.BridgeDefs.lean ====
/- The two valuations the comparison of the two programs is stated over: the reference program's launch contents on a
   core, and its buffers once all of its host operations have run (the fold of the operations over the launch contents). -/
import proofs.«406228_j54073638257180_1_alg».proof.Proof.Ref.Run
import proofs.«406228_j54073638257180_1_alg».proof.Proof.Gen.ReferenceIdeal
import Idealize.ShloMosaic.PureOps.Ideal

noncomputable section

namespace Cert.Proof.Bridge

open Idealize.ShloMosaic Idealize.ShloMosaic.TcCoe Idealize.SL.Sem Idealize.ShloMosaic.StableHlo

/-- The reference program's launch contents on core `c`, as a valuation of its buffers. -/
abbrev VR0 (m' : (ℓ : Loc ReferenceIdeal.nD ReferenceIdeal.τ ReferenceIdeal.sig) → Buf (Elt Ideal) ℓ) (c : Dev ReferenceIdeal.nD) :
    Valuation ReferenceIdeal.τ ReferenceIdeal.sig (Elt Ideal) := fun b => m' (c, b)

/-- The reference program's buffers on core `c` once its operations have run, in order, from the launch contents. -/
abbrev VR (m' : (ℓ : Loc ReferenceIdeal.nD ReferenceIdeal.τ ReferenceIdeal.sig) → Buf (Elt Ideal) ℓ) (c : Dev ReferenceIdeal.nD) :
    Valuation ReferenceIdeal.τ ReferenceIdeal.sig (Elt Ideal) := after ReferenceIdeal.Hand.opsAll (VR0 m' c)

end Cert.Proof.Bridge

end
-- ==== Proof.KI.HostReadDefs.lean ====
import proofs.«406228_j54073638257180_1_alg».proof.Proof.Gen.KernelIdeal.Launch
import Idealize.ShloMosaic.Lib.StableHlo.Run
import Idealize.ShloMosaic.Lib.Pipeline.Frame

/-!
# The host stretches of the kernel program as pure functions: the functions

Between its kernel regions the program runs stretches of tensor operations on the host: a batch normalisation, two layer
normalisations, slices of the stacked weights, the gather of node rows per edge weighted by the edge's attention, the
leaky rectifier, the softmax. Each is written here once as a function of its parameter arrays, operation by operation
as the program spells it, over any float model.
-/

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

namespace Kst

/-! ## The host stretches' functions, spelled operation by operation as @main spells them -/

/-- A row vector of 64 entries repeated down all 262144 rows (two broadcasts: to [1,64], then to [262144,64]). -/
def bcRow (v : Vec F S64 .f32) : Vec F S262144x64 .f32 :=
  broadcastInDim S262144x64 ![0, 1] bcast_S1x64_S262144x64_0_1 (broadcastInDim S1x64 ![1] bcast_S64_S1x64_1 v)

/-- A column of 262144 entries repeated across all 64 columns. -/
def bcCol (v : Vec F S262144x1 .f32) : Vec F S262144x64 .f32 :=
  broadcastInDim S262144x64 ![0, 1] bcast_S262144x1_S262144x64_0_1 v

/-- The sum down the rows (axis 0), from zero. -/
def sum0 (x : Vec F S262144x64 .f32) : Vec F S64 .f32 :=
  Host.reduceAdd x (constant S_ .f32 0x00000000#32) reducesTo_S262144x64_S64_d0 h_S_

/-- The sum across the columns (axis 1), from zero. -/
def sum1 (x : Vec F S262144x64 .f32) : Vec F S262144 .f32 :=
  Host.reduceAdd x (constant S_ .f32 0x00000000#32) reducesTo_S262144x64_S262144_d1 h_S_

/-- The column means: the axis-0 sum over the count 262144. -/
def mean0 (x : Vec F S262144x64 .f32) : Vec F S64 .f32 :=
  Host.divf (sum0 x) (broadcastInDim S64 ![] bcast_S_S64 (constant S_ .f32 0x48800000#32))

/-- The entries less their column mean, as the variance spells it (the mean formed at shape [1,64]). -/
def cen0 (x : Vec F S262144x64 .f32) : Vec F S262144x64 .f32 :=
  subf x (broadcastInDim S262144x64 ![0, 1] bcast_S1x64_S262144x64_0_1
    (Host.divf (broadcastInDim S1x64 ![1] bcast_S64_S1x64_1 (sum0 x))
      (broadcastInDim S1x64 ![] bcast_S_S1x64 (constant S_ .f32 0x48800000#32))))

/-- The variance's divisor: the count 262144 less the correction 0. -/
def cnt0 : Vec F S_ .f32 :=
  subf (constant S_ .f32 0x48800000#32) (sitofp .f32 (constantI S_ 32 0#32 : Vec F S_ .i32))

/-- The column variances: the mean of the squared centred entries where the divisor is positive, else not-a-number. -/
def var0 (x : Vec F S262144x64 .f32) : Vec F S64 .f32 :=
  select (broadcastInDim S64 ![] bcast_S_S64 (cmpf .ogt (cnt0 (F := F)) (constant S_ .f32 0x00000000#32)))
    (Host.divf (sum0 (mulf (cen0 x) (cen0 x))) (broadcastInDim S64 ![] bcast_S_S64 cnt0))
    (broadcastInDim S64 ![] bcast_S_S64 (id (constant S_ .f32 0x7FC00000#32)))

/-- Batch normalisation over the rows: centre by the column mean, scale by the inverse root of the column variance plus
    epsilon, then the affine map by the gain g and the shift b. -/
def bn (x : Vec F S262144x64 .f32) (g b : Vec F S64 .f32) : Vec F S262144x64 .f32 :=
  addf (mulf (mulf (subf x (bcRow (mean0 x)))
      (bcRow (Host.rsqrt (addf (var0 x) (broadcastInDim S64 ![] bcast_S_S64 (constant S_ .f32 0x3727C5AC#32))))))
    (bcRow g)) (bcRow b)

/-- The row means: the axis-1 sum over the count 64, as a column. -/
def mean1 (x : Vec F S262144x64 .f32) : Vec F S262144x1 .f32 :=
  Host.divf (broadcastInDim S262144x1 ![0] bcast_S262144_S262144x1_0 (sum1 x))
    (broadcastInDim S262144x1 ![] bcast_S_S262144x1 (constant S_ .f32 0x42800000#32))

/-- The row variance's divisor: the count 64 less the correction 0. -/
def cnt1 : Vec F S_ .f32 :=
  subf (constant S_ .f32 0x42800000#32) (sitofp .f32 (constantI S_ 32 0#32 : Vec F S_ .i32))

/-- The entries less their row mean. -/
def cen1 (x : Vec F S262144x64 .f32) : Vec F S262144x64 .f32 := subf x (bcCol (mean1 x))

/-- The row variances, as a column. -/
def var1 (x : Vec F S262144x64 .f32) : Vec F S262144x1 .f32 :=
  select (broadcastInDim S262144x1 ![] bcast_S_S262144x1 (cmpf .ogt (cnt1 (F := F)) (constant S_ .f32 0x00000000#32)))
    (Host.divf (broadcastInDim S262144x1 ![0] bcast_S262144_S262144x1_0 (sum1 (mulf (cen1 x) (cen1 x))))
      (broadcastInDim S262144x1 ![] bcast_S_S262144x1 cnt1))
    (broadcastInDim S262144x1 ![] bcast_S_S262144x1 (id (constant S_ .f32 0x7FC00000#32)))

/-- Layer normalisation along each row, then the affine map by the gain g and the shift b. -/
def ln (x : Vec F S262144x64 .f32) (g b : Vec F S64 .f32) : Vec F S262144x64 .f32 :=
  addf (mulf (mulf (subf x (bcCol (mean1 x)))
      (bcCol (Host.rsqrt (addf (var1 x) (broadcastInDim S262144x1 ![] bcast_S_S262144x1 (constant S_ .f32 0x3727C5AC#32))))))
    (bcRow g)) (bcRow b)

/-- One row of a [2,64] table, as a vector of 64. -/
def row (a : Vec F S2x64 .f32) (off : Fin 2 → Nat) (h : S2x64.Slices off S1x64) : Vec F S64 .f32 :=
  fun i => shapeCast S64 (extractStridedSlice S1x64 off a h) shapeCasts_S1x64_S64 i

/-- A vector of 64 as a [1,64] array. -/
def vecRow (b : Vec F S64 .f32) : Vec F S1x64 .f32 := fun i => shapeCast S1x64 b shapeCasts_S64_S1x64 i

/-- One row of a [2,64] table, as a [1,64] array (through the vector of 64). -/
def brow (a : Vec F S2x64 .f32) (off : Fin 2 → Nat) (h : S2x64.Slices off S1x64) : Vec F S1x64 .f32 :=
  vecRow (row a off h)

/-- One [64,64] matrix of a [2,64,64] stack. -/
def mat (a : Vec F S2x64x64 .f32) (off : Fin 3 → Nat) (h : S2x64x64.Slices off S1x64x64) : Vec F S64x64 .f32 :=
  fun i => shapeCast S64x64 (extractStridedSlice S1x64x64 off a h) shapeCasts_S1x64x64_S64x64 i

/-- A vector of 16 as a [1,16] array. -/
def vecRow16 (b : Vec F S16 .f32) : Vec F S1x16 .f32 := fun i => shapeCast S1x16 b shapeCasts_S16_S1x16 i

/-- Node indices with the negative ones wrapped round by the node count 262144. -/
def wrapIdx (idx : Vec F S2097152 .i32) : Vec F S2097152 .i32 :=
  select (cmpi .slt idx (broadcastInDim S2097152 ![] bcast_S_S2097152 (constantI S_ 32 0#32)))
    (addi idx (broadcastInDim S2097152 ![] bcast_S_S2097152 (constantI S_ 32 262144#32))) idx

/-- Per edge: the row of x at the edge's (wrapped) node index, times the edge's attention weight, converted to bf16. -/
def gatt (x : Vec F S262144x64 .f32) (idx : Vec F S2097152 .i32) (att : Vec F S2097152x1 .f32) : Vec F S2097152x64 .bf16 :=
  truncf .bf16
    (mulf (Host.gather gather_S262144x64_S2097152x1_S2097152x64_1_0_n_n_0_1_164 x
        (broadcastInDim S2097152x1 ![0] bcast_S2097152_S2097152x1_0 (wrapIdx idx)))
      (broadcastInDim S2097152x64 ![0, 1] bcast_S2097152x1_S2097152x64_0_1 att))
    bitsLt_bf16_f32

/-- The segment ids as a [1,2097152] array. -/
def segRow (s : Vec F S2097152 .i32) : Vec F S1x2097152 .i32 :=
  fun i => shapeCast S1x2097152 s shapeCasts_S2097152_S1x2097152 i

/-- Leaky rectifier with slope 0.01: the entry where it is at least zero, else 0.01 times it. -/
def lrelu (x : Vec F S262144x64 .f32) : Vec F S262144x64 .f32 :=
  select (cmpf .oge x (broadcastInDim S262144x64 ![] bcast_S_S262144x64 (constant S_ .f32 0x00000000#32)))
    x (mulf (broadcastInDim S262144x64 ![] bcast_S_S262144x64 (id (constant S_ .f32 0x3C23D70A#32))) x)

/-- A layer's end: the two aggregates and the residual summed, batch-normalised, then the leaky rectifier. -/
def layerOut (ro co xn : Vec F S262144x64 .f32) (g b : Vec F S64 .f32) : Vec F S262144x64 .f32 :=
  lrelu (bn (addf (addf ro co) xn) g b)

/-- A column of 262144 entries repeated across all 16 columns (through the [262144,1] array). -/
def bcCol16 (v : Vec F S262144 .f32) : Vec F S262144x16 .f32 :=
  broadcastInDim S262144x16 ![0, 1] bcast_S262144x1_S262144x16_0_1 (broadcastInDim S262144x1 ![0] bcast_S262144_S262144x1_0 v)

/-- The row maxima, from minus infinity (and once more against minus infinity). -/
def rowMax (x : Vec F S262144x16 .f32) : Vec F S262144 .f32 :=
  maximumf (broadcastInDim S262144 ![] bcast_S_S262144 (constant S_ .f32 0xFF800000#32))
    (Host.reduce FloatOps.maximumf x (constant S_ .f32 0xFF800000#32) reducesTo_S262144x16_S262144_d1 h_S_)

/-- The exponentials of the entries less their row maximum. -/
def expShift (x : Vec F S262144x16 .f32) : Vec F S262144x16 .f32 := Host.exp (subf x (bcCol16 (rowMax x)))

/-- The softmax along each row. -/
def softmax (x : Vec F S262144x16 .f32) : Vec F S262144x16 .f32 :=
  Host.divf (expShift x)
    (bcCol16 (Host.reduceAdd (expShift x) (constant S_ .f32 0x00000000#32) reducesTo_S262144x16_S262144_d1 h_S_))

end Kst

end Cert.KernelIdeal.Hand
-- ==== Proof.Ref.ReadDefs.lean ====
/- The stages of the reference network as pure functions of arrays: each is the composition of the host operations
   the reference program spells for that stage, in the program's own spelling (the same broadcasts, reductions,
   constants and comparisons, in the same order), with the stage's inputs as variables. Nothing here is evaluated. -/
import proofs.«406228_j54073638257180_1_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Facts]

namespace Rst

/-! ## Dense layers: x·w + b, the bias row repeated down the nodes -/

/-- The input layer: 200 features to 64. -/
def dense0 (x : FVec F S262144x200 .f32) (w : FVec F S200x64 .f32) (b : FVec F S64 .f32) : FVec F S262144x64 .f32 :=
  addf (Host.dotGeneral dot_S262144x200_S200x64_S262144x64_1_0_0_1_n_n none x w)
    (broadcastInDim S262144x64 ![0, 1] bcast_S1x64_S262144x64_0_1 (broadcastInDim S1x64 ![1] bcast_S64_S1x64_1 b))

/-- A hidden layer: 64 features to 64. -/
def dense (x : FVec F S262144x64 .f32) (w : FVec F S64x64 .f32) (b : FVec F S64 .f32) : FVec F S262144x64 .f32 :=
  addf (Host.dotGeneral dot_S262144x64_S64x64_S262144x64_1_0_0_1_n_n none x w)
    (broadcastInDim S262144x64 ![0, 1] bcast_S1x64_S262144x64_0_1 (broadcastInDim S1x64 ![1] bcast_S64_S1x64_1 b))

/-- The output layer: 64 features to 16 classes. -/
def denseOut (x : FVec F S262144x64 .f32) (w : FVec F S64x16 .f32) (b : FVec F S16 .f32) : FVec F S262144x16 .f32 :=
  addf (Host.dotGeneral dot_S262144x64_S64x16_S262144x16_1_0_0_1_n_n none x w)
    (broadcastInDim S262144x16 ![0, 1] bcast_S1x16_S262144x16_0_1 (broadcastInDim S1x16 ![1] bcast_S16_S1x16_1 b))

/-! ## The per-layer parameter rows -/

/-- Row 0 of a [2, 64] parameter table, as a vector of 64. -/
def row0 (a : FVec F S2x64 .f32) : FVec F S64 .f32 :=
  fun i => shapeCast S64 (extractStridedSlice S1x64 ![0, 0] a slices_S2x64_S1x64_0_0) shapeCasts_S1x64_S64 i
/-- Row 1 of a [2, 64] parameter table. -/
def row1 (a : FVec F S2x64 .f32) : FVec F S64 .f32 :=
  fun i => shapeCast S64 (extractStridedSlice S1x64 ![1, 0] a slices_S2x64_S1x64_1_0) shapeCasts_S1x64_S64 i
/-- Matrix 0 of a [2, 64, 64] weight table, as a [64, 64] matrix. -/
def mat0 (a : FVec F S2x64x64 .f32) : FVec F S64x64 .f32 :=
  fun i => shapeCast S64x64 (extractStridedSlice S1x64x64 ![0, 0, 0] a slices_S2x64x64_S1x64x64_0_0_0) shapeCasts_S1x64x64_S64x64 i
/-- Matrix 1 of a [2, 64, 64] weight table. -/
def mat1 (a : FVec F S2x64x64 .f32) : FVec F S64x64 .f32 :=
  fun i => shapeCast S64x64 (extractStridedSlice S1x64x64 ![1, 0, 0] a slices_S2x64x64_S1x64x64_1_0_0) shapeCasts_S1x64x64_S64x64 i

/-! ## Batch normalisation: statistics down the node axis, one per feature -/

/-- The feature means: column sums over 262144. -/
def mean0 (x : FVec F S262144x64 .f32) : FVec F S64 .f32 :=
  Host.divf (Host.reduceAdd x (constant S_ .f32 0x00000000#32) reducesTo_S262144x64_S64_d0 h_S_)
    (broadcastInDim S64 ![] bcast_S_S64 (constant S_ .f32 0x48800000#32))

/-- The divisor of the variance: the count 262144 less the correction 0. -/
def cnt0 : FVec F S_ .f32 :=
  subf (constant S_ .f32 0x48800000#32) (sitofp .f32 (constantI S_ 32 0#32))

/-- x less its feature means, as the variance computes it (the mean kept as a [1, 64] row). -/
def ctr0 (x : FVec F S262144x64 .f32) : FVec F S262144x64 .f32 :=
  subf x (broadcastInDim S262144x64 ![0, 1] bcast_S1x64_S262144x64_0_1
    (Host.divf
      (broadcastInDim S1x64 ![1] bcast_S64_S1x64_1 (Host.reduceAdd x (constant S_ .f32 0x00000000#32) reducesTo_S262144x64_S64_d0 h_S_))
      (broadcastInDim S1x64 ![] bcast_S_S1x64 (constant S_ .f32 0x48800000#32))))

/-- The (biased) feature variances: the mean of the squared deviations where the divisor is positive, else not-a-number. -/
def var0 (x : FVec F S262144x64 .f32) : FVec F S64 .f32 :=
  select (broadcastInDim S64 ![] bcast_S_S64 (cmpf .ogt (cnt0 (F := F)) (constant S_ .f32 0x00000000#32)))
    (Host.divf (Host.reduceAdd (mulf (ctr0 x) (ctr0 x)) (constant S_ .f32 0x00000000#32) reducesTo_S262144x64_S64_d0 h_S_)
      (broadcastInDim S64 ![] bcast_S_S64 (cnt0 (F := F))))
    (broadcastInDim S64 ![] bcast_S_S64 (id (constant S_ .f32 0x7FC00000#32)))

/-- Batch normalisation with scale g and shift b: (x − mean) · rsqrt(var + 1e-5) · g + b. -/
def bn (x : FVec F S262144x64 .f32) (g b : FVec F S64 .f32) : FVec F S262144x64 .f32 :=
  addf
    (mulf
      (mulf
        (subf x (broadcastInDim S262144x64 ![0, 1] bcast_S1x64_S262144x64_0_1 (broadcastInDim S1x64 ![1] bcast_S64_S1x64_1 (mean0 x))))
        (broadcastInDim S262144x64 ![0, 1] bcast_S1x64_S262144x64_0_1 (broadcastInDim S1x64 ![1] bcast_S64_S1x64_1
          (Host.rsqrt (addf (var0 x) (broadcastInDim S64 ![] bcast_S_S64 (constant S_ .f32 0x3727C5AC#32)))))))
      (broadcastInDim S262144x64 ![0, 1] bcast_S1x64_S262144x64_0_1 (broadcastInDim S1x64 ![1] bcast_S64_S1x64_1 g)))
    (broadcastInDim S262144x64 ![0, 1] bcast_S1x64_S262144x64_0_1 (broadcastInDim S1x64 ![1] bcast_S64_S1x64_1 b))

/-! ## Layer normalisation: statistics along the feature axis, one per node -/

/-- The node means: row sums over 64, kept as a [262144, 1] column. -/
def mean1 (x : FVec F S262144x64 .f32) : FVec F S262144x1 .f32 :=
  Host.divf
    (broadcastInDim S262144x1 ![0] bcast_S262144_S262144x1_0 (Host.reduceAdd x (constant S_ .f32 0x00000000#32) reducesTo_S262144x64_S262144_d1 h_S_))
    (broadcastInDim S262144x1 ![] bcast_S_S262144x1 (constant S_ .f32 0x42800000#32))

/-- The divisor of the variance: the count 64 less the correction 0. -/
def cnt1 : FVec F S_ .f32 :=
  subf (constant S_ .f32 0x42800000#32) (sitofp .f32 (constantI S_ 32 0#32))

/-- x less its node means. -/
def ctr1 (x : FVec F S262144x64 .f32) : FVec F S262144x64 .f32 :=
  subf x (broadcastInDim S262144x64 ![0, 1] bcast_S262144x1_S262144x64_0_1 (mean1 x))

/-- The (biased) node variances, as a [262144, 1] column. -/
def var1 (x : FVec F S262144x64 .f32) : FVec F S262144x1 .f32 :=
  select (broadcastInDim S262144x1 ![] bcast_S_S262144x1 (cmpf .ogt (cnt1 (F := F)) (constant S_ .f32 0x00000000#32)))
    (Host.divf
      (broadcastInDim S262144x1 ![0] bcast_S262144_S262144x1_0
        (Host.reduceAdd (mulf (ctr1 x) (ctr1 x)) (constant S_ .f32 0x00000000#32) reducesTo_S262144x64_S262144_d1 h_S_))
      (broadcastInDim S262144x1 ![] bcast_S_S262144x1 (cnt1 (F := F))))
    (broadcastInDim S262144x1 ![] bcast_S_S262144x1 (id (constant S_ .f32 0x7FC00000#32)))

/-- Layer normalisation with scale g and shift b. -/
def ln (x : FVec F S262144x64 .f32) (g b : FVec F S64 .f32) : FVec F S262144x64 .f32 :=
  addf
    (mulf
      (mulf
        (subf x (broadcastInDim S262144x64 ![0, 1] bcast_S262144x1_S262144x64_0_1 (mean1 x)))
        (broadcastInDim S262144x64 ![0, 1] bcast_S262144x1_S262144x64_0_1
          (Host.rsqrt (addf (var1 x) (broadcastInDim S262144x1 ![] bcast_S_S262144x1 (constant S_ .f32 0x3727C5AC#32))))))
      (broadcastInDim S262144x64 ![0, 1] bcast_S1x64_S262144x64_0_1 (broadcastInDim S1x64 ![1] bcast_S64_S1x64_1 g)))
    (broadcastInDim S262144x64 ![0, 1] bcast_S1x64_S262144x64_0_1 (broadcastInDim S1x64 ![1] bcast_S64_S1x64_1 b))

/-! ## Message passing along the edges -/

/-- An edge-index vector with negative entries wrapped around by the node count. -/
def wrap (ix : IVec S2097152 32) : IVec S2097152 32 :=
  select (cmpi .slt ix (broadcastInDim S2097152 ![] bcast_S_S2097152 (constantI S_ 32 0#32)))
    (addi ix (broadcastInDim S2097152 ![] bcast_S_S2097152 (constantI S_ 32 262144#32))) ix

/-- For each edge the row of x at its (wrapped) node index, times the edge's attention weight. -/
def gatt (x : FVec F S262144x64 .f32) (ix : IVec S2097152 32) (att : FVec F S2097152x1 .f32) : FVec F S2097152x64 .f32 :=
  mulf
    (Host.gather gather_S262144x64_S2097152x1_S2097152x64_1_0_n_n_0_1_164 x
      (broadcastInDim S2097152x1 ![0] bcast_S2097152_S2097152x1_0 (wrap ix)))
    (broadcastInDim S2097152x64 ![0, 1] bcast_S2097152x1_S2097152x64_0_1 att)

/-- The edge rows summed into their nodes, from zero. -/
def segsum (ix : IVec S2097152 32) (u : FVec F S2097152x64 .f32) : FVec F S262144x64 .f32 :=
  Host.scatterAdd scatter_S262144x64_S2097152x1_S2097152x64_1_0_0_1
    (broadcastInDim S262144x64 ![] bcast_S_S262144x64 (constant S_ .f32 0x00000000#32))
    (broadcastInDim S2097152x1 ![0] bcast_S2097152_S2097152x1_0 ix) u

/-- The two aggregates and the residual. -/
def sum3 (a b c : FVec F S262144x64 .f32) : FVec F S262144x64 .f32 := addf (addf a b) c

/-! ## The activations -/

/-- Leaky rectifier with slope 0.01: x where x ≥ 0, else 0.01 · x. -/
def lrelu (x : FVec F S262144x64 .f32) : FVec F S262144x64 .f32 :=
  select (cmpf .oge x (broadcastInDim S262144x64 ![] bcast_S_S262144x64 (constant S_ .f32 0x00000000#32))) x
    (mulf (broadcastInDim S262144x64 ![] bcast_S_S262144x64 (id (constant S_ .f32 0x3C23D70A#32))) x)

/-- The row maxima, from −∞. -/
def rowmax (x : FVec F S262144x16 .f32) : FVec F S262144 .f32 :=
  maximumf (broadcastInDim S262144 ![] bcast_S_S262144 (constant S_ .f32 0xFF800000#32))
    (Host.reduce FloatOps.maximumf x (constant S_ .f32 0xFF800000#32) reducesTo_S262144x16_S262144_d1 h_S_)

/-- x less its row maxima, exponentiated. -/
def expShift (x : FVec F S262144x16 .f32) : FVec F S262144x16 .f32 :=
  Host.exp (subf x (broadcastInDim S262144x16 ![0, 1] bcast_S262144x1_S262144x16_0_1
    (broadcastInDim S262144x1 ![0] bcast_S262144_S262144x1_0 (rowmax x))))

/-- Softmax along the classes. -/
def softmax (x : FVec F S262144x16 .f32) : FVec F S262144x16 .f32 :=
  Host.divf (expShift x)
    (broadcastInDim S262144x16 ![0, 1] bcast_S262144x1_S262144x16_0_1
      (broadcastInDim S262144x1 ![0] bcast_S262144_S262144x1_0
        (Host.reduceAdd (expShift x) (constant S_ .f32 0x00000000#32) reducesTo_S262144x16_S262144_d1 h_S_)))

end Rst

end Cert.ReferenceIdeal.Hand

end
-- ==== Proof.Compare.lean ====
/- The host stages of the kernel program and the stages of the reference, compared: each pair is one function. -/
import proofs.«406228_j54073638257180_1_alg».proof.Proof.KI.HostReadDefs
import proofs.«406228_j54073638257180_1_alg».proof.Proof.Ref.ReadDefs

/-! # The two programs' host stages are the same functions

The kernel program and the reference spell their normalisations, parameter slices, edge gathers and activations with
the same operations in the same order; each program has its own copies of the shape names and of the side conditions
the operations carry. A shape name unfolds to the same shape on both sides and a side condition is a proof, so each
stage of the one program is, by unfolding, the stage of the other. -/

set_option maxRecDepth 16384

noncomputable section

namespace Cert.Proof.Compare

open Idealize.ShloMosaic
open Cert.KernelIdeal.Hand (Kst.bn Kst.ln Kst.row Kst.brow Kst.vecRow Kst.vecRow16 Kst.mat Kst.wrapIdx Kst.gatt Kst.lrelu Kst.layerOut Kst.softmax Kst.segRow)
open Cert.ReferenceIdeal.Hand (Rst.bn Rst.ln Rst.row0 Rst.row1 Rst.mat0 Rst.mat1 Rst.wrap Rst.gatt Rst.sum3 Rst.lrelu Rst.softmax)

variable {F : FTy → Type} [FloatOps F] [Cert.ReferenceIdeal.Facts]

/-- Batch normalisation. -/
theorem bn_eq (x : FVec F Cert.ReferenceIdeal.S262144x64 .f32) (g b : FVec F Cert.ReferenceIdeal.S64 .f32) :
    Kst.bn (F := F) x g b = Rst.bn x g b := rfl

/-- Layer normalisation. -/
theorem ln_eq (x : FVec F Cert.ReferenceIdeal.S262144x64 .f32) (g b : FVec F Cert.ReferenceIdeal.S64 .f32) :
    Kst.ln (F := F) x g b = Rst.ln x g b := rfl

/-- The two rows of a parameter table. -/
theorem row0_eq (a : FVec F Cert.ReferenceIdeal.S2x64 .f32) (h : Cert.KernelIdeal.S2x64.Slices ![0, 0] Cert.KernelIdeal.S1x64) :
    Kst.row (F := F) a ![0, 0] h = Rst.row0 a := rfl
theorem row1_eq (a : FVec F Cert.ReferenceIdeal.S2x64 .f32) (h : Cert.KernelIdeal.S2x64.Slices ![1, 0] Cert.KernelIdeal.S1x64) :
    Kst.row (F := F) a ![1, 0] h = Rst.row1 a := rfl

/-- The two matrices of a weight stack. -/
theorem mat0_eq (a : FVec F Cert.ReferenceIdeal.S2x64x64 .f32) (h : Cert.KernelIdeal.S2x64x64.Slices ![0, 0, 0] Cert.KernelIdeal.S1x64x64) :
    Kst.mat (F := F) a ![0, 0, 0] h = Rst.mat0 a := rfl
theorem mat1_eq (a : FVec F Cert.ReferenceIdeal.S2x64x64 .f32) (h : Cert.KernelIdeal.S2x64x64.Slices ![1, 0, 0] Cert.KernelIdeal.S1x64x64) :
    Kst.mat (F := F) a ![1, 0, 0] h = Rst.mat1 a := rfl

/-- The wrapped node indices. -/
theorem wrap_eq (ix : IVec Cert.ReferenceIdeal.S2097152 32) : Kst.wrapIdx (F := F) ix = Rst.wrap ix := rfl

/-- The weighted edge rows: the kernel program's are the reference's, narrowed to bf16. -/
theorem gatt_eq (x : FVec F Cert.ReferenceIdeal.S262144x64 .f32) (ix : IVec Cert.ReferenceIdeal.S2097152 32)
    (att : FVec F Cert.ReferenceIdeal.S2097152x1 .f32) :
    Kst.gatt (F := F) x ix att = truncf .bf16 (Rst.gatt x ix att) Cert.KernelIdeal.Gen.bitsLt_bf16_f32 := rfl

/-- The leaky rectifier. -/
theorem lrelu_eq (x : FVec F Cert.ReferenceIdeal.S262144x64 .f32) : Kst.lrelu (F := F) x = Rst.lrelu x := rfl

/-- A layer's end: the sum of the two aggregates and the residual, batch-normalised, rectified. -/
theorem layerOut_eq (ro co xn : FVec F Cert.ReferenceIdeal.S262144x64 .f32) (g b : FVec F Cert.ReferenceIdeal.S64 .f32) :
    Kst.layerOut (F := F) ro co xn g b = Rst.lrelu (Rst.bn (Rst.sum3 ro co xn) g b) := rfl

/-- The softmax. -/
theorem softmax_eq (x : FVec F Cert.ReferenceIdeal.S262144x16 .f32) : Kst.softmax (F := F) x = Rst.softmax x := rfl

end Cert.Proof.Compare

end
-- ==== Proof.KI.HostReadA.lean ====
import proofs.«406228_j54073638257180_1_alg».proof.Proof.Gen.KernelIdeal.Launch
import proofs.«406228_j54073638257180_1_alg».proof.Proof.KI.HostReadDefs
import Idealize.ShloMosaic.Lib.StableHlo.Run
import Idealize.ShloMosaic.Lib.Pipeline.Frame

/-!
# The host stretches read as pure functions: stretches 0 to 4

For an arbitrary valuation of the buffers before a group of consecutive host stretches, each buffer the group hands on
is the named function of the buffers the group reads.
-/

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## Stretch 0: the first dense layer's bias as a row -/

theorem K_v0 (V : Valuation τ sig (Elt F)) :
    StableHlo.after hostOps0 V (Proc.devRef .tc main_v0) = Kst.vecRow (V (Proc.devRef .tc main_arg4)) := by
  dsimp only [hostOps0]
  after_results_simp
  try simp only [StableHlo.TRef.ofBuf, StableHlo.TRef.toBuf, cast_eq]
  rfl

/-! ## Stretches 1 to 1_4: batch normalisation of the first dense layer's result, layer 0's normalisation and its first weights -/

theorem K_v20 (V : Valuation τ sig (Elt F)) :
    StableHlo.after (hostOps1 ++ hostOps1_1 ++ hostOps1_2 ++ hostOps1_3 ++ hostOps1_4) V (Proc.devRef .tc main_v20)
      = Kst.bn (V (Proc.devRef .tc main_v1)) (V (Proc.devRef .tc main_arg5)) (V (Proc.devRef .tc main_arg6)) := by
  dsimp only [hostOps1, hostOps1_1, hostOps1_2, hostOps1_3, hostOps1_4, List.cons_append, List.nil_append, List.append_assoc]
  after_results_simp
  try simp only [StableHlo.TRef.ofBuf, StableHlo.TRef.toBuf, cast_eq]
  rfl

theorem K_v42 (V : Valuation τ sig (Elt F)) :
    StableHlo.after (hostOps1 ++ hostOps1_1 ++ hostOps1_2 ++ hostOps1_3 ++ hostOps1_4) V (Proc.devRef .tc main_v42)
      = Kst.ln (Kst.bn (V (Proc.devRef .tc main_v1)) (V (Proc.devRef .tc main_arg5)) (V (Proc.devRef .tc main_arg6)))
          (Kst.row (V (Proc.devRef .tc main_arg7)) ![0, 0] slices_S2x64_S1x64_0_0)
          (Kst.row (V (Proc.devRef .tc main_arg8)) ![0, 0] slices_S2x64_S1x64_0_0) := by
  dsimp only [hostOps1, hostOps1_1, hostOps1_2, hostOps1_3, hostOps1_4, List.cons_append, List.nil_append, List.append_assoc]
  after_results_simp
  try simp only [StableHlo.TRef.ofBuf, StableHlo.TRef.toBuf, cast_eq]
  rfl

theorem K_v44 (V : Valuation τ sig (Elt F)) :
    StableHlo.after (hostOps1 ++ hostOps1_1 ++ hostOps1_2 ++ hostOps1_3 ++ hostOps1_4) V (Proc.devRef .tc main_v44)
      = Kst.mat (V (Proc.devRef .tc main_arg9)) ![0, 0, 0] slices_S2x64x64_S1x64x64_0_0_0 := by
  dsimp only [hostOps1, hostOps1_1, hostOps1_2, hostOps1_3, hostOps1_4, List.cons_append, List.nil_append, List.append_assoc]
  after_results_simp
  try simp only [StableHlo.TRef.ofBuf, StableHlo.TRef.toBuf, cast_eq]
  rfl

theorem K_v47 (V : Valuation τ sig (Elt F)) :
    StableHlo.after (hostOps1 ++ hostOps1_1 ++ hostOps1_2 ++ hostOps1_3 ++ hostOps1_4) V (Proc.devRef .tc main_v47)
      = Kst.brow (V (Proc.devRef .tc main_arg10)) ![0, 0] slices_S2x64_S1x64_0_0 := by
  dsimp only [hostOps1, hostOps1_1, hostOps1_2, hostOps1_3, hostOps1_4, List.cons_append, List.nil_append, List.append_assoc]
  after_results_simp
  try simp only [StableHlo.TRef.ofBuf, StableHlo.TRef.toBuf, cast_eq]
  rfl

/-! ## Stretch 2: layer 0's second weights -/

theorem K_v50 (V : Valuation τ sig (Elt F)) :
    StableHlo.after hostOps2 V (Proc.devRef .tc main_v50)
      = Kst.mat (V (Proc.devRef .tc main_arg11)) ![0, 0, 0] slices_S2x64x64_S1x64x64_0_0_0 := by
  dsimp only [hostOps2]
  after_results_simp
  try simp only [StableHlo.TRef.ofBuf, StableHlo.TRef.toBuf, cast_eq]
  rfl

theorem K_v53 (V : Valuation τ sig (Elt F)) :
    StableHlo.after hostOps2 V (Proc.devRef .tc main_v53)
      = Kst.brow (V (Proc.devRef .tc main_arg12)) ![0, 0] slices_S2x64_S1x64_0_0 := by
  dsimp only [hostOps2]
  after_results_simp
  try simp only [StableHlo.TRef.ofBuf, StableHlo.TRef.toBuf, cast_eq]
  rfl

/-! ## Stretch 3: layer 0's gathered, weighted values and the first segment ids -/

theorem K_v64 (V : Valuation τ sig (Elt F)) :
    StableHlo.after hostOps3 V (Proc.devRef .tc main_v64)
      = Kst.gatt (V (Proc.devRef .tc main_v48)) (V (Proc.devRef .tc main_arg18)) (V (Proc.devRef .tc main_arg1)) := by
  dsimp only [hostOps3]
  after_results_simp
  try simp only [StableHlo.TRef.ofBuf, StableHlo.TRef.toBuf, cast_eq]
  rfl

theorem K_v74 (V : Valuation τ sig (Elt F)) :
    StableHlo.after hostOps3 V (Proc.devRef .tc main_v74)
      = Kst.gatt (V (Proc.devRef .tc main_v54)) (V (Proc.devRef .tc main_arg20)) (V (Proc.devRef .tc main_arg2)) := by
  dsimp only [hostOps3]
  after_results_simp
  try simp only [StableHlo.TRef.ofBuf, StableHlo.TRef.toBuf, cast_eq]
  rfl

theorem K_v75 (V : Valuation τ sig (Elt F)) :
    StableHlo.after hostOps3 V (Proc.devRef .tc main_v75) = Kst.segRow (V (Proc.devRef .tc main_arg17)) := by
  dsimp only [hostOps3]
  after_results_simp
  try simp only [StableHlo.TRef.ofBuf, StableHlo.TRef.toBuf, cast_eq]
  rfl

/-! ## Stretch 4: the second segment ids -/

theorem K_v77 (V : Valuation τ sig (Elt F)) :
    StableHlo.after hostOps4 V (Proc.devRef .tc main_v77) = Kst.segRow (V (Proc.devRef .tc main_arg19)) := by
  dsimp only [hostOps4]
  after_results_simp
  try simp only [StableHlo.TRef.ofBuf, StableHlo.TRef.toBuf, cast_eq]
  rfl

end Cert.KernelIdeal.Hand
-- ==== Proof.KI.HostReadB.lean ====
import proofs.«406228_j54073638257180_1_alg».proof.Proof.Gen.KernelIdeal.Launch
import proofs.«406228_j54073638257180_1_alg».proof.Proof.KI.HostReadDefs
import Idealize.ShloMosaic.Lib.StableHlo.Run
import Idealize.ShloMosaic.Lib.Pipeline.Frame

/-!
# The host stretches read as pure functions: stretches 5 to 8

For an arbitrary valuation of the buffers before a group of consecutive host stretches, each buffer the group hands on
is the named function of the buffers the group reads.
-/

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## Stretches 5 to 5_6: layer 0's end, layer 1's normalisation and its first weights -/

theorem K_v104 (V : Valuation τ sig (Elt F)) :
    StableHlo.after (hostOps5 ++ hostOps5_1 ++ hostOps5_2 ++ hostOps5_3 ++ hostOps5_4 ++ hostOps5_5 ++ hostOps5_6) V (Proc.devRef .tc main_v104)
      = Kst.layerOut (V (Proc.devRef .tc main_v76)) (V (Proc.devRef .tc main_v78)) (V (Proc.devRef .tc main_v42))
          (Kst.row (V (Proc.devRef .tc main_arg13)) ![0, 0] slices_S2x64_S1x64_0_0)
          (Kst.row (V (Proc.devRef .tc main_arg14)) ![0, 0] slices_S2x64_S1x64_0_0) := by
  dsimp only [hostOps5, hostOps5_1, hostOps5_2, hostOps5_3, hostOps5_4, hostOps5_5, hostOps5_6, List.cons_append, List.nil_append, List.append_assoc]
  after_results_simp
  try simp only [StableHlo.TRef.ofBuf, StableHlo.TRef.toBuf, cast_eq]
  rfl

set_option maxHeartbeats 1600000 in
theorem K_v126 (V : Valuation τ sig (Elt F)) :
    StableHlo.after (hostOps5 ++ hostOps5_1 ++ hostOps5_2 ++ hostOps5_3 ++ hostOps5_4 ++ hostOps5_5 ++ hostOps5_6) V (Proc.devRef .tc main_v126)
      = Kst.ln (Kst.layerOut (V (Proc.devRef .tc main_v76)) (V (Proc.devRef .tc main_v78)) (V (Proc.devRef .tc main_v42))
          (Kst.row (V (Proc.devRef .tc main_arg13)) ![0, 0] slices_S2x64_S1x64_0_0)
          (Kst.row (V (Proc.devRef .tc main_arg14)) ![0, 0] slices_S2x64_S1x64_0_0))
          (Kst.row (V (Proc.devRef .tc main_arg7)) ![1, 0] slices_S2x64_S1x64_1_0)
          (Kst.row (V (Proc.devRef .tc main_arg8)) ![1, 0] slices_S2x64_S1x64_1_0) := by
  dsimp only [hostOps5, hostOps5_1, hostOps5_2, hostOps5_3, hostOps5_4, hostOps5_5, hostOps5_6, List.cons_append, List.nil_append, List.append_assoc]
  after_results_simp
  rfl

theorem K_v128 (V : Valuation τ sig (Elt F)) :
    StableHlo.after (hostOps5 ++ hostOps5_1 ++ hostOps5_2 ++ hostOps5_3 ++ hostOps5_4 ++ hostOps5_5 ++ hostOps5_6) V (Proc.devRef .tc main_v128)
      = Kst.mat (V (Proc.devRef .tc main_arg9)) ![1, 0, 0] slices_S2x64x64_S1x64x64_1_0_0 := by
  dsimp only [hostOps5, hostOps5_1, hostOps5_2, hostOps5_3, hostOps5_4, hostOps5_5, hostOps5_6, List.cons_append, List.nil_append, List.append_assoc]
  after_results_simp
  try simp only [StableHlo.TRef.ofBuf, StableHlo.TRef.toBuf, cast_eq]
  rfl

theorem K_v131 (V : Valuation τ sig (Elt F)) :
    StableHlo.after (hostOps5 ++ hostOps5_1 ++ hostOps5_2 ++ hostOps5_3 ++ hostOps5_4 ++ hostOps5_5 ++ hostOps5_6) V (Proc.devRef .tc main_v131)
      = Kst.brow (V (Proc.devRef .tc main_arg10)) ![1, 0] slices_S2x64_S1x64_1_0 := by
  dsimp only [hostOps5, hostOps5_1, hostOps5_2, hostOps5_3, hostOps5_4, hostOps5_5, hostOps5_6, List.cons_append, List.nil_append, List.append_assoc]
  after_results_simp
  try simp only [StableHlo.TRef.ofBuf, StableHlo.TRef.toBuf, cast_eq]
  rfl

/-! ## Stretch 6: layer 1's second weights -/

theorem K_v134 (V : Valuation τ sig (Elt F)) :
    StableHlo.after hostOps6 V (Proc.devRef .tc main_v134)
      = Kst.mat (V (Proc.devRef .tc main_arg11)) ![1, 0, 0] slices_S2x64x64_S1x64x64_1_0_0 := by
  dsimp only [hostOps6]
  after_results_simp
  try simp only [StableHlo.TRef.ofBuf, StableHlo.TRef.toBuf, cast_eq]
  rfl

theorem K_v137 (V : Valuation τ sig (Elt F)) :
    StableHlo.after hostOps6 V (Proc.devRef .tc main_v137)
      = Kst.brow (V (Proc.devRef .tc main_arg12)) ![1, 0] slices_S2x64_S1x64_1_0 := by
  dsimp only [hostOps6]
  after_results_simp
  try simp only [StableHlo.TRef.ofBuf, StableHlo.TRef.toBuf, cast_eq]
  rfl

/-! ## Stretch 7: layer 1's gathered, weighted values and the first segment ids -/

theorem K_v148 (V : Valuation τ sig (Elt F)) :
    StableHlo.after hostOps7 V (Proc.devRef .tc main_v148)
      = Kst.gatt (V (Proc.devRef .tc main_v132)) (V (Proc.devRef .tc main_arg18)) (V (Proc.devRef .tc main_arg1)) := by
  dsimp only [hostOps7]
  after_results_simp
  try simp only [StableHlo.TRef.ofBuf, StableHlo.TRef.toBuf, cast_eq]
  rfl

theorem K_v158 (V : Valuation τ sig (Elt F)) :
    StableHlo.after hostOps7 V (Proc.devRef .tc main_v158)
      = Kst.gatt (V (Proc.devRef .tc main_v138)) (V (Proc.devRef .tc main_arg20)) (V (Proc.devRef .tc main_arg2)) := by
  dsimp only [hostOps7]
  after_results_simp
  try simp only [StableHlo.TRef.ofBuf, StableHlo.TRef.toBuf, cast_eq]
  rfl

theorem K_v159 (V : Valuation τ sig (Elt F)) :
    StableHlo.after hostOps7 V (Proc.devRef .tc main_v159) = Kst.segRow (V (Proc.devRef .tc main_arg17)) := by
  dsimp only [hostOps7]
  after_results_simp
  try simp only [StableHlo.TRef.ofBuf, StableHlo.TRef.toBuf, cast_eq]
  rfl

/-! ## Stretch 8: the second segment ids -/

theorem K_v161 (V : Valuation τ sig (Elt F)) :
    StableHlo.after hostOps8 V (Proc.devRef .tc main_v161) = Kst.segRow (V (Proc.devRef .tc main_arg19)) := by
  dsimp only [hostOps8]
  after_results_simp
  try simp only [StableHlo.TRef.ofBuf, StableHlo.TRef.toBuf, cast_eq]
  rfl

end Cert.KernelIdeal.Hand
-- ==== Proof.KI.HostReadC.lean ====
import proofs.«406228_j54073638257180_1_alg».proof.Proof.Gen.KernelIdeal.Launch
import proofs.«406228_j54073638257180_1_alg».proof.Proof.KI.HostReadDefs
import Idealize.ShloMosaic.Lib.StableHlo.Run
import Idealize.ShloMosaic.Lib.Pipeline.Frame

/-!
# The host stretches read as pure functions: stretches 9 and 10

For an arbitrary valuation of the buffers before a group of consecutive host stretches, each buffer the group hands on
is the named function of the buffers the group reads.
-/

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## Stretches 9 to 9_4: layer 1's end and the last dense layer's bias as a row -/

theorem K_v188 (V : Valuation τ sig (Elt F)) :
    StableHlo.after (hostOps9 ++ hostOps9_1 ++ hostOps9_2 ++ hostOps9_3 ++ hostOps9_4) V (Proc.devRef .tc main_v188)
      = Kst.layerOut (V (Proc.devRef .tc main_v160)) (V (Proc.devRef .tc main_v162)) (V (Proc.devRef .tc main_v126))
          (Kst.row (V (Proc.devRef .tc main_arg13)) ![1, 0] slices_S2x64_S1x64_1_0)
          (Kst.row (V (Proc.devRef .tc main_arg14)) ![1, 0] slices_S2x64_S1x64_1_0) := by
  dsimp only [hostOps9, hostOps9_1, hostOps9_2, hostOps9_3, hostOps9_4, List.cons_append, List.nil_append, List.append_assoc]
  after_results_simp
  try simp only [StableHlo.TRef.ofBuf, StableHlo.TRef.toBuf, cast_eq]
  rfl

theorem K_v189 (V : Valuation τ sig (Elt F)) :
    StableHlo.after (hostOps9 ++ hostOps9_1 ++ hostOps9_2 ++ hostOps9_3 ++ hostOps9_4) V (Proc.devRef .tc main_v189) = Kst.vecRow16 (V (Proc.devRef .tc main_arg16)) := by
  dsimp only [hostOps9, hostOps9_1, hostOps9_2, hostOps9_3, hostOps9_4, List.cons_append, List.nil_append, List.append_assoc]
  after_results_simp
  try simp only [StableHlo.TRef.ofBuf, StableHlo.TRef.toBuf, cast_eq]
  rfl

/-! ## Stretch 10: the softmax -/

theorem K_v201 (V : Valuation τ sig (Elt F)) :
    StableHlo.after hostOps10 V (Proc.devRef .tc main_v201) = Kst.softmax (V (Proc.devRef .tc main_v190)) := by
  dsimp only [hostOps10]
  after_results_simp
  try simp only [StableHlo.TRef.ofBuf, StableHlo.TRef.toBuf, cast_eq]
  rfl

end Cert.KernelIdeal.Hand
-- ==== Proof.KI.Walk.lean ====
import proofs.«406228_j54073638257180_1_alg».proof.Proof.KI.Run
import proofs.«406228_j54073638257180_1_alg».proof.Proof.KI.HostReadA
import proofs.«406228_j54073638257180_1_alg».proof.Proof.KI.HostReadB
import proofs.«406228_j54073638257180_1_alg».proof.Proof.KI.HostReadC

/-!
# The walk along the run's boundaries

The buffer contents at the boundaries of the run are a fold from the launch memory. Read at the buffers a kernel region
takes as operands, at the boundary the region is entered from, the fold is the host stretches' named functions applied
to the launch memory's arguments and to the results of the earlier regions; an argument is written by no item, so at
every boundary it holds its launch contents.
-/

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (ρ : Dev nD → PrngReg)

/-! ## An argument is never written: at every boundary it holds its launch contents -/

theorem at_1_main_arg0 (c : Dev nD) : W1 m ρ c (Proc.devRef .tc main_arg0) = m ((c : Thread nD τ).loc main_arg0) :=
  (W1_keep m ρ c main_arg0 (by decide)).trans <| rfl

theorem at_1_main_arg3 (c : Dev nD) : W1 m ρ c (Proc.devRef .tc main_arg3) = m ((c : Thread nD τ).loc main_arg3) :=
  (W1_keep m ρ c main_arg3 (by decide)).trans <| rfl

theorem at_0_main_arg4 (c : Dev nD) : W0 m ρ c (Proc.devRef .tc main_arg4) = m ((c : Thread nD τ).loc main_arg4) :=
  rfl

theorem at_2_main_arg5 (c : Dev nD) : W2 m ρ c (Proc.devRef .tc main_arg5) = m ((c : Thread nD τ).loc main_arg5) :=
  (W2_keep m ρ c main_arg5 (by decide)).trans <| (W1_keep m ρ c main_arg5 (by decide)).trans <| rfl

theorem at_2_main_arg6 (c : Dev nD) : W2 m ρ c (Proc.devRef .tc main_arg6) = m ((c : Thread nD τ).loc main_arg6) :=
  (W2_keep m ρ c main_arg6 (by decide)).trans <| (W1_keep m ρ c main_arg6 (by decide)).trans <| rfl

theorem at_2_main_arg7 (c : Dev nD) : W2 m ρ c (Proc.devRef .tc main_arg7) = m ((c : Thread nD τ).loc main_arg7) :=
  (W2_keep m ρ c main_arg7 (by decide)).trans <| (W1_keep m ρ c main_arg7 (by decide)).trans <| rfl

theorem at_2_main_arg8 (c : Dev nD) : W2 m ρ c (Proc.devRef .tc main_arg8) = m ((c : Thread nD τ).loc main_arg8) :=
  (W2_keep m ρ c main_arg8 (by decide)).trans <| (W1_keep m ρ c main_arg8 (by decide)).trans <| rfl

theorem at_2_main_arg9 (c : Dev nD) : W2 m ρ c (Proc.devRef .tc main_arg9) = m ((c : Thread nD τ).loc main_arg9) :=
  (W2_keep m ρ c main_arg9 (by decide)).trans <| (W1_keep m ρ c main_arg9 (by decide)).trans <| rfl

theorem at_2_main_arg10 (c : Dev nD) : W2 m ρ c (Proc.devRef .tc main_arg10) = m ((c : Thread nD τ).loc main_arg10) :=
  (W2_keep m ρ c main_arg10 (by decide)).trans <| (W1_keep m ρ c main_arg10 (by decide)).trans <| rfl

theorem at_8_main_arg11 (c : Dev nD) : W8 m ρ c (Proc.devRef .tc main_arg11) = m ((c : Thread nD τ).loc main_arg11) :=
  (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

theorem at_8_main_arg12 (c : Dev nD) : W8 m ρ c (Proc.devRef .tc main_arg12) = m ((c : Thread nD τ).loc main_arg12) :=
  (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans <| rfl

theorem at_10_main_arg18 (c : Dev nD) : W10 m ρ c (Proc.devRef .tc main_arg18) = m ((c : Thread nD τ).loc main_arg18) :=
  (W10_keep m ρ c main_arg18 (by decide)).trans <| (W9_keep m ρ c main_arg18 (by decide)).trans <| (W8_keep m ρ c main_arg18 (by decide)).trans <| (W7_keep m ρ c main_arg18 (by decide)).trans <| (W6_keep m ρ c main_arg18 (by decide)).trans <| (W5_keep m ρ c main_arg18 (by decide)).trans <| (W4_keep m ρ c main_arg18 (by decide)).trans <| (W3_keep m ρ c main_arg18 (by decide)).trans <| (W2_keep m ρ c main_arg18 (by decide)).trans <| (W1_keep m ρ c main_arg18 (by decide)).trans <| rfl

theorem at_10_main_arg1 (c : Dev nD) : W10 m ρ c (Proc.devRef .tc main_arg1) = m ((c : Thread nD τ).loc main_arg1) :=
  (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem at_10_main_arg17 (c : Dev nD) : W10 m ρ c (Proc.devRef .tc main_arg17) = m ((c : Thread nD τ).loc main_arg17) :=
  (W10_keep m ρ c main_arg17 (by decide)).trans <| (W9_keep m ρ c main_arg17 (by decide)).trans <| (W8_keep m ρ c main_arg17 (by decide)).trans <| (W7_keep m ρ c main_arg17 (by decide)).trans <| (W6_keep m ρ c main_arg17 (by decide)).trans <| (W5_keep m ρ c main_arg17 (by decide)).trans <| (W4_keep m ρ c main_arg17 (by decide)).trans <| (W3_keep m ρ c main_arg17 (by decide)).trans <| (W2_keep m ρ c main_arg17 (by decide)).trans <| (W1_keep m ρ c main_arg17 (by decide)).trans <| rfl

theorem at_10_main_arg20 (c : Dev nD) : W10 m ρ c (Proc.devRef .tc main_arg20) = m ((c : Thread nD τ).loc main_arg20) :=
  (W10_keep m ρ c main_arg20 (by decide)).trans <| (W9_keep m ρ c main_arg20 (by decide)).trans <| (W8_keep m ρ c main_arg20 (by decide)).trans <| (W7_keep m ρ c main_arg20 (by decide)).trans <| (W6_keep m ρ c main_arg20 (by decide)).trans <| (W5_keep m ρ c main_arg20 (by decide)).trans <| (W4_keep m ρ c main_arg20 (by decide)).trans <| (W3_keep m ρ c main_arg20 (by decide)).trans <| (W2_keep m ρ c main_arg20 (by decide)).trans <| (W1_keep m ρ c main_arg20 (by decide)).trans <| rfl

theorem at_10_main_arg2 (c : Dev nD) : W10 m ρ c (Proc.devRef .tc main_arg2) = m ((c : Thread nD τ).loc main_arg2) :=
  (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem at_12_main_arg19 (c : Dev nD) : W12 m ρ c (Proc.devRef .tc main_arg19) = m ((c : Thread nD τ).loc main_arg19) :=
  (W12_keep m ρ c main_arg19 (by decide)).trans <| (W11_keep m ρ c main_arg19 (by decide)).trans <| (W10_keep m ρ c main_arg19 (by decide)).trans <| (W9_keep m ρ c main_arg19 (by decide)).trans <| (W8_keep m ρ c main_arg19 (by decide)).trans <| (W7_keep m ρ c main_arg19 (by decide)).trans <| (W6_keep m ρ c main_arg19 (by decide)).trans <| (W5_keep m ρ c main_arg19 (by decide)).trans <| (W4_keep m ρ c main_arg19 (by decide)).trans <| (W3_keep m ρ c main_arg19 (by decide)).trans <| (W2_keep m ρ c main_arg19 (by decide)).trans <| (W1_keep m ρ c main_arg19 (by decide)).trans <| rfl

theorem at_14_main_arg13 (c : Dev nD) : W14 m ρ c (Proc.devRef .tc main_arg13) = m ((c : Thread nD τ).loc main_arg13) :=
  (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans <| rfl

theorem at_14_main_arg14 (c : Dev nD) : W14 m ρ c (Proc.devRef .tc main_arg14) = m ((c : Thread nD τ).loc main_arg14) :=
  (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans <| rfl

theorem at_14_main_arg7 (c : Dev nD) : W14 m ρ c (Proc.devRef .tc main_arg7) = m ((c : Thread nD τ).loc main_arg7) :=
  (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl

theorem at_14_main_arg8 (c : Dev nD) : W14 m ρ c (Proc.devRef .tc main_arg8) = m ((c : Thread nD τ).loc main_arg8) :=
  (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl

theorem at_14_main_arg9 (c : Dev nD) : W14 m ρ c (Proc.devRef .tc main_arg9) = m ((c : Thread nD τ).loc main_arg9) :=
  (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl

theorem at_14_main_arg10 (c : Dev nD) : W14 m ρ c (Proc.devRef .tc main_arg10) = m ((c : Thread nD τ).loc main_arg10) :=
  (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl

theorem at_22_main_arg11 (c : Dev nD) : W22 m ρ c (Proc.devRef .tc main_arg11) = m ((c : Thread nD τ).loc main_arg11) :=
  (W22_keep m ρ c main_arg11 (by decide)).trans <| (W21_keep m ρ c main_arg11 (by decide)).trans <| (W20_keep m ρ c main_arg11 (by decide)).trans <| (W19_keep m ρ c main_arg11 (by decide)).trans <| (W18_keep m ρ c main_arg11 (by decide)).trans <| (W17_keep m ρ c main_arg11 (by decide)).trans <| (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

theorem at_22_main_arg12 (c : Dev nD) : W22 m ρ c (Proc.devRef .tc main_arg12) = m ((c : Thread nD τ).loc main_arg12) :=
  (W22_keep m ρ c main_arg12 (by decide)).trans <| (W21_keep m ρ c main_arg12 (by decide)).trans <| (W20_keep m ρ c main_arg12 (by decide)).trans <| (W19_keep m ρ c main_arg12 (by decide)).trans <| (W18_keep m ρ c main_arg12 (by decide)).trans <| (W17_keep m ρ c main_arg12 (by decide)).trans <| (W16_keep m ρ c main_arg12 (by decide)).trans <| (W15_keep m ρ c main_arg12 (by decide)).trans <| (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans <| rfl

theorem at_24_main_arg18 (c : Dev nD) : W24 m ρ c (Proc.devRef .tc main_arg18) = m ((c : Thread nD τ).loc main_arg18) :=
  (W24_keep m ρ c main_arg18 (by decide)).trans <| (W23_keep m ρ c main_arg18 (by decide)).trans <| (W22_keep m ρ c main_arg18 (by decide)).trans <| (W21_keep m ρ c main_arg18 (by decide)).trans <| (W20_keep m ρ c main_arg18 (by decide)).trans <| (W19_keep m ρ c main_arg18 (by decide)).trans <| (W18_keep m ρ c main_arg18 (by decide)).trans <| (W17_keep m ρ c main_arg18 (by decide)).trans <| (W16_keep m ρ c main_arg18 (by decide)).trans <| (W15_keep m ρ c main_arg18 (by decide)).trans <| (W14_keep m ρ c main_arg18 (by decide)).trans <| (W13_keep m ρ c main_arg18 (by decide)).trans <| (W12_keep m ρ c main_arg18 (by decide)).trans <| (W11_keep m ρ c main_arg18 (by decide)).trans <| (W10_keep m ρ c main_arg18 (by decide)).trans <| (W9_keep m ρ c main_arg18 (by decide)).trans <| (W8_keep m ρ c main_arg18 (by decide)).trans <| (W7_keep m ρ c main_arg18 (by decide)).trans <| (W6_keep m ρ c main_arg18 (by decide)).trans <| (W5_keep m ρ c main_arg18 (by decide)).trans <| (W4_keep m ρ c main_arg18 (by decide)).trans <| (W3_keep m ρ c main_arg18 (by decide)).trans <| (W2_keep m ρ c main_arg18 (by decide)).trans <| (W1_keep m ρ c main_arg18 (by decide)).trans <| rfl

theorem at_24_main_arg1 (c : Dev nD) : W24 m ρ c (Proc.devRef .tc main_arg1) = m ((c : Thread nD τ).loc main_arg1) :=
  (W24_keep m ρ c main_arg1 (by decide)).trans <| (W23_keep m ρ c main_arg1 (by decide)).trans <| (W22_keep m ρ c main_arg1 (by decide)).trans <| (W21_keep m ρ c main_arg1 (by decide)).trans <| (W20_keep m ρ c main_arg1 (by decide)).trans <| (W19_keep m ρ c main_arg1 (by decide)).trans <| (W18_keep m ρ c main_arg1 (by decide)).trans <| (W17_keep m ρ c main_arg1 (by decide)).trans <| (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem at_24_main_arg17 (c : Dev nD) : W24 m ρ c (Proc.devRef .tc main_arg17) = m ((c : Thread nD τ).loc main_arg17) :=
  (W24_keep m ρ c main_arg17 (by decide)).trans <| (W23_keep m ρ c main_arg17 (by decide)).trans <| (W22_keep m ρ c main_arg17 (by decide)).trans <| (W21_keep m ρ c main_arg17 (by decide)).trans <| (W20_keep m ρ c main_arg17 (by decide)).trans <| (W19_keep m ρ c main_arg17 (by decide)).trans <| (W18_keep m ρ c main_arg17 (by decide)).trans <| (W17_keep m ρ c main_arg17 (by decide)).trans <| (W16_keep m ρ c main_arg17 (by decide)).trans <| (W15_keep m ρ c main_arg17 (by decide)).trans <| (W14_keep m ρ c main_arg17 (by decide)).trans <| (W13_keep m ρ c main_arg17 (by decide)).trans <| (W12_keep m ρ c main_arg17 (by decide)).trans <| (W11_keep m ρ c main_arg17 (by decide)).trans <| (W10_keep m ρ c main_arg17 (by decide)).trans <| (W9_keep m ρ c main_arg17 (by decide)).trans <| (W8_keep m ρ c main_arg17 (by decide)).trans <| (W7_keep m ρ c main_arg17 (by decide)).trans <| (W6_keep m ρ c main_arg17 (by decide)).trans <| (W5_keep m ρ c main_arg17 (by decide)).trans <| (W4_keep m ρ c main_arg17 (by decide)).trans <| (W3_keep m ρ c main_arg17 (by decide)).trans <| (W2_keep m ρ c main_arg17 (by decide)).trans <| (W1_keep m ρ c main_arg17 (by decide)).trans <| rfl

theorem at_24_main_arg20 (c : Dev nD) : W24 m ρ c (Proc.devRef .tc main_arg20) = m ((c : Thread nD τ).loc main_arg20) :=
  (W24_keep m ρ c main_arg20 (by decide)).trans <| (W23_keep m ρ c main_arg20 (by decide)).trans <| (W22_keep m ρ c main_arg20 (by decide)).trans <| (W21_keep m ρ c main_arg20 (by decide)).trans <| (W20_keep m ρ c main_arg20 (by decide)).trans <| (W19_keep m ρ c main_arg20 (by decide)).trans <| (W18_keep m ρ c main_arg20 (by decide)).trans <| (W17_keep m ρ c main_arg20 (by decide)).trans <| (W16_keep m ρ c main_arg20 (by decide)).trans <| (W15_keep m ρ c main_arg20 (by decide)).trans <| (W14_keep m ρ c main_arg20 (by decide)).trans <| (W13_keep m ρ c main_arg20 (by decide)).trans <| (W12_keep m ρ c main_arg20 (by decide)).trans <| (W11_keep m ρ c main_arg20 (by decide)).trans <| (W10_keep m ρ c main_arg20 (by decide)).trans <| (W9_keep m ρ c main_arg20 (by decide)).trans <| (W8_keep m ρ c main_arg20 (by decide)).trans <| (W7_keep m ρ c main_arg20 (by decide)).trans <| (W6_keep m ρ c main_arg20 (by decide)).trans <| (W5_keep m ρ c main_arg20 (by decide)).trans <| (W4_keep m ρ c main_arg20 (by decide)).trans <| (W3_keep m ρ c main_arg20 (by decide)).trans <| (W2_keep m ρ c main_arg20 (by decide)).trans <| (W1_keep m ρ c main_arg20 (by decide)).trans <| rfl

theorem at_24_main_arg2 (c : Dev nD) : W24 m ρ c (Proc.devRef .tc main_arg2) = m ((c : Thread nD τ).loc main_arg2) :=
  (W24_keep m ρ c main_arg2 (by decide)).trans <| (W23_keep m ρ c main_arg2 (by decide)).trans <| (W22_keep m ρ c main_arg2 (by decide)).trans <| (W21_keep m ρ c main_arg2 (by decide)).trans <| (W20_keep m ρ c main_arg2 (by decide)).trans <| (W19_keep m ρ c main_arg2 (by decide)).trans <| (W18_keep m ρ c main_arg2 (by decide)).trans <| (W17_keep m ρ c main_arg2 (by decide)).trans <| (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem at_26_main_arg19 (c : Dev nD) : W26 m ρ c (Proc.devRef .tc main_arg19) = m ((c : Thread nD τ).loc main_arg19) :=
  (W26_keep m ρ c main_arg19 (by decide)).trans <| (W25_keep m ρ c main_arg19 (by decide)).trans <| (W24_keep m ρ c main_arg19 (by decide)).trans <| (W23_keep m ρ c main_arg19 (by decide)).trans <| (W22_keep m ρ c main_arg19 (by decide)).trans <| (W21_keep m ρ c main_arg19 (by decide)).trans <| (W20_keep m ρ c main_arg19 (by decide)).trans <| (W19_keep m ρ c main_arg19 (by decide)).trans <| (W18_keep m ρ c main_arg19 (by decide)).trans <| (W17_keep m ρ c main_arg19 (by decide)).trans <| (W16_keep m ρ c main_arg19 (by decide)).trans <| (W15_keep m ρ c main_arg19 (by decide)).trans <| (W14_keep m ρ c main_arg19 (by decide)).trans <| (W13_keep m ρ c main_arg19 (by decide)).trans <| (W12_keep m ρ c main_arg19 (by decide)).trans <| (W11_keep m ρ c main_arg19 (by decide)).trans <| (W10_keep m ρ c main_arg19 (by decide)).trans <| (W9_keep m ρ c main_arg19 (by decide)).trans <| (W8_keep m ρ c main_arg19 (by decide)).trans <| (W7_keep m ρ c main_arg19 (by decide)).trans <| (W6_keep m ρ c main_arg19 (by decide)).trans <| (W5_keep m ρ c main_arg19 (by decide)).trans <| (W4_keep m ρ c main_arg19 (by decide)).trans <| (W3_keep m ρ c main_arg19 (by decide)).trans <| (W2_keep m ρ c main_arg19 (by decide)).trans <| (W1_keep m ρ c main_arg19 (by decide)).trans <| rfl

theorem at_28_main_arg13 (c : Dev nD) : W28 m ρ c (Proc.devRef .tc main_arg13) = m ((c : Thread nD τ).loc main_arg13) :=
  (W28_keep m ρ c main_arg13 (by decide)).trans <| (W27_keep m ρ c main_arg13 (by decide)).trans <| (W26_keep m ρ c main_arg13 (by decide)).trans <| (W25_keep m ρ c main_arg13 (by decide)).trans <| (W24_keep m ρ c main_arg13 (by decide)).trans <| (W23_keep m ρ c main_arg13 (by decide)).trans <| (W22_keep m ρ c main_arg13 (by decide)).trans <| (W21_keep m ρ c main_arg13 (by decide)).trans <| (W20_keep m ρ c main_arg13 (by decide)).trans <| (W19_keep m ρ c main_arg13 (by decide)).trans <| (W18_keep m ρ c main_arg13 (by decide)).trans <| (W17_keep m ρ c main_arg13 (by decide)).trans <| (W16_keep m ρ c main_arg13 (by decide)).trans <| (W15_keep m ρ c main_arg13 (by decide)).trans <| (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans <| rfl

theorem at_28_main_arg14 (c : Dev nD) : W28 m ρ c (Proc.devRef .tc main_arg14) = m ((c : Thread nD τ).loc main_arg14) :=
  (W28_keep m ρ c main_arg14 (by decide)).trans <| (W27_keep m ρ c main_arg14 (by decide)).trans <| (W26_keep m ρ c main_arg14 (by decide)).trans <| (W25_keep m ρ c main_arg14 (by decide)).trans <| (W24_keep m ρ c main_arg14 (by decide)).trans <| (W23_keep m ρ c main_arg14 (by decide)).trans <| (W22_keep m ρ c main_arg14 (by decide)).trans <| (W21_keep m ρ c main_arg14 (by decide)).trans <| (W20_keep m ρ c main_arg14 (by decide)).trans <| (W19_keep m ρ c main_arg14 (by decide)).trans <| (W18_keep m ρ c main_arg14 (by decide)).trans <| (W17_keep m ρ c main_arg14 (by decide)).trans <| (W16_keep m ρ c main_arg14 (by decide)).trans <| (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans <| rfl

theorem at_28_main_arg16 (c : Dev nD) : W28 m ρ c (Proc.devRef .tc main_arg16) = m ((c : Thread nD τ).loc main_arg16) :=
  (W28_keep m ρ c main_arg16 (by decide)).trans <| (W27_keep m ρ c main_arg16 (by decide)).trans <| (W26_keep m ρ c main_arg16 (by decide)).trans <| (W25_keep m ρ c main_arg16 (by decide)).trans <| (W24_keep m ρ c main_arg16 (by decide)).trans <| (W23_keep m ρ c main_arg16 (by decide)).trans <| (W22_keep m ρ c main_arg16 (by decide)).trans <| (W21_keep m ρ c main_arg16 (by decide)).trans <| (W20_keep m ρ c main_arg16 (by decide)).trans <| (W19_keep m ρ c main_arg16 (by decide)).trans <| (W18_keep m ρ c main_arg16 (by decide)).trans <| (W17_keep m ρ c main_arg16 (by decide)).trans <| (W16_keep m ρ c main_arg16 (by decide)).trans <| (W15_keep m ρ c main_arg16 (by decide)).trans <| (W14_keep m ρ c main_arg16 (by decide)).trans <| (W13_keep m ρ c main_arg16 (by decide)).trans <| (W12_keep m ρ c main_arg16 (by decide)).trans <| (W11_keep m ρ c main_arg16 (by decide)).trans <| (W10_keep m ρ c main_arg16 (by decide)).trans <| (W9_keep m ρ c main_arg16 (by decide)).trans <| (W8_keep m ρ c main_arg16 (by decide)).trans <| (W7_keep m ρ c main_arg16 (by decide)).trans <| (W6_keep m ρ c main_arg16 (by decide)).trans <| (W5_keep m ρ c main_arg16 (by decide)).trans <| (W4_keep m ρ c main_arg16 (by decide)).trans <| (W3_keep m ρ c main_arg16 (by decide)).trans <| (W2_keep m ρ c main_arg16 (by decide)).trans <| (W1_keep m ρ c main_arg16 (by decide)).trans <| rfl

theorem at_33_main_arg15 (c : Dev nD) : W33 m ρ c (Proc.devRef .tc main_arg15) = m ((c : Thread nD τ).loc main_arg15) :=
  (W33_keep m ρ c main_arg15 (by decide)).trans <| (W32_keep m ρ c main_arg15 (by decide)).trans <| (W31_keep m ρ c main_arg15 (by decide)).trans <| (W30_keep m ρ c main_arg15 (by decide)).trans <| (W29_keep m ρ c main_arg15 (by decide)).trans <| (W28_keep m ρ c main_arg15 (by decide)).trans <| (W27_keep m ρ c main_arg15 (by decide)).trans <| (W26_keep m ρ c main_arg15 (by decide)).trans <| (W25_keep m ρ c main_arg15 (by decide)).trans <| (W24_keep m ρ c main_arg15 (by decide)).trans <| (W23_keep m ρ c main_arg15 (by decide)).trans <| (W22_keep m ρ c main_arg15 (by decide)).trans <| (W21_keep m ρ c main_arg15 (by decide)).trans <| (W20_keep m ρ c main_arg15 (by decide)).trans <| (W19_keep m ρ c main_arg15 (by decide)).trans <| (W18_keep m ρ c main_arg15 (by decide)).trans <| (W17_keep m ρ c main_arg15 (by decide)).trans <| (W16_keep m ρ c main_arg15 (by decide)).trans <| (W15_keep m ρ c main_arg15 (by decide)).trans <| (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans <| rfl

/-! ## A group of consecutive stretches is one fold -/

theorem W7_eq (c : Dev nD) : W7 m ρ c = StableHlo.after (hostOps1 ++ hostOps1_1 ++ hostOps1_2 ++ hostOps1_3 ++ hostOps1_4) (W2 m ρ c) := by
  simp only [StableHlo.after_append] <;> rfl

theorem W21_eq (c : Dev nD) : W21 m ρ c = StableHlo.after (hostOps5 ++ hostOps5_1 ++ hostOps5_2 ++ hostOps5_3 ++ hostOps5_4 ++ hostOps5_5 ++ hostOps5_6) (W14 m ρ c) := by
  simp only [StableHlo.after_append] <;> rfl

theorem W33_eq (c : Dev nD) : W33 m ρ c = StableHlo.after (hostOps9 ++ hostOps9_1 ++ hostOps9_2 ++ hostOps9_3 ++ hostOps9_4) (W28 m ρ c) := by
  simp only [StableHlo.after_append] <;> rfl

/-! ## The walk: every region operand at the region's entry, and the result -/

theorem walk_1_main_v0 (c : Dev nD) :
    W1 m ρ c (Proc.devRef .tc main_v0)
      = Kst.vecRow (m ((c : Thread nD τ).loc main_arg4)) := by
  refine (K_v0 (W0 m ρ c)).trans ?_
  rw [at_0_main_arg4]

theorem walk_7_main_v42 (c : Dev nD) :
    W7 m ρ c (Proc.devRef .tc main_v42)
      = Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0) := by
  refine ((congrFun (W7_eq m ρ c) _).trans (K_v42 (W2 m ρ c))).trans ?_
  rw [at_2_main_arg5, at_2_main_arg6, at_2_main_arg7, at_2_main_arg8]

theorem walk_7_main_v44 (c : Dev nD) :
    W7 m ρ c (Proc.devRef .tc main_v44)
      = Kst.mat (m ((c : Thread nD τ).loc main_arg9)) ![0, 0, 0] slices_S2x64x64_S1x64x64_0_0_0 := by
  refine ((congrFun (W7_eq m ρ c) _).trans (K_v44 (W2 m ρ c))).trans ?_
  rw [at_2_main_arg9]

theorem walk_7_main_v47 (c : Dev nD) :
    W7 m ρ c (Proc.devRef .tc main_v47)
      = Kst.brow (m ((c : Thread nD τ).loc main_arg10)) ![0, 0] slices_S2x64_S1x64_0_0 := by
  refine ((congrFun (W7_eq m ρ c) _).trans (K_v47 (W2 m ρ c))).trans ?_
  rw [at_2_main_arg10]

theorem walk_9_main_v42 (c : Dev nD) :
    W9 m ρ c (Proc.devRef .tc main_v42)
      = Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0) := by
  exact ((W9_keep m ρ c main_v42 (by decide)).trans <| (W8_keep m ρ c main_v42 (by decide)).trans <| rfl).trans (walk_7_main_v42 m ρ c)

theorem walk_9_main_v50 (c : Dev nD) :
    W9 m ρ c (Proc.devRef .tc main_v50)
      = Kst.mat (m ((c : Thread nD τ).loc main_arg11)) ![0, 0, 0] slices_S2x64x64_S1x64x64_0_0_0 := by
  refine (K_v50 (W8 m ρ c)).trans ?_
  rw [at_8_main_arg11]

theorem walk_9_main_v53 (c : Dev nD) :
    W9 m ρ c (Proc.devRef .tc main_v53)
      = Kst.brow (m ((c : Thread nD τ).loc main_arg12)) ![0, 0] slices_S2x64_S1x64_0_0 := by
  refine (K_v53 (W8 m ρ c)).trans ?_
  rw [at_8_main_arg12]

theorem walk_11_main_v64 (c : Dev nD) :
    W11 m ρ c (Proc.devRef .tc main_v64)
      = Kst.gatt (W8 m ρ c (Proc.devRef .tc main_v48)) (m ((c : Thread nD τ).loc main_arg18)) (m ((c : Thread nD τ).loc main_arg1)) := by
  refine (K_v64 (W10 m ρ c)).trans ?_
  rw [at_10_main_arg18, at_10_main_arg1, show W10 m ρ c (Proc.devRef .tc main_v48) = W8 m ρ c (Proc.devRef .tc main_v48) from (W10_keep m ρ c main_v48 (by decide)).trans <| (W9_keep m ρ c main_v48 (by decide)).trans <| rfl]

theorem walk_11_main_v75 (c : Dev nD) :
    W11 m ρ c (Proc.devRef .tc main_v75)
      = Kst.segRow (m ((c : Thread nD τ).loc main_arg17)) := by
  refine (K_v75 (W10 m ρ c)).trans ?_
  rw [at_10_main_arg17]

theorem walk_13_main_v74 (c : Dev nD) :
    W13 m ρ c (Proc.devRef .tc main_v74)
      = Kst.gatt (W10 m ρ c (Proc.devRef .tc main_v54)) (m ((c : Thread nD τ).loc main_arg20)) (m ((c : Thread nD τ).loc main_arg2)) := by
  refine (((W13_keep m ρ c main_v74 (by decide)).trans <| (W12_keep m ρ c main_v74 (by decide)).trans <| rfl).trans (K_v74 (W10 m ρ c))).trans ?_
  rw [at_10_main_arg20, at_10_main_arg2]

theorem walk_13_main_v77 (c : Dev nD) :
    W13 m ρ c (Proc.devRef .tc main_v77)
      = Kst.segRow (m ((c : Thread nD τ).loc main_arg19)) := by
  refine (K_v77 (W12 m ρ c)).trans ?_
  rw [at_12_main_arg19]

theorem walk_21_main_v104 (c : Dev nD) :
    W21 m ρ c (Proc.devRef .tc main_v104)
      = Kst.layerOut (W12 m ρ c (Proc.devRef .tc main_v76)) (W14 m ρ c (Proc.devRef .tc main_v78))
      (Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0))
      (Kst.row (m ((c : Thread nD τ).loc main_arg13)) ![0, 0] slices_S2x64_S1x64_0_0) (Kst.row (m ((c : Thread nD τ).loc main_arg14)) ![0, 0] slices_S2x64_S1x64_0_0) := by
  refine ((congrFun (W21_eq m ρ c) _).trans (K_v104 (W14 m ρ c))).trans ?_
  rw [at_14_main_arg13, at_14_main_arg14,
    show W14 m ρ c (Proc.devRef .tc main_v76) = W12 m ρ c (Proc.devRef .tc main_v76) from (W14_keep m ρ c main_v76 (by decide)).trans <| (W13_keep m ρ c main_v76 (by decide)).trans <| rfl,
    show W14 m ρ c (Proc.devRef .tc main_v42) = _ from ((W14_keep m ρ c main_v42 (by decide)).trans <| (W13_keep m ρ c main_v42 (by decide)).trans <| (W12_keep m ρ c main_v42 (by decide)).trans <| (W11_keep m ρ c main_v42 (by decide)).trans <| (W10_keep m ρ c main_v42 (by decide)).trans <| (W9_keep m ρ c main_v42 (by decide)).trans <| (W8_keep m ρ c main_v42 (by decide)).trans <| rfl).trans (walk_7_main_v42 m ρ c)]

theorem walk_21_main_v126 (c : Dev nD) :
    W21 m ρ c (Proc.devRef .tc main_v126)
      = Kst.ln (Kst.layerOut (W12 m ρ c (Proc.devRef .tc main_v76)) (W14 m ρ c (Proc.devRef .tc main_v78))
      (Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0))
      (Kst.row (m ((c : Thread nD τ).loc main_arg13)) ![0, 0] slices_S2x64_S1x64_0_0) (Kst.row (m ((c : Thread nD τ).loc main_arg14)) ![0, 0] slices_S2x64_S1x64_0_0))
    (Kst.row (m ((c : Thread nD τ).loc main_arg7)) ![1, 0] slices_S2x64_S1x64_1_0) (Kst.row (m ((c : Thread nD τ).loc main_arg8)) ![1, 0] slices_S2x64_S1x64_1_0) := by
  refine ((congrFun (W21_eq m ρ c) _).trans (K_v126 (W14 m ρ c))).trans ?_
  rw [at_14_main_arg13, at_14_main_arg14, at_14_main_arg7, at_14_main_arg8,
    show W14 m ρ c (Proc.devRef .tc main_v76) = W12 m ρ c (Proc.devRef .tc main_v76) from (W14_keep m ρ c main_v76 (by decide)).trans <| (W13_keep m ρ c main_v76 (by decide)).trans <| rfl,
    show W14 m ρ c (Proc.devRef .tc main_v42) = _ from ((W14_keep m ρ c main_v42 (by decide)).trans <| (W13_keep m ρ c main_v42 (by decide)).trans <| (W12_keep m ρ c main_v42 (by decide)).trans <| (W11_keep m ρ c main_v42 (by decide)).trans <| (W10_keep m ρ c main_v42 (by decide)).trans <| (W9_keep m ρ c main_v42 (by decide)).trans <| (W8_keep m ρ c main_v42 (by decide)).trans <| rfl).trans (walk_7_main_v42 m ρ c)]

theorem walk_21_main_v128 (c : Dev nD) :
    W21 m ρ c (Proc.devRef .tc main_v128)
      = Kst.mat (m ((c : Thread nD τ).loc main_arg9)) ![1, 0, 0] slices_S2x64x64_S1x64x64_1_0_0 := by
  refine ((congrFun (W21_eq m ρ c) _).trans (K_v128 (W14 m ρ c))).trans ?_
  rw [at_14_main_arg9]

theorem walk_21_main_v131 (c : Dev nD) :
    W21 m ρ c (Proc.devRef .tc main_v131)
      = Kst.brow (m ((c : Thread nD τ).loc main_arg10)) ![1, 0] slices_S2x64_S1x64_1_0 := by
  refine ((congrFun (W21_eq m ρ c) _).trans (K_v131 (W14 m ρ c))).trans ?_
  rw [at_14_main_arg10]

theorem walk_23_main_v126 (c : Dev nD) :
    W23 m ρ c (Proc.devRef .tc main_v126)
      = Kst.ln (Kst.layerOut (W12 m ρ c (Proc.devRef .tc main_v76)) (W14 m ρ c (Proc.devRef .tc main_v78))
      (Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0))
      (Kst.row (m ((c : Thread nD τ).loc main_arg13)) ![0, 0] slices_S2x64_S1x64_0_0) (Kst.row (m ((c : Thread nD τ).loc main_arg14)) ![0, 0] slices_S2x64_S1x64_0_0))
    (Kst.row (m ((c : Thread nD τ).loc main_arg7)) ![1, 0] slices_S2x64_S1x64_1_0) (Kst.row (m ((c : Thread nD τ).loc main_arg8)) ![1, 0] slices_S2x64_S1x64_1_0) := by
  exact ((W23_keep m ρ c main_v126 (by decide)).trans <| (W22_keep m ρ c main_v126 (by decide)).trans <| rfl).trans (walk_21_main_v126 m ρ c)

theorem walk_23_main_v134 (c : Dev nD) :
    W23 m ρ c (Proc.devRef .tc main_v134)
      = Kst.mat (m ((c : Thread nD τ).loc main_arg11)) ![1, 0, 0] slices_S2x64x64_S1x64x64_1_0_0 := by
  refine (K_v134 (W22 m ρ c)).trans ?_
  rw [at_22_main_arg11]

theorem walk_23_main_v137 (c : Dev nD) :
    W23 m ρ c (Proc.devRef .tc main_v137)
      = Kst.brow (m ((c : Thread nD τ).loc main_arg12)) ![1, 0] slices_S2x64_S1x64_1_0 := by
  refine (K_v137 (W22 m ρ c)).trans ?_
  rw [at_22_main_arg12]

theorem walk_25_main_v148 (c : Dev nD) :
    W25 m ρ c (Proc.devRef .tc main_v148)
      = Kst.gatt (W22 m ρ c (Proc.devRef .tc main_v132)) (m ((c : Thread nD τ).loc main_arg18)) (m ((c : Thread nD τ).loc main_arg1)) := by
  refine (K_v148 (W24 m ρ c)).trans ?_
  rw [at_24_main_arg18, at_24_main_arg1, show W24 m ρ c (Proc.devRef .tc main_v132) = W22 m ρ c (Proc.devRef .tc main_v132) from (W24_keep m ρ c main_v132 (by decide)).trans <| (W23_keep m ρ c main_v132 (by decide)).trans <| rfl]

theorem walk_25_main_v159 (c : Dev nD) :
    W25 m ρ c (Proc.devRef .tc main_v159)
      = Kst.segRow (m ((c : Thread nD τ).loc main_arg17)) := by
  refine (K_v159 (W24 m ρ c)).trans ?_
  rw [at_24_main_arg17]

theorem walk_27_main_v158 (c : Dev nD) :
    W27 m ρ c (Proc.devRef .tc main_v158)
      = Kst.gatt (W24 m ρ c (Proc.devRef .tc main_v138)) (m ((c : Thread nD τ).loc main_arg20)) (m ((c : Thread nD τ).loc main_arg2)) := by
  refine (((W27_keep m ρ c main_v158 (by decide)).trans <| (W26_keep m ρ c main_v158 (by decide)).trans <| rfl).trans (K_v158 (W24 m ρ c))).trans ?_
  rw [at_24_main_arg20, at_24_main_arg2]

theorem walk_27_main_v161 (c : Dev nD) :
    W27 m ρ c (Proc.devRef .tc main_v161)
      = Kst.segRow (m ((c : Thread nD τ).loc main_arg19)) := by
  refine (K_v161 (W26 m ρ c)).trans ?_
  rw [at_26_main_arg19]

theorem walk_33_main_v188 (c : Dev nD) :
    W33 m ρ c (Proc.devRef .tc main_v188)
      = Kst.layerOut (W26 m ρ c (Proc.devRef .tc main_v160)) (W28 m ρ c (Proc.devRef .tc main_v162))
  (Kst.ln (Kst.layerOut (W12 m ρ c (Proc.devRef .tc main_v76)) (W14 m ρ c (Proc.devRef .tc main_v78))
      (Kst.ln (Kst.bn (W2 m ρ c (Proc.devRef .tc main_v1)) (m ((c : Thread nD τ).loc main_arg5)) (m ((c : Thread nD τ).loc main_arg6)))
        (Kst.row (m ((c : Thread nD τ).loc main_arg7)) ![0, 0] slices_S2x64_S1x64_0_0) (Kst.row (m ((c : Thread nD τ).loc main_arg8)) ![0, 0] slices_S2x64_S1x64_0_0))
      (Kst.row (m ((c : Thread nD τ).loc main_arg13)) ![0, 0] slices_S2x64_S1x64_0_0) (Kst.row (m ((c : Thread nD τ).loc main_arg14)) ![0, 0] slices_S2x64_S1x64_0_0))
    (Kst.row (m ((c : Thread nD τ).loc main_arg7)) ![1, 0] slices_S2x64_S1x64_1_0) (Kst.row (m ((c : Thread nD τ).loc main_arg8)) ![1, 0] slices_S2x64_S1x64_1_0))
  (Kst.row (m ((c : Thread nD τ).loc main_arg13)) ![1, 0] slices_S2x64_S1x64_1_0) (Kst.row (m ((c : Thread nD τ).loc main_arg14)) ![1, 0] slices_S2x64_S1x64_1_0) := by
  refine ((congrFun (W33_eq m ρ c) _).trans (K_v188 (W28 m ρ c))).trans ?_
  rw [at_28_main_arg13, at_28_main_arg14,
    show W28 m ρ c (Proc.devRef .tc main_v160) = W26 m ρ c (Proc.devRef .tc main_v160) from (W28_keep m ρ c main_v160 (by decide)).trans <| (W27_keep m ρ c main_v160 (by decide)).trans <| rfl,
    show W28 m ρ c (Proc.devRef .tc main_v126) = _ from ((W28_keep m ρ c main_v126 (by decide)).trans <| (W27_keep m ρ c main_v126 (by decide)).trans <| (W26_keep m ρ c main_v126 (by decide)).trans <| (W25_keep m ρ c main_v126 (by decide)).trans <| (W24_keep m ρ c main_v126 (by decide)).trans <| (W23_keep m ρ c main_v126 (by decide)).trans <| (W22_keep m ρ c main_v126 (by decide)).trans <| rfl).trans (walk_21_main_v126 m ρ c)]

theorem walk_33_main_v189 (c : Dev nD) :
    W33 m ρ c (Proc.devRef .tc main_v189)
      = Kst.vecRow16 (m ((c : Thread nD τ).loc main_arg16)) := by
  refine ((congrFun (W33_eq m ρ c) _).trans (K_v189 (W28 m ρ c))).trans ?_
  rw [at_28_main_arg16]

theorem walk_35_main_v201 (c : Dev nD) :
    W35 m ρ c (Proc.devRef .tc main_v201)
      = Kst.softmax (W34 m ρ c (Proc.devRef .tc main_v190)) := by
  exact K_v201 (W34 m ρ c)

end Cert.KernelIdeal.Hand
-- ==== Proof.Spec.Dense.lean ====
/- The dense layer `o = x · w + b` as one function of its three arrays, and the two spellings that compute it. -/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

/-! # The dense layer at the ideal values

`dense x w b` is the matrix product of an `M × K` array of rows `x` with a `K × N` array of weights `w`, plus a
one-row bias `b` added to every row: entry `(r, q)` is `∑ k, x (r, k) * w (k, q) + b (0, q)`, in the extended reals.
Two programs compute it. A host program multiplies (`dot_general` contracting the rows' axis with the weights' first
axis, no batch axes) and adds the bias broadcast down the rows; a kernel multiplies into a zero accumulator and adds
the bias row broadcast down the rows. Both are read here against `dense`, for every `M`, `K`, `N`. A block of rows of
`dense` is `dense` of that block of rows (`dense_rows`): an entry depends on its own row of `x` only. -/

noncomputable section

namespace Cert.Spec

open Idealize.ShloMosaic Idealize.ShloMosaic.ValueIdx

variable {M K N : Nat}

/-- Rows times weights plus the bias row: entry `(r, q)` is `∑ k, x (r, k) * w (k, q) + b (0, q)`. -/
def dense (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => (∑ k : Fin K, x (ix2 (i 0 : Fin M) k) * w (ix2 k (i 1 : Fin N))) + b (ix2 (0 : Fin 1) (i 1 : Fin N))

/-- `dense` at the entry of row `r` and column `q`. -/
theorem dense_apply (x : FVec Ideal ⟨2, ![M, K]⟩ .f32) (w : FVec Ideal ⟨2, ![K, N]⟩ .f32) (b : FVec Ideal ⟨2, ![1, N]⟩ .f32)
    (r : Fin M) (q : Fin N) :
    dense x w b (ix2 r q) = (∑ k : Fin K, x (ix2 r k) * w (ix2 k q)) + b (ix2 (0 : Fin 1) q) := rfl

/-- An entry of `dense` depends on its own row of `x` only: if the rows of `x` are rows `e r` of a taller array `X`,
    the rows of `dense x` are rows `e r` of `dense X`. -/
theorem dense_rows {M' : Nat} (X : FVec Ideal ⟨2, ![M', K]⟩ .f32) (x : FVec Ideal ⟨2, ![M, K]⟩ .f32)
    (w : FVec Ideal ⟨2, ![K, N]⟩ .f32) (b : FVec Ideal ⟨2, ![1, N]⟩ .f32) (e : Fin M → Fin M')
    (hx : ∀ r k, x (ix2 r k) = X (ix2 (e r) k)) (r : Fin M) (q : Fin N) :
    dense x w b (ix2 r q) = dense X w b (ix2 (e r) q) := by
  rw [dense_apply, dense_apply]
  exact congrArg (· + b (ix2 (0 : Fin 1) q)) (Finset.sum_congr rfl fun k _ => by rw [hx r k])

/-- A one-row array broadcast down `M` rows by a kernel (`vector.broadcast` of a `[1, N]` vector to `[M, N]`), read at
    `(r, q)`, is the row at `(0, q)`. -/
theorem broadcastTo_oneRow_apply {α : Type} (hbr : (⟨2, ![1, N]⟩ : Shape).Broadcasts ⟨2, ![M, N]⟩)
    (y : (⟨2, ![1, N]⟩ : Shape).Idx → α) (r : Fin M) (q : Fin N) :
    broadcastTo ⟨2, ![M, N]⟩ y hbr (ix2 r q) = y (ix2 (0 : Fin 1) q) := by
  refine broadcastTo_apply y hbr (ix2 r q) (ix2 (0 : Fin 1) q) ?_
  intro a
  match a with
  | ⟨0, _⟩ => rfl
  | ⟨1, _⟩ =>
    show q.val = if N = 1 then 0 else q.val
    split
    · have := q.isLt; omega
    · rfl

/-- THE HOST'S SPELLING: the plain product (`D` is the dimension numbers of rows times weights) plus the bias row
    broadcast down the rows is `dense`. -/
theorem dotGeneral_add_row_eq_dense (D : DotDims ⟨2, ![M, K]⟩ ⟨2, ![K, N]⟩ ⟨2, ![M, N]⟩) (hD : D = DotDims.plain M K N)
    (prec : Option ContractPrecision) (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) :
    addf (Host.dotGeneral (F := Ideal) D prec x w) (broadcastInDim ⟨2, ![M, N]⟩ ![0, 1] hbc b) = dense x w b := by
  subst hD
  funext i
  obtain ⟨r, q, rfl⟩ : ∃ (r : Fin M) (q : Fin N), i = ix2 r q := ⟨i 0, i 1, eq_ix2 i⟩
  rw [addf_apply, StackMember.dotGeneral_plain_apply, broadcastInDim_oneRow_apply, dense_apply]

/-- THE KERNEL'S SPELLING: the product accumulated into a zero splat plus the bias row broadcast down the rows is
    `dense`. -/
theorem matmul_add_row_eq_dense (D : DotDims ⟨2, ![M, K]⟩ ⟨2, ![K, N]⟩ ⟨2, ![M, N]⟩) (hD : D = DotDims.plain M K N)
    (prec : Option ContractPrecision) (hbr : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32) :
    addf (matmul D prec x w (constant (F := Ideal) ⟨2, ![M, N]⟩ .f32 0x00000000#32)) (broadcastTo ⟨2, ![M, N]⟩ b hbr)
      = dense x w b := by
  subst hD
  rw [matmul_zero_eq_dotGeneral]
  funext i
  obtain ⟨r, q, rfl⟩ : ∃ (r : Fin M) (q : Fin N), i = ix2 r q := ⟨i 0, i 1, eq_ix2 i⟩
  rw [addf_apply, StackMember.dotGeneral_plain_apply, broadcastTo_oneRow_apply, dense_apply]

/-! ## The bias as a one-row array

The bias arrives as a vector of `N` entries; the host lays it out as a `1 × N` array by `broadcast_in_dim` along axis 1
and a program that hands it to a kernel by a reshape. Both are the same one-row array `row b`. -/

/-- A vector as a one-row array: entry `(0, q)` is entry `q`. -/
def row (b : FVec Ideal ⟨1, ![N]⟩ .f32) : FVec Ideal ⟨2, ![1, N]⟩ .f32 := fun i => b (ix1 (i 1 : Fin N))

/-- The host's `broadcast_in_dim` of a vector along axis 1 of a `1 × N` array is `row`. -/
theorem broadcastInDim_eq_row (h : (⟨1, ![N]⟩ : Shape).BroadcastsInDim ⟨2, ![1, N]⟩ ![1]) (b : FVec Ideal ⟨1, ![N]⟩ .f32) :
    broadcastInDim ⟨2, ![1, N]⟩ ![1] h b = row b := by
  funext i
  refine broadcastInDim_apply ![1] h b i (ix1 (i 1 : Fin N)) ?_
  intro a
  match a with
  | ⟨0, _⟩ =>
    show (i 1).val = if N = 1 then 0 else (i 1).val
    split
    · have := (i 1).isLt; have e : (i 1).val < N := this; omega
    · rfl

/-- The reshape of a vector to a `1 × N` array is `row`. -/
theorem shapeCast_eq_row (h : (⟨1, ![N]⟩ : Shape).ShapeCasts ⟨2, ![1, N]⟩) (b : FVec Ideal ⟨1, ![N]⟩ .f32) :
    shapeCast ⟨2, ![1, N]⟩ b h = row b := by
  funext i
  refine shapeCast_apply b h i (ix1 (i 1 : Fin N)) ?_
  rw [Shape.rowMajor_val_two, Shape.rowMajor_val_one]
  have h0 : (i 0).val < 1 := (i 0).isLt
  show (i 1).val = (i 0).val * N + (i 1).val
  have : (i 0).val = 0 := by omega
  rw [this]; omega

end Cert.Spec

end
-- ==== Proof.KI.BiasRow.lean ====
/- The bias vector handed to a dense pipeline as a one-row array. -/
import proofs.«406228_j54073638257180_1_alg».proof.KernelIdeal
import proofs.«406228_j54073638257180_1_alg».proof.Proof.Spec.Dense

/-! # The bias row of a dense pipeline

The program reshapes the bias vector (64 entries, or the last layer's 16) to a one-row array before it hands it to the
pipeline. At the ideal values that row is `Cert.Spec.row` of the vector: entry `(0, q)` is entry `q`. The reference lays
the same vector out by a broadcast along axis 1, which is the same row. -/

noncomputable section

namespace Cert.KernelIdeal.Hand

open Cert.KernelIdeal Idealize.ShloMosaic
open Cert.KernelIdeal.Facts₀ Cert.KernelIdeal.Facts

variable [Facts]

/-- The bias of 64 entries reshaped to one row. -/
theorem bias64_reshape (b : Vec Ideal S64 .f32) : shapeCast S1x64 b shapeCasts_S64_S1x64 = Cert.Spec.row b :=
  Cert.Spec.shapeCast_eq_row (N := 64) shapeCasts_S64_S1x64 b

/-- The bias of 16 entries reshaped to one row. -/
theorem bias16_reshape (b : Vec Ideal S16 .f32) : shapeCast S1x16 b shapeCasts_S16_S1x16 = Cert.Spec.row b :=
  Cert.Spec.shapeCast_eq_row (N := 16) shapeCasts_S16_S1x16 b

end Cert.KernelIdeal.Hand

end
-- ==== Proof.KI.Dense0Value.lean ====
/- The dense layer of pipeline 0: the array it leaves is the dense layer of the arrays it finds. -/
import proofs.«406228_j54073638257180_1_alg».proof.Proof.KI.Dense0
import proofs.«406228_j54073638257180_1_alg».proof.Proof.Spec.Dense

/-! # Pipeline 0's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay0_eq_dense (x : Vec Ideal S4096x200 .f32) (w : Vec Ideal S200x64 .f32) (b : Vec Ideal S1x64 .f32) :
    k0_pay1 (F := Ideal) x w b = Cert.Spec.dense (M := 4096) (K := 200) (N := 64) x w b := by
  show addf (matmul dot_S4096x200_S200x64_S4096x64_1_0_0_1_n_n none x
      w (constant (F := Ideal) S4096x64 .f32 0x00000000#32))
    (broadcastTo S4096x64 (shapeCast S1x64 b shapeCasts_S1x64_S1x64) broadcasts_S1x64_S4096x64) = _
  rw [shapeCast_self]
  exact Cert.Spec.matmul_add_row_eq_dense (M := 4096) (K := 200) (N := 64)
    dot_S4096x200_S200x64_S4096x64_1_0_0_1_n_n rfl none broadcasts_S1x64_S4096x64 x w b

/-! ## The blocks the body loads -/

theorem zeros0 : (![0, 0] : Fin 2 → Nat) = fun _ => 0 := funext fun a => by fin_cases a <;> rfl

/-- The printed index maps, decided over the 64 points: the activations' and the result's block is `(t, 0)`, the
    weights' and the bias's is `(0, 0)`. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result is written back at every point. -/
theorem flushes0_3 : ∀ t : Fin cfg0.N, (cfg0.win 3).flush t = true :=
  (by decide +kernel : ∀ t : Fin grid0.N, win0_3.flush t = true)

/-- Row `r` of the activations' block at point `t` is row `4096 t + r` of the activations. -/
theorem xblock0_apply (c : Dev nD) (t : Fin cfg0.N) (r : Fin 4096) (k : Fin 200) (h : t.val * 4096 + r.val < 262144) :
    (iblk0 V c 0 t : Vec Ideal S4096x200 .f32) (ix2 r k)
      = (V c main_arg0 : Vec Ideal S262144x200 .f32) (ix2 (⟨t.val * 4096 + r.val, h⟩ : Fin 262144) k) := by
  obtain ⟨e0, e1, -, -, -, -, -, -⟩ := index0 t
  show V c main_arg0 (((cfg0.win 0).blk t).view.emb (ix2 r k)) = _
  refine congrArg (V c main_arg0) (funext fun a => Fin.ext ?_)
  match a with
  | ⟨0, _⟩ => show win0_0.index t (0 : Fin 2) * 4096 + 1 * r.val = t.val * 4096 + r.val; omega
  | ⟨1, _⟩ => show win0_0.index t (1 : Fin 2) * 200 + 1 * k.val = k.val; omega

/-- The weights' block at every point is the whole weight matrix. -/
theorem wblock0_eq (c : Dev nD) (t : Fin cfg0.N) :
    (iblk0 V c 1 t : Vec Ideal S200x64 .f32) = (V c main_arg3 : Vec Ideal S200x64 .f32) := by
  obtain ⟨-, -, e2, e3, -, -, -, -⟩ := index0 t
  funext y
  show V c main_arg3 (((cfg0.win 1).blk t).view.emb y) = _
  refine congrArg (V c main_arg3) (funext fun a => Fin.ext ?_)
  match a with
  | ⟨0, _⟩ => show win0_1.index t (0 : Fin 2) * 200 + 1 * (y 0).val = (y 0).val; omega
  | ⟨1, _⟩ => show win0_1.index t (1 : Fin 2) * 64 + 1 * (y 1).val = (y 1).val; omega

/-- The bias's block at every point is the whole bias row. -/
theorem bblock0_eq (c : Dev nD) (t : Fin cfg0.N) :
    (iblk0 V c 2 t : Vec Ideal S1x64 .f32) = (V c main_v0 : Vec Ideal S1x64 .f32) := by
  obtain ⟨-, -, -, -, e4, e5, -, -⟩ := index0 t
  funext y
  show V c main_v0 (((cfg0.win 2).blk t).view.emb y) = _
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-! ## What a point writes back -/

/-- The dense layer of a block of rows, of weights equal to `W` and a bias row equal to `B`, is that block of rows of
    the dense layer of all the rows. -/
theorem dense_of_block0 (X : Vec Ideal S262144x200 .f32) (W : Vec Ideal S200x64 .f32) (B : Vec Ideal S1x64 .f32)
    (x : Vec Ideal S4096x200 .f32) (w : Vec Ideal S200x64 .f32) (b : Vec Ideal S1x64 .f32) (e : Fin 4096 → Fin 262144)
    (hx : ∀ r k, x (ix2 r k) = X (ix2 (e r) k)) (hw : w = W) (hb : b = B) (r : Fin 4096) (q : Fin 64) :
    Cert.Spec.dense (M := 4096) (K := 200) (N := 64) x w b (ix2 r q)
      = Cert.Spec.dense (M := 262144) (K := 200) (N := 64) X W B (ix2 (e r) q) := by
  subst hw hb
  exact Cert.Spec.dense_rows X x w b e hx r q

/-- WHAT POINT `t` WRITES BACK is block `t` of the dense layer of the arrays as the pipeline finds them. -/
theorem flushed0_3_eq (c : Dev nD) (t : Fin cfg0.N) :
    (dat0 (F := Ideal) V c).flushed 3 t = ((cfg0.win 3).blk t).view.read (Elt Ideal)
      (Cert.Spec.dense (M := 262144) (K := 200) (N := 64) (V c main_arg0) (V c main_arg3) (V c main_v0)) := by
  show (cfg0.win 3).cut (grid0.coords t) ((dat0 V c).after 3 t) = _
  rw [after0_3]
  unfold out0_3
  rw [View.canon_unit_zero zeros0]
  simp only [View.ld_unit_zero (S := S4096x200) zeros0, View.ld_unit_zero (S := S200x64) zeros0,
    View.ld_unit_zero (S := S1x64) zeros0]
  obtain ⟨-, -, -, -, -, -, e6, e7⟩ := index0 t
  have ht : t.val < 64 := t.isLt
  funext j
  obtain ⟨r, q, rfl⟩ : ∃ (r : Fin 4096) (q : Fin 64), j = ix2 r q := ⟨j 0, j 1, eq_ix2 j⟩
  have hr : r.val < 4096 := r.isLt
  have hemb : ((cfg0.win 3).blk t).view.emb (ix2 r q) = ix2 (⟨t.val * 4096 + r.val, by omega⟩ : Fin 262144) q := by
    funext a; apply Fin.ext
    match a with
    | ⟨0, _⟩ => show win0_3.index t (0 : Fin 2) * 4096 + 1 * r.val = t.val * 4096 + r.val; omega
    | ⟨1, _⟩ => show win0_3.index t (1 : Fin 2) * 64 + 1 * q.val = q.val; omega
  show k0_pay1 (F := Ideal) (iblk0 V c 0 t) (iblk0 V c 1 t) (iblk0 V c 2 t) (ix2 r q)
    = Cert.Spec.dense (M := 262144) (K := 200) (N := 64) (V c main_arg0) (V c main_arg3) (V c main_v0)
        (((cfg0.win 3).blk t).view.emb (ix2 r q))
  refine (congrFun (pay0_eq_dense (iblk0 V c 0 t) (iblk0 V c 1 t) (iblk0 V c 2 t)) (ix2 r q)).trans ?_
  refine Eq.trans ?_ (congrArg (Cert.Spec.dense (M := 262144) (K := 200) (N := 64) (V c main_arg0) (V c main_arg3) (V c main_v0)) hemb.symm)
  exact dense_of_block0 (V c main_arg0) (V c main_arg3) (V c main_v0) (iblk0 V c 0 t) (iblk0 V c 1 t) (iblk0 V c 2 t)
    (fun r => ⟨t.val * 4096 + r.val, by have := r.isLt; omega⟩)
    (fun r k => xblock0_apply V c t r k _) (wblock0_eq V c t) (bblock0_eq V c t) r q

/-! ## The blocks tile the result -/

/-- An index of the result is in point `t`'s block iff each coordinate is in the block's range on its axis. -/
theorem mem_block0_3 (t : Fin cfg0.N) (i : S262144x64.Idx) :
    i ∈ ((cfg0.win 3).blk t).view.set ↔ ∀ a : Fin 2, win0_3.index t a * S4096x64.size a ≤ (i a).val
      ∧ (i a).val < win0_3.index t a * S4096x64.size a + S4096x64.size a := by
  show i ∈ ((View.whole main_v1).slice (win0_3.rect t)).set ↔ _
  rw [View.set_slice_whole, Rect.mem_set_unit]
  exact Iff.rfl

/-- Row `i` of the result is in the block of point `i / 4096`. -/
theorem cover0_3_blocks (i : S262144x64.Idx) :
    ∃ t : Fin cfg0.N, (cfg0.win 3).flush t = true ∧ i ∈ ((cfg0.win 3).blk t).view.set := by
  have hi0 : (i 0).val < 262144 := (i 0).isLt
  have hi1 : (i 1).val < 64 := (i 1).isLt
  obtain ⟨t, ht⟩ : ∃ t : Fin cfg0.N, t.val = (i 0).val / 4096 :=
    ⟨⟨(i 0).val / 4096, by show (i 0).val / 4096 < 64; omega⟩, rfl⟩
  obtain ⟨-, -, -, -, -, -, e6, e7⟩ := index0 t
  refine ⟨t, flushes0_3 t, ?_⟩
  rw [mem_block0_3]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 64 ≤ (i 1).val ∧ (i 1).val < win0_3.index t (1 : Fin 2) * 64 + 64
    omega

/-! ## The array after the pipeline -/

/-- THE RESULT ARRAY after pipeline 0: the dense layer of the activations, the weights and the bias row as the
    pipeline finds them. -/
theorem dense0_value (c : Dev nD) :
    (dat0 (F := Ideal) V c).arrAt 3 cfg0.N
      = Cert.Spec.dense (M := 262144) (K := 200) (N := 64) (V c main_arg0) (V c main_arg3) (V c main_v0) :=
  (dat0 (F := Ideal) V c).arrAt_eq_of_cover 3 _ (fun t _ => flushed0_3_eq V c t) cover0_3_blocks

end Cert.KernelIdeal.Hand

end
-- ==== Proof.KI.Dense1Value.lean ====
/- The dense layer of pipeline 1: the array it leaves is the dense layer of the arrays it finds. -/
import proofs.«406228_j54073638257180_1_alg».proof.Proof.KI.Dense1
import proofs.«406228_j54073638257180_1_alg».proof.Proof.Spec.Dense

/-! # Pipeline 1's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay1_eq_dense (x : Vec Ideal S4096x64 .f32) (w : Vec Ideal S64x64 .f32) (b : Vec Ideal S1x64 .f32) :
    k1_pay1 (F := Ideal) x w b = Cert.Spec.dense (M := 4096) (K := 64) (N := 64) x w b := by
  show addf (matmul dot_S4096x64_S64x64_S4096x64_1_0_0_1_n_n none (shapeCast S4096x64 x shapeCasts_S4096x64_S4096x64)
      (shapeCast S64x64 w shapeCasts_S64x64_S64x64) (constant (F := Ideal) S4096x64 .f32 0x00000000#32))
    (broadcastTo S4096x64 (shapeCast S1x64 b shapeCasts_S1x64_S1x64) broadcasts_S1x64_S4096x64) = _
  rw [shapeCast_self, shapeCast_self, shapeCast_self]
  exact Cert.Spec.matmul_add_row_eq_dense (M := 4096) (K := 64) (N := 64)
    dot_S4096x64_S64x64_S4096x64_1_0_0_1_n_n rfl none broadcasts_S1x64_S4096x64 x w b

/-! ## The blocks the body loads -/

theorem zeros1 : (![0, 0] : Fin 2 → Nat) = fun _ => 0 := funext fun a => by fin_cases a <;> rfl

/-- The printed index maps, decided over the 64 points: the activations' and the result's block is `(t, 0)`, the
    weights' and the bias's is `(0, 0)`. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The result is written back at every point. -/
theorem flushes1_3 : ∀ t : Fin cfg1.N, (cfg1.win 3).flush t = true :=
  (by decide +kernel : ∀ t : Fin grid1.N, win1_3.flush t = true)

/-- Row `r` of the activations' block at point `t` is row `4096 t + r` of the activations. -/
theorem xblock1_apply (c : Dev nD) (t : Fin cfg1.N) (r : Fin 4096) (k : Fin 64) (h : t.val * 4096 + r.val < 262144) :
    (iblk1 V c 0 t : Vec Ideal S4096x64 .f32) (ix2 r k)
      = (V c main_v42 : Vec Ideal S262144x64 .f32) (ix2 (⟨t.val * 4096 + r.val, h⟩ : Fin 262144) k) := by
  obtain ⟨e0, e1, -, -, -, -, -, -⟩ := index1 t
  show V c main_v42 (((cfg1.win 0).blk t).view.emb (ix2 r k)) = _
  refine congrArg (V c main_v42) (funext fun a => Fin.ext ?_)
  match a with
  | ⟨0, _⟩ => show win1_0.index t (0 : Fin 2) * 4096 + 1 * r.val = t.val * 4096 + r.val; omega
  | ⟨1, _⟩ => show win1_0.index t (1 : Fin 2) * 64 + 1 * k.val = k.val; omega

/-- The weights' block at every point is the whole weight matrix. -/
theorem wblock1_eq (c : Dev nD) (t : Fin cfg1.N) :
    (iblk1 V c 1 t : Vec Ideal S64x64 .f32) = (V c main_v44 : Vec Ideal S64x64 .f32) := by
  obtain ⟨-, -, e2, e3, -, -, -, -⟩ := index1 t
  funext y
  show V c main_v44 (((cfg1.win 1).blk t).view.emb y) = _
  refine congrArg (V c main_v44) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The bias's block at every point is the whole bias row. -/
theorem bblock1_eq (c : Dev nD) (t : Fin cfg1.N) :
    (iblk1 V c 2 t : Vec Ideal S1x64 .f32) = (V c main_v47 : Vec Ideal S1x64 .f32) := by
  obtain ⟨-, -, -, -, e4, e5, -, -⟩ := index1 t
  funext y
  show V c main_v47 (((cfg1.win 2).blk t).view.emb y) = _
  refine congrArg (V c main_v47) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-! ## What a point writes back -/

/-- The dense layer of a block of rows, of weights equal to `W` and a bias row equal to `B`, is that block of rows of
    the dense layer of all the rows. -/
theorem dense_of_block1 (X : Vec Ideal S262144x64 .f32) (W : Vec Ideal S64x64 .f32) (B : Vec Ideal S1x64 .f32)
    (x : Vec Ideal S4096x64 .f32) (w : Vec Ideal S64x64 .f32) (b : Vec Ideal S1x64 .f32) (e : Fin 4096 → Fin 262144)
    (hx : ∀ r k, x (ix2 r k) = X (ix2 (e r) k)) (hw : w = W) (hb : b = B) (r : Fin 4096) (q : Fin 64) :
    Cert.Spec.dense (M := 4096) (K := 64) (N := 64) x w b (ix2 r q)
      = Cert.Spec.dense (M := 262144) (K := 64) (N := 64) X W B (ix2 (e r) q) := by
  subst hw hb
  exact Cert.Spec.dense_rows X x w b e hx r q

/-- WHAT POINT `t` WRITES BACK is block `t` of the dense layer of the arrays as the pipeline finds them. -/
theorem flushed1_3_eq (c : Dev nD) (t : Fin cfg1.N) :
    (dat1 (F := Ideal) V c).flushed 3 t = ((cfg1.win 3).blk t).view.read (Elt Ideal)
      (Cert.Spec.dense (M := 262144) (K := 64) (N := 64) (V c main_v42) (V c main_v44) (V c main_v47)) := by
  show (cfg1.win 3).cut (grid1.coords t) ((dat1 V c).after 3 t) = _
  rw [after1_3]
  unfold out1_3
  rw [View.canon_unit_zero zeros1]
  simp only [View.ld_unit_zero (S := S4096x64) zeros1, View.ld_unit_zero (S := S64x64) zeros1,
    View.ld_unit_zero (S := S1x64) zeros1]
  obtain ⟨-, -, -, -, -, -, e6, e7⟩ := index1 t
  have ht : t.val < 64 := t.isLt
  funext j
  obtain ⟨r, q, rfl⟩ : ∃ (r : Fin 4096) (q : Fin 64), j = ix2 r q := ⟨j 0, j 1, eq_ix2 j⟩
  have hr : r.val < 4096 := r.isLt
  have hemb : ((cfg1.win 3).blk t).view.emb (ix2 r q) = ix2 (⟨t.val * 4096 + r.val, by omega⟩ : Fin 262144) q := by
    funext a; apply Fin.ext
    match a with
    | ⟨0, _⟩ => show win1_3.index t (0 : Fin 2) * 4096 + 1 * r.val = t.val * 4096 + r.val; omega
    | ⟨1, _⟩ => show win1_3.index t (1 : Fin 2) * 64 + 1 * q.val = q.val; omega
  show k1_pay1 (F := Ideal) (iblk1 V c 0 t) (iblk1 V c 1 t) (iblk1 V c 2 t) (ix2 r q)
    = Cert.Spec.dense (M := 262144) (K := 64) (N := 64) (V c main_v42) (V c main_v44) (V c main_v47)
        (((cfg1.win 3).blk t).view.emb (ix2 r q))
  refine (congrFun (pay1_eq_dense (iblk1 V c 0 t) (iblk1 V c 1 t) (iblk1 V c 2 t)) (ix2 r q)).trans ?_
  refine Eq.trans ?_ (congrArg (Cert.Spec.dense (M := 262144) (K := 64) (N := 64) (V c main_v42) (V c main_v44) (V c main_v47)) hemb.symm)
  exact dense_of_block1 (V c main_v42) (V c main_v44) (V c main_v47) (iblk1 V c 0 t) (iblk1 V c 1 t) (iblk1 V c 2 t)
    (fun r => ⟨t.val * 4096 + r.val, by have := r.isLt; omega⟩)
    (fun r k => xblock1_apply V c t r k _) (wblock1_eq V c t) (bblock1_eq V c t) r q

/-! ## The blocks tile the result -/

/-- An index of the result is in point `t`'s block iff each coordinate is in the block's range on its axis. -/
theorem mem_block1_3 (t : Fin cfg1.N) (i : S262144x64.Idx) :
    i ∈ ((cfg1.win 3).blk t).view.set ↔ ∀ a : Fin 2, win1_3.index t a * S4096x64.size a ≤ (i a).val
      ∧ (i a).val < win1_3.index t a * S4096x64.size a + S4096x64.size a := by
  show i ∈ ((View.whole main_v48).slice (win1_3.rect t)).set ↔ _
  rw [View.set_slice_whole, Rect.mem_set_unit]
  exact Iff.rfl

/-- Row `i` of the result is in the block of point `i / 4096`. -/
theorem cover1_3_blocks (i : S262144x64.Idx) :
    ∃ t : Fin cfg1.N, (cfg1.win 3).flush t = true ∧ i ∈ ((cfg1.win 3).blk t).view.set := by
  have hi0 : (i 0).val < 262144 := (i 0).isLt
  have hi1 : (i 1).val < 64 := (i 1).isLt
  obtain ⟨t, ht⟩ : ∃ t : Fin cfg1.N, t.val = (i 0).val / 4096 :=
    ⟨⟨(i 0).val / 4096, by show (i 0).val / 4096 < 64; omega⟩, rfl⟩
  obtain ⟨-, -, -, -, -, -, e6, e7⟩ := index1 t
  refine ⟨t, flushes1_3 t, ?_⟩
  rw [mem_block1_3]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 64 ≤ (i 1).val ∧ (i 1).val < win1_3.index t (1 : Fin 2) * 64 + 64
    omega

/-! ## The array after the pipeline -/

/-- THE RESULT ARRAY after pipeline 1: the dense layer of the activations, the weights and the bias row as the
    pipeline finds them. -/
theorem dense1_value (c : Dev nD) :
    (dat1 (F := Ideal) V c).arrAt 3 cfg1.N
      = Cert.Spec.dense (M := 262144) (K := 64) (N := 64) (V c main_v42) (V c main_v44) (V c main_v47) :=
  (dat1 (F := Ideal) V c).arrAt_eq_of_cover 3 _ (fun t _ => flushed1_3_eq V c t) cover1_3_blocks

end Cert.KernelIdeal.Hand

end
-- ==== Proof.KI.Dense2Value.lean ====
/- The dense layer of pipeline 2: the array it leaves is the dense layer of the arrays it finds. -/
import proofs.«406228_j54073638257180_1_alg».proof.Proof.KI.Dense2
import proofs.«406228_j54073638257180_1_alg».proof.Proof.Spec.Dense

/-! # Pipeline 2's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay2_eq_dense (x : Vec Ideal S4096x64 .f32) (w : Vec Ideal S64x64 .f32) (b : Vec Ideal S1x64 .f32) :
    k2_pay1 (F := Ideal) x w b = Cert.Spec.dense (M := 4096) (K := 64) (N := 64) x w b := by
  show addf (matmul dot_S4096x64_S64x64_S4096x64_1_0_0_1_n_n none (shapeCast S4096x64 x shapeCasts_S4096x64_S4096x64)
      (shapeCast S64x64 w shapeCasts_S64x64_S64x64) (constant (F := Ideal) S4096x64 .f32 0x00000000#32))
    (broadcastTo S4096x64 (shapeCast S1x64 b shapeCasts_S1x64_S1x64) broadcasts_S1x64_S4096x64) = _
  rw [shapeCast_self, shapeCast_self, shapeCast_self]
  exact Cert.Spec.matmul_add_row_eq_dense (M := 4096) (K := 64) (N := 64)
    dot_S4096x64_S64x64_S4096x64_1_0_0_1_n_n rfl none broadcasts_S1x64_S4096x64 x w b

/-! ## The blocks the body loads -/

theorem zeros2 : (![0, 0] : Fin 2 → Nat) = fun _ => 0 := funext fun a => by fin_cases a <;> rfl

/-- The printed index maps, decided over the 64 points: the activations' and the result's block is `(t, 0)`, the
    weights' and the bias's is `(0, 0)`. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The result is written back at every point. -/
theorem flushes2_3 : ∀ t : Fin cfg2.N, (cfg2.win 3).flush t = true :=
  (by decide +kernel : ∀ t : Fin grid2.N, win2_3.flush t = true)

/-- Row `r` of the activations' block at point `t` is row `4096 t + r` of the activations. -/
theorem xblock2_apply (c : Dev nD) (t : Fin cfg2.N) (r : Fin 4096) (k : Fin 64) (h : t.val * 4096 + r.val < 262144) :
    (iblk2 V c 0 t : Vec Ideal S4096x64 .f32) (ix2 r k)
      = (V c main_v42 : Vec Ideal S262144x64 .f32) (ix2 (⟨t.val * 4096 + r.val, h⟩ : Fin 262144) k) := by
  obtain ⟨e0, e1, -, -, -, -, -, -⟩ := index2 t
  show V c main_v42 (((cfg2.win 0).blk t).view.emb (ix2 r k)) = _
  refine congrArg (V c main_v42) (funext fun a => Fin.ext ?_)
  match a with
  | ⟨0, _⟩ => show win2_0.index t (0 : Fin 2) * 4096 + 1 * r.val = t.val * 4096 + r.val; omega
  | ⟨1, _⟩ => show win2_0.index t (1 : Fin 2) * 64 + 1 * k.val = k.val; omega

/-- The weights' block at every point is the whole weight matrix. -/
theorem wblock2_eq (c : Dev nD) (t : Fin cfg2.N) :
    (iblk2 V c 1 t : Vec Ideal S64x64 .f32) = (V c main_v50 : Vec Ideal S64x64 .f32) := by
  obtain ⟨-, -, e2, e3, -, -, -, -⟩ := index2 t
  funext y
  show V c main_v50 (((cfg2.win 1).blk t).view.emb y) = _
  refine congrArg (V c main_v50) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias's block at every point is the whole bias row. -/
theorem bblock2_eq (c : Dev nD) (t : Fin cfg2.N) :
    (iblk2 V c 2 t : Vec Ideal S1x64 .f32) = (V c main_v53 : Vec Ideal S1x64 .f32) := by
  obtain ⟨-, -, -, -, e4, e5, -, -⟩ := index2 t
  funext y
  show V c main_v53 (((cfg2.win 2).blk t).view.emb y) = _
  refine congrArg (V c main_v53) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-! ## What a point writes back -/

/-- The dense layer of a block of rows, of weights equal to `W` and a bias row equal to `B`, is that block of rows of
    the dense layer of all the rows. -/
theorem dense_of_block2 (X : Vec Ideal S262144x64 .f32) (W : Vec Ideal S64x64 .f32) (B : Vec Ideal S1x64 .f32)
    (x : Vec Ideal S4096x64 .f32) (w : Vec Ideal S64x64 .f32) (b : Vec Ideal S1x64 .f32) (e : Fin 4096 → Fin 262144)
    (hx : ∀ r k, x (ix2 r k) = X (ix2 (e r) k)) (hw : w = W) (hb : b = B) (r : Fin 4096) (q : Fin 64) :
    Cert.Spec.dense (M := 4096) (K := 64) (N := 64) x w b (ix2 r q)
      = Cert.Spec.dense (M := 262144) (K := 64) (N := 64) X W B (ix2 (e r) q) := by
  subst hw hb
  exact Cert.Spec.dense_rows X x w b e hx r q

/-- WHAT POINT `t` WRITES BACK is block `t` of the dense layer of the arrays as the pipeline finds them. -/
theorem flushed2_3_eq (c : Dev nD) (t : Fin cfg2.N) :
    (dat2 (F := Ideal) V c).flushed 3 t = ((cfg2.win 3).blk t).view.read (Elt Ideal)
      (Cert.Spec.dense (M := 262144) (K := 64) (N := 64) (V c main_v42) (V c main_v50) (V c main_v53)) := by
  show (cfg2.win 3).cut (grid2.coords t) ((dat2 V c).after 3 t) = _
  rw [after2_3]
  unfold out2_3
  rw [View.canon_unit_zero zeros2]
  simp only [View.ld_unit_zero (S := S4096x64) zeros2, View.ld_unit_zero (S := S64x64) zeros2,
    View.ld_unit_zero (S := S1x64) zeros2]
  obtain ⟨-, -, -, -, -, -, e6, e7⟩ := index2 t
  have ht : t.val < 64 := t.isLt
  funext j
  obtain ⟨r, q, rfl⟩ : ∃ (r : Fin 4096) (q : Fin 64), j = ix2 r q := ⟨j 0, j 1, eq_ix2 j⟩
  have hr : r.val < 4096 := r.isLt
  have hemb : ((cfg2.win 3).blk t).view.emb (ix2 r q) = ix2 (⟨t.val * 4096 + r.val, by omega⟩ : Fin 262144) q := by
    funext a; apply Fin.ext
    match a with
    | ⟨0, _⟩ => show win2_3.index t (0 : Fin 2) * 4096 + 1 * r.val = t.val * 4096 + r.val; omega
    | ⟨1, _⟩ => show win2_3.index t (1 : Fin 2) * 64 + 1 * q.val = q.val; omega
  show k2_pay1 (F := Ideal) (iblk2 V c 0 t) (iblk2 V c 1 t) (iblk2 V c 2 t) (ix2 r q)
    = Cert.Spec.dense (M := 262144) (K := 64) (N := 64) (V c main_v42) (V c main_v50) (V c main_v53)
        (((cfg2.win 3).blk t).view.emb (ix2 r q))
  refine (congrFun (pay2_eq_dense (iblk2 V c 0 t) (iblk2 V c 1 t) (iblk2 V c 2 t)) (ix2 r q)).trans ?_
  refine Eq.trans ?_ (congrArg (Cert.Spec.dense (M := 262144) (K := 64) (N := 64) (V c main_v42) (V c main_v50) (V c main_v53)) hemb.symm)
  exact dense_of_block2 (V c main_v42) (V c main_v50) (V c main_v53) (iblk2 V c 0 t) (iblk2 V c 1 t) (iblk2 V c 2 t)
    (fun r => ⟨t.val * 4096 + r.val, by have := r.isLt; omega⟩)
    (fun r k => xblock2_apply V c t r k _) (wblock2_eq V c t) (bblock2_eq V c t) r q

/-! ## The blocks tile the result -/

/-- An index of the result is in point `t`'s block iff each coordinate is in the block's range on its axis. -/
theorem mem_block2_3 (t : Fin cfg2.N) (i : S262144x64.Idx) :
    i ∈ ((cfg2.win 3).blk t).view.set ↔ ∀ a : Fin 2, win2_3.index t a * S4096x64.size a ≤ (i a).val
      ∧ (i a).val < win2_3.index t a * S4096x64.size a + S4096x64.size a := by
  show i ∈ ((View.whole main_v54).slice (win2_3.rect t)).set ↔ _
  rw [View.set_slice_whole, Rect.mem_set_unit]
  exact Iff.rfl

/-- Row `i` of the result is in the block of point `i / 4096`. -/
theorem cover2_3_blocks (i : S262144x64.Idx) :
    ∃ t : Fin cfg2.N, (cfg2.win 3).flush t = true ∧ i ∈ ((cfg2.win 3).blk t).view.set := by
  have hi0 : (i 0).val < 262144 := (i 0).isLt
  have hi1 : (i 1).val < 64 := (i 1).isLt
  obtain ⟨t, ht⟩ : ∃ t : Fin cfg2.N, t.val = (i 0).val / 4096 :=
    ⟨⟨(i 0).val / 4096, by show (i 0).val / 4096 < 64; omega⟩, rfl⟩
  obtain ⟨-, -, -, -, -, -, e6, e7⟩ := index2 t
  refine ⟨t, flushes2_3 t, ?_⟩
  rw [mem_block2_3]
  intro a
  match a with
  | ⟨0, _⟩ =>
    show win2_3.index t (0 : Fin 2) * 4096 ≤ (i 0).val ∧ (i 0).val < win2_3.index t (0 : Fin 2) * 4096 + 4096
    omega
  | ⟨1, _⟩ =>
    show win2_3.index t (1 : Fin 2) * 64 ≤ (i 1).val ∧ (i 1).val < win2_3.index t (1 : Fin 2) * 64 + 64
    omega

/-! ## The array after the pipeline -/

/-- THE RESULT ARRAY after pipeline 2: the dense layer of the activations, the weights and the bias row as the
    pipeline finds them. -/
theorem dense2_value (c : Dev nD) :
    (dat2 (F := Ideal) V c).arrAt 3 cfg2.N
      = Cert.Spec.dense (M := 262144) (K := 64) (N := 64) (V c main_v42) (V c main_v50) (V c main_v53) :=
  (dat2 (F := Ideal) V c).arrAt_eq_of_cover 3 _ (fun t _ => flushed2_3_eq V c t) cover2_3_blocks

end Cert.KernelIdeal.Hand

end
-- ==== Proof.KI.Dense5Value.lean ====
/- The dense layer of pipeline 5: the array it leaves is the dense layer of the arrays it finds. -/
import proofs.«406228_j54073638257180_1_alg».proof.Proof.KI.Dense5
import proofs.«406228_j54073638257180_1_alg».proof.Proof.Spec.Dense

/-! # Pipeline 5's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay5_eq_dense (x : Vec Ideal S4096x64 .f32) (w : Vec Ideal S64x64 .f32) (b : Vec Ideal S1x64 .f32) :
    k5_pay1 (F := Ideal) x w b = Cert.Spec.dense (M := 4096) (K := 64) (N := 64) x w b := by
  show addf (matmul dot_S4096x64_S64x64_S4096x64_1_0_0_1_n_n none (shapeCast S4096x64 x shapeCasts_S4096x64_S4096x64)
      (shapeCast S64x64 w shapeCasts_S64x64_S64x64) (constant (F := Ideal) S4096x64 .f32 0x00000000#32))
    (broadcastTo S4096x64 (shapeCast S1x64 b shapeCasts_S1x64_S1x64) broadcasts_S1x64_S4096x64) = _
  rw [shapeCast_self, shapeCast_self, shapeCast_self]
  exact Cert.Spec.matmul_add_row_eq_dense (M := 4096) (K := 64) (N := 64)
    dot_S4096x64_S64x64_S4096x64_1_0_0_1_n_n rfl none broadcasts_S1x64_S4096x64 x w b

/-! ## The blocks the body loads -/

theorem zeros5 : (![0, 0] : Fin 2 → Nat) = fun _ => 0 := funext fun a => by fin_cases a <;> rfl

/-- The printed index maps, decided over the 64 points: the activations' and the result's block is `(t, 0)`, the
    weights' and the bias's is `(0, 0)`. -/
theorem index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The result is written back at every point. -/
theorem flushes5_3 : ∀ t : Fin cfg5.N, (cfg5.win 3).flush t = true :=
  (by decide +kernel : ∀ t : Fin grid5.N, win5_3.flush t = true)

/-- Row `r` of the activations' block at point `t` is row `4096 t + r` of the activations. -/
theorem xblock5_apply (c : Dev nD) (t : Fin cfg5.N) (r : Fin 4096) (k : Fin 64) (h : t.val * 4096 + r.val < 262144) :
    (iblk5 V c 0 t : Vec Ideal S4096x64 .f32) (ix2 r k)
      = (V c main_v126 : Vec Ideal S262144x64 .f32) (ix2 (⟨t.val * 4096 + r.val, h⟩ : Fin 262144) k) := by
  obtain ⟨e0, e1, -, -, -, -, -, -⟩ := index5 t
  show V c main_v126 (((cfg5.win 0).blk t).view.emb (ix2 r k)) = _
  refine congrArg (V c main_v126) (funext fun a => Fin.ext ?_)
  match a with
  | ⟨0, _⟩ => show win5_0.index t (0 : Fin 2) * 4096 + 1 * r.val = t.val * 4096 + r.val; omega
  | ⟨1, _⟩ => show win5_0.index t (1 : Fin 2) * 64 + 1 * k.val = k.val; omega

/-- The weights' block at every point is the whole weight matrix. -/
theorem wblock5_eq (c : Dev nD) (t : Fin cfg5.N) :
    (iblk5 V c 1 t : Vec Ideal S64x64 .f32) = (V c main_v128 : Vec Ideal S64x64 .f32) := by
  obtain ⟨-, -, e2, e3, -, -, -, -⟩ := index5 t
  funext y
  show V c main_v128 (((cfg5.win 1).blk t).view.emb y) = _
  refine congrArg (V c main_v128) (funext fun a => Fin.ext ?_)
  match a with
  | ⟨0, _⟩ => show win5_1.index t (0 : Fin 2) * 64 + 1 * (y 0).val = (y 0).val; omega
  | ⟨1, _⟩ => show win5_1.index t (1 : Fin 2) * 64 + 1 * (y 1).val = (y 1).val; omega

/-- The bias's block at every point is the whole bias row. -/
theorem bblock5_eq (c : Dev nD) (t : Fin cfg5.N) :
    (iblk5 V c 2 t : Vec Ideal S1x64 .f32) = (V c main_v131 : Vec Ideal S1x64 .f32) := by
  obtain ⟨-, -, -, -, e4, e5, -, -⟩ := index5 t
  funext y
  show V c main_v131 (((cfg5.win 2).blk t).view.emb y) = _
  refine congrArg (V c main_v131) (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

/-! ## What a point writes back -/

/-- The dense layer of a block of rows, of weights equal to `W` and a bias row equal to `B`, is that block of rows of
    the dense layer of all the rows. -/
theorem dense_of_block5 (X : Vec Ideal S262144x64 .f32) (W : Vec Ideal S64x64 .f32) (B : Vec Ideal S1x64 .f32)
    (x : Vec Ideal S4096x64 .f32) (w : Vec Ideal S64x64 .f32) (b : Vec Ideal S1x64 .f32) (e : Fin 4096 → Fin 262144)
    (hx : ∀ r k, x (ix2 r k) = X (ix2 (e r) k)) (hw : w = W) (hb : b = B) (r : Fin 4096) (q : Fin 64) :
    Cert.Spec.dense (M := 4096) (K := 64) (N := 64) x w b (ix2 r q)
      = Cert.Spec.dense (M := 262144) (K := 64) (N := 64) X W B (ix2 (e r) q) := by
  subst hw hb
  exact Cert.Spec.dense_rows X x w b e hx r q

/-- WHAT POINT `t` WRITES BACK is block `t` of the dense layer of the arrays as the pipeline finds them. -/
theorem flushed5_3_eq (c : Dev nD) (t : Fin cfg5.N) :
    (dat5 (F := Ideal) V c).flushed 3 t = ((cfg5.win 3).blk t).view.read (Elt Ideal)
      (Cert.Spec.dense (M := 262144) (K := 64) (N := 64) (V c main_v126) (V c main_v128) (V c main_v131)) := by
  show (cfg5.win 3).cut (grid5.coords t) ((dat5 V c).after 3 t) = _
  rw [after5_3]
  unfold out5_3
  rw [View.canon_unit_zero zeros5]
  simp only [View.ld_unit_zero (S := S4096x64) zeros5, View.ld_unit_zero (S := S64x64) zeros5,
    View.ld_unit_zero (S := S1x64) zeros5]
  obtain ⟨-, -, -, -, -, -, e6, e7⟩ := index5 t
  have ht : t.val < 64 := t.isLt
  funext j
  obtain ⟨r, q, rfl⟩ : ∃ (r : Fin 4096) (q : Fin 64), j = ix2 r q := ⟨j 0, j 1, eq_ix2 j⟩
  have hr : r.val < 4096 := r.isLt
  have hemb : ((cfg5.win 3).blk t).view.emb (ix2 r q) = ix2 (⟨t.val * 4096 + r.val, by omega⟩ : Fin 262144) q := by
    funext a; apply Fin.ext
    match a with
    | ⟨0, _⟩ => show win5_3.index t (0 : Fin 2) * 4096 + 1 * r.val = t.val * 4096 + r.val; omega
    | ⟨1, _⟩ => show win5_3.index t (1 : Fin 2) * 64 + 1 * q.val = q.val; omega
  show k5_pay1 (F := Ideal) (iblk5 V c 0 t) (iblk5 V c 1 t) (iblk5 V c 2 t) (ix2 r q)
    = Cert.Spec.dense (M := 262144) (K := 64) (N := 64) (V c main_v126) (V c main_v128) (V c main_v131)
        (((cfg5.win 3).blk t).view.emb (ix2 r q))
  refine (congrFun (pay5_eq_dense (iblk5 V c 0 t) (iblk5 V c 1 t) (iblk5 V c 2 t)) (ix2 r q)).trans ?_
  refine Eq.trans ?_ (congrArg (Cert.Spec.dense (M := 262144) (K := 64) (N := 64) (V c main_v126) (V c main_v128) (V c main_v131)) hemb.symm)
  exact dense_of_block5 (V c main_v126) (V c main_v128) (V c main_v131) (iblk5 V c 0 t) (iblk5 V c 1 t) (iblk5 V c 2 t)
    (fun r => ⟨t.val * 4096 + r.val, by have := r.isLt; omega⟩)
    (fun r k => xblock5_apply V c t r k _) (wblock5_eq V c t) (bblock5_eq V c t) r q

/-! ## The blocks tile the result -/

/-- An index of the result is in point `t`'s block iff each coordinate is in the block's range on its axis. -/
theorem mem_block5_3 (t : Fin cfg5.N) (i : S262144x64.Idx) :
    i ∈ ((cfg5.win 3).blk t).view.set ↔ ∀ a : Fin 2, win5_3.index t a * S4096x64.size a ≤ (i a).val
      ∧ (i a).val < win5_3.index t a * S4096x64.size a + S4096x64.size a := by
  show i ∈ ((View.whole main_v132).slice (win5_3.rect t)).set ↔ _
  rw [View.set_slice_whole, Rect.mem_set_unit]
  exact Iff.rfl

/-- Row `i` of the result is in the block of point `i / 4096`. -/
theorem cover5_3_blocks (i : S262144x64.Idx) :
    ∃ t : Fin cfg5.N, (cfg5.win 3).flush t = true ∧ i ∈ ((cfg5.win 3).blk t).view.set := by
  have hi0 : (i 0).val < 262144 := (i 0).isLt
  have hi1 : (i 1).val < 64 := (i 1).isLt
  obtain ⟨t, ht⟩ : ∃ t : Fin cfg5.N, t.val = (i 0).val / 4096 :=
    ⟨⟨(i 0).val / 4096, by show (i 0).val / 4096 < 64; omega⟩, rfl⟩
  obtain ⟨-, -, -, -, -, -, e6, e7⟩ := index5 t
  refine ⟨t, flushes5_3 t, ?_⟩
  rw [mem_block5_3]
  intro a
  match a with
  | ⟨0, _⟩ =>
    show win5_3.index t (0 : Fin 2) * 4096 ≤ (i 0).val ∧ (i 0).val < win5_3.index t (0 : Fin 2) * 4096 + 4096
    omega
  | ⟨1, _⟩ =>
    show win5_3.index t (1 : Fin 2) * 64 ≤ (i 1).val ∧ (i 1).val < win5_3.index t (1 : Fin 2) * 64 + 64
    omega

/-! ## The array after the pipeline -/

/-- THE RESULT ARRAY after pipeline 5: the dense layer of the activations, the weights and the bias row as the
    pipeline finds them. -/
theorem dense5_value (c : Dev nD) :
    (dat5 (F := Ideal) V c).arrAt 3 cfg5.N
      = Cert.Spec.dense (M := 262144) (K := 64) (N := 64) (V c main_v126) (V c main_v128) (V c main_v131) :=
  (dat5 (F := Ideal) V c).arrAt_eq_of_cover 3 _ (fun t _ => flushed5_3_eq V c t) cover5_3_blocks

end Cert.KernelIdeal.Hand

end
-- ==== Proof.KI.Dense6Value.lean ====
/- The dense layer of pipeline 6: the array it leaves is the dense layer of the arrays it finds. -/
import proofs.«406228_j54073638257180_1_alg».proof.Proof.KI.Dense6
import proofs.«406228_j54073638257180_1_alg».proof.Proof.Spec.Dense

/-! # Pipeline 6's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay6_eq_dense (x : Vec Ideal S4096x64 .f32) (w : Vec Ideal S64x64 .f32) (b : Vec Ideal S1x64 .f32) :
    k6_pay1 (F := Ideal) x w b = Cert.Spec.dense (M := 4096) (K := 64) (N := 64) x w b := by
  show addf (matmul dot_S4096x64_S64x64_S4096x64_1_0_0_1_n_n none (shapeCast S4096x64 x shapeCasts_S4096x64_S4096x64)
      (shapeCast S64x64 w shapeCasts_S64x64_S64x64) (constant (F := Ideal) S4096x64 .f32 0x00000000#32))
    (broadcastTo S4096x64 (shapeCast S1x64 b shapeCasts_S1x64_S1x64) broadcasts_S1x64_S4096x64) = _
  rw [shapeCast_self, shapeCast_self, shapeCast_self]
  exact Cert.Spec.matmul_add_row_eq_dense (M := 4096) (K := 64) (N := 64)
    dot_S4096x64_S64x64_S4096x64_1_0_0_1_n_n rfl none broadcasts_S1x64_S4096x64 x w b

/-! ## The blocks the body loads -/

theorem zeros6 : (![0, 0] : Fin 2 → Nat) = fun _ => 0 := funext fun a => by fin_cases a <;> rfl

/-- The printed index maps, decided over the 64 points: the activations' and the result's block is `(t, 0)`, the
    weights' and the bias's is `(0, 0)`. -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The result is written back at every point. -/
theorem flushes6_3 : ∀ t : Fin cfg6.N, (cfg6.win 3).flush t = true :=
  (by decide +kernel : ∀ t : Fin grid6.N, win6_3.flush t = true)

/-- Row `r` of the activations' block at point `t` is row `4096 t + r` of the activations. -/
theorem xblock6_apply (c : Dev nD) (t : Fin cfg6.N) (r : Fin 4096) (k : Fin 64) (h : t.val * 4096 + r.val < 262144) :
    (iblk6 V c 0 t : Vec Ideal S4096x64 .f32) (ix2 r k)
      = (V c main_v126 : Vec Ideal S262144x64 .f32) (ix2 (⟨t.val * 4096 + r.val, h⟩ : Fin 262144) k) := by
  obtain ⟨e0, e1, -, -, -, -, -, -⟩ := index6 t
  show V c main_v126 (((cfg6.win 0).blk t).view.emb (ix2 r k)) = _
  refine congrArg (V c main_v126) (funext fun a => Fin.ext ?_)
  match a with
  | ⟨0, _⟩ => show win6_0.index t (0 : Fin 2) * 4096 + 1 * r.val = t.val * 4096 + r.val; omega
  | ⟨1, _⟩ => show win6_0.index t (1 : Fin 2) * 64 + 1 * k.val = k.val; omega

/-- The weights' block at every point is the whole weight matrix. -/
theorem wblock6_eq (c : Dev nD) (t : Fin cfg6.N) :
    (iblk6 V c 1 t : Vec Ideal S64x64 .f32) = (V c main_v134 : Vec Ideal S64x64 .f32) := by
  obtain ⟨-, -, e2, e3, -, -, -, -⟩ := index6 t
  funext y
  show V c main_v134 (((cfg6.win 1).blk t).view.emb y) = _
  refine congrArg (V c main_v134) (funext fun a => Fin.ext ?_)
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- The bias's block at every point is the whole bias row. -/
theorem bblock6_eq (c : Dev nD) (t : Fin cfg6.N) :
    (iblk6 V c 2 t : Vec Ideal S1x64 .f32) = (V c main_v137 : Vec Ideal S1x64 .f32) := by
  obtain ⟨-, -, -, -, e4, e5, -, -⟩ := index6 t
  funext y
  show V c main_v137 (((cfg6.win 2).blk t).view.emb y) = _
  refine congrArg (V c main_v137) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-! ## What a point writes back -/

/-- The dense layer of a block of rows, of weights equal to `W` and a bias row equal to `B`, is that block of rows of
    the dense layer of all the rows. -/
theorem dense_of_block6 (X : Vec Ideal S262144x64 .f32) (W : Vec Ideal S64x64 .f32) (B : Vec Ideal S1x64 .f32)
    (x : Vec Ideal S4096x64 .f32) (w : Vec Ideal S64x64 .f32) (b : Vec Ideal S1x64 .f32) (e : Fin 4096 → Fin 262144)
    (hx : ∀ r k, x (ix2 r k) = X (ix2 (e r) k)) (hw : w = W) (hb : b = B) (r : Fin 4096) (q : Fin 64) :
    Cert.Spec.dense (M := 4096) (K := 64) (N := 64) x w b (ix2 r q)
      = Cert.Spec.dense (M := 262144) (K := 64) (N := 64) X W B (ix2 (e r) q) := by
  subst hw hb
  exact Cert.Spec.dense_rows X x w b e hx r q

/-- WHAT POINT `t` WRITES BACK is block `t` of the dense layer of the arrays as the pipeline finds them. -/
theorem flushed6_3_eq (c : Dev nD) (t : Fin cfg6.N) :
    (dat6 (F := Ideal) V c).flushed 3 t = ((cfg6.win 3).blk t).view.read (Elt Ideal)
      (Cert.Spec.dense (M := 262144) (K := 64) (N := 64) (V c main_v126) (V c main_v134) (V c main_v137)) := by
  show (cfg6.win 3).cut (grid6.coords t) ((dat6 V c).after 3 t) = _
  rw [after6_3]
  unfold out6_3
  rw [View.canon_unit_zero zeros6]
  simp only [View.ld_unit_zero (S := S4096x64) zeros6, View.ld_unit_zero (S := S64x64) zeros6,
    View.ld_unit_zero (S := S1x64) zeros6]
  obtain ⟨-, -, -, -, -, -, e6, e7⟩ := index6 t
  have ht : t.val < 64 := t.isLt
  funext j
  obtain ⟨r, q, rfl⟩ : ∃ (r : Fin 4096) (q : Fin 64), j = ix2 r q := ⟨j 0, j 1, eq_ix2 j⟩
  have hr : r.val < 4096 := r.isLt
  have hemb : ((cfg6.win 3).blk t).view.emb (ix2 r q) = ix2 (⟨t.val * 4096 + r.val, by omega⟩ : Fin 262144) q := by
    funext a; apply Fin.ext
    match a with
    | ⟨0, _⟩ => show win6_3.index t (0 : Fin 2) * 4096 + 1 * r.val = t.val * 4096 + r.val; omega
    | ⟨1, _⟩ => show win6_3.index t (1 : Fin 2) * 64 + 1 * q.val = q.val; omega
  show k6_pay1 (F := Ideal) (iblk6 V c 0 t) (iblk6 V c 1 t) (iblk6 V c 2 t) (ix2 r q)
    = Cert.Spec.dense (M := 262144) (K := 64) (N := 64) (V c main_v126) (V c main_v134) (V c main_v137)
        (((cfg6.win 3).blk t).view.emb (ix2 r q))
  refine (congrFun (pay6_eq_dense (iblk6 V c 0 t) (iblk6 V c 1 t) (iblk6 V c 2 t)) (ix2 r q)).trans ?_
  refine Eq.trans ?_ (congrArg (Cert.Spec.dense (M := 262144) (K := 64) (N := 64) (V c main_v126) (V c main_v134) (V c main_v137)) hemb.symm)
  exact dense_of_block6 (V c main_v126) (V c main_v134) (V c main_v137) (iblk6 V c 0 t) (iblk6 V c 1 t) (iblk6 V c 2 t)
    (fun r => ⟨t.val * 4096 + r.val, by have := r.isLt; omega⟩)
    (fun r k => xblock6_apply V c t r k _) (wblock6_eq V c t) (bblock6_eq V c t) r q

/-! ## The blocks tile the result -/

/-- An index of the result is in point `t`'s block iff each coordinate is in the block's range on its axis. -/
theorem mem_block6_3 (t : Fin cfg6.N) (i : S262144x64.Idx) :
    i ∈ ((cfg6.win 3).blk t).view.set ↔ ∀ a : Fin 2, win6_3.index t a * S4096x64.size a ≤ (i a).val
      ∧ (i a).val < win6_3.index t a * S4096x64.size a + S4096x64.size a := by
  show i ∈ ((View.whole main_v138).slice (win6_3.rect t)).set ↔ _
  rw [View.set_slice_whole, Rect.mem_set_unit]
  exact Iff.rfl

/-- Row `i` of the result is in the block of point `i / 4096`. -/
theorem cover6_3_blocks (i : S262144x64.Idx) :
    ∃ t : Fin cfg6.N, (cfg6.win 3).flush t = true ∧ i ∈ ((cfg6.win 3).blk t).view.set := by
  have hi0 : (i 0).val < 262144 := (i 0).isLt
  have hi1 : (i 1).val < 64 := (i 1).isLt
  obtain ⟨t, ht⟩ : ∃ t : Fin cfg6.N, t.val = (i 0).val / 4096 :=
    ⟨⟨(i 0).val / 4096, by show (i 0).val / 4096 < 64; omega⟩, rfl⟩
  obtain ⟨-, -, -, -, -, -, e6, e7⟩ := index6 t
  refine ⟨t, flushes6_3 t, ?_⟩
  rw [mem_block6_3]
  intro a
  match a with
  | ⟨0, _⟩ =>
    show win6_3.index t (0 : Fin 2) * 4096 ≤ (i 0).val ∧ (i 0).val < win6_3.index t (0 : Fin 2) * 4096 + 4096
    omega
  | ⟨1, _⟩ =>
    show win6_3.index t (1 : Fin 2) * 64 ≤ (i 1).val ∧ (i 1).val < win6_3.index t (1 : Fin 2) * 64 + 64
    omega

/-! ## The array after the pipeline -/

/-- THE RESULT ARRAY after pipeline 6: the dense layer of the activations, the weights and the bias row as the
    pipeline finds them. -/
theorem dense6_value (c : Dev nD) :
    (dat6 (F := Ideal) V c).arrAt 3 cfg6.N
      = Cert.Spec.dense (M := 262144) (K := 64) (N := 64) (V c main_v126) (V c main_v134) (V c main_v137) :=
  (dat6 (F := Ideal) V c).arrAt_eq_of_cover 3 _ (fun t _ => flushed6_3_eq V c t) cover6_3_blocks

end Cert.KernelIdeal.Hand

end
-- ==== Proof.KI.Dense9Value.lean ====
/- The dense layer of pipeline 9: the array it leaves is the dense layer of the arrays it finds. -/
import proofs.«406228_j54073638257180_1_alg».proof.Proof.KI.Dense9
import proofs.«406228_j54073638257180_1_alg».proof.Proof.Spec.Dense

/-! # Pipeline 9's value at the ideal values

The pipeline walks the 262144 rows of the activations in 64 blocks of 4096 rows; at block `t` the body multiplies the
block by the whole weight matrix, adds the bias row to every row and writes the product back as block `t` of the
result. An entry of a dense layer depends on its own row of the activations only, so block `t` of the result is block
`t` of the dense layer of the WHOLE activations; the 64 blocks tile the result, so the result array ends as
`Cert.Spec.dense` of the activations, the weights and the bias row as the pipeline finds them. -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

-- the core's buffer contents when the pipeline is entered
variable (V : (c : Dev nD) → (b : Ref sig .tc) → Buf (Elt Ideal) ((c : Thread nD τ).loc b))

/-! ## The body's payload -/

/-- The body's one store is the dense layer of its three loaded blocks: the casts are of a shape to itself, the
    product accumulates into a zero splat, the bias row is broadcast down the rows. -/
theorem pay9_eq_dense (x : Vec Ideal S4096x64 .f32) (w : Vec Ideal S64x16 .f32) (b : Vec Ideal S1x16 .f32) :
    k9_pay1 (F := Ideal) x w b = Cert.Spec.dense (M := 4096) (K := 64) (N := 16) x w b := by
  show addf (matmul dot_S4096x64_S64x16_S4096x16_1_0_0_1_n_n none (shapeCast S4096x64 x shapeCasts_S4096x64_S4096x64)
      w (constant (F := Ideal) S4096x16 .f32 0x00000000#32))
    (broadcastTo S4096x16 (shapeCast S1x16 b shapeCasts_S1x16_S1x16) broadcasts_S1x16_S4096x16) = _
  rw [shapeCast_self, shapeCast_self]
  exact Cert.Spec.matmul_add_row_eq_dense (M := 4096) (K := 64) (N := 16)
    dot_S4096x64_S64x16_S4096x16_1_0_0_1_n_n rfl none broadcasts_S1x16_S4096x16 x w b

/-! ## The blocks the body loads -/

theorem zeros9 : (![0, 0] : Fin 2 → Nat) = fun _ => 0 := funext fun a => by fin_cases a <;> rfl

/-- The printed index maps, decided over the 64 points: the activations' and the result's block is `(t, 0)`, the
    weights' and the bias's is `(0, 0)`. -/
theorem index9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The result is written back at every point. -/
theorem flushes9_3 : ∀ t : Fin cfg9.N, (cfg9.win 3).flush t = true :=
  (by decide +kernel : ∀ t : Fin grid9.N, win9_3.flush t = true)

/-- Row `r` of the activations' block at point `t` is row `4096 t + r` of the activations. -/
theorem xblock9_apply (c : Dev nD) (t : Fin cfg9.N) (r : Fin 4096) (k : Fin 64) (h : t.val * 4096 + r.val < 262144) :
    (iblk9 V c 0 t : Vec Ideal S4096x64 .f32) (ix2 r k)
      = (V c main_v188 : Vec Ideal S262144x64 .f32) (ix2 (⟨t.val * 4096 + r.val, h⟩ : Fin 262144) k) := by
  obtain ⟨e0, e1, -, -, -, -, -, -⟩ := index9 t
  show V c main_v188 (((cfg9.win 0).blk t).view.emb (ix2 r k)) = _
  refine congrArg (V c main_v188) (funext fun a => Fin.ext ?_)
  match a with
  | ⟨0, _⟩ => show win9_0.index t (0 : Fin 2) * 4096 + 1 * r.val = t.val * 4096 + r.val; omega
  | ⟨1, _⟩ => show win9_0.index t (1 : Fin 2) * 64 + 1 * k.val = k.val; omega

/-- The weights' block at every point is the whole weight matrix. -/
theorem wblock9_eq (c : Dev nD) (t : Fin cfg9.N) :
    (iblk9 V c 1 t : Vec Ideal S64x16 .f32) = (V c main_arg15 : Vec Ideal S64x16 .f32) := by
  obtain ⟨-, -, e2, e3, -, -, -, -⟩ := index9 t
  funext y
  show V c main_arg15 (((cfg9.win 1).blk t).view.emb y) = _
  refine congrArg (V c main_arg15) (funext fun a => Fin.ext ?_)
  match a with
  | ⟨0, _⟩ => show win9_1.index t (0 : Fin 2) * 64 + 1 * (y 0).val = (y 0).val; omega
  | ⟨1, _⟩ => show win9_1.index t (1 : Fin 2) * 16 + 1 * (y 1).val = (y 1).val; omega

/-- The bias's block at every point is the whole bias row. -/
theorem bblock9_eq (c : Dev nD) (t : Fin cfg9.N) :
    (iblk9 V c 2 t : Vec Ideal S1x16 .f32) = (V c main_v189 : Vec Ideal S1x16 .f32) := by
  obtain ⟨-, -, -, -, e4, e5, -, -⟩ := index9 t
  funext y
  show V c main_v189 (((cfg9.win 2).blk t).view.emb y) = _
  refine congrArg (V c main_v189) (funext fun a => Fin.ext ?_)
  match a with
  | ⟨0, _⟩ => show win9_2.index t (0 : Fin 2) * 1 + 1 * (y 0).val = (y 0).val; omega
  | ⟨1, _⟩ => show win9_2.index t (1 : Fin 2) * 16 + 1 * (y 1).val = (y 1).val; omega

/-! ## What a point writes back -/

/-- The dense layer of a block of rows, of weights equal to `W` and a bias row equal to `B`, is that block of rows of
    the dense layer of all the rows. -/
theorem dense_of_block9 (X : Vec Ideal S262144x64 .f32) (W : Vec Ideal S64x16 .f32) (B : Vec Ideal S1x16 .f32)
    (x : Vec Ideal S4096x64 .f32) (w : Vec Ideal S64x16 .f32) (b : Vec Ideal S1x16 .f32) (e : Fin 4096 → Fin 262144)
    (hx : ∀ r k, x (ix2 r k) = X (ix2 (e r) k)) (hw : w = W) (hb : b = B) (r : Fin 4096) (q : Fin 16) :
    Cert.Spec.dense (M := 4096) (K := 64) (N := 16) x w b (ix2 r q)
      = Cert.Spec.dense (M := 262144) (K := 64) (N := 16) X W B (ix2 (e r) q) := by
  subst hw hb
  exact Cert.Spec.dense_rows X x w b e hx r q

/-- WHAT POINT `t` WRITES BACK is block `t` of the dense layer of the arrays as the pipeline finds them. -/
theorem flushed9_3_eq (c : Dev nD) (t : Fin cfg9.N) :
    (dat9 (F := Ideal) V c).flushed 3 t = ((cfg9.win 3).blk t).view.read (Elt Ideal)
      (Cert.Spec.dense (M := 262144) (K := 64) (N := 16) (V c main_v188) (V c main_arg15) (V c main_v189)) := by
  show (cfg9.win 3).cut (grid9.coords t) ((dat9 V c).after 3 t) = _
  rw [after9_3]
  unfold out9_3
  rw [View.canon_unit_zero zeros9]
  simp only [View.ld_unit_zero (S := S4096x64) zeros9, View.ld_unit_zero (S := S64x16) zeros9,
    View.ld_unit_zero (S := S1x16) zeros9]
  obtain ⟨-, -, -, -, -, -, e6, e7⟩ := index9 t
  have ht : t.val < 64 := t.isLt
  funext j
  obtain ⟨r, q, rfl⟩ : ∃ (r : Fin 4096) (q : Fin 16), j = ix2 r q := ⟨j 0, j 1, eq_ix2 j⟩
  have hr : r.val < 4096 := r.isLt
  have hemb : ((cfg9.win 3).blk t).view.emb (ix2 r q) = ix2 (⟨t.val * 4096 + r.val, by omega⟩ : Fin 262144) q := by
    funext a; apply Fin.ext
    match a with
    | ⟨0, _⟩ => show win9_3.index t (0 : Fin 2) * 4096 + 1 * r.val = t.val * 4096 + r.val; omega
    | ⟨1, _⟩ => show win9_3.index t (1 : Fin 2) * 16 + 1 * q.val = q.val; omega
  show k9_pay1 (F := Ideal) (iblk9 V c 0 t) (iblk9 V c 1 t) (iblk9 V c 2 t) (ix2 r q)
    = Cert.Spec.dense (M := 262144) (K := 64) (N := 16) (V c main_v188) (V c main_arg15) (V c main_v189)
        (((cfg9.win 3).blk t).view.emb (ix2 r q))
  refine (congrFun (pay9_eq_dense (iblk9 V c 0 t) (iblk9 V c 1 t) (iblk9 V c 2 t)) (ix2 r q)).trans ?_
  refine Eq.trans ?_ (congrArg (Cert.Spec.dense (M := 262144) (K := 64) (N := 16) (V c main_v188) (V c main_arg15) (V c main_v189)) hemb.symm)
  exact dense_of_block9 (V c main_v188) (V c main_arg15) (V c main_v189) (iblk9 V c 0 t) (iblk9 V c 1 t) (iblk9 V c 2 t)
    (fun r => ⟨t.val * 4096 + r.val, by have := r.isLt; omega⟩)
    (fun r k => xblock9_apply V c t r k _) (wblock9_eq V c t) (bblock9_eq V c t) r q

/-! ## The blocks tile the result -/

/-- An index of the result is in point `t`'s block iff each coordinate is in the block's range on its axis. -/
theorem mem_block9_3 (t : Fin cfg9.N) (i : S262144x16.Idx) :
    i ∈ ((cfg9.win 3).blk t).view.set ↔ ∀ a : Fin 2, win9_3.index t a * S4096x16.size a ≤ (i a).val
      ∧ (i a).val < win9_3.index t a * S4096x16.size a + S4096x16.size a := by
  show i ∈ ((View.whole main_v190).slice (win9_3.rect t)).set ↔ _
  rw [View.set_slice_whole, Rect.mem_set_unit]
  exact Iff.rfl

/-- Row `i` of the result is in the block of point `i / 4096`. -/
theorem cover9_3_blocks (i : S262144x16.Idx) :
    ∃ t : Fin cfg9.N, (cfg9.win 3).flush t = true ∧ i ∈ ((cfg9.win 3).blk t).view.set := by
  have hi0 : (i 0).val < 262144 := (i 0).isLt
  have hi1 : (i 1).val < 16 := (i 1).isLt
  obtain ⟨t, ht⟩ : ∃ t : Fin cfg9.N, t.val = (i 0).val / 4096 :=
    ⟨⟨(i 0).val / 4096, by show (i 0).val / 4096 < 64; omega⟩, rfl⟩
  obtain ⟨-, -, -, -, -, -, e6, e7⟩ := index9 t
  refine ⟨t, flushes9_3 t, ?_⟩
  rw [mem_block9_3]
  intro a
  match a with
  | ⟨0, _⟩ =>
    show win9_3.index t (0 : Fin 2) * 4096 ≤ (i 0).val ∧ (i 0).val < win9_3.index t (0 : Fin 2) * 4096 + 4096
    omega
  | ⟨1, _⟩ =>
    show win9_3.index t (1 : Fin 2) * 16 ≤ (i 1).val ∧ (i 1).val < win9_3.index t (1 : Fin 2) * 16 + 16
    omega

/-! ## The array after the pipeline -/

/-- THE RESULT ARRAY after pipeline 9: the dense layer of the activations, the weights and the bias row as the
    pipeline finds them. -/
theorem dense9_value (c : Dev nD) :
    (dat9 (F := Ideal) V c).arrAt 3 cfg9.N
      = Cert.Spec.dense (M := 262144) (K := 64) (N := 16) (V c main_v188) (V c main_arg15) (V c main_v189) :=
  (dat9 (F := Ideal) V c).arrAt_eq_of_cover 3 _ (fun t _ => flushed9_3_eq V c t) cover9_3_blocks

end Cert.KernelIdeal.Hand

end
-- ==== Proof.Ref.ReadStages.lean ====
/- The operations of Ops.lean, unchanged and in the same order, cut where the network's stages end: 28 lists stg_vN, each ending
   with the operation that writes main_vN (stg_v3: 4, stg_v22: 44, stg_v44: 48, stg_v46: 2, stg_v52: 6, stg_v54: 2, stg_v60: 6, stg_v69: 11, stg_v78: 11, stg_v81: 4, stg_v84: 4, stg_v86: 2, stg_v109: 48, stg_v110: 8, stg_v132: 48, stg_v134: 2, stg_v140: 6, stg_v142: 2, stg_v148: 6, stg_v157: 11, stg_v166: 11, stg_v169: 4, stg_v172: 4, stg_v174: 2, stg_v197: 48, stg_v198: 8, stg_v202: 4, stg_v213: 14).
   Per stage: the buffers it writes (stg_vN_W) and the table that every write lands there (stg_vN_writes). Then the fold over
   the whole line stage by stage (WstK: the contents after stages 0..K), and for each K the keep lemma: a buffer none of the
   stages K, K+1, … writes holds after the whole line what it held before stage K. -/
import proofs.«406228_j54073638257180_1_alg».proof.Proof.Ref.Ops

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations up to and with the one that writes main_v3 (4). -/
abbrev stg_v3 : List (HloOp τ sig (Elt F)) :=
  [ StableHlo.binary main_arg0 main_arg3 main_v0 ((fun l r => Host.dotGeneral dot_S262144x200_S200x64_S262144x64_1_0_0_1_n_n none l r) : (⟨S262144x200, .f32⟩ : BufTy).Contents (Elt F) → (⟨S200x64, .f32⟩ : BufTy).Contents (Elt F) → (⟨S262144x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S262144x64 ![0, 1] bcast_S1x64_S262144x64_0_1 : (⟨S1x64, .f32⟩ : BufTy).Contents (Elt F) → (⟨S262144x64, .f32⟩ : BufTy).Contents (Elt F)),
    StableHlo.binary main_v0 main_v2 main_v3 (addf : (⟨S262144x64, .f32⟩ : BufTy).Contents (Elt F) → (⟨S262144x64, .f32⟩ : BufTy).Contents (Elt F) → (⟨S262144x64, .f32⟩ : BufTy).Contents (Elt F)) ]
abbrev stg_v3_W : List (Ref sig .tc) := [main_v0, main_v1, main_v2, main_v3]
set_option maxRecDepth 8192 in
theorem stg_v3_writes : (stg_v3 : List (HloOp τ sig (Elt F))).Forall fun op => op.writes ⊆ (stg_v3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v22 (44). -/
abbrev stg_v22 : List (HloOp τ sig (Elt F)) :=
  [ StableHlo.nullary main_cst (constant S_ .f32 0x00000000#32),
    StableHlo.binary main_v3 main_cst main_v4 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_0 (constant S_ .f32 0x48800000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3) main_call0.cst main_call0.v0 (fun x v => Host.reduceAdd x v reducesTo_S262144x64_S64_d0 h_S_),
    StableHlo.TRef.unary main_call0.v0 main_call0.v1 (broadcastInDim S1x64 ![1] bcast_S64_S1x64_1),
    StableHlo.TRef.nullary main_call0.cst_0 (constant S_ .f32 0x48800000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S262144x64 ![0, 1] bcast_S1x64_S262144x64_0_1),
    StableHlo.TRef.binary (.of main_v3) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x48800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S262144x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S262144x64 ![0, 1] bcast_S1x64_S262144x64_0_1 : (⟨S1x64, .f32⟩ : BufTy).Contents (Elt F) → (⟨S262144x64, .f32⟩ : BufTy).Contents (Elt F)),
    StableHlo.binary main_v3 main_v9 main_v10 (subf : (⟨S262144x64, .f32⟩ : BufTy).Contents (Elt F) → (⟨S262144x64, .f32⟩ : BufTy).Contents (Elt F) → (⟨S262144x64, .f32⟩ : BufTy).Contents (Elt F)),
    StableHlo.nullary main_cst_1 (constant S_ .f32 0x3727C5AC#32),
    StableHlo.unary main_cst_1 main_v11 (broadcastInDim S64 ![] bcast_S_S64 : (⟨S_, .f32⟩ : BufTy).Contents (Elt F) → (⟨S64, .f32⟩ : BufTy).Contents (Elt F)),
    StableHlo.binary main_v7 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.rsqrt : (⟨S64, .f32⟩ : BufTy).Contents (Elt F) → (⟨S64, .f32⟩ : BufTy).Contents (Elt F)),
    StableHlo.unary main_v13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S262144x64 ![0, 1] bcast_S1x64_S262144x64_0_1 : (⟨S1x64, .f32⟩ : BufTy).Contents (Elt F) → (⟨S262144x64, .f32⟩ : BufTy).Contents (Elt F)),
    StableHlo.binary main_v10 main_v15 main_v16 (mulf : (⟨S262144x64, .f32⟩ : BufTy).Contents (Elt F) → (⟨S262144x64, .f32⟩ : BufTy).Contents (Elt F) → (⟨S262144x64, .f32⟩ : BufTy).Contents (Elt F)),
    StableHlo.unary main_arg5 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S262144x64 ![0, 1] bcast_S1x64_S262144x64_0_1 : (⟨S1x64, .f32⟩ : BufTy).Contents (Elt F) → (⟨S262144x64, .f32⟩ : BufTy).Contents (Elt F)),
    StableHlo.binary main_v16 main_v18 main_v19 (mulf : (⟨S262144x64, .f32⟩ : BufTy).Contents (Elt F) → (⟨S262144x64, .f32⟩ : BufTy).Contents (Elt F) → (⟨S262144x64, .f32⟩ : BufTy).Contents (Elt F)),
    StableHlo.unary main_arg6 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S262144x64 ![0, 1] bcast_S1x64_S262144x64_0_1 : (⟨S1x64, .f32⟩ : BufTy).Contents (Elt F) → (⟨S262144x64, .f32⟩ : BufTy).Contents (Elt F)),
    StableHlo.binary main_v19 main_v21 main_v22 (addf : (⟨S262144x64, .f32⟩ : BufTy).Contents (Elt F) → (⟨S262144x64, .f32⟩ : BufTy).Contents (Elt F) → (⟨S262144x64, .f32⟩ : BufTy).Contents (Elt F)) ]
abbrev stg_v22_W : List (Ref sig .tc) := [main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18, main_v19, main_v20, main_v21, main_v22]
set_option maxRecDepth 8192 in
theorem stg_v22_writes : (stg_v22 : List (HloOp τ sig (Elt F))).Forall fun op => op.writes ⊆ (stg_v22_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v44 (48). -/
abbrev stg_v44 : List (HloOp τ sig (Elt F)) :=
  [ StableHlo.unary main_arg7 main_v23 ((extractStridedSlice S1x64 ![0, 0] · slices_S2x64_S1x64_0_0) : (⟨S2x64, .f32⟩ : BufTy).Contents (Elt F) → (⟨S1x64, .f32⟩ : BufTy).Contents (Elt F)),
    StableHlo.reshape main_v23 main_v24 rfl shapeCasts_S1x64_S64,
    StableHlo.unary main_arg8 main_v25 ((extractStridedSlice S1x64 ![0, 0] · slices_S2x64_S1x64_0_0) : (⟨S2x64, .f32⟩ : BufTy).Contents (Elt F) → (⟨S1x64, .f32⟩ : BufTy).Contents (Elt F)),
    StableHlo.reshape main_v25 main_v26 rfl shapeCasts_S1x64_S64,
    StableHlo.nullary main_cst_2 (constant S_ .f32 0x00000000#32),
    StableHlo.binary main_v22 main_cst_2 main_v27 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v27 main_v28 (broadcastInDim S262144x1 ![0] bcast_S262144_S262144x1_0 : (⟨S262144, .f32⟩ : BufTy).Contents (Elt F) → (⟨S262144x1, .f32⟩ : BufTy).Contents (Elt F)),
    StableHlo.nullary main_cst_3 (constant S_ .f32 0x42800000#32),
    StableHlo.unary main_cst_3 main_v29 (broadcastInDim S262144x1 ![] bcast_S_S262144x1 : (⟨S_, .f32⟩ : BufTy).Contents (Elt F) → (⟨S262144x1, .f32⟩ : BufTy).Contents (Elt F)),
    StableHlo.binary main_v28 main_v29 main_v30 (Host.divf : (⟨S262144x1, .f32⟩ : BufTy).Contents (Elt F) → (⟨S262144x1, .f32⟩ : BufTy).Contents (Elt F) → (⟨S262144x1, .f32⟩ : BufTy).Contents (Elt F)),
    StableHlo.nullary main_c_4 (constantI S_ 32 0#32),
    StableHlo.TRef.nullary main_call1.cst (constant S_ .f32 0x00000000#32),
    StableHlo.TRef.binary (.of main_v22) main_call1.cst main_call1.v0 (fun x v => Host.reduceAdd x v reducesTo_S262144x64_S262144_d1 h_S_),
    StableHlo.TRef.unary main_call1.v0 main_call1.v1 (broadcastInDim S262144x1 ![0] bcast_S262144_S262144x1_0),
    StableHlo.TRef.nullary main_call1.cst_0 (constant S_ .f32 0x42800000#32),
    StableHlo.TRef.unary main_call1.cst_0 main_call1.v2 (broadcastInDim S262144x1 ![] bcast_S_S262144x1),
    StableHlo.TRef.binary main_call1.v1 main_call1.v2 main_call1.v3 Host.divf,
    StableHlo.TRef.unary main_call1.v3 main_call1.v4 (broadcastInDim S262144x64 ![0, 1] bcast_S262144x1_S262144x64_0_1),
    StableHlo.TRef.binary (.of main_v22) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x42800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S262144x64_S262144_d1 h_S_),
    StableHlo.TRef.unary main_call1.v9 main_call1.v10 (broadcastInDim S262144x1 ![0] bcast_S262144_S262144x1_0),
    StableHlo.TRef.unary main_call1.v8 main_call1.v11 (broadcastInDim S262144x1 ![] bcast_S_S262144x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S262144x1 ![] bcast_S_S262144x1),
    StableHlo.TRef.ternary main_call1.v13 main_call1.v12 main_call1.call0.v1 main_call1.call0.v2 (fun p a b => select (broadcastInDim S262144x1 ![] bcast_S_S262144x1 p) a b),
    StableHlo.unary main_v30 main_v32 (broadcastInDim S262144x64 ![0, 1] bcast_S262144x1_S262144x64_0_1 : (⟨S262144x1, .f32⟩ : BufTy).Contents (Elt F) → (⟨S262144x64, .f32⟩ : BufTy).Contents (Elt F)),
    StableHlo.binary main_v22 main_v32 main_v33 (subf : (⟨S262144x64, .f32⟩ : BufTy).Contents (Elt F) → (⟨S262144x64, .f32⟩ : BufTy).Contents (Elt F) → (⟨S262144x64, .f32⟩ : BufTy).Contents (Elt F)),
    StableHlo.nullary main_cst_5 (constant S_ .f32 0x3727C5AC#32),
    StableHlo.unary main_cst_5 main_v34 (broadcastInDim S262144x1 ![] bcast_S_S262144x1 : (⟨S_, .f32⟩ : BufTy).Contents (Elt F) → (⟨S262144x1, .f32⟩ : BufTy).Contents (Elt F)),
    StableHlo.binary main_v31 main_v34 main_v35 (addf : (⟨S262144x1, .f32⟩ : BufTy).Contents (Elt F) → (⟨S262144x1, .f32⟩ : BufTy).Contents (Elt F) → (⟨S262144x1, .f32⟩ : BufTy).Contents (Elt F)),
    StableHlo.unary main_v35 main_v36 (Host.rsqrt : (⟨S262144x1, .f32⟩ : BufTy).Contents (Elt F) → (⟨S262144x1, .f32⟩ : BufTy).Contents (Elt F)),
    StableHlo.unary main_v36 main_v37 (broadcastInDim S262144x64 ![0, 1] bcast_S262144x1_S262144x64_0_1 : (⟨S262144x1, .f32⟩ : BufTy).Contents (Elt F) → (⟨S262144x64, .f32⟩ : BufTy).Contents (Elt F)),
    StableHlo.binary main_v33 main_v37 main_v38 (mulf : (⟨S262144x64, .f32⟩ : BufTy).Contents (Elt F) → (⟨S262144x64, .f32⟩ : BufTy).Contents (Elt F) → (⟨S262144x64, .f32⟩ : BufTy).Contents (Elt F)),
    StableHlo.unary main_v24 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S262144x64 ![0, 1] bcast_S1x64_S262144x64_0_1 : (⟨S1x64, .f32⟩ : BufTy).Contents (Elt F) → (⟨S262144x64, .f32⟩ : BufTy).Contents (Elt F)),
    StableHlo.binary main_v38 main_v40 main_v41 (mulf : (⟨S262144x64, .f32⟩ : BufTy).Contents (Elt F) → (⟨S262144x64, .f32⟩ : BufTy).Contents (Elt F) → (⟨S262144x64, .f32⟩ : BufTy).Contents (Elt F)),
    StableHlo.unary main_v26 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S262144x64 ![0, 1] bcast_S1x64_S262144x64_0_1 : (⟨S1x64, .f32⟩ : BufTy).Contents (Elt F) → (⟨S262144x64, .f32⟩ : BufTy).Contents (Elt F)),
    StableHlo.binary main_v41 main_v43 main_v44 (addf : (⟨S262144x64, .f32⟩ : BufTy).Contents (Elt F) → (⟨S262144x64, .f32⟩ : BufTy).Contents (Elt F) → (⟨S262144x64, .f32⟩ : BufTy).Contents (Elt F)) ]
abbrev stg_v44_W : List (Ref sig .tc) := [main_v23, main_v24, main_v25, main_v26, main_cst_2, main_v27, main_v28, main_cst_3, main_v29, main_v30, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v31, main_v32, main_v33, main_cst_5, main_v34, main_v35, main_v36, main_v37, main_v38, main_v39, main_v40, main_v41, main_v42, main_v43, main_v44]
set_option maxRecDepth 8192 in
theorem stg_v44_writes : (stg_v44 : List (HloOp τ sig (Elt F))).Forall fun op => op.writes ⊆ (stg_v44_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v46 (2). -/
abbrev stg_v46 : List (HloOp τ sig (Elt F)) :=
  [ StableHlo.unary main_arg9 main_v45 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v45 main_v46 rfl shapeCasts_S1x64x64_S64x64 ]
abbrev stg_v46_W : List (Ref sig .tc) := [main_v45, main_v46]
set_option maxRecDepth 8192 in
theorem stg_v46_writes : (stg_v46 : List (HloOp τ sig (Elt F))).Forall fun op => op.writes ⊆ (stg_v46_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v52 (6). -/
abbrev stg_v52 : List (HloOp τ sig (Elt F)) :=
  [ StableHlo.binary main_v44 main_v46 main_v47 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg10 main_v48 ((extractStridedSlice S1x64 ![0, 0] · slices_S2x64_S1x64_0_0) : (⟨S2x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S262144x64 ![0, 1] bcast_S1x64_S262144x64_0_1 : (⟨S1x64, .f32⟩ : BufTy).Contents (Elt F) → (⟨S262144x64, .f32⟩ : BufTy).Contents (Elt F)),
    StableHlo.binary main_v47 main_v51 main_v52 (addf : (⟨S262144x64, .f32⟩ : BufTy).Contents (Elt F) → (⟨S262144x64, .f32⟩ : BufTy).Contents (Elt F) → (⟨S262144x64, .f32⟩ : BufTy).Contents (Elt F)) ]
abbrev stg_v52_W : List (Ref sig .tc) := [main_v47, main_v48, main_v49, main_v50, main_v51, main_v52]
set_option maxRecDepth 8192 in
theorem stg_v52_writes : (stg_v52 : List (HloOp τ sig (Elt F))).Forall fun op => op.writes ⊆ (stg_v52_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v54 (2). -/
abbrev stg_v54 : List (HloOp τ sig (Elt F)) :=
  [ StableHlo.unary main_arg11 main_v53 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v53 main_v54 rfl shapeCasts_S1x64x64_S64x64 ]
abbrev stg_v54_W : List (Ref sig .tc) := [main_v53, main_v54]
set_option maxRecDepth 8192 in
theorem stg_v54_writes : (stg_v54 : List (HloOp τ sig (Elt F))).Forall fun op => op.writes ⊆ (stg_v54_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v60 (6). -/
abbrev stg_v60 : List (HloOp τ sig (Elt F)) :=
  [ StableHlo.binary main_v44 main_v54 main_v55 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg12 main_v56 ((extractStridedSlice S1x64 ![0, 0] · slices_S2x64_S1x64_0_0) : (⟨S2x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S262144x64 ![0, 1] bcast_S1x64_S262144x64_0_1 : (⟨S1x64, .f32⟩ : BufTy).Contents (Elt F) → (⟨S262144x64, .f32⟩ : BufTy).Contents (Elt F)),
    StableHlo.binary main_v55 main_v59 main_v60 (addf : (⟨S262144x64, .f32⟩ : BufTy).Contents (Elt F) → (⟨S262144x64, .f32⟩ : BufTy).Contents (Elt F) → (⟨S262144x64, .f32⟩ : BufTy).Contents (Elt F)) ]
abbrev stg_v60_W : List (Ref sig .tc) := [main_v55, main_v56, main_v57, main_v58, main_v59, main_v60]
set_option maxRecDepth 8192 in
theorem stg_v60_writes : (stg_v60 : List (HloOp τ sig (Elt F))).Forall fun op => op.writes ⊆ (stg_v60_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v69 (11). -/
abbrev stg_v69 : List (HloOp τ sig (Elt F)) :=
  [ StableHlo.nullary main_c_6 (constantI S_ 32 0#32),
    StableHlo.unary main_c_6 main_v61 (broadcastInDim S2097152 ![] bcast_S_S2097152 : (⟨S_, .i32⟩ : BufTy).Contents (Elt F) → (⟨S2097152, .i32⟩ : BufTy).Contents (Elt F)),
    StableHlo.binary main_arg18 main_v61 main_v62 (cmpi .slt : (⟨S2097152, .i32⟩ : BufTy).Contents (Elt F) → (⟨S2097152, .i32⟩ : BufTy).Contents (Elt F) → (⟨S2097152, .i1⟩ : BufTy).Contents (Elt F)),
    StableHlo.nullary main_c_7 (constantI S_ 32 262144#32),
    StableHlo.unary main_c_7 main_v63 (broadcastInDim S2097152 ![] bcast_S_S2097152 : (⟨S_, .i32⟩ : BufTy).Contents (Elt F) → (⟨S2097152, .i32⟩ : BufTy).Contents (Elt F)),
    StableHlo.binary main_arg18 main_v63 main_v64 (addi : (⟨S2097152, .i32⟩ : BufTy).Contents (Elt F) → (⟨S2097152, .i32⟩ : BufTy).Contents (Elt F) → (⟨S2097152, .i32⟩ : BufTy).Contents (Elt F)),
    StableHlo.ternary main_v62 main_v64 main_arg18 main_v65 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v65 main_v66 (broadcastInDim S2097152x1 ![0] bcast_S2097152_S2097152x1_0 : (⟨S2097152, .i32⟩ : BufTy).Contents (Elt F) → (⟨S2097152x1, .i32⟩ : BufTy).Contents (Elt F)),
    StableHlo.binary main_v52 main_v66 main_v67 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg1 main_v68 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v67 main_v68 main_v69 (mulf : (⟨S2097152x64, .f32⟩ : BufTy).Contents (Elt F) → (⟨S2097152x64, .f32⟩ : BufTy).Contents (Elt F) → (⟨S2097152x64, .f32⟩ : BufTy).Contents (Elt F)) ]
abbrev stg_v69_W : List (Ref sig .tc) := [main_c_6, main_v61, main_v62, main_c_7, main_v63, main_v64, main_v65, main_v66, main_v67, main_v68, main_v69]
set_option maxRecDepth 8192 in
theorem stg_v69_writes : (stg_v69 : List (HloOp τ sig (Elt F))).Forall fun op => op.writes ⊆ (stg_v69_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v78 (11). -/
abbrev stg_v78 : List (HloOp τ sig (Elt F)) :=
  [ StableHlo.nullary main_c_8 (constantI S_ 32 0#32),
    StableHlo.unary main_c_8 main_v70 (broadcastInDim S2097152 ![] bcast_S_S2097152 : (⟨S_, .i32⟩ : BufTy).Contents (Elt F) → (⟨S2097152, .i32⟩ : BufTy).Contents (Elt F)),
    StableHlo.binary main_arg20 main_v70 main_v71 (cmpi .slt : (⟨S2097152, .i32⟩ : BufTy).Contents (Elt F) → (⟨S2097152, .i32⟩ : BufTy).Contents (Elt F) → (⟨S2097152, .i1⟩ : BufTy).Contents (Elt F)),
    StableHlo.nullary main_c_9 (constantI S_ 32 262144#32),
    StableHlo.unary main_c_9 main_v72 (broadcastInDim S2097152 ![] bcast_S_S2097152 : (⟨S_, .i32⟩ : BufTy).Contents (Elt F) → (⟨S2097152, .i32⟩ : BufTy).Contents (Elt F)),
    StableHlo.binary main_arg20 main_v72 main_v73 (addi : (⟨S2097152, .i32⟩ : BufTy).Contents (Elt F) → (⟨S2097152, .i32⟩ : BufTy).Contents (Elt F) → (⟨S2097152, .i32⟩ : BufTy).Contents (Elt F)),
    StableHlo.ternary main_v71 main_v73 main_arg20 main_v74 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v74 main_v75 (broadcastInDim S2097152x1 ![0] bcast_S2097152_S2097152x1_0 : (⟨S2097152, .i32⟩ : BufTy).Contents (Elt F) → (⟨S2097152x1, .i32⟩ : BufTy).Contents (Elt F)),
    StableHlo.binary main_v60 main_v75 main_v76 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg2 main_v77 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v76 main_v77 main_v78 (mulf : (⟨S2097152x64, .f32⟩ : BufTy).Contents (Elt F) → (⟨S2097152x64, .f32⟩ : BufTy).Contents (Elt F) → (⟨S2097152x64, .f32⟩ : BufTy).Contents (Elt F)) ]
abbrev stg_v78_W : List (Ref sig .tc) := [main_c_8, main_v70, main_v71, main_c_9, main_v72, main_v73, main_v74, main_v75, main_v76, main_v77, main_v78]
set_option maxRecDepth 8192 in
theorem stg_v78_writes : (stg_v78 : List (HloOp τ sig (Elt F))).Forall fun op => op.writes ⊆ (stg_v78_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v81 (4). -/
abbrev stg_v81 : List (HloOp τ sig (Elt F)) :=
  [ StableHlo.nullary main_cst_10 (constant S_ .f32 0x00000000#32),
    StableHlo.unary main_cst_10 main_v79 (broadcastInDim S262144x64 ![] bcast_S_S262144x64 : (⟨S_, .f32⟩ : BufTy).Contents (Elt F) → (⟨S262144x64, .f32⟩ : BufTy).Contents (Elt F)),
    StableHlo.unary main_arg17 main_v80 (broadcastInDim S2097152x1 ![0] bcast_S2097152_S2097152x1_0 : (⟨S2097152, .i32⟩ : BufTy).Contents (Elt F) → (⟨S2097152x1, .i32⟩ : BufTy).Contents (Elt F)),
    StableHlo.ternary main_v79 main_v80 main_v69 main_v81 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]
abbrev stg_v81_W : List (Ref sig .tc) := [main_cst_10, main_v79, main_v80, main_v81]
set_option maxRecDepth 8192 in
theorem stg_v81_writes : (stg_v81 : List (HloOp τ sig (Elt F))).Forall fun op => op.writes ⊆ (stg_v81_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v84 (4). -/
abbrev stg_v84 : List (HloOp τ sig (Elt F)) :=
  [ StableHlo.nullary main_cst_11 (constant S_ .f32 0x00000000#32),
    StableHlo.unary main_cst_11 main_v82 (broadcastInDim S262144x64 ![] bcast_S_S262144x64 : (⟨S_, .f32⟩ : BufTy).Contents (Elt F) → (⟨S262144x64, .f32⟩ : BufTy).Contents (Elt F)),
    StableHlo.unary main_arg19 main_v83 (broadcastInDim S2097152x1 ![0] bcast_S2097152_S2097152x1_0 : (⟨S2097152, .i32⟩ : BufTy).Contents (Elt F) → (⟨S2097152x1, .i32⟩ : BufTy).Contents (Elt F)),
    StableHlo.ternary main_v82 main_v83 main_v78 main_v84 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]
abbrev stg_v84_W : List (Ref sig .tc) := [main_cst_11, main_v82, main_v83, main_v84]
set_option maxRecDepth 8192 in
theorem stg_v84_writes : (stg_v84 : List (HloOp τ sig (Elt F))).Forall fun op => op.writes ⊆ (stg_v84_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v86 (2). -/
abbrev stg_v86 : List (HloOp τ sig (Elt F)) :=
  [ StableHlo.binary main_v81 main_v84 main_v85 (addf : (⟨S262144x64, .f32⟩ : BufTy).Contents (Elt F) → (⟨S262144x64, .f32⟩ : BufTy).Contents (Elt F) → (⟨S262144x64, .f32⟩ : BufTy).Contents (Elt F)),
    StableHlo.binary main_v85 main_v44 main_v86 (addf : (⟨S262144x64, .f32⟩ : BufTy).Contents (Elt F) → (⟨S262144x64, .f32⟩ : BufTy).Contents (Elt F) → (⟨S262144x64, .f32⟩ : BufTy).Contents (Elt F)) ]
abbrev stg_v86_W : List (Ref sig .tc) := [main_v85, main_v86]
set_option maxRecDepth 8192 in
theorem stg_v86_writes : (stg_v86 : List (HloOp τ sig (Elt F))).Forall fun op => op.writes ⊆ (stg_v86_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v109 (48). -/
abbrev stg_v109 : List (HloOp τ sig (Elt F)) :=
  [ StableHlo.unary main_arg13 main_v87 ((extractStridedSlice S1x64 ![0, 0] · slices_S2x64_S1x64_0_0) : (⟨S2x64, .f32⟩ : BufTy).Contents (Elt F) → (⟨S1x64, .f32⟩ : BufTy).Contents (Elt F)),
    StableHlo.reshape main_v87 main_v88 rfl shapeCasts_S1x64_S64,
    StableHlo.unary main_arg14 main_v89 ((extractStridedSlice S1x64 ![0, 0] · slices_S2x64_S1x64_0_0) : (⟨S2x64, .f32⟩ : BufTy).Contents (Elt F) → (⟨S1x64, .f32⟩ : BufTy).Contents (Elt F)),
    StableHlo.reshape main_v89 main_v90 rfl shapeCasts_S1x64_S64,
    StableHlo.nullary main_cst_12 (constant S_ .f32 0x00000000#32),
    StableHlo.binary main_v86 main_cst_12 main_v91 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_13 (constant S_ .f32 0x48800000#32),
    StableHlo.unary main_cst_13 main_v92 (broadcastInDim S64 ![] bcast_S_S64 : (⟨S_, .f32⟩ : BufTy).Contents (Elt F) → (⟨S64, .f32⟩ : BufTy).Contents (Elt F)),
    StableHlo.binary main_v91 main_v92 main_v93 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call2.cst (constant S_ .f32 0x00000000#32),
    StableHlo.TRef.binary (.of main_v86) main_call2.cst main_call2.v0 (fun x v => Host.reduceAdd x v reducesTo_S262144x64_S64_d0 h_S_),
    StableHlo.TRef.unary main_call2.v0 main_call2.v1 (broadcastInDim S1x64 ![1] bcast_S64_S1x64_1),
    StableHlo.TRef.nullary main_call2.cst_0 (constant S_ .f32 0x48800000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S262144x64 ![0, 1] bcast_S1x64_S262144x64_0_1),
    StableHlo.TRef.binary (.of main_v86) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x48800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S262144x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v93 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S262144x64 ![0, 1] bcast_S1x64_S262144x64_0_1 : (⟨S1x64, .f32⟩ : BufTy).Contents (Elt F) → (⟨S262144x64, .f32⟩ : BufTy).Contents (Elt F)),
    StableHlo.binary main_v86 main_v96 main_v97 (subf : (⟨S262144x64, .f32⟩ : BufTy).Contents (Elt F) → (⟨S262144x64, .f32⟩ : BufTy).Contents (Elt F) → (⟨S262144x64, .f32⟩ : BufTy).Contents (Elt F)),
    StableHlo.nullary main_cst_15 (constant S_ .f32 0x3727C5AC#32),
    StableHlo.unary main_cst_15 main_v98 (broadcastInDim S64 ![] bcast_S_S64 : (⟨S_, .f32⟩ : BufTy).Contents (Elt F) → (⟨S64, .f32⟩ : BufTy).Contents (Elt F)),
    StableHlo.binary main_v94 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S262144x64 ![0, 1] bcast_S1x64_S262144x64_0_1 : (⟨S1x64, .f32⟩ : BufTy).Contents (Elt F) → (⟨S262144x64, .f32⟩ : BufTy).Contents (Elt F)),
    StableHlo.binary main_v97 main_v102 main_v103 (mulf : (⟨S262144x64, .f32⟩ : BufTy).Contents (Elt F) → (⟨S262144x64, .f32⟩ : BufTy).Contents (Elt F) → (⟨S262144x64, .f32⟩ : BufTy).Contents (Elt F)),
    StableHlo.unary main_v88 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S262144x64 ![0, 1] bcast_S1x64_S262144x64_0_1 : (⟨S1x64, .f32⟩ : BufTy).Contents (Elt F) → (⟨S262144x64, .f32⟩ : BufTy).Contents (Elt F)),
    StableHlo.binary main_v103 main_v105 main_v106 (mulf : (⟨S262144x64, .f32⟩ : BufTy).Contents (Elt F) → (⟨S262144x64, .f32⟩ : BufTy).Contents (Elt F) → (⟨S262144x64, .f32⟩ : BufTy).Contents (Elt F)),
    StableHlo.unary main_v90 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S262144x64 ![0, 1] bcast_S1x64_S262144x64_0_1 : (⟨S1x64, .f32⟩ : BufTy).Contents (Elt F) → (⟨S262144x64, .f32⟩ : BufTy).Contents (Elt F)),
    StableHlo.binary main_v106 main_v108 main_v109 (addf : (⟨S262144x64, .f32⟩ : BufTy).Contents (Elt F) → (⟨S262144x64, .f32⟩ : BufTy).Contents (Elt F) → (⟨S262144x64, .f32⟩ : BufTy).Contents (Elt F)) ]
abbrev stg_v109_W : List (Ref sig .tc) := [main_v87, main_v88, main_v89, main_v90, main_cst_12, main_v91, main_cst_13, main_v92, main_v93, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v94, main_v95, main_v96, main_v97, main_cst_15, main_v98, main_v99, main_v100, main_v101, main_v102, main_v103, main_v104, main_v105, main_v106, main_v107, main_v108, main_v109]
set_option maxRecDepth 8192 in
theorem stg_v109_writes : (stg_v109 : List (HloOp τ sig (Elt F))).Forall fun op => op.writes ⊆ (stg_v109_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v110 (8). -/
abbrev stg_v110 : List (HloOp τ sig (Elt F)) :=
  [ StableHlo.nullary main_cst_16 (constant S_ .f32 0x3C23D70A#32),
    StableHlo.TRef.nullary main_call3.cst (constant S_ .f32 0x00000000#32),
    StableHlo.TRef.unary main_call3.cst main_call3.v0 (broadcastInDim S262144x64 ![] bcast_S_S262144x64),
    StableHlo.TRef.binary (.of main_v109) main_call3.v0 main_call3.v1 (cmpf .oge),
    StableHlo.TRef.unary (.of main_cst_16) main_call3.v2 id,
    StableHlo.TRef.unary main_call3.v2 main_call3.v3 (broadcastInDim S262144x64 ![] bcast_S_S262144x64),
    StableHlo.TRef.binary main_call3.v3 (.of main_v109) main_call3.v4 mulf,
    StableHlo.TRef.ternary main_call3.v1 (.of main_v109) main_call3.v4 main_call3.call0.v0 select ]
abbrev stg_v110_W : List (Ref sig .tc) := [main_cst_16, main_call3_cst, main_call3_v0, main_call3_v1, main_call3_v2, main_call3_v3, main_call3_v4, main_v110]
set_option maxRecDepth 8192 in
theorem stg_v110_writes : (stg_v110 : List (HloOp τ sig (Elt F))).Forall fun op => op.writes ⊆ (stg_v110_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v132 (48). -/
abbrev stg_v132 : List (HloOp τ sig (Elt F)) :=
  [ StableHlo.unary main_arg7 main_v111 ((extractStridedSlice S1x64 ![1, 0] · slices_S2x64_S1x64_1_0) : (⟨S2x64, .f32⟩ : BufTy).Contents (Elt F) → (⟨S1x64, .f32⟩ : BufTy).Contents (Elt F)),
    StableHlo.reshape main_v111 main_v112 rfl shapeCasts_S1x64_S64,
    StableHlo.unary main_arg8 main_v113 ((extractStridedSlice S1x64 ![1, 0] · slices_S2x64_S1x64_1_0) : (⟨S2x64, .f32⟩ : BufTy).Contents (Elt F) → (⟨S1x64, .f32⟩ : BufTy).Contents (Elt F)),
    StableHlo.reshape main_v113 main_v114 rfl shapeCasts_S1x64_S64,
    StableHlo.nullary main_cst_17 (constant S_ .f32 0x00000000#32),
    StableHlo.binary main_v110 main_cst_17 main_v115 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v115 main_v116 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42800000#32),
    StableHlo.unary main_cst_18 main_v117 (broadcastInDim S262144x1 ![] bcast_S_S262144x1 : (⟨S_, .f32⟩ : BufTy).Contents (Elt F) → (⟨S262144x1, .f32⟩ : BufTy).Contents (Elt F)),
    StableHlo.binary main_v116 main_v117 main_v118 (Host.divf : (⟨S262144x1, .f32⟩ : BufTy).Contents (Elt F) → (⟨S262144x1, .f32⟩ : BufTy).Contents (Elt F) → (⟨S262144x1, .f32⟩ : BufTy).Contents (Elt F)),
    StableHlo.nullary main_c_19 (constantI S_ 32 0#32),
    StableHlo.TRef.nullary main_call4.cst (constant S_ .f32 0x00000000#32),
    StableHlo.TRef.binary (.of main_v110) main_call4.cst main_call4.v0 (fun x v => Host.reduceAdd x v reducesTo_S262144x64_S262144_d1 h_S_),
    StableHlo.TRef.unary main_call4.v0 main_call4.v1 (broadcastInDim S262144x1 ![0] bcast_S262144_S262144x1_0),
    StableHlo.TRef.nullary main_call4.cst_0 (constant S_ .f32 0x42800000#32),
    StableHlo.TRef.unary main_call4.cst_0 main_call4.v2 (broadcastInDim S262144x1 ![] bcast_S_S262144x1),
    StableHlo.TRef.binary main_call4.v1 main_call4.v2 main_call4.v3 Host.divf,
    StableHlo.TRef.unary main_call4.v3 main_call4.v4 (broadcastInDim S262144x64 ![0, 1] bcast_S262144x1_S262144x64_0_1),
    StableHlo.TRef.binary (.of main_v110) main_call4.v4 main_call4.v5 subf,
    StableHlo.TRef.binary main_call4.v5 main_call4.v5 main_call4.v6 mulf,
    StableHlo.TRef.unary (.of main_c_19) main_call4.v7 (sitofp .f32),
    StableHlo.TRef.nullary main_call4.cst_1 (constant S_ .f32 0x42800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S262144x64_S262144_d1 h_S_),
    StableHlo.TRef.unary main_call4.v9 main_call4.v10 (broadcastInDim S262144x1 ![0] bcast_S262144_S262144x1_0),
    StableHlo.TRef.unary main_call4.v8 main_call4.v11 (broadcastInDim S262144x1 ![] bcast_S_S262144x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S262144x1 ![] bcast_S_S262144x1),
    StableHlo.TRef.ternary main_call4.v13 main_call4.v12 main_call4.call0.v1 main_call4.call0.v2 (fun p a b => select (broadcastInDim S262144x1 ![] bcast_S_S262144x1 p) a b),
    StableHlo.unary main_v118 main_v120 (broadcastInDim S262144x64 ![0, 1] bcast_S262144x1_S262144x64_0_1 : (⟨S262144x1, .f32⟩ : BufTy).Contents (Elt F) → (⟨S262144x64, .f32⟩ : BufTy).Contents (Elt F)),
    StableHlo.binary main_v110 main_v120 main_v121 (subf : (⟨S262144x64, .f32⟩ : BufTy).Contents (Elt F) → (⟨S262144x64, .f32⟩ : BufTy).Contents (Elt F) → (⟨S262144x64, .f32⟩ : BufTy).Contents (Elt F)),
    StableHlo.nullary main_cst_20 (constant S_ .f32 0x3727C5AC#32),
    StableHlo.unary main_cst_20 main_v122 (broadcastInDim S262144x1 ![] bcast_S_S262144x1 : (⟨S_, .f32⟩ : BufTy).Contents (Elt F) → (⟨S262144x1, .f32⟩ : BufTy).Contents (Elt F)),
    StableHlo.binary main_v119 main_v122 main_v123 (addf : (⟨S262144x1, .f32⟩ : BufTy).Contents (Elt F) → (⟨S262144x1, .f32⟩ : BufTy).Contents (Elt F) → (⟨S262144x1, .f32⟩ : BufTy).Contents (Elt F)),
    StableHlo.unary main_v123 main_v124 (Host.rsqrt : (⟨S262144x1, .f32⟩ : BufTy).Contents (Elt F) → (⟨S262144x1, .f32⟩ : BufTy).Contents (Elt F)),
    StableHlo.unary main_v124 main_v125 (broadcastInDim S262144x64 ![0, 1] bcast_S262144x1_S262144x64_0_1 : (⟨S262144x1, .f32⟩ : BufTy).Contents (Elt F) → (⟨S262144x64, .f32⟩ : BufTy).Contents (Elt F)),
    StableHlo.binary main_v121 main_v125 main_v126 (mulf : (⟨S262144x64, .f32⟩ : BufTy).Contents (Elt F) → (⟨S262144x64, .f32⟩ : BufTy).Contents (Elt F) → (⟨S262144x64, .f32⟩ : BufTy).Contents (Elt F)),
    StableHlo.unary main_v112 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S262144x64 ![0, 1] bcast_S1x64_S262144x64_0_1 : (⟨S1x64, .f32⟩ : BufTy).Contents (Elt F) → (⟨S262144x64, .f32⟩ : BufTy).Contents (Elt F)),
    StableHlo.binary main_v126 main_v128 main_v129 (mulf : (⟨S262144x64, .f32⟩ : BufTy).Contents (Elt F) → (⟨S262144x64, .f32⟩ : BufTy).Contents (Elt F) → (⟨S262144x64, .f32⟩ : BufTy).Contents (Elt F)),
    StableHlo.unary main_v114 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S262144x64 ![0, 1] bcast_S1x64_S262144x64_0_1 : (⟨S1x64, .f32⟩ : BufTy).Contents (Elt F) → (⟨S262144x64, .f32⟩ : BufTy).Contents (Elt F)),
    StableHlo.binary main_v129 main_v131 main_v132 (addf : (⟨S262144x64, .f32⟩ : BufTy).Contents (Elt F) → (⟨S262144x64, .f32⟩ : BufTy).Contents (Elt F) → (⟨S262144x64, .f32⟩ : BufTy).Contents (Elt F)) ]
abbrev stg_v132_W : List (Ref sig .tc) := [main_v111, main_v112, main_v113, main_v114, main_cst_17, main_v115, main_v116, main_cst_18, main_v117, main_v118, main_c_19, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v119, main_v120, main_v121, main_cst_20, main_v122, main_v123, main_v124, main_v125, main_v126, main_v127, main_v128, main_v129, main_v130, main_v131, main_v132]
set_option maxRecDepth 8192 in
theorem stg_v132_writes : (stg_v132 : List (HloOp τ sig (Elt F))).Forall fun op => op.writes ⊆ (stg_v132_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v134 (2). -/
abbrev stg_v134 : List (HloOp τ sig (Elt F)) :=
  [ StableHlo.unary main_arg9 main_v133 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v133 main_v134 rfl shapeCasts_S1x64x64_S64x64 ]
abbrev stg_v134_W : List (Ref sig .tc) := [main_v133, main_v134]
set_option maxRecDepth 8192 in
theorem stg_v134_writes : (stg_v134 : List (HloOp τ sig (Elt F))).Forall fun op => op.writes ⊆ (stg_v134_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v140 (6). -/
abbrev stg_v140 : List (HloOp τ sig (Elt F)) :=
  [ StableHlo.binary main_v132 main_v134 main_v135 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg10 main_v136 ((extractStridedSlice S1x64 ![1, 0] · slices_S2x64_S1x64_1_0) : (⟨S2x64, .f32⟩ : BufTy).Contents (Elt F) → (⟨S1x64, .f32⟩ : BufTy).Contents (Elt F)),
    StableHlo.reshape main_v136 main_v137 rfl shapeCasts_S1x64_S64,
    StableHlo.unary main_v137 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S262144x64 ![0, 1] bcast_S1x64_S262144x64_0_1 : (⟨S1x64, .f32⟩ : BufTy).Contents (Elt F) → (⟨S262144x64, .f32⟩ : BufTy).Contents (Elt F)),
    StableHlo.binary main_v135 main_v139 main_v140 (addf : (⟨S262144x64, .f32⟩ : BufTy).Contents (Elt F) → (⟨S262144x64, .f32⟩ : BufTy).Contents (Elt F) → (⟨S262144x64, .f32⟩ : BufTy).Contents (Elt F)) ]
abbrev stg_v140_W : List (Ref sig .tc) := [main_v135, main_v136, main_v137, main_v138, main_v139, main_v140]
set_option maxRecDepth 8192 in
theorem stg_v140_writes : (stg_v140 : List (HloOp τ sig (Elt F))).Forall fun op => op.writes ⊆ (stg_v140_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v142 (2). -/
abbrev stg_v142 : List (HloOp τ sig (Elt F)) :=
  [ StableHlo.unary main_arg11 main_v141 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v141 main_v142 rfl shapeCasts_S1x64x64_S64x64 ]
abbrev stg_v142_W : List (Ref sig .tc) := [main_v141, main_v142]
set_option maxRecDepth 8192 in
theorem stg_v142_writes : (stg_v142 : List (HloOp τ sig (Elt F))).Forall fun op => op.writes ⊆ (stg_v142_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v148 (6). -/
abbrev stg_v148 : List (HloOp τ sig (Elt F)) :=
  [ StableHlo.binary main_v132 main_v142 main_v143 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    StableHlo.unary main_arg12 main_v144 ((extractStridedSlice S1x64 ![1, 0] · slices_S2x64_S1x64_1_0) : (⟨S2x64, .f32⟩ : BufTy).Contents (Elt F) → (⟨S1x64, .f32⟩ : BufTy).Contents (Elt F)),
    StableHlo.reshape main_v144 main_v145 rfl shapeCasts_S1x64_S64,
    StableHlo.unary main_v145 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S262144x64 ![0, 1] bcast_S1x64_S262144x64_0_1 : (⟨S1x64, .f32⟩ : BufTy).Contents (Elt F) → (⟨S262144x64, .f32⟩ : BufTy).Contents (Elt F)),
    StableHlo.binary main_v143 main_v147 main_v148 (addf : (⟨S262144x64, .f32⟩ : BufTy).Contents (Elt F) → (⟨S262144x64, .f32⟩ : BufTy).Contents (Elt F) → (⟨S262144x64, .f32⟩ : BufTy).Contents (Elt F)) ]
abbrev stg_v148_W : List (Ref sig .tc) := [main_v143, main_v144, main_v145, main_v146, main_v147, main_v148]
set_option maxRecDepth 8192 in
theorem stg_v148_writes : (stg_v148 : List (HloOp τ sig (Elt F))).Forall fun op => op.writes ⊆ (stg_v148_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v157 (11). -/
abbrev stg_v157 : List (HloOp τ sig (Elt F)) :=
  [ StableHlo.nullary main_c_21 (constantI S_ 32 0#32),
    StableHlo.unary main_c_21 main_v149 (broadcastInDim S2097152 ![] bcast_S_S2097152 : (⟨S_, .i32⟩ : BufTy).Contents (Elt F) → (⟨S2097152, .i32⟩ : BufTy).Contents (Elt F)),
    StableHlo.binary main_arg18 main_v149 main_v150 (cmpi .slt : (⟨S2097152, .i32⟩ : BufTy).Contents (Elt F) → (⟨S2097152, .i32⟩ : BufTy).Contents (Elt F) → (⟨S2097152, .i1⟩ : BufTy).Contents (Elt F)),
    StableHlo.nullary main_c_22 (constantI S_ 32 262144#32),
    StableHlo.unary main_c_22 main_v151 (broadcastInDim S2097152 ![] bcast_S_S2097152 : (⟨S_, .i32⟩ : BufTy).Contents (Elt F) → (⟨S2097152, .i32⟩ : BufTy).Contents (Elt F)),
    StableHlo.binary main_arg18 main_v151 main_v152 (addi : (⟨S2097152, .i32⟩ : BufTy).Contents (Elt F) → (⟨S2097152, .i32⟩ : BufTy).Contents (Elt F) → (⟨S2097152, .i32⟩ : BufTy).Contents (Elt F)),
    StableHlo.ternary main_v150 main_v152 main_arg18 main_v153 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v153 main_v154 (broadcastInDim S2097152x1 ![0] bcast_S2097152_S2097152x1_0 : (⟨S2097152, .i32⟩ : BufTy).Contents (Elt F) → (⟨S2097152x1, .i32⟩ : BufTy).Contents (Elt F)),
    StableHlo.binary main_v140 main_v154 main_v155 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg1 main_v156 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v155 main_v156 main_v157 (mulf : (⟨S2097152x64, .f32⟩ : BufTy).Contents (Elt F) → (⟨S2097152x64, .f32⟩ : BufTy).Contents (Elt F) → (⟨S2097152x64, .f32⟩ : BufTy).Contents (Elt F)) ]
abbrev stg_v157_W : List (Ref sig .tc) := [main_c_21, main_v149, main_v150, main_c_22, main_v151, main_v152, main_v153, main_v154, main_v155, main_v156, main_v157]
set_option maxRecDepth 8192 in
theorem stg_v157_writes : (stg_v157 : List (HloOp τ sig (Elt F))).Forall fun op => op.writes ⊆ (stg_v157_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v166 (11). -/
abbrev stg_v166 : List (HloOp τ sig (Elt F)) :=
  [ StableHlo.nullary main_c_23 (constantI S_ 32 0#32),
    StableHlo.unary main_c_23 main_v158 (broadcastInDim S2097152 ![] bcast_S_S2097152 : (⟨S_, .i32⟩ : BufTy).Contents (Elt F) → (⟨S2097152, .i32⟩ : BufTy).Contents (Elt F)),
    StableHlo.binary main_arg20 main_v158 main_v159 (cmpi .slt : (⟨S2097152, .i32⟩ : BufTy).Contents (Elt F) → (⟨S2097152, .i32⟩ : BufTy).Contents (Elt F) → (⟨S2097152, .i1⟩ : BufTy).Contents (Elt F)),
    StableHlo.nullary main_c_24 (constantI S_ 32 262144#32),
    StableHlo.unary main_c_24 main_v160 (broadcastInDim S2097152 ![] bcast_S_S2097152 : (⟨S_, .i32⟩ : BufTy).Contents (Elt F) → (⟨S2097152, .i32⟩ : BufTy).Contents (Elt F)),
    StableHlo.binary main_arg20 main_v160 main_v161 (addi : (⟨S2097152, .i32⟩ : BufTy).Contents (Elt F) → (⟨S2097152, .i32⟩ : BufTy).Contents (Elt F) → (⟨S2097152, .i32⟩ : BufTy).Contents (Elt F)),
    StableHlo.ternary main_v159 main_v161 main_arg20 main_v162 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v162 main_v163 (broadcastInDim S2097152x1 ![0] bcast_S2097152_S2097152x1_0 : (⟨S2097152, .i32⟩ : BufTy).Contents (Elt F) → (⟨S2097152x1, .i32⟩ : BufTy).Contents (Elt F)),
    StableHlo.binary main_v148 main_v163 main_v164 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    StableHlo.unary main_arg2 main_v165 (broadcastInDim S2097152x64 ![0, 1] bcast_S2097152x1_S2097152x64_0_1 : (⟨S2097152x1, .f32⟩ : BufTy).Contents (Elt F) → (⟨S2097152x64, .f32⟩ : BufTy).Contents (Elt F)),
    StableHlo.binary main_v164 main_v165 main_v166 (mulf : (⟨S2097152x64, .f32⟩ : BufTy).Contents (Elt F) → (⟨S2097152x64, .f32⟩ : BufTy).Contents (Elt F) → (⟨S2097152x64, .f32⟩ : BufTy).Contents (Elt F)) ]
abbrev stg_v166_W : List (Ref sig .tc) := [main_c_23, main_v158, main_v159, main_c_24, main_v160, main_v161, main_v162, main_v163, main_v164, main_v165, main_v166]
set_option maxRecDepth 8192 in
theorem stg_v166_writes : (stg_v166 : List (HloOp τ sig (Elt F))).Forall fun op => op.writes ⊆ (stg_v166_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v169 (4). -/
abbrev stg_v169 : List (HloOp τ sig (Elt F)) :=
  [ StableHlo.nullary main_cst_25 (constant S_ .f32 0x00000000#32),
    StableHlo.unary main_cst_25 main_v167 (broadcastInDim S262144x64 ![] bcast_S_S262144x64 : (⟨S_, .f32⟩ : BufTy).Contents (Elt F) → (⟨S262144x64, .f32⟩ : BufTy).Contents (Elt F)),
    StableHlo.unary main_arg17 main_v168 (broadcastInDim S2097152x1 ![0] bcast_S2097152_S2097152x1_0 : (⟨S2097152, .i32⟩ : BufTy).Contents (Elt F) → (⟨S2097152x1, .i32⟩ : BufTy).Contents (Elt F)),
    StableHlo.ternary main_v167 main_v168 main_v157 main_v169 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]
abbrev stg_v169_W : List (Ref sig .tc) := [main_cst_25, main_v167, main_v168, main_v169]
set_option maxRecDepth 8192 in
theorem stg_v169_writes : (stg_v169 : List (HloOp τ sig (Elt F))).Forall fun op => op.writes ⊆ (stg_v169_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v172 (4). -/
abbrev stg_v172 : List (HloOp τ sig (Elt F)) :=
  [ StableHlo.nullary main_cst_26 (constant S_ .f32 0x00000000#32),
    StableHlo.unary main_cst_26 main_v170 (broadcastInDim S262144x64 ![] bcast_S_S262144x64 : (⟨S_, .f32⟩ : BufTy).Contents (Elt F) → (⟨S262144x64, .f32⟩ : BufTy).Contents (Elt F)),
    StableHlo.unary main_arg19 main_v171 (broadcastInDim S2097152x1 ![0] bcast_S2097152_S2097152x1_0 : (⟨S2097152, .i32⟩ : BufTy).Contents (Elt F) → (⟨S2097152x1, .i32⟩ : BufTy).Contents (Elt F)),
    StableHlo.ternary main_v170 main_v171 main_v166 main_v172 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]
abbrev stg_v172_W : List (Ref sig .tc) := [main_cst_26, main_v170, main_v171, main_v172]
set_option maxRecDepth 8192 in
theorem stg_v172_writes : (stg_v172 : List (HloOp τ sig (Elt F))).Forall fun op => op.writes ⊆ (stg_v172_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v174 (2). -/
abbrev stg_v174 : List (HloOp τ sig (Elt F)) :=
  [ StableHlo.binary main_v169 main_v172 main_v173 (addf : (⟨S262144x64, .f32⟩ : BufTy).Contents (Elt F) → (⟨S262144x64, .f32⟩ : BufTy).Contents (Elt F) → (⟨S262144x64, .f32⟩ : BufTy).Contents (Elt F)),
    StableHlo.binary main_v173 main_v132 main_v174 (addf : (⟨S262144x64, .f32⟩ : BufTy).Contents (Elt F) → (⟨S262144x64, .f32⟩ : BufTy).Contents (Elt F) → (⟨S262144x64, .f32⟩ : BufTy).Contents (Elt F)) ]
abbrev stg_v174_W : List (Ref sig .tc) := [main_v173, main_v174]
set_option maxRecDepth 8192 in
theorem stg_v174_writes : (stg_v174 : List (HloOp τ sig (Elt F))).Forall fun op => op.writes ⊆ (stg_v174_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v197 (48). -/
abbrev stg_v197 : List (HloOp τ sig (Elt F)) :=
  [ StableHlo.unary main_arg13 main_v175 ((extractStridedSlice S1x64 ![1, 0] · slices_S2x64_S1x64_1_0) : (⟨S2x64, .f32⟩ : BufTy).Contents (Elt F) → (⟨S1x64, .f32⟩ : BufTy).Contents (Elt F)),
    StableHlo.reshape main_v175 main_v176 rfl shapeCasts_S1x64_S64,
    StableHlo.unary main_arg14 main_v177 ((extractStridedSlice S1x64 ![1, 0] · slices_S2x64_S1x64_1_0) : (⟨S2x64, .f32⟩ : BufTy).Contents (Elt F) → (⟨S1x64, .f32⟩ : BufTy).Contents (Elt F)),
    StableHlo.reshape main_v177 main_v178 rfl shapeCasts_S1x64_S64,
    StableHlo.nullary main_cst_27 (constant S_ .f32 0x00000000#32),
    StableHlo.binary main_v174 main_cst_27 main_v179 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    StableHlo.nullary main_cst_28 (constant S_ .f32 0x48800000#32),
    StableHlo.unary main_cst_28 main_v180 (broadcastInDim S64 ![] bcast_S_S64 : (⟨S_, .f32⟩ : BufTy).Contents (Elt F) → (⟨S64, .f32⟩ : BufTy).Contents (Elt F)),
    StableHlo.binary main_v179 main_v180 main_v181 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call5.cst (constant S_ .f32 0x00000000#32),
    StableHlo.TRef.binary (.of main_v174) main_call5.cst main_call5.v0 (fun x v => Host.reduceAdd x v reducesTo_S262144x64_S64_d0 h_S_),
    StableHlo.TRef.unary main_call5.v0 main_call5.v1 (broadcastInDim S1x64 ![1] bcast_S64_S1x64_1),
    StableHlo.TRef.nullary main_call5.cst_0 (constant S_ .f32 0x48800000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S262144x64 ![0, 1] bcast_S1x64_S262144x64_0_1),
    StableHlo.TRef.binary (.of main_v174) main_call5.v4 main_call5.v5 subf,
    StableHlo.TRef.binary main_call5.v5 main_call5.v5 main_call5.v6 mulf,
    StableHlo.TRef.unary (.of main_c_29) main_call5.v7 (sitofp .f32),
    StableHlo.TRef.nullary main_call5.cst_1 (constant S_ .f32 0x48800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S262144x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v181 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S262144x64 ![0, 1] bcast_S1x64_S262144x64_0_1 : (⟨S1x64, .f32⟩ : BufTy).Contents (Elt F) → (⟨S262144x64, .f32⟩ : BufTy).Contents (Elt F)),
    StableHlo.binary main_v174 main_v184 main_v185 (subf : (⟨S262144x64, .f32⟩ : BufTy).Contents (Elt F) → (⟨S262144x64, .f32⟩ : BufTy).Contents (Elt F) → (⟨S262144x64, .f32⟩ : BufTy).Contents (Elt F)),
    StableHlo.nullary main_cst_30 (constant S_ .f32 0x3727C5AC#32),
    StableHlo.unary main_cst_30 main_v186 (broadcastInDim S64 ![] bcast_S_S64 : (⟨S_, .f32⟩ : BufTy).Contents (Elt F) → (⟨S64, .f32⟩ : BufTy).Contents (Elt F)),
    StableHlo.binary main_v182 main_v186 main_v187 (addf : (⟨S64, .f32⟩ : BufTy).Contents (Elt F) → (⟨S64, .f32⟩ : BufTy).Contents (Elt F) → (⟨S64, .f32⟩ : BufTy).Contents (Elt F)),
    StableHlo.unary main_v187 main_v188 (Host.rsqrt : (⟨S64, .f32⟩ : BufTy).Contents (Elt F) → (⟨S64, .f32⟩ : BufTy).Contents (Elt F)),
    StableHlo.unary main_v188 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S262144x64 ![0, 1] bcast_S1x64_S262144x64_0_1 : (⟨S1x64, .f32⟩ : BufTy).Contents (Elt F) → (⟨S262144x64, .f32⟩ : BufTy).Contents (Elt F)),
    StableHlo.binary main_v185 main_v190 main_v191 (mulf : (⟨S262144x64, .f32⟩ : BufTy).Contents (Elt F) → (⟨S262144x64, .f32⟩ : BufTy).Contents (Elt F) → (⟨S262144x64, .f32⟩ : BufTy).Contents (Elt F)),
    StableHlo.unary main_v176 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S262144x64 ![0, 1] bcast_S1x64_S262144x64_0_1 : (⟨S1x64, .f32⟩ : BufTy).Contents (Elt F) → (⟨S262144x64, .f32⟩ : BufTy).Contents (Elt F)),
    StableHlo.binary main_v191 main_v193 main_v194 (mulf : (⟨S262144x64, .f32⟩ : BufTy).Contents (Elt F) → (⟨S262144x64, .f32⟩ : BufTy).Contents (Elt F) → (⟨S262144x64, .f32⟩ : BufTy).Contents (Elt F)),
    StableHlo.unary main_v178 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S262144x64 ![0, 1] bcast_S1x64_S262144x64_0_1 : (⟨S1x64, .f32⟩ : BufTy).Contents (Elt F) → (⟨S262144x64, .f32⟩ : BufTy).Contents (Elt F)),
    StableHlo.binary main_v194 main_v196 main_v197 (addf : (⟨S262144x64, .f32⟩ : BufTy).Contents (Elt F) → (⟨S262144x64, .f32⟩ : BufTy).Contents (Elt F) → (⟨S262144x64, .f32⟩ : BufTy).Contents (Elt F)) ]
abbrev stg_v197_W : List (Ref sig .tc) := [main_v175, main_v176, main_v177, main_v178, main_cst_27, main_v179, main_cst_28, main_v180, main_v181, main_c_29, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v182, main_v183, main_v184, main_v185, main_cst_30, main_v186, main_v187, main_v188, main_v189, main_v190, main_v191, main_v192, main_v193, main_v194, main_v195, main_v196, main_v197]
set_option maxRecDepth 8192 in
theorem stg_v197_writes : (stg_v197 : List (HloOp τ sig (Elt F))).Forall fun op => op.writes ⊆ (stg_v197_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v198 (8). -/
abbrev stg_v198 : List (HloOp τ sig (Elt F)) :=
  [ StableHlo.nullary main_cst_31 (constant S_ .f32 0x3C23D70A#32),
    StableHlo.TRef.nullary main_call6.cst (constant S_ .f32 0x00000000#32),
    StableHlo.TRef.unary main_call6.cst main_call6.v0 (broadcastInDim S262144x64 ![] bcast_S_S262144x64),
    StableHlo.TRef.binary (.of main_v197) main_call6.v0 main_call6.v1 (cmpf .oge),
    StableHlo.TRef.unary (.of main_cst_31) main_call6.v2 id,
    StableHlo.TRef.unary main_call6.v2 main_call6.v3 (broadcastInDim S262144x64 ![] bcast_S_S262144x64),
    StableHlo.TRef.binary main_call6.v3 (.of main_v197) main_call6.v4 mulf,
    StableHlo.TRef.ternary main_call6.v1 (.of main_v197) main_call6.v4 main_call6.call0.v0 select ]
abbrev stg_v198_W : List (Ref sig .tc) := [main_cst_31, main_call6_cst, main_call6_v0, main_call6_v1, main_call6_v2, main_call6_v3, main_call6_v4, main_v198]
set_option maxRecDepth 8192 in
theorem stg_v198_writes : (stg_v198 : List (HloOp τ sig (Elt F))).Forall fun op => op.writes ⊆ (stg_v198_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v202 (4). -/
abbrev stg_v202 : List (HloOp τ sig (Elt F)) :=
  [ StableHlo.binary main_v198 main_arg15 main_v199 ((fun l r => Host.dotGeneral dot_S262144x64_S64x16_S262144x16_1_0_0_1_n_n none l r) : (⟨S262144x64, .f32⟩ : BufTy).Contents (Elt F) → (⟨S64x16, .f32⟩ : BufTy).Contents (Elt F) → (⟨S262144x16, .f32⟩ : BufTy).Contents (Elt F)),
    StableHlo.unary main_arg16 main_v200 (broadcastInDim S1x16 ![1] bcast_S16_S1x16_1 : (⟨S16, .f32⟩ : BufTy).Contents (Elt F) → (⟨S1x16, .f32⟩ : BufTy).Contents (Elt F)),
    StableHlo.unary main_v200 main_v201 (broadcastInDim S262144x16 ![0, 1] bcast_S1x16_S262144x16_0_1 : (⟨S1x16, .f32⟩ : BufTy).Contents (Elt F) → (⟨S262144x16, .f32⟩ : BufTy).Contents (Elt F)),
    StableHlo.binary main_v199 main_v201 main_v202 (addf : (⟨S262144x16, .f32⟩ : BufTy).Contents (Elt F) → (⟨S262144x16, .f32⟩ : BufTy).Contents (Elt F) → (⟨S262144x16, .f32⟩ : BufTy).Contents (Elt F)) ]
abbrev stg_v202_W : List (Ref sig .tc) := [main_v199, main_v200, main_v201, main_v202]
set_option maxRecDepth 8192 in
theorem stg_v202_writes : (stg_v202 : List (HloOp τ sig (Elt F))).Forall fun op => op.writes ⊆ (stg_v202_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations up to and with the one that writes main_v213 (14). -/
abbrev stg_v213 : List (HloOp τ sig (Elt F)) :=
  [ StableHlo.nullary main_cst_32 (constant S_ .f32 0xFF800000#32),
    StableHlo.binary main_v202 main_cst_32 main_v203 ((fun x v => Host.reduce FloatOps.maximumf x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.nullary main_cst_33 (constant S_ .f32 0xFF800000#32),
    StableHlo.unary main_cst_33 main_v204 (broadcastInDim S262144 ![] bcast_S_S262144 : (⟨S_, .f32⟩ : BufTy).Contents (Elt F) → (⟨S262144, .f32⟩ : BufTy).Contents (Elt F)),
    StableHlo.binary main_v204 main_v203 main_v205 (maximumf : (⟨S262144, .f32⟩ : BufTy).Contents (Elt F) → (⟨S262144, .f32⟩ : BufTy).Contents (Elt F) → (⟨S262144, .f32⟩ : BufTy).Contents (Elt F)),
    StableHlo.unary main_v205 main_v206 (broadcastInDim S262144x1 ![0] bcast_S262144_S262144x1_0 : (⟨S262144, .f32⟩ : BufTy).Contents (Elt F) → (⟨S262144x1, .f32⟩ : BufTy).Contents (Elt F)),
    StableHlo.unary main_v206 main_v207 (broadcastInDim S262144x16 ![0, 1] bcast_S262144x1_S262144x16_0_1 : (⟨S262144x1, .f32⟩ : BufTy).Contents (Elt F) → (⟨S262144x16, .f32⟩ : BufTy).Contents (Elt F)),
    StableHlo.binary main_v202 main_v207 main_v208 (subf : (⟨S262144x16, .f32⟩ : BufTy).Contents (Elt F) → (⟨S262144x16, .f32⟩ : BufTy).Contents (Elt F) → (⟨S262144x16, .f32⟩ : BufTy).Contents (Elt F)),
    StableHlo.unary main_v208 main_v209 (Host.exp : (⟨S262144x16, .f32⟩ : BufTy).Contents (Elt F) → (⟨S262144x16, .f32⟩ : BufTy).Contents (Elt F)),
    StableHlo.nullary main_cst_34 (constant S_ .f32 0x00000000#32),
    StableHlo.binary main_v209 main_cst_34 main_v210 ((fun x v => Host.reduceAdd x v reducesTo_S262144x16_S262144_d1 h_S_) : (⟨S262144x16, .f32⟩ : BufTy).Contents (Elt F) → (⟨S_, .f32⟩ : BufTy).Contents (Elt F) → (⟨S262144, .f32⟩ : BufTy).Contents (Elt F)),
    StableHlo.unary main_v210 main_v211 (broadcastInDim S262144x1 ![0] bcast_S262144_S262144x1_0 : (⟨S262144, .f32⟩ : BufTy).Contents (Elt F) → (⟨S262144x1, .f32⟩ : BufTy).Contents (Elt F)),
    StableHlo.unary main_v211 main_v212 (broadcastInDim S262144x16 ![0, 1] bcast_S262144x1_S262144x16_0_1 : (⟨S262144x1, .f32⟩ : BufTy).Contents (Elt F) → (⟨S262144x16, .f32⟩ : BufTy).Contents (Elt F)),
    StableHlo.binary main_v209 main_v212 main_v213 (Host.divf : (⟨S262144x16, .f32⟩ : BufTy).Contents (Elt F) → (⟨S262144x16, .f32⟩ : BufTy).Contents (Elt F) → (⟨S262144x16, .f32⟩ : BufTy).Contents (Elt F)) ]
abbrev stg_v213_W : List (Ref sig .tc) := [main_cst_32, main_v203, main_cst_33, main_v204, main_v205, main_v206, main_v207, main_v208, main_v209, main_cst_34, main_v210, main_v211, main_v212, main_v213]
set_option maxRecDepth 8192 in
theorem stg_v213_writes : (stg_v213 : List (HloOp τ sig (Elt F))).Forall fun op => op.writes ⊆ (stg_v213_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- All the stages in order: the whole line. -/
abbrev stAll : List (HloOp τ sig (Elt F)) := stg_v3 ++ (stg_v22 ++ (stg_v44 ++ (stg_v46 ++ (stg_v52 ++ (stg_v54 ++ (stg_v60 ++ (stg_v69 ++ (stg_v78 ++ (stg_v81 ++ (stg_v84 ++ (stg_v86 ++ (stg_v109 ++ (stg_v110 ++ (stg_v132 ++ (stg_v134 ++ (stg_v140 ++ (stg_v142 ++ (stg_v148 ++ (stg_v157 ++ (stg_v166 ++ (stg_v169 ++ (stg_v172 ++ (stg_v174 ++ (stg_v197 ++ (stg_v198 ++ (stg_v202 ++ (stg_v213)))))))))))))))))))))))))))

set_option maxRecDepth 65536 in
set_option maxHeartbeats 4000000 in
/-- The same operations as the chunks of Ops.lean, window by window, in the same order. -/
theorem chunks_eq_stAll : ((opsC0 ++ (opsC1 ++ (opsC2))) ++ ((opsC3 ++ (opsC4 ++ (opsC5))) ++ ((opsC6 ++ (opsC7 ++ (opsC8))) ++ ((opsC9 ++ (opsC10 ++ (opsC11))) ++ (opsC12)))) : List (HloOp τ sig (Elt F))) = stAll := rfl

/-- The contents after stages 0 … 0. -/
abbrev Wst0 (V : Valuation τ sig (Elt F)) : Valuation τ sig (Elt F) := after stg_v3 V
/-- The contents after stages 0 … 1. -/
abbrev Wst1 (V : Valuation τ sig (Elt F)) : Valuation τ sig (Elt F) := after stg_v22 (Wst0 V)
/-- The contents after stages 0 … 2. -/
abbrev Wst2 (V : Valuation τ sig (Elt F)) : Valuation τ sig (Elt F) := after stg_v44 (Wst1 V)
/-- The contents after stages 0 … 3. -/
abbrev Wst3 (V : Valuation τ sig (Elt F)) : Valuation τ sig (Elt F) := after stg_v46 (Wst2 V)
/-- The contents after stages 0 … 4. -/
abbrev Wst4 (V : Valuation τ sig (Elt F)) : Valuation τ sig (Elt F) := after stg_v52 (Wst3 V)
/-- The contents after stages 0 … 5. -/
abbrev Wst5 (V : Valuation τ sig (Elt F)) : Valuation τ sig (Elt F) := after stg_v54 (Wst4 V)
/-- The contents after stages 0 … 6. -/
abbrev Wst6 (V : Valuation τ sig (Elt F)) : Valuation τ sig (Elt F) := after stg_v60 (Wst5 V)
/-- The contents after stages 0 … 7. -/
abbrev Wst7 (V : Valuation τ sig (Elt F)) : Valuation τ sig (Elt F) := after stg_v69 (Wst6 V)
/-- The contents after stages 0 … 8. -/
abbrev Wst8 (V : Valuation τ sig (Elt F)) : Valuation τ sig (Elt F) := after stg_v78 (Wst7 V)
/-- The contents after stages 0 … 9. -/
abbrev Wst9 (V : Valuation τ sig (Elt F)) : Valuation τ sig (Elt F) := after stg_v81 (Wst8 V)
/-- The contents after stages 0 … 10. -/
abbrev Wst10 (V : Valuation τ sig (Elt F)) : Valuation τ sig (Elt F) := after stg_v84 (Wst9 V)
/-- The contents after stages 0 … 11. -/
abbrev Wst11 (V : Valuation τ sig (Elt F)) : Valuation τ sig (Elt F) := after stg_v86 (Wst10 V)
/-- The contents after stages 0 … 12. -/
abbrev Wst12 (V : Valuation τ sig (Elt F)) : Valuation τ sig (Elt F) := after stg_v109 (Wst11 V)
/-- The contents after stages 0 … 13. -/
abbrev Wst13 (V : Valuation τ sig (Elt F)) : Valuation τ sig (Elt F) := after stg_v110 (Wst12 V)
/-- The contents after stages 0 … 14. -/
abbrev Wst14 (V : Valuation τ sig (Elt F)) : Valuation τ sig (Elt F) := after stg_v132 (Wst13 V)
/-- The contents after stages 0 … 15. -/
abbrev Wst15 (V : Valuation τ sig (Elt F)) : Valuation τ sig (Elt F) := after stg_v134 (Wst14 V)
/-- The contents after stages 0 … 16. -/
abbrev Wst16 (V : Valuation τ sig (Elt F)) : Valuation τ sig (Elt F) := after stg_v140 (Wst15 V)
/-- The contents after stages 0 … 17. -/
abbrev Wst17 (V : Valuation τ sig (Elt F)) : Valuation τ sig (Elt F) := after stg_v142 (Wst16 V)
/-- The contents after stages 0 … 18. -/
abbrev Wst18 (V : Valuation τ sig (Elt F)) : Valuation τ sig (Elt F) := after stg_v148 (Wst17 V)
/-- The contents after stages 0 … 19. -/
abbrev Wst19 (V : Valuation τ sig (Elt F)) : Valuation τ sig (Elt F) := after stg_v157 (Wst18 V)
/-- The contents after stages 0 … 20. -/
abbrev Wst20 (V : Valuation τ sig (Elt F)) : Valuation τ sig (Elt F) := after stg_v166 (Wst19 V)
/-- The contents after stages 0 … 21. -/
abbrev Wst21 (V : Valuation τ sig (Elt F)) : Valuation τ sig (Elt F) := after stg_v169 (Wst20 V)
/-- The contents after stages 0 … 22. -/
abbrev Wst22 (V : Valuation τ sig (Elt F)) : Valuation τ sig (Elt F) := after stg_v172 (Wst21 V)
/-- The contents after stages 0 … 23. -/
abbrev Wst23 (V : Valuation τ sig (Elt F)) : Valuation τ sig (Elt F) := after stg_v174 (Wst22 V)
/-- The contents after stages 0 … 24. -/
abbrev Wst24 (V : Valuation τ sig (Elt F)) : Valuation τ sig (Elt F) := after stg_v197 (Wst23 V)
/-- The contents after stages 0 … 25. -/
abbrev Wst25 (V : Valuation τ sig (Elt F)) : Valuation τ sig (Elt F) := after stg_v198 (Wst24 V)
/-- The contents after stages 0 … 26. -/
abbrev Wst26 (V : Valuation τ sig (Elt F)) : Valuation τ sig (Elt F) := after stg_v202 (Wst25 V)
/-- The contents after stages 0 … 27. -/
abbrev Wst27 (V : Valuation τ sig (Elt F)) : Valuation τ sig (Elt F) := after stg_v213 (Wst26 V)

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_stAll (V : Valuation τ sig (Elt F)) : after stAll V = Wst27 V := by
  simp only [stAll, after_app]

/-- The buffers written by stage 27 or a later one. -/
abbrev Wge27 : List (Ref sig .tc) := stg_v213_W
/-- The buffers written by stage 26 or a later one. -/
abbrev Wge26 : List (Ref sig .tc) := stg_v202_W ++ Wge27
/-- The buffers written by stage 25 or a later one. -/
abbrev Wge25 : List (Ref sig .tc) := stg_v198_W ++ Wge26
/-- The buffers written by stage 24 or a later one. -/
abbrev Wge24 : List (Ref sig .tc) := stg_v197_W ++ Wge25
/-- The buffers written by stage 23 or a later one. -/
abbrev Wge23 : List (Ref sig .tc) := stg_v174_W ++ Wge24
/-- The buffers written by stage 22 or a later one. -/
abbrev Wge22 : List (Ref sig .tc) := stg_v172_W ++ Wge23
/-- The buffers written by stage 21 or a later one. -/
abbrev Wge21 : List (Ref sig .tc) := stg_v169_W ++ Wge22
/-- The buffers written by stage 20 or a later one. -/
abbrev Wge20 : List (Ref sig .tc) := stg_v166_W ++ Wge21
/-- The buffers written by stage 19 or a later one. -/
abbrev Wge19 : List (Ref sig .tc) := stg_v157_W ++ Wge20
/-- The buffers written by stage 18 or a later one. -/
abbrev Wge18 : List (Ref sig .tc) := stg_v148_W ++ Wge19
/-- The buffers written by stage 17 or a later one. -/
abbrev Wge17 : List (Ref sig .tc) := stg_v142_W ++ Wge18
/-- The buffers written by stage 16 or a later one. -/
abbrev Wge16 : List (Ref sig .tc) := stg_v140_W ++ Wge17
/-- The buffers written by stage 15 or a later one. -/
abbrev Wge15 : List (Ref sig .tc) := stg_v134_W ++ Wge16
/-- The buffers written by stage 14 or a later one. -/
abbrev Wge14 : List (Ref sig .tc) := stg_v132_W ++ Wge15
/-- The buffers written by stage 13 or a later one. -/
abbrev Wge13 : List (Ref sig .tc) := stg_v110_W ++ Wge14
/-- The buffers written by stage 12 or a later one. -/
abbrev Wge12 : List (Ref sig .tc) := stg_v109_W ++ Wge13
/-- The buffers written by stage 11 or a later one. -/
abbrev Wge11 : List (Ref sig .tc) := stg_v86_W ++ Wge12
/-- The buffers written by stage 10 or a later one. -/
abbrev Wge10 : List (Ref sig .tc) := stg_v84_W ++ Wge11
/-- The buffers written by stage 9 or a later one. -/
abbrev Wge9 : List (Ref sig .tc) := stg_v81_W ++ Wge10
/-- The buffers written by stage 8 or a later one. -/
abbrev Wge8 : List (Ref sig .tc) := stg_v78_W ++ Wge9
/-- The buffers written by stage 7 or a later one. -/
abbrev Wge7 : List (Ref sig .tc) := stg_v69_W ++ Wge8
/-- The buffers written by stage 6 or a later one. -/
abbrev Wge6 : List (Ref sig .tc) := stg_v60_W ++ Wge7
/-- The buffers written by stage 5 or a later one. -/
abbrev Wge5 : List (Ref sig .tc) := stg_v54_W ++ Wge6
/-- The buffers written by stage 4 or a later one. -/
abbrev Wge4 : List (Ref sig .tc) := stg_v52_W ++ Wge5
/-- The buffers written by stage 3 or a later one. -/
abbrev Wge3 : List (Ref sig .tc) := stg_v46_W ++ Wge4
/-- The buffers written by stage 2 or a later one. -/
abbrev Wge2 : List (Ref sig .tc) := stg_v44_W ++ Wge3
/-- The buffers written by stage 1 or a later one. -/
abbrev Wge1 : List (Ref sig .tc) := stg_v22_W ++ Wge2
/-- The buffers written by stage 0 or a later one. -/
abbrev Wge0 : List (Ref sig .tc) := stg_v3_W ++ Wge1

theorem keep28 (V : Valuation τ sig (Elt F)) (r : Ref sig .tc) : after stAll V (Proc.devRef .tc r) = Wst27 V (Proc.devRef .tc r) := by rw [after_stAll]
theorem keep27 (V : Valuation τ sig (Elt F)) (r : Ref sig .tc) (h : r ∉ Wge27) : after stAll V (Proc.devRef .tc r) = Wst26 V (Proc.devRef .tc r) :=
  (keep28 V r).trans (after_of_writes_sub stg_v213 (Wst26 V) stg_v213_writes h)
theorem keep26 (V : Valuation τ sig (Elt F)) (r : Ref sig .tc) (h : r ∉ Wge26) : after stAll V (Proc.devRef .tc r) = Wst25 V (Proc.devRef .tc r) :=
  (keep27 V r (fun hh => h (List.mem_append_right _ hh))).trans (after_of_writes_sub stg_v202 (Wst25 V) stg_v202_writes (fun hh => h (List.mem_append_left _ hh)))
theorem keep25 (V : Valuation τ sig (Elt F)) (r : Ref sig .tc) (h : r ∉ Wge25) : after stAll V (Proc.devRef .tc r) = Wst24 V (Proc.devRef .tc r) :=
  (keep26 V r (fun hh => h (List.mem_append_right _ hh))).trans (after_of_writes_sub stg_v198 (Wst24 V) stg_v198_writes (fun hh => h (List.mem_append_left _ hh)))
theorem keep24 (V : Valuation τ sig (Elt F)) (r : Ref sig .tc) (h : r ∉ Wge24) : after stAll V (Proc.devRef .tc r) = Wst23 V (Proc.devRef .tc r) :=
  (keep25 V r (fun hh => h (List.mem_append_right _ hh))).trans (after_of_writes_sub stg_v197 (Wst23 V) stg_v197_writes (fun hh => h (List.mem_append_left _ hh)))
theorem keep23 (V : Valuation τ sig (Elt F)) (r : Ref sig .tc) (h : r ∉ Wge23) : after stAll V (Proc.devRef .tc r) = Wst22 V (Proc.devRef .tc r) :=
  (keep24 V r (fun hh => h (List.mem_append_right _ hh))).trans (after_of_writes_sub stg_v174 (Wst22 V) stg_v174_writes (fun hh => h (List.mem_append_left _ hh)))
theorem keep22 (V : Valuation τ sig (Elt F)) (r : Ref sig .tc) (h : r ∉ Wge22) : after stAll V (Proc.devRef .tc r) = Wst21 V (Proc.devRef .tc r) :=
  (keep23 V r (fun hh => h (List.mem_append_right _ hh))).trans (after_of_writes_sub stg_v172 (Wst21 V) stg_v172_writes (fun hh => h (List.mem_append_left _ hh)))
theorem keep21 (V : Valuation τ sig (Elt F)) (r : Ref sig .tc) (h : r ∉ Wge21) : after stAll V (Proc.devRef .tc r) = Wst20 V (Proc.devRef .tc r) :=
  (keep22 V r (fun hh => h (List.mem_append_right _ hh))).trans (after_of_writes_sub stg_v169 (Wst20 V) stg_v169_writes (fun hh => h (List.mem_append_left _ hh)))
theorem keep20 (V : Valuation τ sig (Elt F)) (r : Ref sig .tc) (h : r ∉ Wge20) : after stAll V (Proc.devRef .tc r) = Wst19 V (Proc.devRef .tc r) :=
  (keep21 V r (fun hh => h (List.mem_append_right _ hh))).trans (after_of_writes_sub stg_v166 (Wst19 V) stg_v166_writes (fun hh => h (List.mem_append_left _ hh)))
theorem keep19 (V : Valuation τ sig (Elt F)) (r : Ref sig .tc) (h : r ∉ Wge19) : after stAll V (Proc.devRef .tc r) = Wst18 V (Proc.devRef .tc r) :=
  (keep20 V r (fun hh => h (List.mem_append_right _ hh))).trans (after_of_writes_sub stg_v157 (Wst18 V) stg_v157_writes (fun hh => h (List.mem_append_left _ hh)))
theorem keep18 (V : Valuation τ sig (Elt F)) (r : Ref sig .tc) (h : r ∉ Wge18) : after stAll V (Proc.devRef .tc r) = Wst17 V (Proc.devRef .tc r) :=
  (keep19 V r (fun hh => h (List.mem_append_right _ hh))).trans (after_of_writes_sub stg_v148 (Wst17 V) stg_v148_writes (fun hh => h (List.mem_append_left _ hh)))
theorem keep17 (V : Valuation τ sig (Elt F)) (r : Ref sig .tc) (h : r ∉ Wge17) : after stAll V (Proc.devRef .tc r) = Wst16 V (Proc.devRef .tc r) :=
  (keep18 V r (fun hh => h (List.mem_append_right _ hh))).trans (after_of_writes_sub stg_v142 (Wst16 V) stg_v142_writes (fun hh => h (List.mem_append_left _ hh)))
theorem keep16 (V : Valuation τ sig (Elt F)) (r : Ref sig .tc) (h : r ∉ Wge16) : after stAll V (Proc.devRef .tc r) = Wst15 V (Proc.devRef .tc r) :=
  (keep17 V r (fun hh => h (List.mem_append_right _ hh))).trans (after_of_writes_sub stg_v140 (Wst15 V) stg_v140_writes (fun hh => h (List.mem_append_left _ hh)))
theorem keep15 (V : Valuation τ sig (Elt F)) (r : Ref sig .tc) (h : r ∉ Wge15) : after stAll V (Proc.devRef .tc r) = Wst14 V (Proc.devRef .tc r) :=
  (keep16 V r (fun hh => h (List.mem_append_right _ hh))).trans (after_of_writes_sub stg_v134 (Wst14 V) stg_v134_writes (fun hh => h (List.mem_append_left _ hh)))
theorem keep14 (V : Valuation τ sig (Elt F)) (r : Ref sig .tc) (h : r ∉ Wge14) : after stAll V (Proc.devRef .tc r) = Wst13 V (Proc.devRef .tc r) :=
  (keep15 V r (fun hh => h (List.mem_append_right _ hh))).trans (after_of_writes_sub stg_v132 (Wst13 V) stg_v132_writes (fun hh => h (List.mem_append_left _ hh)))
theorem keep13 (V : Valuation τ sig (Elt F)) (r : Ref sig .tc) (h : r ∉ Wge13) : after stAll V (Proc.devRef .tc r) = Wst12 V (Proc.devRef .tc r) :=
  (keep14 V r (fun hh => h (List.mem_append_right _ hh))).trans (after_of_writes_sub stg_v110 (Wst12 V) stg_v110_writes (fun hh => h (List.mem_append_left _ hh)))
theorem keep12 (V : Valuation τ sig (Elt F)) (r : Ref sig .tc) (h : r ∉ Wge12) : after stAll V (Proc.devRef .tc r) = Wst11 V (Proc.devRef .tc r) :=
  (keep13 V r (fun hh => h (List.mem_append_right _ hh))).trans (after_of_writes_sub stg_v109 (Wst11 V) stg_v109_writes (fun hh => h (List.mem_append_left _ hh)))
theorem keep11 (V : Valuation τ sig (Elt F)) (r : Ref sig .tc) (h : r ∉ Wge11) : after stAll V (Proc.devRef .tc r) = Wst10 V (Proc.devRef .tc r) :=
  (keep12 V r (fun hh => h (List.mem_append_right _ hh))).trans (after_of_writes_sub stg_v86 (Wst10 V) stg_v86_writes (fun hh => h (List.mem_append_left _ hh)))
theorem keep10 (V : Valuation τ sig (Elt F)) (r : Ref sig .tc) (h : r ∉ Wge10) : after stAll V (Proc.devRef .tc r) = Wst9 V (Proc.devRef .tc r) :=
  (keep11 V r (fun hh => h (List.mem_append_right _ hh))).trans (after_of_writes_sub stg_v84 (Wst9 V) stg_v84_writes (fun hh => h (List.mem_append_left _ hh)))
theorem keep9 (V : Valuation τ sig (Elt F)) (r : Ref sig .tc) (h : r ∉ Wge9) : after stAll V (Proc.devRef .tc r) = Wst8 V (Proc.devRef .tc r) :=
  (keep10 V r (fun hh => h (List.mem_append_right _ hh))).trans (after_of_writes_sub stg_v81 (Wst8 V) stg_v81_writes (fun hh => h (List.mem_append_left _ hh)))
theorem keep8 (V : Valuation τ sig (Elt F)) (r : Ref sig .tc) (h : r ∉ Wge8) : after stAll V (Proc.devRef .tc r) = Wst7 V (Proc.devRef .tc r) :=
  (keep9 V r (fun hh => h (List.mem_append_right _ hh))).trans (after_of_writes_sub stg_v78 (Wst7 V) stg_v78_writes (fun hh => h (List.mem_append_left _ hh)))
theorem keep7 (V : Valuation τ sig (Elt F)) (r : Ref sig .tc) (h : r ∉ Wge7) : after stAll V (Proc.devRef .tc r) = Wst6 V (Proc.devRef .tc r) :=
  (keep8 V r (fun hh => h (List.mem_append_right _ hh))).trans (after_of_writes_sub stg_v69 (Wst6 V) stg_v69_writes (fun hh => h (List.mem_append_left _ hh)))
theorem keep6 (V : Valuation τ sig (Elt F)) (r : Ref sig .tc) (h : r ∉ Wge6) : after stAll V (Proc.devRef .tc r) = Wst5 V (Proc.devRef .tc r) :=
  (keep7 V r (fun hh => h (List.mem_append_right _ hh))).trans (after_of_writes_sub stg_v60 (Wst5 V) stg_v60_writes (fun hh => h (List.mem_append_left _ hh)))
theorem keep5 (V : Valuation τ sig (Elt F)) (r : Ref sig .tc) (h : r ∉ Wge5) : after stAll V (Proc.devRef .tc r) = Wst4 V (Proc.devRef .tc r) :=
  (keep6 V r (fun hh => h (List.mem_append_right _ hh))).trans (after_of_writes_sub stg_v54 (Wst4 V) stg_v54_writes (fun hh => h (List.mem_append_left _ hh)))
theorem keep4 (V : Valuation τ sig (Elt F)) (r : Ref sig .tc) (h : r ∉ Wge4) : after stAll V (Proc.devRef .tc r) = Wst3 V (Proc.devRef .tc r) :=
  (keep5 V r (fun hh => h (List.mem_append_right _ hh))).trans (after_of_writes_sub stg_v52 (Wst3 V) stg_v52_writes (fun hh => h (List.mem_append_left _ hh)))
theorem keep3 (V : Valuation τ sig (Elt F)) (r : Ref sig .tc) (h : r ∉ Wge3) : after stAll V (Proc.devRef .tc r) = Wst2 V (Proc.devRef .tc r) :=
  (keep4 V r (fun hh => h (List.mem_append_right _ hh))).trans (after_of_writes_sub stg_v46 (Wst2 V) stg_v46_writes (fun hh => h (List.mem_append_left _ hh)))
theorem keep2 (V : Valuation τ sig (Elt F)) (r : Ref sig .tc) (h : r ∉ Wge2) : after stAll V (Proc.devRef .tc r) = Wst1 V (Proc.devRef .tc r) :=
  (keep3 V r (fun hh => h (List.mem_append_right _ hh))).trans (after_of_writes_sub stg_v44 (Wst1 V) stg_v44_writes (fun hh => h (List.mem_append_left _ hh)))
theorem keep1 (V : Valuation τ sig (Elt F)) (r : Ref sig .tc) (h : r ∉ Wge1) : after stAll V (Proc.devRef .tc r) = Wst0 V (Proc.devRef .tc r) :=
  (keep2 V r (fun hh => h (List.mem_append_right _ hh))).trans (after_of_writes_sub stg_v22 (Wst0 V) stg_v22_writes (fun hh => h (List.mem_append_left _ hh)))
theorem keep0 (V : Valuation τ sig (Elt F)) (r : Ref sig .tc) (h : r ∉ Wge0) : after stAll V (Proc.devRef .tc r) = V (Proc.devRef .tc r) :=
  (keep1 V r (fun hh => h (List.mem_append_right _ hh))).trans (after_of_writes_sub stg_v3 (V) stg_v3_writes (fun hh => h (List.mem_append_left _ hh)))

end Cert.ReferenceIdeal.Hand

end
-- ==== Proof.Ref.ReadLin.lean ====
/- The stages of the reference network that are one dense layer, one slice, one gather, one segment sum, one sum or one
   activation, each read off its operations: the stage's result buffer, after the stage's operations run from any
   contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem S_v3 (W : Valuation τ sig (Elt F)) :
    after stg_v3 W (Proc.devRef .tc main_v3) = Rst.dense0 (W (Proc.devRef .tc main_arg0)) (W (Proc.devRef .tc main_arg3)) (W (Proc.devRef .tc main_arg4)) := by
  after_results
  rfl

theorem S_v46 (W : Valuation τ sig (Elt F)) :
    after stg_v46 W (Proc.devRef .tc main_v46) = Rst.mat0 (W (Proc.devRef .tc main_arg9)) := by
  after_results
  rfl

theorem S_v52 (W : Valuation τ sig (Elt F)) :
    after stg_v52 W (Proc.devRef .tc main_v52) = Rst.dense (W (Proc.devRef .tc main_v44)) (W (Proc.devRef .tc main_v46)) (Rst.row0 (W (Proc.devRef .tc main_arg10))) := by
  after_results
  rfl

theorem S_v54 (W : Valuation τ sig (Elt F)) :
    after stg_v54 W (Proc.devRef .tc main_v54) = Rst.mat0 (W (Proc.devRef .tc main_arg11)) := by
  after_results
  rfl

theorem S_v60 (W : Valuation τ sig (Elt F)) :
    after stg_v60 W (Proc.devRef .tc main_v60) = Rst.dense (W (Proc.devRef .tc main_v44)) (W (Proc.devRef .tc main_v54)) (Rst.row0 (W (Proc.devRef .tc main_arg12))) := by
  after_results
  rfl

theorem S_v69 (W : Valuation τ sig (Elt F)) :
    after stg_v69 W (Proc.devRef .tc main_v69) = Rst.gatt (W (Proc.devRef .tc main_v52)) (W (Proc.devRef .tc main_arg18)) (W (Proc.devRef .tc main_arg1)) := by
  after_results
  rfl

theorem S_v78 (W : Valuation τ sig (Elt F)) :
    after stg_v78 W (Proc.devRef .tc main_v78) = Rst.gatt (W (Proc.devRef .tc main_v60)) (W (Proc.devRef .tc main_arg20)) (W (Proc.devRef .tc main_arg2)) := by
  after_results
  rfl

theorem S_v81 (W : Valuation τ sig (Elt F)) :
    after stg_v81 W (Proc.devRef .tc main_v81) = Rst.segsum (W (Proc.devRef .tc main_arg17)) (W (Proc.devRef .tc main_v69)) := by
  after_results
  rfl

theorem S_v84 (W : Valuation τ sig (Elt F)) :
    after stg_v84 W (Proc.devRef .tc main_v84) = Rst.segsum (W (Proc.devRef .tc main_arg19)) (W (Proc.devRef .tc main_v78)) := by
  after_results
  rfl

theorem S_v86 (W : Valuation τ sig (Elt F)) :
    after stg_v86 W (Proc.devRef .tc main_v86) = Rst.sum3 (W (Proc.devRef .tc main_v81)) (W (Proc.devRef .tc main_v84)) (W (Proc.devRef .tc main_v44)) := by
  after_results
  rfl

theorem S_v110 (W : Valuation τ sig (Elt F)) :
    after stg_v110 W (Proc.devRef .tc main_v110) = Rst.lrelu (W (Proc.devRef .tc main_v109)) := by
  after_results
  simp only [TRef.ofBuf, TRef.toBuf, cast_eq]
  rfl

theorem S_v134 (W : Valuation τ sig (Elt F)) :
    after stg_v134 W (Proc.devRef .tc main_v134) = Rst.mat1 (W (Proc.devRef .tc main_arg9)) := by
  after_results
  rfl

theorem S_v140 (W : Valuation τ sig (Elt F)) :
    after stg_v140 W (Proc.devRef .tc main_v140) = Rst.dense (W (Proc.devRef .tc main_v132)) (W (Proc.devRef .tc main_v134)) (Rst.row1 (W (Proc.devRef .tc main_arg10))) := by
  after_results
  rfl

theorem S_v142 (W : Valuation τ sig (Elt F)) :
    after stg_v142 W (Proc.devRef .tc main_v142) = Rst.mat1 (W (Proc.devRef .tc main_arg11)) := by
  after_results
  rfl

theorem S_v148 (W : Valuation τ sig (Elt F)) :
    after stg_v148 W (Proc.devRef .tc main_v148) = Rst.dense (W (Proc.devRef .tc main_v132)) (W (Proc.devRef .tc main_v142)) (Rst.row1 (W (Proc.devRef .tc main_arg12))) := by
  after_results
  rfl

theorem S_v157 (W : Valuation τ sig (Elt F)) :
    after stg_v157 W (Proc.devRef .tc main_v157) = Rst.gatt (W (Proc.devRef .tc main_v140)) (W (Proc.devRef .tc main_arg18)) (W (Proc.devRef .tc main_arg1)) := by
  after_results
  rfl

theorem S_v166 (W : Valuation τ sig (Elt F)) :
    after stg_v166 W (Proc.devRef .tc main_v166) = Rst.gatt (W (Proc.devRef .tc main_v148)) (W (Proc.devRef .tc main_arg20)) (W (Proc.devRef .tc main_arg2)) := by
  after_results
  rfl

theorem S_v169 (W : Valuation τ sig (Elt F)) :
    after stg_v169 W (Proc.devRef .tc main_v169) = Rst.segsum (W (Proc.devRef .tc main_arg17)) (W (Proc.devRef .tc main_v157)) := by
  after_results
  rfl

theorem S_v172 (W : Valuation τ sig (Elt F)) :
    after stg_v172 W (Proc.devRef .tc main_v172) = Rst.segsum (W (Proc.devRef .tc main_arg19)) (W (Proc.devRef .tc main_v166)) := by
  after_results
  rfl

theorem S_v174 (W : Valuation τ sig (Elt F)) :
    after stg_v174 W (Proc.devRef .tc main_v174) = Rst.sum3 (W (Proc.devRef .tc main_v169)) (W (Proc.devRef .tc main_v172)) (W (Proc.devRef .tc main_v132)) := by
  after_results
  rfl

theorem S_v198 (W : Valuation τ sig (Elt F)) :
    after stg_v198 W (Proc.devRef .tc main_v198) = Rst.lrelu (W (Proc.devRef .tc main_v197)) := by
  after_results
  simp only [TRef.ofBuf, TRef.toBuf, cast_eq]
  rfl

theorem S_v202 (W : Valuation τ sig (Elt F)) :
    after stg_v202 W (Proc.devRef .tc main_v202) = Rst.denseOut (W (Proc.devRef .tc main_v198)) (W (Proc.devRef .tc main_arg15)) (W (Proc.devRef .tc main_arg16)) := by
  after_results
  rfl

theorem S_v213 (W : Valuation τ sig (Elt F)) :
    after stg_v213 W (Proc.devRef .tc main_v213) = Rst.softmax (W (Proc.devRef .tc main_v202)) := by
  after_results
  rfl

end Cert.ReferenceIdeal.Hand

end
-- ==== Proof.Ref.ReadNorm0.lean ====
/- A normalisation stage of the reference network (batch normalisation after the input layer), read off its operations: the stage's result buffer, after
   the stage's operations run from any contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
theorem S_v22 (W : Valuation τ sig (Elt F)) :
    after stg_v22 W (Proc.devRef .tc main_v22) = Rst.bn (W (Proc.devRef .tc main_v3)) (W (Proc.devRef .tc main_arg5)) (W (Proc.devRef .tc main_arg6)) := by
  after_results_simp
  simp only [TRef.ofBuf, TRef.toBuf, cast_eq]
  rfl

end Cert.ReferenceIdeal.Hand

end
-- ==== Proof.Ref.ReadNorm1.lean ====
/- A normalisation stage of the reference network (layer normalisation of layer 0), read off its operations: the stage's result buffer, after
   the stage's operations run from any contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
theorem S_v44 (W : Valuation τ sig (Elt F)) :
    after stg_v44 W (Proc.devRef .tc main_v44) = Rst.ln (W (Proc.devRef .tc main_v22)) (Rst.row0 (W (Proc.devRef .tc main_arg7))) (Rst.row0 (W (Proc.devRef .tc main_arg8))) := by
  after_results_simp
  simp only [TRef.ofBuf, TRef.toBuf, cast_eq]
  rfl

end Cert.ReferenceIdeal.Hand

end
-- ==== Proof.Ref.ReadNorm2.lean ====
/- A normalisation stage of the reference network (batch normalisation of layer 0), read off its operations: the stage's result buffer, after
   the stage's operations run from any contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
theorem S_v109 (W : Valuation τ sig (Elt F)) :
    after stg_v109 W (Proc.devRef .tc main_v109) = Rst.bn (W (Proc.devRef .tc main_v86)) (Rst.row0 (W (Proc.devRef .tc main_arg13))) (Rst.row0 (W (Proc.devRef .tc main_arg14))) := by
  after_results_simp
  simp only [TRef.ofBuf, TRef.toBuf, cast_eq]
  rfl

end Cert.ReferenceIdeal.Hand

end
-- ==== Proof.Ref.ReadNorm3.lean ====
/- A normalisation stage of the reference network (layer normalisation of layer 1), read off its operations: the stage's result buffer, after
   the stage's operations run from any contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
theorem S_v132 (W : Valuation τ sig (Elt F)) :
    after stg_v132 W (Proc.devRef .tc main_v132) = Rst.ln (W (Proc.devRef .tc main_v110)) (Rst.row1 (W (Proc.devRef .tc main_arg7))) (Rst.row1 (W (Proc.devRef .tc main_arg8))) := by
  after_results_simp
  simp only [TRef.ofBuf, TRef.toBuf, cast_eq]
  rfl

end Cert.ReferenceIdeal.Hand

end
-- ==== Proof.Ref.ReadNorm4.lean ====
/- A normalisation stage of the reference network (batch normalisation of layer 1), read off its operations: the stage's result buffer, after
   the stage's operations run from any contents W, holds the stage's pure function of W at the stage's input buffers. -/
import proofs.«406228_j54073638257180_1_alg».proof.Proof.Ref.ReadStages
import proofs.«406228_j54073638257180_1_alg».proof.Proof.Ref.ReadDefs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
theorem S_v197 (W : Valuation τ sig (Elt F)) :
    after stg_v197 W (Proc.devRef .tc main_v197) = Rst.bn (W (Proc.devRef .tc main_v174)) (Rst.row1 (W (Proc.devRef .tc main_arg13))) (Rst.row1 (W (Proc.devRef .tc main_arg14))) := by
  after_results_simp
  simp only [TRef.ofBuf, TRef.toBuf, cast_eq]
  rfl

end Cert.ReferenceIdeal.Hand

end
-- ==== Proof.Ref.ReadChain.lean ====
/- The reference network read stage by stage over the whole line of its operations: after all of them have run from
   any contents V, each stage's result buffer holds the stage's pure function of what the earlier stages' result buffers
   hold then and of V at the arguments (every buffer is written once: a later stage leaves an earlier result as it was,
   and no stage writes an argument). -/
import proofs.«406228_j54073638257180_1_alg».proof.Proof.Ref.ReadLin
import proofs.«406228_j54073638257180_1_alg».proof.Proof.Ref.ReadNorm0
import proofs.«406228_j54073638257180_1_alg».proof.Proof.Ref.ReadNorm1
import proofs.«406228_j54073638257180_1_alg».proof.Proof.Ref.ReadNorm2
import proofs.«406228_j54073638257180_1_alg».proof.Proof.Ref.ReadNorm3
import proofs.«406228_j54073638257180_1_alg».proof.Proof.Ref.ReadNorm4

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem Rs_main_v3 (V : Valuation τ sig (Elt F)) :
    after stAll V (Proc.devRef .tc main_v3) = Rst.dense0 (V (Proc.devRef .tc main_arg0)) (V (Proc.devRef .tc main_arg3)) (V (Proc.devRef .tc main_arg4)) := by
  rw [keep1 V main_v3 (by decide)]
  exact S_v3 V

theorem Rs_main_v22 (V : Valuation τ sig (Elt F)) :
    after stAll V (Proc.devRef .tc main_v22) = Rst.bn (after stAll V (Proc.devRef .tc main_v3)) (V (Proc.devRef .tc main_arg5)) (V (Proc.devRef .tc main_arg6)) := by
  rw [keep2 V main_v22 (by decide),
    keep1 V main_v3 (by decide),
    ← keep0 V main_arg5 (by decide),
    keep1 V main_arg5 (by decide),
    ← keep0 V main_arg6 (by decide),
    keep1 V main_arg6 (by decide)]
  exact S_v22 (Wst0 V)

theorem Rs_main_v44 (V : Valuation τ sig (Elt F)) :
    after stAll V (Proc.devRef .tc main_v44) = Rst.ln (after stAll V (Proc.devRef .tc main_v22)) (Rst.row0 (V (Proc.devRef .tc main_arg7))) (Rst.row0 (V (Proc.devRef .tc main_arg8))) := by
  rw [keep3 V main_v44 (by decide),
    keep2 V main_v22 (by decide),
    ← keep0 V main_arg7 (by decide),
    keep2 V main_arg7 (by decide),
    ← keep0 V main_arg8 (by decide),
    keep2 V main_arg8 (by decide)]
  exact S_v44 (Wst1 V)

theorem Rs_main_v46 (V : Valuation τ sig (Elt F)) :
    after stAll V (Proc.devRef .tc main_v46) = Rst.mat0 (V (Proc.devRef .tc main_arg9)) := by
  rw [keep4 V main_v46 (by decide),
    ← keep0 V main_arg9 (by decide),
    keep3 V main_arg9 (by decide)]
  exact S_v46 (Wst2 V)

theorem Rs_main_v52 (V : Valuation τ sig (Elt F)) :
    after stAll V (Proc.devRef .tc main_v52) = Rst.dense (after stAll V (Proc.devRef .tc main_v44)) (after stAll V (Proc.devRef .tc main_v46)) (Rst.row0 (V (Proc.devRef .tc main_arg10))) := by
  rw [keep5 V main_v52 (by decide),
    keep4 V main_v44 (by decide),
    keep4 V main_v46 (by decide),
    ← keep0 V main_arg10 (by decide),
    keep4 V main_arg10 (by decide)]
  exact S_v52 (Wst3 V)

theorem Rs_main_v54 (V : Valuation τ sig (Elt F)) :
    after stAll V (Proc.devRef .tc main_v54) = Rst.mat0 (V (Proc.devRef .tc main_arg11)) := by
  rw [keep6 V main_v54 (by decide),
    ← keep0 V main_arg11 (by decide),
    keep5 V main_arg11 (by decide)]
  exact S_v54 (Wst4 V)

theorem Rs_main_v60 (V : Valuation τ sig (Elt F)) :
    after stAll V (Proc.devRef .tc main_v60) = Rst.dense (after stAll V (Proc.devRef .tc main_v44)) (after stAll V (Proc.devRef .tc main_v54)) (Rst.row0 (V (Proc.devRef .tc main_arg12))) := by
  rw [keep7 V main_v60 (by decide),
    keep6 V main_v44 (by decide),
    keep6 V main_v54 (by decide),
    ← keep0 V main_arg12 (by decide),
    keep6 V main_arg12 (by decide)]
  exact S_v60 (Wst5 V)

theorem Rs_main_v69 (V : Valuation τ sig (Elt F)) :
    after stAll V (Proc.devRef .tc main_v69) = Rst.gatt (after stAll V (Proc.devRef .tc main_v52)) (V (Proc.devRef .tc main_arg18)) (V (Proc.devRef .tc main_arg1)) := by
  rw [keep8 V main_v69 (by decide),
    keep7 V main_v52 (by decide),
    ← keep0 V main_arg18 (by decide),
    keep7 V main_arg18 (by decide),
    ← keep0 V main_arg1 (by decide),
    keep7 V main_arg1 (by decide)]
  exact S_v69 (Wst6 V)

theorem Rs_main_v78 (V : Valuation τ sig (Elt F)) :
    after stAll V (Proc.devRef .tc main_v78) = Rst.gatt (after stAll V (Proc.devRef .tc main_v60)) (V (Proc.devRef .tc main_arg20)) (V (Proc.devRef .tc main_arg2)) := by
  rw [keep9 V main_v78 (by decide),
    keep8 V main_v60 (by decide),
    ← keep0 V main_arg20 (by decide),
    keep8 V main_arg20 (by decide),
    ← keep0 V main_arg2 (by decide),
    keep8 V main_arg2 (by decide)]
  exact S_v78 (Wst7 V)

theorem Rs_main_v81 (V : Valuation τ sig (Elt F)) :
    after stAll V (Proc.devRef .tc main_v81) = Rst.segsum (V (Proc.devRef .tc main_arg17)) (after stAll V (Proc.devRef .tc main_v69)) := by
  rw [keep10 V main_v81 (by decide),
    keep9 V main_v69 (by decide),
    ← keep0 V main_arg17 (by decide),
    keep9 V main_arg17 (by decide)]
  exact S_v81 (Wst8 V)

theorem Rs_main_v84 (V : Valuation τ sig (Elt F)) :
    after stAll V (Proc.devRef .tc main_v84) = Rst.segsum (V (Proc.devRef .tc main_arg19)) (after stAll V (Proc.devRef .tc main_v78)) := by
  rw [keep11 V main_v84 (by decide),
    keep10 V main_v78 (by decide),
    ← keep0 V main_arg19 (by decide),
    keep10 V main_arg19 (by decide)]
  exact S_v84 (Wst9 V)

theorem Rs_main_v86 (V : Valuation τ sig (Elt F)) :
    after stAll V (Proc.devRef .tc main_v86) = Rst.sum3 (after stAll V (Proc.devRef .tc main_v81)) (after stAll V (Proc.devRef .tc main_v84)) (after stAll V (Proc.devRef .tc main_v44)) := by
  rw [keep12 V main_v86 (by decide),
    keep11 V main_v81 (by decide),
    keep11 V main_v84 (by decide),
    keep11 V main_v44 (by decide)]
  exact S_v86 (Wst10 V)

theorem Rs_main_v109 (V : Valuation τ sig (Elt F)) :
    after stAll V (Proc.devRef .tc main_v109) = Rst.bn (after stAll V (Proc.devRef .tc main_v86)) (Rst.row0 (V (Proc.devRef .tc main_arg13))) (Rst.row0 (V (Proc.devRef .tc main_arg14))) := by
  rw [keep13 V main_v109 (by decide),
    keep12 V main_v86 (by decide),
    ← keep0 V main_arg13 (by decide),
    keep12 V main_arg13 (by decide),
    ← keep0 V main_arg14 (by decide),
    keep12 V main_arg14 (by decide)]
  exact S_v109 (Wst11 V)

theorem Rs_main_v110 (V : Valuation τ sig (Elt F)) :
    after stAll V (Proc.devRef .tc main_v110) = Rst.lrelu (after stAll V (Proc.devRef .tc main_v109)) := by
  rw [keep14 V main_v110 (by decide),
    keep13 V main_v109 (by decide)]
  exact S_v110 (Wst12 V)

theorem Rs_main_v132 (V : Valuation τ sig (Elt F)) :
    after stAll V (Proc.devRef .tc main_v132) = Rst.ln (after stAll V (Proc.devRef .tc main_v110)) (Rst.row1 (V (Proc.devRef .tc main_arg7))) (Rst.row1 (V (Proc.devRef .tc main_arg8))) := by
  rw [keep15 V main_v132 (by decide),
    keep14 V main_v110 (by decide),
    ← keep0 V main_arg7 (by decide),
    keep14 V main_arg7 (by decide),
    ← keep0 V main_arg8 (by decide),
    keep14 V main_arg8 (by decide)]
  exact S_v132 (Wst13 V)

theorem Rs_main_v134 (V : Valuation τ sig (Elt F)) :
    after stAll V (Proc.devRef .tc main_v134) = Rst.mat1 (V (Proc.devRef .tc main_arg9)) := by
  rw [keep16 V main_v134 (by decide),
    ← keep0 V main_arg9 (by decide),
    keep15 V main_arg9 (by decide)]
  exact S_v134 (Wst14 V)

theorem Rs_main_v140 (V : Valuation τ sig (Elt F)) :
    after stAll V (Proc.devRef .tc main_v140) = Rst.dense (after stAll V (Proc.devRef .tc main_v132)) (after stAll V (Proc.devRef .tc main_v134)) (Rst.row1 (V (Proc.devRef .tc main_arg10))) := by
  rw [keep17 V main_v140 (by decide),
    keep16 V main_v132 (by decide),
    keep16 V main_v134 (by decide),
    ← keep0 V main_arg10 (by decide),
    keep16 V main_arg10 (by decide)]
  exact S_v140 (Wst15 V)

theorem Rs_main_v142 (V : Valuation τ sig (Elt F)) :
    after stAll V (Proc.devRef .tc main_v142) = Rst.mat1 (V (Proc.devRef .tc main_arg11)) := by
  rw [keep18 V main_v142 (by decide),
    ← keep0 V main_arg11 (by decide),
    keep17 V main_arg11 (by decide)]
  exact S_v142 (Wst16 V)

theorem Rs_main_v148 (V : Valuation τ sig (Elt F)) :
    after stAll V (Proc.devRef .tc main_v148) = Rst.dense (after stAll V (Proc.devRef .tc main_v132)) (after stAll V (Proc.devRef .tc main_v142)) (Rst.row1 (V (Proc.devRef .tc main_arg12))) := by
  rw [keep19 V main_v148 (by decide),
    keep18 V main_v132 (by decide),
    keep18 V main_v142 (by decide),
    ← keep0 V main_arg12 (by decide),
    keep18 V main_arg12 (by decide)]
  exact S_v148 (Wst17 V)

theorem Rs_main_v157 (V : Valuation τ sig (Elt F)) :
    after stAll V (Proc.devRef .tc main_v157) = Rst.gatt (after stAll V (Proc.devRef .tc main_v140)) (V (Proc.devRef .tc main_arg18)) (V (Proc.devRef .tc main_arg1)) := by
  rw [keep20 V main_v157 (by decide),
    keep19 V main_v140 (by decide),
    ← keep0 V main_arg18 (by decide),
    keep19 V main_arg18 (by decide),
    ← keep0 V main_arg1 (by decide),
    keep19 V main_arg1 (by decide)]
  exact S_v157 (Wst18 V)

theorem Rs_main_v166 (V : Valuation τ sig (Elt F)) :
    after stAll V (Proc.devRef .tc main_v166) = Rst.gatt (after stAll V (Proc.devRef .tc main_v148)) (V (Proc.devRef .tc main_arg20)) (V (Proc.devRef .tc main_arg2)) := by
  rw [keep21 V main_v166 (by decide),
    keep20 V main_v148 (by decide),
    ← keep0 V main_arg20 (by decide),
    keep20 V main_arg20 (by decide),
    ← keep0 V main_arg2 (by decide),
    keep20 V main_arg2 (by decide)]
  exact S_v166 (Wst19 V)

theorem Rs_main_v169 (V : Valuation τ sig (Elt F)) :
    after stAll V (Proc.devRef .tc main_v169) = Rst.segsum (V (Proc.devRef .tc main_arg17)) (after stAll V (Proc.devRef .tc main_v157)) := by
  rw [keep22 V main_v169 (by decide),
    keep21 V main_v157 (by decide),
    ← keep0 V main_arg17 (by decide),
    keep21 V main_arg17 (by decide)]
  exact S_v169 (Wst20 V)

theorem Rs_main_v172 (V : Valuation τ sig (Elt F)) :
    after stAll V (Proc.devRef .tc main_v172) = Rst.segsum (V (Proc.devRef .tc main_arg19)) (after stAll V (Proc.devRef .tc main_v166)) := by
  rw [keep23 V main_v172 (by decide),
    keep22 V main_v166 (by decide),
    ← keep0 V main_arg19 (by decide),
    keep22 V main_arg19 (by decide)]
  exact S_v172 (Wst21 V)

theorem Rs_main_v174 (V : Valuation τ sig (Elt F)) :
    after stAll V (Proc.devRef .tc main_v174) = Rst.sum3 (after stAll V (Proc.devRef .tc main_v169)) (after stAll V (Proc.devRef .tc main_v172)) (after stAll V (Proc.devRef .tc main_v132)) := by
  rw [keep24 V main_v174 (by decide),
    keep23 V main_v169 (by decide),
    keep23 V main_v172 (by decide),
    keep23 V main_v132 (by decide)]
  exact S_v174 (Wst22 V)

theorem Rs_main_v197 (V : Valuation τ sig (Elt F)) :
    after stAll V (Proc.devRef .tc main_v197) = Rst.bn (after stAll V (Proc.devRef .tc main_v174)) (Rst.row1 (V (Proc.devRef .tc main_arg13))) (Rst.row1 (V (Proc.devRef .tc main_arg14))) := by
  rw [keep25 V main_v197 (by decide),
    keep24 V main_v174 (by decide),
    ← keep0 V main_arg13 (by decide),
    keep24 V main_arg13 (by decide),
    ← keep0 V main_arg14 (by decide),
    keep24 V main_arg14 (by decide)]
  exact S_v197 (Wst23 V)

theorem Rs_main_v198 (V : Valuation τ sig (Elt F)) :
    after stAll V (Proc.devRef .tc main_v198) = Rst.lrelu (after stAll V (Proc.devRef .tc main_v197)) := by
  rw [keep26 V main_v198 (by decide),
    keep25 V main_v197 (by decide)]
  exact S_v198 (Wst24 V)

theorem Rs_main_v202 (V : Valuation τ sig (Elt F)) :
    after stAll V (Proc.devRef .tc main_v202) = Rst.denseOut (after stAll V (Proc.devRef .tc main_v198)) (V (Proc.devRef .tc main_arg15)) (V (Proc.devRef .tc main_arg16)) := by
  rw [keep27 V main_v202 (by decide),
    keep26 V main_v198 (by decide),
    ← keep0 V main_arg15 (by decide),
    keep26 V main_arg15 (by decide),
    ← keep0 V main_arg16 (by decide),
    keep26 V main_arg16 (by decide)]
  exact S_v202 (Wst25 V)

theorem Rs_main_v213 (V : Valuation τ sig (Elt F)) :
    after stAll V (Proc.devRef .tc main_v213) = Rst.softmax (after stAll V (Proc.devRef .tc main_v202)) := by
  rw [keep28 V main_v213,
    keep27 V main_v202 (by decide)]
  exact S_v213 (Wst26 V)

/-- Batch normalisation and activation of layer 0 as one stage. -/
theorem Rs_main_v110' (V : Valuation τ sig (Elt F)) :
    after stAll V (Proc.devRef .tc main_v110)
      = Rst.lrelu (Rst.bn (after stAll V (Proc.devRef .tc main_v86)) (Rst.row0 (V (Proc.devRef .tc main_arg13))) (Rst.row0 (V (Proc.devRef .tc main_arg14)))) := by
  rw [Rs_main_v110, Rs_main_v109]

/-- Batch normalisation and activation of layer 1 as one stage. -/
theorem Rs_main_v198' (V : Valuation τ sig (Elt F)) :
    after stAll V (Proc.devRef .tc main_v198)
      = Rst.lrelu (Rst.bn (after stAll V (Proc.devRef .tc main_v174)) (Rst.row1 (V (Proc.devRef .tc main_arg13))) (Rst.row1 (V (Proc.devRef .tc main_arg14)))) := by
  rw [Rs_main_v198, Rs_main_v197]

end Cert.ReferenceIdeal.Hand

end
-- ==== Proof.Ref.ReadAll.lean ====
/- The reference network read stage by stage over the run of @main: the line of all of @main's operations is the line
   of the stages, so after the run from any launch contents V each stage's result buffer holds the stage's pure function
   of the earlier stages' result buffers and of the arguments. -/
import proofs.«406228_j54073638257180_1_alg».proof.Proof.Ref.Run
import proofs.«406228_j54073638257180_1_alg».proof.Proof.Ref.ReadChain

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The whole line of @main's operations is the stages in order. -/
theorem opsAll_eq_stAll : (opsAll : List (HloOp τ sig (Elt F))) = stAll := chunks_eq_stAll

theorem R_main_v3 (V : Valuation τ sig (Elt F)) :
    after opsAll V (Proc.devRef .tc main_v3) = Rst.dense0 (V (Proc.devRef .tc main_arg0)) (V (Proc.devRef .tc main_arg3)) (V (Proc.devRef .tc main_arg4)) := by
  rw [opsAll_eq_stAll]; exact Rs_main_v3 V

theorem R_main_v22 (V : Valuation τ sig (Elt F)) :
    after opsAll V (Proc.devRef .tc main_v22) = Rst.bn (after opsAll V (Proc.devRef .tc main_v3)) (V (Proc.devRef .tc main_arg5)) (V (Proc.devRef .tc main_arg6)) := by
  rw [opsAll_eq_stAll]; exact Rs_main_v22 V

theorem R_main_v44 (V : Valuation τ sig (Elt F)) :
    after opsAll V (Proc.devRef .tc main_v44) = Rst.ln (after opsAll V (Proc.devRef .tc main_v22)) (Rst.row0 (V (Proc.devRef .tc main_arg7))) (Rst.row0 (V (Proc.devRef .tc main_arg8))) := by
  rw [opsAll_eq_stAll]; exact Rs_main_v44 V

theorem R_main_v46 (V : Valuation τ sig (Elt F)) :
    after opsAll V (Proc.devRef .tc main_v46) = Rst.mat0 (V (Proc.devRef .tc main_arg9)) := by
  rw [opsAll_eq_stAll]; exact Rs_main_v46 V

theorem R_main_v52 (V : Valuation τ sig (Elt F)) :
    after opsAll V (Proc.devRef .tc main_v52) = Rst.dense (after opsAll V (Proc.devRef .tc main_v44)) (after opsAll V (Proc.devRef .tc main_v46)) (Rst.row0 (V (Proc.devRef .tc main_arg10))) := by
  rw [opsAll_eq_stAll]; exact Rs_main_v52 V

theorem R_main_v54 (V : Valuation τ sig (Elt F)) :
    after opsAll V (Proc.devRef .tc main_v54) = Rst.mat0 (V (Proc.devRef .tc main_arg11)) := by
  rw [opsAll_eq_stAll]; exact Rs_main_v54 V

theorem R_main_v60 (V : Valuation τ sig (Elt F)) :
    after opsAll V (Proc.devRef .tc main_v60) = Rst.dense (after opsAll V (Proc.devRef .tc main_v44)) (after opsAll V (Proc.devRef .tc main_v54)) (Rst.row0 (V (Proc.devRef .tc main_arg12))) := by
  rw [opsAll_eq_stAll]; exact Rs_main_v60 V

theorem R_main_v69 (V : Valuation τ sig (Elt F)) :
    after opsAll V (Proc.devRef .tc main_v69) = Rst.gatt (after opsAll V (Proc.devRef .tc main_v52)) (V (Proc.devRef .tc main_arg18)) (V (Proc.devRef .tc main_arg1)) := by
  rw [opsAll_eq_stAll]; exact Rs_main_v69 V

theorem R_main_v78 (V : Valuation τ sig (Elt F)) :
    after opsAll V (Proc.devRef .tc main_v78) = Rst.gatt (after opsAll V (Proc.devRef .tc main_v60)) (V (Proc.devRef .tc main_arg20)) (V (Proc.devRef .tc main_arg2)) := by
  rw [opsAll_eq_stAll]; exact Rs_main_v78 V

theorem R_main_v81 (V : Valuation τ sig (Elt F)) :
    after opsAll V (Proc.devRef .tc main_v81) = Rst.segsum (V (Proc.devRef .tc main_arg17)) (after opsAll V (Proc.devRef .tc main_v69)) := by
  rw [opsAll_eq_stAll]; exact Rs_main_v81 V

theorem R_main_v84 (V : Valuation τ sig (Elt F)) :
    after opsAll V (Proc.devRef .tc main_v84) = Rst.segsum (V (Proc.devRef .tc main_arg19)) (after opsAll V (Proc.devRef .tc main_v78)) := by
  rw [opsAll_eq_stAll]; exact Rs_main_v84 V

theorem R_main_v86 (V : Valuation τ sig (Elt F)) :
    after opsAll V (Proc.devRef .tc main_v86) = Rst.sum3 (after opsAll V (Proc.devRef .tc main_v81)) (after opsAll V (Proc.devRef .tc main_v84)) (after opsAll V (Proc.devRef .tc main_v44)) := by
  rw [opsAll_eq_stAll]; exact Rs_main_v86 V

theorem R_main_v109 (V : Valuation τ sig (Elt F)) :
    after opsAll V (Proc.devRef .tc main_v109) = Rst.bn (after opsAll V (Proc.devRef .tc main_v86)) (Rst.row0 (V (Proc.devRef .tc main_arg13))) (Rst.row0 (V (Proc.devRef .tc main_arg14))) := by
  rw [opsAll_eq_stAll]; exact Rs_main_v109 V

theorem R_main_v110 (V : Valuation τ sig (Elt F)) :
    after opsAll V (Proc.devRef .tc main_v110) = Rst.lrelu (after opsAll V (Proc.devRef .tc main_v109)) := by
  rw [opsAll_eq_stAll]; exact Rs_main_v110 V

theorem R_main_v132 (V : Valuation τ sig (Elt F)) :
    after opsAll V (Proc.devRef .tc main_v132) = Rst.ln (after opsAll V (Proc.devRef .tc main_v110)) (Rst.row1 (V (Proc.devRef .tc main_arg7))) (Rst.row1 (V (Proc.devRef .tc main_arg8))) := by
  rw [opsAll_eq_stAll]; exact Rs_main_v132 V

theorem R_main_v134 (V : Valuation τ sig (Elt F)) :
    after opsAll V (Proc.devRef .tc main_v134) = Rst.mat1 (V (Proc.devRef .tc main_arg9)) := by
  rw [opsAll_eq_stAll]; exact Rs_main_v134 V

theorem R_main_v140 (V : Valuation τ sig (Elt F)) :
    after opsAll V (Proc.devRef .tc main_v140) = Rst.dense (after opsAll V (Proc.devRef .tc main_v132)) (after opsAll V (Proc.devRef .tc main_v134)) (Rst.row1 (V (Proc.devRef .tc main_arg10))) := by
  rw [opsAll_eq_stAll]; exact Rs_main_v140 V

theorem R_main_v142 (V : Valuation τ sig (Elt F)) :
    after opsAll V (Proc.devRef .tc main_v142) = Rst.mat1 (V (Proc.devRef .tc main_arg11)) := by
  rw [opsAll_eq_stAll]; exact Rs_main_v142 V

theorem R_main_v148 (V : Valuation τ sig (Elt F)) :
    after opsAll V (Proc.devRef .tc main_v148) = Rst.dense (after opsAll V (Proc.devRef .tc main_v132)) (after opsAll V (Proc.devRef .tc main_v142)) (Rst.row1 (V (Proc.devRef .tc main_arg12))) := by
  rw [opsAll_eq_stAll]; exact Rs_main_v148 V

theorem R_main_v157 (V : Valuation τ sig (Elt F)) :
    after opsAll V (Proc.devRef .tc main_v157) = Rst.gatt (after opsAll V (Proc.devRef .tc main_v140)) (V (Proc.devRef .tc main_arg18)) (V (Proc.devRef .tc main_arg1)) := by
  rw [opsAll_eq_stAll]; exact Rs_main_v157 V

theorem R_main_v166 (V : Valuation τ sig (Elt F)) :
    after opsAll V (Proc.devRef .tc main_v166) = Rst.gatt (after opsAll V (Proc.devRef .tc main_v148)) (V (Proc.devRef .tc main_arg20)) (V (Proc.devRef .tc main_arg2)) := by
  rw [opsAll_eq_stAll]; exact Rs_main_v166 V

theorem R_main_v169 (V : Valuation τ sig (Elt F)) :
    after opsAll V (Proc.devRef .tc main_v169) = Rst.segsum (V (Proc.devRef .tc main_arg17)) (after opsAll V (Proc.devRef .tc main_v157)) := by
  rw [opsAll_eq_stAll]; exact Rs_main_v169 V

theorem R_main_v172 (V : Valuation τ sig (Elt F)) :
    after opsAll V (Proc.devRef .tc main_v172) = Rst.segsum (V (Proc.devRef .tc main_arg19)) (after opsAll V (Proc.devRef .tc main_v166)) := by
  rw [opsAll_eq_stAll]; exact Rs_main_v172 V

theorem R_main_v174 (V : Valuation τ sig (Elt F)) :
    after opsAll V (Proc.devRef .tc main_v174) = Rst.sum3 (after opsAll V (Proc.devRef .tc main_v169)) (after opsAll V (Proc.devRef .tc main_v172)) (after opsAll V (Proc.devRef .tc main_v132)) := by
  rw [opsAll_eq_stAll]; exact Rs_main_v174 V

theorem R_main_v197 (V : Valuation τ sig (Elt F)) :
    after opsAll V (Proc.devRef .tc main_v197) = Rst.bn (after opsAll V (Proc.devRef .tc main_v174)) (Rst.row1 (V (Proc.devRef .tc main_arg13))) (Rst.row1 (V (Proc.devRef .tc main_arg14))) := by
  rw [opsAll_eq_stAll]; exact Rs_main_v197 V

theorem R_main_v198 (V : Valuation τ sig (Elt F)) :
    after opsAll V (Proc.devRef .tc main_v198) = Rst.lrelu (after opsAll V (Proc.devRef .tc main_v197)) := by
  rw [opsAll_eq_stAll]; exact Rs_main_v198 V

theorem R_main_v202 (V : Valuation τ sig (Elt F)) :
    after opsAll V (Proc.devRef .tc main_v202) = Rst.denseOut (after opsAll V (Proc.devRef .tc main_v198)) (V (Proc.devRef .tc main_arg15)) (V (Proc.devRef .tc main_arg16)) := by
  rw [opsAll_eq_stAll]; exact Rs_main_v202 V

theorem R_main_v213 (V : Valuation τ sig (Elt F)) :
    after opsAll V (Proc.devRef .tc main_v213) = Rst.softmax (after opsAll V (Proc.devRef .tc main_v202)) := by
  rw [opsAll_eq_stAll]; exact Rs_main_v213 V

/-- Batch normalisation and activation of layer 0 as one stage. -/
theorem R_main_v110' (V : Valuation τ sig (Elt F)) :
    after opsAll V (Proc.devRef .tc main_v110)
      = Rst.lrelu (Rst.bn (after opsAll V (Proc.devRef .tc main_v86)) (Rst.row0 (V (Proc.devRef .tc main_arg13))) (Rst.row0 (V (Proc.devRef .tc main_arg14)))) := by
  rw [opsAll_eq_stAll]; exact Rs_main_v110' V

/-- Batch normalisation and activation of layer 1 as one stage. -/
theorem R_main_v198' (V : Valuation τ sig (Elt F)) :
    after opsAll V (Proc.devRef .tc main_v198)
      = Rst.lrelu (Rst.bn (after opsAll V (Proc.devRef .tc main_v174)) (Rst.row1 (V (Proc.devRef .tc main_arg13))) (Rst.row1 (V (Proc.devRef .tc main_arg14)))) := by
  rw [opsAll_eq_stAll]; exact Rs_main_v198' V

end Cert.ReferenceIdeal.Hand

end
-- ==== Proof.Ref.DenseRead.lean ====
/- The reference's dense layers read against the one specification of a dense layer. -/
import proofs.«406228_j54073638257180_1_alg».proof.ReferenceIdeal
import proofs.«406228_j54073638257180_1_alg».proof.Proof.Spec.Dense

/-! # The reference's dense layers

The reference computes a dense layer as `dot_general` of the rows with the weights (contracting the rows' second axis
with the weights' first, no batch axes) plus the bias, which it first lays out as a one-row array and then broadcasts
down the 262144 rows. At the ideal values that is `Cert.Spec.dense` of the rows, the weights and the one-row bias, for
each of the three layer shapes: 200 → 64, 64 → 64 and 64 → 16. The one-row bias is `Cert.Spec.row` of the bias vector. -/

noncomputable section

namespace Cert.ReferenceIdeal.Hand

open Cert.ReferenceIdeal Idealize.ShloMosaic
open Cert.ReferenceIdeal.Facts₀ Cert.ReferenceIdeal.Facts

variable [Facts]

/-- The first layer, 200 features to 64: the product plus the bias row broadcast down the rows. -/
theorem dense200_read (x : Vec Ideal S262144x200 .f32) (w : Vec Ideal S200x64 .f32) (b1 : Vec Ideal S1x64 .f32) :
    addf (Host.dotGeneral (F := Ideal) (φ₁ := .f32) (φ₂ := .f32) dot_S262144x200_S200x64_S262144x64_1_0_0_1_n_n none x w)
        (broadcastInDim S262144x64 ![0, 1] bcast_S1x64_S262144x64_0_1 b1)
      = Cert.Spec.dense x w b1 :=
  Cert.Spec.dotGeneral_add_row_eq_dense (M := 262144) (K := 200) (N := 64)
    dot_S262144x200_S200x64_S262144x64_1_0_0_1_n_n rfl none bcast_S1x64_S262144x64_0_1 x w b1

/-- A hidden layer, 64 features to 64. -/
theorem dense64_read (x : Vec Ideal S262144x64 .f32) (w : Vec Ideal S64x64 .f32) (b1 : Vec Ideal S1x64 .f32) :
    addf (Host.dotGeneral (F := Ideal) (φ₁ := .f32) (φ₂ := .f32) dot_S262144x64_S64x64_S262144x64_1_0_0_1_n_n none x w)
        (broadcastInDim S262144x64 ![0, 1] bcast_S1x64_S262144x64_0_1 b1)
      = Cert.Spec.dense x w b1 :=
  Cert.Spec.dotGeneral_add_row_eq_dense (M := 262144) (K := 64) (N := 64)
    dot_S262144x64_S64x64_S262144x64_1_0_0_1_n_n rfl none bcast_S1x64_S262144x64_0_1 x w b1

/-- The last layer, 64 features to 16 classes. -/
theorem dense16_read (x : Vec Ideal S262144x64 .f32) (w : Vec Ideal S64x16 .f32) (b1 : Vec Ideal S1x16 .f32) :
    addf (Host.dotGeneral (F := Ideal) (φ₁ := .f32) (φ₂ := .f32) dot_S262144x64_S64x16_S262144x16_1_0_0_1_n_n none x w)
        (broadcastInDim S262144x16 ![0, 1] bcast_S1x16_S262144x16_0_1 b1)
      = Cert.Spec.dense x w b1 :=
  Cert.Spec.dotGeneral_add_row_eq_dense (M := 262144) (K := 64) (N := 16)
    dot_S262144x64_S64x16_S262144x16_1_0_0_1_n_n rfl none bcast_S1x16_S262144x16_0_1 x w b1

/-- The bias of 64 entries laid out as one row. -/
theorem bias64_row (b : Vec Ideal S64 .f32) : broadcastInDim S1x64 ![1] bcast_S64_S1x64_1 b = Cert.Spec.row b :=
  Cert.Spec.broadcastInDim_eq_row (N := 64) bcast_S64_S1x64_1 b

/-- The bias of 16 entries laid out as one row. -/
theorem bias16_row (b : Vec Ideal S16 .f32) : broadcastInDim S1x16 ![1] bcast_S16_S1x16_1 b = Cert.Spec.row b :=
  Cert.Spec.broadcastInDim_eq_row (N := 16) bcast_S16_S1x16_1 b

end Cert.ReferenceIdeal.Hand

end
-- ==== Proof.Ref.DenseSpec.lean ====
/- The reference's dense stages are the one specification of a dense layer. -/
import proofs.«406228_j54073638257180_1_alg».proof.Proof.Ref.ReadDefs
import proofs.«406228_j54073638257180_1_alg».proof.Proof.Ref.DenseRead

/-! # The reference's dense stages at the ideal values

Each dense stage of the reference (`Rst.dense0`, `Rst.dense`, `Rst.denseOut`: the product with the weights plus the bias
vector, laid out as one row and repeated down the nodes) is `Cert.Spec.dense` of the rows, the weights and the bias as
a one-row array. -/

noncomputable section

namespace Cert.ReferenceIdeal.Hand

open Cert.ReferenceIdeal Idealize.ShloMosaic
open Cert.ReferenceIdeal.Facts₀ Cert.ReferenceIdeal.Facts

variable [Facts]

/-- The input layer, 200 features to 64. -/
theorem Rst.dense0_eq_spec (x : FVec Ideal S262144x200 .f32) (w : FVec Ideal S200x64 .f32) (b : FVec Ideal S64 .f32) :
    Rst.dense0 (F := Ideal) x w b = Cert.Spec.dense x w (Cert.Spec.row b) := by
  unfold Rst.dense0
  rw [bias64_row]
  exact dense200_read x w (Cert.Spec.row b)

/-- A hidden layer, 64 features to 64. -/
theorem Rst.dense_eq_spec (x : FVec Ideal S262144x64 .f32) (w : FVec Ideal S64x64 .f32) (b : FVec Ideal S64 .f32) :
    Rst.dense (F := Ideal) x w b = Cert.Spec.dense x w (Cert.Spec.row b) := by
  unfold Rst.dense
  rw [bias64_row]
  exact dense64_read x w (Cert.Spec.row b)

/-- The output layer, 64 features to 16 classes. -/
theorem Rst.denseOut_eq_spec (x : FVec Ideal S262144x64 .f32) (w : FVec Ideal S64x16 .f32) (b : FVec Ideal S16 .f32) :
    Rst.denseOut (F := Ideal) x w b = Cert.Spec.dense x w (Cert.Spec.row b) := by
  unfold Rst.denseOut
  rw [bias16_row]
  exact dense16_read x w (Cert.Spec.row b)

end Cert.ReferenceIdeal.Hand

end
-- ==== Proof.BridgeDense.lean ====
/- The six dense layers: each dense pipeline of the kernel program leaves what the reference's dense stage computes. -/
import proofs.«406228_j54073638257180_1_alg».proof.Proof.BridgeDefs
import proofs.«406228_j54073638257180_1_alg».proof.Proof.Compare
import proofs.«406228_j54073638257180_1_alg».proof.Proof.KI.Walk
import proofs.«406228_j54073638257180_1_alg».proof.Proof.KI.BiasRow
import proofs.«406228_j54073638257180_1_alg».proof.Proof.KI.Dense0Value
import proofs.«406228_j54073638257180_1_alg».proof.Proof.KI.Dense1Value
import proofs.«406228_j54073638257180_1_alg».proof.Proof.KI.Dense2Value
import proofs.«406228_j54073638257180_1_alg».proof.Proof.KI.Dense5Value
import proofs.«406228_j54073638257180_1_alg».proof.Proof.KI.Dense6Value
import proofs.«406228_j54073638257180_1_alg».proof.Proof.KI.Dense9Value
import proofs.«406228_j54073638257180_1_alg».proof.Proof.Ref.ReadAll
import proofs.«406228_j54073638257180_1_alg».proof.Proof.Ref.DenseSpec

/-! # The dense layers of the two programs

A dense pipeline of the kernel program leaves, in its result array, `Cert.Spec.dense` of its three operand arrays as it
finds them; the reference's dense stage is `Cert.Spec.dense` of its rows, its weights and its bias laid out as one row.
The operands agree: the rows by hypothesis (the earlier stages), the weights because both programs cut the same matrix
out of the same argument, the bias row because the kernel program's reshape and the reference's broadcast lay the same
vector out as the same row. So the two results are equal, layer by layer. -/

set_option maxRecDepth 16384

noncomputable section

namespace Cert.Proof.Bridge

open Idealize.ShloMosaic Idealize.ShloMosaic.TcCoe Idealize.SL.Sem Idealize.ShloMosaic.StableHlo
open Cert.KernelIdeal.Hand Cert.KernelIdeal.Gen Cert.ReferenceIdeal.Hand

/-- The dense layer of equal operands. -/
theorem dense_congr {M K N : Nat} {x x' : FVec Ideal ⟨2, ![M, K]⟩ .f32} {w w' : FVec Ideal ⟨2, ![K, N]⟩ .f32}
    {b b' : FVec Ideal ⟨2, ![1, N]⟩ .f32} (hx : x = x') (hw : w = w') (hb : b = b') :
    Cert.Spec.dense x w b = Cert.Spec.dense x' w' b' := by
  subst hx hw hb; rfl

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- Dense pipeline 0 (item 1 of the kernel program's run) against the reference's first dense stage `main_v3`: both are
    the dense layer of the input features, the input weights and the input bias as one row. -/
theorem dense_stage0
    (ha0 : m' ((c.tc : Thread ReferenceIdeal.nD ReferenceIdeal.τ).loc ReferenceIdeal.main_arg0) = m ((c.tc : Thread KernelIdeal.nD KernelIdeal.τ).loc KernelIdeal.main_arg0))
    (ha3 : m' ((c.tc : Thread ReferenceIdeal.nD ReferenceIdeal.τ).loc ReferenceIdeal.main_arg3) = m ((c.tc : Thread KernelIdeal.nD KernelIdeal.τ).loc KernelIdeal.main_arg3))
    (ha4 : m' ((c.tc : Thread ReferenceIdeal.nD ReferenceIdeal.τ).loc ReferenceIdeal.main_arg4) = m ((c.tc : Thread KernelIdeal.nD KernelIdeal.τ).loc KernelIdeal.main_arg4)) :
    VR m' c (Proc.devRef .tc ReferenceIdeal.main_v3) = W2 m ρ c (Proc.devRef .tc KernelIdeal.main_v1) := by
  have hR : VR m' c (Proc.devRef .tc ReferenceIdeal.main_v3)
      = Cert.Spec.dense (M := 262144) (K := 200) (N := 64) (m' ((c.tc : Thread ReferenceIdeal.nD ReferenceIdeal.τ).loc ReferenceIdeal.main_arg0)) (m' ((c.tc : Thread ReferenceIdeal.nD ReferenceIdeal.τ).loc ReferenceIdeal.main_arg3))
          (Cert.Spec.row (m' ((c.tc : Thread ReferenceIdeal.nD ReferenceIdeal.τ).loc ReferenceIdeal.main_arg4))) := by
    refine (R_main_v3 (VR0 m' c)).trans ?_
    exact Rst.dense0_eq_spec _ _ _
  have hK : W2 m ρ c (Proc.devRef .tc KernelIdeal.main_v1)
      = Cert.Spec.dense (M := 262144) (K := 200) (N := 64) (m ((c.tc : Thread KernelIdeal.nD KernelIdeal.τ).loc KernelIdeal.main_arg0)) (m ((c.tc : Thread KernelIdeal.nD KernelIdeal.τ).loc KernelIdeal.main_arg3))
          (Cert.Spec.row (m ((c.tc : Thread KernelIdeal.nD KernelIdeal.τ).loc KernelIdeal.main_arg4))) := by
    refine (W2_arr m ρ c 3).trans ?_
    refine (dense0_value (V1 m ρ) c).trans ?_
    exact dense_congr (at_1_main_arg0 m ρ c) (at_1_main_arg3 m ρ c) ((walk_1_main_v0 m ρ c).trans (bias64_reshape _))
  refine hR.trans (Eq.trans ?_ hK.symm)
  exact dense_congr ha0 ha3 (congrArg Cert.Spec.row ha4)

/-- Dense pipeline 1 (item 7 of the kernel program's run) against the reference's dense stage `main_v52`: both are the
    dense layer of the same rows, of matrix 0 of the weight stack and of row 0 of the bias table. -/
theorem dense_stage1
    (hx : VR m' c (Proc.devRef .tc ReferenceIdeal.main_v44) = W7 m ρ c (Proc.devRef .tc KernelIdeal.main_v42))
    (ha9 : m' ((c.tc : Thread ReferenceIdeal.nD ReferenceIdeal.τ).loc ReferenceIdeal.main_arg9) = m ((c.tc : Thread KernelIdeal.nD KernelIdeal.τ).loc KernelIdeal.main_arg9))
    (ha10 : m' ((c.tc : Thread ReferenceIdeal.nD ReferenceIdeal.τ).loc ReferenceIdeal.main_arg10) = m ((c.tc : Thread KernelIdeal.nD KernelIdeal.τ).loc KernelIdeal.main_arg10)) :
    VR m' c (Proc.devRef .tc ReferenceIdeal.main_v52) = W8 m ρ c (Proc.devRef .tc KernelIdeal.main_v48) := by
  have hR : VR m' c (Proc.devRef .tc ReferenceIdeal.main_v52)
      = Cert.Spec.dense (M := 262144) (K := 64) (N := 64) (VR m' c (Proc.devRef .tc ReferenceIdeal.main_v44))
          (Rst.mat0 (F := Ideal) (m' ((c.tc : Thread ReferenceIdeal.nD ReferenceIdeal.τ).loc ReferenceIdeal.main_arg9))) (Cert.Spec.row (Rst.row0 (F := Ideal) (m' ((c.tc : Thread ReferenceIdeal.nD ReferenceIdeal.τ).loc ReferenceIdeal.main_arg10)))) := by
    refine (R_main_v52 (VR0 m' c)).trans ?_
    refine (Rst.dense_eq_spec _ _ _).trans ?_
    exact dense_congr rfl (R_main_v46 (VR0 m' c)) rfl
  have hK : W8 m ρ c (Proc.devRef .tc KernelIdeal.main_v48)
      = Cert.Spec.dense (M := 262144) (K := 64) (N := 64) (W7 m ρ c (Proc.devRef .tc KernelIdeal.main_v42))
          (Kst.mat (F := Ideal) (m ((c.tc : Thread KernelIdeal.nD KernelIdeal.τ).loc KernelIdeal.main_arg9)) ![0, 0, 0] slices_S2x64x64_S1x64x64_0_0_0)
          (Cert.Spec.row (Kst.row (F := Ideal) (m ((c.tc : Thread KernelIdeal.nD KernelIdeal.τ).loc KernelIdeal.main_arg10)) ![0, 0] slices_S2x64_S1x64_0_0)) := by
    refine (W8_arr m ρ c 3).trans ?_
    refine (dense1_value (V7 m ρ) c).trans ?_
    exact dense_congr rfl (walk_7_main_v44 m ρ c) ((walk_7_main_v47 m ρ c).trans (bias64_reshape _))
  refine hR.trans (Eq.trans ?_ hK.symm)
  exact dense_congr hx ((congrArg Rst.mat0 ha9).trans (Cert.Proof.Compare.mat0_eq _ _).symm)
    (congrArg Cert.Spec.row ((congrArg Rst.row0 ha10).trans (Cert.Proof.Compare.row0_eq _ _).symm))

/-- Dense pipeline 2 (item 9 of the kernel program's run) against the reference's dense stage `main_v60`: both are the
    dense layer of the same rows, of matrix 0 of the weight stack and of row 0 of the bias table. -/
theorem dense_stage2
    (hx : VR m' c (Proc.devRef .tc ReferenceIdeal.main_v44) = W9 m ρ c (Proc.devRef .tc KernelIdeal.main_v42))
    (ha11 : m' ((c.tc : Thread ReferenceIdeal.nD ReferenceIdeal.τ).loc ReferenceIdeal.main_arg11) = m ((c.tc : Thread KernelIdeal.nD KernelIdeal.τ).loc KernelIdeal.main_arg11))
    (ha12 : m' ((c.tc : Thread ReferenceIdeal.nD ReferenceIdeal.τ).loc ReferenceIdeal.main_arg12) = m ((c.tc : Thread KernelIdeal.nD KernelIdeal.τ).loc KernelIdeal.main_arg12)) :
    VR m' c (Proc.devRef .tc ReferenceIdeal.main_v60) = W10 m ρ c (Proc.devRef .tc KernelIdeal.main_v54) := by
  have hR : VR m' c (Proc.devRef .tc ReferenceIdeal.main_v60)
      = Cert.Spec.dense (M := 262144) (K := 64) (N := 64) (VR m' c (Proc.devRef .tc ReferenceIdeal.main_v44))
          (Rst.mat0 (F := Ideal) (m' ((c.tc : Thread ReferenceIdeal.nD ReferenceIdeal.τ).loc ReferenceIdeal.main_arg11))) (Cert.Spec.row (Rst.row0 (F := Ideal) (m' ((c.tc : Thread ReferenceIdeal.nD ReferenceIdeal.τ).loc ReferenceIdeal.main_arg12)))) := by
    refine (R_main_v60 (VR0 m' c)).trans ?_
    refine (Rst.dense_eq_spec _ _ _).trans ?_
    exact dense_congr rfl (R_main_v54 (VR0 m' c)) rfl
  have hK : W10 m ρ c (Proc.devRef .tc KernelIdeal.main_v54)
      = Cert.Spec.dense (M := 262144) (K := 64) (N := 64) (W9 m ρ c (Proc.devRef .tc KernelIdeal.main_v42))
          (Kst.mat (F := Ideal) (m ((c.tc : Thread KernelIdeal.nD KernelIdeal.τ).loc KernelIdeal.main_arg11)) ![0, 0, 0] slices_S2x64x64_S1x64x64_0_0_0)
          (Cert.Spec.row (Kst.row (F := Ideal) (m ((c.tc : Thread KernelIdeal.nD KernelIdeal.τ).loc KernelIdeal.main_arg12)) ![0, 0] slices_S2x64_S1x64_0_0)) := by
    refine (W10_arr m ρ c 3).trans ?_
    refine (dense2_value (V9 m ρ) c).trans ?_
    exact dense_congr rfl (walk_9_main_v50 m ρ c) ((walk_9_main_v53 m ρ c).trans (bias64_reshape _))
  refine hR.trans (Eq.trans ?_ hK.symm)
  exact dense_congr hx ((congrArg Rst.mat0 ha11).trans (Cert.Proof.Compare.mat0_eq _ _).symm)
    (congrArg Cert.Spec.row ((congrArg Rst.row0 ha12).trans (Cert.Proof.Compare.row0_eq _ _).symm))

/-- Dense pipeline 5 (item 21 of the kernel program's run) against the reference's dense stage `main_v140`: both are the
    dense layer of the same rows, of matrix 1 of the weight stack and of row 1 of the bias table. -/
theorem dense_stage5
    (hx : VR m' c (Proc.devRef .tc ReferenceIdeal.main_v132) = W21 m ρ c (Proc.devRef .tc KernelIdeal.main_v126))
    (ha9 : m' ((c.tc : Thread ReferenceIdeal.nD ReferenceIdeal.τ).loc ReferenceIdeal.main_arg9) = m ((c.tc : Thread KernelIdeal.nD KernelIdeal.τ).loc KernelIdeal.main_arg9))
    (ha10 : m' ((c.tc : Thread ReferenceIdeal.nD ReferenceIdeal.τ).loc ReferenceIdeal.main_arg10) = m ((c.tc : Thread KernelIdeal.nD KernelIdeal.τ).loc KernelIdeal.main_arg10)) :
    VR m' c (Proc.devRef .tc ReferenceIdeal.main_v140) = W22 m ρ c (Proc.devRef .tc KernelIdeal.main_v132) := by
  have hR : VR m' c (Proc.devRef .tc ReferenceIdeal.main_v140)
      = Cert.Spec.dense (M := 262144) (K := 64) (N := 64) (VR m' c (Proc.devRef .tc ReferenceIdeal.main_v132))
          (Rst.mat1 (F := Ideal) (m' ((c.tc : Thread ReferenceIdeal.nD ReferenceIdeal.τ).loc ReferenceIdeal.main_arg9))) (Cert.Spec.row (Rst.row1 (F := Ideal) (m' ((c.tc : Thread ReferenceIdeal.nD ReferenceIdeal.τ).loc ReferenceIdeal.main_arg10)))) := by
    refine (R_main_v140 (VR0 m' c)).trans ?_
    refine (Rst.dense_eq_spec _ _ _).trans ?_
    exact dense_congr rfl (R_main_v134 (VR0 m' c)) rfl
  have hK : W22 m ρ c (Proc.devRef .tc KernelIdeal.main_v132)
      = Cert.Spec.dense (M := 262144) (K := 64) (N := 64) (W21 m ρ c (Proc.devRef .tc KernelIdeal.main_v126))
          (Kst.mat (F := Ideal) (m ((c.tc : Thread KernelIdeal.nD KernelIdeal.τ).loc KernelIdeal.main_arg9)) ![1, 0, 0] slices_S2x64x64_S1x64x64_1_0_0)
          (Cert.Spec.row (Kst.row (F := Ideal) (m ((c.tc : Thread KernelIdeal.nD KernelIdeal.τ).loc KernelIdeal.main_arg10)) ![1, 0] slices_S2x64_S1x64_1_0)) := by
    refine (W22_arr m ρ c 3).trans ?_
    refine (dense5_value (V21 m ρ) c).trans ?_
    exact dense_congr rfl (walk_21_main_v128 m ρ c) ((walk_21_main_v131 m ρ c).trans (bias64_reshape _))
  refine hR.trans (Eq.trans ?_ hK.symm)
  exact dense_congr hx ((congrArg Rst.mat1 ha9).trans (Cert.Proof.Compare.mat1_eq _ _).symm)
    (congrArg Cert.Spec.row ((congrArg Rst.row1 ha10).trans (Cert.Proof.Compare.row1_eq _ _).symm))

/-- Dense pipeline 6 (item 23 of the kernel program's run) against the reference's dense stage `main_v148`: both are the
    dense layer of the same rows, of matrix 1 of the weight stack and of row 1 of the bias table. -/
theorem dense_stage6
    (hx : VR m' c (Proc.devRef .tc ReferenceIdeal.main_v132) = W23 m ρ c (Proc.devRef .tc KernelIdeal.main_v126))
    (ha11 : m' ((c.tc : Thread ReferenceIdeal.nD ReferenceIdeal.τ).loc ReferenceIdeal.main_arg11) = m ((c.tc : Thread KernelIdeal.nD KernelIdeal.τ).loc KernelIdeal.main_arg11))
    (ha12 : m' ((c.tc : Thread ReferenceIdeal.nD ReferenceIdeal.τ).loc ReferenceIdeal.main_arg12) = m ((c.tc : Thread KernelIdeal.nD KernelIdeal.τ).loc KernelIdeal.main_arg12)) :
    VR m' c (Proc.devRef .tc ReferenceIdeal.main_v148) = W24 m ρ c (Proc.devRef .tc KernelIdeal.main_v138) := by
  have hR : VR m' c (Proc.devRef .tc ReferenceIdeal.main_v148)
      = Cert.Spec.dense (M := 262144) (K := 64) (N := 64) (VR m' c (Proc.devRef .tc ReferenceIdeal.main_v132))
          (Rst.mat1 (F := Ideal) (m' ((c.tc : Thread ReferenceIdeal.nD ReferenceIdeal.τ).loc ReferenceIdeal.main_arg11))) (Cert.Spec.row (Rst.row1 (F := Ideal) (m' ((c.tc : Thread ReferenceIdeal.nD ReferenceIdeal.τ).loc ReferenceIdeal.main_arg12)))) := by
    refine (R_main_v148 (VR0 m' c)).trans ?_
    refine (Rst.dense_eq_spec _ _ _).trans ?_
    exact dense_congr rfl (R_main_v142 (VR0 m' c)) rfl
  have hK : W24 m ρ c (Proc.devRef .tc KernelIdeal.main_v138)
      = Cert.Spec.dense (M := 262144) (K := 64) (N := 64) (W23 m ρ c (Proc.devRef .tc KernelIdeal.main_v126))
          (Kst.mat (F := Ideal) (m ((c.tc : Thread KernelIdeal.nD KernelIdeal.τ).loc KernelIdeal.main_arg11)) ![1, 0, 0] slices_S2x64x64_S1x64x64_1_0_0)
          (Cert.Spec.row (Kst.row (F := Ideal) (m ((c.tc : Thread KernelIdeal.nD KernelIdeal.τ).loc KernelIdeal.main_arg12)) ![1, 0] slices_S2x64_S1x64_1_0)) := by
    refine (W24_arr m ρ c 3).trans ?_
    refine (dense6_value (V23 m ρ) c).trans ?_
    exact dense_congr rfl (walk_23_main_v134 m ρ c) ((walk_23_main_v137 m ρ c).trans (bias64_reshape _))
  refine hR.trans (Eq.trans ?_ hK.symm)
  exact dense_congr hx ((congrArg Rst.mat1 ha11).trans (Cert.Proof.Compare.mat1_eq _ _).symm)
    (congrArg Cert.Spec.row ((congrArg Rst.row1 ha12).trans (Cert.Proof.Compare.row1_eq _ _).symm))

/-- Dense pipeline 9 (item 33 of the kernel program's run) against the reference's last dense stage `main_v202`: both are
    the dense layer of the same rows, the output weights and the output bias as one row. -/
theorem dense_stage9
    (hx : VR m' c (Proc.devRef .tc ReferenceIdeal.main_v198) = W33 m ρ c (Proc.devRef .tc KernelIdeal.main_v188))
    (ha15 : m' ((c.tc : Thread ReferenceIdeal.nD ReferenceIdeal.τ).loc ReferenceIdeal.main_arg15) = m ((c.tc : Thread KernelIdeal.nD KernelIdeal.τ).loc KernelIdeal.main_arg15))
    (ha16 : m' ((c.tc : Thread ReferenceIdeal.nD ReferenceIdeal.τ).loc ReferenceIdeal.main_arg16) = m ((c.tc : Thread KernelIdeal.nD KernelIdeal.τ).loc KernelIdeal.main_arg16)) :
    VR m' c (Proc.devRef .tc ReferenceIdeal.main_v202) = W34 m ρ c (Proc.devRef .tc KernelIdeal.main_v190) := by
  have hR : VR m' c (Proc.devRef .tc ReferenceIdeal.main_v202)
      = Cert.Spec.dense (M := 262144) (K := 64) (N := 16) (VR m' c (Proc.devRef .tc ReferenceIdeal.main_v198))
          (m' ((c.tc : Thread ReferenceIdeal.nD ReferenceIdeal.τ).loc ReferenceIdeal.main_arg15)) (Cert.Spec.row (m' ((c.tc : Thread ReferenceIdeal.nD ReferenceIdeal.τ).loc ReferenceIdeal.main_arg16))) := by
    refine (R_main_v202 (VR0 m' c)).trans ?_
    exact Rst.denseOut_eq_spec _ _ _
  have hK : W34 m ρ c (Proc.devRef .tc KernelIdeal.main_v190)
      = Cert.Spec.dense (M := 262144) (K := 64) (N := 16) (W33 m ρ c (Proc.devRef .tc KernelIdeal.main_v188))
          (m ((c.tc : Thread KernelIdeal.nD KernelIdeal.τ).loc KernelIdeal.main_arg15)) (Cert.Spec.row (m ((c.tc : Thread KernelIdeal.nD KernelIdeal.τ).loc KernelIdeal.main_arg16))) := by
    refine (W34_arr m ρ c 3).trans ?_
    refine (dense9_value (V33 m ρ) c).trans ?_
    exact dense_congr rfl (at_33_main_arg15 m ρ c) ((walk_33_main_v189 m ρ c).trans (bias16_reshape _))
  refine hR.trans (Eq.trans ?_ hK.symm)
  exact dense_congr hx ha15 (congrArg Cert.Spec.row ha16)

end Cert.Proof.Bridge

end
-- ==== Proof.Spec.SegSum.lean ====
/- The segment sum, the one function both programs' accumulating scatters are read against.
   Row `n` of the result is the sum of the rows `e` of the values whose segment word is the 32-bit word of `n`;
   a row whose word names no row of the result (a negative word, or one past the last row) is in no sum. -/
import Idealize.ShloMosaic.PureOps.Ideal
import Idealize.ShloMosaic.Lib.ValueIdx

noncomputable section

open scoped BigOperators

namespace Cert.Spec

open Idealize.ShloMosaic Idealize.ShloMosaic.ValueIdx

/-- The segment sum of the `E` rows of `vals` (each of `H` columns) into `N` rows: element `(n, h)` is the sum over
    the rows `e` with `seg e` the word of `n` of `vals (e, h)`. -/
def segsum {E N H : Nat} (seg : Fin E → BitVec 32) (vals : (⟨2, ![E, H]⟩ : Shape).Idx → EReal) :
    (⟨2, ![N, H]⟩ : Shape).Idx → EReal :=
  fun i => ∑ e : Fin E, if seg e = BitVec.ofNat 32 (i 0).val then vals (ix2 e (i 1)) else 0

/-- The segment sum read at an element. -/
theorem segsum_apply {E N H : Nat} (seg : Fin E → BitVec 32) (vals : (⟨2, ![E, H]⟩ : Shape).Idx → EReal)
    (i : (⟨2, ![N, H]⟩ : Shape).Idx) :
    segsum seg vals i = ∑ e : Fin E, if seg e = BitVec.ofNat 32 (i 0).val then vals (ix2 e (i 1)) else 0 := rfl

end Cert.Spec
-- ==== Proof.Ref.ScatterRead.lean ====
/- The reference's accumulating scatter of 2097152 rows of 64 columns into 262144 rows, read as a segment sum. -/
import proofs.«406228_j54073638257180_1_alg».proof.Proof.Gen.ReferenceIdeal
import proofs.«406228_j54073638257180_1_alg».proof.Proof.Spec.SegSum
import Idealize.ShloMosaic.PureOps.Ideal.Laws
import Idealize.ShloMosaic.Lib.ValueIdx

/-! # The reference's accumulating scatter is the segment sum

The reference adds row `e` of the updates (2097152 rows of 64 columns) into row `seg e` of a zero array of 262144 rows,
the row number read signed off the 32-bit segment word; an update whose word names no row is dropped. The scatter's
dimension numbers make the start of update element `(e, h)` the pair (segment word of `e`, 0) and its window
coordinate `(0, h)`, so the element lands on `(n, h')` exactly when the word of `e` read signed is `n` and `h = h'`;
for `n` below 262144 that is the word being the 32-bit word of `n`. Summing the landing updates row by row, the inner
sum over the 64 columns keeps the one column `h'`, which is the segment sum `Cert.Spec.segsum`. -/

noncomputable section
open scoped BigOperators

namespace Cert.ReferenceIdeal.Hand
open Cert.ReferenceIdeal Idealize.ShloMosaic Idealize.ShloMosaic.ValueIdx
open Cert.ReferenceIdeal.Facts₀ Cert.ReferenceIdeal.Facts

/-- The scatter's dimension numbers: window axis 1 of the updates, inserted axis 0 of the operand, the one index
    component naming operand axis 0, the index vector along axis 1 of the indices. -/
abbrev sd := scatter_S262144x64_S2097152x1_S2097152x64_1_0_0_1

/-- No index component names the column axis: the window starts at column 0. -/
theorem sd_start1 (j : S2097152x64.Idx) (idx : IVec S2097152x1 32) : sd.start j idx 1 = 0 := by
  unfold ScatterDims.start
  rw [dif_neg]
  decide

/-- The row axis is inserted: the window coordinate on it is 0. -/
theorem sd_window0 (j : S2097152x64.Idx) : sd.window j 0 = 0 := by
  unfold ScatterDims.window
  rw [dif_neg]
  decide

/-- The column axis carries the updates' column. -/
theorem sd_window1 (j : S2097152x64.Idx) : sd.window j 1 = (j 1).val := by
  unfold ScatterDims.window
  rw [dif_pos (by decide)]
  rfl

/-- The window's starting row is the index word of the update's row, read signed. -/
theorem sd_start0 (j : S2097152x64.Idx) (idx : IVec S2097152x1 32) :
    sd.start j idx 0 = (idx (ix2 (j 0) 0)).toInt := by
  unfold ScatterDims.start
  rw [dif_pos (by decide)]
  congr 2
  funext b
  match b with
  | ⟨0, _⟩ => rfl
  | ⟨1, _⟩ => rfl

/-- A 32-bit word read signed is a natural below 2^31 exactly when it is that natural's word. -/
theorem toInt_eq_iff (w : BitVec 32) (n : Nat) (hn : n < 262144) : w.toInt = (n : Int) ↔ w = BitVec.ofNat 32 n := by
  have hof : (BitVec.ofNat 32 n).toInt = (n : Int) := by
    rw [BitVec.toInt_eq_toNat_of_lt (by rw [BitVec.toNat_ofNat]; omega), BitVec.toNat_ofNat]
    omega
  constructor
  · intro h
    apply BitVec.eq_of_toInt_eq
    rw [h, hof]
  · intro h
    rw [h, hof]

/-- Where an update element lands: on the element whose row is its index word read signed and whose column is its own. -/
theorem sd_resultIdx (j : S2097152x64.Idx) (idx : IVec S2097152x1 32) (i : S262144x64.Idx) :
    sd.resultIdx? j idx = some i ↔ (idx (ix2 (j 0) 0)).toInt = ((i 0).val : Int) ∧ j 1 = i 1 := by
  have hi0 := idx2_lt0 i
  have hi1 := idx2_lt1 i
  have hj1 := idx2_lt1 j
  unfold ScatterDims.resultIdx?
  split
  · rename_i h
    have h0 := h 0
    have h1 := h 1
    rw [sd_start0, sd_window0] at h0
    rw [sd_start1, sd_window1] at h1
    rw [Option.some.injEq]
    constructor
    · intro he
      have e0 := congrArg Fin.val (congrFun he 0)
      have e1 := congrArg Fin.val (congrFun he 1)
      simp only [sd_start0, sd_window0, sd_start1, sd_window1] at e0 e1
      refine ⟨by omega, Fin.ext (by omega)⟩
    · rintro ⟨e0, e1⟩
      funext a
      apply Fin.ext
      match a with
      | ⟨0, _⟩ =>
        show (sd.start j idx 0 + (sd.window j 0 : Int)).toNat = (i 0).val
        rw [sd_start0, sd_window0]; omega
      | ⟨1, _⟩ =>
        show (sd.start j idx 1 + (sd.window j 1 : Int)).toNat = (i 1).val
        rw [sd_start1, sd_window1, e1]; omega
  · rename_i h
    constructor
    · intro he; exact absurd he (by simp)
    · rintro ⟨e0, e1⟩
      exfalso; apply h
      intro a
      match a with
      | ⟨0, _⟩ =>
        show 0 ≤ sd.start j idx 0 + (sd.window j 0 : Int) ∧ sd.start j idx 0 + (sd.window j 0 : Int) < (262144 : Nat)
        rw [sd_start0, sd_window0]; omega
      | ⟨1, _⟩ =>
        show 0 ≤ sd.start j idx 1 + (sd.window j 1 : Int) ∧ sd.start j idx 1 + (sd.window j 1 : Int) < (64 : Nat)
        rw [sd_start1, sd_window1]; omega

/-- The index operand the program passes, read at an update row: the segment word of that row. -/
theorem idx_read (seg : IVec S2097152 32) (e : Fin 2097152) :
    broadcastInDim S2097152x1 ![0] bcast_S2097152_S2097152x1_0 seg (ix2 e 0) = seg (ix1 e) := by
  unfold broadcastInDim
  congr 1
  funext a
  match a with
  | ⟨0, _⟩ => rfl

/-- The accumulating scatter at the ideal values, read at an element. -/
theorem hsa_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- A sum over one coordinate of terms that vanish unless a fixed condition holds and the coordinate is a given one. -/
theorem sum_ite_and {n : Nat} (P : Prop) [Decidable P] (a : Fin n) (f : Fin n → EReal) :
    ∑ h : Fin n, (if P ∧ h = a then f h else 0) = if P then f a else 0 := by
  by_cases hP : P
  · rw [if_pos hP, Finset.sum_congr rfl (fun h _ => if_congr (and_iff_right hP) rfl rfl),
      Finset.sum_ite_eq' Finset.univ a f, if_pos (Finset.mem_univ a)]
  · rw [if_neg hP]
    exact Finset.sum_eq_zero fun h _ => if_neg fun hc => hP hc.1

/-- The zero operand read at an element. -/
theorem zeros_read (i : S262144x64.Idx) :
    broadcastInDim S262144x64 ![] bcast_S_S262144x64 (constant (F := Ideal) S_ .f32 0x00000000#32) i = (0 : EReal) := by
  unfold broadcastInDim
  rw [constant_apply, Ideal.ofBits_zero_f32]

/-- An update element lands on element i exactly when its row's segment word is the word of i's row and its column
    is i's. -/
theorem lands_iff (seg : IVec S2097152 32) (e : Fin 2097152) (h : Fin 64) (i : S262144x64.Idx) :
    sd.resultIdx? (ix2 e h) (broadcastInDim S2097152x1 ![0] bcast_S2097152_S2097152x1_0 seg) = some i
      ↔ (seg (ix1 e) = BitVec.ofNat 32 (i 0).val ∧ h = (⟨(i 1).val, idx2_lt1 i⟩ : Fin 64)) := by
  rw [sd_resultIdx, toInt_eq_iff _ _ (idx2_lt0 i)]
  show broadcastInDim S2097152x1 ![0] bcast_S2097152_S2097152x1_0 seg (ix2 e 0) = _ ∧ h = i 1 ↔ _
  rw [idx_read]
  exact Iff.rfl

/-- THE READING: the scatter of the updates into a zero array at the rows the segment words name is the segment sum. -/
theorem scatter_read (seg : IVec S2097152 32) (upd : FVec Ideal S2097152x64 .f32) :
    Host.scatterAdd (F := Ideal) scatter_S262144x64_S2097152x1_S2097152x64_1_0_0_1
      (broadcastInDim S262144x64 ![] bcast_S_S262144x64 (constant S_ .f32 0x00000000#32))
      (broadcastInDim S2097152x1 ![0] bcast_S2097152_S2097152x1_0 seg) upd
    = Spec.segsum (fun e => seg (ix1 e)) upd := by
  unfold Host.scatterAdd
  rw [Ideal.hostScatterAdd_def]
  funext i
  rw [hsa_apply, zeros_read, zero_add, Spec.segsum_apply]
  rw [Finset.sum_filter, sum_idx2]
  refine Finset.sum_congr rfl fun e _ => ?_
  rw [Finset.sum_congr rfl (fun h _ => if_congr (lands_iff seg e h i) rfl rfl)]
  exact sum_ite_and _ (⟨(i 1).val, idx2_lt1 i⟩ : Fin 64) (fun h => upd (ix2 e h))

end Cert.ReferenceIdeal.Hand

end
-- ==== Proof.KI.Scat3Pieces.lean ====
import proofs.«406228_j54073638257180_1_alg».proof.Proof.KI.Scat3
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the pieces the three runs found, read back as the skeleton's payloads

Each case's stores write the accumulator (and, in case C, the output block) whole, so what a case leaves is the payload
of its last store, its loads read at the contents the buffers were handed in at: generic in `F`. -/

/-- The offsets of every access of the body: the origin. -/
theorem hz3 : (![0, 0] : Fin 2 → Nat) = fun _ => 0 := funext fun a => by fin_cases a <;> rfl

/-- CASE A leaves in the accumulator the accumulate payload over the reset's payload (the zero block): the reset's store
    is read back by the load before the product. -/
theorem sout3_A_0_eq (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S4096x64 .bf16) (x1 : Vec F S1x4096 .i32) :
    sout3_A_0 c i arg2 harg2 arg3 harg3 arg4 harg4 arg5 harg5 hc0 hc1 x0 x1 = k3_pay2 i x1 (k3_pay1 (F := F)) x0 := by
  unfold sout3_A_0
  rw [View.read_writes_eq_canon _ _ _ (scover3_A_0 c i arg2 harg2 arg3 harg3 arg4 harg4 arg5 harg5 hc0 hc1 x0 x1)]
  unfold kernelRun3_A
  dsimp only
  sl_unfold_words
  rw [View.canon_cons_unit_zero (S := S2048x64) hz3]
  simp only [View.readAt_eq_ld, harg2.read_unread, harg3.read_unread, harg4.read_unread, harg5.read_unread, View.ld_unit_zero (S := S4096x64) hz3, View.ld_unit_zero (S := S1x4096) hz3, View.ld_unit_zero (S := S2048x64) hz3, View.readCov_unit_zero (S := S2048x64) _ hz3]

/-- CASE B leaves in the accumulator the accumulate payload over what it was handed in at. -/
theorem sout3_B_0_eq (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S4096x64 .bf16) (x1 : Vec F S1x4096 .i32) (xs0 : Vec F S2048x64 .f32) :
    sout3_B_0 c i arg2 harg2 arg3 harg3 arg4 harg4 arg5 harg5 hc0 hc1 x0 x1 xs0 = k3_pay2 i x1 xs0 x0 := by
  unfold sout3_B_0
  rw [View.read_writes_eq_canon _ _ _ (scover3_B_0 c i arg2 harg2 arg3 harg3 arg4 harg4 arg5 harg5 hc0 hc1 x0 x1 xs0)]
  unfold kernelRun3_B
  dsimp only
  sl_unfold_words
  rw [View.canon_unit_zero hz3]
  simp only [View.readAt_eq_ld, harg2.read_unread, harg3.read_unread, harg4.read_unread, harg5.read_unread, View.ld_unit_zero (S := S4096x64) hz3, View.ld_unit_zero (S := S1x4096) hz3, View.ld_unit_zero (S := S2048x64) hz3, View.readCov_unit_zero (S := S2048x64) _ hz3]

/-- CASE C leaves in the accumulator the same, -/
theorem sout3_C_0_eq (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) :
    sout3_C_0 c i arg2 harg2 arg3 harg3 arg4 harg4 arg5 harg5 hc0 hc1 x0 x1 xs0 = k3_pay2 i x1 xs0 x0 := by
  unfold sout3_C_0
  rw [View.read_writes_eq_canon _ _ _ (scover3_C_0 c i arg2 harg2 arg3 harg3 arg4 harg4 arg5 harg5 hc0 hc1 x0 x1 xs0)]
  unfold kernelRun3_C
  dsimp only
  sl_unfold_words
  rw [View.canon_unit_zero hz3]
  simp only [View.readAt_eq_ld, harg2.read_unread, harg3.read_unread, harg4.read_unread, harg5.read_unread, View.ld_unit_zero (S := S4096x64) hz3, View.ld_unit_zero (S := S1x4096) hz3, View.ld_unit_zero (S := S2048x64) hz3, View.readCov_unit_zero (S := S2048x64) _ hz3]

/-- and in the output block too: the updated accumulator, read back and stored whole. -/
theorem out3_C_2_eq (c : Dev nD) (i : grid3.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S4096x64 .bf16) (x1 : Vec F S1x4096 .i32) (xs0 : Vec F S2048x64 .f32) :
    out3_C_2 c i arg2 harg2 arg3 harg3 arg4 harg4 arg5 harg5 hc0 hc1 x0 x1 xs0 = k3_pay2 i x1 xs0 x0 := by
  unfold out3_C_2
  rw [View.read_writes_eq_canon _ _ _ (cover3_C_2 c i arg2 harg2 arg3 harg3 arg4 harg4 arg5 harg5 hc0 hc1 x0 x1 xs0)]
  unfold kernelRun3_C
  dsimp only
  sl_unfold_words
  rw [View.canon_unit_zero hz3]
  simp only [View.readAt_eq_ld, harg2.read_unread, harg3.read_unread, harg4.read_unread, harg5.read_unread, View.ld_unit_zero (S := S4096x64) hz3, View.ld_unit_zero (S := S1x4096) hz3, View.ld_unit_zero (S := S2048x64) hz3, View.readCov_unit_zero (S := S2048x64) _ hz3]

end Cert.KernelIdeal.Hand

end
-- ==== Proof.KI.Scat3Acc.lean ====
/- The accumulator of region 3 point by point: the blocks the body reads as rows of the arrays the region finds, and
   the accumulator after a point as the fold, over the point's row of the grid, of the accumulate payload. -/
import proofs.«406228_j54073638257180_1_alg».proof.Proof.KI.Scat3Pieces
import proofs.«406228_j54073638257180_1_alg».proof.Proof.Spec.SegSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Region
variable {F : FTy → Type} [FloatOps F]
variable (V : (c : Dev nD) → (b : Ref sig .tc) → Buf (Elt F) ((c : Thread nD τ).loc b))

/-- The values array (one row per edge) as the region finds it. -/
abbrev valarr3 (c : Dev nD) : Vec F S2097152x64 .bf16 := V c (Pipeline.arrRef spec3 0)
/-- The segment words (one per edge) as the region finds them. -/
abbrev segarr3 (c : Dev nD) : Vec F S1x2097152 .i32 := V c (Pipeline.arrRef spec3 1)
/-- The block of 4096 value rows the body reads at point `t`. -/
abbrev vblk3 (c : Dev nD) (t : Fin cfg3.N) : Vec F S4096x64 .bf16 := iblk3 V c 0 t
/-- The block of 4096 segment words the body reads at point `t`. -/
abbrev sblk3 (c : Dev nD) (t : Fin cfg3.N) : Vec F S1x4096 .i32 := iblk3 V c 1 t

theorem N3 : cfg3.N = 65536 := N_3

/-- The values window's block index at point `t`: the edge block `t % 512`. -/
theorem index3_0 (t : Fin cfg3.N) : win3_0.index t = ![t.val % 512, 0] := by
  have e : (BitVec.ofNat 32 ((grid3.coords t) 1).val).toNat = t.val % 512 := by
    rw [coords3_1_val t, BitVec.toNat_ofNat]; omega
  show ![(BitVec.ofNat 32 ((grid3.coords t) 1).val).toNat, (0#32).toNat] = _
  rw [e]; rfl

theorem index3_1 (t : Fin cfg3.N) : win3_1.index t = ![0, t.val % 512] := by
  have e : (BitVec.ofNat 32 ((grid3.coords t) 1).val).toNat = t.val % 512 := by
    rw [coords3_1_val t, BitVec.toNat_ofNat]; omega
  show ![(0#32).toNat, (BitVec.ofNat 32 ((grid3.coords t) 1).val).toNat] = _
  rw [e]; rfl

theorem index3_2 (t : Fin cfg3.N) : win3_2.index t = ![t.val / 512, 0] := by
  have ht : t.val < 65536 := lt_of_lt_of_eq t.isLt N_3
  have e : (BitVec.ofNat 32 ((grid3.coords t) 0).val).toNat = t.val / 512 := by
    rw [coords3_0_val t, BitVec.toNat_ofNat]; omega
  show ![(BitVec.ofNat 32 ((grid3.coords t) 0).val).toNat, (0#32).toNat] = _
  rw [e]; rfl

/-- A row of the values block at point `t` is row `(t % 512) * 4096 + k` of the values array. -/
theorem vblk3_apply (c : Dev nD) (t : Fin cfg3.N) (k : Fin 4096) (h : Fin 64) :
    vblk3 V c t (ix2 k h) = valarr3 V c (ix2 ⟨(t.val % 512) * 4096 + k.val, by omega⟩ h) := by
  show V c (Pipeline.arrRef spec3 0) (((cfg3.win 0).blk t).view.emb (ix2 k h)) = _
  congr 1
  funext a; apply Fin.ext
  match a with
  | ⟨0, _⟩ => show win3_0.index t (0 : Fin 2) * 4096 + 1 * k.val = (t.val % 512) * 4096 + k.val; rw [index3_0]; show (t.val % 512) * 4096 + 1 * k.val = _; omega
  | ⟨1, _⟩ => show win3_0.index t (1 : Fin 2) * 64 + 1 * h.val = h.val; rw [index3_0]; show 0 * 64 + 1 * h.val = _; omega

/-- A word of the segment block at point `t` is word `(t % 512) * 4096 + k` of the segment array. -/
theorem sblk3_apply (c : Dev nD) (t : Fin cfg3.N) (k : Fin 4096) :
    sblk3 V c t (ix2 0 k) = segarr3 V c (ix2 0 ⟨(t.val % 512) * 4096 + k.val, by omega⟩) := by
  show V c (Pipeline.arrRef spec3 1) (((cfg3.win 1).blk t).view.emb (ix2 0 k)) = _
  congr 1
  funext a; apply Fin.ext
  match a with
  | ⟨0, _⟩ => show win3_1.index t (0 : Fin 2) * 1 + 1 * 0 = 0; rw [index3_1]; rfl
  | ⟨1, _⟩ => show win3_1.index t (1 : Fin 2) * 4096 + 1 * k.val = (t.val % 512) * 4096 + k.val; rw [index3_1]; show (t.val % 512) * 4096 + 1 * k.val = _; omega

/-! ## The accumulator, point by point -/

/-- The accumulator's reset value at point `n`: the accumulate payload over the zero block. -/
abbrev accReset3 (c : Dev nD) (n : ℕ) (hn : n < cfg3.N) : Vec F S2048x64 .f32 :=
  k3_pay2 (grid3.coords ⟨n, hn⟩) (sblk3 V c ⟨n, hn⟩) (k3_pay1 (F := F)) (vblk3 V c ⟨n, hn⟩)
/-- The accumulator's step at point `n`: the accumulate payload over what the point before left. -/
abbrev accStep3 (c : Dev nD) (n : ℕ) (hn : n < cfg3.N) (acc : Vec F S2048x64 .f32) : Vec F S2048x64 .f32 :=
  k3_pay2 (grid3.coords ⟨n, hn⟩) (sblk3 V c ⟨n, hn⟩) acc (vblk3 V c ⟨n, hn⟩)

/-- At the first point of a row of the grid the accumulator is reset, then accumulated into. -/
theorem acc3_reset (c : Dev nD) (n : ℕ) (hn : n < cfg3.N) (h0 : n % 512 = 0) :
    (outsAt3 V c n hn).2 = accReset3 V c n hn := by
  have h1 : ¬n % 512 = 511 := by omega
  rw [outsAt3_A V c ⟨n, hn⟩ h0 h1]; dsimp only
  exact sout3_A_0_eq c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) ((hcond3_0 ⟨n, hn⟩).mpr h0) (fun h => h1 ((hcond3_1 ⟨n, hn⟩).mp h)) (iblk3 V c 0 ⟨n, hn⟩) (iblk3 V c 1 ⟨n, hn⟩)

/-- At every other point it is accumulated into over what the point before left. -/
theorem acc3_step (c : Dev nD) (n : ℕ) (hn : n + 1 < cfg3.N) (h0 : ¬(n + 1) % 512 = 0) :
    (outsAt3 V c (n + 1) hn).2 = accStep3 V c (n + 1) hn ((outsAt3 V c n (Nat.lt_of_succ_lt hn)).2) := by
  by_cases h1 : (n + 1) % 512 = 511
  · rw [outsAt3_C V c ⟨n + 1, hn⟩ h0 h1]; dsimp only
    exact sout3_C_0_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 V c n (Nat.lt_of_succ_lt hn)).2
  · rw [outsAt3_B V c ⟨n + 1, hn⟩ h0 h1]; dsimp only
    exact sout3_B_0_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 V c n (Nat.lt_of_succ_lt hn)).2

/-- At a point that ends a row of the grid the output block holds what the accumulator holds. -/
theorem out3_last (c : Dev nD) (t : Fin cfg3.N) (h1 : t.val % 512 = 511) :
    (outsAt3 V c t.val t.isLt).1 = (outsAt3 V c t.val t.isLt).2 := by
  have h0 : ¬t.val % 512 = 0 := by omega
  rw [outsAt3_C V c t h0 h1]; dsimp only
  exact (out3_C_2_eq c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2).trans
    (sout3_C_0_eq c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2).symm

/-- So at any point the accumulator is the fold over its row of the grid up to that point. -/
theorem acc3_fold (c : Dev nD) (t : ℕ) (ht : t < cfg3.N) (h' : 512 * (t / 512) + t % 512 < cfg3.N) :
    (outsAt3 V c t ht).2 = Pipeline.accAt (accReset3 V c) (accStep3 V c) (512 * (t / 512)) (t % 512) h' :=
  Pipeline.eq_accAt_of_mod (fun n hn => (outsAt3 V c n hn).2) 512 (accReset3 V c) (accStep3 V c)
    (fun n hn h0 => acc3_reset V c n hn h0) (fun n hn h0 => acc3_step V c n hn h0) (by omega) t ht h'

end Region
end Cert.KernelIdeal.Hand
-- ==== Proof.KI.Scat3Pay.lean ====
import proofs.«406228_j54073638257180_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

variable {F : FTy → Type} [FloatOps F]

/-! # Region 3: the accumulate payload read at an element, at the ideal values

The body compares the global row numbers `(i 0) * 2048 + r` of its output block with the block of segment words,
turns the comparison into a 0/1 matrix, multiplies it with the block of values and adds the product to the
accumulator: element `(r, h)` of the result is the accumulator's plus the sum of the values' column `h` over the rows
whose segment word is the word of that global row. -/

/-- The 0/1 matrix the body builds from the block of segment words: the payload's lines up to the product's left operand. -/
def onehot3 (i : grid3.Coords) (v7 : Vec F S1x4096 .i32) : FVec F S2048x4096 .bf16 :=
  let arg0 : BitVec 32 := BitVec.ofNat 32 (i 0).val
  let base : BitVec 32 := Scalar.muli arg0 2048#32
  have v4 : IVec S2048x1 32 := iota .tc S2048x1 32 [0] iota_S2048x1_d0_w32
  have v5 : IVec S2048x1 32 := broadcast S2048x1 base
  have v6 : IVec S2048x1 32 := addi v5 v4
  have v8 : IVec S1x4096 32 := shapeCast S1x4096 v7 shapeCasts_S1x4096_S1x4096
  have v9 : IVec S2048x4096 32 := broadcastTo S2048x4096 v6 broadcasts_S2048x1_S2048x4096
  have v10 : IVec S2048x4096 32 := broadcastTo S2048x4096 v8 broadcasts_S1x4096_S2048x4096
  have v11 : IVec S2048x4096 1 := cmpi .eq v9 v10
  have v12 : IVec S2048x4096 32 := extui 32 v11 natLt_1_32
  have v13 : FVec F S2048x4096 .f32 := sitofp .f32 v12
  truncf .bf16 v13 bitsLt_bf16_f32

/-- The payload is the accumulator plus the product of that matrix with the block of values. -/
theorem k3_pay2_eq (i : grid3.Coords) (v7 : Vec F S1x4096 .i32) (v15 : Vec F S2048x64 .f32) (v16 : Vec F S4096x64 .bf16) :
    k3_pay2 i v7 v15 v16
      = addf v15 (matmul dot_S2048x4096_S4096x64_S2048x64_1_0_0_1_n_n none (onehot3 i v7) v16 (constant S2048x64 .f32 0x00000000#32)) := by
  unfold k3_pay2 onehot3
  simp only [shapeCast_self]

/-- The word of global row `(i 0) * 2048 + r`, as the body computes it. -/
theorem rowWord3 (a r : Nat) : IntOp.addi (Scalar.muli (BitVec.ofNat 32 a) 2048#32) (BitVec.ofNat 32 r) = BitVec.ofNat 32 (a * 2048 + r) := by
  show BitVec.ofNat 32 a * 2048#32 + BitVec.ofNat 32 r = _
  rw [show (2048#32 : BitVec 32) = BitVec.ofNat 32 2048 from rfl, ← BitVec.ofNat_mul, ← BitVec.ofNat_add]

/-- The row counter at row `r` is the word of `r`. -/
theorem iota3_apply (r : Fin 2048) : iota .tc S2048x1 32 [0] iota_S2048x1_d0_w32 (ix2 r (0 : Fin 1)) = BitVec.ofNat 32 r.val := by
  show BitVec.ofNat 32 (0 * 2048 + r.val) = _
  rw [Nat.zero_mul, Nat.zero_add]

/-- A one-bit comparison, widened to 32 bits and converted to a float at the ideal values, is 1 or 0. -/
theorem bitToIdeal3 (b : Bool) : ((((BitVec.ofBool b).setWidth 32).toInt : ℝ) : EReal) = if b then 1 else 0 := by
  cases b <;> simp

/-- The matrix's entry `(r, e)`: 1 if row `e`'s segment word is the word of global row `(i 0) * 2048 + r`, else 0. -/
theorem onehot3_apply (i : grid3.Coords) (x1 : Vec Ideal S1x4096 .i32) (r : Fin 2048) (e : Fin 4096) :
    onehot3 (F := Ideal) i x1 (ix2 r e) = if x1 (ix2 0 e) = BitVec.ofNat 32 ((i 0).val * 2048 + r.val) then 1 else 0 := by
  unfold onehot3
  simp only [shapeCast_self]
  rw [truncf_apply, sitofp_apply, extui_apply]
  have h9 : (broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e)
      = BitVec.ofNat 32 ((i 0).val * 2048 + r.val) := by
    rw [broadcastTo_apply _ _ (ix2 r e) (ix2 r (0 : Fin 1)) (fun a => by match a with | ⟨0, _⟩ => rfl | ⟨1, _⟩ => rfl)]
    show IntOp.addi (Scalar.muli (BitVec.ofNat 32 (i 0).val) 2048#32) (iota .tc S2048x1 32 [0] iota_S2048x1_d0_w32 (ix2 r (0 : Fin 1))) = _
    rw [iota3_apply, rowWord3]
  have h10 : (broadcastTo S2048x4096 x1 broadcasts_S1x4096_S2048x4096 : IVec S2048x4096 32) (ix2 r e) = x1 (ix2 (0 : Fin 1) e) :=
    broadcastTo_apply _ _ (ix2 r e) (ix2 (0 : Fin 1) e) (fun a => by match a with | ⟨0, _⟩ => rfl | ⟨1, _⟩ => rfl)
  show FloatOps.sitofp (F := Ideal) .f32 (BitVec.setWidth 32 (IntOp.cmpi .eq
    ((broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e))
    ((broadcastTo S2048x4096 x1 broadcasts_S1x4096_S2048x4096 : IVec S2048x4096 32) (ix2 r e)))) = _
  rw [h9, h10]
  show ((((BitVec.ofBool (BitVec.ofNat 32 ((i 0).val * 2048 + r.val) == x1 (ix2 (0 : Fin 1) e))).setWidth 32).toInt : ℝ) : EReal) = _
  rw [bitToIdeal3]
  by_cases hx : x1 (ix2 (0 : Fin 1) e) = BitVec.ofNat 32 ((i 0).val * 2048 + r.val)
  · rw [if_pos hx, if_pos (beq_iff_eq.mpr hx.symm)]
  · rw [if_neg hx, if_neg (fun hb => hx (beq_iff_eq.mp hb).symm)]

/-- The zero block the reset stores, read at an element. -/
theorem k3_pay1_apply (r : Fin 2048) (h : Fin 64) : k3_pay1 (F := Ideal) (ix2 r h) = 0 := by
  unfold k3_pay1
  simp only [shapeCast_self]
  show Ideal.ofBits .f32 0x00000000#32 = 0
  exact Ideal.ofBits_zero_f32

/-- THE ACCUMULATE PAYLOAD AT AN ELEMENT: the accumulator's element plus the sum, over the 4096 rows of the block of
    values, of the values' column `h` at the rows whose segment word is the word of global row `(i 0) * 2048 + r`. -/
theorem k3_pay2_apply (i : grid3.Coords) (x1 : Vec Ideal S1x4096 .i32) (xs0 : Vec Ideal S2048x64 .f32) (x0 : Vec Ideal S4096x64 .bf16)
    (r : Fin 2048) (h : Fin 64) :
    k3_pay2 (F := Ideal) i x1 xs0 x0 (ix2 r h)
      = xs0 (ix2 r h) + ∑ e : Fin 4096, (if x1 (ix2 0 e) = BitVec.ofNat 32 ((i 0).val * 2048 + r.val) then x0 (ix2 e h) else 0) := by
  rw [k3_pay2_eq, addf_apply]
  congr 1
  show FloatOps.matmul dot_S2048x4096_S4096x64_S2048x64_1_0_0_1_n_n none (onehot3 (F := Ideal) i x1) x0 (constant S2048x64 .f32 0x00000000#32) (ix2 r h) = _
  rw [Ideal.matmul_constant_zero_apply, ← Equiv.sum_comp (contrEquiv1 dot_S2048x4096_S4096x64_S2048x64_1_0_0_1_n_n 4096 rfl rfl).symm]
  refine Finset.sum_congr rfl fun e _ => ?_
  have ce := contrEquiv1_symm_val dot_S2048x4096_S4096x64_S2048x64_1_0_0_1_n_n 4096 rfl rfl e
  have hl : dot_S2048x4096_S4096x64_S2048x64_1_0_0_1_n_n.lhsIdx (ix2 r h) ((contrEquiv1 dot_S2048x4096_S4096x64_S2048x64_1_0_0_1_n_n 4096 rfl rfl).symm e) = ix2 r e := by
    funext ax; apply Fin.ext
    match ax with
    | ⟨0, _⟩ => simp [DotDims.lhsIdx, dot_S2048x4096_S4096x64_S2048x64_1_0_0_1_n_n]; rfl
    | ⟨1, _⟩ => simp [DotDims.lhsIdx, dot_S2048x4096_S4096x64_S2048x64_1_0_0_1_n_n]; exact ce
  have hr : dot_S2048x4096_S4096x64_S2048x64_1_0_0_1_n_n.rhsIdx (ix2 r h) ((contrEquiv1 dot_S2048x4096_S4096x64_S2048x64_1_0_0_1_n_n 4096 rfl rfl).symm e) = ix2 e h := by
    funext ax; apply Fin.ext
    match ax with
    | ⟨0, _⟩ => simp [DotDims.rhsIdx, dot_S2048x4096_S4096x64_S2048x64_1_0_0_1_n_n]; exact ce
    | ⟨1, _⟩ => simp [DotDims.rhsIdx, dot_S2048x4096_S4096x64_S2048x64_1_0_0_1_n_n]; rfl
  rw [hl, hr, onehot3_apply]
  by_cases hx : x1 (ix2 (0 : Fin 1) e) = BitVec.ofNat 32 ((i 0).val * 2048 + r.val)
  · rw [if_pos hx, if_pos hx, one_mul]
  · rw [if_neg hx, if_neg hx, zero_mul]

end Cert.KernelIdeal.Hand

end
-- ==== Proof.KI.Scat3Cover.lean ====
import proofs.«406228_j54073638257180_1_alg».proof.Proof.KI.Scat3Runs
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: where the output block is written back, and which rows of the result each write-back covers

The output window's block index is `(t / 512, 0)`: block `t / 512` of 2048 rows, all 64 columns. It is written back at the
last point of each row of the grid, `t ≡ 511 (mod 512)`; the 128 write-backs tile the 262144 rows of the result. -/

/-- The output window's block index at point `t`. -/
theorem blkidx3_2 (t : Fin cfg3.N) : (cfg3.win 2).index t = ![t.val / 512, 0] := by
  have ht : t.val < 65536 := lt_of_lt_of_eq t.isLt N_3
  funext a
  match a with
  | ⟨0, _⟩ =>
    show (BitVec.ofNat 32 ((grid3.coords t) 0).val).toNat = t.val / 512
    rw [coords3_0_val, BitVec.toNat_ofNat]; omega
  | ⟨1, _⟩ => rfl

/-- At the points ≡ 511 (mod 512) the pipeline writes the output block back: the last point, or the block index moves. -/
theorem flush3_2_of (t : Fin cfg3.N) (h : t.val % 512 = 511) : (cfg3.win 2).flush t = true := by
  have hN : grid3.N = 65536 := N_3
  have ht : t.val < 65536 := lt_of_lt_of_eq t.isLt N_3
  unfold Pipeline.Window.flush
  simp only [Bool.and_eq_true, Bool.or_eq_true, decide_eq_true_eq]
  refine ⟨trivial, ?_⟩
  by_cases hl : t.val + 1 = grid3.N
  · exact .inl hl
  · refine .inr ⟨by omega, fun he => ?_⟩
    have h0 := congrFun he 0
    rw [blkidx3_2, blkidx3_2] at h0
    have h1 : (t.val + 1) / 512 = t.val / 512 := h0
    omega

/-- An index of the result is in point `t`'s block iff its row is among the block's 2048 rows. -/
theorem mem_blk3_2 (t : Fin cfg3.N) (i : S262144x64.Idx) :
    i ∈ ((cfg3.win 2).blk t).view.set ↔ (t.val / 512) * 2048 ≤ (i 0).val ∧ (i 0).val < (t.val / 512) * 2048 + 2048 := by
  show i ∈ ((View.whole (Pipeline.arrRef spec3 2)).slice (win3_2.rect t)).set ↔ _
  rw [View.set_slice_whole, Rect.mem_set_unit]
  have e0 : win3_2.index t (0 : Fin 2) = t.val / 512 := congrFun (blkidx3_2 t) 0
  have e1 : win3_2.index t (1 : Fin 2) = 0 := congrFun (blkidx3_2 t) 1
  constructor
  · intro hi
    have b0 : win3_2.index t (0 : Fin 2) * 2048 ≤ (i 0).val ∧ (i 0).val < win3_2.index t (0 : Fin 2) * 2048 + 2048 := hi 0
    rw [e0] at b0
    exact b0
  · intro hi a
    match a with
    | ⟨0, _⟩ =>
      show win3_2.index t (0 : Fin 2) * 2048 ≤ (i 0).val ∧ (i 0).val < win3_2.index t (0 : Fin 2) * 2048 + 2048
      rw [e0]; exact hi
    | ⟨1, _⟩ =>
      show win3_2.index t (1 : Fin 2) * 64 ≤ (i 1).val ∧ (i 1).val < win3_2.index t (1 : Fin 2) * 64 + 64
      rw [e1]; have h64 : (i 1).val < 64 := (i 1).isLt; omega

/-- Every index of the result is in the block of a point that writes back: the last point of its block's row of the grid. -/
theorem cover3_2 (i : S262144x64.Idx) : ∃ t : Fin cfg3.N, (cfg3.win 2).flush t = true ∧ i ∈ ((cfg3.win 2).blk t).view.set := by
  have hi0 : (i 0).val < 262144 := (i 0).isLt
  refine ⟨⟨(i 0).val / 2048 * 512 + 511, by rw [show cfg3.N = 65536 from N_3]; omega⟩, flush3_2_of _ (by show ((i 0).val / 2048 * 512 + 511) % 512 = 511; omega), ?_⟩
  rw [mem_blk3_2]
  show ((i 0).val / 2048 * 512 + 511) / 512 * 2048 ≤ (i 0).val ∧ (i 0).val < ((i 0).val / 2048 * 512 + 511) / 512 * 2048 + 2048
  omega

end Cert.KernelIdeal.Hand

end
-- ==== Proof.KI.Scat3Value.lean ====
/- The value of region 3 at the ideal values: its output array ends holding the segment sum of the values array by the
   segment words. A step of the accumulator adds, at an element, the rows of the point's edge block whose segment word
   is the word of the element's node; the fold over a row of the grid is therefore the sum over all edge blocks, which
   is the sum over all edges; the last point of the row writes it back to the node block's rows, and the node blocks
   tile the output array. -/
import proofs.«406228_j54073638257180_1_alg».proof.Proof.KI.Scat3Acc
import proofs.«406228_j54073638257180_1_alg».proof.Proof.KI.Scat3Pay
import proofs.«406228_j54073638257180_1_alg».proof.Proof.KI.Scat3Cover

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section AtIdeal
variable (V : (c : Dev nD) → (b : Ref sig .tc) → Buf (Elt Ideal) ((c : Thread nD τ).loc b))

/-- Row `k` of edge block `s % 512`. -/
def edge3 (s : ℕ) (k : Fin 4096) : Fin 2097152 := ⟨(s % 512) * 4096 + k.val, by omega⟩

theorem edge3_add (q s : ℕ) (k : Fin 4096) : edge3 (512 * q + s) k = edge3 s k := by
  apply Fin.ext; show (512 * q + s) % 512 * 4096 + k.val = s % 512 * 4096 + k.val; omega

/-- What point `n` adds to element `y` of the accumulator: the rows of its edge block whose segment word is the
    word of the node the element's row stands for. -/
def addend3 (c : Dev nD) (n : ℕ) (y : S2048x64.Idx) : EReal :=
  ∑ k : Fin 4096, if segarr3 V c (ix2 0 (edge3 n k)) = BitVec.ofNat 32 ((n / 512 % 128) * 2048 + (y 0).val)
    then valarr3 V c (ix2 (edge3 n k) (y 1)) else 0

/-- A step adds the point's addend. -/
theorem accStep3_apply (c : Dev nD) (n : ℕ) (hn : n < cfg3.N) (acc : Vec Ideal S2048x64 .f32) (y : S2048x64.Idx) :
    accStep3 V c n hn acc y = acc y + addend3 V c n y := by
  rw [eq_ix2 y]
  refine (k3_pay2_apply (grid3.coords ⟨n, hn⟩) (sblk3 V c ⟨n, hn⟩) acc (vblk3 V c ⟨n, hn⟩) (y 0) (y 1)).trans ?_
  congr 1
  unfold addend3
  refine Finset.sum_congr rfl fun k _ => ?_
  rw [sblk3_apply V c ⟨n, hn⟩ k, vblk3_apply V c ⟨n, hn⟩ k (y 1), coords3_0_val ⟨n, hn⟩]
  rfl

/-- A reset leaves the point's addend. -/
theorem accReset3_apply (c : Dev nD) (n : ℕ) (hn : n < cfg3.N) (y : S2048x64.Idx) :
    accReset3 V c n hn y = 0 + addend3 V c n y := by
  have h := accStep3_apply V c n hn (k3_pay1 (F := Ideal)) y
  have hz : k3_pay1 (F := Ideal) y = 0 := by rw [eq_ix2 y]; exact k3_pay1_apply (y 0) (y 1)
  rw [hz] at h
  exact h

/-- The sum over all edges, block by block. -/
theorem sum_edges3 {M : Type*} [AddCommMonoid M] (f : Fin 2097152 → M) :
    ∑ e, f e = ∑ s ∈ Finset.range 512, ∑ k : Fin 4096, f (edge3 s k) := by
  rw [Finset.sum_range (fun s => ∑ k : Fin 4096, f (edge3 s k))]
  rw [← (finProdFinEquiv (m := 512) (n := 4096)).sum_comp f, Fintype.sum_prod_type]
  refine Finset.sum_congr rfl fun s _ => Finset.sum_congr rfl fun k _ => ?_
  congr 1
  apply Fin.ext
  show k.val + 4096 * s.val = s.val % 512 * 4096 + k.val
  have := s.isLt
  omega

/-- After the last point of row `q` of the grid the accumulator holds the segment sums of the nodes of block `q`. -/
theorem acc3_last (c : Dev nD) (t : Fin cfg3.N) (h1 : t.val % 512 = 511) (r : Fin 2048) (h : Fin 64) :
    (outsAt3 V c t.val t.isLt).2 (ix2 r h)
      = Spec.segsum (fun e => segarr3 V c (ix2 0 e)) (valarr3 V c) (ix2 (⟨(t.val / 512) * 2048 + r.val, by have := lt_of_lt_of_eq t.isLt N_3; omega⟩ : Fin 262144) h) := by
  have ht : t.val < 65536 := lt_of_lt_of_eq t.isLt N_3
  have h' : 512 * (t.val / 512) + t.val % 512 < cfg3.N := by rw [Nat.div_add_mod]; exact t.isLt
  rw [acc3_fold V c t.val t.isLt h']
  have e511 : ∀ (j : ℕ) (hj : j = 511) (hh : 512 * (t.val / 512) + j < cfg3.N),
      Pipeline.accAt (accReset3 V c) (accStep3 V c) (512 * (t.val / 512)) j hh (ix2 r h)
        = 0 + ∑ s ∈ Finset.range (j + 1), addend3 V c (512 * (t.val / 512) + s) (ix2 r h) := fun j hj hh =>
    Pipeline.accAt_add_apply (accReset3 V c) (accStep3 V c) (fun _ => 0) (addend3 V c) (512 * (t.val / 512)) 511
      (fun hn y => accReset3_apply V c _ hn y)
      (fun n hn acc y _ _ => accStep3_apply V c n hn acc y) j (by omega) hh (ix2 r h)
  rw [e511 (t.val % 512) h1 h', h1, zero_add, Spec.segsum_apply, sum_edges3]
  refine Finset.sum_congr rfl fun s hs => ?_
  have hs' : s < 512 := Finset.mem_range.1 hs
  unfold addend3
  refine Finset.sum_congr rfl fun k _ => ?_
  rw [edge3_add]
  have hq : (512 * (t.val / 512) + s) / 512 % 128 = t.val / 512 := by omega
  rw [hq]

/-- The segment sum of the arrays the region finds: what the output array ends holding. -/
abbrev G3 (c : Dev nD) : Vec Ideal S262144x64 .f32 := Spec.segsum (fun e => segarr3 V c (ix2 0 e)) (valarr3 V c)

/-- What a point that writes the output block back writes is its block of the segment sum. -/
theorem flushed3_2_eq (c : Dev nD) (t : Fin cfg3.N) (hf : (cfg3.win 2).flush t = true) :
    (dat3 V c).flushed 2 t = ((cfg3.win 2).blk t).view.read (Elt Ideal) (G3 V c) := by
  have h1 : t.val % 512 = 511 := by
    by_contra h; rw [noFlush3_2 t h] at hf; exact Bool.false_ne_true hf
  show (cfg3.win 2).cut (grid3.coords t) ((dat3 V c).after 2 t) = _
  rw [after3_2]
  funext j
  have hj0 : (j 0).val < 2048 := (j 0).isLt
  have hj1 : (j 1).val < 64 := (j 1).isLt
  have hx : (cfg3.win 2).xinj (grid3.coords t) j = ix2 (⟨(j 0).val, hj0⟩ : Fin 2048) (⟨(j 1).val, hj1⟩ : Fin 64) := by
    funext a; apply Fin.ext
    match a with
    | ⟨0, _⟩ => rfl
    | ⟨1, _⟩ => rfl
  rw [View.read_apply]
  refine Eq.trans ?_ (cast_eq _ _).symm
  show (outsAt3 V c t.val t.isLt).1 ((cfg3.win 2).xinj (grid3.coords t) j) = _
  rw [hx, out3_last V c t h1, acc3_last V c t h1]
  congr 1
  funext a; apply Fin.ext
  match a with
  | ⟨0, _⟩ =>
    show (t.val / 512) * 2048 + (j 0).val = win3_2.index t (0 : Fin 2) * 2048 + 1 * (j 0).val
    rw [index3_2]; show _ = (t.val / 512) * 2048 + 1 * (j 0).val; omega
  | ⟨1, _⟩ =>
    show (j 1).val = win3_2.index t (1 : Fin 2) * 64 + 1 * (j 1).val
    rw [index3_2]; show _ = 0 * 64 + 1 * (j 1).val; omega

/-- THE VALUE OF THE REGION: its output array ends holding the segment sum of the values array by the segment words. -/
theorem scat3_value (c : Dev nD) :
    (dat3 V c).arrAt 2 cfg3.N = Spec.segsum (fun e => segarr3 V c (ix2 0 e)) (valarr3 V c) :=
  (dat3 V c).arrAt_eq_of_cover 2 (G3 V c) (fun t hf => flushed3_2_eq V c t hf) (fun i => cover3_2 i)

end AtIdeal
end Cert.KernelIdeal.Hand
-- ==== Proof.KI.Scat4Pieces.lean ====
import proofs.«406228_j54073638257180_1_alg».proof.Proof.KI.Scat4
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the pieces the three runs found, read back as the skeleton's payloads

Each case's stores write the accumulator (and, in case C, the output block) whole, so what a case leaves is the payload
of its last store, its loads read at the contents the buffers were handed in at: generic in `F`. -/

/-- The offsets of every access of the body: the origin. -/
theorem hz4 : (![0, 0] : Fin 2 → Nat) = fun _ => 0 := funext fun a => by fin_cases a <;> rfl

/-- CASE A leaves in the accumulator the accumulate payload over the reset's payload (the zero block): the reset's store
    is read back by the load before the product. -/
theorem sout4_A_0_eq (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S4096x64 .bf16) (x1 : Vec F S1x4096 .i32) :
    sout4_A_0 c i arg2 harg2 arg3 harg3 arg4 harg4 arg5 harg5 hc0 hc1 x0 x1 = k4_pay2 i x1 (k4_pay1 (F := F)) x0 := by
  unfold sout4_A_0
  rw [View.read_writes_eq_canon _ _ _ (scover4_A_0 c i arg2 harg2 arg3 harg3 arg4 harg4 arg5 harg5 hc0 hc1 x0 x1)]
  unfold kernelRun4_A
  dsimp only
  sl_unfold_words
  rw [View.canon_cons_unit_zero (S := S2048x64) hz4]
  simp only [View.readAt_eq_ld, harg2.read_unread, harg3.read_unread, harg4.read_unread, harg5.read_unread, View.ld_unit_zero (S := S4096x64) hz4, View.ld_unit_zero (S := S1x4096) hz4, View.ld_unit_zero (S := S2048x64) hz4, View.readCov_unit_zero (S := S2048x64) _ hz4]

/-- CASE B leaves in the accumulator the accumulate payload over what it was handed in at. -/
theorem sout4_B_0_eq (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S4096x64 .bf16) (x1 : Vec F S1x4096 .i32) (xs0 : Vec F S2048x64 .f32) :
    sout4_B_0 c i arg2 harg2 arg3 harg3 arg4 harg4 arg5 harg5 hc0 hc1 x0 x1 xs0 = k4_pay2 i x1 xs0 x0 := by
  unfold sout4_B_0
  rw [View.read_writes_eq_canon _ _ _ (scover4_B_0 c i arg2 harg2 arg3 harg3 arg4 harg4 arg5 harg5 hc0 hc1 x0 x1 xs0)]
  unfold kernelRun4_B
  dsimp only
  sl_unfold_words
  rw [View.canon_unit_zero hz4]
  simp only [View.readAt_eq_ld, harg2.read_unread, harg3.read_unread, harg4.read_unread, harg5.read_unread, View.ld_unit_zero (S := S4096x64) hz4, View.ld_unit_zero (S := S1x4096) hz4, View.ld_unit_zero (S := S2048x64) hz4, View.readCov_unit_zero (S := S2048x64) _ hz4]

/-- CASE C leaves in the accumulator the same, -/
theorem sout4_C_0_eq (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) :
    sout4_C_0 c i arg2 harg2 arg3 harg3 arg4 harg4 arg5 harg5 hc0 hc1 x0 x1 xs0 = k4_pay2 i x1 xs0 x0 := by
  unfold sout4_C_0
  rw [View.read_writes_eq_canon _ _ _ (scover4_C_0 c i arg2 harg2 arg3 harg3 arg4 harg4 arg5 harg5 hc0 hc1 x0 x1 xs0)]
  unfold kernelRun4_C
  dsimp only
  sl_unfold_words
  rw [View.canon_unit_zero hz4]
  simp only [View.readAt_eq_ld, harg2.read_unread, harg3.read_unread, harg4.read_unread, harg5.read_unread, View.ld_unit_zero (S := S4096x64) hz4, View.ld_unit_zero (S := S1x4096) hz4, View.ld_unit_zero (S := S2048x64) hz4, View.readCov_unit_zero (S := S2048x64) _ hz4]

/-- and in the output block too: the updated accumulator, read back and stored whole. -/
theorem out4_C_2_eq (c : Dev nD) (i : grid4.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S4096x64 .bf16) (x1 : Vec F S1x4096 .i32) (xs0 : Vec F S2048x64 .f32) :
    out4_C_2 c i arg2 harg2 arg3 harg3 arg4 harg4 arg5 harg5 hc0 hc1 x0 x1 xs0 = k4_pay2 i x1 xs0 x0 := by
  unfold out4_C_2
  rw [View.read_writes_eq_canon _ _ _ (cover4_C_2 c i arg2 harg2 arg3 harg3 arg4 harg4 arg5 harg5 hc0 hc1 x0 x1 xs0)]
  unfold kernelRun4_C
  dsimp only
  sl_unfold_words
  rw [View.canon_unit_zero hz4]
  simp only [View.readAt_eq_ld, harg2.read_unread, harg3.read_unread, harg4.read_unread, harg5.read_unread, View.ld_unit_zero (S := S4096x64) hz4, View.ld_unit_zero (S := S1x4096) hz4, View.ld_unit_zero (S := S2048x64) hz4, View.readCov_unit_zero (S := S2048x64) _ hz4]

end Cert.KernelIdeal.Hand

end
-- ==== Proof.KI.Scat4Acc.lean ====
/- The accumulator of region 4 point by point: the blocks the body reads as rows of the arrays the region finds, and
   the accumulator after a point as the fold, over the point's row of the grid, of the accumulate payload. -/
import proofs.«406228_j54073638257180_1_alg».proof.Proof.KI.Scat4Pieces
import proofs.«406228_j54073638257180_1_alg».proof.Proof.Spec.SegSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Region
variable {F : FTy → Type} [FloatOps F]
variable (V : (c : Dev nD) → (b : Ref sig .tc) → Buf (Elt F) ((c : Thread nD τ).loc b))

/-- The values array (one row per edge) as the region finds it. -/
abbrev valarr4 (c : Dev nD) : Vec F S2097152x64 .bf16 := V c (Pipeline.arrRef spec4 0)
/-- The segment words (one per edge) as the region finds them. -/
abbrev segarr4 (c : Dev nD) : Vec F S1x2097152 .i32 := V c (Pipeline.arrRef spec4 1)
/-- The block of 4096 value rows the body reads at point `t`. -/
abbrev vblk4 (c : Dev nD) (t : Fin cfg4.N) : Vec F S4096x64 .bf16 := iblk4 V c 0 t
/-- The block of 4096 segment words the body reads at point `t`. -/
abbrev sblk4 (c : Dev nD) (t : Fin cfg4.N) : Vec F S1x4096 .i32 := iblk4 V c 1 t

theorem N4 : cfg4.N = 65536 := N_4

/-- The values window's block index at point `t`: the edge block `t % 512`. -/
theorem index4_0 (t : Fin cfg4.N) : win4_0.index t = ![t.val % 512, 0] := by
  have e : (BitVec.ofNat 32 ((grid4.coords t) 1).val).toNat = t.val % 512 := by
    rw [coords4_1_val t, BitVec.toNat_ofNat]; omega
  show ![(BitVec.ofNat 32 ((grid4.coords t) 1).val).toNat, (0#32).toNat] = _
  rw [e]; rfl

theorem index4_1 (t : Fin cfg4.N) : win4_1.index t = ![0, t.val % 512] := by
  have e : (BitVec.ofNat 32 ((grid4.coords t) 1).val).toNat = t.val % 512 := by
    rw [coords4_1_val t, BitVec.toNat_ofNat]; omega
  show ![(0#32).toNat, (BitVec.ofNat 32 ((grid4.coords t) 1).val).toNat] = _
  rw [e]; rfl

theorem index4_2 (t : Fin cfg4.N) : win4_2.index t = ![t.val / 512, 0] := by
  have ht : t.val < 65536 := lt_of_lt_of_eq t.isLt N_4
  have e : (BitVec.ofNat 32 ((grid4.coords t) 0).val).toNat = t.val / 512 := by
    rw [coords4_0_val t, BitVec.toNat_ofNat]; omega
  show ![(BitVec.ofNat 32 ((grid4.coords t) 0).val).toNat, (0#32).toNat] = _
  rw [e]; rfl

/-- A row of the values block at point `t` is row `(t % 512) * 4096 + k` of the values array. -/
theorem vblk4_apply (c : Dev nD) (t : Fin cfg4.N) (k : Fin 4096) (h : Fin 64) :
    vblk4 V c t (ix2 k h) = valarr4 V c (ix2 ⟨(t.val % 512) * 4096 + k.val, by omega⟩ h) := by
  show V c (Pipeline.arrRef spec4 0) (((cfg4.win 0).blk t).view.emb (ix2 k h)) = _
  congr 1
  funext a; apply Fin.ext
  match a with
  | ⟨0, _⟩ => show win4_0.index t (0 : Fin 2) * 4096 + 1 * k.val = (t.val % 512) * 4096 + k.val; rw [index4_0]; show (t.val % 512) * 4096 + 1 * k.val = _; omega
  | ⟨1, _⟩ => show win4_0.index t (1 : Fin 2) * 64 + 1 * h.val = h.val; rw [index4_0]; show 0 * 64 + 1 * h.val = _; omega

/-- A word of the segment block at point `t` is word `(t % 512) * 4096 + k` of the segment array. -/
theorem sblk4_apply (c : Dev nD) (t : Fin cfg4.N) (k : Fin 4096) :
    sblk4 V c t (ix2 0 k) = segarr4 V c (ix2 0 ⟨(t.val % 512) * 4096 + k.val, by omega⟩) := by
  show V c (Pipeline.arrRef spec4 1) (((cfg4.win 1).blk t).view.emb (ix2 0 k)) = _
  congr 1
  funext a; apply Fin.ext
  match a with
  | ⟨0, _⟩ => show win4_1.index t (0 : Fin 2) * 1 + 1 * 0 = 0; rw [index4_1]; rfl
  | ⟨1, _⟩ => show win4_1.index t (1 : Fin 2) * 4096 + 1 * k.val = (t.val % 512) * 4096 + k.val; rw [index4_1]; show (t.val % 512) * 4096 + 1 * k.val = _; omega

/-! ## The accumulator, point by point -/

/-- The accumulator's reset value at point `n`: the accumulate payload over the zero block. -/
abbrev accReset4 (c : Dev nD) (n : ℕ) (hn : n < cfg4.N) : Vec F S2048x64 .f32 :=
  k4_pay2 (grid4.coords ⟨n, hn⟩) (sblk4 V c ⟨n, hn⟩) (k4_pay1 (F := F)) (vblk4 V c ⟨n, hn⟩)
/-- The accumulator's step at point `n`: the accumulate payload over what the point before left. -/
abbrev accStep4 (c : Dev nD) (n : ℕ) (hn : n < cfg4.N) (acc : Vec F S2048x64 .f32) : Vec F S2048x64 .f32 :=
  k4_pay2 (grid4.coords ⟨n, hn⟩) (sblk4 V c ⟨n, hn⟩) acc (vblk4 V c ⟨n, hn⟩)

/-- At the first point of a row of the grid the accumulator is reset, then accumulated into. -/
theorem acc4_reset (c : Dev nD) (n : ℕ) (hn : n < cfg4.N) (h0 : n % 512 = 0) :
    (outsAt4 V c n hn).2 = accReset4 V c n hn := by
  have h1 : ¬n % 512 = 511 := by omega
  rw [outsAt4_A V c ⟨n, hn⟩ h0 h1]; dsimp only
  exact sout4_A_0_eq c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (fun h => h1 ((hcond4_1 ⟨n, hn⟩).mp h)) (iblk4 V c 0 ⟨n, hn⟩) (iblk4 V c 1 ⟨n, hn⟩)

/-- At every other point it is accumulated into over what the point before left. -/
theorem acc4_step (c : Dev nD) (n : ℕ) (hn : n + 1 < cfg4.N) (h0 : ¬(n + 1) % 512 = 0) :
    (outsAt4 V c (n + 1) hn).2 = accStep4 V c (n + 1) hn ((outsAt4 V c n (Nat.lt_of_succ_lt hn)).2) := by
  by_cases h1 : (n + 1) % 512 = 511
  · rw [outsAt4_C V c ⟨n + 1, hn⟩ h0 h1]; dsimp only
    exact sout4_C_0_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 V c n (Nat.lt_of_succ_lt hn)).2
  · rw [outsAt4_B V c ⟨n + 1, hn⟩ h0 h1]; dsimp only
    exact sout4_B_0_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 V c n (Nat.lt_of_succ_lt hn)).2

/-- At a point that ends a row of the grid the output block holds what the accumulator holds. -/
theorem out4_last (c : Dev nD) (t : Fin cfg4.N) (h1 : t.val % 512 = 511) :
    (outsAt4 V c t.val t.isLt).1 = (outsAt4 V c t.val t.isLt).2 := by
  have h0 : ¬t.val % 512 = 0 := by omega
  rw [outsAt4_C V c t h0 h1]; dsimp only
  exact (out4_C_2_eq c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2).trans
    (sout4_C_0_eq c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2).symm

/-- So at any point the accumulator is the fold over its row of the grid up to that point. -/
theorem acc4_fold (c : Dev nD) (t : ℕ) (ht : t < cfg4.N) (h' : 512 * (t / 512) + t % 512 < cfg4.N) :
    (outsAt4 V c t ht).2 = Pipeline.accAt (accReset4 V c) (accStep4 V c) (512 * (t / 512)) (t % 512) h' :=
  Pipeline.eq_accAt_of_mod (fun n hn => (outsAt4 V c n hn).2) 512 (accReset4 V c) (accStep4 V c)
    (fun n hn h0 => acc4_reset V c n hn h0) (fun n hn h0 => acc4_step V c n hn h0) (by omega) t ht h'

end Region
end Cert.KernelIdeal.Hand
-- ==== Proof.KI.Scat4Pay.lean ====
import proofs.«406228_j54073638257180_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

variable {F : FTy → Type} [FloatOps F]

/-! # Region 4: the accumulate payload read at an element, at the ideal values

The body compares the global row numbers `(i 0) * 2048 + r` of its output block with the block of segment words,
turns the comparison into a 0/1 matrix, multiplies it with the block of values and adds the product to the
accumulator: element `(r, h)` of the result is the accumulator's plus the sum of the values' column `h` over the rows
whose segment word is the word of that global row. -/

/-- The 0/1 matrix the body builds from the block of segment words: the payload's lines up to the product's left operand. -/
def onehot4 (i : grid4.Coords) (v7 : Vec F S1x4096 .i32) : FVec F S2048x4096 .bf16 :=
  let arg0 : BitVec 32 := BitVec.ofNat 32 (i 0).val
  let base : BitVec 32 := Scalar.muli arg0 2048#32
  have v4 : IVec S2048x1 32 := iota .tc S2048x1 32 [0] iota_S2048x1_d0_w32
  have v5 : IVec S2048x1 32 := broadcast S2048x1 base
  have v6 : IVec S2048x1 32 := addi v5 v4
  have v8 : IVec S1x4096 32 := shapeCast S1x4096 v7 shapeCasts_S1x4096_S1x4096
  have v9 : IVec S2048x4096 32 := broadcastTo S2048x4096 v6 broadcasts_S2048x1_S2048x4096
  have v10 : IVec S2048x4096 32 := broadcastTo S2048x4096 v8 broadcasts_S1x4096_S2048x4096
  have v11 : IVec S2048x4096 1 := cmpi .eq v9 v10
  have v12 : IVec S2048x4096 32 := extui 32 v11 natLt_1_32
  have v13 : FVec F S2048x4096 .f32 := sitofp .f32 v12
  truncf .bf16 v13 bitsLt_bf16_f32

/-- The payload is the accumulator plus the product of that matrix with the block of values. -/
theorem k4_pay2_eq (i : grid4.Coords) (v7 : Vec F S1x4096 .i32) (v15 : Vec F S2048x64 .f32) (v16 : Vec F S4096x64 .bf16) :
    k4_pay2 i v7 v15 v16
      = addf v15 (matmul dot_S2048x4096_S4096x64_S2048x64_1_0_0_1_n_n none (onehot4 i v7) v16 (constant S2048x64 .f32 0x00000000#32)) := by
  unfold k4_pay2 onehot4
  simp only [shapeCast_self]

/-- The word of global row `(i 0) * 2048 + r`, as the body computes it. -/
theorem rowWord4 (a r : Nat) : IntOp.addi (Scalar.muli (BitVec.ofNat 32 a) 2048#32) (BitVec.ofNat 32 r) = BitVec.ofNat 32 (a * 2048 + r) := by
  show BitVec.ofNat 32 a * 2048#32 + BitVec.ofNat 32 r = _
  rw [show (2048#32 : BitVec 32) = BitVec.ofNat 32 2048 from rfl, ← BitVec.ofNat_mul, ← BitVec.ofNat_add]

/-- The row counter at row `r` is the word of `r`. -/
theorem iota4_apply (r : Fin 2048) : iota .tc S2048x1 32 [0] iota_S2048x1_d0_w32 (ix2 r (0 : Fin 1)) = BitVec.ofNat 32 r.val := by
  show BitVec.ofNat 32 (0 * 2048 + r.val) = _
  rw [Nat.zero_mul, Nat.zero_add]

/-- A one-bit comparison, widened to 32 bits and converted to a float at the ideal values, is 1 or 0. -/
theorem bitToIdeal4 (b : Bool) : ((((BitVec.ofBool b).setWidth 32).toInt : ℝ) : EReal) = if b then 1 else 0 := by
  cases b <;> simp

/-- The matrix's entry `(r, e)`: 1 if row `e`'s segment word is the word of global row `(i 0) * 2048 + r`, else 0. -/
theorem onehot4_apply (i : grid4.Coords) (x1 : Vec Ideal S1x4096 .i32) (r : Fin 2048) (e : Fin 4096) :
    onehot4 (F := Ideal) i x1 (ix2 r e) = if x1 (ix2 0 e) = BitVec.ofNat 32 ((i 0).val * 2048 + r.val) then 1 else 0 := by
  unfold onehot4
  simp only [shapeCast_self]
  rw [truncf_apply, sitofp_apply, extui_apply]
  have h9 : (broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e)
      = BitVec.ofNat 32 ((i 0).val * 2048 + r.val) := by
    rw [broadcastTo_apply _ _ (ix2 r e) (ix2 r (0 : Fin 1)) (fun a => by match a with | ⟨0, _⟩ => rfl | ⟨1, _⟩ => rfl)]
    show IntOp.addi (Scalar.muli (BitVec.ofNat 32 (i 0).val) 2048#32) (iota .tc S2048x1 32 [0] iota_S2048x1_d0_w32 (ix2 r (0 : Fin 1))) = _
    rw [iota4_apply, rowWord4]
  have h10 : (broadcastTo S2048x4096 x1 broadcasts_S1x4096_S2048x4096 : IVec S2048x4096 32) (ix2 r e) = x1 (ix2 (0 : Fin 1) e) :=
    broadcastTo_apply _ _ (ix2 r e) (ix2 (0 : Fin 1) e) (fun a => by match a with | ⟨0, _⟩ => rfl | ⟨1, _⟩ => rfl)
  show FloatOps.sitofp (F := Ideal) .f32 (BitVec.setWidth 32 (IntOp.cmpi .eq
    ((broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e))
    ((broadcastTo S2048x4096 x1 broadcasts_S1x4096_S2048x4096 : IVec S2048x4096 32) (ix2 r e)))) = _
  rw [h9, h10]
  show ((((BitVec.ofBool (BitVec.ofNat 32 ((i 0).val * 2048 + r.val) == x1 (ix2 (0 : Fin 1) e))).setWidth 32).toInt : ℝ) : EReal) = _
  rw [bitToIdeal4]
  by_cases hx : x1 (ix2 (0 : Fin 1) e) = BitVec.ofNat 32 ((i 0).val * 2048 + r.val)
  · rw [if_pos hx, if_pos (beq_iff_eq.mpr hx.symm)]
  · rw [if_neg hx, if_neg (fun hb => hx (beq_iff_eq.mp hb).symm)]

/-- The zero block the reset stores, read at an element. -/
theorem k4_pay1_apply (r : Fin 2048) (h : Fin 64) : k4_pay1 (F := Ideal) (ix2 r h) = 0 := by
  unfold k4_pay1
  simp only [shapeCast_self]
  show Ideal.ofBits .f32 0x00000000#32 = 0
  exact Ideal.ofBits_zero_f32

/-- THE ACCUMULATE PAYLOAD AT AN ELEMENT: the accumulator's element plus the sum, over the 4096 rows of the block of
    values, of the values' column `h` at the rows whose segment word is the word of global row `(i 0) * 2048 + r`. -/
theorem k4_pay2_apply (i : grid4.Coords) (x1 : Vec Ideal S1x4096 .i32) (xs0 : Vec Ideal S2048x64 .f32) (x0 : Vec Ideal S4096x64 .bf16)
    (r : Fin 2048) (h : Fin 64) :
    k4_pay2 (F := Ideal) i x1 xs0 x0 (ix2 r h)
      = xs0 (ix2 r h) + ∑ e : Fin 4096, (if x1 (ix2 0 e) = BitVec.ofNat 32 ((i 0).val * 2048 + r.val) then x0 (ix2 e h) else 0) := by
  rw [k4_pay2_eq, addf_apply]
  congr 1
  show FloatOps.matmul dot_S2048x4096_S4096x64_S2048x64_1_0_0_1_n_n none (onehot4 (F := Ideal) i x1) x0 (constant S2048x64 .f32 0x00000000#32) (ix2 r h) = _
  rw [Ideal.matmul_constant_zero_apply, ← Equiv.sum_comp (contrEquiv1 dot_S2048x4096_S4096x64_S2048x64_1_0_0_1_n_n 4096 rfl rfl).symm]
  refine Finset.sum_congr rfl fun e _ => ?_
  have ce := contrEquiv1_symm_val dot_S2048x4096_S4096x64_S2048x64_1_0_0_1_n_n 4096 rfl rfl e
  have hl : dot_S2048x4096_S4096x64_S2048x64_1_0_0_1_n_n.lhsIdx (ix2 r h) ((contrEquiv1 dot_S2048x4096_S4096x64_S2048x64_1_0_0_1_n_n 4096 rfl rfl).symm e) = ix2 r e := by
    funext ax; apply Fin.ext
    match ax with
    | ⟨0, _⟩ => simp [DotDims.lhsIdx, dot_S2048x4096_S4096x64_S2048x64_1_0_0_1_n_n]; rfl
    | ⟨1, _⟩ => simp [DotDims.lhsIdx, dot_S2048x4096_S4096x64_S2048x64_1_0_0_1_n_n]; exact ce
  have hr : dot_S2048x4096_S4096x64_S2048x64_1_0_0_1_n_n.rhsIdx (ix2 r h) ((contrEquiv1 dot_S2048x4096_S4096x64_S2048x64_1_0_0_1_n_n 4096 rfl rfl).symm e) = ix2 e h := by
    funext ax; apply Fin.ext
    match ax with
    | ⟨0, _⟩ => simp [DotDims.rhsIdx, dot_S2048x4096_S4096x64_S2048x64_1_0_0_1_n_n]; exact ce
    | ⟨1, _⟩ => simp [DotDims.rhsIdx, dot_S2048x4096_S4096x64_S2048x64_1_0_0_1_n_n]; rfl
  rw [hl, hr, onehot4_apply]
  by_cases hx : x1 (ix2 (0 : Fin 1) e) = BitVec.ofNat 32 ((i 0).val * 2048 + r.val)
  · rw [if_pos hx, if_pos hx, one_mul]
  · rw [if_neg hx, if_neg hx, zero_mul]

end Cert.KernelIdeal.Hand

end
-- ==== Proof.KI.Scat4Cover.lean ====
import proofs.«406228_j54073638257180_1_alg».proof.Proof.KI.Scat4Runs
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: where the output block is written back, and which rows of the result each write-back covers

The output window's block index is `(t / 512, 0)`: block `t / 512` of 2048 rows, all 64 columns. It is written back at the
last point of each row of the grid, `t ≡ 511 (mod 512)`; the 128 write-backs tile the 262144 rows of the result. -/

/-- The output window's block index at point `t`. -/
theorem blkidx4_2 (t : Fin cfg4.N) : (cfg4.win 2).index t = ![t.val / 512, 0] := by
  have ht : t.val < 65536 := lt_of_lt_of_eq t.isLt N_4
  funext a
  match a with
  | ⟨0, _⟩ =>
    show (BitVec.ofNat 32 ((grid4.coords t) 0).val).toNat = t.val / 512
    rw [coords4_0_val, BitVec.toNat_ofNat]; omega
  | ⟨1, _⟩ => rfl

/-- At the points ≡ 511 (mod 512) the pipeline writes the output block back: the last point, or the block index moves. -/
theorem flush4_2_of (t : Fin cfg4.N) (h : t.val % 512 = 511) : (cfg4.win 2).flush t = true := by
  have hN : grid4.N = 65536 := N_4
  have ht : t.val < 65536 := lt_of_lt_of_eq t.isLt N_4
  unfold Pipeline.Window.flush
  simp only [Bool.and_eq_true, Bool.or_eq_true, decide_eq_true_eq]
  refine ⟨trivial, ?_⟩
  by_cases hl : t.val + 1 = grid4.N
  · exact .inl hl
  · refine .inr ⟨by omega, fun he => ?_⟩
    have h0 := congrFun he 0
    rw [blkidx4_2, blkidx4_2] at h0
    have h1 : (t.val + 1) / 512 = t.val / 512 := h0
    omega

/-- An index of the result is in point `t`'s block iff its row is among the block's 2048 rows. -/
theorem mem_blk4_2 (t : Fin cfg4.N) (i : S262144x64.Idx) :
    i ∈ ((cfg4.win 2).blk t).view.set ↔ (t.val / 512) * 2048 ≤ (i 0).val ∧ (i 0).val < (t.val / 512) * 2048 + 2048 := by
  show i ∈ ((View.whole (Pipeline.arrRef spec4 2)).slice (win4_2.rect t)).set ↔ _
  rw [View.set_slice_whole, Rect.mem_set_unit]
  have e0 : win4_2.index t (0 : Fin 2) = t.val / 512 := congrFun (blkidx4_2 t) 0
  have e1 : win4_2.index t (1 : Fin 2) = 0 := congrFun (blkidx4_2 t) 1
  constructor
  · intro hi
    have b0 : win4_2.index t (0 : Fin 2) * 2048 ≤ (i 0).val ∧ (i 0).val < win4_2.index t (0 : Fin 2) * 2048 + 2048 := hi 0
    rw [e0] at b0
    exact b0
  · intro hi a
    match a with
    | ⟨0, _⟩ =>
      show win4_2.index t (0 : Fin 2) * 2048 ≤ (i 0).val ∧ (i 0).val < win4_2.index t (0 : Fin 2) * 2048 + 2048
      rw [e0]; exact hi
    | ⟨1, _⟩ =>
      show win4_2.index t (1 : Fin 2) * 64 ≤ (i 1).val ∧ (i 1).val < win4_2.index t (1 : Fin 2) * 64 + 64
      rw [e1]; have h64 : (i 1).val < 64 := (i 1).isLt; omega

/-- Every index of the result is in the block of a point that writes back: the last point of its block's row of the grid. -/
theorem cover4_2 (i : S262144x64.Idx) : ∃ t : Fin cfg4.N, (cfg4.win 2).flush t = true ∧ i ∈ ((cfg4.win 2).blk t).view.set := by
  have hi0 : (i 0).val < 262144 := (i 0).isLt
  refine ⟨⟨(i 0).val / 2048 * 512 + 511, by rw [show cfg4.N = 65536 from N_4]; omega⟩, flush4_2_of _ (by show ((i 0).val / 2048 * 512 + 511) % 512 = 511; omega), ?_⟩
  rw [mem_blk4_2]
  show ((i 0).val / 2048 * 512 + 511) / 512 * 2048 ≤ (i 0).val ∧ (i 0).val < ((i 0).val / 2048 * 512 + 511) / 512 * 2048 + 2048
  omega

end Cert.KernelIdeal.Hand

end
-- ==== Proof.KI.Scat4Value.lean ====
/- The value of region 4 at the ideal values: its output array ends holding the segment sum of the values array by the
   segment words. A step of the accumulator adds, at an element, the rows of the point's edge block whose segment word
   is the word of the element's node; the fold over a row of the grid is therefore the sum over all edge blocks, which
   is the sum over all edges; the last point of the row writes it back to the node block's rows, and the node blocks
   tile the output array. -/
import proofs.«406228_j54073638257180_1_alg».proof.Proof.KI.Scat4Acc
import proofs.«406228_j54073638257180_1_alg».proof.Proof.KI.Scat4Pay
import proofs.«406228_j54073638257180_1_alg».proof.Proof.KI.Scat4Cover

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section AtIdeal
variable (V : (c : Dev nD) → (b : Ref sig .tc) → Buf (Elt Ideal) ((c : Thread nD τ).loc b))

/-- Row `k` of edge block `s % 512`. -/
def edge4 (s : ℕ) (k : Fin 4096) : Fin 2097152 := ⟨(s % 512) * 4096 + k.val, by omega⟩

theorem edge4_add (q s : ℕ) (k : Fin 4096) : edge4 (512 * q + s) k = edge4 s k := by
  apply Fin.ext; show (512 * q + s) % 512 * 4096 + k.val = s % 512 * 4096 + k.val; omega

/-- What point `n` adds to element `y` of the accumulator: the rows of its edge block whose segment word is the
    word of the node the element's row stands for. -/
def addend4 (c : Dev nD) (n : ℕ) (y : S2048x64.Idx) : EReal :=
  ∑ k : Fin 4096, if segarr4 V c (ix2 0 (edge4 n k)) = BitVec.ofNat 32 ((n / 512 % 128) * 2048 + (y 0).val)
    then valarr4 V c (ix2 (edge4 n k) (y 1)) else 0

/-- A step adds the point's addend. -/
theorem accStep4_apply (c : Dev nD) (n : ℕ) (hn : n < cfg4.N) (acc : Vec Ideal S2048x64 .f32) (y : S2048x64.Idx) :
    accStep4 V c n hn acc y = acc y + addend4 V c n y := by
  rw [eq_ix2 y]
  refine (k4_pay2_apply (grid4.coords ⟨n, hn⟩) (sblk4 V c ⟨n, hn⟩) acc (vblk4 V c ⟨n, hn⟩) (y 0) (y 1)).trans ?_
  congr 1
  unfold addend4
  refine Finset.sum_congr rfl fun k _ => ?_
  rw [sblk4_apply V c ⟨n, hn⟩ k, vblk4_apply V c ⟨n, hn⟩ k (y 1), coords4_0_val ⟨n, hn⟩]
  rfl

/-- A reset leaves the point's addend. -/
theorem accReset4_apply (c : Dev nD) (n : ℕ) (hn : n < cfg4.N) (y : S2048x64.Idx) :
    accReset4 V c n hn y = 0 + addend4 V c n y := by
  have h := accStep4_apply V c n hn (k4_pay1 (F := Ideal)) y
  have hz : k4_pay1 (F := Ideal) y = 0 := by rw [eq_ix2 y]; exact k4_pay1_apply (y 0) (y 1)
  rw [hz] at h
  exact h

/-- The sum over all edges, block by block. -/
theorem sum_edges4 {M : Type*} [AddCommMonoid M] (f : Fin 2097152 → M) :
    ∑ e, f e = ∑ s ∈ Finset.range 512, ∑ k : Fin 4096, f (edge4 s k) := by
  rw [Finset.sum_range (fun s => ∑ k : Fin 4096, f (edge4 s k))]
  rw [← (finProdFinEquiv (m := 512) (n := 4096)).sum_comp f, Fintype.sum_prod_type]
  refine Finset.sum_congr rfl fun s _ => Finset.sum_congr rfl fun k _ => ?_
  congr 1
  apply Fin.ext
  show k.val + 4096 * s.val = s.val % 512 * 4096 + k.val
  have := s.isLt
  omega

/-- After the last point of row `q` of the grid the accumulator holds the segment sums of the nodes of block `q`. -/
theorem acc4_last (c : Dev nD) (t : Fin cfg4.N) (h1 : t.val % 512 = 511) (r : Fin 2048) (h : Fin 64) :
    (outsAt4 V c t.val t.isLt).2 (ix2 r h)
      = Spec.segsum (fun e => segarr4 V c (ix2 0 e)) (valarr4 V c) (ix2 (⟨(t.val / 512) * 2048 + r.val, by have := lt_of_lt_of_eq t.isLt N_4; omega⟩ : Fin 262144) h) := by
  have ht : t.val < 65536 := lt_of_lt_of_eq t.isLt N_4
  have h' : 512 * (t.val / 512) + t.val % 512 < cfg4.N := by rw [Nat.div_add_mod]; exact t.isLt
  rw [acc4_fold V c t.val t.isLt h']
  have e511 : ∀ (j : ℕ) (hj : j = 511) (hh : 512 * (t.val / 512) + j < cfg4.N),
      Pipeline.accAt (accReset4 V c) (accStep4 V c) (512 * (t.val / 512)) j hh (ix2 r h)
        = 0 + ∑ s ∈ Finset.range (j + 1), addend4 V c (512 * (t.val / 512) + s) (ix2 r h) := fun j hj hh =>
    Pipeline.accAt_add_apply (accReset4 V c) (accStep4 V c) (fun _ => 0) (addend4 V c) (512 * (t.val / 512)) 511
      (fun hn y => accReset4_apply V c _ hn y)
      (fun n hn acc y _ _ => accStep4_apply V c n hn acc y) j (by omega) hh (ix2 r h)
  rw [e511 (t.val % 512) h1 h', h1, zero_add, Spec.segsum_apply, sum_edges4]
  refine Finset.sum_congr rfl fun s hs => ?_
  have hs' : s < 512 := Finset.mem_range.1 hs
  unfold addend4
  refine Finset.sum_congr rfl fun k _ => ?_
  rw [edge4_add]
  have hq : (512 * (t.val / 512) + s) / 512 % 128 = t.val / 512 := by omega
  rw [hq]

/-- The segment sum of the arrays the region finds: what the output array ends holding. -/
abbrev G4 (c : Dev nD) : Vec Ideal S262144x64 .f32 := Spec.segsum (fun e => segarr4 V c (ix2 0 e)) (valarr4 V c)

/-- What a point that writes the output block back writes is its block of the segment sum. -/
theorem flushed4_2_eq (c : Dev nD) (t : Fin cfg4.N) (hf : (cfg4.win 2).flush t = true) :
    (dat4 V c).flushed 2 t = ((cfg4.win 2).blk t).view.read (Elt Ideal) (G4 V c) := by
  have h1 : t.val % 512 = 511 := by
    by_contra h; rw [noFlush4_2 t h] at hf; exact Bool.false_ne_true hf
  show (cfg4.win 2).cut (grid4.coords t) ((dat4 V c).after 2 t) = _
  rw [after4_2]
  funext j
  have hj0 : (j 0).val < 2048 := (j 0).isLt
  have hj1 : (j 1).val < 64 := (j 1).isLt
  have hx : (cfg4.win 2).xinj (grid4.coords t) j = ix2 (⟨(j 0).val, hj0⟩ : Fin 2048) (⟨(j 1).val, hj1⟩ : Fin 64) := by
    funext a; apply Fin.ext
    match a with
    | ⟨0, _⟩ => rfl
    | ⟨1, _⟩ => rfl
  rw [View.read_apply]
  refine Eq.trans ?_ (cast_eq _ _).symm
  show (outsAt4 V c t.val t.isLt).1 ((cfg4.win 2).xinj (grid4.coords t) j) = _
  rw [hx, out4_last V c t h1, acc4_last V c t h1]
  congr 1
  funext a; apply Fin.ext
  match a with
  | ⟨0, _⟩ =>
    show (t.val / 512) * 2048 + (j 0).val = win4_2.index t (0 : Fin 2) * 2048 + 1 * (j 0).val
    rw [index4_2]; show _ = (t.val / 512) * 2048 + 1 * (j 0).val; omega
  | ⟨1, _⟩ =>
    show (j 1).val = win4_2.index t (1 : Fin 2) * 64 + 1 * (j 1).val
    rw [index4_2]; show _ = 0 * 64 + 1 * (j 1).val; omega

/-- THE VALUE OF THE REGION: its output array ends holding the segment sum of the values array by the segment words. -/
theorem scat4_value (c : Dev nD) :
    (dat4 V c).arrAt 2 cfg4.N = Spec.segsum (fun e => segarr4 V c (ix2 0 e)) (valarr4 V c) :=
  (dat4 V c).arrAt_eq_of_cover 2 (G4 V c) (fun t hf => flushed4_2_eq V c t hf) (fun i => cover4_2 i)

end AtIdeal
end Cert.KernelIdeal.Hand
-- ==== Proof.KI.Scat7Pieces.lean ====
import proofs.«406228_j54073638257180_1_alg».proof.Proof.KI.Scat7
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the pieces the three runs found, read back as the skeleton's payloads

Each case's stores write the accumulator (and, in case C, the output block) whole, so what a case leaves is the payload
of its last store, its loads read at the contents the buffers were handed in at: generic in `F`. -/

/-- The offsets of every access of the body: the origin. -/
theorem hz7 : (![0, 0] : Fin 2 → Nat) = fun _ => 0 := funext fun a => by fin_cases a <;> rfl

/-- CASE A leaves in the accumulator the accumulate payload over the reset's payload (the zero block): the reset's store
    is read back by the load before the product. -/
theorem sout7_A_0_eq (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond7_0 i) (hc1 : ¬cond7_1 i)
    (x0 : Vec F S4096x64 .bf16) (x1 : Vec F S1x4096 .i32) :
    sout7_A_0 c i arg2 harg2 arg3 harg3 arg4 harg4 arg5 harg5 hc0 hc1 x0 x1 = k7_pay2 i x1 (k7_pay1 (F := F)) x0 := by
  unfold sout7_A_0
  rw [View.read_writes_eq_canon _ _ _ (scover7_A_0 c i arg2 harg2 arg3 harg3 arg4 harg4 arg5 harg5 hc0 hc1 x0 x1)]
  unfold kernelRun7_A
  dsimp only
  sl_unfold_words
  rw [View.canon_cons_unit_zero (S := S2048x64) hz7]
  simp only [View.readAt_eq_ld, harg2.read_unread, harg3.read_unread, harg4.read_unread, harg5.read_unread, View.ld_unit_zero (S := S4096x64) hz7, View.ld_unit_zero (S := S1x4096) hz7, View.ld_unit_zero (S := S2048x64) hz7, View.readCov_unit_zero (S := S2048x64) _ hz7]

/-- CASE B leaves in the accumulator the accumulate payload over what it was handed in at. -/
theorem sout7_B_0_eq (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : ¬cond7_1 i)
    (x0 : Vec F S4096x64 .bf16) (x1 : Vec F S1x4096 .i32) (xs0 : Vec F S2048x64 .f32) :
    sout7_B_0 c i arg2 harg2 arg3 harg3 arg4 harg4 arg5 harg5 hc0 hc1 x0 x1 xs0 = k7_pay2 i x1 xs0 x0 := by
  unfold sout7_B_0
  rw [View.read_writes_eq_canon _ _ _ (scover7_B_0 c i arg2 harg2 arg3 harg3 arg4 harg4 arg5 harg5 hc0 hc1 x0 x1 xs0)]
  unfold kernelRun7_B
  dsimp only
  sl_unfold_words
  rw [View.canon_unit_zero hz7]
  simp only [View.readAt_eq_ld, harg2.read_unread, harg3.read_unread, harg4.read_unread, harg5.read_unread, View.ld_unit_zero (S := S4096x64) hz7, View.ld_unit_zero (S := S1x4096) hz7, View.ld_unit_zero (S := S2048x64) hz7, View.readCov_unit_zero (S := S2048x64) _ hz7]

/-- CASE C leaves in the accumulator the same, -/
theorem sout7_C_0_eq (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) :
    sout7_C_0 c i arg2 harg2 arg3 harg3 arg4 harg4 arg5 harg5 hc0 hc1 x0 x1 xs0 = k7_pay2 i x1 xs0 x0 := by
  unfold sout7_C_0
  rw [View.read_writes_eq_canon _ _ _ (scover7_C_0 c i arg2 harg2 arg3 harg3 arg4 harg4 arg5 harg5 hc0 hc1 x0 x1 xs0)]
  unfold kernelRun7_C
  dsimp only
  sl_unfold_words
  rw [View.canon_unit_zero hz7]
  simp only [View.readAt_eq_ld, harg2.read_unread, harg3.read_unread, harg4.read_unread, harg5.read_unread, View.ld_unit_zero (S := S4096x64) hz7, View.ld_unit_zero (S := S1x4096) hz7, View.ld_unit_zero (S := S2048x64) hz7, View.readCov_unit_zero (S := S2048x64) _ hz7]

/-- and in the output block too: the updated accumulator, read back and stored whole. -/
theorem out7_C_2_eq (c : Dev nD) (i : grid7.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond7_0 i) (hc1 : cond7_1 i)
    (x0 : Vec F S4096x64 .bf16) (x1 : Vec F S1x4096 .i32) (xs0 : Vec F S2048x64 .f32) :
    out7_C_2 c i arg2 harg2 arg3 harg3 arg4 harg4 arg5 harg5 hc0 hc1 x0 x1 xs0 = k7_pay2 i x1 xs0 x0 := by
  unfold out7_C_2
  rw [View.read_writes_eq_canon _ _ _ (cover7_C_2 c i arg2 harg2 arg3 harg3 arg4 harg4 arg5 harg5 hc0 hc1 x0 x1 xs0)]
  unfold kernelRun7_C
  dsimp only
  sl_unfold_words
  rw [View.canon_unit_zero hz7]
  simp only [View.readAt_eq_ld, harg2.read_unread, harg3.read_unread, harg4.read_unread, harg5.read_unread, View.ld_unit_zero (S := S4096x64) hz7, View.ld_unit_zero (S := S1x4096) hz7, View.ld_unit_zero (S := S2048x64) hz7, View.readCov_unit_zero (S := S2048x64) _ hz7]

end Cert.KernelIdeal.Hand

end
-- ==== Proof.KI.Scat7Acc.lean ====
/- The accumulator of region 7 point by point: the blocks the body reads as rows of the arrays the region finds, and
   the accumulator after a point as the fold, over the point's row of the grid, of the accumulate payload. -/
import proofs.«406228_j54073638257180_1_alg».proof.Proof.KI.Scat7Pieces
import proofs.«406228_j54073638257180_1_alg».proof.Proof.Spec.SegSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Region
variable {F : FTy → Type} [FloatOps F]
variable (V : (c : Dev nD) → (b : Ref sig .tc) → Buf (Elt F) ((c : Thread nD τ).loc b))

/-- The values array (one row per edge) as the region finds it. -/
abbrev valarr7 (c : Dev nD) : Vec F S2097152x64 .bf16 := V c (Pipeline.arrRef spec7 0)
/-- The segment words (one per edge) as the region finds them. -/
abbrev segarr7 (c : Dev nD) : Vec F S1x2097152 .i32 := V c (Pipeline.arrRef spec7 1)
/-- The block of 4096 value rows the body reads at point `t`. -/
abbrev vblk7 (c : Dev nD) (t : Fin cfg7.N) : Vec F S4096x64 .bf16 := iblk7 V c 0 t
/-- The block of 4096 segment words the body reads at point `t`. -/
abbrev sblk7 (c : Dev nD) (t : Fin cfg7.N) : Vec F S1x4096 .i32 := iblk7 V c 1 t

theorem N7 : cfg7.N = 65536 := N_7

/-- The values window's block index at point `t`: the edge block `t % 512`. -/
theorem index7_0 (t : Fin cfg7.N) : win7_0.index t = ![t.val % 512, 0] := by
  have e : (BitVec.ofNat 32 ((grid7.coords t) 1).val).toNat = t.val % 512 := by
    rw [coords7_1_val t, BitVec.toNat_ofNat]; omega
  show ![(BitVec.ofNat 32 ((grid7.coords t) 1).val).toNat, (0#32).toNat] = _
  rw [e]; rfl

theorem index7_1 (t : Fin cfg7.N) : win7_1.index t = ![0, t.val % 512] := by
  have e : (BitVec.ofNat 32 ((grid7.coords t) 1).val).toNat = t.val % 512 := by
    rw [coords7_1_val t, BitVec.toNat_ofNat]; omega
  show ![(0#32).toNat, (BitVec.ofNat 32 ((grid7.coords t) 1).val).toNat] = _
  rw [e]; rfl

theorem index7_2 (t : Fin cfg7.N) : win7_2.index t = ![t.val / 512, 0] := by
  have ht : t.val < 65536 := lt_of_lt_of_eq t.isLt N_7
  have e : (BitVec.ofNat 32 ((grid7.coords t) 0).val).toNat = t.val / 512 := by
    rw [coords7_0_val t, BitVec.toNat_ofNat]; omega
  show ![(BitVec.ofNat 32 ((grid7.coords t) 0).val).toNat, (0#32).toNat] = _
  rw [e]; rfl

/-- A row of the values block at point `t` is row `(t % 512) * 4096 + k` of the values array. -/
theorem vblk7_apply (c : Dev nD) (t : Fin cfg7.N) (k : Fin 4096) (h : Fin 64) :
    vblk7 V c t (ix2 k h) = valarr7 V c (ix2 ⟨(t.val % 512) * 4096 + k.val, by omega⟩ h) := by
  show V c (Pipeline.arrRef spec7 0) (((cfg7.win 0).blk t).view.emb (ix2 k h)) = _
  congr 1
  funext a; apply Fin.ext
  match a with
  | ⟨0, _⟩ => show win7_0.index t (0 : Fin 2) * 4096 + 1 * k.val = (t.val % 512) * 4096 + k.val; rw [index7_0]; show (t.val % 512) * 4096 + 1 * k.val = _; omega
  | ⟨1, _⟩ => show win7_0.index t (1 : Fin 2) * 64 + 1 * h.val = h.val; rw [index7_0]; show 0 * 64 + 1 * h.val = _; omega

/-- A word of the segment block at point `t` is word `(t % 512) * 4096 + k` of the segment array. -/
theorem sblk7_apply (c : Dev nD) (t : Fin cfg7.N) (k : Fin 4096) :
    sblk7 V c t (ix2 0 k) = segarr7 V c (ix2 0 ⟨(t.val % 512) * 4096 + k.val, by omega⟩) := by
  show V c (Pipeline.arrRef spec7 1) (((cfg7.win 1).blk t).view.emb (ix2 0 k)) = _
  congr 1
  funext a; apply Fin.ext
  match a with
  | ⟨0, _⟩ => show win7_1.index t (0 : Fin 2) * 1 + 1 * 0 = 0; rw [index7_1]; rfl
  | ⟨1, _⟩ => show win7_1.index t (1 : Fin 2) * 4096 + 1 * k.val = (t.val % 512) * 4096 + k.val; rw [index7_1]; show (t.val % 512) * 4096 + 1 * k.val = _; omega

/-! ## The accumulator, point by point -/

/-- The accumulator's reset value at point `n`: the accumulate payload over the zero block. -/
abbrev accReset7 (c : Dev nD) (n : ℕ) (hn : n < cfg7.N) : Vec F S2048x64 .f32 :=
  k7_pay2 (grid7.coords ⟨n, hn⟩) (sblk7 V c ⟨n, hn⟩) (k7_pay1 (F := F)) (vblk7 V c ⟨n, hn⟩)
/-- The accumulator's step at point `n`: the accumulate payload over what the point before left. -/
abbrev accStep7 (c : Dev nD) (n : ℕ) (hn : n < cfg7.N) (acc : Vec F S2048x64 .f32) : Vec F S2048x64 .f32 :=
  k7_pay2 (grid7.coords ⟨n, hn⟩) (sblk7 V c ⟨n, hn⟩) acc (vblk7 V c ⟨n, hn⟩)

/-- At the first point of a row of the grid the accumulator is reset, then accumulated into. -/
theorem acc7_reset (c : Dev nD) (n : ℕ) (hn : n < cfg7.N) (h0 : n % 512 = 0) :
    (outsAt7 V c n hn).2 = accReset7 V c n hn := by
  have h1 : ¬n % 512 = 511 := by omega
  rw [outsAt7_A V c ⟨n, hn⟩ h0 h1]; dsimp only
  exact sout7_A_0_eq c (grid7.coords ⟨n, hn⟩) (ms7_0 ⟨n, hn⟩) (hs7_0 ⟨n, hn⟩) (ms7_1 ⟨n, hn⟩) (hs7_1 ⟨n, hn⟩) (ms7_2 ⟨n, hn⟩) (hs7_2 ⟨n, hn⟩) scM7_0 (Memref.isWhole_whole _) ((hcond7_0 ⟨n, hn⟩).mpr h0) (fun h => h1 ((hcond7_1 ⟨n, hn⟩).mp h)) (iblk7 V c 0 ⟨n, hn⟩) (iblk7 V c 1 ⟨n, hn⟩)

/-- At every other point it is accumulated into over what the point before left. -/
theorem acc7_step (c : Dev nD) (n : ℕ) (hn : n + 1 < cfg7.N) (h0 : ¬(n + 1) % 512 = 0) :
    (outsAt7 V c (n + 1) hn).2 = accStep7 V c (n + 1) hn ((outsAt7 V c n (Nat.lt_of_succ_lt hn)).2) := by
  by_cases h1 : (n + 1) % 512 = 511
  · rw [outsAt7_C V c ⟨n + 1, hn⟩ h0 h1]; dsimp only
    exact sout7_C_0_eq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 V c n (Nat.lt_of_succ_lt hn)).2
  · rw [outsAt7_B V c ⟨n + 1, hn⟩ h0 h1]; dsimp only
    exact sout7_B_0_eq c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 V c n (Nat.lt_of_succ_lt hn)).2

/-- At a point that ends a row of the grid the output block holds what the accumulator holds. -/
theorem out7_last (c : Dev nD) (t : Fin cfg7.N) (h1 : t.val % 512 = 511) :
    (outsAt7 V c t.val t.isLt).1 = (outsAt7 V c t.val t.isLt).2 := by
  have h0 : ¬t.val % 512 = 0 := by omega
  rw [outsAt7_C V c t h0 h1]; dsimp only
  exact (out7_C_2_eq c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2).trans
    (sout7_C_0_eq c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2).symm

/-- So at any point the accumulator is the fold over its row of the grid up to that point. -/
theorem acc7_fold (c : Dev nD) (t : ℕ) (ht : t < cfg7.N) (h' : 512 * (t / 512) + t % 512 < cfg7.N) :
    (outsAt7 V c t ht).2 = Pipeline.accAt (accReset7 V c) (accStep7 V c) (512 * (t / 512)) (t % 512) h' :=
  Pipeline.eq_accAt_of_mod (fun n hn => (outsAt7 V c n hn).2) 512 (accReset7 V c) (accStep7 V c)
    (fun n hn h0 => acc7_reset V c n hn h0) (fun n hn h0 => acc7_step V c n hn h0) (by omega) t ht h'

end Region
end Cert.KernelIdeal.Hand
-- ==== Proof.KI.Scat7Pay.lean ====
import proofs.«406228_j54073638257180_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

variable {F : FTy → Type} [FloatOps F]

/-! # Region 7: the accumulate payload read at an element, at the ideal values

The body compares the global row numbers `(i 0) * 2048 + r` of its output block with the block of segment words,
turns the comparison into a 0/1 matrix, multiplies it with the block of values and adds the product to the
accumulator: element `(r, h)` of the result is the accumulator's plus the sum of the values' column `h` over the rows
whose segment word is the word of that global row. -/

/-- The 0/1 matrix the body builds from the block of segment words: the payload's lines up to the product's left operand. -/
def onehot7 (i : grid7.Coords) (v7 : Vec F S1x4096 .i32) : FVec F S2048x4096 .bf16 :=
  let arg0 : BitVec 32 := BitVec.ofNat 32 (i 0).val
  let base : BitVec 32 := Scalar.muli arg0 2048#32
  have v4 : IVec S2048x1 32 := iota .tc S2048x1 32 [0] iota_S2048x1_d0_w32
  have v5 : IVec S2048x1 32 := broadcast S2048x1 base
  have v6 : IVec S2048x1 32 := addi v5 v4
  have v8 : IVec S1x4096 32 := shapeCast S1x4096 v7 shapeCasts_S1x4096_S1x4096
  have v9 : IVec S2048x4096 32 := broadcastTo S2048x4096 v6 broadcasts_S2048x1_S2048x4096
  have v10 : IVec S2048x4096 32 := broadcastTo S2048x4096 v8 broadcasts_S1x4096_S2048x4096
  have v11 : IVec S2048x4096 1 := cmpi .eq v9 v10
  have v12 : IVec S2048x4096 32 := extui 32 v11 natLt_1_32
  have v13 : FVec F S2048x4096 .f32 := sitofp .f32 v12
  truncf .bf16 v13 bitsLt_bf16_f32

/-- The payload is the accumulator plus the product of that matrix with the block of values. -/
theorem k7_pay2_eq (i : grid7.Coords) (v7 : Vec F S1x4096 .i32) (v15 : Vec F S2048x64 .f32) (v16 : Vec F S4096x64 .bf16) :
    k7_pay2 i v7 v15 v16
      = addf v15 (matmul dot_S2048x4096_S4096x64_S2048x64_1_0_0_1_n_n none (onehot7 i v7) v16 (constant S2048x64 .f32 0x00000000#32)) := by
  unfold k7_pay2 onehot7
  simp only [shapeCast_self]

/-- The word of global row `(i 0) * 2048 + r`, as the body computes it. -/
theorem rowWord7 (a r : Nat) : IntOp.addi (Scalar.muli (BitVec.ofNat 32 a) 2048#32) (BitVec.ofNat 32 r) = BitVec.ofNat 32 (a * 2048 + r) := by
  show BitVec.ofNat 32 a * 2048#32 + BitVec.ofNat 32 r = _
  rw [show (2048#32 : BitVec 32) = BitVec.ofNat 32 2048 from rfl, ← BitVec.ofNat_mul, ← BitVec.ofNat_add]

/-- The row counter at row `r` is the word of `r`. -/
theorem iota7_apply (r : Fin 2048) : iota .tc S2048x1 32 [0] iota_S2048x1_d0_w32 (ix2 r (0 : Fin 1)) = BitVec.ofNat 32 r.val := by
  show BitVec.ofNat 32 (0 * 2048 + r.val) = _
  rw [Nat.zero_mul, Nat.zero_add]

/-- A one-bit comparison, widened to 32 bits and converted to a float at the ideal values, is 1 or 0. -/
theorem bitToIdeal7 (b : Bool) : ((((BitVec.ofBool b).setWidth 32).toInt : ℝ) : EReal) = if b then 1 else 0 := by
  cases b <;> simp

/-- The matrix's entry `(r, e)`: 1 if row `e`'s segment word is the word of global row `(i 0) * 2048 + r`, else 0. -/
theorem onehot7_apply (i : grid7.Coords) (x1 : Vec Ideal S1x4096 .i32) (r : Fin 2048) (e : Fin 4096) :
    onehot7 (F := Ideal) i x1 (ix2 r e) = if x1 (ix2 0 e) = BitVec.ofNat 32 ((i 0).val * 2048 + r.val) then 1 else 0 := by
  unfold onehot7
  simp only [shapeCast_self]
  rw [truncf_apply, sitofp_apply, extui_apply]
  have h9 : (broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e)
      = BitVec.ofNat 32 ((i 0).val * 2048 + r.val) := by
    rw [broadcastTo_apply _ _ (ix2 r e) (ix2 r (0 : Fin 1)) (fun a => by match a with | ⟨0, _⟩ => rfl | ⟨1, _⟩ => rfl)]
    show IntOp.addi (Scalar.muli (BitVec.ofNat 32 (i 0).val) 2048#32) (iota .tc S2048x1 32 [0] iota_S2048x1_d0_w32 (ix2 r (0 : Fin 1))) = _
    rw [iota7_apply, rowWord7]
  have h10 : (broadcastTo S2048x4096 x1 broadcasts_S1x4096_S2048x4096 : IVec S2048x4096 32) (ix2 r e) = x1 (ix2 (0 : Fin 1) e) :=
    broadcastTo_apply _ _ (ix2 r e) (ix2 (0 : Fin 1) e) (fun a => by match a with | ⟨0, _⟩ => rfl | ⟨1, _⟩ => rfl)
  show FloatOps.sitofp (F := Ideal) .f32 (BitVec.setWidth 32 (IntOp.cmpi .eq
    ((broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e))
    ((broadcastTo S2048x4096 x1 broadcasts_S1x4096_S2048x4096 : IVec S2048x4096 32) (ix2 r e)))) = _
  rw [h9, h10]
  show ((((BitVec.ofBool (BitVec.ofNat 32 ((i 0).val * 2048 + r.val) == x1 (ix2 (0 : Fin 1) e))).setWidth 32).toInt : ℝ) : EReal) = _
  rw [bitToIdeal7]
  by_cases hx : x1 (ix2 (0 : Fin 1) e) = BitVec.ofNat 32 ((i 0).val * 2048 + r.val)
  · rw [if_pos hx, if_pos (beq_iff_eq.mpr hx.symm)]
  · rw [if_neg hx, if_neg (fun hb => hx (beq_iff_eq.mp hb).symm)]

/-- The zero block the reset stores, read at an element. -/
theorem k7_pay1_apply (r : Fin 2048) (h : Fin 64) : k7_pay1 (F := Ideal) (ix2 r h) = 0 := by
  unfold k7_pay1
  simp only [shapeCast_self]
  show Ideal.ofBits .f32 0x00000000#32 = 0
  exact Ideal.ofBits_zero_f32

/-- THE ACCUMULATE PAYLOAD AT AN ELEMENT: the accumulator's element plus the sum, over the 4096 rows of the block of
    values, of the values' column `h` at the rows whose segment word is the word of global row `(i 0) * 2048 + r`. -/
theorem k7_pay2_apply (i : grid7.Coords) (x1 : Vec Ideal S1x4096 .i32) (xs0 : Vec Ideal S2048x64 .f32) (x0 : Vec Ideal S4096x64 .bf16)
    (r : Fin 2048) (h : Fin 64) :
    k7_pay2 (F := Ideal) i x1 xs0 x0 (ix2 r h)
      = xs0 (ix2 r h) + ∑ e : Fin 4096, (if x1 (ix2 0 e) = BitVec.ofNat 32 ((i 0).val * 2048 + r.val) then x0 (ix2 e h) else 0) := by
  rw [k7_pay2_eq, addf_apply]
  congr 1
  show FloatOps.matmul dot_S2048x4096_S4096x64_S2048x64_1_0_0_1_n_n none (onehot7 (F := Ideal) i x1) x0 (constant S2048x64 .f32 0x00000000#32) (ix2 r h) = _
  rw [Ideal.matmul_constant_zero_apply, ← Equiv.sum_comp (contrEquiv1 dot_S2048x4096_S4096x64_S2048x64_1_0_0_1_n_n 4096 rfl rfl).symm]
  refine Finset.sum_congr rfl fun e _ => ?_
  have ce := contrEquiv1_symm_val dot_S2048x4096_S4096x64_S2048x64_1_0_0_1_n_n 4096 rfl rfl e
  have hl : dot_S2048x4096_S4096x64_S2048x64_1_0_0_1_n_n.lhsIdx (ix2 r h) ((contrEquiv1 dot_S2048x4096_S4096x64_S2048x64_1_0_0_1_n_n 4096 rfl rfl).symm e) = ix2 r e := by
    funext ax; apply Fin.ext
    match ax with
    | ⟨0, _⟩ => simp [DotDims.lhsIdx, dot_S2048x4096_S4096x64_S2048x64_1_0_0_1_n_n]; rfl
    | ⟨1, _⟩ => simp [DotDims.lhsIdx, dot_S2048x4096_S4096x64_S2048x64_1_0_0_1_n_n]; exact ce
  have hr : dot_S2048x4096_S4096x64_S2048x64_1_0_0_1_n_n.rhsIdx (ix2 r h) ((contrEquiv1 dot_S2048x4096_S4096x64_S2048x64_1_0_0_1_n_n 4096 rfl rfl).symm e) = ix2 e h := by
    funext ax; apply Fin.ext
    match ax with
    | ⟨0, _⟩ => simp [DotDims.rhsIdx, dot_S2048x4096_S4096x64_S2048x64_1_0_0_1_n_n]; exact ce
    | ⟨1, _⟩ => simp [DotDims.rhsIdx, dot_S2048x4096_S4096x64_S2048x64_1_0_0_1_n_n]; rfl
  rw [hl, hr, onehot7_apply]
  by_cases hx : x1 (ix2 (0 : Fin 1) e) = BitVec.ofNat 32 ((i 0).val * 2048 + r.val)
  · rw [if_pos hx, if_pos hx, one_mul]
  · rw [if_neg hx, if_neg hx, zero_mul]

end Cert.KernelIdeal.Hand

end
-- ==== Proof.KI.Scat7Cover.lean ====
import proofs.«406228_j54073638257180_1_alg».proof.Proof.KI.Scat7Runs
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: where the output block is written back, and which rows of the result each write-back covers

The output window's block index is `(t / 512, 0)`: block `t / 512` of 2048 rows, all 64 columns. It is written back at the
last point of each row of the grid, `t ≡ 511 (mod 512)`; the 128 write-backs tile the 262144 rows of the result. -/

/-- The output window's block index at point `t`. -/
theorem blkidx7_2 (t : Fin cfg7.N) : (cfg7.win 2).index t = ![t.val / 512, 0] := by
  have ht : t.val < 65536 := lt_of_lt_of_eq t.isLt N_7
  funext a
  match a with
  | ⟨0, _⟩ =>
    show (BitVec.ofNat 32 ((grid7.coords t) 0).val).toNat = t.val / 512
    rw [coords7_0_val, BitVec.toNat_ofNat]; omega
  | ⟨1, _⟩ => rfl

/-- At the points ≡ 511 (mod 512) the pipeline writes the output block back: the last point, or the block index moves. -/
theorem flush7_2_of (t : Fin cfg7.N) (h : t.val % 512 = 511) : (cfg7.win 2).flush t = true := by
  have hN : grid7.N = 65536 := N_7
  have ht : t.val < 65536 := lt_of_lt_of_eq t.isLt N_7
  unfold Pipeline.Window.flush
  simp only [Bool.and_eq_true, Bool.or_eq_true, decide_eq_true_eq]
  refine ⟨trivial, ?_⟩
  by_cases hl : t.val + 1 = grid7.N
  · exact .inl hl
  · refine .inr ⟨by omega, fun he => ?_⟩
    have h0 := congrFun he 0
    rw [blkidx7_2, blkidx7_2] at h0
    have h1 : (t.val + 1) / 512 = t.val / 512 := h0
    omega

/-- An index of the result is in point `t`'s block iff its row is among the block's 2048 rows. -/
theorem mem_blk7_2 (t : Fin cfg7.N) (i : S262144x64.Idx) :
    i ∈ ((cfg7.win 2).blk t).view.set ↔ (t.val / 512) * 2048 ≤ (i 0).val ∧ (i 0).val < (t.val / 512) * 2048 + 2048 := by
  show i ∈ ((View.whole (Pipeline.arrRef spec7 2)).slice (win7_2.rect t)).set ↔ _
  rw [View.set_slice_whole, Rect.mem_set_unit]
  have e0 : win7_2.index t (0 : Fin 2) = t.val / 512 := congrFun (blkidx7_2 t) 0
  have e1 : win7_2.index t (1 : Fin 2) = 0 := congrFun (blkidx7_2 t) 1
  constructor
  · intro hi
    have b0 : win7_2.index t (0 : Fin 2) * 2048 ≤ (i 0).val ∧ (i 0).val < win7_2.index t (0 : Fin 2) * 2048 + 2048 := hi 0
    rw [e0] at b0
    exact b0
  · intro hi a
    match a with
    | ⟨0, _⟩ =>
      show win7_2.index t (0 : Fin 2) * 2048 ≤ (i 0).val ∧ (i 0).val < win7_2.index t (0 : Fin 2) * 2048 + 2048
      rw [e0]; exact hi
    | ⟨1, _⟩ =>
      show win7_2.index t (1 : Fin 2) * 64 ≤ (i 1).val ∧ (i 1).val < win7_2.index t (1 : Fin 2) * 64 + 64
      rw [e1]; have h64 : (i 1).val < 64 := (i 1).isLt; omega

/-- Every index of the result is in the block of a point that writes back: the last point of its block's row of the grid. -/
theorem cover7_2 (i : S262144x64.Idx) : ∃ t : Fin cfg7.N, (cfg7.win 2).flush t = true ∧ i ∈ ((cfg7.win 2).blk t).view.set := by
  have hi0 : (i 0).val < 262144 := (i 0).isLt
  refine ⟨⟨(i 0).val / 2048 * 512 + 511, by rw [show cfg7.N = 65536 from N_7]; omega⟩, flush7_2_of _ (by show ((i 0).val / 2048 * 512 + 511) % 512 = 511; omega), ?_⟩
  rw [mem_blk7_2]
  show ((i 0).val / 2048 * 512 + 511) / 512 * 2048 ≤ (i 0).val ∧ (i 0).val < ((i 0).val / 2048 * 512 + 511) / 512 * 2048 + 2048
  omega

end Cert.KernelIdeal.Hand

end
-- ==== Proof.KI.Scat7Value.lean ====
/- The value of region 7 at the ideal values: its output array ends holding the segment sum of the values array by the
   segment words. A step of the accumulator adds, at an element, the rows of the point's edge block whose segment word
   is the word of the element's node; the fold over a row of the grid is therefore the sum over all edge blocks, which
   is the sum over all edges; the last point of the row writes it back to the node block's rows, and the node blocks
   tile the output array. -/
import proofs.«406228_j54073638257180_1_alg».proof.Proof.KI.Scat7Acc
import proofs.«406228_j54073638257180_1_alg».proof.Proof.KI.Scat7Pay
import proofs.«406228_j54073638257180_1_alg».proof.Proof.KI.Scat7Cover

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section AtIdeal
variable (V : (c : Dev nD) → (b : Ref sig .tc) → Buf (Elt Ideal) ((c : Thread nD τ).loc b))

/-- Row `k` of edge block `s % 512`. -/
def edge7 (s : ℕ) (k : Fin 4096) : Fin 2097152 := ⟨(s % 512) * 4096 + k.val, by omega⟩

theorem edge7_add (q s : ℕ) (k : Fin 4096) : edge7 (512 * q + s) k = edge7 s k := by
  apply Fin.ext; show (512 * q + s) % 512 * 4096 + k.val = s % 512 * 4096 + k.val; omega

/-- What point `n` adds to element `y` of the accumulator: the rows of its edge block whose segment word is the
    word of the node the element's row stands for. -/
def addend7 (c : Dev nD) (n : ℕ) (y : S2048x64.Idx) : EReal :=
  ∑ k : Fin 4096, if segarr7 V c (ix2 0 (edge7 n k)) = BitVec.ofNat 32 ((n / 512 % 128) * 2048 + (y 0).val)
    then valarr7 V c (ix2 (edge7 n k) (y 1)) else 0

/-- A step adds the point's addend. -/
theorem accStep7_apply (c : Dev nD) (n : ℕ) (hn : n < cfg7.N) (acc : Vec Ideal S2048x64 .f32) (y : S2048x64.Idx) :
    accStep7 V c n hn acc y = acc y + addend7 V c n y := by
  rw [eq_ix2 y]
  refine (k7_pay2_apply (grid7.coords ⟨n, hn⟩) (sblk7 V c ⟨n, hn⟩) acc (vblk7 V c ⟨n, hn⟩) (y 0) (y 1)).trans ?_
  congr 1
  unfold addend7
  refine Finset.sum_congr rfl fun k _ => ?_
  rw [sblk7_apply V c ⟨n, hn⟩ k, vblk7_apply V c ⟨n, hn⟩ k (y 1), coords7_0_val ⟨n, hn⟩]
  rfl

/-- A reset leaves the point's addend. -/
theorem accReset7_apply (c : Dev nD) (n : ℕ) (hn : n < cfg7.N) (y : S2048x64.Idx) :
    accReset7 V c n hn y = 0 + addend7 V c n y := by
  have h := accStep7_apply V c n hn (k7_pay1 (F := Ideal)) y
  have hz : k7_pay1 (F := Ideal) y = 0 := by rw [eq_ix2 y]; exact k7_pay1_apply (y 0) (y 1)
  rw [hz] at h
  exact h

/-- The sum over all edges, block by block. -/
theorem sum_edges7 {M : Type*} [AddCommMonoid M] (f : Fin 2097152 → M) :
    ∑ e, f e = ∑ s ∈ Finset.range 512, ∑ k : Fin 4096, f (edge7 s k) := by
  rw [Finset.sum_range (fun s => ∑ k : Fin 4096, f (edge7 s k))]
  rw [← (finProdFinEquiv (m := 512) (n := 4096)).sum_comp f, Fintype.sum_prod_type]
  refine Finset.sum_congr rfl fun s _ => Finset.sum_congr rfl fun k _ => ?_
  congr 1
  apply Fin.ext
  show k.val + 4096 * s.val = s.val % 512 * 4096 + k.val
  have := s.isLt
  omega

/-- After the last point of row `q` of the grid the accumulator holds the segment sums of the nodes of block `q`. -/
theorem acc7_last (c : Dev nD) (t : Fin cfg7.N) (h1 : t.val % 512 = 511) (r : Fin 2048) (h : Fin 64) :
    (outsAt7 V c t.val t.isLt).2 (ix2 r h)
      = Spec.segsum (fun e => segarr7 V c (ix2 0 e)) (valarr7 V c) (ix2 (⟨(t.val / 512) * 2048 + r.val, by have := lt_of_lt_of_eq t.isLt N_7; omega⟩ : Fin 262144) h) := by
  have ht : t.val < 65536 := lt_of_lt_of_eq t.isLt N_7
  have h' : 512 * (t.val / 512) + t.val % 512 < cfg7.N := by rw [Nat.div_add_mod]; exact t.isLt
  rw [acc7_fold V c t.val t.isLt h']
  have e511 : ∀ (j : ℕ) (hj : j = 511) (hh : 512 * (t.val / 512) + j < cfg7.N),
      Pipeline.accAt (accReset7 V c) (accStep7 V c) (512 * (t.val / 512)) j hh (ix2 r h)
        = 0 + ∑ s ∈ Finset.range (j + 1), addend7 V c (512 * (t.val / 512) + s) (ix2 r h) := fun j hj hh =>
    Pipeline.accAt_add_apply (accReset7 V c) (accStep7 V c) (fun _ => 0) (addend7 V c) (512 * (t.val / 512)) 511
      (fun hn y => accReset7_apply V c _ hn y)
      (fun n hn acc y _ _ => accStep7_apply V c n hn acc y) j (by omega) hh (ix2 r h)
  rw [e511 (t.val % 512) h1 h', h1, zero_add, Spec.segsum_apply, sum_edges7]
  refine Finset.sum_congr rfl fun s hs => ?_
  have hs' : s < 512 := Finset.mem_range.1 hs
  unfold addend7
  refine Finset.sum_congr rfl fun k _ => ?_
  rw [edge7_add]
  have hq : (512 * (t.val / 512) + s) / 512 % 128 = t.val / 512 := by omega
  rw [hq]

/-- The segment sum of the arrays the region finds: what the output array ends holding. -/
abbrev G7 (c : Dev nD) : Vec Ideal S262144x64 .f32 := Spec.segsum (fun e => segarr7 V c (ix2 0 e)) (valarr7 V c)

/-- What a point that writes the output block back writes is its block of the segment sum. -/
theorem flushed7_2_eq (c : Dev nD) (t : Fin cfg7.N) (hf : (cfg7.win 2).flush t = true) :
    (dat7 V c).flushed 2 t = ((cfg7.win 2).blk t).view.read (Elt Ideal) (G7 V c) := by
  have h1 : t.val % 512 = 511 := by
    by_contra h; rw [noFlush7_2 t h] at hf; exact Bool.false_ne_true hf
  show (cfg7.win 2).cut (grid7.coords t) ((dat7 V c).after 2 t) = _
  rw [after7_2]
  funext j
  have hj0 : (j 0).val < 2048 := (j 0).isLt
  have hj1 : (j 1).val < 64 := (j 1).isLt
  have hx : (cfg7.win 2).xinj (grid7.coords t) j = ix2 (⟨(j 0).val, hj0⟩ : Fin 2048) (⟨(j 1).val, hj1⟩ : Fin 64) := by
    funext a; apply Fin.ext
    match a with
    | ⟨0, _⟩ => rfl
    | ⟨1, _⟩ => rfl
  rw [View.read_apply]
  refine Eq.trans ?_ (cast_eq _ _).symm
  show (outsAt7 V c t.val t.isLt).1 ((cfg7.win 2).xinj (grid7.coords t) j) = _
  rw [hx, out7_last V c t h1, acc7_last V c t h1]
  congr 1
  funext a; apply Fin.ext
  match a with
  | ⟨0, _⟩ =>
    show (t.val / 512) * 2048 + (j 0).val = win7_2.index t (0 : Fin 2) * 2048 + 1 * (j 0).val
    rw [index7_2]; show _ = (t.val / 512) * 2048 + 1 * (j 0).val; omega
  | ⟨1, _⟩ =>
    show (j 1).val = win7_2.index t (1 : Fin 2) * 64 + 1 * (j 1).val
    rw [index7_2]; show _ = 0 * 64 + 1 * (j 1).val; omega

/-- THE VALUE OF THE REGION: its output array ends holding the segment sum of the values array by the segment words. -/
theorem scat7_value (c : Dev nD) :
    (dat7 V c).arrAt 2 cfg7.N = Spec.segsum (fun e => segarr7 V c (ix2 0 e)) (valarr7 V c) :=
  (dat7 V c).arrAt_eq_of_cover 2 (G7 V c) (fun t hf => flushed7_2_eq V c t hf) (fun i => cover7_2 i)

end AtIdeal
end Cert.KernelIdeal.Hand
-- ==== Proof.KI.Scat8Pieces.lean ====
import proofs.«406228_j54073638257180_1_alg».proof.Proof.KI.Scat8
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the pieces the three runs found, read back as the skeleton's payloads

Each case's stores write the accumulator (and, in case C, the output block) whole, so what a case leaves is the payload
of its last store, its loads read at the contents the buffers were handed in at: generic in `F`. -/

/-- The offsets of every access of the body: the origin. -/
theorem hz8 : (![0, 0] : Fin 2 → Nat) = fun _ => 0 := funext fun a => by fin_cases a <;> rfl

/-- CASE A leaves in the accumulator the accumulate payload over the reset's payload (the zero block): the reset's store
    is read back by the load before the product. -/
theorem sout8_A_0_eq (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S4096x64 .bf16) (x1 : Vec F S1x4096 .i32) :
    sout8_A_0 c i arg2 harg2 arg3 harg3 arg4 harg4 arg5 harg5 hc0 hc1 x0 x1 = k8_pay2 i x1 (k8_pay1 (F := F)) x0 := by
  unfold sout8_A_0
  rw [View.read_writes_eq_canon _ _ _ (scover8_A_0 c i arg2 harg2 arg3 harg3 arg4 harg4 arg5 harg5 hc0 hc1 x0 x1)]
  unfold kernelRun8_A
  dsimp only
  sl_unfold_words
  rw [View.canon_cons_unit_zero (S := S2048x64) hz8]
  simp only [View.readAt_eq_ld, harg2.read_unread, harg3.read_unread, harg4.read_unread, harg5.read_unread, View.ld_unit_zero (S := S4096x64) hz8, View.ld_unit_zero (S := S1x4096) hz8, View.ld_unit_zero (S := S2048x64) hz8, View.readCov_unit_zero (S := S2048x64) _ hz8]

/-- CASE B leaves in the accumulator the accumulate payload over what it was handed in at. -/
theorem sout8_B_0_eq (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S4096x64 .bf16) (x1 : Vec F S1x4096 .i32) (xs0 : Vec F S2048x64 .f32) :
    sout8_B_0 c i arg2 harg2 arg3 harg3 arg4 harg4 arg5 harg5 hc0 hc1 x0 x1 xs0 = k8_pay2 i x1 xs0 x0 := by
  unfold sout8_B_0
  rw [View.read_writes_eq_canon _ _ _ (scover8_B_0 c i arg2 harg2 arg3 harg3 arg4 harg4 arg5 harg5 hc0 hc1 x0 x1 xs0)]
  unfold kernelRun8_B
  dsimp only
  sl_unfold_words
  rw [View.canon_unit_zero hz8]
  simp only [View.readAt_eq_ld, harg2.read_unread, harg3.read_unread, harg4.read_unread, harg5.read_unread, View.ld_unit_zero (S := S4096x64) hz8, View.ld_unit_zero (S := S1x4096) hz8, View.ld_unit_zero (S := S2048x64) hz8, View.readCov_unit_zero (S := S2048x64) _ hz8]

/-- CASE C leaves in the accumulator the same, -/
theorem sout8_C_0_eq (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) :
    sout8_C_0 c i arg2 harg2 arg3 harg3 arg4 harg4 arg5 harg5 hc0 hc1 x0 x1 xs0 = k8_pay2 i x1 xs0 x0 := by
  unfold sout8_C_0
  rw [View.read_writes_eq_canon _ _ _ (scover8_C_0 c i arg2 harg2 arg3 harg3 arg4 harg4 arg5 harg5 hc0 hc1 x0 x1 xs0)]
  unfold kernelRun8_C
  dsimp only
  sl_unfold_words
  rw [View.canon_unit_zero hz8]
  simp only [View.readAt_eq_ld, harg2.read_unread, harg3.read_unread, harg4.read_unread, harg5.read_unread, View.ld_unit_zero (S := S4096x64) hz8, View.ld_unit_zero (S := S1x4096) hz8, View.ld_unit_zero (S := S2048x64) hz8, View.readCov_unit_zero (S := S2048x64) _ hz8]

/-- and in the output block too: the updated accumulator, read back and stored whole. -/
theorem out8_C_2_eq (c : Dev nD) (i : grid8.Coords) (arg2 : Memref sig .tc .vmem S4096x64 .bf16) (harg2 : arg2.IsWhole) (arg3 : Memref sig .tc .vmem S1x4096 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S4096x64 .bf16) (x1 : Vec F S1x4096 .i32) (xs0 : Vec F S2048x64 .f32) :
    out8_C_2 c i arg2 harg2 arg3 harg3 arg4 harg4 arg5 harg5 hc0 hc1 x0 x1 xs0 = k8_pay2 i x1 xs0 x0 := by
  unfold out8_C_2
  rw [View.read_writes_eq_canon _ _ _ (cover8_C_2 c i arg2 harg2 arg3 harg3 arg4 harg4 arg5 harg5 hc0 hc1 x0 x1 xs0)]
  unfold kernelRun8_C
  dsimp only
  sl_unfold_words
  rw [View.canon_unit_zero hz8]
  simp only [View.readAt_eq_ld, harg2.read_unread, harg3.read_unread, harg4.read_unread, harg5.read_unread, View.ld_unit_zero (S := S4096x64) hz8, View.ld_unit_zero (S := S1x4096) hz8, View.ld_unit_zero (S := S2048x64) hz8, View.readCov_unit_zero (S := S2048x64) _ hz8]

end Cert.KernelIdeal.Hand

end
-- ==== Proof.KI.Scat8Acc.lean ====
/- The accumulator of region 8 point by point: the blocks the body reads as rows of the arrays the region finds, and
   the accumulator after a point as the fold, over the point's row of the grid, of the accumulate payload. -/
import proofs.«406228_j54073638257180_1_alg».proof.Proof.KI.Scat8Pieces
import proofs.«406228_j54073638257180_1_alg».proof.Proof.Spec.SegSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Region
variable {F : FTy → Type} [FloatOps F]
variable (V : (c : Dev nD) → (b : Ref sig .tc) → Buf (Elt F) ((c : Thread nD τ).loc b))

/-- The values array (one row per edge) as the region finds it. -/
abbrev valarr8 (c : Dev nD) : Vec F S2097152x64 .bf16 := V c (Pipeline.arrRef spec8 0)
/-- The segment words (one per edge) as the region finds them. -/
abbrev segarr8 (c : Dev nD) : Vec F S1x2097152 .i32 := V c (Pipeline.arrRef spec8 1)
/-- The block of 4096 value rows the body reads at point `t`. -/
abbrev vblk8 (c : Dev nD) (t : Fin cfg8.N) : Vec F S4096x64 .bf16 := iblk8 V c 0 t
/-- The block of 4096 segment words the body reads at point `t`. -/
abbrev sblk8 (c : Dev nD) (t : Fin cfg8.N) : Vec F S1x4096 .i32 := iblk8 V c 1 t

theorem N8 : cfg8.N = 65536 := N_8

/-- The values window's block index at point `t`: the edge block `t % 512`. -/
theorem index8_0 (t : Fin cfg8.N) : win8_0.index t = ![t.val % 512, 0] := by
  have e : (BitVec.ofNat 32 ((grid8.coords t) 1).val).toNat = t.val % 512 := by
    rw [coords8_1_val t, BitVec.toNat_ofNat]; omega
  show ![(BitVec.ofNat 32 ((grid8.coords t) 1).val).toNat, (0#32).toNat] = _
  rw [e]; rfl

theorem index8_1 (t : Fin cfg8.N) : win8_1.index t = ![0, t.val % 512] := by
  have e : (BitVec.ofNat 32 ((grid8.coords t) 1).val).toNat = t.val % 512 := by
    rw [coords8_1_val t, BitVec.toNat_ofNat]; omega
  show ![(0#32).toNat, (BitVec.ofNat 32 ((grid8.coords t) 1).val).toNat] = _
  rw [e]; rfl

theorem index8_2 (t : Fin cfg8.N) : win8_2.index t = ![t.val / 512, 0] := by
  have ht : t.val < 65536 := lt_of_lt_of_eq t.isLt N_8
  have e : (BitVec.ofNat 32 ((grid8.coords t) 0).val).toNat = t.val / 512 := by
    rw [coords8_0_val t, BitVec.toNat_ofNat]; omega
  show ![(BitVec.ofNat 32 ((grid8.coords t) 0).val).toNat, (0#32).toNat] = _
  rw [e]; rfl

/-- A row of the values block at point `t` is row `(t % 512) * 4096 + k` of the values array. -/
theorem vblk8_apply (c : Dev nD) (t : Fin cfg8.N) (k : Fin 4096) (h : Fin 64) :
    vblk8 V c t (ix2 k h) = valarr8 V c (ix2 ⟨(t.val % 512) * 4096 + k.val, by omega⟩ h) := by
  show V c (Pipeline.arrRef spec8 0) (((cfg8.win 0).blk t).view.emb (ix2 k h)) = _
  congr 1
  funext a; apply Fin.ext
  match a with
  | ⟨0, _⟩ => show win8_0.index t (0 : Fin 2) * 4096 + 1 * k.val = (t.val % 512) * 4096 + k.val; rw [index8_0]; show (t.val % 512) * 4096 + 1 * k.val = _; omega
  | ⟨1, _⟩ => show win8_0.index t (1 : Fin 2) * 64 + 1 * h.val = h.val; rw [index8_0]; show 0 * 64 + 1 * h.val = _; omega

/-- A word of the segment block at point `t` is word `(t % 512) * 4096 + k` of the segment array. -/
theorem sblk8_apply (c : Dev nD) (t : Fin cfg8.N) (k : Fin 4096) :
    sblk8 V c t (ix2 0 k) = segarr8 V c (ix2 0 ⟨(t.val % 512) * 4096 + k.val, by omega⟩) := by
  show V c (Pipeline.arrRef spec8 1) (((cfg8.win 1).blk t).view.emb (ix2 0 k)) = _
  congr 1
  funext a; apply Fin.ext
  match a with
  | ⟨0, _⟩ => show win8_1.index t (0 : Fin 2) * 1 + 1 * 0 = 0; rw [index8_1]; rfl
  | ⟨1, _⟩ => show win8_1.index t (1 : Fin 2) * 4096 + 1 * k.val = (t.val % 512) * 4096 + k.val; rw [index8_1]; show (t.val % 512) * 4096 + 1 * k.val = _; omega

/-! ## The accumulator, point by point -/

/-- The accumulator's reset value at point `n`: the accumulate payload over the zero block. -/
abbrev accReset8 (c : Dev nD) (n : ℕ) (hn : n < cfg8.N) : Vec F S2048x64 .f32 :=
  k8_pay2 (grid8.coords ⟨n, hn⟩) (sblk8 V c ⟨n, hn⟩) (k8_pay1 (F := F)) (vblk8 V c ⟨n, hn⟩)
/-- The accumulator's step at point `n`: the accumulate payload over what the point before left. -/
abbrev accStep8 (c : Dev nD) (n : ℕ) (hn : n < cfg8.N) (acc : Vec F S2048x64 .f32) : Vec F S2048x64 .f32 :=
  k8_pay2 (grid8.coords ⟨n, hn⟩) (sblk8 V c ⟨n, hn⟩) acc (vblk8 V c ⟨n, hn⟩)

/-- At the first point of a row of the grid the accumulator is reset, then accumulated into. -/
theorem acc8_reset (c : Dev nD) (n : ℕ) (hn : n < cfg8.N) (h0 : n % 512 = 0) :
    (outsAt8 V c n hn).2 = accReset8 V c n hn := by
  have h1 : ¬n % 512 = 511 := by omega
  rw [outsAt8_A V c ⟨n, hn⟩ h0 h1]; dsimp only
  exact sout8_A_0_eq c (grid8.coords ⟨n, hn⟩) (ms8_0 ⟨n, hn⟩) (hs8_0 ⟨n, hn⟩) (ms8_1 ⟨n, hn⟩) (hs8_1 ⟨n, hn⟩) (ms8_2 ⟨n, hn⟩) (hs8_2 ⟨n, hn⟩) scM8_0 (Memref.isWhole_whole _) ((hcond8_0 ⟨n, hn⟩).mpr h0) (fun h => h1 ((hcond8_1 ⟨n, hn⟩).mp h)) (iblk8 V c 0 ⟨n, hn⟩) (iblk8 V c 1 ⟨n, hn⟩)

/-- At every other point it is accumulated into over what the point before left. -/
theorem acc8_step (c : Dev nD) (n : ℕ) (hn : n + 1 < cfg8.N) (h0 : ¬(n + 1) % 512 = 0) :
    (outsAt8 V c (n + 1) hn).2 = accStep8 V c (n + 1) hn ((outsAt8 V c n (Nat.lt_of_succ_lt hn)).2) := by
  by_cases h1 : (n + 1) % 512 = 511
  · rw [outsAt8_C V c ⟨n + 1, hn⟩ h0 h1]; dsimp only
    exact sout8_C_0_eq c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 V c n (Nat.lt_of_succ_lt hn)).2
  · rw [outsAt8_B V c ⟨n + 1, hn⟩ h0 h1]; dsimp only
    exact sout8_B_0_eq c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 V c n (Nat.lt_of_succ_lt hn)).2

/-- At a point that ends a row of the grid the output block holds what the accumulator holds. -/
theorem out8_last (c : Dev nD) (t : Fin cfg8.N) (h1 : t.val % 512 = 511) :
    (outsAt8 V c t.val t.isLt).1 = (outsAt8 V c t.val t.isLt).2 := by
  have h0 : ¬t.val % 512 = 0 := by omega
  rw [outsAt8_C V c t h0 h1]; dsimp only
  exact (out8_C_2_eq c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2).trans
    (sout8_C_0_eq c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2).symm

/-- So at any point the accumulator is the fold over its row of the grid up to that point. -/
theorem acc8_fold (c : Dev nD) (t : ℕ) (ht : t < cfg8.N) (h' : 512 * (t / 512) + t % 512 < cfg8.N) :
    (outsAt8 V c t ht).2 = Pipeline.accAt (accReset8 V c) (accStep8 V c) (512 * (t / 512)) (t % 512) h' :=
  Pipeline.eq_accAt_of_mod (fun n hn => (outsAt8 V c n hn).2) 512 (accReset8 V c) (accStep8 V c)
    (fun n hn h0 => acc8_reset V c n hn h0) (fun n hn h0 => acc8_step V c n hn h0) (by omega) t ht h'

end Region
end Cert.KernelIdeal.Hand
-- ==== Proof.KI.Scat8Pay.lean ====
import proofs.«406228_j54073638257180_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

variable {F : FTy → Type} [FloatOps F]

/-! # Region 8: the accumulate payload read at an element, at the ideal values

The body compares the global row numbers `(i 0) * 2048 + r` of its output block with the block of segment words,
turns the comparison into a 0/1 matrix, multiplies it with the block of values and adds the product to the
accumulator: element `(r, h)` of the result is the accumulator's plus the sum of the values' column `h` over the rows
whose segment word is the word of that global row. -/

/-- The 0/1 matrix the body builds from the block of segment words: the payload's lines up to the product's left operand. -/
def onehot8 (i : grid8.Coords) (v7 : Vec F S1x4096 .i32) : FVec F S2048x4096 .bf16 :=
  let arg0 : BitVec 32 := BitVec.ofNat 32 (i 0).val
  let base : BitVec 32 := Scalar.muli arg0 2048#32
  have v4 : IVec S2048x1 32 := iota .tc S2048x1 32 [0] iota_S2048x1_d0_w32
  have v5 : IVec S2048x1 32 := broadcast S2048x1 base
  have v6 : IVec S2048x1 32 := addi v5 v4
  have v8 : IVec S1x4096 32 := shapeCast S1x4096 v7 shapeCasts_S1x4096_S1x4096
  have v9 : IVec S2048x4096 32 := broadcastTo S2048x4096 v6 broadcasts_S2048x1_S2048x4096
  have v10 : IVec S2048x4096 32 := broadcastTo S2048x4096 v8 broadcasts_S1x4096_S2048x4096
  have v11 : IVec S2048x4096 1 := cmpi .eq v9 v10
  have v12 : IVec S2048x4096 32 := extui 32 v11 natLt_1_32
  have v13 : FVec F S2048x4096 .f32 := sitofp .f32 v12
  truncf .bf16 v13 bitsLt_bf16_f32

/-- The payload is the accumulator plus the product of that matrix with the block of values. -/
theorem k8_pay2_eq (i : grid8.Coords) (v7 : Vec F S1x4096 .i32) (v15 : Vec F S2048x64 .f32) (v16 : Vec F S4096x64 .bf16) :
    k8_pay2 i v7 v15 v16
      = addf v15 (matmul dot_S2048x4096_S4096x64_S2048x64_1_0_0_1_n_n none (onehot8 i v7) v16 (constant S2048x64 .f32 0x00000000#32)) := by
  unfold k8_pay2 onehot8
  simp only [shapeCast_self]

/-- The word of global row `(i 0) * 2048 + r`, as the body computes it. -/
theorem rowWord8 (a r : Nat) : IntOp.addi (Scalar.muli (BitVec.ofNat 32 a) 2048#32) (BitVec.ofNat 32 r) = BitVec.ofNat 32 (a * 2048 + r) := by
  show BitVec.ofNat 32 a * 2048#32 + BitVec.ofNat 32 r = _
  rw [show (2048#32 : BitVec 32) = BitVec.ofNat 32 2048 from rfl, ← BitVec.ofNat_mul, ← BitVec.ofNat_add]

/-- The row counter at row `r` is the word of `r`. -/
theorem iota8_apply (r : Fin 2048) : iota .tc S2048x1 32 [0] iota_S2048x1_d0_w32 (ix2 r (0 : Fin 1)) = BitVec.ofNat 32 r.val := by
  show BitVec.ofNat 32 (0 * 2048 + r.val) = _
  rw [Nat.zero_mul, Nat.zero_add]

/-- A one-bit comparison, widened to 32 bits and converted to a float at the ideal values, is 1 or 0. -/
theorem bitToIdeal8 (b : Bool) : ((((BitVec.ofBool b).setWidth 32).toInt : ℝ) : EReal) = if b then 1 else 0 := by
  cases b <;> simp

/-- The matrix's entry `(r, e)`: 1 if row `e`'s segment word is the word of global row `(i 0) * 2048 + r`, else 0. -/
theorem onehot8_apply (i : grid8.Coords) (x1 : Vec Ideal S1x4096 .i32) (r : Fin 2048) (e : Fin 4096) :
    onehot8 (F := Ideal) i x1 (ix2 r e) = if x1 (ix2 0 e) = BitVec.ofNat 32 ((i 0).val * 2048 + r.val) then 1 else 0 := by
  unfold onehot8
  simp only [shapeCast_self]
  rw [truncf_apply, sitofp_apply, extui_apply]
  have h9 : (broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e)
      = BitVec.ofNat 32 ((i 0).val * 2048 + r.val) := by
    rw [broadcastTo_apply _ _ (ix2 r e) (ix2 r (0 : Fin 1)) (fun a => by match a with | ⟨0, _⟩ => rfl | ⟨1, _⟩ => rfl)]
    show IntOp.addi (Scalar.muli (BitVec.ofNat 32 (i 0).val) 2048#32) (iota .tc S2048x1 32 [0] iota_S2048x1_d0_w32 (ix2 r (0 : Fin 1))) = _
    rw [iota8_apply, rowWord8]
  have h10 : (broadcastTo S2048x4096 x1 broadcasts_S1x4096_S2048x4096 : IVec S2048x4096 32) (ix2 r e) = x1 (ix2 (0 : Fin 1) e) :=
    broadcastTo_apply _ _ (ix2 r e) (ix2 (0 : Fin 1) e) (fun a => by match a with | ⟨0, _⟩ => rfl | ⟨1, _⟩ => rfl)
  show FloatOps.sitofp (F := Ideal) .f32 (BitVec.setWidth 32 (IntOp.cmpi .eq
    ((broadcastTo S2048x4096 (addi (broadcast S2048x1 (Scalar.muli (BitVec.ofNat 32 (i 0).val) 2048#32)) (iota .tc S2048x1 32 [0] iota_S2048x1_d0_w32)) broadcasts_S2048x1_S2048x4096 : IVec S2048x4096 32) (ix2 r e))
    ((broadcastTo S2048x4096 x1 broadcasts_S1x4096_S2048x4096 : IVec S2048x4096 32) (ix2 r e)))) = _
  rw [h9, h10]
  show ((((BitVec.ofBool (BitVec.ofNat 32 ((i 0).val * 2048 + r.val) == x1 (ix2 (0 : Fin 1) e))).setWidth 32).toInt : ℝ) : EReal) = _
  rw [bitToIdeal8]
  by_cases hx : x1 (ix2 (0 : Fin 1) e) = BitVec.ofNat 32 ((i 0).val * 2048 + r.val)
  · rw [if_pos hx, if_pos (beq_iff_eq.mpr hx.symm)]
  · rw [if_neg hx, if_neg (fun hb => hx (beq_iff_eq.mp hb).symm)]

/-- The zero block the reset stores, read at an element. -/
theorem k8_pay1_apply (r : Fin 2048) (h : Fin 64) : k8_pay1 (F := Ideal) (ix2 r h) = 0 := by
  unfold k8_pay1
  simp only [shapeCast_self]
  show Ideal.ofBits .f32 0x00000000#32 = 0
  exact Ideal.ofBits_zero_f32

/-- THE ACCUMULATE PAYLOAD AT AN ELEMENT: the accumulator's element plus the sum, over the 4096 rows of the block of
    values, of the values' column `h` at the rows whose segment word is the word of global row `(i 0) * 2048 + r`. -/
theorem k8_pay2_apply (i : grid8.Coords) (x1 : Vec Ideal S1x4096 .i32) (xs0 : Vec Ideal S2048x64 .f32) (x0 : Vec Ideal S4096x64 .bf16)
    (r : Fin 2048) (h : Fin 64) :
    k8_pay2 (F := Ideal) i x1 xs0 x0 (ix2 r h)
      = xs0 (ix2 r h) + ∑ e : Fin 4096, (if x1 (ix2 0 e) = BitVec.ofNat 32 ((i 0).val * 2048 + r.val) then x0 (ix2 e h) else 0) := by
  rw [k8_pay2_eq, addf_apply]
  congr 1
  show FloatOps.matmul dot_S2048x4096_S4096x64_S2048x64_1_0_0_1_n_n none (onehot8 (F := Ideal) i x1) x0 (constant S2048x64 .f32 0x00000000#32) (ix2 r h) = _
  rw [Ideal.matmul_constant_zero_apply, ← Equiv.sum_comp (contrEquiv1 dot_S2048x4096_S4096x64_S2048x64_1_0_0_1_n_n 4096 rfl rfl).symm]
  refine Finset.sum_congr rfl fun e _ => ?_
  have ce := contrEquiv1_symm_val dot_S2048x4096_S4096x64_S2048x64_1_0_0_1_n_n 4096 rfl rfl e
  have hl : dot_S2048x4096_S4096x64_S2048x64_1_0_0_1_n_n.lhsIdx (ix2 r h) ((contrEquiv1 dot_S2048x4096_S4096x64_S2048x64_1_0_0_1_n_n 4096 rfl rfl).symm e) = ix2 r e := by
    funext ax; apply Fin.ext
    match ax with
    | ⟨0, _⟩ => simp [DotDims.lhsIdx, dot_S2048x4096_S4096x64_S2048x64_1_0_0_1_n_n]; rfl
    | ⟨1, _⟩ => simp [DotDims.lhsIdx, dot_S2048x4096_S4096x64_S2048x64_1_0_0_1_n_n]; exact ce
  have hr : dot_S2048x4096_S4096x64_S2048x64_1_0_0_1_n_n.rhsIdx (ix2 r h) ((contrEquiv1 dot_S2048x4096_S4096x64_S2048x64_1_0_0_1_n_n 4096 rfl rfl).symm e) = ix2 e h := by
    funext ax; apply Fin.ext
    match ax with
    | ⟨0, _⟩ => simp [DotDims.rhsIdx, dot_S2048x4096_S4096x64_S2048x64_1_0_0_1_n_n]; exact ce
    | ⟨1, _⟩ => simp [DotDims.rhsIdx, dot_S2048x4096_S4096x64_S2048x64_1_0_0_1_n_n]; rfl
  rw [hl, hr, onehot8_apply]
  by_cases hx : x1 (ix2 (0 : Fin 1) e) = BitVec.ofNat 32 ((i 0).val * 2048 + r.val)
  · rw [if_pos hx, if_pos hx, one_mul]
  · rw [if_neg hx, if_neg hx, zero_mul]

end Cert.KernelIdeal.Hand

end
-- ==== Proof.KI.Scat8Cover.lean ====
import proofs.«406228_j54073638257180_1_alg».proof.Proof.KI.Scat8Runs
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: where the output block is written back, and which rows of the result each write-back covers

The output window's block index is `(t / 512, 0)`: block `t / 512` of 2048 rows, all 64 columns. It is written back at the
last point of each row of the grid, `t ≡ 511 (mod 512)`; the 128 write-backs tile the 262144 rows of the result. -/

/-- The output window's block index at point `t`. -/
theorem blkidx8_2 (t : Fin cfg8.N) : (cfg8.win 2).index t = ![t.val / 512, 0] := by
  have ht : t.val < 65536 := lt_of_lt_of_eq t.isLt N_8
  funext a
  match a with
  | ⟨0, _⟩ =>
    show (BitVec.ofNat 32 ((grid8.coords t) 0).val).toNat = t.val / 512
    rw [coords8_0_val, BitVec.toNat_ofNat]; omega
  | ⟨1, _⟩ => rfl

/-- At the points ≡ 511 (mod 512) the pipeline writes the output block back: the last point, or the block index moves. -/
theorem flush8_2_of (t : Fin cfg8.N) (h : t.val % 512 = 511) : (cfg8.win 2).flush t = true := by
  have hN : grid8.N = 65536 := N_8
  have ht : t.val < 65536 := lt_of_lt_of_eq t.isLt N_8
  unfold Pipeline.Window.flush
  simp only [Bool.and_eq_true, Bool.or_eq_true, decide_eq_true_eq]
  refine ⟨trivial, ?_⟩
  by_cases hl : t.val + 1 = grid8.N
  · exact .inl hl
  · refine .inr ⟨by omega, fun he => ?_⟩
    have h0 := congrFun he 0
    rw [blkidx8_2, blkidx8_2] at h0
    have h1 : (t.val + 1) / 512 = t.val / 512 := h0
    omega

/-- An index of the result is in point `t`'s block iff its row is among the block's 2048 rows. -/
theorem mem_blk8_2 (t : Fin cfg8.N) (i : S262144x64.Idx) :
    i ∈ ((cfg8.win 2).blk t).view.set ↔ (t.val / 512) * 2048 ≤ (i 0).val ∧ (i 0).val < (t.val / 512) * 2048 + 2048 := by
  show i ∈ ((View.whole (Pipeline.arrRef spec8 2)).slice (win8_2.rect t)).set ↔ _
  rw [View.set_slice_whole, Rect.mem_set_unit]
  have e0 : win8_2.index t (0 : Fin 2) = t.val / 512 := congrFun (blkidx8_2 t) 0
  have e1 : win8_2.index t (1 : Fin 2) = 0 := congrFun (blkidx8_2 t) 1
  constructor
  · intro hi
    have b0 : win8_2.index t (0 : Fin 2) * 2048 ≤ (i 0).val ∧ (i 0).val < win8_2.index t (0 : Fin 2) * 2048 + 2048 := hi 0
    rw [e0] at b0
    exact b0
  · intro hi a
    match a with
    | ⟨0, _⟩ =>
      show win8_2.index t (0 : Fin 2) * 2048 ≤ (i 0).val ∧ (i 0).val < win8_2.index t (0 : Fin 2) * 2048 + 2048
      rw [e0]; exact hi
    | ⟨1, _⟩ =>
      show win8_2.index t (1 : Fin 2) * 64 ≤ (i 1).val ∧ (i 1).val < win8_2.index t (1 : Fin 2) * 64 + 64
      rw [e1]; have h64 : (i 1).val < 64 := (i 1).isLt; omega

/-- Every index of the result is in the block of a point that writes back: the last point of its block's row of the grid. -/
theorem cover8_2 (i : S262144x64.Idx) : ∃ t : Fin cfg8.N, (cfg8.win 2).flush t = true ∧ i ∈ ((cfg8.win 2).blk t).view.set := by
  have hi0 : (i 0).val < 262144 := (i 0).isLt
  refine ⟨⟨(i 0).val / 2048 * 512 + 511, by rw [show cfg8.N = 65536 from N_8]; omega⟩, flush8_2_of _ (by show ((i 0).val / 2048 * 512 + 511) % 512 = 511; omega), ?_⟩
  rw [mem_blk8_2]
  show ((i 0).val / 2048 * 512 + 511) / 512 * 2048 ≤ (i 0).val ∧ (i 0).val < ((i 0).val / 2048 * 512 + 511) / 512 * 2048 + 2048
  omega

end Cert.KernelIdeal.Hand

end
-- ==== Proof.KI.Scat8Value.lean ====
/- The value of region 8 at the ideal values: its output array ends holding the segment sum of the values array by the
   segment words. A step of the accumulator adds, at an element, the rows of the point's edge block whose segment word
   is the word of the element's node; the fold over a row of the grid is therefore the sum over all edge blocks, which
   is the sum over all edges; the last point of the row writes it back to the node block's rows, and the node blocks
   tile the output array. -/
import proofs.«406228_j54073638257180_1_alg».proof.Proof.KI.Scat8Acc
import proofs.«406228_j54073638257180_1_alg».proof.Proof.KI.Scat8Pay
import proofs.«406228_j54073638257180_1_alg».proof.Proof.KI.Scat8Cover

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section AtIdeal
variable (V : (c : Dev nD) → (b : Ref sig .tc) → Buf (Elt Ideal) ((c : Thread nD τ).loc b))

/-- Row `k` of edge block `s % 512`. -/
def edge8 (s : ℕ) (k : Fin 4096) : Fin 2097152 := ⟨(s % 512) * 4096 + k.val, by omega⟩

theorem edge8_add (q s : ℕ) (k : Fin 4096) : edge8 (512 * q + s) k = edge8 s k := by
  apply Fin.ext; show (512 * q + s) % 512 * 4096 + k.val = s % 512 * 4096 + k.val; omega

/-- What point `n` adds to element `y` of the accumulator: the rows of its edge block whose segment word is the
    word of the node the element's row stands for. -/
def addend8 (c : Dev nD) (n : ℕ) (y : S2048x64.Idx) : EReal :=
  ∑ k : Fin 4096, if segarr8 V c (ix2 0 (edge8 n k)) = BitVec.ofNat 32 ((n / 512 % 128) * 2048 + (y 0).val)
    then valarr8 V c (ix2 (edge8 n k) (y 1)) else 0

/-- A step adds the point's addend. -/
theorem accStep8_apply (c : Dev nD) (n : ℕ) (hn : n < cfg8.N) (acc : Vec Ideal S2048x64 .f32) (y : S2048x64.Idx) :
    accStep8 V c n hn acc y = acc y + addend8 V c n y := by
  rw [eq_ix2 y]
  refine (k8_pay2_apply (grid8.coords ⟨n, hn⟩) (sblk8 V c ⟨n, hn⟩) acc (vblk8 V c ⟨n, hn⟩) (y 0) (y 1)).trans ?_
  congr 1
  unfold addend8
  refine Finset.sum_congr rfl fun k _ => ?_
  rw [sblk8_apply V c ⟨n, hn⟩ k, vblk8_apply V c ⟨n, hn⟩ k (y 1), coords8_0_val ⟨n, hn⟩]
  rfl

/-- A reset leaves the point's addend. -/
theorem accReset8_apply (c : Dev nD) (n : ℕ) (hn : n < cfg8.N) (y : S2048x64.Idx) :
    accReset8 V c n hn y = 0 + addend8 V c n y := by
  have h := accStep8_apply V c n hn (k8_pay1 (F := Ideal)) y
  have hz : k8_pay1 (F := Ideal) y = 0 := by rw [eq_ix2 y]; exact k8_pay1_apply (y 0) (y 1)
  rw [hz] at h
  exact h

/-- The sum over all edges, block by block. -/
theorem sum_edges8 {M : Type*} [AddCommMonoid M] (f : Fin 2097152 → M) :
    ∑ e, f e = ∑ s ∈ Finset.range 512, ∑ k : Fin 4096, f (edge8 s k) := by
  rw [Finset.sum_range (fun s => ∑ k : Fin 4096, f (edge8 s k))]
  rw [← (finProdFinEquiv (m := 512) (n := 4096)).sum_comp f, Fintype.sum_prod_type]
  refine Finset.sum_congr rfl fun s _ => Finset.sum_congr rfl fun k _ => ?_
  congr 1
  apply Fin.ext
  show k.val + 4096 * s.val = s.val % 512 * 4096 + k.val
  have := s.isLt
  omega

/-- After the last point of row `q` of the grid the accumulator holds the segment sums of the nodes of block `q`. -/
theorem acc8_last (c : Dev nD) (t : Fin cfg8.N) (h1 : t.val % 512 = 511) (r : Fin 2048) (h : Fin 64) :
    (outsAt8 V c t.val t.isLt).2 (ix2 r h)
      = Spec.segsum (fun e => segarr8 V c (ix2 0 e)) (valarr8 V c) (ix2 (⟨(t.val / 512) * 2048 + r.val, by have := lt_of_lt_of_eq t.isLt N_8; omega⟩ : Fin 262144) h) := by
  have ht : t.val < 65536 := lt_of_lt_of_eq t.isLt N_8
  have h' : 512 * (t.val / 512) + t.val % 512 < cfg8.N := by rw [Nat.div_add_mod]; exact t.isLt
  rw [acc8_fold V c t.val t.isLt h']
  have e511 : ∀ (j : ℕ) (hj : j = 511) (hh : 512 * (t.val / 512) + j < cfg8.N),
      Pipeline.accAt (accReset8 V c) (accStep8 V c) (512 * (t.val / 512)) j hh (ix2 r h)
        = 0 + ∑ s ∈ Finset.range (j + 1), addend8 V c (512 * (t.val / 512) + s) (ix2 r h) := fun j hj hh =>
    Pipeline.accAt_add_apply (accReset8 V c) (accStep8 V c) (fun _ => 0) (addend8 V c) (512 * (t.val / 512)) 511
      (fun hn y => accReset8_apply V c _ hn y)
      (fun n hn acc y _ _ => accStep8_apply V c n hn acc y) j (by omega) hh (ix2 r h)
  rw [e511 (t.val % 512) h1 h', h1, zero_add, Spec.segsum_apply, sum_edges8]
  refine Finset.sum_congr rfl fun s hs => ?_
  have hs' : s < 512 := Finset.mem_range.1 hs
  unfold addend8
  refine Finset.sum_congr rfl fun k _ => ?_
  rw [edge8_add]
  have hq : (512 * (t.val / 512) + s) / 512 % 128 = t.val / 512 := by omega
  rw [hq]

/-- The segment sum of the arrays the region finds: what the output array ends holding. -/
abbrev G8 (c : Dev nD) : Vec Ideal S262144x64 .f32 := Spec.segsum (fun e => segarr8 V c (ix2 0 e)) (valarr8 V c)

/-- What a point that writes the output block back writes is its block of the segment sum. -/
theorem flushed8_2_eq (c : Dev nD) (t : Fin cfg8.N) (hf : (cfg8.win 2).flush t = true) :
    (dat8 V c).flushed 2 t = ((cfg8.win 2).blk t).view.read (Elt Ideal) (G8 V c) := by
  have h1 : t.val % 512 = 511 := by
    by_contra h; rw [noFlush8_2 t h] at hf; exact Bool.false_ne_true hf
  show (cfg8.win 2).cut (grid8.coords t) ((dat8 V c).after 2 t) = _
  rw [after8_2]
  funext j
  have hj0 : (j 0).val < 2048 := (j 0).isLt
  have hj1 : (j 1).val < 64 := (j 1).isLt
  have hx : (cfg8.win 2).xinj (grid8.coords t) j = ix2 (⟨(j 0).val, hj0⟩ : Fin 2048) (⟨(j 1).val, hj1⟩ : Fin 64) := by
    funext a; apply Fin.ext
    match a with
    | ⟨0, _⟩ => rfl
    | ⟨1, _⟩ => rfl
  rw [View.read_apply]
  refine Eq.trans ?_ (cast_eq _ _).symm
  show (outsAt8 V c t.val t.isLt).1 ((cfg8.win 2).xinj (grid8.coords t) j) = _
  rw [hx, out8_last V c t h1, acc8_last V c t h1]
  congr 1
  funext a; apply Fin.ext
  match a with
  | ⟨0, _⟩ =>
    show (t.val / 512) * 2048 + (j 0).val = win8_2.index t (0 : Fin 2) * 2048 + 1 * (j 0).val
    rw [index8_2]; show _ = (t.val / 512) * 2048 + 1 * (j 0).val; omega
  | ⟨1, _⟩ =>
    show (j 1).val = win8_2.index t (1 : Fin 2) * 64 + 1 * (j 1).val
    rw [index8_2]; show _ = 0 * 64 + 1 * (j 1).val; omega

/-- THE VALUE OF THE REGION: its output array ends holding the segment sum of the values array by the segment words. -/
theorem scat8_value (c : Dev nD) :
    (dat8 V c).arrAt 2 cfg8.N = Spec.segsum (fun e => segarr8 V c (ix2 0 e)) (valarr8 V c) :=
  (dat8 V c).arrAt_eq_of_cover 2 (G8 V c) (fun t hf => flushed8_2_eq V c t hf) (fun i => cover8_2 i)

end AtIdeal
end Cert.KernelIdeal.Hand
-- ==== Proof.BridgeScat.lean ====
/- The four segment sums of the network, compared: after the two programs' runs the reference's accumulating scatter
   and the kernel program's one-hot-product region hold the same array, given that their update rows agree and that
   the two programs were launched on the same segment words. Both are the one segment-sum function: the reference's by
   the reading of its scatter, the region's by its value; the kernel program passes the words as a one-row array, which
   reads at (0, e) what the flat array reads at e. -/
import proofs.«406228_j54073638257180_1_alg».proof.Proof.BridgeDefs
import proofs.«406228_j54073638257180_1_alg».proof.Proof.KI.Walk
import proofs.«406228_j54073638257180_1_alg».proof.Proof.Ref.ReadAll
import proofs.«406228_j54073638257180_1_alg».proof.Proof.Ref.ScatterRead
import proofs.«406228_j54073638257180_1_alg».proof.Proof.KI.Scat3Value
import proofs.«406228_j54073638257180_1_alg».proof.Proof.KI.Scat4Value
import proofs.«406228_j54073638257180_1_alg».proof.Proof.KI.Scat7Value
import proofs.«406228_j54073638257180_1_alg».proof.Proof.KI.Scat8Value
import Idealize.ShloMosaic.Lib.Pipeline.Value
import Idealize.ShloMosaic.Lib.ValueIdx

set_option maxRecDepth 16384

noncomputable section

open scoped BigOperators

namespace Cert.Proof.Bridge

open Idealize.ShloMosaic Idealize.ShloMosaic.TcCoe Idealize.SL.Sem Idealize.ShloMosaic.StableHlo Idealize.ShloMosaic.ValueIdx
open Cert.KernelIdeal.Hand Cert.KernelIdeal.Gen Cert.ReferenceIdeal.Hand

/-- The row of segment words the kernel program passes reads, at `(0, e)`, word `e` of the flat array. -/
theorem segRow_apply (s : Vec Ideal KernelIdeal.S2097152 .i32) (e : Fin 2097152) :
    Kst.segRow (F := Ideal) s (ix2 0 e) = s (ix1 e) := by
  unfold Kst.segRow
  refine (shapeCast_addUnit_apply ![2097152] s _ (ix2 0 e)).trans ?_
  congr 1
  funext a
  match a with
  | ⟨0, _⟩ => rfl

/-- The reference's segment sum of the updates `u` by the words `ix` is the segment sum the kernel region computes from
    the same words laid out as a row and the same updates. -/
theorem scat_bridge (ix : IVec ReferenceIdeal.S2097152 32) (u : FVec Ideal ReferenceIdeal.S2097152x64 .f32)
    (segK : Vec Ideal KernelIdeal.S1x2097152 .i32) (valK : Vec Ideal KernelIdeal.S2097152x64 .bf16)
    (hseg : segK = Kst.segRow (F := Ideal) ix) (hval : u = valK) :
    Rst.segsum (F := Ideal) ix u = Spec.segsum (fun e => segK (ix2 0 e)) valK := by
  subst hseg; subst hval
  unfold Rst.segsum
  refine (scatter_read ix u).trans ?_
  congr 1
  funext e
  exact (segRow_apply ix e).symm

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- Layer 1, the aggregate by the row indices: the reference's scatter and the kernel program's region 3 agree. -/
theorem scat_stage3
    (hv : VR m' c (Proc.devRef .tc ReferenceIdeal.main_v69) = W11 m ρ c (Proc.devRef .tc KernelIdeal.main_v64))
    (ha17 : m' ((c.tc : Thread ReferenceIdeal.nD ReferenceIdeal.τ).loc ReferenceIdeal.main_arg17) = m ((c.tc : Thread KernelIdeal.nD KernelIdeal.τ).loc KernelIdeal.main_arg17)) :
    VR m' c (Proc.devRef .tc ReferenceIdeal.main_v81) = W12 m ρ c (Proc.devRef .tc KernelIdeal.main_v76) := by
  refine (R_main_v81 (VR0 m' c)).trans ?_
  refine Eq.trans ?_ ((W12_arr m ρ c 2).trans (scat3_value (V11 m ρ) c)).symm
  exact scat_bridge _ _ _ _ ((walk_11_main_v75 m ρ c).trans (congrArg (Kst.segRow (F := Ideal)) ha17.symm)) hv

/-- Layer 1, the aggregate by the column indices: the reference's scatter and the kernel program's region 4 agree. -/
theorem scat_stage4
    (hv : VR m' c (Proc.devRef .tc ReferenceIdeal.main_v78) = W13 m ρ c (Proc.devRef .tc KernelIdeal.main_v74))
    (ha19 : m' ((c.tc : Thread ReferenceIdeal.nD ReferenceIdeal.τ).loc ReferenceIdeal.main_arg19) = m ((c.tc : Thread KernelIdeal.nD KernelIdeal.τ).loc KernelIdeal.main_arg19)) :
    VR m' c (Proc.devRef .tc ReferenceIdeal.main_v84) = W14 m ρ c (Proc.devRef .tc KernelIdeal.main_v78) := by
  refine (R_main_v84 (VR0 m' c)).trans ?_
  refine Eq.trans ?_ ((W14_arr m ρ c 2).trans (scat4_value (V13 m ρ) c)).symm
  exact scat_bridge _ _ _ _ ((walk_13_main_v77 m ρ c).trans (congrArg (Kst.segRow (F := Ideal)) ha19.symm)) hv

/-- Layer 2, the aggregate by the row indices: the reference's scatter and the kernel program's region 7 agree. -/
theorem scat_stage7
    (hv : VR m' c (Proc.devRef .tc ReferenceIdeal.main_v157) = W25 m ρ c (Proc.devRef .tc KernelIdeal.main_v148))
    (ha17 : m' ((c.tc : Thread ReferenceIdeal.nD ReferenceIdeal.τ).loc ReferenceIdeal.main_arg17) = m ((c.tc : Thread KernelIdeal.nD KernelIdeal.τ).loc KernelIdeal.main_arg17)) :
    VR m' c (Proc.devRef .tc ReferenceIdeal.main_v169) = W26 m ρ c (Proc.devRef .tc KernelIdeal.main_v160) := by
  refine (R_main_v169 (VR0 m' c)).trans ?_
  refine Eq.trans ?_ ((W26_arr m ρ c 2).trans (scat7_value (V25 m ρ) c)).symm
  exact scat_bridge _ _ _ _ ((walk_25_main_v159 m ρ c).trans (congrArg (Kst.segRow (F := Ideal)) ha17.symm)) hv

/-- Layer 2, the aggregate by the column indices: the reference's scatter and the kernel program's region 8 agree. -/
theorem scat_stage8
    (hv : VR m' c (Proc.devRef .tc ReferenceIdeal.main_v166) = W27 m ρ c (Proc.devRef .tc KernelIdeal.main_v158))
    (ha19 : m' ((c.tc : Thread ReferenceIdeal.nD ReferenceIdeal.τ).loc ReferenceIdeal.main_arg19) = m ((c.tc : Thread KernelIdeal.nD KernelIdeal.τ).loc KernelIdeal.main_arg19)) :
    VR m' c (Proc.devRef .tc ReferenceIdeal.main_v172) = W28 m ρ c (Proc.devRef .tc KernelIdeal.main_v162) := by
  refine (R_main_v172 (VR0 m' c)).trans ?_
  refine Eq.trans ?_ ((W28_arr m ρ c 2).trans (scat8_value (V27 m ρ) c)).symm
  exact scat_bridge _ _ _ _ ((walk_27_main_v161 m ρ c).trans (congrArg (Kst.segRow (F := Ideal)) ha19.symm)) hv

end
end Cert.Proof.Bridge
end
-- ==== Proof.BridgeHost.lean ====
/- The host stages of the two programs compared along the run: the normalised input of the first block, the weighted
   edge rows of both blocks, and the final softmax. -/
import proofs.«406228_j54073638257180_1_alg».proof.Proof.BridgeDefs
import proofs.«406228_j54073638257180_1_alg».proof.Proof.KI.Walk
import proofs.«406228_j54073638257180_1_alg».proof.Proof.Ref.ReadAll

/-! # The host stages, program against program

Between its kernel regions the kernel program computes on the host what the reference computes at the same place: the
batch and layer normalisation of the first dense layer's result, per block and direction the rows gathered along the
edges and weighted by the edges' attention, and the softmax of the last dense layer's result. Each stage is the same
function in both programs (the kernel program narrows the weighted rows to bf16, which at the ideal values changes
nothing), so where the stage's inputs agree — an earlier result by hypothesis, an argument by the launch agreement —
its results agree. The kernel program's side is read off the walk along its run's boundaries, the reference's off the
reading of its run stage by stage. -/

set_option maxRecDepth 16384

noncomputable section

namespace Cert.Proof.Bridge

open Idealize.ShloMosaic Idealize.ShloMosaic.TcCoe Idealize.SL.Sem Idealize.ShloMosaic.StableHlo
open Cert.KernelIdeal.Hand (Kst.bn Kst.ln Kst.row Kst.gatt Kst.softmax W2 W7 W8 W9 W10 W11 W13 W22 W24 W25 W27 W34 W35)
open Cert.ReferenceIdeal.Hand (Rst.bn Rst.ln Rst.row0 Rst.gatt Rst.softmax)

/-! ## The stages as functions: equal inputs give equal results across the two spellings -/

/-- The first block's normalisations: batch normalisation, then layer normalisation with row 0 of the two parameter
    tables. -/
theorem lnbn_congr (A B : FVec Ideal ReferenceIdeal.S262144x64 .f32) (g g' b b' : FVec Ideal ReferenceIdeal.S64 .f32)
    (p p' q q' : FVec Ideal ReferenceIdeal.S2x64 .f32)
    (h1 h2 : KernelIdeal.S2x64.Slices ![0, 0] KernelIdeal.S1x64)
    (hA : A = B) (hg : g = g') (hb : b = b') (hp : p = p') (hq : q = q') :
    Rst.ln (Rst.bn A g b) (Rst.row0 p) (Rst.row0 q)
      = Kst.ln (F := Ideal) (Kst.bn B g' b') (Kst.row p' ![0, 0] h1) (Kst.row q' ![0, 0] h2) := by
  subst hA hg hb hp hq
  rfl

/-- The weighted edge rows: at the ideal values the narrowing to bf16 changes nothing. -/
theorem gatt_congr (x x' : FVec Ideal ReferenceIdeal.S262144x64 .f32) (ix ix' : IVec ReferenceIdeal.S2097152 32)
    (att att' : FVec Ideal ReferenceIdeal.S2097152x1 .f32) (hx : x = x') (hix : ix = ix') (hatt : att = att') :
    Rst.gatt x ix att = Kst.gatt (F := Ideal) x' ix' att' := by
  subst hx hix hatt
  rfl

/-- The softmax. -/
theorem softmax_congr (x x' : FVec Ideal ReferenceIdeal.S262144x16 .f32) (hx : x = x') :
    Rst.softmax x = Kst.softmax (F := Ideal) x' := by
  subst hx
  rfl

/-! ## The stages along the run -/

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The normalised input of the first block, where the first of its two dense layers reads it. -/
theorem host_v42_at7
    (e1 : VR m' c (Proc.devRef .tc ReferenceIdeal.main_v3) = W2 m ρ c (Proc.devRef .tc KernelIdeal.main_v1))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8)) :
    VR m' c (Proc.devRef .tc ReferenceIdeal.main_v44) = W7 m ρ c (Proc.devRef .tc KernelIdeal.main_v42) := by
  refine (Cert.ReferenceIdeal.Hand.R_main_v44 (F := Ideal) (VR0 m' c)).trans ?_
  rw [Cert.ReferenceIdeal.Hand.R_main_v22 (F := Ideal) (VR0 m' c)]
  exact (lnbn_congr _ _ _ _ _ _ _ _ _ _ _ _ e1 ha5 ha6 ha7 ha8).trans (Cert.KernelIdeal.Hand.walk_7_main_v42 m ρ c).symm

/-- The same array where the second dense layer reads it: nothing in between writes it. -/
theorem host_v42_at9
    (e1 : VR m' c (Proc.devRef .tc ReferenceIdeal.main_v3) = W2 m ρ c (Proc.devRef .tc KernelIdeal.main_v1))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8)) :
    VR m' c (Proc.devRef .tc ReferenceIdeal.main_v44) = W9 m ρ c (Proc.devRef .tc KernelIdeal.main_v42) := by
  refine (Cert.ReferenceIdeal.Hand.R_main_v44 (F := Ideal) (VR0 m' c)).trans ?_
  rw [Cert.ReferenceIdeal.Hand.R_main_v22 (F := Ideal) (VR0 m' c)]
  exact (lnbn_congr _ _ _ _ _ _ _ _ _ _ _ _ e1 ha5 ha6 ha7 ha8).trans (Cert.KernelIdeal.Hand.walk_9_main_v42 m ρ c).symm

/-- The first block's weighted edge rows, first direction. -/
theorem host_v64_at11
    (e3 : VR m' c (Proc.devRef .tc ReferenceIdeal.main_v52) = W8 m ρ c (Proc.devRef .tc KernelIdeal.main_v48))
    (ha18 : m' ((c.tc : Thread ReferenceIdeal.nD ReferenceIdeal.τ).loc ReferenceIdeal.main_arg18) = m ((c.tc : Thread KernelIdeal.nD KernelIdeal.τ).loc KernelIdeal.main_arg18))
    (ha1 : m' ((c.tc : Thread ReferenceIdeal.nD ReferenceIdeal.τ).loc ReferenceIdeal.main_arg1) = m ((c.tc : Thread KernelIdeal.nD KernelIdeal.τ).loc KernelIdeal.main_arg1)) :
    VR m' c (Proc.devRef .tc ReferenceIdeal.main_v69) = W11 m ρ c (Proc.devRef .tc KernelIdeal.main_v64) := by
  refine (Cert.ReferenceIdeal.Hand.R_main_v69 (F := Ideal) (VR0 m' c)).trans ?_
  exact (gatt_congr _ _ _ _ _ _ e3 ha18 ha1).trans (Cert.KernelIdeal.Hand.walk_11_main_v64 m ρ c).symm

/-- The first block's weighted edge rows, second direction. -/
theorem host_v74_at13
    (e4 : VR m' c (Proc.devRef .tc ReferenceIdeal.main_v60) = W10 m ρ c (Proc.devRef .tc KernelIdeal.main_v54))
    (ha20 : m' ((c.tc : Thread ReferenceIdeal.nD ReferenceIdeal.τ).loc ReferenceIdeal.main_arg20) = m ((c.tc : Thread KernelIdeal.nD KernelIdeal.τ).loc KernelIdeal.main_arg20))
    (ha2 : m' ((c.tc : Thread ReferenceIdeal.nD ReferenceIdeal.τ).loc ReferenceIdeal.main_arg2) = m ((c.tc : Thread KernelIdeal.nD KernelIdeal.τ).loc KernelIdeal.main_arg2)) :
    VR m' c (Proc.devRef .tc ReferenceIdeal.main_v78) = W13 m ρ c (Proc.devRef .tc KernelIdeal.main_v74) := by
  refine (Cert.ReferenceIdeal.Hand.R_main_v78 (F := Ideal) (VR0 m' c)).trans ?_
  exact (gatt_congr _ _ _ _ _ _ e4 ha20 ha2).trans (Cert.KernelIdeal.Hand.walk_13_main_v74 m ρ c).symm

/-- The second block's weighted edge rows, first direction. -/
theorem host_v148_at25
    (e10 : VR m' c (Proc.devRef .tc ReferenceIdeal.main_v140) = W22 m ρ c (Proc.devRef .tc KernelIdeal.main_v132))
    (ha18 : m' ((c.tc : Thread ReferenceIdeal.nD ReferenceIdeal.τ).loc ReferenceIdeal.main_arg18) = m ((c.tc : Thread KernelIdeal.nD KernelIdeal.τ).loc KernelIdeal.main_arg18))
    (ha1 : m' ((c.tc : Thread ReferenceIdeal.nD ReferenceIdeal.τ).loc ReferenceIdeal.main_arg1) = m ((c.tc : Thread KernelIdeal.nD KernelIdeal.τ).loc KernelIdeal.main_arg1)) :
    VR m' c (Proc.devRef .tc ReferenceIdeal.main_v157) = W25 m ρ c (Proc.devRef .tc KernelIdeal.main_v148) := by
  refine (Cert.ReferenceIdeal.Hand.R_main_v157 (F := Ideal) (VR0 m' c)).trans ?_
  exact (gatt_congr _ _ _ _ _ _ e10 ha18 ha1).trans (Cert.KernelIdeal.Hand.walk_25_main_v148 m ρ c).symm

/-- The second block's weighted edge rows, second direction. -/
theorem host_v158_at27
    (e11 : VR m' c (Proc.devRef .tc ReferenceIdeal.main_v148) = W24 m ρ c (Proc.devRef .tc KernelIdeal.main_v138))
    (ha20 : m' ((c.tc : Thread ReferenceIdeal.nD ReferenceIdeal.τ).loc ReferenceIdeal.main_arg20) = m ((c.tc : Thread KernelIdeal.nD KernelIdeal.τ).loc KernelIdeal.main_arg20))
    (ha2 : m' ((c.tc : Thread ReferenceIdeal.nD ReferenceIdeal.τ).loc ReferenceIdeal.main_arg2) = m ((c.tc : Thread KernelIdeal.nD KernelIdeal.τ).loc KernelIdeal.main_arg2)) :
    VR m' c (Proc.devRef .tc ReferenceIdeal.main_v166) = W27 m ρ c (Proc.devRef .tc KernelIdeal.main_v158) := by
  refine (Cert.ReferenceIdeal.Hand.R_main_v166 (F := Ideal) (VR0 m' c)).trans ?_
  exact (gatt_congr _ _ _ _ _ _ e11 ha20 ha2).trans (Cert.KernelIdeal.Hand.walk_27_main_v158 m ρ c).symm

/-- The softmax of the last dense layer's result. -/
theorem host_v201_at35
    (e17 : VR m' c (Proc.devRef .tc ReferenceIdeal.main_v202) = W34 m ρ c (Proc.devRef .tc KernelIdeal.main_v190)) :
    VR m' c (Proc.devRef .tc ReferenceIdeal.main_v213) = W35 m ρ c (Proc.devRef .tc KernelIdeal.main_v201) := by
  refine (Cert.ReferenceIdeal.Hand.R_main_v213 (F := Ideal) (VR0 m' c)).trans ?_
  exact (softmax_congr _ _ e17).trans (Cert.KernelIdeal.Hand.walk_35_main_v201 m ρ c).symm

end

end Cert.Proof.Bridge

end
-- ==== Proof.BridgeNorm.lean ====
/- The host stretches that normalise: the layer-1 input of both programs (the layer norm of layer 0's output) and layer 1's
   output, compared. Each side is read as one expression of the region results and the arguments (the kernel program's by its
   walk over the item boundaries, the reference's by its stage lemmas); the region results agree by hypothesis, the arguments
   by the launch agreement, and the two programs' spellings of batch norm, layer norm, the rectifier and the row selections
   are the same functions by definition. -/
import proofs.«406228_j54073638257180_1_alg».proof.Proof.BridgeDefs
import proofs.«406228_j54073638257180_1_alg».proof.Proof.KI.Walk
import proofs.«406228_j54073638257180_1_alg».proof.Proof.Ref.ReadAll

noncomputable section

namespace Cert.Proof.Bridge

open Idealize.ShloMosaic Idealize.ShloMosaic.TcCoe Idealize.SL.Sem Idealize.ShloMosaic.StableHlo
open Cert.KernelIdeal.Hand Cert.ReferenceIdeal.Hand

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- Layer 1's input as one expression of the stem's product, layer 0's two segment sums and the parameter tables: the
    reference program's spelling and the kernel program's are the same function of equal arguments. -/
theorem layer1_in_congr (A B ro ro' co co' : FVec Ideal ReferenceIdeal.S262144x64 .f32) (g g' b b' : FVec Ideal ReferenceIdeal.S64 .f32)
    (p p' q q' s s' t t' : FVec Ideal ReferenceIdeal.S2x64 .f32)
    (h1 h2 h3 h4 : KernelIdeal.S2x64.Slices ![0, 0] KernelIdeal.S1x64) (h5 h6 : KernelIdeal.S2x64.Slices ![1, 0] KernelIdeal.S1x64)
    (hA : A = B) (hro : ro = ro') (hco : co = co') (hg : g = g') (hb : b = b') (hp : p = p') (hq : q = q') (hs : s = s') (ht : t = t') :
    Rst.ln (Rst.lrelu (Rst.bn (Rst.sum3 ro co (Rst.ln (Rst.bn A g b) (Rst.row0 p) (Rst.row0 q))) (Rst.row0 s) (Rst.row0 t)))
        (Rst.row1 p) (Rst.row1 q)
      = Kst.ln (F := Ideal) (Kst.layerOut ro' co' (Kst.ln (Kst.bn B g' b') (Kst.row p' ![0, 0] h1) (Kst.row q' ![0, 0] h2))
          (Kst.row s' ![0, 0] h3) (Kst.row t' ![0, 0] h4)) (Kst.row p' ![1, 0] h5) (Kst.row q' ![1, 0] h6) := by
  subst hA hro hco hg hb hp hq hs ht
  rfl

/-- Layer 1's output as one expression of layer 1's two segment sums and layer 1's input (itself `layer1_in_congr`'s
    expression): again one function of equal arguments. -/
theorem layer1_out_congr (X Y ro ro' co co' : FVec Ideal ReferenceIdeal.S262144x64 .f32) (s s' t t' : FVec Ideal ReferenceIdeal.S2x64 .f32)
    (h7 h8 : KernelIdeal.S2x64.Slices ![1, 0] KernelIdeal.S1x64)
    (hX : X = Y) (hro : ro = ro') (hco : co = co') (hs : s = s') (ht : t = t') :
    Rst.lrelu (Rst.bn (Rst.sum3 ro co X) (Rst.row1 s) (Rst.row1 t))
      = Kst.layerOut (F := Ideal) ro' co' Y (Kst.row s' ![1, 0] h7) (Kst.row t' ![1, 0] h8) := by
  subst hX hro hco hs ht
  rfl

/-- Layer 1's input, at the entry of the row-value product. -/
theorem host_v126_at21
    (e1 : VR m' c (Proc.devRef .tc ReferenceIdeal.main_v3) = W2 m ρ c (Proc.devRef .tc KernelIdeal.main_v1))
    (e7 : VR m' c (Proc.devRef .tc ReferenceIdeal.main_v81) = W12 m ρ c (Proc.devRef .tc KernelIdeal.main_v76))
    (e8 : VR m' c (Proc.devRef .tc ReferenceIdeal.main_v84) = W14 m ρ c (Proc.devRef .tc KernelIdeal.main_v78))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8))
    (ha13 : m' ((c.tc : Thread ReferenceIdeal.nD ReferenceIdeal.τ).loc ReferenceIdeal.main_arg13) = m ((c.tc : Thread KernelIdeal.nD KernelIdeal.τ).loc KernelIdeal.main_arg13))
    (ha14 : m' ((c.tc : Thread ReferenceIdeal.nD ReferenceIdeal.τ).loc ReferenceIdeal.main_arg14) = m ((c.tc : Thread KernelIdeal.nD KernelIdeal.τ).loc KernelIdeal.main_arg14)) :
    VR m' c (Proc.devRef .tc ReferenceIdeal.main_v132) = W21 m ρ c (Proc.devRef .tc KernelIdeal.main_v126) := by
  refine (R_main_v132 (F := Ideal) (VR0 m' c)).trans ?_
  rw [R_main_v110' (F := Ideal) (VR0 m' c), R_main_v86 (F := Ideal) (VR0 m' c), R_main_v44 (F := Ideal) (VR0 m' c),
    R_main_v22 (F := Ideal) (VR0 m' c)]
  exact (layer1_in_congr _ _ _ _ _ _ _ _ _ _ _ _ _ _ _ _ _ _ _ _ _ _ _ _ e1 e7 e8 ha5 ha6 ha7 ha8 ha13 ha14).trans
    (walk_21_main_v126 m ρ c).symm

/-- Layer 1's input, at the entry of the column-value product. -/
theorem host_v126_at23
    (e1 : VR m' c (Proc.devRef .tc ReferenceIdeal.main_v3) = W2 m ρ c (Proc.devRef .tc KernelIdeal.main_v1))
    (e7 : VR m' c (Proc.devRef .tc ReferenceIdeal.main_v81) = W12 m ρ c (Proc.devRef .tc KernelIdeal.main_v76))
    (e8 : VR m' c (Proc.devRef .tc ReferenceIdeal.main_v84) = W14 m ρ c (Proc.devRef .tc KernelIdeal.main_v78))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8))
    (ha13 : m' ((c.tc : Thread ReferenceIdeal.nD ReferenceIdeal.τ).loc ReferenceIdeal.main_arg13) = m ((c.tc : Thread KernelIdeal.nD KernelIdeal.τ).loc KernelIdeal.main_arg13))
    (ha14 : m' ((c.tc : Thread ReferenceIdeal.nD ReferenceIdeal.τ).loc ReferenceIdeal.main_arg14) = m ((c.tc : Thread KernelIdeal.nD KernelIdeal.τ).loc KernelIdeal.main_arg14)) :
    VR m' c (Proc.devRef .tc ReferenceIdeal.main_v132) = W23 m ρ c (Proc.devRef .tc KernelIdeal.main_v126) := by
  refine (R_main_v132 (F := Ideal) (VR0 m' c)).trans ?_
  rw [R_main_v110' (F := Ideal) (VR0 m' c), R_main_v86 (F := Ideal) (VR0 m' c), R_main_v44 (F := Ideal) (VR0 m' c),
    R_main_v22 (F := Ideal) (VR0 m' c)]
  exact (layer1_in_congr _ _ _ _ _ _ _ _ _ _ _ _ _ _ _ _ _ _ _ _ _ _ _ _ e1 e7 e8 ha5 ha6 ha7 ha8 ha13 ha14).trans
    (walk_23_main_v126 m ρ c).symm

/-- Layer 1's output, at the entry of the last product. -/
theorem host_v188_at33
    (e1 : VR m' c (Proc.devRef .tc ReferenceIdeal.main_v3) = W2 m ρ c (Proc.devRef .tc KernelIdeal.main_v1))
    (e7 : VR m' c (Proc.devRef .tc ReferenceIdeal.main_v81) = W12 m ρ c (Proc.devRef .tc KernelIdeal.main_v76))
    (e8 : VR m' c (Proc.devRef .tc ReferenceIdeal.main_v84) = W14 m ρ c (Proc.devRef .tc KernelIdeal.main_v78))
    (e14 : VR m' c (Proc.devRef .tc ReferenceIdeal.main_v169) = W26 m ρ c (Proc.devRef .tc KernelIdeal.main_v160))
    (e15 : VR m' c (Proc.devRef .tc ReferenceIdeal.main_v172) = W28 m ρ c (Proc.devRef .tc KernelIdeal.main_v162))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8))
    (ha13 : m' ((c.tc : Thread ReferenceIdeal.nD ReferenceIdeal.τ).loc ReferenceIdeal.main_arg13) = m ((c.tc : Thread KernelIdeal.nD KernelIdeal.τ).loc KernelIdeal.main_arg13))
    (ha14 : m' ((c.tc : Thread ReferenceIdeal.nD ReferenceIdeal.τ).loc ReferenceIdeal.main_arg14) = m ((c.tc : Thread KernelIdeal.nD KernelIdeal.τ).loc KernelIdeal.main_arg14)) :
    VR m' c (Proc.devRef .tc ReferenceIdeal.main_v198) = W33 m ρ c (Proc.devRef .tc KernelIdeal.main_v188) := by
  refine (R_main_v198' (F := Ideal) (VR0 m' c)).trans ?_
  rw [R_main_v174 (F := Ideal) (VR0 m' c), R_main_v132 (F := Ideal) (VR0 m' c), R_main_v110' (F := Ideal) (VR0 m' c),
    R_main_v86 (F := Ideal) (VR0 m' c), R_main_v44 (F := Ideal) (VR0 m' c), R_main_v22 (F := Ideal) (VR0 m' c)]
  exact (layer1_out_congr _ _ _ _ _ _ _ _ _ _ _ _
      (layer1_in_congr _ _ _ _ _ _ _ _ _ _ _ _ _ _ _ _ _ _ _ _ _ _ _ _ e1 e7 e8 ha5 ha6 ha7 ha8 ha13 ha14) e14 e15 ha13 ha14).trans
    (walk_33_main_v188 m ρ c).symm

end Cert.Proof.Bridge

end
-- ==== Proof.Bridge.lean ====
/- The two programs compared at the ideal values. The kernel program's result is read at its last item boundary, the
   reference program's as the fold of its host operations; from launch memories that agree on the arguments the two are
   equal, region by region: each region's result (a dense product or a segment sum) equals the reference's corresponding
   array once its operands do, and the host stretches between the regions compute the same functions of them. The
   algebraic claim follows from the two runs. -/
import proofs.«406228_j54073638257180_1_alg».proof.Defs
import proofs.«406228_j54073638257180_1_alg».proof.Proof.Gen.KernelIdeal
import proofs.«406228_j54073638257180_1_alg».proof.Proof.Gen.ReferenceIdeal
import proofs.«406228_j54073638257180_1_alg».proof.Proof.Gen.Pre_finite_inputs
import proofs.«406228_j54073638257180_1_alg».proof.Proof.BridgeDefs
import proofs.«406228_j54073638257180_1_alg».proof.Proof.BridgeDense
import proofs.«406228_j54073638257180_1_alg».proof.Proof.BridgeScat
import proofs.«406228_j54073638257180_1_alg».proof.Proof.BridgeHost
import proofs.«406228_j54073638257180_1_alg».proof.Proof.BridgeNorm
import proofs.«406228_j54073638257180_1_alg».proof.Proof.KI.Run
import proofs.«406228_j54073638257180_1_alg».proof.Proof.Ref.Run

noncomputable section

namespace Cert.Proof.Bridge

open Idealize.ShloMosaic Idealize.ShloMosaic.TcCoe Idealize.SL.Sem Idealize.ShloMosaic.StableHlo
open Cert.KernelIdeal.Hand Cert.ReferenceIdeal.Hand

/-- From launch memories that agree on the 21 arguments, the reference program's result array (the fold of its operations
    at its result buffer) is the kernel program's (its result buffer at the last item boundary). -/
theorem result_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (ha0 : m' ((c.tc : Thread ReferenceIdeal.nD ReferenceIdeal.τ).loc ReferenceIdeal.main_arg0) = m ((c.tc : Thread KernelIdeal.nD KernelIdeal.τ).loc KernelIdeal.main_arg0))
    (ha1 : m' ((c.tc : Thread ReferenceIdeal.nD ReferenceIdeal.τ).loc ReferenceIdeal.main_arg1) = m ((c.tc : Thread KernelIdeal.nD KernelIdeal.τ).loc KernelIdeal.main_arg1))
    (ha2 : m' ((c.tc : Thread ReferenceIdeal.nD ReferenceIdeal.τ).loc ReferenceIdeal.main_arg2) = m ((c.tc : Thread KernelIdeal.nD KernelIdeal.τ).loc KernelIdeal.main_arg2))
    (ha3 : m' ((c.tc : Thread ReferenceIdeal.nD ReferenceIdeal.τ).loc ReferenceIdeal.main_arg3) = m ((c.tc : Thread KernelIdeal.nD KernelIdeal.τ).loc KernelIdeal.main_arg3))
    (ha4 : m' ((c.tc : Thread ReferenceIdeal.nD ReferenceIdeal.τ).loc ReferenceIdeal.main_arg4) = m ((c.tc : Thread KernelIdeal.nD KernelIdeal.τ).loc KernelIdeal.main_arg4))
    (ha5 : m' ((c.tc : Thread ReferenceIdeal.nD ReferenceIdeal.τ).loc ReferenceIdeal.main_arg5) = m ((c.tc : Thread KernelIdeal.nD KernelIdeal.τ).loc KernelIdeal.main_arg5))
    (ha6 : m' ((c.tc : Thread ReferenceIdeal.nD ReferenceIdeal.τ).loc ReferenceIdeal.main_arg6) = m ((c.tc : Thread KernelIdeal.nD KernelIdeal.τ).loc KernelIdeal.main_arg6))
    (ha7 : m' ((c.tc : Thread ReferenceIdeal.nD ReferenceIdeal.τ).loc ReferenceIdeal.main_arg7) = m ((c.tc : Thread KernelIdeal.nD KernelIdeal.τ).loc KernelIdeal.main_arg7))
    (ha8 : m' ((c.tc : Thread ReferenceIdeal.nD ReferenceIdeal.τ).loc ReferenceIdeal.main_arg8) = m ((c.tc : Thread KernelIdeal.nD KernelIdeal.τ).loc KernelIdeal.main_arg8))
    (ha9 : m' ((c.tc : Thread ReferenceIdeal.nD ReferenceIdeal.τ).loc ReferenceIdeal.main_arg9) = m ((c.tc : Thread KernelIdeal.nD KernelIdeal.τ).loc KernelIdeal.main_arg9))
    (ha10 : m' ((c.tc : Thread ReferenceIdeal.nD ReferenceIdeal.τ).loc ReferenceIdeal.main_arg10) = m ((c.tc : Thread KernelIdeal.nD KernelIdeal.τ).loc KernelIdeal.main_arg10))
    (ha11 : m' ((c.tc : Thread ReferenceIdeal.nD ReferenceIdeal.τ).loc ReferenceIdeal.main_arg11) = m ((c.tc : Thread KernelIdeal.nD KernelIdeal.τ).loc KernelIdeal.main_arg11))
    (ha12 : m' ((c.tc : Thread ReferenceIdeal.nD ReferenceIdeal.τ).loc ReferenceIdeal.main_arg12) = m ((c.tc : Thread KernelIdeal.nD KernelIdeal.τ).loc KernelIdeal.main_arg12))
    (ha13 : m' ((c.tc : Thread ReferenceIdeal.nD ReferenceIdeal.τ).loc ReferenceIdeal.main_arg13) = m ((c.tc : Thread KernelIdeal.nD KernelIdeal.τ).loc KernelIdeal.main_arg13))
    (ha14 : m' ((c.tc : Thread ReferenceIdeal.nD ReferenceIdeal.τ).loc ReferenceIdeal.main_arg14) = m ((c.tc : Thread KernelIdeal.nD KernelIdeal.τ).loc KernelIdeal.main_arg14))
    (ha15 : m' ((c.tc : Thread ReferenceIdeal.nD ReferenceIdeal.τ).loc ReferenceIdeal.main_arg15) = m ((c.tc : Thread KernelIdeal.nD KernelIdeal.τ).loc KernelIdeal.main_arg15))
    (ha16 : m' ((c.tc : Thread ReferenceIdeal.nD ReferenceIdeal.τ).loc ReferenceIdeal.main_arg16) = m ((c.tc : Thread KernelIdeal.nD KernelIdeal.τ).loc KernelIdeal.main_arg16))
    (ha17 : m' ((c.tc : Thread ReferenceIdeal.nD ReferenceIdeal.τ).loc ReferenceIdeal.main_arg17) = m ((c.tc : Thread KernelIdeal.nD KernelIdeal.τ).loc KernelIdeal.main_arg17))
    (ha18 : m' ((c.tc : Thread ReferenceIdeal.nD ReferenceIdeal.τ).loc ReferenceIdeal.main_arg18) = m ((c.tc : Thread KernelIdeal.nD KernelIdeal.τ).loc KernelIdeal.main_arg18))
    (ha19 : m' ((c.tc : Thread ReferenceIdeal.nD ReferenceIdeal.τ).loc ReferenceIdeal.main_arg19) = m ((c.tc : Thread KernelIdeal.nD KernelIdeal.τ).loc KernelIdeal.main_arg19))
    (ha20 : m' ((c.tc : Thread ReferenceIdeal.nD ReferenceIdeal.τ).loc ReferenceIdeal.main_arg20) = m ((c.tc : Thread KernelIdeal.nD KernelIdeal.τ).loc KernelIdeal.main_arg20)) :
    VR m' c (Proc.devRef .tc ReferenceIdeal.main_v213) = W35 m ρ c (Proc.devRef .tc KernelIdeal.main_v201) := by
  -- the stem: the first dense product, then batch norm and layer norm
  have e1 := dense_stage0 m ρ m' c ha0 ha3 ha4
  have x7 := host_v42_at7 m ρ m' c e1 ha5 ha6 ha7 ha8
  have x9 := host_v42_at9 m ρ m' c e1 ha5 ha6 ha7 ha8
  -- layer 0: the two value products, the weighted gathered rows, the two segment sums
  have e3 := dense_stage1 m ρ m' c x7 ha9 ha10
  have e4 := dense_stage2 m ρ m' c x9 ha11 ha12
  have e5 := host_v64_at11 m ρ m' c e3 ha18 ha1
  have e6 := host_v74_at13 m ρ m' c e4 ha20 ha2
  have e7 := scat_stage3 m ρ m' c e5 ha17
  have e8 := scat_stage4 m ρ m' c e6 ha19
  -- layer 0's output, normalised: layer 1's input
  have y21 := host_v126_at21 m ρ m' c e1 e7 e8 ha5 ha6 ha7 ha8 ha13 ha14
  have y23 := host_v126_at23 m ρ m' c e1 e7 e8 ha5 ha6 ha7 ha8 ha13 ha14
  -- layer 1
  have e10 := dense_stage5 m ρ m' c y21 ha9 ha10
  have e11 := dense_stage6 m ρ m' c y23 ha11 ha12
  have e12 := host_v148_at25 m ρ m' c e10 ha18 ha1
  have e13 := host_v158_at27 m ρ m' c e11 ha20 ha2
  have e14 := scat_stage7 m ρ m' c e12 ha17
  have e15 := scat_stage8 m ρ m' c e13 ha19
  -- layer 1's output, the last product, the softmax
  have e16 := host_v188_at33 m ρ m' c e1 e7 e8 e14 e15 ha5 ha6 ha7 ha8 ha13 ha14
  have e17 := dense_stage9 m ρ m' c e16 ha15 ha16
  exact host_v201_at35 m ρ m' c e17

end Cert.Proof.Bridge

namespace Cert.Proof

open Idealize.ShloMosaic Idealize.ShloMosaic.TcCoe Idealize.SL.Sem

/-- At the ideal values, from memories agreeing on the arguments, both programs run, their result arrays are equal
    (`Bridge.result_eq`) and each leaves its arguments unchanged. -/
theorem algebraic : Cert.algebraic_KernelIdeal_ReferenceIdeal := by
  intro m g m' g' _ hagree
  refine ⟨_, Cert.KernelIdeal.Hand.frame_value (F := Ideal) m g, ?_⟩
  refine (θ_run Cert.ReferenceIdeal.defs _ _).mono (fun _ h c => ⟨(h c).1.trans ?_, (h c).2⟩)
    (Cert.ReferenceIdeal.Hand.run (F := Ideal) m' g')
  obtain ⟨ha0, ha1, ha2, ha3, ha4, ha5, ha6, ha7, ha8, ha9, ha10, ha11, ha12, ha13, ha14, ha15, ha16, ha17, ha18, ha19, ha20⟩ := hagree c
  exact Bridge.result_eq m g m' c ha0 ha1 ha2 ha3 ha4 ha5 ha6 ha7 ha8 ha9 ha10 ha11 ha12 ha13 ha14 ha15 ha16 ha17 ha18 ha19 ha20

end Cert.Proof

end
-- ==== Proof.lean ====
/-
  The certificate of a two-layer graph network (dense stem, batch norm, per layer: layer norm, two dense maps, gather
  weighted by attention, two segment sums, residual add, batch norm, leaky relu; dense head, softmax) whose dense maps
  and segment sums run as TensorCore kernels, against the same network in plain array operations.

  The frames. Each program's @main is read item by item. For the kernel program the items are stretches of host
  operations and ten kernel regions; the buffer contents at every item boundary are a fold from the launch memory, a dense
  region leaving each row block at the block's product plus the bias row, a segment-sum region leaving each block of
  node rows at the accumulator after the last edge block. Every execution terminates, nothing faults, and no item writes
  an argument array. The reference program is a single stretch of host operations.

  The value claim. At the ideal instance a row block's matrix product is the exact contraction, so the dense regions
  are the reference's contraction plus bias; the one-hot product summed over the edge blocks is, node by node, the sum of
  the edge values whose segment id is that node, which is what the reference's accumulating scatter computes (an id outside
  the node range matches no node and is dropped by both); every other operation is the same host operation on both sides.
-/
import proofs.«406228_j54073638257180_1_alg».proof.Defs
import proofs.«406228_j54073638257180_1_alg».proof.Proof.Gen.Kernel
import proofs.«406228_j54073638257180_1_alg».proof.Proof.Gen.KernelIdeal
import proofs.«406228_j54073638257180_1_alg».proof.Proof.Gen.ReferenceIdeal
import proofs.«406228_j54073638257180_1_alg».proof.Proof.Gen.Pre_finite_inputs
import proofs.«406228_j54073638257180_1_alg».proof.Proof.K.Run
import proofs.«406228_j54073638257180_1_alg».proof.Proof.KI.Run
import proofs.«406228_j54073638257180_1_alg».proof.Proof.Ref.Run
import proofs.«406228_j54073638257180_1_alg».proof.Proof.Bridge

noncomputable section

namespace Cert.Proof

open Idealize.ShloMosaic Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => (θ_run _ _ _).mono (fun _ h c => (h c).2) (Cert.Kernel.Hand.frame_value (F := Bits) m ρ)

/-- So does the kernel program read at the ideal instance. -/
theorem frame_kernelIdeal : Cert.frame_KernelIdeal (hKernelIdeal := Cert.KernelIdeal.Gen.facts) (hPre_finite_inputs := Cert.Pre_finite_inputs.Gen.facts) :=
  fun m ρ _ => (θ_run _ _ _).mono (fun _ h c => (h c).2) (Cert.KernelIdeal.Hand.frame_value (F := Ideal) m ρ)

/-- And the reference. -/
theorem frame_referenceIdeal : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
